-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.truncf_extf.Statement Cert.KernelIdeal.S32x8192 .f32 .bf16
  ∧ IdealRules.truncf_extf.Statement Cert.KernelIdeal.S32x8192 .f32 .bf16
  ∧ IdealRules.named_const.Statement Cert.KernelIdeal.κ "neg_big" .f32 0xF149F2CA#32 ⊥
  ∧ IdealRules.truncf_extf.Statement Cert.KernelIdeal.S64x8192 .f32 .bf16
  ∧ IdealRules.truncf_extf.Statement Cert.KernelIdeal.S64x8192 .f32 .bf16
  ∧ IdealRules.named_const.Statement Cert.KernelIdeal.κ "neg_big" .f32 0xF149F2CA#32 ⊥
  ∧ IdealRules.truncf_extf.Statement Cert.KernelIdeal.S128x2048 .f32 .bf16
  ∧ IdealRules.truncf_extf.Statement Cert.KernelIdeal.S128x2048 .f32 .bf16
  ∧ IdealRules.named_const.Statement Cert.KernelIdeal.κ "neg_big" .f32 0xF149F2CA#32 ⊥
  ∧ IdealRules.truncf_extf.Statement Cert.KernelIdeal.S256x256 .f32 .bf16
  ∧ IdealRules.truncf_extf.Statement Cert.KernelIdeal.S256x256 .f32 .bf16
  ∧ IdealRules.named_const.Statement Cert.KernelIdeal.κ "neg_big" .f32 0xF149F2CA#32 ⊥
  ∧ IdealRules.truncf_extf.Statement Cert.KernelIdeal.S256x256 .f32 .bf16
  ∧ IdealRules.truncf_extf.Statement Cert.KernelIdeal.S256x256 .f32 .bf16
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x32x64x64 : Shape := ⟨5, ![4, 32, 32, 64, 64]⟩
abbrev S4x64x16x32x32 : Shape := ⟨5, ![4, 64, 16, 32, 32]⟩
abbrev S4x128x8x16x16 : Shape := ⟨5, ![4, 128, 8, 16, 16]⟩
abbrev S4x256x4x8x8 : Shape := ⟨5, ![4, 256, 4, 8, 8]⟩
abbrev S64 : Shape := ⟨1, ![64]⟩
abbrev S_ : Shape := ⟨0, ![]⟩

class Facts : Prop where
  bcast_S_S4x32x32x64x64 : S_.BroadcastsInDim S4x32x32x64x64 (![] : Fin 0 → Fin S4x32x32x64x64.rank)
  reducesTo_S4x32x32x64x64_S_d0_1_2_3_4 : S4x32x32x64x64.ReducesTo [0, 1, 2, 3, 4] S_
  h_S_ : 0 < S_.numel
  bcast_S_S4x64x16x32x32 : S_.BroadcastsInDim S4x64x16x32x32 (![] : Fin 0 → Fin S4x64x16x32x32.rank)
  reducesTo_S4x64x16x32x32_S_d0_1_2_3_4 : S4x64x16x32x32.ReducesTo [0, 1, 2, 3, 4] S_
  bcast_S_S4x128x8x16x16 : S_.BroadcastsInDim S4x128x8x16x16 (![] : Fin 0 → Fin S4x128x8x16x16.rank)
  reducesTo_S4x128x8x16x16_S_d0_1_2_3_4 : S4x128x8x16x16.ReducesTo [0, 1, 2, 3, 4] S_
  bcast_S_S4x256x4x8x8 : S_.BroadcastsInDim S4x256x4x8x8 (![] : Fin 0 → Fin S4x256x4x8x8.rank)
  reducesTo_S4x256x4x8x8_S_d0_1_2_3_4 : S4x256x4x8x8.ReducesTo [0, 1, 2, 3, 4] S_
  bcast_S_S64 : S_.BroadcastsInDim S64 (![] : Fin 0 → Fin S64.rank)
  reducesTo_S64_S_d0 : S64.ReducesTo [0] S_

variable [Facts]

def fn_part5 {F : FTy → Type} [FloatOps F] (main_arg14 : IVec S64 32) (main_v80 : IVec S_ 1) (main_v82 : IVec S64 1) : IVec S_ 1 :=
  let main_c_35 : IVec S_ 1 := constantI S_ 1 1#1
  let main_v83 : IVec S_ 1 := (fun x v => Host.reduce IntOp.andi x v reducesTo_S64_S_d0 h_S_) main_v82 main_c_35
  let main_v84 : IVec S_ 1 := andi main_v80 main_v83
  let main_c_36 : IVec S_ 32 := constantI S_ 32 256#32
  let main_v85 : IVec S64 32 := broadcastInDim S64 ![] bcast_S_S64 main_c_36
  let main_v86 : IVec S64 1 := cmpi .slt main_arg14 main_v85
  let main_c_37 : IVec S_ 1 := constantI S_ 1 1#1
  let main_v87 : IVec S_ 1 := (fun x v => Host.reduce IntOp.andi x v reducesTo_S64_S_d0 h_S_) main_v86 main_c_37
  let main_v88 : IVec S_ 1 := andi main_v84 main_v87
  main_v88

def fn_part4 {F : FTy → Type} [FloatOps F] (main_arg12 : IVec S64 32) (main_arg13 : IVec S64 32) (main_arg14 : IVec S64 32) (main_v64 : IVec S_ 1) (main_v66 : IVec S64 1) : IVec S_ 1 :=
  let main_c_27 : IVec S_ 1 := constantI S_ 1 1#1
  let main_v67 : IVec S_ 1 := (fun x v => Host.reduce IntOp.andi x v reducesTo_S64_S_d0 h_S_) main_v66 main_c_27
  let main_v68 : IVec S_ 1 := andi main_v64 main_v67
  let main_c_28 : IVec S_ 32 := constantI S_ 32 2048#32
  let main_v69 : IVec S64 32 := broadcastInDim S64 ![] bcast_S_S64 main_c_28
  let main_v70 : IVec S64 1 := cmpi .slt main_arg12 main_v69
  let main_c_29 : IVec S_ 1 := constantI S_ 1 1#1
  let main_v71 : IVec S_ 1 := (fun x v => Host.reduce IntOp.andi x v reducesTo_S64_S_d0 h_S_) main_v70 main_c_29
  let main_v72 : IVec S_ 1 := andi main_v68 main_v71
  let main_c_30 : IVec S_ 32 := constantI S_ 32 0#32
  let main_v73 : IVec S64 32 := broadcastInDim S64 ![] bcast_S_S64 main_c_30
  let main_v74 : IVec S64 1 := cmpi .sge main_arg13 main_v73
  let main_c_31 : IVec S_ 1 := constantI S_ 1 1#1
  let main_v75 : IVec S_ 1 := (fun x v => Host.reduce IntOp.andi x v reducesTo_S64_S_d0 h_S_) main_v74 main_c_31
  let main_v76 : IVec S_ 1 := andi main_v72 main_v75
  let main_c_32 : IVec S_ 32 := constantI S_ 32 256#32
  let main_v77 : IVec S64 32 := broadcastInDim S64 ![] bcast_S_S64 main_c_32
  let main_v78 : IVec S64 1 := cmpi .slt main_arg13 main_v77
  let main_c_33 : IVec S_ 1 := constantI S_ 1 1#1
  let main_v79 : IVec S_ 1 := (fun x v => Host.reduce IntOp.andi x v reducesTo_S64_S_d0 h_S_) main_v78 main_c_33
  let main_v80 : IVec S_ 1 := andi main_v76 main_v79
  let main_c_34 : IVec S_ 32 := constantI S_ 32 0#32
  let main_v81 : IVec S64 32 := broadcastInDim S64 ![] bcast_S_S64 main_c_34
  let main_v82 : IVec S64 1 := cmpi .sge main_arg14 main_v81
  fn_part5 (F := F) main_arg14 main_v80 main_v82

def fn_part3 {F : FTy → Type} [FloatOps F] (main_arg10 : IVec S64 32) (main_arg11 : IVec S64 32) (main_arg12 : IVec S64 32) (main_arg13 : IVec S64 32) (main_arg14 : IVec S64 32) (main_v48 : IVec S_ 1) (main_v50 : IVec S64 1) : IVec S_ 1 :=
  let main_c_19 : IVec S_ 1 := constantI S_ 1 1#1
  let main_v51 : IVec S_ 1 := (fun x v => Host.reduce IntOp.andi x v reducesTo_S64_S_d0 h_S_) main_v50 main_c_19
  let main_v52 : IVec S_ 1 := andi main_v48 main_v51
  let main_c_20 : IVec S_ 32 := constantI S_ 32 131072#32
  let main_v53 : IVec S64 32 := broadcastInDim S64 ![] bcast_S_S64 main_c_20
  let main_v54 : IVec S64 1 := cmpi .slt main_arg10 main_v53
  let main_c_21 : IVec S_ 1 := constantI S_ 1 1#1
  let main_v55 : IVec S_ 1 := (fun x v => Host.reduce IntOp.andi x v reducesTo_S64_S_d0 h_S_) main_v54 main_c_21
  let main_v56 : IVec S_ 1 := andi main_v52 main_v55
  let main_c_22 : IVec S_ 32 := constantI S_ 32 0#32
  let main_v57 : IVec S64 32 := broadcastInDim S64 ![] bcast_S_S64 main_c_22
  let main_v58 : IVec S64 1 := cmpi .sge main_arg11 main_v57
  let main_c_23 : IVec S_ 1 := constantI S_ 1 1#1
  let main_v59 : IVec S_ 1 := (fun x v => Host.reduce IntOp.andi x v reducesTo_S64_S_d0 h_S_) main_v58 main_c_23
  let main_v60 : IVec S_ 1 := andi main_v56 main_v59
  let main_c_24 : IVec S_ 32 := constantI S_ 32 16384#32
  let main_v61 : IVec S64 32 := broadcastInDim S64 ![] bcast_S_S64 main_c_24
  let main_v62 : IVec S64 1 := cmpi .slt main_arg11 main_v61
  let main_c_25 : IVec S_ 1 := constantI S_ 1 1#1
  let main_v63 : IVec S_ 1 := (fun x v => Host.reduce IntOp.andi x v reducesTo_S64_S_d0 h_S_) main_v62 main_c_25
  let main_v64 : IVec S_ 1 := andi main_v60 main_v63
  let main_c_26 : IVec S_ 32 := constantI S_ 32 0#32
  let main_v65 : IVec S64 32 := broadcastInDim S64 ![] bcast_S_S64 main_c_26
  let main_v66 : IVec S64 1 := cmpi .sge main_arg12 main_v65
  fn_part4 (F := F) main_arg12 main_arg13 main_arg14 main_v64 main_v66

def fn_part2 {F : FTy → Type} [FloatOps F] (main_arg7 : FVec F S4x128x8x16x16 .f32) (main_arg8 : FVec F S4x256x4x8x8 .f32) (main_arg9 : FVec F S4x256x4x8x8 .f32) (main_arg10 : IVec S64 32) (main_arg11 : IVec S64 32) (main_arg12 : IVec S64 32) (main_arg13 : IVec S64 32) (main_arg14 : IVec S64 32) (main_v33 : IVec S_ 1) : IVec S_ 1 :=
  let main_v34 : FVec F S4x128x8x16x16 .f32 := Host.absf main_arg7
  let main_cst_12 : FVec F S_ .f32 := constant S_ .f32 0x7F800000#32
  let main_v35 : FVec F S4x128x8x16x16 .f32 := broadcastInDim S4x128x8x16x16 ![] bcast_S_S4x128x8x16x16 main_cst_12
  let main_v36 : IVec S4x128x8x16x16 1 := cmpf .olt main_v34 main_v35
  let main_c_13 : IVec S_ 1 := constantI S_ 1 1#1
  let main_v37 : IVec S_ 1 := (fun x v => Host.reduce IntOp.andi x v reducesTo_S4x128x8x16x16_S_d0_1_2_3_4 h_S_) main_v36 main_c_13
  let main_v38 : IVec S_ 1 := andi main_v33 main_v37
  let main_v39 : FVec F S4x256x4x8x8 .f32 := Host.absf main_arg8
  let main_cst_14 : FVec F S_ .f32 := constant S_ .f32 0x7F800000#32
  let main_v40 : FVec F S4x256x4x8x8 .f32 := broadcastInDim S4x256x4x8x8 ![] bcast_S_S4x256x4x8x8 main_cst_14
  let main_v41 : IVec S4x256x4x8x8 1 := cmpf .olt main_v39 main_v40
  let main_c_15 : IVec S_ 1 := constantI S_ 1 1#1
  let main_v42 : IVec S_ 1 := (fun x v => Host.reduce IntOp.andi x v reducesTo_S4x256x4x8x8_S_d0_1_2_3_4 h_S_) main_v41 main_c_15
  let main_v43 : IVec S_ 1 := andi main_v38 main_v42
  let main_v44 : FVec F S4x256x4x8x8 .f32 := Host.absf main_arg9
  let main_cst_16 : FVec F S_ .f32 := constant S_ .f32 0x7F800000#32
  let main_v45 : FVec F S4x256x4x8x8 .f32 := broadcastInDim S4x256x4x8x8 ![] bcast_S_S4x256x4x8x8 main_cst_16
  let main_v46 : IVec S4x256x4x8x8 1 := cmpf .olt main_v44 main_v45
  let main_c_17 : IVec S_ 1 := constantI S_ 1 1#1
  let main_v47 : IVec S_ 1 := (fun x v => Host.reduce IntOp.andi x v reducesTo_S4x256x4x8x8_S_d0_1_2_3_4 h_S_) main_v46 main_c_17
  let main_v48 : IVec S_ 1 := andi main_v43 main_v47
  let main_c_18 : IVec S_ 32 := constantI S_ 32 0#32
  let main_v49 : IVec S64 32 := broadcastInDim S64 ![] bcast_S_S64 main_c_18
  let main_v50 : IVec S64 1 := cmpi .sge main_arg10 main_v49
  fn_part3 (F := F) main_arg10 main_arg11 main_arg12 main_arg13 main_arg14 main_v48 main_v50

def fn_part1 {F : FTy → Type} [FloatOps F] (main_arg4 : FVec F S4x256x4x8x8 .f32) (main_arg5 : FVec F S4x32x32x64x64 .f32) (main_arg6 : FVec F S4x64x16x32x32 .f32) (main_arg7 : FVec F S4x128x8x16x16 .f32) (main_arg8 : FVec F S4x256x4x8x8 .f32) (main_arg9 : FVec F S4x256x4x8x8 .f32) (main_arg10 : IVec S64 32) (main_arg11 : IVec S64 32) (main_arg12 : IVec S64 32) (main_arg13 : IVec S64 32) (main_arg14 : IVec S64 32) (main_v13 : IVec S_ 1) (main_v16 : IVec S4x256x4x8x8 1) : IVec S_ 1 :=
  let main_c_5 : IVec S_ 1 := constantI S_ 1 1#1
  let main_v17 : IVec S_ 1 := (fun x v => Host.reduce IntOp.andi x v reducesTo_S4x256x4x8x8_S_d0_1_2_3_4 h_S_) main_v16 main_c_5
  let main_v18 : IVec S_ 1 := andi main_v13 main_v17
  let main_v19 : FVec F S4x256x4x8x8 .f32 := Host.absf main_arg4
  let main_cst_6 : FVec F S_ .f32 := constant S_ .f32 0x7F800000#32
  let main_v20 : FVec F S4x256x4x8x8 .f32 := broadcastInDim S4x256x4x8x8 ![] bcast_S_S4x256x4x8x8 main_cst_6
  let main_v21 : IVec S4x256x4x8x8 1 := cmpf .olt main_v19 main_v20
  let main_c_7 : IVec S_ 1 := constantI S_ 1 1#1
  let main_v22 : IVec S_ 1 := (fun x v => Host.reduce IntOp.andi x v reducesTo_S4x256x4x8x8_S_d0_1_2_3_4 h_S_) main_v21 main_c_7
  let main_v23 : IVec S_ 1 := andi main_v18 main_v22
  let main_v24 : FVec F S4x32x32x64x64 .f32 := Host.absf main_arg5
  let main_cst_8 : FVec F S_ .f32 := constant S_ .f32 0x7F800000#32
  let main_v25 : FVec F S4x32x32x64x64 .f32 := broadcastInDim S4x32x32x64x64 ![] bcast_S_S4x32x32x64x64 main_cst_8
  let main_v26 : IVec S4x32x32x64x64 1 := cmpf .olt main_v24 main_v25
  let main_c_9 : IVec S_ 1 := constantI S_ 1 1#1
  let main_v27 : IVec S_ 1 := (fun x v => Host.reduce IntOp.andi x v reducesTo_S4x32x32x64x64_S_d0_1_2_3_4 h_S_) main_v26 main_c_9
  let main_v28 : IVec S_ 1 := andi main_v23 main_v27
  let main_v29 : FVec F S4x64x16x32x32 .f32 := Host.absf main_arg6
  let main_cst_10 : FVec F S_ .f32 := constant S_ .f32 0x7F800000#32
  let main_v30 : FVec F S4x64x16x32x32 .f32 := broadcastInDim S4x64x16x32x32 ![] bcast_S_S4x64x16x32x32 main_cst_10
  let main_v31 : IVec S4x64x16x32x32 1 := cmpf .olt main_v29 main_v30
  let main_c_11 : IVec S_ 1 := constantI S_ 1 1#1
  let main_v32 : IVec S_ 1 := (fun x v => Host.reduce IntOp.andi x v reducesTo_S4x64x16x32x32_S_d0_1_2_3_4 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4x32x32x64x64 .f32) (main_arg1 : FVec F S4x64x16x32x32 .f32) (main_arg2 : FVec F S4x128x8x16x16 .f32) (main_arg3 : FVec F S4x256x4x8x8 .f32) (main_arg4 : FVec F S4x256x4x8x8 .f32) (main_arg5 : FVec F S4x32x32x64x64 .f32) (main_arg6 : FVec F S4x64x16x32x32 .f32) (main_arg7 : FVec F S4x128x8x16x16 .f32) (main_arg8 : FVec F S4x256x4x8x8 .f32) (main_arg9 : FVec F S4x256x4x8x8 .f32) (main_arg10 : IVec S64 32) (main_arg11 : IVec S64 32) (main_arg12 : IVec S64 32) (main_arg13 : IVec S64 32) (main_arg14 : IVec S64 32) : IVec S_ 1 :=
  let main_v0 : FVec F S4x32x32x64x64 .f32 := Host.absf main_arg0
  let main_cst : FVec F S_ .f32 := constant S_ .f32 0x7F800000#32
  let main_v1 : FVec F S4x32x32x64x64 .f32 := broadcastInDim S4x32x32x64x64 ![] bcast_S_S4x32x32x64x64 main_cst
  let main_v2 : IVec S4x32x32x64x64 1 := cmpf .olt main_v0 main_v1
  let main_c : IVec S_ 1 := constantI S_ 1 1#1
  let main_v3 : IVec S_ 1 := (fun x v => Host.reduce IntOp.andi x v reducesTo_S4x32x32x64x64_S_d0_1_2_3_4 h_S_) main_v2 main_c
  let main_v4 : FVec F S4x64x16x32x32 .f32 := Host.absf main_arg1
  let main_cst_0 : FVec F S_ .f32 := constant S_ .f32 0x7F800000#32
  let main_v5 : FVec F S4x64x16x32x32 .f32 := broadcastInDim S4x64x16x32x32 ![] bcast_S_S4x64x16x32x32 main_cst_0
  let main_v6 : IVec S4x64x16x32x32 1 := cmpf .olt main_v4 main_v5
  let main_c_1 : IVec S_ 1 := constantI S_ 1 1#1
  let main_v7 : IVec S_ 1 := (fun x v => Host.reduce IntOp.andi x v reducesTo_S4x64x16x32x32_S_d0_1_2_3_4 h_S_) main_v6 main_c_1
  let main_v8 : IVec S_ 1 := andi main_v3 main_v7
  let main_v9 : FVec F S4x128x8x16x16 .f32 := Host.absf main_arg2
  let main_cst_2 : FVec F S_ .f32 := constant S_ .f32 0x7F800000#32
  let main_v10 : FVec F S4x128x8x16x16 .f32 := broadcastInDim S4x128x8x16x16 ![] bcast_S_S4x128x8x16x16 main_cst_2
  let main_v11 : IVec S4x128x8x16x16 1 := cmpf .olt main_v9 main_v10
  let main_c_3 : IVec S_ 1 := constantI S_ 1 1#1
  let main_v12 : IVec S_ 1 := (fun x v => Host.reduce IntOp.andi x v reducesTo_S4x128x8x16x16_S_d0_1_2_3_4 h_S_) main_v11 main_c_3
  let main_v13 : IVec S_ 1 := andi main_v8 main_v12
  let main_v14 : FVec F S4x256x4x8x8 .f32 := Host.absf main_arg3
  let main_cst_4 : FVec F S_ .f32 := constant S_ .f32 0x7F800000#32
  let main_v15 : FVec F S4x256x4x8x8 .f32 := broadcastInDim S4x256x4x8x8 ![] bcast_S_S4x256x4x8x8 main_cst_4
  let main_v16 : IVec S4x256x4x8x8 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4x32x32x64x64 : Shape := ⟨5, ![4, 32, 32, 64, 64]⟩
abbrev S4x64x16x32x32 : Shape := ⟨5, ![4, 64, 16, 32, 32]⟩
abbrev S4x128x8x16x16 : Shape := ⟨5, ![4, 128, 8, 16, 16]⟩
abbrev S4x256x4x8x8 : Shape := ⟨5, ![4, 256, 4, 8, 8]⟩
abbrev S64 : Shape := ⟨1, ![64]⟩
abbrev S4x32x131072 : Shape := ⟨3, ![4, 32, 131072]⟩
abbrev S1x64 : Shape := ⟨2, ![1, 64]⟩
abbrev S4x1x64 : Shape := ⟨3, ![4, 1, 64]⟩
abbrev S1x32x8192 : Shape := ⟨3, ![1, 32, 8192]⟩
abbrev S1x1x64 : Shape := ⟨3, ![1, 1, 64]⟩
abbrev S32x64 : Shape := ⟨2, ![32, 64]⟩
abbrev S8192x64 : Shape := ⟨2, ![8192, 64]⟩
abbrev S32x8192 : Shape := ⟨2, ![32, 8192]⟩
abbrev S64x32 : Shape := ⟨2, ![64, 32]⟩
abbrev S64x64 : Shape := ⟨2, ![64, 64]⟩
abbrev S_ : Shape := ⟨0, ![]⟩
abbrev S4x64x16384 : Shape := ⟨3, ![4, 64, 16384]⟩
abbrev S1x64x8192 : Shape := ⟨3, ![1, 64, 8192]⟩
abbrev S64x8192 : Shape := ⟨2, ![64, 8192]⟩
abbrev S4x128x2048 : Shape := ⟨3, ![4, 128, 2048]⟩
abbrev S1x128x2048 : Shape := ⟨3, ![1, 128, 2048]⟩
abbrev S128x64 : Shape := ⟨2, ![128, 64]⟩
abbrev S2048x64 : Shape := ⟨2, ![2048, 64]⟩
abbrev S128x2048 : Shape := ⟨2, ![128, 2048]⟩
abbrev S64x128 : Shape := ⟨2, ![64, 128]⟩
abbrev S4x256x256 : Shape := ⟨3, ![4, 256, 256]⟩
abbrev S1x256x256 : Shape := ⟨3, ![1, 256, 256]⟩
abbrev S256x64 : Shape := ⟨2, ![256, 64]⟩
abbrev S256x256 : Shape := ⟨2, ![256, 256]⟩
abbrev S64x256 : Shape := ⟨2, ![64, 256]⟩

abbrev nBuf : Space → Nat
  | .hbm => 63
  | .vmem => 45
  | .smem => 0
  | _ => 0

abbrev bufTy : (tb : Table) → Fin (tcTables nBuf tb) → BufTy
  | .hbm, ⟨0, _⟩ => ⟨S4x32x32x64x64, .f32⟩
  | .hbm, ⟨1, _⟩ => ⟨S4x64x16x32x32, .f32⟩
  | .hbm, ⟨2, _⟩ => ⟨S4x128x8x16x16, .f32⟩
  | .hbm, ⟨3, _⟩ => ⟨S4x256x4x8x8, .f32⟩
  | .hbm, ⟨4, _⟩ => ⟨S4x256x4x8x8, .f32⟩
  | .hbm, ⟨5, _⟩ => ⟨S4x32x32x64x64, .f32⟩
  | .hbm, ⟨6, _⟩ => ⟨S4x64x16x32x32, .f32⟩
  | .hbm, ⟨7, _⟩ => ⟨S4x128x8x16x16, .f32⟩
  | .hbm, ⟨8, _⟩ => ⟨S4x256x4x8x8, .f32⟩
  | .hbm, ⟨9, _⟩ => ⟨S4x256x4x8x8, .f32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S4x32x131072, .f32⟩
  | .hbm, ⟨16, _⟩ => ⟨S4x32x131072, .f32⟩
  | .hbm, ⟨17, _⟩ => ⟨S1x64, .i32⟩
  | .hbm, ⟨18, _⟩ => ⟨S4x1x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x64x16384, .f32⟩
  | .hbm, ⟨26, _⟩ => ⟨S4x64x16384, .f32⟩
  | .hbm, ⟨27, _⟩ => ⟨S1x64, .i32⟩
  | .hbm, ⟨28, _⟩ => ⟨S4x1x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S4x128x2048, .f32⟩
  | .hbm, ⟨35, _⟩ => ⟨S4x128x2048, .f32⟩
  | .hbm, ⟨36, _⟩ => ⟨S1x64, .i32⟩
  | .hbm, ⟨37, _⟩ => ⟨S4x1x64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4x256x256, .f32⟩
  | .hbm, ⟨44, _⟩ => ⟨S4x256x256, .f32⟩
  | .hbm, ⟨45, _⟩ => ⟨S1x64, .i32⟩
  | .hbm, ⟨46, _⟩ => ⟨S4x1x64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4x256x256, .f32⟩
  | .hbm, ⟨53, _⟩ => ⟨S4x256x256, .f32⟩
  | .hbm, ⟨54, _⟩ => ⟨S1x64, .i32⟩
  | .hbm, ⟨55, _⟩ => ⟨S4x1x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1x32x8192, .f32⟩
  | .local _ .vmem, ⟨1, _⟩ => ⟨S1x32x8192, .f32⟩
  | .local _ .vmem, ⟨2, _⟩ => ⟨S1x32x8192, .f32⟩
  | .local _ .vmem, ⟨3, _⟩ => ⟨S1x32x8192, .f32⟩
  | .local _ .vmem, ⟨4, _⟩ => ⟨S1x64, .i32⟩
  | .local _ .vmem, ⟨5, _⟩ => ⟨S1x1x64, .f32⟩
  | .local _ .vmem, ⟨6, _⟩ => ⟨S1x1x64, .f32⟩
  | .local _ .vmem, ⟨7, _⟩ => ⟨S32x64, .f32⟩
  | .local _ .vmem, ⟨8, _⟩ => ⟨S32x64, .f32⟩
  | .local _ .vmem, ⟨9, _⟩ => ⟨S1x64x8192, .f32⟩
  | .local _ .vmem, ⟨10, _⟩ => ⟨S1x64x8192, .f32⟩
  | .local _ .vmem, ⟨11, _⟩ => ⟨S1x64x8192, .f32⟩
  | .local _ .vmem, ⟨12, _⟩ => ⟨S1x64x8192, .f32⟩
  | .local _ .vmem, ⟨13, _⟩ => ⟨S1x64, .i32⟩
  | .local _ .vmem, ⟨14, _⟩ => ⟨S1x1x64, .f32⟩
  | .local _ .vmem, ⟨15, _⟩ => ⟨S1x1x64, .f32⟩
  | .local _ .vmem, ⟨16, _⟩ => ⟨S64x64, .f32⟩
  | .local _ .vmem, ⟨17, _⟩ => ⟨S64x64, .f32⟩
  | .local _ .vmem, ⟨18, _⟩ => ⟨S1x128x2048, .f32⟩
  | .local _ .vmem, ⟨19, _⟩ => ⟨S1x128x2048, .f32⟩
  | .local _ .vmem, ⟨20, _⟩ => ⟨S1x128x2048, .f32⟩
  | .local _ .vmem, ⟨21, _⟩ => ⟨S1x128x2048, .f32⟩
  | .local _ .vmem, ⟨22, _⟩ => ⟨S1x64, .i32⟩
  | .local _ .vmem, ⟨23, _⟩ => ⟨S1x1x64, .f32⟩
  | .local _ .vmem, ⟨24, _⟩ => ⟨S1x1x64, .f32⟩
  | .local _ .vmem, ⟨25, _⟩ => ⟨S128x64, .f32⟩
  | .local _ .vmem, ⟨26, _⟩ => ⟨S128x64, .f32⟩
  | .local _ .vmem, ⟨27, _⟩ => ⟨S1x256x256, .f32⟩
  | .local _ .vmem, ⟨28, _⟩ => ⟨S1x256x256, .f32⟩
  | .local _ .vmem, ⟨29, _⟩ => ⟨S1x256x256, .f32⟩
  | .local _ .vmem, ⟨30, _⟩ => ⟨S1x256x256, .f32⟩
  | .local _ .vmem, ⟨31, _⟩ => ⟨S1x64, .i32⟩
  | .local _ .vmem, ⟨32, _⟩ => ⟨S1x1x64, .f32⟩
  | .local _ .vmem, ⟨33, _⟩ => ⟨S1x1x64, .f32⟩
  | .local _ .vmem, ⟨34, _⟩ => ⟨S256x64, .f32⟩
  | .local _ .vmem, ⟨35, _⟩ => ⟨S256x64, .f32⟩
  | .local _ .vmem, ⟨36, _⟩ => ⟨S1x256x256, .f32⟩
  | .local _ .vmem, ⟨37, _⟩ => ⟨S1x256x256, .f32⟩
  | .local _ .vmem, ⟨38, _⟩ => ⟨S1x256x256, .f32⟩
  | .local _ .vmem, ⟨39, _⟩ => ⟨S1x256x256, .f32⟩
  | .local _ .vmem, ⟨40, _⟩ => ⟨S1x64, .i32⟩
  | .local _ .vmem, ⟨41, _⟩ => ⟨S1x1x64, .f32⟩
  | .local _ .vmem, ⟨42, _⟩ => ⟨S1x1x64, .f32⟩
  | .local _ .vmem, ⟨43, _⟩ => ⟨S256x64, .f32⟩
  | .local _ .vmem, ⟨44, _⟩ => ⟨S256x64, .f32⟩
  | _, _ => ⟨S4x32x32x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_cst_1 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_4 : Ref sig .tc := ⟨.hbm, 38, rfl⟩
abbrev main_v18 : Ref sig .tc := ⟨.hbm, 39, rfl⟩
abbrev main_cst_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_cst_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_cst_10 : Ref sig .tc := ⟨.hbm, 61, rfl⟩
abbrev main_v35 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_scratch0 : Ref sig .tc := ⟨.vmem, 25, rfl⟩
abbrev cc2_scratch1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_scratch0 : Ref sig .tc := ⟨.vmem, 34, rfl⟩
abbrev cc3_scratch1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg3_1 : Ref sig .tc := ⟨.vmem, 42, rfl⟩
abbrev cc4_scratch0 : Ref sig .tc := ⟨.vmem, 43, rfl⟩
abbrev cc4_scratch1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_19 : BitVec 32 := 0#32
  let v44 : BitVec 1 := Scalar.cmpi .ne v43 c0_i32_19
  v44

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x64 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 2], ![false, false]⟩

def k1_cond2 (i : grid1.Coords) : BitVec 1 :=
  let arg1 : BitVec 32 := BitVec.ofNat 32 (i 1).val
  let c1_i32 : BitVec 32 := 1#32
  let v42 : BitVec 1 := Scalar.cmpi .eq arg1 c1_i32
  let v43 : BitVec 32 := Scalar.extui v42
  let c0_i32_19 : BitVec 32 := 0#32
  let v44 : BitVec 1 := Scalar.cmpi .ne v43 c0_i32_19
  v44

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x64 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 1], ![false, false]⟩

def k2_cond2 (i : grid2.Coords) : BitVec 1 :=
  let arg1 : BitVec 32 := BitVec.ofNat 32 (i 1).val
  let c0_i32_19 : BitVec 32 := 0#32
  let v42 : BitVec 1 := Scalar.cmpi .eq arg1 c0_i32_19
  let v43 : BitVec 32 := Scalar.extui v42
  let c0_i32_20 : BitVec 32 := 0#32
  let v44 : BitVec 1 := Scalar.cmpi .ne v43 c0_i32_20
  v44

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x64 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 1], ![false, false]⟩

def k3_cond2 (i : grid3.Coords) : BitVec 1 :=
  let arg1 : BitVec 32 := BitVec.ofNat 32 (i 1).val
  let c0_i32_19 : BitVec 32 := 0#32
  let v42 : BitVec 1 := Scalar.cmpi .eq arg1 c0_i32_19
  let v43 : BitVec 32 := Scalar.extui v42
  let c0_i32_20 : BitVec 32 := 0#32
  let v44 : BitVec 1 := Scalar.cmpi .ne v43 c0_i32_20
  v44

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x256x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x256x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S1x64 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x1x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![4, 1], ![false, false]⟩

def k4_cond2 (i : grid4.Coords) : BitVec 1 :=
  let arg1 : BitVec 32 := BitVec.ofNat 32 (i 1).val
  let c0_i32_19 : BitVec 32 := 0#32
  let v42 : BitVec 1 := Scalar.cmpi .eq arg1 c0_i32_19
  let v43 : BitVec 32 := Scalar.extui v42
  let c0_i32_20 : BitVec 32 := 0#32
  let v44 : BitVec 1 := Scalar.cmpi .ne v43 c0_i32_20
  v44

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x256x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x256x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1x64 .i32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 2 → Memref sig .tc .vmem S1x1x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

class Facts₀ : Prop where
  shapeCasts_S4x32x32x64x64_S4x32x131072 : S4x32x32x64x64.ShapeCasts S4x32x131072
  shapeCasts_S64_S1x64 : S64.ShapeCasts S1x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  iota_S8192x64_d0_w32 : S8192x64.Iotas .tc 32 [0]
  broadcasts_S1x64_S8192x64 : S1x64.Broadcasts S8192x64
  natLt_1_32 : 1 < 32
  bitsLt_bf16_f32 : FTy.bits .bf16 < FTy.bits .f32
  inb_S1x32x8192_S1x32x8192_0_0_0 : ∀ a, (![0, 0, 0] : Fin 3 → Nat) a + S1x32x8192.size a ≤ S1x32x8192.size a
  h_S1x32x8192 : 0 < S1x32x8192.numel
  shapeCasts_S1x32x8192_S32x8192 : S1x32x8192.ShapeCasts S32x8192
  reduces_S32x64_S64 : S32x64.Reduces [0] S64
  broadcasts_S1x64_S32x64 : S1x64.Broadcasts S32x64
  transposes_S32x64_p1_0_S64x32 : S32x64.Transposes [1, 0] S64x32
  iota_S64x64_d0_w32 : S64x64.Iotas .tc 32 [0]
  iota_S64x64_d1_w32 : S64x64.Iotas .tc 32 [1]
  reduces_S64x64_S64 : S64x64.Reduces [0] S64
  broadcasts_S1x64_S64x64 : S1x64.Broadcasts S64x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  reducesTo_S4x1x64_S_d0_1_2 : S4x1x64.ReducesTo [0, 1, 2] S_
  h_S_ : 0 < S_.numel
  shapeCasts_S4x64x16x32x32_S4x64x16384 : S4x64x16x32x32.ShapeCasts S4x64x16384
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64x8192_S1x64x8192_0_0_0 : ∀ a, (![0, 0, 0] : Fin 3 → Nat) a + S1x64x8192.size a ≤ S1x64x8192.size a
  h_S1x64x8192 : 0 < S1x64x8192.numel
  shapeCasts_S1x64x8192_S64x8192 : S1x64x8192.ShapeCasts S64x8192
  transposes_S64x64_p1_0_S64x64 : S64x64.Transposes [1, 0] S64x64
  shapeCasts_S4x128x8x16x16_S4x128x2048 : S4x128x8x16x16.ShapeCasts S4x128x2048
  inb_S128x64_S128x64_0_0 : ∀ a, (![0, 0] : Fin 2 → Nat) a + S128x64.size a ≤ S128x64.size a
  h_S128x64 : 0 < S128x64.numel
  shapeCasts_S128x64_S128x64 : S128x64.ShapeCasts S128x64
  iota_S2048x64_d0_w32 : S2048x64.Iotas .tc 32 [0]
  broadcasts_S1x64_S2048x64 : S1x64.Broadcasts S2048x64
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  reduces_S128x64_S64 : S128x64.Reduces [0] S64
  broadcasts_S1x64_S128x64 : S1x64.Broadcasts S128x64
  transposes_S128x64_p1_0_S64x128 : S128x64.Transposes [1, 0] S64x128
  shapeCasts_S4x256x4x8x8_S4x256x256 : S4x256x4x8x8.ShapeCasts S4x256x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  iota_S256x64_d0_w32 : S256x64.Iotas .tc 32 [0]
  broadcasts_S1x64_S256x64 : S1x64.Broadcasts S256x64
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  reduces_S256x64_S64 : S256x64.Reduces [0] S64
  transposes_S256x64_p1_0_S64x256 : S256x64.Transposes [1, 0] S64x256
  dot_S32x8192_S8192x64_S32x64_1_0_0_1_n_n_wf : DotDims.WF S32x8192 S8192x64 S32x64 [1] [0] [0] [1] [] []
  dot_S64x32_S32x64_S64x64_1_0_0_1_n_n_wf : DotDims.WF S64x32 S32x64 S64x64 [1] [0] [0] [1] [] []
  dot_S64x8192_S8192x64_S64x64_1_0_0_1_n_n_wf : DotDims.WF S64x8192 S8192x64 S64x64 [1] [0] [0] [1] [] []
  dot_S64x64_S64x64_S64x64_1_0_0_1_n_n_wf : DotDims.WF S64x64 S64x64 S64x64 [1] [0] [0] [1] [] []
  dot_S128x2048_S2048x64_S128x64_1_0_0_1_n_n_wf : DotDims.WF S128x2048 S2048x64 S128x64 [1] [0] [0] [1] [] []
  dot_S64x128_S128x64_S64x64_1_0_0_1_n_n_wf : DotDims.WF S64x128 S128x64 S64x64 [1] [0] [0] [1] [] []
  dot_S256x256_S256x64_S256x64_1_0_0_1_n_n_wf : DotDims.WF S256x256 S256x64 S256x64 [1] [0] [0] [1] [] []
  dot_S64x256_S256x64_S64x64_1_0_0_1_n_n_wf : DotDims.WF S64x256 S256x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x8192.size a ≤ S4x32x131072.size a
  hwx0_0 : ∀ i : grid0.Coords, EltTy.bits .f32 = 32 ∨ (Rect.block (s := S4x32x131072) S1x32x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x8192.size a ≤ S4x32x131072.size a
  hwx0_1 : ∀ i : grid0.Coords, EltTy.bits .f32 = 32 ∨ (Rect.block (s := S4x32x131072) S1x32x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .i32 = 32 ∨ (Rect.block (s := S1x64) S1x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S4x1x64.size a
  hwx0_3 : ∀ i : grid0.Coords, EltTy.bits .f32 = 32 ∨ (Rect.block (s := S4x1x64) S1x1x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x8192.size a ≤ S4x64x16384.size a
  hwx1_0 : ∀ i : grid1.Coords, EltTy.bits .f32 = 32 ∨ (Rect.block (s := S4x64x16384) S1x64x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x8192.size a ≤ S4x64x16384.size a
  hwx1_1 : ∀ i : grid1.Coords, EltTy.bits .f32 = 32 ∨ (Rect.block (s := S4x64x16384) S1x64x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .i32 = 32 ∨ (Rect.block (s := S1x64) S1x64.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S4x1x64.size a
  hwx1_3 : ∀ i : grid1.Coords, EltTy.bits .f32 = 32 ∨ (Rect.block (s := S4x1x64) S1x1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x128x2048.size a ≤ S4x128x2048.size a
  hwx2_0 : ∀ i : grid2.Coords, EltTy.bits .f32 = 32 ∨ (Rect.block (s := S4x128x2048) S1x128x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x2048.size a ≤ S4x128x2048.size a
  hwx2_1 : ∀ i : grid2.Coords, EltTy.bits .f32 = 32 ∨ (Rect.block (s := S4x128x2048) S1x128x2048.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .i32 = 32 ∨ (Rect.block (s := S1x64) S1x64.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x64.size a ≤ S4x1x64.size a
  hwx2_3 : ∀ i : grid2.Coords, EltTy.bits .f32 = 32 ∨ (Rect.block (s := S4x1x64) S1x1x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x256.size a ≤ S4x256x256.size a
  hwx3_0 : ∀ i : grid3.Coords, EltTy.bits .f32 = 32 ∨ (Rect.block (s := S4x256x256) S1x256x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1x256x256.size a ≤ S4x256x256.size a
  hwx3_1 : ∀ i : grid3.Coords, EltTy.bits .f32 = 32 ∨ (Rect.block (s := S4x256x256) S1x256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .i32 = 32 ∨ (Rect.block (s := S1x64) S1x64.size (cc3_transform_2 i) (hinb3_2 i)).WholeWords (EltTy.packing .i32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x64.size a ≤ S4x1x64.size a
  hwx3_3 : ∀ i : grid3.Coords, EltTy.bits .f32 = 32 ∨ (Rect.block (s := S4x1x64) S1x1x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x256x256.size a ≤ S4x256x256.size a
  hwx4_0 : ∀ i : grid4.Coords, EltTy.bits .f32 = 32 ∨ (Rect.block (s := S4x256x256) S1x256x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x256x256.size a ≤ S4x256x256.size a
  hwx4_1 : ∀ i : grid4.Coords, EltTy.bits .f32 = 32 ∨ (Rect.block (s := S4x256x256) S1x256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .i32 = 32 ∨ (Rect.block (s := S1x64) S1x64.size (cc4_transform_2 i) (hinb4_2 i)).WholeWords (EltTy.packing .i32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1x1x64.size a ≤ S4x1x64.size a
  hwx4_3 : ∀ i : grid4.Coords, EltTy.bits .f32 = 32 ∨ (Rect.block (s := S4x1x64) S1x1x64.size (cc4_transform_3 i) (hinb4_3 i)).WholeWords (EltTy.packing .f32)

variable [Facts₀]

def dot_S32x8192_S8192x64_S32x64_1_0_0_1_n_n : DotDims S32x8192 S8192x64 S32x64 where
  lhsContracting := [1]
  rhsContracting := [0]
  lhsNonContracting := [0]
  rhsNonContracting := [1]
  lhsBatch := []
  rhsBatch := []
  wf := dot_S32x8192_S8192x64_S32x64_1_0_0_1_n_n_wf
def dot_S64x32_S32x64_S64x64_1_0_0_1_n_n : DotDims S64x32 S32x64 S64x64 where
  lhsContracting := [1]
  rhsContracting := [0]
  lhsNonContracting := [0]
  rhsNonContracting := [1]
  lhsBatch := []
  rhsBatch := []
  wf := dot_S64x32_S32x64_S64x64_1_0_0_1_n_n_wf
def dot_S64x8192_S8192x64_S64x64_1_0_0_1_n_n : DotDims S64x8192 S8192x64 S64x64 where
  lhsContracting := [1]
  rhsContracting := [0]
  lhsNonContracting := [0]
  rhsNonContracting := [1]
  lhsBatch := []
  rhsBatch := []
  wf := dot_S64x8192_S8192x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf

abbrev win0_0 : Pipeline.Window sig grid0 :=
  Pipeline.Window.ofSpec (Memref.whole main_v0) S1x32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v7) S1x64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x64x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x1x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v14) S1x128x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S1x128x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S1x1x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v21) S1x256x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v22) S1x256x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S1x1x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v28) S1x256x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S1x256x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v30) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v31) S1x1x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

class Facts : Prop extends Facts₀ where

variable [Facts]
-- ==== ReferenceIdeal.lean ====
abbrev S4x32x32x64x64 : Shape := ⟨5, ![4, 32, 32, 64, 64]⟩
abbrev S4x64x16x32x32 : Shape := ⟨5, ![4, 64, 16, 32, 32]⟩
abbrev S4x128x8x16x16 : Shape := ⟨5, ![4, 128, 8, 16, 16]⟩
abbrev S4x256x4x8x8 : Shape := ⟨5, ![4, 256, 4, 8, 8]⟩
abbrev S64 : Shape := ⟨1, ![64]⟩
abbrev S4x32x131072 : Shape := ⟨3, ![4, 32, 131072]⟩
abbrev S_ : Shape := ⟨0, ![]⟩
abbrev S64x1 : Shape := ⟨2, ![64, 1]⟩
abbrev S4x32x64 : Shape := ⟨3, ![4, 32, 64]⟩
abbrev S4x64 : Shape := ⟨2, ![4, 64]⟩
abbrev S4x1x64 : Shape := ⟨3, ![4, 1, 64]⟩
abbrev S4x64x64 : Shape := ⟨3, ![4, 64, 64]⟩
abbrev S64x64 : Shape := ⟨2, ![64, 64]⟩
abbrev S1x64x64 : Shape := ⟨3, ![1, 64, 64]⟩
abbrev S4x64x1 : Shape := ⟨3, ![4, 64, 1]⟩
abbrev S4x64x65 : Shape := ⟨3, ![4, 64, 65]⟩
abbrev S4x64x16384 : Shape := ⟨3, ![4, 64, 16384]⟩
abbrev S4x128x2048 : Shape := ⟨3, ![4, 128, 2048]⟩
abbrev S4x128x64 : Shape := ⟨3, ![4, 128, 64]⟩
abbrev S4x256x256 : Shape := ⟨3, ![4, 256, 256]⟩
abbrev S4x256x64 : Shape := ⟨3, ![4, 256, 64]⟩

abbrev nBuf : Space → Nat
  | .hbm => 438
  | .vmem => 0
  | .smem => 0
  | _ => 0

abbrev hbmTy0_0 (i : Nat) : BufTy := match i % 128 with
  | 0 => ⟨S4x32x32x64x64, .f32⟩
  | 1 => ⟨S4x64x16x32x32, .f32⟩
  | 2 => ⟨S4x128x8x16x16, .f32⟩
  | 3 => ⟨S4x256x4x8x8, .f32⟩
  | 4 => ⟨S4x256x4x8x8, .f32⟩
  | 5 => ⟨S4x32x32x64x64, .f32⟩
  | 6 => ⟨S4x64x16x32x32, .f32⟩
  | 7 => ⟨S4x128x8x16x16, .f32⟩
  | 8 => ⟨S4x256x4x8x8, .f32⟩
  | 9 => ⟨S4x256x4x8x8, .f32⟩
  | 10 => ⟨S64, .i32⟩
  | 11 => ⟨S64, .i32⟩
  | 12 => ⟨S64, .i32⟩
  | 13 => ⟨S64, .i32⟩
  | 14 => ⟨S64, .i32⟩
  | 15 => ⟨S4x32x131072, .f32⟩
  | 16 => ⟨S_, .i32⟩
  | 17 => ⟨S64, .i32⟩
  | 18 => ⟨S64, .i1⟩
  | 19 => ⟨S_, .i32⟩
  | 20 => ⟨S64, .i32⟩
  | 21 => ⟨S64, .i32⟩
  | 22 => ⟨S64, .i32⟩
  | 23 => ⟨S64x1, .i32⟩
  | 24 => ⟨S4x32x64, .f32⟩
  | 25 => ⟨S4x32x131072, .f32⟩
  | 26 => ⟨S_, .i32⟩
  | 27 => ⟨S64, .i32⟩
  | 28 => ⟨S64, .i1⟩
  | 29 => ⟨S_, .i32⟩
  | 30 => ⟨S64, .i32⟩
  | 31 => ⟨S64, .i32⟩
  | 32 => ⟨S64, .i32⟩
  | 33 => ⟨S64x1, .i32⟩
  | 34 => ⟨S4x32x64, .f32⟩
  | 35 => ⟨S4x32x64, .f32⟩
  | 36 => ⟨S_, .f32⟩
  | 37 => ⟨S4x64, .f32⟩
  | 38 => ⟨S4x1x64, .f32⟩
  | 39 => ⟨S4x1x64, .f32⟩
  | 40 => ⟨S_, .f32⟩
  | 41 => ⟨S4x1x64, .f32⟩
  | 42 => ⟨S4x1x64, .f32⟩
  | 43 => ⟨S4x32x64, .f32⟩
  | 44 => ⟨S4x32x64, .f32⟩
  | 45 => ⟨S4x32x64, .f32⟩
  | 46 => ⟨S_, .f32⟩
  | 47 => ⟨S4x64, .f32⟩
  | 48 => ⟨S4x1x64, .f32⟩
  | 49 => ⟨S4x1x64, .f32⟩
  | 50 => ⟨S_, .f32⟩
  | 51 => ⟨S4x1x64, .f32⟩
  | 52 => ⟨S4x1x64, .f32⟩
  | 53 => ⟨S4x32x64, .f32⟩
  | 54 => ⟨S4x32x64, .f32⟩
  | 55 => ⟨S4x32x64, .f32⟩
  | 56 => ⟨S_, .f32⟩
  | 57 => ⟨S4x64, .f32⟩
  | 58 => ⟨S4x64x64, .f32⟩
  | 59 => ⟨S64x64, .i32⟩
  | 60 => ⟨S64x64, .i32⟩
  | 61 => ⟨S_, .i32⟩
  | 62 => ⟨S64x64, .i32⟩
  | 63 => ⟨S64x64, .i32⟩
  | 64 => ⟨S64x64, .i1⟩
  | 65 => ⟨S1x64x64, .i1⟩
  | 66 => ⟨S_, .f32⟩
  | 67 => ⟨S_, .f32⟩
  | 68 => ⟨S4x64x64, .i1⟩
  | 69 => ⟨S4x64x64, .f32⟩
  | 70 => ⟨S4x64x64, .f32⟩
  | 71 => ⟨S4x64x1, .f32⟩
  | 72 => ⟨S4x64x65, .f32⟩
  | 73 => ⟨S_, .f32⟩
  | 74 => ⟨S4x64x65, .f32⟩
  | 75 => ⟨S4x64x65, .f32⟩
  | 76 => ⟨S_, .f32⟩
  | 77 => ⟨S4x64, .f32⟩
  | 78 => ⟨S_, .f32⟩
  | 79 => ⟨S4x64, .f32⟩
  | 80 => ⟨S4x64, .f32⟩
  | 81 => ⟨S4x64x1, .f32⟩
  | 82 => ⟨S4x64x65, .f32⟩
  | 83 => ⟨S4x64x65, .f32⟩
  | 84 => ⟨S4x64x65, .f32⟩
  | 85 => ⟨S_, .f32⟩
  | 86 => ⟨S4x64, .f32⟩
  | 87 => ⟨S4x64x1, .f32⟩
  | 88 => ⟨S4x64x1, .f32⟩
  | 89 => ⟨S4x64x65, .f32⟩
  | 90 => ⟨S4x64x65, .f32⟩
  | 91 => ⟨S4x64x1, .f32⟩
  | 92 => ⟨S4x64, .f32⟩
  | 93 => ⟨S4x64, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S4x64x16384, .f32⟩
  | 101 => ⟨S_, .i32⟩
  | 102 => ⟨S64, .i32⟩
  | 103 => ⟨S64, .i1⟩
  | 104 => ⟨S_, .i32⟩
  | 105 => ⟨S64, .i32⟩
  | 106 => ⟨S64, .i32⟩
  | 107 => ⟨S64, .i32⟩
  | 108 => ⟨S64x1, .i32⟩
  | 109 => ⟨S4x64x64, .f32⟩
  | 110 => ⟨S4x64x16384, .f32⟩
  | 111 => ⟨S_, .i32⟩
  | 112 => ⟨S64, .i32⟩
  | 113 => ⟨S64, .i1⟩
  | 114 => ⟨S_, .i32⟩
  | 115 => ⟨S64, .i32⟩
  | 116 => ⟨S64, .i32⟩
  | 117 => ⟨S64, .i32⟩
  | 118 => ⟨S64x1, .i32⟩
  | 119 => ⟨S4x64x64, .f32⟩
  | 120 => ⟨S4x64x64, .f32⟩
  | 121 => ⟨S_, .f32⟩
  | 122 => ⟨S4x64, .f32⟩
  | 123 => ⟨S4x1x64, .f32⟩
  | 124 => ⟨S4x1x64, .f32⟩
  | 125 => ⟨S_, .f32⟩
  | 126 => ⟨S4x1x64, .f32⟩
  | 127 => ⟨S4x1x64, .f32⟩
  | _ => ⟨S4x32x32x64x64, .f32⟩

abbrev hbmTy0_1 (i : Nat) : BufTy := match i % 128 with
  | 0 => ⟨S4x64x64, .f32⟩
  | 1 => ⟨S4x64x64, .f32⟩
  | 2 => ⟨S4x64x64, .f32⟩
  | 3 => ⟨S_, .f32⟩
  | 4 => ⟨S4x64, .f32⟩
  | 5 => ⟨S4x1x64, .f32⟩
  | 6 => ⟨S4x1x64, .f32⟩
  | 7 => ⟨S_, .f32⟩
  | 8 => ⟨S4x1x64, .f32⟩
  | 9 => ⟨S4x1x64, .f32⟩
  | 10 => ⟨S4x64x64, .f32⟩
  | 11 => ⟨S4x64x64, .f32⟩
  | 12 => ⟨S4x64x64, .f32⟩
  | 13 => ⟨S_, .f32⟩
  | 14 => ⟨S4x64, .f32⟩
  | 15 => ⟨S4x64x64, .f32⟩
  | 16 => ⟨S64x64, .i32⟩
  | 17 => ⟨S64x64, .i32⟩
  | 18 => ⟨S_, .i32⟩
  | 19 => ⟨S64x64, .i32⟩
  | 20 => ⟨S64x64, .i32⟩
  | 21 => ⟨S64x64, .i1⟩
  | 22 => ⟨S1x64x64, .i1⟩
  | 23 => ⟨S_, .f32⟩
  | 24 => ⟨S_, .f32⟩
  | 25 => ⟨S4x64x64, .i1⟩
  | 26 => ⟨S4x64x64, .f32⟩
  | 27 => ⟨S4x64x64, .f32⟩
  | 28 => ⟨S4x64x1, .f32⟩
  | 29 => ⟨S4x64x65, .f32⟩
  | 30 => ⟨S_, .f32⟩
  | 31 => ⟨S4x64x65, .f32⟩
  | 32 => ⟨S4x64x65, .f32⟩
  | 33 => ⟨S_, .f32⟩
  | 34 => ⟨S4x64, .f32⟩
  | 35 => ⟨S_, .f32⟩
  | 36 => ⟨S4x64, .f32⟩
  | 37 => ⟨S4x64, .f32⟩
  | 38 => ⟨S4x64x1, .f32⟩
  | 39 => ⟨S4x64x65, .f32⟩
  | 40 => ⟨S4x64x65, .f32⟩
  | 41 => ⟨S4x64x65, .f32⟩
  | 42 => ⟨S_, .f32⟩
  | 43 => ⟨S4x64, .f32⟩
  | 44 => ⟨S4x64x1, .f32⟩
  | 45 => ⟨S4x64x1, .f32⟩
  | 46 => ⟨S4x64x65, .f32⟩
  | 47 => ⟨S4x64x65, .f32⟩
  | 48 => ⟨S4x64x1, .f32⟩
  | 49 => ⟨S4x64, .f32⟩
  | 50 => ⟨S4x64, .f32⟩
  | 51 => ⟨S_, .f32⟩
  | 52 => ⟨S_, .f32⟩
  | 53 => ⟨S_, .f32⟩
  | 54 => ⟨S_, .f32⟩
  | 55 => ⟨S_, .f32⟩
  | 56 => ⟨S4x128x2048, .f32⟩
  | 57 => ⟨S_, .i32⟩
  | 58 => ⟨S64, .i32⟩
  | 59 => ⟨S64, .i1⟩
  | 60 => ⟨S_, .i32⟩
  | 61 => ⟨S64, .i32⟩
  | 62 => ⟨S64, .i32⟩
  | 63 => ⟨S64, .i32⟩
  | 64 => ⟨S64x1, .i32⟩
  | 65 => ⟨S4x128x64, .f32⟩
  | 66 => ⟨S4x128x2048, .f32⟩
  | 67 => ⟨S_, .i32⟩
  | 68 => ⟨S64, .i32⟩
  | 69 => ⟨S64, .i1⟩
  | 70 => ⟨S_, .i32⟩
  | 71 => ⟨S64, .i32⟩
  | 72 => ⟨S64, .i32⟩
  | 73 => ⟨S64, .i32⟩
  | 74 => ⟨S64x1, .i32⟩
  | 75 => ⟨S4x128x64, .f32⟩
  | 76 => ⟨S4x128x64, .f32⟩
  | 77 => ⟨S_, .f32⟩
  | 78 => ⟨S4x64, .f32⟩
  | 79 => ⟨S4x1x64, .f32⟩
  | 80 => ⟨S4x1x64, .f32⟩
  | 81 => ⟨S_, .f32⟩
  | 82 => ⟨S4x1x64, .f32⟩
  | 83 => ⟨S4x1x64, .f32⟩
  | 84 => ⟨S4x128x64, .f32⟩
  | 85 => ⟨S4x128x64, .f32⟩
  | 86 => ⟨S4x128x64, .f32⟩
  | 87 => ⟨S_, .f32⟩
  | 88 => ⟨S4x64, .f32⟩
  | 89 => ⟨S4x1x64, .f32⟩
  | 90 => ⟨S4x1x64, .f32⟩
  | 91 => ⟨S_, .f32⟩
  | 92 => ⟨S4x1x64, .f32⟩
  | 93 => ⟨S4x1x64, .f32⟩
  | 94 => ⟨S4x128x64, .f32⟩
  | 95 => ⟨S4x128x64, .f32⟩
  | 96 => ⟨S4x128x64, .f32⟩
  | 97 => ⟨S_, .f32⟩
  | 98 => ⟨S4x64, .f32⟩
  | 99 => ⟨S4x64x64, .f32⟩
  | 100 => ⟨S64x64, .i32⟩
  | 101 => ⟨S64x64, .i32⟩
  | 102 => ⟨S_, .i32⟩
  | 103 => ⟨S64x64, .i32⟩
  | 104 => ⟨S64x64, .i32⟩
  | 105 => ⟨S64x64, .i1⟩
  | 106 => ⟨S1x64x64, .i1⟩
  | 107 => ⟨S_, .f32⟩
  | 108 => ⟨S_, .f32⟩
  | 109 => ⟨S4x64x64, .i1⟩
  | 110 => ⟨S4x64x64, .f32⟩
  | 111 => ⟨S4x64x64, .f32⟩
  | 112 => ⟨S4x64x1, .f32⟩
  | 113 => ⟨S4x64x65, .f32⟩
  | 114 => ⟨S_, .f32⟩
  | 115 => ⟨S4x64x65, .f32⟩
  | 116 => ⟨S4x64x65, .f32⟩
  | 117 => ⟨S_, .f32⟩
  | 118 => ⟨S4x64, .f32⟩
  | 119 => ⟨S_, .f32⟩
  | 120 => ⟨S4x64, .f32⟩
  | 121 => ⟨S4x64, .f32⟩
  | 122 => ⟨S4x64x1, .f32⟩
  | 123 => ⟨S4x64x65, .f32⟩
  | 124 => ⟨S4x64x65, .f32⟩
  | 125 => ⟨S4x64x65, .f32⟩
  | 126 => ⟨S_, .f32⟩
  | 127 => ⟨S4x64, .f32⟩
  | _ => ⟨S4x32x32x64x64, .f32⟩

abbrev hbmTy0_2 (i : Nat) : BufTy := match i % 128 with
  | 0 => ⟨S4x64x1, .f32⟩
  | 1 => ⟨S4x64x1, .f32⟩
  | 2 => ⟨S4x64x65, .f32⟩
  | 3 => ⟨S4x64x65, .f32⟩
  | 4 => ⟨S4x64x1, .f32⟩
  | 5 => ⟨S4x64, .f32⟩
  | 6 => ⟨S4x64, .f32⟩
  | 7 => ⟨S_, .f32⟩
  | 8 => ⟨S_, .f32⟩
  | 9 => ⟨S_, .f32⟩
  | 10 => ⟨S_, .f32⟩
  | 11 => ⟨S_, .f32⟩
  | 12 => ⟨S4x256x256, .f32⟩
  | 13 => ⟨S_, .i32⟩
  | 14 => ⟨S64, .i32⟩
  | 15 => ⟨S64, .i1⟩
  | 16 => ⟨S_, .i32⟩
  | 17 => ⟨S64, .i32⟩
  | 18 => ⟨S64, .i32⟩
  | 19 => ⟨S64, .i32⟩
  | 20 => ⟨S64x1, .i32⟩
  | 21 => ⟨S4x256x64, .f32⟩
  | 22 => ⟨S4x256x256, .f32⟩
  | 23 => ⟨S_, .i32⟩
  | 24 => ⟨S64, .i32⟩
  | 25 => ⟨S64, .i1⟩
  | 26 => ⟨S_, .i32⟩
  | 27 => ⟨S64, .i32⟩
  | 28 => ⟨S64, .i32⟩
  | 29 => ⟨S64, .i32⟩
  | 30 => ⟨S64x1, .i32⟩
  | 31 => ⟨S4x256x64, .f32⟩
  | 32 => ⟨S4x256x64, .f32⟩
  | 33 => ⟨S_, .f32⟩
  | 34 => ⟨S4x64, .f32⟩
  | 35 => ⟨S4x1x64, .f32⟩
  | 36 => ⟨S4x1x64, .f32⟩
  | 37 => ⟨S_, .f32⟩
  | 38 => ⟨S4x1x64, .f32⟩
  | 39 => ⟨S4x1x64, .f32⟩
  | 40 => ⟨S4x256x64, .f32⟩
  | 41 => ⟨S4x256x64, .f32⟩
  | 42 => ⟨S4x256x64, .f32⟩
  | 43 => ⟨S_, .f32⟩
  | 44 => ⟨S4x64, .f32⟩
  | 45 => ⟨S4x1x64, .f32⟩
  | 46 => ⟨S4x1x64, .f32⟩
  | 47 => ⟨S_, .f32⟩
  | 48 => ⟨S4x1x64, .f32⟩
  | 49 => ⟨S4x1x64, .f32⟩
  | 50 => ⟨S4x256x64, .f32⟩
  | 51 => ⟨S4x256x64, .f32⟩
  | 52 => ⟨S4x256x64, .f32⟩
  | 53 => ⟨S_, .f32⟩
  | 54 => ⟨S4x64, .f32⟩
  | 55 => ⟨S4x64x64, .f32⟩
  | 56 => ⟨S64x64, .i32⟩
  | 57 => ⟨S64x64, .i32⟩
  | 58 => ⟨S_, .i32⟩
  | 59 => ⟨S64x64, .i32⟩
  | 60 => ⟨S64x64, .i32⟩
  | 61 => ⟨S64x64, .i1⟩
  | 62 => ⟨S1x64x64, .i1⟩
  | 63 => ⟨S_, .f32⟩
  | 64 => ⟨S_, .f32⟩
  | 65 => ⟨S4x64x64, .i1⟩
  | 66 => ⟨S4x64x64, .f32⟩
  | 67 => ⟨S4x64x64, .f32⟩
  | 68 => ⟨S4x64x1, .f32⟩
  | 69 => ⟨S4x64x65, .f32⟩
  | 70 => ⟨S_, .f32⟩
  | 71 => ⟨S4x64x65, .f32⟩
  | 72 => ⟨S4x64x65, .f32⟩
  | 73 => ⟨S_, .f32⟩
  | 74 => ⟨S4x64, .f32⟩
  | 75 => ⟨S_, .f32⟩
  | 76 => ⟨S4x64, .f32⟩
  | 77 => ⟨S4x64, .f32⟩
  | 78 => ⟨S4x64x1, .f32⟩
  | 79 => ⟨S4x64x65, .f32⟩
  | 80 => ⟨S4x64x65, .f32⟩
  | 81 => ⟨S4x64x65, .f32⟩
  | 82 => ⟨S_, .f32⟩
  | 83 => ⟨S4x64, .f32⟩
  | 84 => ⟨S4x64x1, .f32⟩
  | 85 => ⟨S4x64x1, .f32⟩
  | 86 => ⟨S4x64x65, .f32⟩
  | 87 => ⟨S4x64x65, .f32⟩
  | 88 => ⟨S4x64x1, .f32⟩
  | 89 => ⟨S4x64, .f32⟩
  | 90 => ⟨S4x64, .f32⟩
  | 91 => ⟨S_, .f32⟩
  | 92 => ⟨S_, .f32⟩
  | 93 => ⟨S_, .f32⟩
  | 94 => ⟨S_, .f32⟩
  | 95 => ⟨S_, .f32⟩
  | 96 => ⟨S4x256x256, .f32⟩
  | 97 => ⟨S_, .i32⟩
  | 98 => ⟨S64, .i32⟩
  | 99 => ⟨S64, .i1⟩
  | 100 => ⟨S_, .i32⟩
  | 101 => ⟨S64, .i32⟩
  | 102 => ⟨S64, .i32⟩
  | 103 => ⟨S64, .i32⟩
  | 104 => ⟨S64x1, .i32⟩
  | 105 => ⟨S4x256x64, .f32⟩
  | 106 => ⟨S4x256x256, .f32⟩
  | 107 => ⟨S_, .i32⟩
  | 108 => ⟨S64, .i32⟩
  | 109 => ⟨S64, .i1⟩
  | 110 => ⟨S_, .i32⟩
  | 111 => ⟨S64, .i32⟩
  | 112 => ⟨S64, .i32⟩
  | 113 => ⟨S64, .i32⟩
  | 114 => ⟨S64x1, .i32⟩
  | 115 => ⟨S4x256x64, .f32⟩
  | 116 => ⟨S4x256x64, .f32⟩
  | 117 => ⟨S_, .f32⟩
  | 118 => ⟨S4x64, .f32⟩
  | 119 => ⟨S4x1x64, .f32⟩
  | 120 => ⟨S4x1x64, .f32⟩
  | 121 => ⟨S_, .f32⟩
  | 122 => ⟨S4x1x64, .f32⟩
  | 123 => ⟨S4x1x64, .f32⟩
  | 124 => ⟨S4x256x64, .f32⟩
  | 125 => ⟨S4x256x64, .f32⟩
  | 126 => ⟨S4x256x64, .f32⟩
  | 127 => ⟨S_, .f32⟩
  | _ => ⟨S4x32x32x64x64, .f32⟩

abbrev hbmTy0_3 (i : Nat) : BufTy := match i % 128 with
  | 0 => ⟨S4x64, .f32⟩
  | 1 => ⟨S4x1x64, .f32⟩
  | 2 => ⟨S4x1x64, .f32⟩
  | 3 => ⟨S_, .f32⟩
  | 4 => ⟨S4x1x64, .f32⟩
  | 5 => ⟨S4x1x64, .f32⟩
  | 6 => ⟨S4x256x64, .f32⟩
  | 7 => ⟨S4x256x64, .f32⟩
  | 8 => ⟨S4x256x64, .f32⟩
  | 9 => ⟨S_, .f32⟩
  | 10 => ⟨S4x64, .f32⟩
  | 11 => ⟨S4x64x64, .f32⟩
  | 12 => ⟨S64x64, .i32⟩
  | 13 => ⟨S64x64, .i32⟩
  | 14 => ⟨S_, .i32⟩
  | 15 => ⟨S64x64, .i32⟩
  | 16 => ⟨S64x64, .i32⟩
  | 17 => ⟨S64x64, .i1⟩
  | 18 => ⟨S1x64x64, .i1⟩
  | 19 => ⟨S_, .f32⟩
  | 20 => ⟨S_, .f32⟩
  | 21 => ⟨S4x64x64, .i1⟩
  | 22 => ⟨S4x64x64, .f32⟩
  | 23 => ⟨S4x64x64, .f32⟩
  | 24 => ⟨S4x64x1, .f32⟩
  | 25 => ⟨S4x64x65, .f32⟩
  | 26 => ⟨S_, .f32⟩
  | 27 => ⟨S4x64x65, .f32⟩
  | 28 => ⟨S4x64x65, .f32⟩
  | 29 => ⟨S_, .f32⟩
  | 30 => ⟨S4x64, .f32⟩
  | 31 => ⟨S_, .f32⟩
  | 32 => ⟨S4x64, .f32⟩
  | 33 => ⟨S4x64, .f32⟩
  | 34 => ⟨S4x64x1, .f32⟩
  | 35 => ⟨S4x64x65, .f32⟩
  | 36 => ⟨S4x64x65, .f32⟩
  | 37 => ⟨S4x64x65, .f32⟩
  | 38 => ⟨S_, .f32⟩
  | 39 => ⟨S4x64, .f32⟩
  | 40 => ⟨S4x64x1, .f32⟩
  | 41 => ⟨S4x64x1, .f32⟩
  | 42 => ⟨S4x64x65, .f32⟩
  | 43 => ⟨S4x64x65, .f32⟩
  | 44 => ⟨S4x64x1, .f32⟩
  | 45 => ⟨S4x64, .f32⟩
  | 46 => ⟨S4x64, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | _ => ⟨S4x32x32x64x64, .f32⟩

abbrev hbmTy (i : Nat) : BufTy := match i / 128 with
  | 0 => hbmTy0_0 i
  | 1 => hbmTy0_1 i
  | 2 => hbmTy0_2 i
  | 3 => hbmTy0_3 i
  | _ => ⟨S4x32x32x64x64, .f32⟩

abbrev bufTy : (tb : Table) → Fin (tcTables nBuf tb) → BufTy
  | .hbm, ⟨i, _⟩ => hbmTy i
  | _, _ => ⟨S4x32x32x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_c_1 : Ref sig .tc := ⟨.hbm, 26, rfl⟩
abbrev main_v9 : Ref sig .tc := ⟨.hbm, 27, rfl⟩
abbrev main_v10 : Ref sig .tc := ⟨.hbm, 28, rfl⟩
abbrev main_c_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_call1_v2 : Ref sig .tc := ⟨.hbm, 48, rfl⟩
abbrev main_v21 : Ref sig .tc := ⟨.hbm, 49, rfl⟩
abbrev main_cst_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_c_5 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_7 : Ref sig .tc := ⟨.hbm, 73, rfl⟩
abbrev main_v38 : Ref sig .tc := ⟨.hbm, 74, rfl⟩
abbrev main_v39 : Ref sig .tc := ⟨.hbm, 75, rfl⟩
abbrev main_call3_cst : Ref sig .tc := ⟨.hbm, 76, rfl⟩
abbrev main_call3_v0 : Ref sig .tc := ⟨.hbm, 77, rfl⟩
abbrev main_call3_cst_0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_cst_1 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_cst_8 : Ref sig .tc := ⟨.hbm, 94, rfl⟩
abbrev main_v44 : Ref sig .tc := ⟨.hbm, 95, rfl⟩
abbrev main_cst_9 : Ref sig .tc := ⟨.hbm, 96, rfl⟩
abbrev main_v45 : Ref sig .tc := ⟨.hbm, 97, rfl⟩
abbrev main_cst_10 : Ref sig .tc := ⟨.hbm, 98, rfl⟩
abbrev main_v46 : Ref sig .tc := ⟨.hbm, 99, rfl⟩
abbrev main_v47 : Ref sig .tc := ⟨.hbm, 100, rfl⟩
abbrev main_c_11 : Ref sig .tc := ⟨.hbm, 101, rfl⟩
abbrev main_v48 : Ref sig .tc := ⟨.hbm, 102, rfl⟩
abbrev main_v49 : Ref sig .tc := ⟨.hbm, 103, rfl⟩
abbrev main_c_12 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_c_13 : Ref sig .tc := ⟨.hbm, 111, rfl⟩
abbrev main_v56 : Ref sig .tc := ⟨.hbm, 112, rfl⟩
abbrev main_v57 : Ref sig .tc := ⟨.hbm, 113, rfl⟩
abbrev main_c_14 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_call4_v0 : Ref sig .tc := ⟨.hbm, 120, rfl⟩
abbrev main_call4_cst : Ref sig .tc := ⟨.hbm, 121, rfl⟩
abbrev main_call4_v1 : Ref sig .tc := ⟨.hbm, 122, rfl⟩
abbrev main_call4_v2 : Ref sig .tc := ⟨.hbm, 123, rfl⟩
abbrev main_v63 : Ref sig .tc := ⟨.hbm, 124, rfl⟩
abbrev main_cst_15 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_call5_v0 : Ref sig .tc := ⟨.hbm, 130, rfl⟩
abbrev main_call5_cst : Ref sig .tc := ⟨.hbm, 131, rfl⟩
abbrev main_call5_v1 : Ref sig .tc := ⟨.hbm, 132, rfl⟩
abbrev main_call5_v2 : Ref sig .tc := ⟨.hbm, 133, rfl⟩
abbrev main_v68 : Ref sig .tc := ⟨.hbm, 134, rfl⟩
abbrev main_cst_16 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_cst_17 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_c_18 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_cst_19 : Ref sig .tc := ⟨.hbm, 151, rfl⟩
abbrev main_call6_v0 : Ref sig .tc := ⟨.hbm, 152, rfl⟩
abbrev main_call6_v1 : Ref sig .tc := ⟨.hbm, 153, rfl⟩
abbrev main_call6_v2 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_cst_20 : Ref sig .tc := ⟨.hbm, 158, rfl⟩
abbrev main_v85 : Ref sig .tc := ⟨.hbm, 159, rfl⟩
abbrev main_v86 : Ref sig .tc := ⟨.hbm, 160, rfl⟩
abbrev main_call7_cst : Ref sig .tc := ⟨.hbm, 161, rfl⟩
abbrev main_call7_v0 : Ref sig .tc := ⟨.hbm, 162, rfl⟩
abbrev main_call7_cst_0 : Ref sig .tc := ⟨.hbm, 163, rfl⟩
abbrev main_call7_v1 : Ref sig .tc := ⟨.hbm, 164, rfl⟩
abbrev main_call7_v2 : Ref sig .tc := ⟨.hbm, 165, rfl⟩
abbrev main_call7_v3 : Ref sig .tc := ⟨.hbm, 166, rfl⟩
abbrev main_call7_v4 : Ref sig .tc := ⟨.hbm, 167, rfl⟩
abbrev main_call7_v5 : Ref sig .tc := ⟨.hbm, 168, rfl⟩
abbrev main_call7_v6 : Ref sig .tc := ⟨.hbm, 169, rfl⟩
abbrev main_call7_cst_1 : Ref sig .tc := ⟨.hbm, 170, rfl⟩
abbrev main_call7_v7 : Ref sig .tc := ⟨.hbm, 171, rfl⟩
abbrev main_call7_v8 : Ref sig .tc := ⟨.hbm, 172, rfl⟩
abbrev main_call7_v9 : Ref sig .tc := ⟨.hbm, 173, rfl⟩
abbrev main_call7_v10 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_cst_21 : Ref sig .tc := ⟨.hbm, 179, rfl⟩
abbrev main_v91 : Ref sig .tc := ⟨.hbm, 180, rfl⟩
abbrev main_cst_22 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_c_23 : Ref sig .tc := ⟨.hbm, 185, rfl⟩
abbrev main_v95 : Ref sig .tc := ⟨.hbm, 186, rfl⟩
abbrev main_v96 : Ref sig .tc := ⟨.hbm, 187, rfl⟩
abbrev main_c_24 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_c_25 : Ref sig .tc := ⟨.hbm, 195, rfl⟩
abbrev main_v103 : Ref sig .tc := ⟨.hbm, 196, rfl⟩
abbrev main_v104 : Ref sig .tc := ⟨.hbm, 197, rfl⟩
abbrev main_c_26 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_call8_v0 : Ref sig .tc := ⟨.hbm, 204, rfl⟩
abbrev main_call8_cst : Ref sig .tc := ⟨.hbm, 205, rfl⟩
abbrev main_call8_v1 : Ref sig .tc := ⟨.hbm, 206, rfl⟩
abbrev main_call8_v2 : Ref sig .tc := ⟨.hbm, 207, rfl⟩
abbrev main_v110 : Ref sig .tc := ⟨.hbm, 208, rfl⟩
abbrev main_cst_27 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_v114 : Ref sig .tc := ⟨.hbm, 213, rfl⟩
abbrev main_call9_v0 : Ref sig .tc := ⟨.hbm, 214, rfl⟩
abbrev main_call9_cst : Ref sig .tc := ⟨.hbm, 215, rfl⟩
abbrev main_call9_v1 : Ref sig .tc := ⟨.hbm, 216, rfl⟩
abbrev main_call9_v2 : Ref sig .tc := ⟨.hbm, 217, rfl⟩
abbrev main_v115 : Ref sig .tc := ⟨.hbm, 218, rfl⟩
abbrev main_cst_28 : Ref sig .tc := ⟨.hbm, 219, rfl⟩
abbrev main_v116 : Ref sig .tc := ⟨.hbm, 220, rfl⟩
abbrev main_v117 : Ref sig .tc := ⟨.hbm, 221, rfl⟩
abbrev main_v118 : Ref sig .tc := ⟨.hbm, 222, rfl⟩
abbrev main_v119 : Ref sig .tc := ⟨.hbm, 223, rfl⟩
abbrev main_v120 : Ref sig .tc := ⟨.hbm, 224, rfl⟩
abbrev main_cst_29 : Ref sig .tc := ⟨.hbm, 225, rfl⟩
abbrev main_v121 : Ref sig .tc := ⟨.hbm, 226, rfl⟩
abbrev main_v122 : Ref sig .tc := ⟨.hbm, 227, rfl⟩
abbrev main_v123 : Ref sig .tc := ⟨.hbm, 228, rfl⟩
abbrev main_v124 : Ref sig .tc := ⟨.hbm, 229, rfl⟩
abbrev main_c_30 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_cst_31 : Ref sig .tc := ⟨.hbm, 235, rfl⟩
abbrev main_call10_v0 : Ref sig .tc := ⟨.hbm, 236, rfl⟩
abbrev main_call10_v1 : Ref sig .tc := ⟨.hbm, 237, rfl⟩
abbrev main_call10_v2 : Ref sig .tc := ⟨.hbm, 238, rfl⟩
abbrev main_v129 : Ref sig .tc := ⟨.hbm, 239, rfl⟩
abbrev main_v130 : Ref sig .tc := ⟨.hbm, 240, rfl⟩
abbrev main_v131 : Ref sig .tc := ⟨.hbm, 241, rfl⟩
abbrev main_cst_32 : Ref sig .tc := ⟨.hbm, 242, rfl⟩
abbrev main_v132 : Ref sig .tc := ⟨.hbm, 243, rfl⟩
abbrev main_v133 : Ref sig .tc := ⟨.hbm, 244, rfl⟩
abbrev main_call11_cst : Ref sig .tc := ⟨.hbm, 245, rfl⟩
abbrev main_call11_v0 : Ref sig .tc := ⟨.hbm, 246, rfl⟩
abbrev main_call11_cst_0 : Ref sig .tc := ⟨.hbm, 247, rfl⟩
abbrev main_call11_v1 : Ref sig .tc := ⟨.hbm, 248, rfl⟩
abbrev main_call11_v2 : Ref sig .tc := ⟨.hbm, 249, rfl⟩
abbrev main_call11_v3 : Ref sig .tc := ⟨.hbm, 250, rfl⟩
abbrev main_call11_v4 : Ref sig .tc := ⟨.hbm, 251, rfl⟩
abbrev main_call11_v5 : Ref sig .tc := ⟨.hbm, 252, rfl⟩
abbrev main_call11_v6 : Ref sig .tc := ⟨.hbm, 253, rfl⟩
abbrev main_call11_cst_1 : Ref sig .tc := ⟨.hbm, 254, rfl⟩
abbrev main_call11_v7 : Ref sig .tc := ⟨.hbm, 255, rfl⟩
abbrev main_call11_v8 : Ref sig .tc := ⟨.hbm, 256, rfl⟩
abbrev main_call11_v9 : Ref sig .tc := ⟨.hbm, 257, rfl⟩
abbrev main_call11_v10 : Ref sig .tc := ⟨.hbm, 258, rfl⟩
abbrev main_v134 : Ref sig .tc := ⟨.hbm, 259, rfl⟩
abbrev main_v135 : Ref sig .tc := ⟨.hbm, 260, rfl⟩
abbrev main_v136 : Ref sig .tc := ⟨.hbm, 261, rfl⟩
abbrev main_v137 : Ref sig .tc := ⟨.hbm, 262, rfl⟩
abbrev main_cst_33 : Ref sig .tc := ⟨.hbm, 263, rfl⟩
abbrev main_v138 : Ref sig .tc := ⟨.hbm, 264, rfl⟩
abbrev main_cst_34 : Ref sig .tc := ⟨.hbm, 265, rfl⟩
abbrev main_v139 : Ref sig .tc := ⟨.hbm, 266, rfl⟩
abbrev main_v140 : Ref sig .tc := ⟨.hbm, 267, rfl⟩
abbrev main_v141 : Ref sig .tc := ⟨.hbm, 268, rfl⟩
abbrev main_c_35 : Ref sig .tc := ⟨.hbm, 269, rfl⟩
abbrev main_v142 : Ref sig .tc := ⟨.hbm, 270, rfl⟩
abbrev main_v143 : Ref sig .tc := ⟨.hbm, 271, rfl⟩
abbrev main_c_36 : Ref sig .tc := ⟨.hbm, 272, rfl⟩
abbrev main_v144 : Ref sig .tc := ⟨.hbm, 273, rfl⟩
abbrev main_v145 : Ref sig .tc := ⟨.hbm, 274, rfl⟩
abbrev main_v146 : Ref sig .tc := ⟨.hbm, 275, rfl⟩
abbrev main_v147 : Ref sig .tc := ⟨.hbm, 276, rfl⟩
abbrev main_v148 : Ref sig .tc := ⟨.hbm, 277, rfl⟩
abbrev main_v149 : Ref sig .tc := ⟨.hbm, 278, rfl⟩
abbrev main_c_37 : Ref sig .tc := ⟨.hbm, 279, rfl⟩
abbrev main_v150 : Ref sig .tc := ⟨.hbm, 280, rfl⟩
abbrev main_v151 : Ref sig .tc := ⟨.hbm, 281, rfl⟩
abbrev main_c_38 : Ref sig .tc := ⟨.hbm, 282, rfl⟩
abbrev main_v152 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩
abbrev main_call12_v0 : Ref sig .tc := ⟨.hbm, 288, rfl⟩
abbrev main_call12_cst : Ref sig .tc := ⟨.hbm, 289, rfl⟩
abbrev main_call12_v1 : Ref sig .tc := ⟨.hbm, 290, rfl⟩
abbrev main_call12_v2 : Ref sig .tc := ⟨.hbm, 291, rfl⟩
abbrev main_v157 : Ref sig .tc := ⟨.hbm, 292, rfl⟩
abbrev main_cst_39 : Ref sig .tc := ⟨.hbm, 293, rfl⟩
abbrev main_v158 : Ref sig .tc := ⟨.hbm, 294, rfl⟩
abbrev main_v159 : Ref sig .tc := ⟨.hbm, 295, rfl⟩
abbrev main_v160 : Ref sig .tc := ⟨.hbm, 296, rfl⟩
abbrev main_v161 : Ref sig .tc := ⟨.hbm, 297, rfl⟩
abbrev main_call13_v0 : Ref sig .tc := ⟨.hbm, 298, rfl⟩
abbrev main_call13_cst : Ref sig .tc := ⟨.hbm, 299, rfl⟩
abbrev main_call13_v1 : Ref sig .tc := ⟨.hbm, 300, rfl⟩
abbrev main_call13_v2 : Ref sig .tc := ⟨.hbm, 301, rfl⟩
abbrev main_v162 : Ref sig .tc := ⟨.hbm, 302, rfl⟩
abbrev main_cst_40 : Ref sig .tc := ⟨.hbm, 303, rfl⟩
abbrev main_v163 : Ref sig .tc := ⟨.hbm, 304, rfl⟩
abbrev main_v164 : Ref sig .tc := ⟨.hbm, 305, rfl⟩
abbrev main_v165 : Ref sig .tc := ⟨.hbm, 306, rfl⟩
abbrev main_v166 : Ref sig .tc := ⟨.hbm, 307, rfl⟩
abbrev main_v167 : Ref sig .tc := ⟨.hbm, 308, rfl⟩
abbrev main_cst_41 : Ref sig .tc := ⟨.hbm, 309, rfl⟩
abbrev main_v168 : Ref sig .tc := ⟨.hbm, 310, rfl⟩
abbrev main_v169 : Ref sig .tc := ⟨.hbm, 311, rfl⟩
abbrev main_v170 : Ref sig .tc := ⟨.hbm, 312, rfl⟩
abbrev main_v171 : Ref sig .tc := ⟨.hbm, 313, rfl⟩
abbrev main_c_42 : Ref sig .tc := ⟨.hbm, 314, rfl⟩
abbrev main_v172 : Ref sig .tc := ⟨.hbm, 315, rfl⟩
abbrev main_v173 : Ref sig .tc := ⟨.hbm, 316, rfl⟩
abbrev main_v174 : Ref sig .tc := ⟨.hbm, 317, rfl⟩
abbrev main_v175 : Ref sig .tc := ⟨.hbm, 318, rfl⟩
abbrev main_cst_43 : Ref sig .tc := ⟨.hbm, 319, rfl⟩
abbrev main_call14_v0 : Ref sig .tc := ⟨.hbm, 320, rfl⟩
abbrev main_call14_v1 : Ref sig .tc := ⟨.hbm, 321, rfl⟩
abbrev main_call14_v2 : Ref sig .tc := ⟨.hbm, 322, rfl⟩
abbrev main_v176 : Ref sig .tc := ⟨.hbm, 323, rfl⟩
abbrev main_v177 : Ref sig .tc := ⟨.hbm, 324, rfl⟩
abbrev main_v178 : Ref sig .tc := ⟨.hbm, 325, rfl⟩
abbrev main_cst_44 : Ref sig .tc := ⟨.hbm, 326, rfl⟩
abbrev main_v179 : Ref sig .tc := ⟨.hbm, 327, rfl⟩
abbrev main_v180 : Ref sig .tc := ⟨.hbm, 328, rfl⟩
abbrev main_call15_cst : Ref sig .tc := ⟨.hbm, 329, rfl⟩
abbrev main_call15_v0 : Ref sig .tc := ⟨.hbm, 330, rfl⟩
abbrev main_call15_cst_0 : Ref sig .tc := ⟨.hbm, 331, rfl⟩
abbrev main_call15_v1 : Ref sig .tc := ⟨.hbm, 332, rfl⟩
abbrev main_call15_v2 : Ref sig .tc := ⟨.hbm, 333, rfl⟩
abbrev main_call15_v3 : Ref sig .tc := ⟨.hbm, 334, rfl⟩
abbrev main_call15_v4 : Ref sig .tc := ⟨.hbm, 335, rfl⟩
abbrev main_call15_v5 : Ref sig .tc := ⟨.hbm, 336, rfl⟩
abbrev main_call15_v6 : Ref sig .tc := ⟨.hbm, 337, rfl⟩
abbrev main_call15_cst_1 : Ref sig .tc := ⟨.hbm, 338, rfl⟩
abbrev main_call15_v7 : Ref sig .tc := ⟨.hbm, 339, rfl⟩
abbrev main_call15_v8 : Ref sig .tc := ⟨.hbm, 340, rfl⟩
abbrev main_call15_v9 : Ref sig .tc := ⟨.hbm, 341, rfl⟩
abbrev main_call15_v10 : Ref sig .tc := ⟨.hbm, 342, rfl⟩
abbrev main_v181 : Ref sig .tc := ⟨.hbm, 343, rfl⟩
abbrev main_v182 : Ref sig .tc := ⟨.hbm, 344, rfl⟩
abbrev main_v183 : Ref sig .tc := ⟨.hbm, 345, rfl⟩
abbrev main_v184 : Ref sig .tc := ⟨.hbm, 346, rfl⟩
abbrev main_cst_45 : Ref sig .tc := ⟨.hbm, 347, rfl⟩
abbrev main_v185 : Ref sig .tc := ⟨.hbm, 348, rfl⟩
abbrev main_cst_46 : Ref sig .tc := ⟨.hbm, 349, rfl⟩
abbrev main_v186 : Ref sig .tc := ⟨.hbm, 350, rfl⟩
abbrev main_v187 : Ref sig .tc := ⟨.hbm, 351, rfl⟩
abbrev main_v188 : Ref sig .tc := ⟨.hbm, 352, rfl⟩
abbrev main_c_47 : Ref sig .tc := ⟨.hbm, 353, rfl⟩
abbrev main_v189 : Ref sig .tc := ⟨.hbm, 354, rfl⟩
abbrev main_v190 : Ref sig .tc := ⟨.hbm, 355, rfl⟩
abbrev main_c_48 : Ref sig .tc := ⟨.hbm, 356, rfl⟩
abbrev main_v191 : Ref sig .tc := ⟨.hbm, 357, rfl⟩
abbrev main_v192 : Ref sig .tc := ⟨.hbm, 358, rfl⟩
abbrev main_v193 : Ref sig .tc := ⟨.hbm, 359, rfl⟩
abbrev main_v194 : Ref sig .tc := ⟨.hbm, 360, rfl⟩
abbrev main_v195 : Ref sig .tc := ⟨.hbm, 361, rfl⟩
abbrev main_v196 : Ref sig .tc := ⟨.hbm, 362, rfl⟩
abbrev main_c_49 : Ref sig .tc := ⟨.hbm, 363, rfl⟩
abbrev main_v197 : Ref sig .tc := ⟨.hbm, 364, rfl⟩
abbrev main_v198 : Ref sig .tc := ⟨.hbm, 365, rfl⟩
abbrev main_c_50 : Ref sig .tc := ⟨.hbm, 366, rfl⟩
abbrev main_v199 : Ref sig .tc := ⟨.hbm, 367, rfl⟩
abbrev main_v200 : Ref sig .tc := ⟨.hbm, 368, rfl⟩
abbrev main_v201 : Ref sig .tc := ⟨.hbm, 369, rfl⟩
abbrev main_v202 : Ref sig .tc := ⟨.hbm, 370, rfl⟩
abbrev main_v203 : Ref sig .tc := ⟨.hbm, 371, rfl⟩
abbrev main_call16_v0 : Ref sig .tc := ⟨.hbm, 372, rfl⟩
abbrev main_call16_cst : Ref sig .tc := ⟨.hbm, 373, rfl⟩
abbrev main_call16_v1 : Ref sig .tc := ⟨.hbm, 374, rfl⟩
abbrev main_call16_v2 : Ref sig .tc := ⟨.hbm, 375, rfl⟩
abbrev main_v204 : Ref sig .tc := ⟨.hbm, 376, rfl⟩
abbrev main_cst_51 : Ref sig .tc := ⟨.hbm, 377, rfl⟩
abbrev main_v205 : Ref sig .tc := ⟨.hbm, 378, rfl⟩
abbrev main_v206 : Ref sig .tc := ⟨.hbm, 379, rfl⟩
abbrev main_v207 : Ref sig .tc := ⟨.hbm, 380, rfl⟩
abbrev main_v208 : Ref sig .tc := ⟨.hbm, 381, rfl⟩
abbrev main_call17_v0 : Ref sig .tc := ⟨.hbm, 382, rfl⟩
abbrev main_call17_cst : Ref sig .tc := ⟨.hbm, 383, rfl⟩
abbrev main_call17_v1 : Ref sig .tc := ⟨.hbm, 384, rfl⟩
abbrev main_call17_v2 : Ref sig .tc := ⟨.hbm, 385, rfl⟩
abbrev main_v209 : Ref sig .tc := ⟨.hbm, 386, rfl⟩
abbrev main_cst_52 : Ref sig .tc := ⟨.hbm, 387, rfl⟩
abbrev main_v210 : Ref sig .tc := ⟨.hbm, 388, rfl⟩
abbrev main_v211 : Ref sig .tc := ⟨.hbm, 389, rfl⟩
abbrev main_v212 : Ref sig .tc := ⟨.hbm, 390, rfl⟩
abbrev main_v213 : Ref sig .tc := ⟨.hbm, 391, rfl⟩
abbrev main_v214 : Ref sig .tc := ⟨.hbm, 392, rfl⟩
abbrev main_cst_53 : Ref sig .tc := ⟨.hbm, 393, rfl⟩
abbrev main_v215 : Ref sig .tc := ⟨.hbm, 394, rfl⟩
abbrev main_v216 : Ref sig .tc := ⟨.hbm, 395, rfl⟩
abbrev main_v217 : Ref sig .tc := ⟨.hbm, 396, rfl⟩
abbrev main_v218 : Ref sig .tc := ⟨.hbm, 397, rfl⟩
abbrev main_c_54 : Ref sig .tc := ⟨.hbm, 398, rfl⟩
abbrev main_v219 : Ref sig .tc := ⟨.hbm, 399, rfl⟩
abbrev main_v220 : Ref sig .tc := ⟨.hbm, 400, rfl⟩
abbrev main_v221 : Ref sig .tc := ⟨.hbm, 401, rfl⟩
abbrev main_v222 : Ref sig .tc := ⟨.hbm, 402, rfl⟩
abbrev main_cst_55 : Ref sig .tc := ⟨.hbm, 403, rfl⟩
abbrev main_call18_v0 : Ref sig .tc := ⟨.hbm, 404, rfl⟩
abbrev main_call18_v1 : Ref sig .tc := ⟨.hbm, 405, rfl⟩
abbrev main_call18_v2 : Ref sig .tc := ⟨.hbm, 406, rfl⟩
abbrev main_v223 : Ref sig .tc := ⟨.hbm, 407, rfl⟩
abbrev main_v224 : Ref sig .tc := ⟨.hbm, 408, rfl⟩
abbrev main_v225 : Ref sig .tc := ⟨.hbm, 409, rfl⟩
abbrev main_cst_56 : Ref sig .tc := ⟨.hbm, 410, rfl⟩
abbrev main_v226 : Ref sig .tc := ⟨.hbm, 411, rfl⟩
abbrev main_v227 : Ref sig .tc := ⟨.hbm, 412, rfl⟩
abbrev main_call19_cst : Ref sig .tc := ⟨.hbm, 413, rfl⟩
abbrev main_call19_v0 : Ref sig .tc := ⟨.hbm, 414, rfl⟩
abbrev main_call19_cst_0 : Ref sig .tc := ⟨.hbm, 415, rfl⟩
abbrev main_call19_v1 : Ref sig .tc := ⟨.hbm, 416, rfl⟩
abbrev main_call19_v2 : Ref sig .tc := ⟨.hbm, 417, rfl⟩
abbrev main_call19_v3 : Ref sig .tc := ⟨.hbm, 418, rfl⟩
abbrev main_call19_v4 : Ref sig .tc := ⟨.hbm, 419, rfl⟩
abbrev main_call19_v5 : Ref sig .tc := ⟨.hbm, 420, rfl⟩
abbrev main_call19_v6 : Ref sig .tc := ⟨.hbm, 421, rfl⟩
abbrev main_call19_cst_1 : Ref sig .tc := ⟨.hbm, 422, rfl⟩
abbrev main_call19_v7 : Ref sig .tc := ⟨.hbm, 423, rfl⟩
abbrev main_call19_v8 : Ref sig .tc := ⟨.hbm, 424, rfl⟩
abbrev main_call19_v9 : Ref sig .tc := ⟨.hbm, 425, rfl⟩
abbrev main_call19_v10 : Ref sig .tc := ⟨.hbm, 426, rfl⟩
abbrev main_v228 : Ref sig .tc := ⟨.hbm, 427, rfl⟩
abbrev main_v229 : Ref sig .tc := ⟨.hbm, 428, rfl⟩
abbrev main_v230 : Ref sig .tc := ⟨.hbm, 429, rfl⟩
abbrev main_v231 : Ref sig .tc := ⟨.hbm, 430, rfl⟩
abbrev main_cst_57 : Ref sig .tc := ⟨.hbm, 431, rfl⟩
abbrev main_v232 : Ref sig .tc := ⟨.hbm, 432, rfl⟩
abbrev main_cst_58 : Ref sig .tc := ⟨.hbm, 433, rfl⟩
abbrev main_v233 : Ref sig .tc := ⟨.hbm, 434, rfl⟩
abbrev main_v234 : Ref sig .tc := ⟨.hbm, 435, rfl⟩
abbrev main_cst_59 : Ref sig .tc := ⟨.hbm, 436, rfl⟩
abbrev main_v235 : Ref sig .tc := ⟨.hbm, 437, rfl⟩

abbrev nD : Nat := 1
abbrev τ : Topo := Topo.v7x

variable {F : FTy → Type} [FloatOps F]

class Facts₀ : Prop where
  shapeCasts_S4x32x32x64x64_S4x32x131072 : S4x32x32x64x64.ShapeCasts S4x32x131072
  bcast_S_S64 : S_.BroadcastsInDim S64 (![] : Fin 0 → Fin S64.rank)
  bcast_S64_S64x1_0 : S64.BroadcastsInDim S64x1 (![0] : Fin 1 → Fin S64x1.rank)
  reducesTo_S4x32x64_S4x64_d1 : S4x32x64.ReducesTo [1] S4x64
  h_S_ : 0 < S_.numel
  bcast_S4x64_S4x1x64_0_2 : S4x64.BroadcastsInDim S4x1x64 (![0, 2] : Fin 2 → Fin S4x1x64.rank)
  bcast_S_S4x1x64 : S_.BroadcastsInDim S4x1x64 (![] : Fin 0 → Fin S4x1x64.rank)
  bcast_S4x1x64_S4x32x64_0_1_2 : S4x1x64.BroadcastsInDim S4x32x64 (![0, 1, 2] : Fin 3 → Fin S4x32x64.rank)
  bcast_S_S64x64 : S_.BroadcastsInDim S64x64 (![] : Fin 0 → Fin S64x64.rank)
  bcast_S64x64_S1x64x64_1_2 : S64x64.BroadcastsInDim S1x64x64 (![1, 2] : Fin 2 → Fin S1x64x64.rank)
  bcast_S1x64x64_S4x64x64_0_1_2 : S1x64x64.BroadcastsInDim S4x64x64 (![0, 1, 2] : Fin 3 → Fin S4x64x64.rank)
  bcast_S_S4x64x64 : S_.BroadcastsInDim S4x64x64 (![] : Fin 0 → Fin S4x64x64.rank)
  bcast_S4x64_S4x64x1_0_1 : S4x64.BroadcastsInDim S4x64x1 (![0, 1] : Fin 2 → Fin S4x64x1.rank)
  concatenates_S4x64x1_S4x64x64_S4x64x65_d2 : Shape.Concatenates [S4x64x1, S4x64x64] S4x64x65 2
  bcast_S_S4x64x65 : S_.BroadcastsInDim S4x64x65 (![] : Fin 0 → Fin S4x64x65.rank)
  reducesTo_S4x64x65_S4x64_d2 : S4x64x65.ReducesTo [2] S4x64
  bcast_S_S4x64 : S_.BroadcastsInDim S4x64 (![] : Fin 0 → Fin S4x64.rank)
  bcast_S4x64x1_S4x64x65_0_1_2 : S4x64x1.BroadcastsInDim S4x64x65 (![0, 1, 2] : Fin 3 → Fin S4x64x65.rank)
  slices_S4x64x65_S4x64x1_0_0_0 : S4x64x65.Slices ![0, 0, 0] S4x64x1
  shapeCasts_S4x64x1_S4x64 : S4x64x1.ShapeCasts S4x64
  reducesTo_S4x64_S_d0_1 : S4x64.ReducesTo [0, 1] S_
  shapeCasts_S4x64x16x32x32_S4x64x16384 : S4x64x16x32x32.ShapeCasts S4x64x16384
  reducesTo_S4x64x64_S4x64_d1 : S4x64x64.ReducesTo [1] S4x64
  bcast_S4x1x64_S4x64x64_0_1_2 : S4x1x64.BroadcastsInDim S4x64x64 (![0, 1, 2] : Fin 3 → Fin S4x64x64.rank)
  shapeCasts_S4x128x8x16x16_S4x128x2048 : S4x128x8x16x16.ShapeCasts S4x128x2048
  reducesTo_S4x128x64_S4x64_d1 : S4x128x64.ReducesTo [1] S4x64
  bcast_S4x1x64_S4x128x64_0_1_2 : S4x1x64.BroadcastsInDim S4x128x64 (![0, 1, 2] : Fin 3 → Fin S4x128x64.rank)
  shapeCasts_S4x256x4x8x8_S4x256x256 : S4x256x4x8x8.ShapeCasts S4x256x256
  reducesTo_S4x256x64_S4x64_d1 : S4x256x64.ReducesTo [1] S4x64
  bcast_S4x1x64_S4x256x64_0_1_2 : S4x1x64.BroadcastsInDim S4x256x64 (![0, 1, 2] : Fin 3 → Fin S4x256x64.rank)
  gather_S4x32x131072_S64x1_S4x32x64_01_2_n_n_2_1_4321_wf : GatherDims.WF S4x32x131072 S64x1 S4x32x64 [0, 1] [2] [] [2] [] 1 ![4, 32, 1]
  dot_S4x32x64_S4x32x64_S4x64x64_1_1_2_2_0_0_wf : DotDims.WF S4x32x64 S4x32x64 S4x64x64 [1] [1] [2] [2] [0] [0]
  gather_S4x64x16384_S64x1_S4x64x64_01_2_n_n_2_1_4641_wf : GatherDims.WF S4x64x16384 S64x1 S4x64x64 [0, 1] [2] [] [2] [] 1 ![4, 64, 1]
  dot_S4x64x64_S4x64x64_S4x64x64_1_1_2_2_0_0_wf : DotDims.WF S4x64x64 S4x64x64 S4x64x64 [1] [1] [2] [2] [0] [0]
  gather_S4x128x2048_S64x1_S4x128x64_01_2_n_n_2_1_41281_wf : GatherDims.WF S4x128x2048 S64x1 S4x128x64 [0, 1] [2] [] [2] [] 1 ![4, 128, 1]
  dot_S4x128x64_S4x128x64_S4x64x64_1_1_2_2_0_0_wf : DotDims.WF S4x128x64 S4x128x64 S4x64x64 [1] [1] [2] [2] [0] [0]
  gather_S4x256x256_S64x1_S4x256x64_01_2_n_n_2_1_42561_wf : GatherDims.WF S4x256x256 S64x1 S4x256x64 [0, 1] [2] [] [2] [] 1 ![4, 256, 1]
  dot_S4x256x64_S4x256x64_S4x64x64_1_1_2_2_0_0_wf : DotDims.WF S4x256x64 S4x256x64 S4x64x64 [1] [1] [2] [2] [0] [0]

variable [Facts₀]

def gather_S4x32x131072_S64x1_S4x32x64_01_2_n_n_2_1_4321 : GatherDims S4x32x131072 S64x1 S4x32x64 where
  offsetDims := [0, 1]
  collapsedSliceDims := [2]
  operandBatchingDims := []
  startIndicesBatchingDims := []
  startIndexMap := [2]
  indexVectorDim := 1
  sliceSizes := ![4, 32, 1]
  wf := gather_S4x32x131072_S64x1_S4x32x64_01_2_n_n_2_1_4321_wf
def dot_S4x32x64_S4x32x64_S4x64x64_1_1_2_2_0_0 : DotDims S4x32x64 S4x32x64 S4x64x64 where
  lhsContracting := [1]
  rhsContracting := [1]
  lhsNonContracting := [2]
  rhsNonContracting := [2]
  lhsBatch := [0]
  rhsBatch := [0]
  wf := dot_S4x32x64_S4x32x64_S4x64x64_1_1_2_2_0_0_wf
def gather_S4x64x16384_S64x1_S4x64x64_01_2_n_n_2_1_4641 : GatherDims S4x64x16384 S64x1 S4x64x64 where
  offsetDims := [0, 1]
  collapsedSliceDims := [2]
  operandBatchingDims := []
  startIndicesBatchingDims := []
  startIndexMap := [2]
  indexVectorDim := 1
  sliceSizes := ![4, 64, 1]
  wf := gather_S4x64x16384_S64x1_S4x64x64_01_2_n_n_2_1_4641_wf
def dot_S4x64x64_S4x64x64_S4x64x64_1_1_2_2_0_0 : DotDims S4x64x64 S4x64x64 S4x64x64 where
  lhsContracting := [1]
  rhsContracting := [1]
  lhsNonContracting := [2]
  rhsNonContracting := [2]
  lhsBatch := [0]
  rhsBatch := [0]
  wf := dot_S4x64x64_S4x64x64_S4x64x64_1_1_2_2_0_0_wf
def gather_S4x128x2048_S64x1_S4x128x64_01_2_n_n_2_1_41281 : GatherDims S4x128x2048 S64x1 S4x128x64 where
  offsetDims := [0, 1]
  collapsedSliceDims := [2]
  operandBatchingDims := []
  startIndicesBatchingDims := []
  startIndexMap := [2]
  indexVectorDim := 1
  sliceSizes := ![4, 128, 1]
  wf := gather_S4x128x2048_S64x1_S4x128x64_01_2_n_n_2_1_41281_wf
def dot_S4x128x64_S4x128x64_S4x64x64_1_1_2_2_0_0 : DotDims S4x128x64 S4x128x64 S4x64x64 where
  lhsContracting := [1]
  rhsContracting := [1]
  lhsNonContracting := [2]
  rhsNonContracting := [2]
  lhsBatch := [0]
  rhsBatch := [0]
  wf := dot_S4x128x64_S4x128x64_S4x64x64_1_1_2_2_0_0_wf
def gather_S4x256x256_S64x1_S4x256x64_01_2_n_n_2_1_42561 : GatherDims S4x256x256 S64x1 S4x256x64 where
  offsetDims := [0, 1]
  collapsedSliceDims := [2]
  operandBatchingDims := []
  startIndicesBatchingDims := []
  startIndexMap := [2]
  indexVectorDim := 1
  sliceSizes := ![4, 256, 1]
  wf := gather_S4x256x256_S64x1_S4x256x64_01_2_n_n_2_1_42561_wf
def dot_S4x256x64_S4x256x64_S4x64x64_1_1_2_2_0_0 : DotDims S4x256x64 S4x256x64 S4x64x64 where
  lhsContracting := [1]
  rhsContracting := [1]
  lhsNonContracting := [2]
  rhsNonContracting := [2]
  lhsBatch := [0]
  rhsBatch := [0]
  wf := dot_S4x256x64_S4x256x64_S4x64x64_1_1_2_2_0_0_wf

class Facts : Prop extends Facts₀ where

variable [Facts]
-- ==== Proof.K.RegionSegs.lean ====
/-
  A pallas_call of @main as a segment of the run, from what its half supplies.

  Between two items of @main every unscoped buffer of a core is held whole at a valuation, beside the core's
  generator register at some state and the core owing nothing. A pallas_call enters from the valuation `Vin`
  and leaves at `Vout`: its windows' arrays are split out of the unscoped buffers at entry and put back at exit,
  where each array holds what the pipeline's write-backs leave (`hF`) and every other buffer what it held
  (`hrest`); the generator register and the scoped buffers no window stages go into the region's invariant and
  come back; the kernel has no semaphore of its own and owes nothing at the pipeline's cells.
-/
import proofs.«430285_j43310450213294_2_alg».proof.Proof.Gen.Kernel.Regions
import Idealize.ShloMosaic.Lib.Pipeline.FrameBody
import Idealize.ShloMosaic.Lib.Pipeline.RegionsLoop
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No core owes another anything: no level is assigned. -/
abbrev Lv0 : GSem nD τ sig → Finset Unit := fun _ => ∅
abbrev lv0 : GSem nD τ sig → Unit → ℕ := fun _ _ => 0

/-- What rides beside the buffers through every item: the core's generator register at some state and the core
    owing nothing. -/
abbrev Rest (c : Dev nD) : sProp 𝕄 :=
  iprop((∃ r, prngReg c r) ∗ ∃ W, owes (c : Thread nD τ) (0 : CellTallies nD τ sig Unit) W)

-- a library lemma stated over the pinned configuration unifies with the printed one only when unification may
-- unfold plain definitions in a metavariable's type
set_option backward.isDefEq.respectTransparency.types false in
/-- Pallas_call `p` as a segment, entered at `Vin` and left at `Vout`. -/
def regionSeg (p : Fin 5) (lf : Pipeline.LaunchFacts (nD := nD) (τ := τ) cfgs p)
    (pdats : (q : Fin 5) → (c : Dev nD) → Dat τ (Elt F) Unit ℕ (UR sig nD τ) ℕ (cfgs q) c)
    (Vin Vout : Dev nD → Valuation τ sig (Elt F))
    (hA : ∀ c w, (pdats p c).A w = Vin c (Pipeline.arrRef (pcfgs (F := F) p).spec w))
    (hq : ∀ c w, (pdats p c).q w = fullShare)
    (howed : ∀ c t, (pdats p c).owed t = 0)
    (hrec : ∀ c t, (pdats p c).recorded t = Set.univ)
    (hbody : ∀ c, BodyObligation (pdats p c) (defs₀ (F := F)) Variants.none () Set.univ)
    (hin : ∀ c, (Pipeline.ΦA (pcfgs (F := F) p).spec c : sProp 𝕄) ⊢ (pdats p c).Φ 0)
    (hout : ∀ c, (pdats p c).Φ (Fin.last (cfgs p).N) ⊢ (Pipeline.ΦA (pcfgs (F := F) p).spec c : sProp 𝕄))
    (hF : ∀ c w, (pdats p c).arrAt w (cfgs p).N = Vout c (Pipeline.arrRef (pcfgs (F := F) p).spec w))
    (hrest : ∀ c (b : Ref sig .tc), b ∉ Finset.univ.image (Pipeline.arrRef (pcfgs (F := F) p).spec) → Vout c b = Vin c b) :
    Pipeline.RegionSeg (pcfgs (F := F)) adm pdats () defs₀ Variants.none Lv0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lv0 lv0 p fun c t => howed c t
  pre c := iprop(StableHlo.held (c : Thread nD τ) (Pipeline.ucRefs τ sig) (Vin c) ∗ Rest c)
  post c := iprop(StableHlo.held (c : Thread nD τ) (Pipeline.ucRefs τ sig) (Vout c) ∗ Rest c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Vin c b)
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => Vout c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.Kernel.Hand

end
-- ==== Proof.K.Run.lean ====
/-
  The run of the word-level kernel's program: its five pallas_calls among its stretches of host operations.

  What a pallas_call's half supplies is taken as a record (`Half`): proof data at any entry contents, whose
  arrays are the entry contents', holding full shares, owing nothing, with its body obligation, and whose
  invariant starts from and ends at the class's (the scoped rest and the generator register). The valuations
  between @main's items are staged from the launch memory: a host stretch applies its operations, a pallas_call
  replaces its output array by what its pipeline's write-backs leave. The launch is then called once with every
  unscoped buffer's final contents in the post; the frame claim and the result's value are both read off it.
-/
import proofs.«430285_j43310450213294_2_alg».proof.Proof.K.RegionSegs
import Idealize.ShloMosaic.Lib.Pipeline.FrameSuffix

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-- The TensorCore's buffer contents when a region is entered, per core. -/
abbrev Entry (F : FTy → Type) : Type := (c : Dev nD) → (b : Ref sig .tc) → Buf (Elt F) ((c : Thread nD τ).loc b)

/-- What one pallas_call's half supplies, at every entry contents. -/
structure Half (F : FTy → Type) [FloatOps F] (cfg : Pipeline.Cfg sig Λ₀) where
  dat : Entry F → (c : Dev nD) → Dat τ (Elt F) Unit ℕ (UR sig nD τ) ℕ cfg c
  hA : ∀ V c (w : Fin cfg.W), (dat V c).A w = V c (Pipeline.arrRef cfg.spec w)
  hq : ∀ V c (w : Fin cfg.W), (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA cfg.spec c : sProp (MT nD τ sig Unit (Elt F) ℕ (UR sig nD τ) ℕ)) ⊢ (dat V c).Φ 0
  hout : ∀ V c, (dat V c).Φ (Fin.last cfg.N) ⊢ (Pipeline.ΦA cfg.spec c : sProp (MT nD τ sig Unit (Elt F) ℕ (UR sig nD τ) ℕ))

variable (m : (ℓ : Loc nD τ sig) → Buf (Elt F) ℓ)
variable (H0 : Half F cfg0) (H1 : Half F cfg1) (H2 : Half F cfg2) (H3 : Half F cfg3) (H4 : Half F cfg4)

/-! ## The valuations between the items, staged from the launch memory -/

/-- Before pallas_call 0: the first host stretch applied to the launch memory. -/
abbrev U1 (c : Dev nD) : Valuation τ sig (Elt F) := V1 m c
/-- After pallas_call 0: its arrays at what its pipeline leaves. -/
def W2 (c : Dev nD) : Valuation τ sig (Elt F) :=
  Pipeline.withArrays spec0 c (U1 m c) fun w => (H0.dat (fun c b => U1 m c b) c).arrAt w cfg0.N
abbrev U3 (c : Dev nD) : Valuation τ sig (Elt F) :=
  StableHlo.after hostOps1 (Function.update (U1 m c) main_v3 (W2 m H0 c main_v3))
def W4 (c : Dev nD) : Valuation τ sig (Elt F) :=
  Pipeline.withArrays spec1 c (U3 m H0 c) fun w => (H1.dat (fun c b => U3 m H0 c b) c).arrAt w cfg1.N
abbrev U5 (c : Dev nD) : Valuation τ sig (Elt F) :=
  StableHlo.after hostOps2 (Function.update (U3 m H0 c) main_v10 (W4 m H0 H1 c main_v10))
def W6 (c : Dev nD) : Valuation τ sig (Elt F) :=
  Pipeline.withArrays spec2 c (U5 m H0 H1 c) fun w => (H2.dat (fun c b => U5 m H0 H1 c b) c).arrAt w cfg2.N
abbrev U7 (c : Dev nD) : Valuation τ sig (Elt F) :=
  StableHlo.after hostOps3 (Function.update (U5 m H0 H1 c) main_v17 (W6 m H0 H1 H2 c main_v17))
def W8 (c : Dev nD) : Valuation τ sig (Elt F) :=
  Pipeline.withArrays spec3 c (U7 m H0 H1 H2 c) fun w => (H3.dat (fun c b => U7 m H0 H1 H2 c b) c).arrAt w cfg3.N
abbrev U9 (c : Dev nD) : Valuation τ sig (Elt F) :=
  StableHlo.after hostOps4 (Function.update (U7 m H0 H1 H2 c) main_v24 (W8 m H0 H1 H2 H3 c main_v24))
def W10 (c : Dev nD) : Valuation τ sig (Elt F) :=
  Pipeline.withArrays spec4 c (U9 m H0 H1 H2 H3 c) fun w => (H4.dat (fun c b => U9 m H0 H1 H2 H3 c b) c).arrAt w cfg4.N

/-- What the pallas_calls leave, as the generated valuations read it: after item J−1 the contents of a reference
    are the staged valuation's. -/
def outs : Outs (F := F) := fun J r c =>
  match J with
  | 2 => W2 m H0 c r
  | 4 => W4 m H0 H1 c r
  | 6 => W6 m H0 H1 H2 c r
  | 8 => W8 m H0 H1 H2 H3 c r
  | 10 => W10 m H0 H1 H2 H3 H4 c r
  | _ => m ((c : Thread nD τ).loc r)

theorem V3_eq (c : Dev nD) : V3 m (outs m H0 H1 H2 H3 H4) c = U3 m H0 c := rfl
theorem V5_eq (c : Dev nD) : V5 m (outs m H0 H1 H2 H3 H4) c = U5 m H0 H1 c := rfl
theorem V7_eq (c : Dev nD) : V7 m (outs m H0 H1 H2 H3 H4) c = U7 m H0 H1 H2 c := rfl
theorem V9_eq (c : Dev nD) : V9 m (outs m H0 H1 H2 H3 H4) c = U9 m H0 H1 H2 H3 c := rfl

/-- Every pipeline's proof data, each at its region's entry contents: a literal match, so that the pipeline
    index at a numeral reduces to the printed configuration. -/
def pdats : (p : Fin 5) → (c : Dev nD) → Dat τ (Elt F) Unit ℕ (UR sig nD τ) ℕ (cfgs p) c
  | ⟨0, _⟩ => fun c => H0.dat (fun c b => U1 m c b) c
  | ⟨1, _⟩ => fun c => H1.dat (fun c b => U3 m H0 c b) c
  | ⟨2, _⟩ => fun c => H2.dat (fun c b => U5 m H0 H1 c b) c
  | ⟨3, _⟩ => fun c => H3.dat (fun c b => U7 m H0 H1 H2 c b) c
  | ⟨4, _⟩ => fun c => H4.dat (fun c b => U9 m H0 H1 H2 H3 c b) c
  | ⟨_ + 5, h⟩ => absurd h (Nat.not_lt.2 (Nat.le_add_left _ _))

/-! ## Uniform names per pallas_call: its entry valuation staged, the generated valuations at its two ends, its output -/

abbrev Uin0 (m : (ℓ : Loc nD τ sig) → Buf (Elt F) ℓ) (H0 : Half F cfg0) (H1 : Half F cfg1) (H2 : Half F cfg2) (H3 : Half F cfg3) (H4 : Half F cfg4) (c : Dev nD) : Valuation τ sig (Elt F) := U1 m c
abbrev Uin1 (m : (ℓ : Loc nD τ sig) → Buf (Elt F) ℓ) (H0 : Half F cfg0) (H1 : Half F cfg1) (H2 : Half F cfg2) (H3 : Half F cfg3) (H4 : Half F cfg4) (c : Dev nD) : Valuation τ sig (Elt F) := U3 m H0 c
abbrev Uin2 (m : (ℓ : Loc nD τ sig) → Buf (Elt F) ℓ) (H0 : Half F cfg0) (H1 : Half F cfg1) (H2 : Half F cfg2) (H3 : Half F cfg3) (H4 : Half F cfg4) (c : Dev nD) : Valuation τ sig (Elt F) := U5 m H0 H1 c
abbrev Uin3 (m : (ℓ : Loc nD τ sig) → Buf (Elt F) ℓ) (H0 : Half F cfg0) (H1 : Half F cfg1) (H2 : Half F cfg2) (H3 : Half F cfg3) (H4 : Half F cfg4) (c : Dev nD) : Valuation τ sig (Elt F) := U7 m H0 H1 H2 c
abbrev Uin4 (m : (ℓ : Loc nD τ sig) → Buf (Elt F) ℓ) (H0 : Half F cfg0) (H1 : Half F cfg1) (H2 : Half F cfg2) (H3 : Half F cfg3) (H4 : Half F cfg4) (c : Dev nD) : Valuation τ sig (Elt F) := U9 m H0 H1 H2 H3 c

abbrev Vin0 (o : Outs (F := F)) (c : Dev nD) : Valuation τ sig (Elt F) := V1 m c
abbrev Vin1 (o : Outs (F := F)) (c : Dev nD) : Valuation τ sig (Elt F) := V3 m o c
abbrev Vin2 (o : Outs (F := F)) (c : Dev nD) : Valuation τ sig (Elt F) := V5 m o c
abbrev Vin3 (o : Outs (F := F)) (c : Dev nD) : Valuation τ sig (Elt F) := V7 m o c
abbrev Vin4 (o : Outs (F := F)) (c : Dev nD) : Valuation τ sig (Elt F) := V9 m o c
abbrev Vout0 (o : Outs (F := F)) (c : Dev nD) : Valuation τ sig (Elt F) := V2 m o c
abbrev Vout1 (o : Outs (F := F)) (c : Dev nD) : Valuation τ sig (Elt F) := V4 m o c
abbrev Vout2 (o : Outs (F := F)) (c : Dev nD) : Valuation τ sig (Elt F) := V6 m o c
abbrev Vout3 (o : Outs (F := F)) (c : Dev nD) : Valuation τ sig (Elt F) := V8 m o c
abbrev Vout4 (o : Outs (F := F)) (c : Dev nD) : Valuation τ sig (Elt F) := V10 m o c

abbrev outRef0 : Ref sig .tc := main_v3
abbrev outRef1 : Ref sig .tc := main_v10
abbrev outRef2 : Ref sig .tc := main_v17
abbrev outRef3 : Ref sig .tc := main_v24
abbrev outRef4 : Ref sig .tc := main_v31

theorem Vout0_of (o : Outs (F := F)) (c : Dev nD) (r : Ref sig .tc) (h : r ∉ ([outRef0] : List (Ref sig .tc))) : Vout0 m o c r = Vin0 m o c r := V2_of m o c r h
theorem Vout1_of (o : Outs (F := F)) (c : Dev nD) (r : Ref sig .tc) (h : r ∉ ([outRef1] : List (Ref sig .tc))) : Vout1 m o c r = Vin1 m o c r := V4_of m o c r h
theorem Vout2_of (o : Outs (F := F)) (c : Dev nD) (r : Ref sig .tc) (h : r ∉ ([outRef2] : List (Ref sig .tc))) : Vout2 m o c r = Vin2 m o c r := V6_of m o c r h
theorem Vout3_of (o : Outs (F := F)) (c : Dev nD) (r : Ref sig .tc) (h : r ∉ ([outRef3] : List (Ref sig .tc))) : Vout3 m o c r = Vin3 m o c r := V8_of m o c r h
theorem Vout4_of (o : Outs (F := F)) (c : Dev nD) (r : Ref sig .tc) (h : r ∉ ([outRef4] : List (Ref sig .tc))) : Vout4 m o c r = Vin4 m o c r := V10_of m o c r h

/-- The pipeline indices by name. -/
abbrev pidx0 : Fin 5 := 0
abbrev pidx1 : Fin 5 := 1
abbrev pidx2 : Fin 5 := 2
abbrev pidx3 : Fin 5 := 3
abbrev pidx4 : Fin 5 := 4

end Cert.Kernel.Hand

end
-- ==== Proof.K.Reg0.lean ====
/-
  Pallas_call 0 of the word-level kernel's program as a segment of the run.

  At the call's exit each of its four arrays holds what its pipeline leaves: the three input arrays what they held
  at entry (an input window is never written back), the output array what the write-backs leave, which is how the
  staged valuation after the call was defined; every buffer that is none of the four is as at entry.
-/
import proofs.«430285_j43310450213294_2_alg».proof.Proof.K.Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)
variable (H0 : Half F cfg0) (H1 : Half F cfg1) (H2 : Half F cfg2) (H3 : Half F cfg3) (H4 : Half F cfg4)

/-- At the call's exit each of its arrays holds what the pipeline leaves. -/
theorem hF0 (c : Dev nD) (w : Fin cfg0.W) :
    (pdats m H0 H1 H2 H3 H4 pidx0 c).arrAt w cfg0.N = Vout0 m (outs m H0 H1 H2 H3 H4) c (Pipeline.arrRef spec0 w) := by
  match w with
  | ⟨0, _⟩ =>
    rw [Vout0_of m _ c (Pipeline.arrRef spec0 0) (by decide)]
    exact ((pdats m H0 H1 H2 H3 H4 pidx0 c).arrAt_in 0 rfl _).trans (H0.hA _ c 0)
  | ⟨1, _⟩ =>
    rw [Vout0_of m _ c (Pipeline.arrRef spec0 1) (by decide)]
    exact ((pdats m H0 H1 H2 H3 H4 pidx0 c).arrAt_in 1 rfl _).trans (H0.hA _ c 1)
  | ⟨2, _⟩ =>
    rw [Vout0_of m _ c (Pipeline.arrRef spec0 2) (by decide)]
    exact ((pdats m H0 H1 H2 H3 H4 pidx0 c).arrAt_in 2 rfl _).trans (H0.hA _ c 2)
  | ⟨3, _⟩ =>
    show _ = Function.update (Vin0 m (outs m H0 H1 H2 H3 H4) c) (Proc.devRef .tc outRef0) _ (Proc.devRef .tc outRef0)
    rw [Function.update_self]
    exact (Pipeline.withArrays_arr spec0 launch0.win.arr_inj c (Uin0 m H0 H1 H2 H3 H4 c)
      (fun w => (H0.dat (fun c b => Uin0 m H0 H1 H2 H3 H4 c b) c).arrAt w cfg0.N) 3).symm

/-- Off its arrays the call leaves every unscoped buffer as it found it. -/
theorem hrest0 (c : Dev nD) (b : Ref sig .tc) (hb : b ∉ Finset.univ.image (Pipeline.arrRef spec0)) :
    Vout0 m (outs m H0 H1 H2 H3 H4) c b = Vin0 m (outs m H0 H1 H2 H3 H4) c b :=
  Vout0_of m _ c b (fun h => hb (by
    rw [List.mem_singleton] at h; subst h
    exact Finset.mem_image.mpr ⟨3, Finset.mem_univ _, rfl⟩))

/-- The call as a segment: entered at the valuation before it, left at the one after it. -/
def reg0 : Pipeline.RegionSeg (pcfgs (F := F)) adm (pdats m H0 H1 H2 H3 H4) () defs₀ Variants.none Lv0 lv0 pidx0 :=
  regionSeg pidx0 launch0 (pdats m H0 H1 H2 H3 H4) (fun c => Vin0 m (outs m H0 H1 H2 H3 H4) c) (fun c => Vout0 m (outs m H0 H1 H2 H3 H4) c)
    (fun c w => H0.hA _ c w) (fun c w => H0.hq _ c w) (fun c t => H0.howed _ c t) (fun c t => H0.hrec _ c t)
    (fun c => H0.hbody _ c) (fun c => H0.hin _ c) (fun c => H0.hout _ c)
    (hF0 m H0 H1 H2 H3 H4) (hrest0 m H0 H1 H2 H3 H4)

end Cert.Kernel.Hand

end
-- ==== Proof.K.Reg1.lean ====
/-
  Pallas_call 1 of the word-level kernel's program as a segment of the run.

  At the call's exit each of its four arrays holds what its pipeline leaves: the three input arrays what they held
  at entry (an input window is never written back), the output array what the write-backs leave, which is how the
  staged valuation after the call was defined; every buffer that is none of the four is as at entry.
-/
import proofs.«430285_j43310450213294_2_alg».proof.Proof.K.Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)
variable (H0 : Half F cfg0) (H1 : Half F cfg1) (H2 : Half F cfg2) (H3 : Half F cfg3) (H4 : Half F cfg4)

/-- At the call's exit each of its arrays holds what the pipeline leaves. -/
theorem hF1 (c : Dev nD) (w : Fin cfg1.W) :
    (pdats m H0 H1 H2 H3 H4 pidx1 c).arrAt w cfg1.N = Vout1 m (outs m H0 H1 H2 H3 H4) c (Pipeline.arrRef spec1 w) := by
  match w with
  | ⟨0, _⟩ =>
    rw [Vout1_of m _ c (Pipeline.arrRef spec1 0) (by decide)]
    exact ((pdats m H0 H1 H2 H3 H4 pidx1 c).arrAt_in 0 rfl _).trans (H1.hA _ c 0)
  | ⟨1, _⟩ =>
    rw [Vout1_of m _ c (Pipeline.arrRef spec1 1) (by decide)]
    exact ((pdats m H0 H1 H2 H3 H4 pidx1 c).arrAt_in 1 rfl _).trans (H1.hA _ c 1)
  | ⟨2, _⟩ =>
    rw [Vout1_of m _ c (Pipeline.arrRef spec1 2) (by decide)]
    exact ((pdats m H0 H1 H2 H3 H4 pidx1 c).arrAt_in 2 rfl _).trans (H1.hA _ c 2)
  | ⟨3, _⟩ =>
    show _ = Function.update (Vin1 m (outs m H0 H1 H2 H3 H4) c) (Proc.devRef .tc outRef1) _ (Proc.devRef .tc outRef1)
    rw [Function.update_self]
    exact (Pipeline.withArrays_arr spec1 launch1.win.arr_inj c (Uin1 m H0 H1 H2 H3 H4 c)
      (fun w => (H1.dat (fun c b => Uin1 m H0 H1 H2 H3 H4 c b) c).arrAt w cfg1.N) 3).symm

/-- Off its arrays the call leaves every unscoped buffer as it found it. -/
theorem hrest1 (c : Dev nD) (b : Ref sig .tc) (hb : b ∉ Finset.univ.image (Pipeline.arrRef spec1)) :
    Vout1 m (outs m H0 H1 H2 H3 H4) c b = Vin1 m (outs m H0 H1 H2 H3 H4) c b :=
  Vout1_of m _ c b (fun h => hb (by
    rw [List.mem_singleton] at h; subst h
    exact Finset.mem_image.mpr ⟨3, Finset.mem_univ _, rfl⟩))

/-- The call as a segment: entered at the valuation before it, left at the one after it. -/
def reg1 : Pipeline.RegionSeg (pcfgs (F := F)) adm (pdats m H0 H1 H2 H3 H4) () defs₀ Variants.none Lv0 lv0 pidx1 :=
  regionSeg pidx1 launch1 (pdats m H0 H1 H2 H3 H4) (fun c => Vin1 m (outs m H0 H1 H2 H3 H4) c) (fun c => Vout1 m (outs m H0 H1 H2 H3 H4) c)
    (fun c w => H1.hA _ c w) (fun c w => H1.hq _ c w) (fun c t => H1.howed _ c t) (fun c t => H1.hrec _ c t)
    (fun c => H1.hbody _ c) (fun c => H1.hin _ c) (fun c => H1.hout _ c)
    (hF1 m H0 H1 H2 H3 H4) (hrest1 m H0 H1 H2 H3 H4)

end Cert.Kernel.Hand

end
-- ==== Proof.K.Reg2.lean ====
/-
  Pallas_call 2 of the word-level kernel's program as a segment of the run.

  At the call's exit each of its four arrays holds what its pipeline leaves: the three input arrays what they held
  at entry (an input window is never written back), the output array what the write-backs leave, which is how the
  staged valuation after the call was defined; every buffer that is none of the four is as at entry.
-/
import proofs.«430285_j43310450213294_2_alg».proof.Proof.K.Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)
variable (H0 : Half F cfg0) (H1 : Half F cfg1) (H2 : Half F cfg2) (H3 : Half F cfg3) (H4 : Half F cfg4)

/-- At the call's exit each of its arrays holds what the pipeline leaves. -/
theorem hF2 (c : Dev nD) (w : Fin cfg2.W) :
    (pdats m H0 H1 H2 H3 H4 pidx2 c).arrAt w cfg2.N = Vout2 m (outs m H0 H1 H2 H3 H4) c (Pipeline.arrRef spec2 w) := by
  match w with
  | ⟨0, _⟩ =>
    rw [Vout2_of m _ c (Pipeline.arrRef spec2 0) (by decide)]
    exact ((pdats m H0 H1 H2 H3 H4 pidx2 c).arrAt_in 0 rfl _).trans (H2.hA _ c 0)
  | ⟨1, _⟩ =>
    rw [Vout2_of m _ c (Pipeline.arrRef spec2 1) (by decide)]
    exact ((pdats m H0 H1 H2 H3 H4 pidx2 c).arrAt_in 1 rfl _).trans (H2.hA _ c 1)
  | ⟨2, _⟩ =>
    rw [Vout2_of m _ c (Pipeline.arrRef spec2 2) (by decide)]
    exact ((pdats m H0 H1 H2 H3 H4 pidx2 c).arrAt_in 2 rfl _).trans (H2.hA _ c 2)
  | ⟨3, _⟩ =>
    show _ = Function.update (Vin2 m (outs m H0 H1 H2 H3 H4) c) (Proc.devRef .tc outRef2) _ (Proc.devRef .tc outRef2)
    rw [Function.update_self]
    exact (Pipeline.withArrays_arr spec2 launch2.win.arr_inj c (Uin2 m H0 H1 H2 H3 H4 c)
      (fun w => (H2.dat (fun c b => Uin2 m H0 H1 H2 H3 H4 c b) c).arrAt w cfg2.N) 3).symm

/-- Off its arrays the call leaves every unscoped buffer as it found it. -/
theorem hrest2 (c : Dev nD) (b : Ref sig .tc) (hb : b ∉ Finset.univ.image (Pipeline.arrRef spec2)) :
    Vout2 m (outs m H0 H1 H2 H3 H4) c b = Vin2 m (outs m H0 H1 H2 H3 H4) c b :=
  Vout2_of m _ c b (fun h => hb (by
    rw [List.mem_singleton] at h; subst h
    exact Finset.mem_image.mpr ⟨3, Finset.mem_univ _, rfl⟩))

/-- The call as a segment: entered at the valuation before it, left at the one after it. -/
def reg2 : Pipeline.RegionSeg (pcfgs (F := F)) adm (pdats m H0 H1 H2 H3 H4) () defs₀ Variants.none Lv0 lv0 pidx2 :=
  regionSeg pidx2 launch2 (pdats m H0 H1 H2 H3 H4) (fun c => Vin2 m (outs m H0 H1 H2 H3 H4) c) (fun c => Vout2 m (outs m H0 H1 H2 H3 H4) c)
    (fun c w => H2.hA _ c w) (fun c w => H2.hq _ c w) (fun c t => H2.howed _ c t) (fun c t => H2.hrec _ c t)
    (fun c => H2.hbody _ c) (fun c => H2.hin _ c) (fun c => H2.hout _ c)
    (hF2 m H0 H1 H2 H3 H4) (hrest2 m H0 H1 H2 H3 H4)

end Cert.Kernel.Hand

end
-- ==== Proof.K.Reg3.lean ====
/-
  Pallas_call 3 of the word-level kernel's program as a segment of the run.

  At the call's exit each of its four arrays holds what its pipeline leaves: the three input arrays what they held
  at entry (an input window is never written back), the output array what the write-backs leave, which is how the
  staged valuation after the call was defined; every buffer that is none of the four is as at entry.
-/
import proofs.«430285_j43310450213294_2_alg».proof.Proof.K.Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)
variable (H0 : Half F cfg0) (H1 : Half F cfg1) (H2 : Half F cfg2) (H3 : Half F cfg3) (H4 : Half F cfg4)

/-- At the call's exit each of its arrays holds what the pipeline leaves. -/
theorem hF3 (c : Dev nD) (w : Fin cfg3.W) :
    (pdats m H0 H1 H2 H3 H4 pidx3 c).arrAt w cfg3.N = Vout3 m (outs m H0 H1 H2 H3 H4) c (Pipeline.arrRef spec3 w) := by
  match w with
  | ⟨0, _⟩ =>
    rw [Vout3_of m _ c (Pipeline.arrRef spec3 0) (by decide)]
    exact ((pdats m H0 H1 H2 H3 H4 pidx3 c).arrAt_in 0 rfl _).trans (H3.hA _ c 0)
  | ⟨1, _⟩ =>
    rw [Vout3_of m _ c (Pipeline.arrRef spec3 1) (by decide)]
    exact ((pdats m H0 H1 H2 H3 H4 pidx3 c).arrAt_in 1 rfl _).trans (H3.hA _ c 1)
  | ⟨2, _⟩ =>
    rw [Vout3_of m _ c (Pipeline.arrRef spec3 2) (by decide)]
    exact ((pdats m H0 H1 H2 H3 H4 pidx3 c).arrAt_in 2 rfl _).trans (H3.hA _ c 2)
  | ⟨3, _⟩ =>
    show _ = Function.update (Vin3 m (outs m H0 H1 H2 H3 H4) c) (Proc.devRef .tc outRef3) _ (Proc.devRef .tc outRef3)
    rw [Function.update_self]
    exact (Pipeline.withArrays_arr spec3 launch3.win.arr_inj c (Uin3 m H0 H1 H2 H3 H4 c)
      (fun w => (H3.dat (fun c b => Uin3 m H0 H1 H2 H3 H4 c b) c).arrAt w cfg3.N) 3).symm

/-- Off its arrays the call leaves every unscoped buffer as it found it. -/
theorem hrest3 (c : Dev nD) (b : Ref sig .tc) (hb : b ∉ Finset.univ.image (Pipeline.arrRef spec3)) :
    Vout3 m (outs m H0 H1 H2 H3 H4) c b = Vin3 m (outs m H0 H1 H2 H3 H4) c b :=
  Vout3_of m _ c b (fun h => hb (by
    rw [List.mem_singleton] at h; subst h
    exact Finset.mem_image.mpr ⟨3, Finset.mem_univ _, rfl⟩))

/-- The call as a segment: entered at the valuation before it, left at the one after it. -/
def reg3 : Pipeline.RegionSeg (pcfgs (F := F)) adm (pdats m H0 H1 H2 H3 H4) () defs₀ Variants.none Lv0 lv0 pidx3 :=
  regionSeg pidx3 launch3 (pdats m H0 H1 H2 H3 H4) (fun c => Vin3 m (outs m H0 H1 H2 H3 H4) c) (fun c => Vout3 m (outs m H0 H1 H2 H3 H4) c)
    (fun c w => H3.hA _ c w) (fun c w => H3.hq _ c w) (fun c t => H3.howed _ c t) (fun c t => H3.hrec _ c t)
    (fun c => H3.hbody _ c) (fun c => H3.hin _ c) (fun c => H3.hout _ c)
    (hF3 m H0 H1 H2 H3 H4) (hrest3 m H0 H1 H2 H3 H4)

end Cert.Kernel.Hand

end
-- ==== Proof.K.Reg4.lean ====
/-
  Pallas_call 4 of the word-level kernel's program as a segment of the run.

  At the call's exit each of its four arrays holds what its pipeline leaves: the three input arrays what they held
  at entry (an input window is never written back), the output array what the write-backs leave, which is how the
  staged valuation after the call was defined; every buffer that is none of the four is as at entry.
-/
import proofs.«430285_j43310450213294_2_alg».proof.Proof.K.Run

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

variable (m : (ℓ : Loc nD τ sig) → Buf (Elt F) ℓ)
variable (H0 : Half F cfg0) (H1 : Half F cfg1) (H2 : Half F cfg2) (H3 : Half F cfg3) (H4 : Half F cfg4)

/-- At the call's exit each of its arrays holds what the pipeline leaves. -/
theorem hF4 (c : Dev nD) (w : Fin cfg4.W) :
    (pdats m H0 H1 H2 H3 H4 pidx4 c).arrAt w cfg4.N = Vout4 m (outs m H0 H1 H2 H3 H4) c (Pipeline.arrRef spec4 w) := by
  match w with
  | ⟨0, _⟩ =>
    rw [Vout4_of m _ c (Pipeline.arrRef spec4 0) (by decide)]
    exact ((pdats m H0 H1 H2 H3 H4 pidx4 c).arrAt_in 0 rfl _).trans (H4.hA _ c 0)
  | ⟨1, _⟩ =>
    rw [Vout4_of m _ c (Pipeline.arrRef spec4 1) (by decide)]
    exact ((pdats m H0 H1 H2 H3 H4 pidx4 c).arrAt_in 1 rfl _).trans (H4.hA _ c 1)
  | ⟨2, _⟩ =>
    rw [Vout4_of m _ c (Pipeline.arrRef spec4 2) (by decide)]
    exact ((pdats m H0 H1 H2 H3 H4 pidx4 c).arrAt_in 2 rfl _).trans (H4.hA _ c 2)
  | ⟨3, _⟩ =>
    show _ = Function.update (Vin4 m (outs m H0 H1 H2 H3 H4) c) (Proc.devRef .tc outRef4) _ (Proc.devRef .tc outRef4)
    rw [Function.update_self]
    exact (Pipeline.withArrays_arr spec4 launch4.win.arr_inj c (Uin4 m H0 H1 H2 H3 H4 c)
      (fun w => (H4.dat (fun c b => Uin4 m H0 H1 H2 H3 H4 c b) c).arrAt w cfg4.N) 3).symm

/-- Off its arrays the call leaves every unscoped buffer as it found it. -/
theorem hrest4 (c : Dev nD) (b : Ref sig .tc) (hb : b ∉ Finset.univ.image (Pipeline.arrRef spec4)) :
    Vout4 m (outs m H0 H1 H2 H3 H4) c b = Vin4 m (outs m H0 H1 H2 H3 H4) c b :=
  Vout4_of m _ c b (fun h => hb (by
    rw [List.mem_singleton] at h; subst h
    exact Finset.mem_image.mpr ⟨3, Finset.mem_univ _, rfl⟩))

/-- The call as a segment: entered at the valuation before it, left at the one after it. -/
def reg4 : Pipeline.RegionSeg (pcfgs (F := F)) adm (pdats m H0 H1 H2 H3 H4) () defs₀ Variants.none Lv0 lv0 pidx4 :=
  regionSeg pidx4 launch4 (pdats m H0 H1 H2 H3 H4) (fun c => Vin4 m (outs m H0 H1 H2 H3 H4) c) (fun c => Vout4 m (outs m H0 H1 H2 H3 H4) c)
    (fun c w => H4.hA _ c w) (fun c w => H4.hq _ c w) (fun c t => H4.howed _ c t) (fun c t => H4.hrec _ c t)
    (fun c => H4.hbody _ c) (fun c => H4.hin _ c) (fun c => H4.hout _ c)
    (hF4 m H0 H1 H2 H3 H4) (hrest4 m H0 H1 H2 H3 H4)

end Cert.Kernel.Hand

end
-- ==== Proof.K.Whole.lean ====
/-
  The kernel's program run whole: every weakly fair execution of @main terminates, and the final memory holds
  the result buffer at the last valuation's contents and each argument as launched.

  @main is the list of its items — six stretches of host operations and the five pallas_calls between them —;
  the thread state between two items is every unscoped buffer held at that boundary's valuation, beside the
  generator register and the core owing nothing, so consecutive items chain by reflexivity. The launch hands each
  core its buffers at the launch memory; the last state is read against the final memory buffer by buffer.
-/
import proofs.«430285_j43310450213294_2_alg».proof.Proof.K.Reg0
import proofs.«430285_j43310450213294_2_alg».proof.Proof.K.Reg1
import proofs.«430285_j43310450213294_2_alg».proof.Proof.K.Reg2
import proofs.«430285_j43310450213294_2_alg».proof.Proof.K.Reg3
import proofs.«430285_j43310450213294_2_alg».proof.Proof.K.Reg4

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (H0 : Half F cfg0) (H1 : Half F cfg1) (H2 : Half F cfg2) (H3 : Half F cfg3) (H4 : Half F cfg4)

/-- The rest that rides beside the buffers, the same at every boundary. -/
abbrev Rests : Fin 6 → Dev nD → sProp 𝕄 := fun _ c => Rest c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 1600000 in
/-- Every weakly fair execution of @main from memory `m` with zero counters terminates, and every unscoped buffer of
    every core ends at the last valuation's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = V11 m (outs m H0 H1 H2 H3 H4) c b) := by
  refine Pipeline.θ_run_regions_kit_dev (pcfgs (F := F)) adm (pdats m H0 H1 H2 H3 H4) () cellOf_inj emb₁ defs₀ Variants.none Lv0 lv0 m ρ main
    (segs m (outs m H0 H1 H2 H3 H4) Variants.none Lv0 lv0 (Rests (F := F)) () (pdats m H0 H1 H2 H3 H4) (reg0 m H0 H1 H2 H3 H4) (reg1 m H0 H1 H2 H3 H4) (reg2 m H0 H1 H2 H3 H4) (reg3 m H0 H1 H2 H3 H4) (reg4 m H0 H1 H2 H3 H4))
    (fun c Q => by
      rewrite [main_chain c, Seg.run_eq_chain,
        show (segs m (outs m H0 H1 H2 H3 H4) Variants.none Lv0 lv0 (Rests (F := F)) () (pdats m H0 H1 H2 H3 H4) (reg0 m H0 H1 H2 H3 H4) (reg1 m H0 H1 H2 H3 H4) (reg2 m H0 H1 H2 H3 H4) (reg3 m H0 H1 H2 H3 H4) (reg4 m H0 H1 H2 H3 H4) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V11 m (outs m H0 H1 H2 H3 H4) c))
    (hch := fun c => ⟨.rfl, .rfl, .rfl, .rfl, .rfl, .rfl, .rfl, .rfl, .rfl, .rfl, .rfl,
      sep_mono .rfl (by iintro ⟨-, HO⟩; iexact HO)⟩)
    (hinit := by
      refine Pipeline.initEach Lv0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m H0 H1 H2 H3 H4) c b)
    (hfin := fun c s' => by
      iintro ⟨Hh, HSI⟩
      unfold StableHlo.held
      imodintro
      iapply (pointsTo_read_all (Pipeline.ucRefs τ sig) (fun b => (((c : Thread nD τ)).1, b)) (V11 m (outs m H0 H1 H2 H3 H4) c) s')
      isplitl [Hh] <;> iassumption)
    (hQ := fun _ h => h)

/-- The run with the result named: the result buffer ends at the last valuation's contents, every argument as
    launched. -/
theorem run_result : θ_run defs (onTc (τ := τ) (main (F := F))) ⟨m, fun _ => 0, ρ⟩ (fun r => ∀ c : Dev nD,
      r.2.mem ((c.tc : Thread nD τ).loc main_v35) = V11 m (outs m H0 H1 H2 H3 H4) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c (Proc.devRef .tc main_v35) (mem_uc main_v35 (by decide)),
      (h c (Proc.devRef .tc main_arg0) (mem_uc main_arg0 (by decide))).trans (V11_main_arg0 m _ c),
      (h c (Proc.devRef .tc main_arg1) (mem_uc main_arg1 (by decide))).trans (V11_main_arg1 m _ c),
      (h c (Proc.devRef .tc main_arg2) (mem_uc main_arg2 (by decide))).trans (V11_main_arg2 m _ c),
      (h c (Proc.devRef .tc main_arg3) (mem_uc main_arg3 (by decide))).trans (V11_main_arg3 m _ c),
      (h c (Proc.devRef .tc main_arg4) (mem_uc main_arg4 (by decide))).trans (V11_main_arg4 m _ c),
      (h c (Proc.devRef .tc main_arg5) (mem_uc main_arg5 (by decide))).trans (V11_main_arg5 m _ c),
      (h c (Proc.devRef .tc main_arg6) (mem_uc main_arg6 (by decide))).trans (V11_main_arg6 m _ c),
      (h c (Proc.devRef .tc main_arg7) (mem_uc main_arg7 (by decide))).trans (V11_main_arg7 m _ c),
      (h c (Proc.devRef .tc main_arg8) (mem_uc main_arg8 (by decide))).trans (V11_main_arg8 m _ c),
      (h c (Proc.devRef .tc main_arg9) (mem_uc main_arg9 (by decide))).trans (V11_main_arg9 m _ c),
      (h c (Proc.devRef .tc main_arg10) (mem_uc main_arg10 (by decide))).trans (V11_main_arg10 m _ c),
      (h c (Proc.devRef .tc main_arg11) (mem_uc main_arg11 (by decide))).trans (V11_main_arg11 m _ c),
      (h c (Proc.devRef .tc main_arg12) (mem_uc main_arg12 (by decide))).trans (V11_main_arg12 m _ c),
      (h c (Proc.devRef .tc main_arg13) (mem_uc main_arg13 (by decide))).trans (V11_main_arg13 m _ c),
      (h c (Proc.devRef .tc main_arg14) (mem_uc main_arg14 (by decide))).trans (V11_main_arg14 m _ c)⟩) (run_bufs m ρ H0 H1 H2 H3 H4)

include H0 H1 H2 H3 H4 in
/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2) (run_result m ρ H0 H1 H2 H3 H4)

end Cert.Kernel.Hand

end
-- ==== Proof.K.Region0Runs.lean ====
/- Pallas call 0 of the program (the gather-and-loss kernel on the first feature layer: 4 batch entries
   times 16 spatial tiles), what its three control cases share: the windows' blocks read off the arrays as
   the region finds them, the input windows' staging contents at every point, the two branch conditions
   in closed form over the 64 grid points, where the output window is idle, and the region invariant with
   the two accumulators opened. -/
import proofs.«430285_j43310450213294_2_alg».proof.Proof.Gen.Kernel.Launch
import proofs.«430285_j43310450213294_2_alg».proof.Proof.Gen.Kernel.Skeleton
import proofs.«430285_j43310450213294_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

-- membership in a rectangle of the blocks' extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region0
-- the core's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`): for the two feature
    windows the tile `(b, ·, l)` of the batch entry `b = t / 16` and tile `l = t % 16`, for the index window
    the 64 gather positions, for the output window the row `b` of the loss array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched,
    the block index has not moved): the query tile, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- the key tile, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and the gather positions, fetched once and the same block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions -/

/-- The condition under which the body resets both accumulators: the tile coordinate is 0 (the body's
    scalar chain on the coordinate, substituted). -/
abbrev cond0_0 (i : grid0.Coords) : Prop := (Scalar.cmpi .ne (Scalar.extui (Scalar.cmpi .eq (BitVec.ofNat 32 (i 1).val) 0#32)) 0#32) = 1#1
/-- It holds at the first tile of each batch entry — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition under which the body computes the loss and stores the output: the tile coordinate is 15. -/
abbrev cond0_1 (i : grid0.Coords) : Prop := k0_cond2 i = 1#1
/-- It holds at the last tile of each batch entry — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a batch entry's last tile the output window is idle (the body stores nothing into it) -/
theorem idleAt0_3 : ∀ t : Fin cfg0.N, ¬cond0_1 (grid0.coords t) → cfg0.idle 3 (grid0.coords t) = true := by decide +kernel
/-- and its block is not written back; -/
theorem noFlush0_3 : ∀ t : Fin cfg0.N, ¬cond0_1 (grid0.coords t) → (cfg0.win 3).flush t = false := by decide +kernel
/-- at the last tile it is live. -/
theorem liveAt0_3 : ∀ t : Fin cfg0.N, cond0_1 (grid0.coords t) → cfg0.idle 3 (grid0.coords t) = false := by decide +kernel

/-! ## The memrefs the body is called with -/

/-- One staging buffer of the output window, through which its contents are stated (which one does not matter: a
    covering list of pieces reads back the same over anything). -/
abbrev VO0_3 : View sig .tc .vmem S1x1x64 .f32 := (Memref.whole cc0_stg3_0 : Memref sig .tc .vmem S1x1x64 .f32).view
/-- Each window's current staging memref at point `t`, spelled as the pipeline passes it, and its wholeness. -/
abbrev ms0_0 (t : Fin cfg0.N) : Memref sig .tc .vmem S1x32x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
/-- The two accumulators (gathered query columns, gathered key columns): whole scoped buffers of the kernel's
    own, passed beside the windows and carried from tile to tile. -/
abbrev scM0_0 : Memref sig .tc .vmem S32x64 .f32 := Memref.whole cc0_scratch0
abbrev scM0_1 : Memref sig .tc .vmem S32x64 .f32 := Memref.whole cc0_scratch1
/-- The accumulators as views: what they hold is stated through these. -/
abbrev VS0_0 : View sig .tc .vmem S32x64 .f32 := scM0_0.view
abbrev VS0_1 : View sig .tc .vmem S32x64 .f32 := scM0_1.view

/-- Every other scoped buffer of the core (the other calls' staging buffers and accumulators), unopened: the body
    neither reads nor writes them. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- What the launch hands the region, with the two accumulators as memrefs owned at some contents: what the
    body obligation hands the run at a batch entry's first tile and what it may forget to afterwards. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

end Cert.Kernel.Hand

end
-- ==== Proof.K.Region0RunA.lean ====
/- Pallas call 0, control case A: the first tile of a batch entry. Both accumulators are stored whole
   with zeros before anything reads them, then each is read back, added to this tile's gathered columns
   and stored whole again; the output window is not touched. -/
import proofs.«430285_j43310450213294_2_alg».proof.Proof.K.Region0Runs

-- membership in a rectangle of the blocks' extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the two accumulators, as pieces (last first), at a point where the reset
    condition holds (`hc0`) and the loss condition does not (`hc1`), WITH the proof that on whole memrefs —
    the three inputs' at their blocks `x0 x1 x2`, the output's at contents `xi3` handed back untouched, the
    accumulators' at anything — the body runs to the continuation holding the inputs and the output as they
    were and each accumulator with its pieces written. The pieces are the witness the execution finds. -/
noncomputable def kernelRun0_A (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) :
    Σ' (L3 : List (View.Piece (Elt F) S1x1x64 .f32)) (LS0 : List (View.Piece (Elt F) S32x64 .f32)), { LS1 : List (View.Piece (Elt F) S32x64 .f32) //
      ∀ (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gather_loss_kernel i arg2 harg2 arg3 harg3 arg4 harg4 arg5 harg5 arg6 harg6 arg7 harg7) K } := by
  refine ⟨[], ?_, ?_, fun xi3 E K => ?run⟩
  case run =>
    simp only [cc0__gather_loss_kernel_eq_skeleton]; unfold cc0__gather_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.Region0RunB.lean ====
/- Pallas call 0, control case B: a middle tile of a batch entry. Each accumulator is read at what the
   tile before left, added to this tile's gathered columns and stored whole; the output window is not
   touched. -/
import proofs.«430285_j43310450213294_2_alg».proof.Proof.K.Region0Runs

-- membership in a rectangle of the blocks' extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the two accumulators, as pieces, at a point where neither condition holds,
    WITH the proof that on whole memrefs — the three inputs' at their blocks `x0 x1 x2`, the output's at
    contents `xi3` handed back untouched, the accumulators' at what the point before left (`xs0 xs1`) — the
    body runs to the continuation holding the inputs and the output as they were and each accumulator with
    its pieces written. -/
noncomputable def kernelRun0_B (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) :
    Σ' (L3 : List (View.Piece (Elt F) S1x1x64 .f32)) (LS0 : List (View.Piece (Elt F) S32x64 .f32)), { LS1 : List (View.Piece (Elt F) S32x64 .f32) //
      ∀ (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gather_loss_kernel i arg2 harg2 arg3 harg3 arg4 harg4 arg5 harg5 arg6 harg6 arg7 harg7) K } := by
  refine ⟨[], ?_, ?_, fun xi3 E K => ?run⟩
  case run =>
    simp only [cc0__gather_loss_kernel_eq_skeleton]; unfold cc0__gather_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.Region0RunC.lean ====
/- Pallas call 0, control case C: the last tile of a batch entry. Each accumulator is read at what the
   tile before left, added to this tile's gathered columns and stored whole; then the loss of the batch
   entry is computed from the two accumulators just stored and stored whole into the output window. -/
import proofs.«430285_j43310450213294_2_alg».proof.Proof.K.Region0Runs

-- membership in a rectangle of the blocks' extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref and in the two accumulators, as pieces, at a
    point where the reset condition fails and the loss condition holds, WITH the proof that on whole memrefs —
    the three inputs' at their blocks `x0 x1 x2`, the output's at anything, the accumulators' at what the point
    before left (`xs0 xs1`) — the body runs to the continuation holding the inputs as they were and the output
    and each accumulator with its pieces written. -/
noncomputable def kernelRun0_C (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) :
    Σ' (L3 : List (View.Piece (Elt F) S1x1x64 .f32)) (LS0 : List (View.Piece (Elt F) S32x64 .f32)), { LS1 : List (View.Piece (Elt F) S32x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gather_loss_kernel i arg2 harg2 arg3 harg3 arg4 harg4 arg5 harg5 arg6 harg6 arg7 harg7) K } := by
  refine ⟨?_, ?_, ?_, fun E K => ?run⟩
  case run =>
    simp only [cc0__gather_loss_kernel_eq_skeleton]; unfold cc0__gather_loss_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.K.Region0.lean ====
/- Pallas call 0 of the program, the region's half of the certificate at the entry contents `V`: what each
   control case leaves in the output window and in the two accumulators; what they hold after every grid
   point (`outsAt0`: a batch entry's first tile starts the accumulators afresh, every later tile adds to what
   the tile before left, the last tile also stores the losses); the invariant that carries the accumulators
   from point to point; the proof data; and the body obligation at every point. -/
import proofs.«430285_j43310450213294_2_alg».proof.Proof.K.Region0RunA
import proofs.«430285_j43310450213294_2_alg».proof.Proof.K.Region0RunB
import proofs.«430285_j43310450213294_2_alg».proof.Proof.K.Region0RunC

-- membership in a rectangle of the blocks' extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! ## What each case leaves in the output window and the accumulators -/

/-! ### Case A: the first tile of a batch entry -/

/-- Case A stores nothing into the output window (idle at its points and not written back there): no pieces — a
    placeholder nothing consults, since at these points the window is neither written back nor read at the
    next point. -/
def out0_A_3 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) : Vec F S1x1x64 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Case A's pieces for the query accumulator contain a store of the whole buffer, so they cover it. -/
theorem scover0_A_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) (y : S32x64.Idx) :
    ∃ pc ∈ (kernelRun0_A c i arg2 harg2 arg3 harg3 arg4 harg4 arg5 harg5 arg6 harg6 arg7 harg7 hc0 hc1 x0 x1 x2).2.1, y ∈ pc.1.set :=
  View.cover_of_wholeMem (kernelRun0_A c i arg2 harg2 arg3 harg3 arg4 harg4 arg5 harg5 arg6 harg6 arg7 harg7 hc0 hc1 x0 x1 x2).2.1 (by sl_whole_mem) y

/-- What case A leaves in the query accumulator: its pieces read back over anything. -/
def sout0_A_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) : Vec F S32x64 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

/-- Case A's pieces for the key accumulator contain a store of the whole buffer, so they cover it. -/
theorem scover0_A_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) (y : S32x64.Idx) :
    ∃ pc ∈ (kernelRun0_A c i arg2 harg2 arg3 harg3 arg4 harg4 arg5 harg5 arg6 harg6 arg7 harg7 hc0 hc1 x0 x1 x2).2.2.1, y ∈ pc.1.set :=
  View.cover_of_wholeMem (kernelRun0_A c i arg2 harg2 arg3 harg3 arg4 harg4 arg5 harg5 arg6 harg6 arg7 harg7 hc0 hc1 x0 x1 x2).2.2.1 (by sl_whole_mem) y

/-- What case A leaves in the key accumulator: its pieces read back over anything. -/
def sout0_A_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) : Vec F S32x64 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-! ### Case B: a middle tile -/

/-- Case B stores nothing into the output window (idle at its points and not written back there): no pieces — a
    placeholder nothing consults, since at these points the window is neither written back nor read at the
    next point. -/
def out0_B_3 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) : Vec F S1x1x64 .f32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- Case B's pieces for the query accumulator contain a store of the whole buffer, so they cover it. -/
theorem scover0_B_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) (y : S32x64.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_wholeMem (kernelRun0_B c i arg2 harg2 arg3 harg3 arg4 harg4 arg5 harg5 arg6 harg6 arg7 harg7 hc0 hc1 x0 x1 x2 xs0 xs1).2.1 (by sl_whole_mem) y

/-- What case B leaves in the query accumulator: its pieces read back over anything. -/
def sout0_B_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) : Vec F S32x64 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)

/-- Case B's pieces for the key accumulator contain a store of the whole buffer, so they cover it. -/
theorem scover0_B_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) (y : S32x64.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_wholeMem (kernelRun0_B c i arg2 harg2 arg3 harg3 arg4 harg4 arg5 harg5 arg6 harg6 arg7 harg7 hc0 hc1 x0 x1 x2 xs0 xs1).2.2.1 (by sl_whole_mem) y

/-- What case B leaves in the key accumulator: its pieces read back over anything. -/
def sout0_B_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) : Vec F S32x64 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-! ### Case C: the last tile of a batch entry -/

/-- Case C's one piece for the output window is a store of the whole block, so its pieces cover it. -/
theorem cover0_C_3 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) (y : S1x1x64.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_wholeMem (kernelRun0_C c i arg2 harg2 arg3 harg3 arg4 harg4 arg5 harg5 arg6 harg6 arg7 harg7 hc0 hc1 x0 x1 x2 xs0 xs1).1 (by sl_whole_mem) y

/-- What case C leaves in the output window's staging buffer (the 64 losses of the batch entry): its pieces read
    back over anything. -/
def out0_C_3 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) : Vec F S1x1x64 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- Case C's pieces for the query accumulator contain a store of the whole buffer, so they cover it. -/
theorem scover0_C_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) (y : S32x64.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_wholeMem (kernelRun0_C c i arg2 harg2 arg3 harg3 arg4 harg4 arg5 harg5 arg6 harg6 arg7 harg7 hc0 hc1 x0 x1 x2 xs0 xs1).2.1 (by sl_whole_mem) y

/-- What case C leaves in the query accumulator: its pieces read back over anything. -/
def sout0_C_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) : Vec F S32x64 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- Case C's pieces for the key accumulator contain a store of the whole buffer, so they cover it. -/
theorem scover0_C_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) (y : S32x64.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_wholeMem (kernelRun0_C c i arg2 harg2 arg3 harg3 arg4 harg4 arg5 harg5 arg6 harg6 arg7 harg7 hc0 hc1 x0 x1 x2 xs0 xs1).2.2.1 (by sl_whole_mem) y

/-- What case C leaves in the key accumulator: its pieces read back over anything. -/
def sout0_C_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) : Vec F S32x64 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## The conditions at a point, from its position in its batch entry -/

theorem hc0_A (t : Fin cfg0.N) (h0 : t.val % 16 = 0) : cond0_0 (grid0.coords t) := (hcond0_0 t).mpr h0
theorem hc1_A (t : Fin cfg0.N) (h0 : t.val % 16 = 0) : ¬cond0_1 (grid0.coords t) := fun h => by
  have h15 := (hcond0_1 t).mp h; omega
theorem hc0_n (t : Fin cfg0.N) (h0 : ¬t.val % 16 = 0) : ¬cond0_0 (grid0.coords t) := fun h => h0 ((hcond0_0 t).mp h)
theorem hc1_n (t : Fin cfg0.N) (h1 : ¬t.val % 16 = 15) : ¬cond0_1 (grid0.coords t) := fun h => h1 ((hcond0_1 t).mp h)
theorem hc1_C (t : Fin cfg0.N) (h1 : t.val % 16 = 15) : cond0_1 (grid0.coords t) := (hcond0_1 t).mpr h1

section Region0
-- the core's buffer contents when the region is entered: the parameter this region's half is stated at
variable (V : (c : Dev nD) → (b : Ref sig .tc) → Buf (Elt F) ((c : Thread nD τ).loc b))

/-! ## What the output window and the accumulators hold after each point -/

/-- THE ACCUMULATION. After the body at position `n`: (the output window's staging buffer, the query accumulator,
    the key accumulator). The case is read off `n % 16`: at 0 the accumulators are reset and then hold this tile's
    gathered columns alone (nothing of the point before is read); otherwise they are what the point before left
    plus this tile's gathered columns; at 15 the output holds the batch entry's losses. -/
def outsAt0 (c : Dev nD) : (n : ℕ) → n < cfg0.N → Vec F S1x1x64 .f32 × Vec F S32x64 .f32 × Vec F S32x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hc0_A ⟨0, hn⟩ (Nat.zero_mod _)) (hc1_A ⟨0, hn⟩ (Nat.zero_mod _)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hc0_A ⟨0, hn⟩ (Nat.zero_mod _)) (hc1_A ⟨0, hn⟩ (Nat.zero_mod _)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hc0_A ⟨0, hn⟩ (Nat.zero_mod _)) (hc1_A ⟨0, hn⟩ (Nat.zero_mod _)) (iblk0 V c 0 ⟨0, hn⟩) (iblk0 V c 1 ⟨0, hn⟩) (iblk0 V c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_A ⟨n + 1, hn⟩ h0) (hc1_A ⟨n + 1, hn⟩ h0) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_A ⟨n + 1, hn⟩ h0) (hc1_A ⟨n + 1, hn⟩ h0) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_A ⟨n + 1, hn⟩ h0) (hc1_A ⟨n + 1, hn⟩ h0) (iblk0 V c 0 ⟨n + 1, hn⟩) (iblk0 V c 1 ⟨n + 1, hn⟩) (iblk0 V c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_C ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_C ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_C ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_n ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_n ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_n ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- `outsAt0` at a batch entry's first tile: case A's contents, of this point's blocks alone. -/
theorem outsAt0_A (c : Dev nD) (t : Fin cfg0.N) (h0 : t.val % 16 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_A t h0) (hc1_A t h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_A t h0) (hc1_A t h0) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_A t h0) (hc1_A t h0) (iblk0 V c 0 t) (iblk0 V c 1 t) (iblk0 V c 2 t)) := by
  obtain ⟨n, hn⟩ := t
  cases n with
  | zero => exact rfl
  | succ n => exact (dif_pos h0).trans rfl

/-- `outsAt0` at a middle tile: case B's contents, over what the point before left in the accumulators. -/
theorem outsAt0_B (c : Dev nD) (t : Fin cfg0.N) (h0 : ¬t.val % 16 = 0) (h1 : ¬t.val % 16 = 15) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_n t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_n t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_n t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a batch entry's last tile: case C's contents, over what the point before left in the accumulators. -/
theorem outsAt0_C (c : Dev nD) (t : Fin cfg0.N) (h0 : ¬t.val % 16 = 0) (h1 : t.val % 16 = 15) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_C t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_C t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_C t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulators -/

/-- The region invariant before position `n`: before the first point what the launch hands the region (both
    accumulators at anything); afterwards both accumulators at what the point before left in them, every other scoped
    buffer unopened, and the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.1) ∗ owns (c : Thread nD τ) scM0_1 fullShare ((outsAt0 V c (n - 1) (by omega)).2.2)) ∗ rest0 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the output's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

/-- The proof data's arrays are the region-entry contents (the definition projected, never unfolding `V`). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the library's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the point's position in its batch entry says which
    case it is in, and that case's run applies: the invariant hands the body the accumulators at what the point
    before left (at anything at the very first point; at a later first tile the named contents are forgotten, the
    case resetting both), every other scoped buffer and the generator register pass through, and the invariant
    takes the accumulators back at this point's contents; where the output is idle its buffer is handed back as
    found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
            unfold Dat.leavesExact; rw [liveAt0_0 t], after0_0,
          show (dat0 V c).leavesExact 1 t = owns (c : Thread nD τ) (ms0_1 t) fullShare ((dat0 V c).after 1 t) from by
            unfold Dat.leavesExact; rw [liveAt0_1 t], after0_1,
          show (dat0 V c).leavesExact 2 t = owns (c : Thread nD τ) (ms0_2 t) fullShare ((dat0 V c).after 2 t) from by
            unfold Dat.leavesExact; rw [liveAt0_2 t], after0_2]
  by_cases h0 : t.val % 16 = 0
  · rw [Dat.leavesExact_idle (dat0 V c) 3 t (idleAt0_3 t (hc1_A t h0)) (noFlush0_3 t (hc1_A t h0))]
    rw [outsAt0_A V c t h0]
    unfold sout0_A_0 sout0_A_1; (try dsimp only)
    by_cases hz : t.val = 0
    · rw [PhiS_castSucc V c t, PhiS_zero V c _ _ hz, PhiA0_eq]
      iintro ⟨⟨⟨⟨HS0, HS1⟩, Hr⟩, Hg⟩, Ho, ⟨%d0, H0⟩, ⟨%d1, H1⟩, ⟨%d2, H2⟩, ⟨%d3, H3⟩⟩
      iapply ((kernelRun0_A c (grid0.coords t) _ _ _ _ _ _ _ _ _ _ _ _ (hc0_A t h0) (hc1_A t h0) (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun0_A c (grid0.coords t) _ _ _ _ _ _ _ _ _ _ _ _ (hc0_A t h0) (hc1_A t h0) (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat0 V c).leavesExact 3 t = owns (c : Thread nD τ) (ms0_3 t) fullShare ((dat0 V c).after 3 t) from by
        unfold Dat.leavesExact; rw [liveAt0_3 t (hc1_C t h1)], after0_3]
      rw [outsAt0_C V c t h0 h1]
      unfold out0_C_3 sout0_C_0 sout0_C_1; (try dsimp only)
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun0_C c (grid0.coords t) _ _ _ _ _ _ _ _ _ _ _ _ (hc0_n t h0) (hc1_C t h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · rw [Dat.leavesExact_idle (dat0 V c) 3 t (idleAt0_3 t (hc1_n t h1)) (noFlush0_3 t (hc1_n t h1))]
      rw [outsAt0_B V c t h0 h1]
      unfold sout0_B_0 sout0_B_1; (try dsimp only)
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun0_B c (grid0.coords t) _ _ _ _ _ _ _ _ _ _ _ _ (hc0_n t h0) (hc1_n t h1) (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives back what the launch handed over: the accumulators' named contents are
    forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Region0

end Cert.Kernel.Hand

end
-- ==== Proof.K.Region1Runs.lean ====
/- Layer 1 (64 channels, 16384 locations in two tiles of 8192) of the patch-gather loss: what the two
   control cases of its grid body share. The grid is 4 batch entries by 2 tiles, point t = (t / 2, t % 2).
   At tile 0 the body zeroes both gathered-feature accumulators before adding the tile's one-hot gather;
   at tile 1 it adds the second tile's gather and then turns the two accumulators into the 64 per-patch
   losses, the only point of a batch entry at which the output block is stored and written back. -/
import proofs.«430285_j43310450213294_2_alg».proof.Proof.Gen.Kernel.Launch
import proofs.«430285_j43310450213294_2_alg».proof.Proof.Gen.Kernel.Skeleton
import proofs.«430285_j43310450213294_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks
-- the buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q block: the current staging buffer of window 0 holds it at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The k block, likewise (window 1). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The patch ids (window 2): fetched at the first point only, its block index never moves, so the buffer holds the
    same block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two conditions, decided over the grid -/

/-- "This is the batch entry's first tile": the body then zeroes both accumulators. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- "This is the batch entry's last tile": the body then computes and stores the losses. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At a first tile nothing is stored into the output block and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a last tile the output block is stored. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1x1x64 .f32 := (Memref.whole cc1_stg3_0 : Memref sig .tc .vmem S1x1x64 .f32).view
abbrev ms1_0 (t : Fin cfg1.N) : Memref sig .tc .vmem S1x64x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64 .f32 := win1_3.stage (cfg1.slots t 3)
abbrev hs1_3 (t : Fin cfg1.N) : (ms1_3 t).IsWhole := hstage1_3 ((cfg1.slots t 3).cast nbuf1_3)
/-- The two accumulators (gathered q features, gathered k features): whole buffers of the kernel's own. -/
abbrev scM1_0 : Memref sig .tc .vmem S64x64 .f32 := Memref.whole cc1_scratch0
abbrev scM1_1 : Memref sig .tc .vmem S64x64 .f32 := Memref.whole cc1_scratch1
abbrev VS1_0 : View sig .tc .vmem S64x64 .f32 := scM1_0.view
abbrev VS1_1 : View sig .tc .vmem S64x64 .f32 := scM1_1.view

/-- Every scoped buffer that is neither a staging buffer of this call nor one of its two accumulators. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The region's resting invariant with the two accumulators taken out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA; rw [scopedRest1_split]; simp only [scM1_0, scM1_1, owns_whole]; try rfl

end Cert.Kernel.Hand

end
-- ==== Proof.K.Region1RunA.lean ====
/- The body's run at a batch entry's FIRST tile: both accumulators are zeroed and then receive the tile's
   one-hot gather of the q block and of the k block; the output block is not touched. -/
import proofs.«430285_j43310450213294_2_alg».proof.Proof.K.Region1Runs

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- What the body's stores leave in the output block and in the two accumulators, as pieces (last first), at a first
    tile (the reset taken, the loss not computed), with the proof that on whole memrefs — the three inputs at their
    blocks `x0 x1 x2`, the output block at contents `xi3` handed back untouched, the accumulators at anything — the
    body runs to a continuation that gets the inputs and the output block back as they were and each accumulator with
    its pieces written. The pieces are found by running the body's skeleton. -/
noncomputable def kernelRun1_A (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) :
    Σ' (L3 : List (View.Piece (Elt F) S1x1x64 .f32)) (LS0 : List (View.Piece (Elt F) S64x64 .f32)), { LS1 : List (View.Piece (Elt F) S64x64 .f32) //
      ∀ (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__gather_loss_kernel i arg2 harg2 arg3 harg3 arg4 harg4 arg5 harg5 arg6 harg6 arg7 harg7) K } := by
  refine ⟨[], ?_, ?_, fun xi3 E K => ?run⟩
  case run =>
    simp only [cc1__gather_loss_kernel_eq_skeleton]; unfold cc1__gather_loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.Region1RunC.lean ====
/- The body's run at a batch entry's LAST tile: the accumulators, carried from the first tile, receive the
   second tile's gather; both are then read back, each column normalised, and the 64 per-patch losses (log of the
   softmax denominator minus the positive logit's margin) stored into the output block. -/
import proofs.«430285_j43310450213294_2_alg».proof.Proof.K.Region1RunA

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large)
set_option maxHeartbeats 1000000 in
/-- What the body's stores leave in the output block and in the two accumulators, as pieces (last first), at a last
    tile (no reset, the loss computed), with the proof that on whole memrefs — the three inputs at their blocks
    `x0 x1 x2`, the output block at anything, the accumulators at what the tile before left in them (`xs0 xs1`) — the
    body runs to a continuation that gets the inputs back as they were and the output block and each accumulator with
    its pieces written. The pieces are found by running the body's skeleton. -/
noncomputable def kernelRun1_C (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) :
    Σ' (L3 : List (View.Piece (Elt F) S1x1x64 .f32)) (LS0 : List (View.Piece (Elt F) S64x64 .f32)), { LS1 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__gather_loss_kernel i arg2 harg2 arg3 harg3 arg4 harg4 arg5 harg5 arg6 harg6 arg7 harg7) K } := by
  refine ⟨?_, ?_, ?_, fun E K => ?run⟩
  case run =>
    simp only [cc1__gather_loss_kernel_eq_skeleton]; unfold cc1__gather_loss_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.K.Region1.lean ====
/- Layer 1 of the patch-gather loss as one grid region, at any buffer contents `V` on entry: what each point of
   the grid leaves in the output block and in the two accumulators (`outsAt1`, by recursion on the point: a first
   tile starts the accumulators afresh, a last tile continues from what the first left), the region's proof data
   and invariant (the accumulators carried at those contents between the two tiles of a batch entry), and the proof
   that the body, run at any point from that invariant, re-establishes it. -/
import proofs.«430285_j43310450213294_2_alg».proof.Proof.K.Region1RunC

-- membership in a rectangle of the blocks' extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, as the pieces its run found read back -/

/-- A first tile stores nothing into the output block: a placeholder nothing consults (the window is idle there and
    not written back). -/
def out1_A_3 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) : Vec F S1x1x64 .f32 :=
  VO1_3.read (Elt F) (VO1_3.writes (Elt F) VO1_3.junk (kernelRun1_A c i arg2 harg2 arg3 harg3 arg4 harg4 arg5 harg5 arg6 harg6 arg7 harg7 hc0 hc1 x0 x1 x2).1)

/-- A first tile's pieces for the q accumulator cover it. -/
theorem scover1_A_0 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) (y : S64x64.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S64x64.size (by sl_kernel_rfl) y

/-- What a first tile leaves in the q accumulator. -/
def sout1_A_0 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) : Vec F S64x64 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

/-- A first tile's pieces for the k accumulator cover it. -/
theorem scover1_A_1 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) (y : S64x64.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S64x64.size (by sl_kernel_rfl) y

/-- What a first tile leaves in the k accumulator. -/
def sout1_A_1 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) : Vec F S64x64 .f32 :=
  VS1_1.read (Elt F) (VS1_1.writes (Elt F) VS1_1.junk (kernelRun1_A c i arg2 harg2 arg3 harg3 arg4 harg4 arg5 harg5 arg6 harg6 arg7 harg7 hc0 hc1 x0 x1 x2).2.2.1)

/-- A last tile's one store into the output block covers it. -/
theorem cover1_C_3 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) (y : S1x1x64.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S1x1x64.size (by sl_kernel_rfl) y

/-- What a last tile leaves in the output block: the 64 losses of the batch entry. -/
def out1_C_3 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) : Vec F S1x1x64 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)

theorem scover1_C_0 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) (y : S64x64.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S64x64.size (by sl_kernel_rfl) y

/-- What a last tile leaves in the q accumulator. -/
def sout1_C_0 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) : Vec F S64x64 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)

theorem scover1_C_1 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) (y : S64x64.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S64x64.size (by sl_kernel_rfl) y

/-- What a last tile leaves in the k accumulator. -/
def sout1_C_1 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) : Vec F S64x64 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

/-! ## The two conditions at a point, from the parity of its position -/

theorem hc1_0_of_even (t : Fin cfg1.N) (h0 : t.val % 2 = 0) : cond1_0 (grid1.coords t) := (hcond1_0 t).mpr h0
theorem hc1_1_of_even (t : Fin cfg1.N) (h0 : t.val % 2 = 0) : ¬cond1_1 (grid1.coords t) := fun h => by
  have h1 := (hcond1_1 t).mp h; omega
theorem hc1_0_of_odd (t : Fin cfg1.N) (h0 : ¬t.val % 2 = 0) : ¬cond1_0 (grid1.coords t) := fun h => h0 ((hcond1_0 t).mp h)
theorem hc1_1_of_odd (t : Fin cfg1.N) (h0 : ¬t.val % 2 = 0) : cond1_1 (grid1.coords t) := (hcond1_1 t).mpr (by omega)

section Region
-- the buffer contents when the region is entered
variable (V : (c : Dev nD) → (b : Ref sig .tc) → Buf (Elt F) ((c : Thread nD τ).loc b))

/-! ## What the output block and the accumulators hold after each point -/

/-- After the body at position `n`: (the output window's staging buffer, the q accumulator, the k accumulator). An even
    position is a first tile: its case at the point's blocks. An odd one is a last tile: its case at the point's
    blocks over the accumulators as the position before left them. -/
def outsAt1 (c : Dev nD) : (n : ℕ) → n < cfg1.N → Vec F S1x1x64 .f32 × Vec F S64x64 .f32 × Vec F S64x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) (hc1_0_of_even ⟨0, hn⟩ (Nat.zero_mod _)) (hc1_1_of_even ⟨0, hn⟩ (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) (hc1_0_of_even ⟨0, hn⟩ (Nat.zero_mod _)) (hc1_1_of_even ⟨0, hn⟩ (Nat.zero_mod _)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) (hc1_0_of_even ⟨0, hn⟩ (Nat.zero_mod _)) (hc1_1_of_even ⟨0, hn⟩ (Nat.zero_mod _)) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_even ⟨n + 1, hn⟩ h0) (hc1_1_of_even ⟨n + 1, hn⟩ h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_even ⟨n + 1, hn⟩ h0) (hc1_1_of_even ⟨n + 1, hn⟩ h0) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_even ⟨n + 1, hn⟩ h0) (hc1_1_of_even ⟨n + 1, hn⟩ h0) (iblk1 V c 0 ⟨n + 1, hn⟩) (iblk1 V c 1 ⟨n + 1, hn⟩) (iblk1 V c 2 ⟨n + 1, hn⟩))
    else
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_odd ⟨n + 1, hn⟩ h0) (hc1_1_of_odd ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_odd ⟨n + 1, hn⟩ h0) (hc1_1_of_odd ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_odd ⟨n + 1, hn⟩ h0) (hc1_1_of_odd ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at a first tile. -/
theorem outsAt1_A (c : Dev nD) (t : Fin cfg1.N) (h0 : t.val % 2 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_even t h0) (hc1_1_of_even t h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_even t h0) (hc1_1_of_even t h0) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_even t h0) (hc1_1_of_even t h0) (iblk1 V c 0 t) (iblk1 V c 1 t) (iblk1 V c 2 t)) := by
  obtain ⟨n, hn⟩ := t
  cases n with
  | zero => exact rfl
  | succ n => exact (dif_pos h0).trans rfl

/-- `outsAt1` at a last tile, over what the position before left in the accumulators. -/
theorem outsAt1_C (c : Dev nD) (t : Fin cfg1.N) (h0 : ¬t.val % 2 = 0) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_odd t h0) (hc1_1_of_odd t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_odd t h0) (hc1_1_of_odd t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_odd t h0) (hc1_1_of_odd t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant -/

/-- Before position `n`: at the region's start its resting invariant; afterwards the two accumulators at what the
    position before left in them, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ rest1 (F := F) c) ∗ (∃ r, prngReg c r)) := by
  cases n with
  | zero => exact absurd rfl hz
  | succ n => rfl

/-! ## The proof data -/

/-- The region's proof data on core `c`: the arrays as the region finds them; after the body at point `t` each input's
    buffer at its block and the output's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks. At an even position the first-tile run applies: the
    invariant hands it the accumulators at anything (at the region's start from the resting invariant, later by
    forgetting what they held) and takes them back at the case's contents; the output block is handed through. At an
    odd position the last-tile run applies from the accumulators as the position before left them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 2 = 0
  · rw [Dat.leavesExact_idle (dat1 V c) 3 t (idleAt1_3_A t (hc1_0_of_even t h0) (hc1_1_of_even t h0)) (noFlush1_3_A t (hc1_0_of_even t h0) (hc1_1_of_even t h0))]
    rw [outsAt1_A V c t h0]
    unfold sout1_A_0 sout1_A_1; (try dsimp only)
    by_cases hz : t.val = 0
    · rw [PhiS1_castSucc V c t, PhiS1_zero V c _ _ hz, PhiA1_eq]
      iintro ⟨⟨⟨⟨HS0, HS1⟩, HR⟩, Hg⟩, Ho, ⟨%d0, H0⟩, ⟨%d1, H1⟩, ⟨%d2, H2⟩, ⟨%d3, H3⟩⟩
      iapply ((kernelRun1_A c (grid1.coords t) _ _ _ _ _ _ _ _ _ _ _ _ (hc1_0_of_even t h0) (hc1_1_of_even t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun1_A c (grid1.coords t) _ _ _ _ _ _ _ _ _ _ _ _ (hc1_0_of_even t h0) (hc1_1_of_even t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat1 V c).leavesExact 3 t = owns (c : Thread nD τ) (ms1_3 t) fullShare ((dat1 V c).after 3 t) from by
      unfold Dat.leavesExact; rw [liveAt1_3_C t (hc1_0_of_odd t h0) (hc1_1_of_odd t h0)], after1_3]
    rw [outsAt1_C V c t h0]
    unfold out1_C_3 sout1_C_0 sout1_C_1; (try dsimp only)
    have hz : t.val ≠ 0 := fun e => h0 (by rw [e])
    rw [PhiS1_castSucc V c t, PhiS1_pos V c _ _ hz]
    iintro ⟨⟨⟨⟨HS0, HS1⟩, HR⟩, Hg⟩, Ho, ⟨%d0, H0⟩, ⟨%d1, H1⟩, ⟨%d2, H2⟩, ⟨%d3, H3⟩⟩
    iapply ((kernelRun1_C c (grid1.coords t) _ _ _ _ _ _ _ _ _ _ _ _ (hc1_0_of_odd t h0) (hc1_1_of_odd t h0) (iblk1 V c 0 t) (iblk1 V c 1 t) (iblk1 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the resting invariant back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout1 (c : Dev nD) : (dat1 V c).Φ (Fin.last cfg1.N) ⊢ Pipeline.ΦA spec1 c :=
  Phi_out1 V c _ (by rw [Fin.val_last]; have : cfg1.N = 8 := N_1; omega)

end Region

end Cert.Kernel.Hand

end
-- ==== Proof.K.Region2Runs.lean ====
/-
  The third layer's kernel call (grid 4 × 1, one tile per batch entry), first half: what its body does on
  any whole staging memrefs.

  Every grid point is at once the first and the last tile of its batch entry, so both guards of the body
  hold everywhere: the two accumulators are zeroed, the one-hot gather of the 64 sampled columns of the
  q block and of the k block is added into them, and the per-column loss is stored into the output block.
  Each accumulator is stored whole before it is first read back, so nothing the previous point left in
  them reaches this point's result.
-/
import proofs.«430285_j43310450213294_2_alg».proof.Proof.Gen.Kernel.Launch
import proofs.«430285_j43310450213294_2_alg».proof.Proof.Gen.Kernel.Skeleton
import proofs.«430285_j43310450213294_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region
-- the buffer contents when the call is entered: every statement below is made at this parameter
variable (V : (c : Dev nD) → (b : Ref sig .tc) → Buf (Elt F) ((c : Thread nD τ).loc b))

/-! ## The windows' blocks -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The q block's staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the k block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the sampled indices, which are fetched once: their block index never moves, so the buffer
    still holds the block at the later points. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The body's two guards -/

/-- "This is the batch entry's first tile", as the body computes it from the tile coordinate. -/
abbrev cond2_0 (i : grid2.Coords) : Prop := (Scalar.cmpi .ne (Scalar.extui (Scalar.cmpi .eq (BitVec.ofNat 32 (i 1).val) 0#32)) 0#32) = 1#1
/-- It holds at every point: the tile axis has extent one. -/
theorem hcond2_0 : ∀ t : Fin cfg2.N, cond2_0 (grid2.coords t) :=
  (by decide +kernel : ∀ t : Fin grid2.N, cond2_0 (grid2.coords t))

/-- "This is the batch entry's last tile". -/
abbrev cond2_1 (i : grid2.Coords) : Prop := k2_cond2 i = 1#1
/-- It holds at every point too. -/
theorem hcond2_1 : ∀ t : Fin cfg2.N, cond2_1 (grid2.coords t) :=
  (by decide +kernel : ∀ t : Fin grid2.N, cond2_1 (grid2.coords t))

/-! ## No window is ever idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output block is stored at every point (the last-tile guard always holds). -/
theorem liveAt2_3 : ∀ t : Fin cfg2.N, cfg2.idle 3 (grid2.coords t) = false := by decide +kernel

/-! ## The memrefs the body is called with -/

/-- Each window's current staging memref at point `t`, spelled as the pipeline passes it, and its wholeness. -/
abbrev ms2_0 (t : Fin cfg2.N) : Memref sig .tc .vmem S1x128x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x64 .f32 := win2_3.stage (cfg2.slots t 3)
abbrev hs2_3 (t : Fin cfg2.N) : (ms2_3 t).IsWhole := hstage2_3 ((cfg2.slots t 3).cast nbuf2_3)
/-- The two accumulators: whole scoped buffers of the call's own. -/
abbrev scM2_0 : Memref sig .tc .vmem S128x64 .f32 := Memref.whole cc2_scratch0
abbrev scM2_1 : Memref sig .tc .vmem S128x64 .f32 := Memref.whole cc2_scratch1
/-- Views through which the contents of the output block and of the accumulators are stated (which buffer of a
    window is chosen does not matter: a covering list of stores reads back the same through any whole view). -/
abbrev VO2_3 : View sig .tc .vmem S1x1x64 .f32 := (Memref.whole cc2_stg3_0 : Memref sig .tc .vmem S1x1x64 .f32).view
abbrev VS2_0 : View sig .tc .vmem S128x64 .f32 := scM2_0.view
abbrev VS2_1 : View sig .tc .vmem S128x64 .f32 := scM2_1.view

/-- The call's region invariant with its two accumulators as memrefs owned at some contents; the other scoped
    buffers stay an unopened remainder. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.K.Region2.lean ====
/-
  The third layer's kernel call, second half: the body's run on whole staging memrefs, as a triple whose
  witness is the list of stores each written buffer ends with; what those stores leave in the output block
  and in the two accumulators; the pipeline's proof data and the body obligation at any point.
-/
import proofs.«430285_j43310450213294_2_alg».proof.Proof.K.Region2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- What the body's stores leave, as pieces (last first), in the output block's memref (`L3`) and in the two
    accumulators (`LS0`, `LS1`), WITH the proof that on whole memrefs — the q block, the k block and the sampled
    indices at contents `x0`, `x1`, `x2`, the output block and both accumulators at anything — the body runs
    to the continuation holding the three inputs as they were and each written buffer with its pieces written.
    Both guards are decided by the hypotheses `hc0`, `hc1`. -/
noncomputable def kernelRun2_A (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) :
    Σ' (L3 : List (View.Piece (Elt F) S1x1x64 .f32)) (LS0 : List (View.Piece (Elt F) S128x64 .f32)), { LS1 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc2__gather_loss_kernel i arg2 harg2 arg3 harg3 arg4 harg4 arg5 harg5 arg6 harg6 arg7 harg7) K } := by
  refine ⟨?_, ?_, ?_, fun E K => ?run⟩
  case run =>
    simp only [cc2__gather_loss_kernel_eq_skeleton]; unfold cc2__gather_loss_kernel_skel
    simp only [k2_part1_eq_skeleton, k2_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

/-! ## What the body leaves in the output block and in the accumulators -/

/-- The body's stores into the output block cover it (one store of the whole block). -/
theorem cover2_A_3 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) (y : S1x1x64.Idx) :
    ∃ pc ∈ (kernelRun2_A c i arg2 harg2 arg3 harg3 arg4 harg4 arg5 harg5 arg6 harg6 arg7 harg7 hc0 hc1 x0 x1 x2).1, y ∈ pc.1.set :=
  View.cover_of_tiledL (kernelRun2_A c i arg2 harg2 arg3 harg3 arg4 harg4 arg5 harg5 arg6 harg6 arg7 harg7 hc0 hc1 x0 x1 x2).1 S1x1x64.size (by sl_kernel_rfl) y

/-- What the body leaves in the output block's staging buffer: its stores read back. -/
def out2_A_3 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) : Vec F S1x1x64 .f32 :=
  VO2_3.read (Elt F) (VO2_3.writes (Elt F) VO2_3.junk (kernelRun2_A c i arg2 harg2 arg3 harg3 arg4 harg4 arg5 harg5 arg6 harg6 arg7 harg7 hc0 hc1 x0 x1 x2).1)

/-- The body's stores into the q accumulator cover it (the zeroing and the update, each of the whole buffer). -/
theorem scover2_A_0 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) (y : S128x64.Idx) :
    ∃ pc ∈ (kernelRun2_A c i arg2 harg2 arg3 harg3 arg4 harg4 arg5 harg5 arg6 harg6 arg7 harg7 hc0 hc1 x0 x1 x2).2.1, y ∈ pc.1.set :=
  View.cover_of_tiledL (kernelRun2_A c i arg2 harg2 arg3 harg3 arg4 harg4 arg5 harg5 arg6 harg6 arg7 harg7 hc0 hc1 x0 x1 x2).2.1 S128x64.size (by sl_kernel_rfl) y

/-- What the body leaves in the q accumulator. -/
def sout2_A_0 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) : Vec F S128x64 .f32 :=
  VS2_0.read (Elt F) (VS2_0.writes (Elt F) VS2_0.junk (kernelRun2_A c i arg2 harg2 arg3 harg3 arg4 harg4 arg5 harg5 arg6 harg6 arg7 harg7 hc0 hc1 x0 x1 x2).2.1)

/-- The body's stores into the k accumulator cover it. -/
theorem scover2_A_1 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) (y : S128x64.Idx) :
    ∃ pc ∈ (kernelRun2_A c i arg2 harg2 arg3 harg3 arg4 harg4 arg5 harg5 arg6 harg6 arg7 harg7 hc0 hc1 x0 x1 x2).2.2.1, y ∈ pc.1.set :=
  View.cover_of_tiledL (kernelRun2_A c i arg2 harg2 arg3 harg3 arg4 harg4 arg5 harg5 arg6 harg6 arg7 harg7 hc0 hc1 x0 x1 x2).2.2.1 S128x64.size (by sl_kernel_rfl) y

/-- What the body leaves in the k accumulator. -/
def sout2_A_1 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) : Vec F S128x64 .f32 :=
  VS2_1.read (Elt F) (VS2_1.writes (Elt F) VS2_1.junk (kernelRun2_A c i arg2 harg2 arg3 harg3 arg4 harg4 arg5 harg5 arg6 harg6 arg7 harg7 hc0 hc1 x0 x1 x2).2.2.1)

section Region
variable (V : (c : Dev nD) → (b : Ref sig .tc) → Buf (Elt F) ((c : Thread nD τ).loc b))

/-! ## What the written buffers hold after each point -/

/-- After the body at position `n`: the output block's staging buffer, then the two accumulators. Every point
    is in the one case (first and last tile at once), so each component is the body's result on that point's
    three input blocks; nothing of the point before enters. -/
def outsAt2 (c : Dev nD) : (n : ℕ) → n < cfg2.N → Vec F S1x1x64 .f32 × Vec F S128x64 .f32 × Vec F S128x64 .f32
  | n, hn => (out2_A_3 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2_0 (Memref.isWhole_whole _) scM2_1 (Memref.isWhole_whole _) (hcond2_0 ⟨n, hn⟩) (hcond2_1 ⟨n, hn⟩) (iblk2 V c 0 ⟨n, hn⟩) (iblk2 V c 1 ⟨n, hn⟩) (iblk2 V c 2 ⟨n, hn⟩), sout2_A_0 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2_0 (Memref.isWhole_whole _) scM2_1 (Memref.isWhole_whole _) (hcond2_0 ⟨n, hn⟩) (hcond2_1 ⟨n, hn⟩) (iblk2 V c 0 ⟨n, hn⟩) (iblk2 V c 1 ⟨n, hn⟩) (iblk2 V c 2 ⟨n, hn⟩), sout2_A_1 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2_0 (Memref.isWhole_whole _) scM2_1 (Memref.isWhole_whole _) (hcond2_0 ⟨n, hn⟩) (hcond2_1 ⟨n, hn⟩) (iblk2 V c 0 ⟨n, hn⟩) (iblk2 V c 1 ⟨n, hn⟩) (iblk2 V c 2 ⟨n, hn⟩))

/-- `outsAt2` at a point, spelled over the point. -/
theorem outsAt2_A (c : Dev nD) (t : Fin cfg2.N) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) (hcond2_0 t) (hcond2_1 t) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (hcond2_0 t) (hcond2_1 t) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (hcond2_0 t) (hcond2_1 t) (iblk2 V c 0 t) (iblk2 V c 1 t) (iblk2 V c 2 t)) := rfl

/-! ## The pipeline's proof data -/

/-- The proof data of this call on core `c`: the arrays as the call finds them; after the body at point `t`
    each input's buffer at its block and the output's at `outsAt2`'s first component; the invariant the plain one
    (the call's scoped buffers at anything: the accumulators are rewritten whole before they are read at every
    point, so nothing about them need be carried); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; both guards hold, so the run applies; the
    invariant lends the two accumulators at anything and takes them back at what the stores left (forgotten
    again); the output block's buffer ends at its stores read back; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [outsAt2_A V c t]
  unfold out2_A_3; (try dsimp only)
  iintro ⟨⟨⟨⟨⟨%ds0, HS0⟩, ⟨%ds1, HS1⟩⟩, Hrest⟩, Hg⟩, Ho, ⟨%d0, H0⟩, ⟨%d1, H1⟩, ⟨%d2, H2⟩, ⟨%d3, H3⟩⟩
  iapply ((kernelRun2_A c (grid2.coords t) _ _ _ _ _ _ _ _ _ _ _ _ (hcond2_0 t) (hcond2_1 t) (iblk2 V c 0 t) (iblk2 V c 1 t) (iblk2 V c 2 t)).2.2.2 Set.univ _)
  isplitl [H0]; · iexact H0
  isplitl [H1]; · iexact H1
  isplitl [H2]; · iexact H2
  isplitl [H3]; · iexists _; iexact H3
  isplitl [HS0]; · iexists _; iexact HS0
  isplitl [HS1]; · iexists _; iexact HS1
  iintro ⟨H0, H1, H2, ⟨%e3, H3⟩, ⟨%es0, HS0⟩, ⟨%es1, HS1⟩⟩
  isplitl [HS0 HS1 Hrest Hg]
  · isplitl [HS0 HS1 Hrest]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_A_3 c _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point, -/
theorem hin2 (c : Dev nD) : Pipeline.ΦA spec2 c ⊢ (dat2 V c).Φ 0 := Idealize.SL.BI.Entails.refl _

/-- and the invariant after the last point is what the launch takes back. -/
theorem hout2 (c : Dev nD) : (dat2 V c).Φ (Fin.last cfg2.N) ⊢ Pipeline.ΦA spec2 c := Idealize.SL.BI.Entails.refl _

end Region

end Cert.Kernel.Hand

end
-- ==== Proof.K.Region3Runs.lean ====
/-
  The fourth layer's kernel call (grid 4 × 1, one tile per batch entry), first half: what its body does on
  any whole staging memrefs.

  Every grid point is at once the first and the last tile of its batch entry, so both guards of the body
  hold everywhere: the two accumulators are zeroed, the one-hot gather of the 64 sampled columns of the
  q block and of the k block is added into them, and the per-column loss is stored into the output block.
  Each accumulator is stored whole before it is first read back, so nothing the previous point left in
  them reaches this point's result.
-/
import proofs.«430285_j43310450213294_2_alg».proof.Proof.Gen.Kernel.Launch
import proofs.«430285_j43310450213294_2_alg».proof.Proof.Gen.Kernel.Skeleton
import proofs.«430285_j43310450213294_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region
-- the buffer contents when the call is entered: every statement below is made at this parameter
variable (V : (c : Dev nD) → (b : Ref sig .tc) → Buf (Elt F) ((c : Thread nD τ).loc b))

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The q block's staging buffer holds its block at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the k block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for the sampled indices, which are fetched once: their block index never moves, so the buffer
    still holds the block at the later points. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Region

/-! ## The body's two guards -/

/-- "This is the batch entry's first tile", as the body computes it from the tile coordinate. -/
abbrev cond3_0 (i : grid3.Coords) : Prop := (Scalar.cmpi .ne (Scalar.extui (Scalar.cmpi .eq (BitVec.ofNat 32 (i 1).val) 0#32)) 0#32) = 1#1
/-- It holds at every point: the tile axis has extent one. -/
theorem hcond3_0 : ∀ t : Fin cfg3.N, cond3_0 (grid3.coords t) :=
  (by decide +kernel : ∀ t : Fin grid3.N, cond3_0 (grid3.coords t))

/-- "This is the batch entry's last tile". -/
abbrev cond3_1 (i : grid3.Coords) : Prop := k3_cond2 i = 1#1
/-- It holds at every point too. -/
theorem hcond3_1 : ∀ t : Fin cfg3.N, cond3_1 (grid3.coords t) :=
  (by decide +kernel : ∀ t : Fin grid3.N, cond3_1 (grid3.coords t))

/-! ## No window is ever idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- The output block is stored at every point (the last-tile guard always holds). -/
theorem liveAt3_3 : ∀ t : Fin cfg3.N, cfg3.idle 3 (grid3.coords t) = false := by decide +kernel

/-! ## The memrefs the body is called with -/

/-- Each window's current staging memref at point `t`, spelled as the pipeline passes it, and its wholeness. -/
abbrev ms3_0 (t : Fin cfg3.N) : Memref sig .tc .vmem S1x256x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x256x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x64 .f32 := win3_3.stage (cfg3.slots t 3)
abbrev hs3_3 (t : Fin cfg3.N) : (ms3_3 t).IsWhole := hstage3_3 ((cfg3.slots t 3).cast nbuf3_3)
/-- The two accumulators: whole scoped buffers of the call's own. -/
abbrev scM3_0 : Memref sig .tc .vmem S256x64 .f32 := Memref.whole cc3_scratch0
abbrev scM3_1 : Memref sig .tc .vmem S256x64 .f32 := Memref.whole cc3_scratch1
/-- Views through which the contents of the output block and of the accumulators are stated (which buffer of a
    window is chosen does not matter: a covering list of stores reads back the same through any whole view). -/
abbrev VO3_3 : View sig .tc .vmem S1x1x64 .f32 := (Memref.whole cc3_stg3_0 : Memref sig .tc .vmem S1x1x64 .f32).view
abbrev VS3_0 : View sig .tc .vmem S256x64 .f32 := scM3_0.view
abbrev VS3_1 : View sig .tc .vmem S256x64 .f32 := scM3_1.view

/-- The call's region invariant with its two accumulators as memrefs owned at some contents; the other scoped
    buffers stay an unopened remainder. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.Kernel.Hand

end
-- ==== Proof.K.Region3.lean ====
/-
  The fourth layer's kernel call, second half: the body's run on whole staging memrefs, as a triple whose
  witness is the list of stores each written buffer ends with; what those stores leave in the output block
  and in the two accumulators; the pipeline's proof data and the body obligation at any point.
-/
import proofs.«430285_j43310450213294_2_alg».proof.Proof.K.Region3Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- What the body's stores leave, as pieces (last first), in the output block's memref (`L3`) and in the two
    accumulators (`LS0`, `LS1`), WITH the proof that on whole memrefs — the q block, the k block and the sampled
    indices at contents `x0`, `x1`, `x2`, the output block and both accumulators at anything — the body runs
    to the continuation holding the three inputs as they were and each written buffer with its pieces written.
    Both guards are decided by the hypotheses `hc0`, `hc1`. -/
noncomputable def kernelRun3_A (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) :
    Σ' (L3 : List (View.Piece (Elt F) S1x1x64 .f32)) (LS0 : List (View.Piece (Elt F) S256x64 .f32)), { LS1 : List (View.Piece (Elt F) S256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc3__gather_loss_kernel i arg2 harg2 arg3 harg3 arg4 harg4 arg5 harg5 arg6 harg6 arg7 harg7) K } := by
  refine ⟨?_, ?_, ?_, fun E K => ?run⟩
  case run =>
    simp only [cc3__gather_loss_kernel_eq_skeleton]; unfold cc3__gather_loss_kernel_skel
    simp only [k3_part1_eq_skeleton, k3_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

/-! ## What the body leaves in the output block and in the accumulators -/

/-- The body's stores into the output block cover it (one store of the whole block). -/
theorem cover3_A_3 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) (y : S1x1x64.Idx) :
    ∃ pc ∈ (kernelRun3_A c i arg2 harg2 arg3 harg3 arg4 harg4 arg5 harg5 arg6 harg6 arg7 harg7 hc0 hc1 x0 x1 x2).1, y ∈ pc.1.set :=
  View.cover_of_tiledL (kernelRun3_A c i arg2 harg2 arg3 harg3 arg4 harg4 arg5 harg5 arg6 harg6 arg7 harg7 hc0 hc1 x0 x1 x2).1 S1x1x64.size (by sl_kernel_rfl) y

/-- What the body leaves in the output block's staging buffer: its stores read back. -/
def out3_A_3 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) : Vec F S1x1x64 .f32 :=
  VO3_3.read (Elt F) (VO3_3.writes (Elt F) VO3_3.junk (kernelRun3_A c i arg2 harg2 arg3 harg3 arg4 harg4 arg5 harg5 arg6 harg6 arg7 harg7 hc0 hc1 x0 x1 x2).1)

/-- The body's stores into the q accumulator cover it (the zeroing and the update, each of the whole buffer). -/
theorem scover3_A_0 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) (y : S256x64.Idx) :
    ∃ pc ∈ (kernelRun3_A c i arg2 harg2 arg3 harg3 arg4 harg4 arg5 harg5 arg6 harg6 arg7 harg7 hc0 hc1 x0 x1 x2).2.1, y ∈ pc.1.set :=
  View.cover_of_tiledL (kernelRun3_A c i arg2 harg2 arg3 harg3 arg4 harg4 arg5 harg5 arg6 harg6 arg7 harg7 hc0 hc1 x0 x1 x2).2.1 S256x64.size (by sl_kernel_rfl) y

/-- What the body leaves in the q accumulator. -/
def sout3_A_0 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) : Vec F S256x64 .f32 :=
  VS3_0.read (Elt F) (VS3_0.writes (Elt F) VS3_0.junk (kernelRun3_A c i arg2 harg2 arg3 harg3 arg4 harg4 arg5 harg5 arg6 harg6 arg7 harg7 hc0 hc1 x0 x1 x2).2.1)

/-- The body's stores into the k accumulator cover it. -/
theorem scover3_A_1 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) (y : S256x64.Idx) :
    ∃ pc ∈ (kernelRun3_A c i arg2 harg2 arg3 harg3 arg4 harg4 arg5 harg5 arg6 harg6 arg7 harg7 hc0 hc1 x0 x1 x2).2.2.1, y ∈ pc.1.set :=
  View.cover_of_tiledL (kernelRun3_A c i arg2 harg2 arg3 harg3 arg4 harg4 arg5 harg5 arg6 harg6 arg7 harg7 hc0 hc1 x0 x1 x2).2.2.1 S256x64.size (by sl_kernel_rfl) y

/-- What the body leaves in the k accumulator. -/
def sout3_A_1 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) : Vec F S256x64 .f32 :=
  VS3_1.read (Elt F) (VS3_1.writes (Elt F) VS3_1.junk (kernelRun3_A c i arg2 harg2 arg3 harg3 arg4 harg4 arg5 harg5 arg6 harg6 arg7 harg7 hc0 hc1 x0 x1 x2).2.2.1)

section Region
variable (V : (c : Dev nD) → (b : Ref sig .tc) → Buf (Elt F) ((c : Thread nD τ).loc b))

/-! ## What the written buffers hold after each point -/

/-- After the body at position `n`: the output block's staging buffer, then the two accumulators. Every point
    is in the one case (first and last tile at once), so each component is the body's result on that point's
    three input blocks; nothing of the point before enters. -/
def outsAt3 (c : Dev nD) : (n : ℕ) → n < cfg3.N → Vec F S1x1x64 .f32 × Vec F S256x64 .f32 × Vec F S256x64 .f32
  | n, hn => (out3_A_3 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3_0 (Memref.isWhole_whole _) scM3_1 (Memref.isWhole_whole _) (hcond3_0 ⟨n, hn⟩) (hcond3_1 ⟨n, hn⟩) (iblk3 V c 0 ⟨n, hn⟩) (iblk3 V c 1 ⟨n, hn⟩) (iblk3 V c 2 ⟨n, hn⟩), sout3_A_0 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3_0 (Memref.isWhole_whole _) scM3_1 (Memref.isWhole_whole _) (hcond3_0 ⟨n, hn⟩) (hcond3_1 ⟨n, hn⟩) (iblk3 V c 0 ⟨n, hn⟩) (iblk3 V c 1 ⟨n, hn⟩) (iblk3 V c 2 ⟨n, hn⟩), sout3_A_1 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3_0 (Memref.isWhole_whole _) scM3_1 (Memref.isWhole_whole _) (hcond3_0 ⟨n, hn⟩) (hcond3_1 ⟨n, hn⟩) (iblk3 V c 0 ⟨n, hn⟩) (iblk3 V c 1 ⟨n, hn⟩) (iblk3 V c 2 ⟨n, hn⟩))

/-- `outsAt3` at a point, spelled over the point. -/
theorem outsAt3_A (c : Dev nD) (t : Fin cfg3.N) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hcond3_0 t) (hcond3_1 t) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hcond3_0 t) (hcond3_1 t) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hcond3_0 t) (hcond3_1 t) (iblk3 V c 0 t) (iblk3 V c 1 t) (iblk3 V c 2 t)) := rfl

/-! ## The pipeline's proof data -/

/-- The proof data of this call on core `c`: the arrays as the call finds them; after the body at point `t`
    each input's buffer at its block and the output's at `outsAt3`'s first component; the invariant the plain one
    (the call's scoped buffers at anything: the accumulators are rewritten whole before they are read at every
    point, so nothing about them need be carried); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; both guards hold, so the run applies; the
    invariant lends the two accumulators at anything and takes them back at what the stores left (forgotten
    again); the output block's buffer ends at its stores read back; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  rw [show (dat3 V c).leavesExact 3 t = owns (c : Thread nD τ) (ms3_3 t) fullShare ((dat3 V c).after 3 t) from by
      unfold Dat.leavesExact; rw [liveAt3_3 t], after3_3]
  rw [outsAt3_A V c t]
  unfold out3_A_3; (try dsimp only)
  iintro ⟨⟨⟨⟨⟨%ds0, HS0⟩, ⟨%ds1, HS1⟩⟩, Hrest⟩, Hg⟩, Ho, ⟨%d0, H0⟩, ⟨%d1, H1⟩, ⟨%d2, H2⟩, ⟨%d3, H3⟩⟩
  iapply ((kernelRun3_A c (grid3.coords t) _ _ _ _ _ _ _ _ _ _ _ _ (hcond3_0 t) (hcond3_1 t) (iblk3 V c 0 t) (iblk3 V c 1 t) (iblk3 V c 2 t)).2.2.2 Set.univ _)
  isplitl [H0]; · iexact H0
  isplitl [H1]; · iexact H1
  isplitl [H2]; · iexact H2
  isplitl [H3]; · iexists _; iexact H3
  isplitl [HS0]; · iexists _; iexact HS0
  isplitl [HS1]; · iexists _; iexact HS1
  iintro ⟨H0, H1, H2, ⟨%e3, H3⟩, ⟨%es0, HS0⟩, ⟨%es1, HS1⟩⟩
  isplitl [HS0 HS1 Hrest Hg]
  · isplitl [HS0 HS1 Hrest]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call is the invariant before the first point, -/
theorem hin3 (c : Dev nD) : Pipeline.ΦA spec3 c ⊢ (dat3 V c).Φ 0 := Idealize.SL.BI.Entails.refl _

/-- and the invariant after the last point is what the launch takes back. -/
theorem hout3 (c : Dev nD) : (dat3 V c).Φ (Fin.last cfg3.N) ⊢ Pipeline.ΦA spec3 c := Idealize.SL.BI.Entails.refl _

end Region

end Cert.Kernel.Hand

end
-- ==== Proof.K.Region4Runs.lean ====
/-
  The fifth layer's kernel call (grid 4 × 1, one tile per batch entry), first half: what its body does on
  any whole staging memrefs.

  Every grid point is at once the first and the last tile of its batch entry, so both guards of the body
  hold everywhere: the two accumulators are zeroed, the one-hot gather of the 64 sampled columns of the
  q block and of the k block is added into them, and the per-column loss is stored into the output block.
  Each accumulator is stored whole before it is first read back, so nothing the previous point left in
  them reaches this point's result.
-/
import proofs.«430285_j43310450213294_2_alg».proof.Proof.Gen.Kernel.Launch
import proofs.«430285_j43310450213294_2_alg».proof.Proof.Gen.Kernel.Skeleton
import proofs.«430285_j43310450213294_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Region
-- the buffer contents when the call is entered: every statement below is made at this parameter
variable (V : (c : Dev nD) → (b : Ref sig .tc) → Buf (Elt F) ((c : Thread nD τ).loc b))

/-! ## The windows' blocks -/

/-- Window `w`'s block at point `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The q block's staging buffer holds its block at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the k block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same for the sampled indices, which are fetched once: their block index never moves, so the buffer
    still holds the block at the later points. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

end Region

/-! ## The body's two guards -/

/-- "This is the batch entry's first tile", as the body computes it from the tile coordinate. -/
abbrev cond4_0 (i : grid4.Coords) : Prop := (Scalar.cmpi .ne (Scalar.extui (Scalar.cmpi .eq (BitVec.ofNat 32 (i 1).val) 0#32)) 0#32) = 1#1
/-- It holds at every point: the tile axis has extent one. -/
theorem hcond4_0 : ∀ t : Fin cfg4.N, cond4_0 (grid4.coords t) :=
  (by decide +kernel : ∀ t : Fin grid4.N, cond4_0 (grid4.coords t))

/-- "This is the batch entry's last tile". -/
abbrev cond4_1 (i : grid4.Coords) : Prop := k4_cond2 i = 1#1
/-- It holds at every point too. -/
theorem hcond4_1 : ∀ t : Fin cfg4.N, cond4_1 (grid4.coords t) :=
  (by decide +kernel : ∀ t : Fin grid4.N, cond4_1 (grid4.coords t))

/-! ## No window is ever idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- The output block is stored at every point (the last-tile guard always holds). -/
theorem liveAt4_3 : ∀ t : Fin cfg4.N, cfg4.idle 3 (grid4.coords t) = false := by decide +kernel

/-! ## The memrefs the body is called with -/

/-- Each window's current staging memref at point `t`, spelled as the pipeline passes it, and its wholeness. -/
abbrev ms4_0 (t : Fin cfg4.N) : Memref sig .tc .vmem S1x256x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .i32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1x64 .f32 := win4_3.stage (cfg4.slots t 3)
abbrev hs4_3 (t : Fin cfg4.N) : (ms4_3 t).IsWhole := hstage4_3 ((cfg4.slots t 3).cast nbuf4_3)
/-- The two accumulators: whole scoped buffers of the call's own. -/
abbrev scM4_0 : Memref sig .tc .vmem S256x64 .f32 := Memref.whole cc4_scratch0
abbrev scM4_1 : Memref sig .tc .vmem S256x64 .f32 := Memref.whole cc4_scratch1
/-- Views through which the contents of the output block and of the accumulators are stated (which buffer of a
    window is chosen does not matter: a covering list of stores reads back the same through any whole view). -/
abbrev VO4_3 : View sig .tc .vmem S1x1x64 .f32 := (Memref.whole cc4_stg3_0 : Memref sig .tc .vmem S1x1x64 .f32).view
abbrev VS4_0 : View sig .tc .vmem S256x64 .f32 := scM4_0.view
abbrev VS4_1 : View sig .tc .vmem S256x64 .f32 := scM4_1.view

/-- The call's region invariant with its two accumulators as memrefs owned at some contents; the other scoped
    buffers stay an unopened remainder. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Hand

end
-- ==== Proof.K.Region4.lean ====
/-
  The fifth layer's kernel call, second half: the body's run on whole staging memrefs, as a triple whose
  witness is the list of stores each written buffer ends with; what those stores leave in the output block
  and in the two accumulators; the pipeline's proof data and the body obligation at any point.
-/
import proofs.«430285_j43310450213294_2_alg».proof.Proof.K.Region4Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- What the body's stores leave, as pieces (last first), in the output block's memref (`L3`) and in the two
    accumulators (`LS0`, `LS1`), WITH the proof that on whole memrefs — the q block, the k block and the sampled
    indices at contents `x0`, `x1`, `x2`, the output block and both accumulators at anything — the body runs
    to the continuation holding the three inputs as they were and each written buffer with its pieces written.
    Both guards are decided by the hypotheses `hc0`, `hc1`. -/
noncomputable def kernelRun4_A (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) :
    Σ' (L3 : List (View.Piece (Elt F) S1x1x64 .f32)) (LS0 : List (View.Piece (Elt F) S256x64 .f32)), { LS1 : List (View.Piece (Elt F) S256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc4__gather_loss_kernel i arg2 harg2 arg3 harg3 arg4 harg4 arg5 harg5 arg6 harg6 arg7 harg7) K } := by
  refine ⟨?_, ?_, ?_, fun E K => ?run⟩
  case run =>
    simp only [cc4__gather_loss_kernel_eq_skeleton]; unfold cc4__gather_loss_kernel_skel
    simp only [k4_part1_eq_skeleton, k4_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

/-! ## What the body leaves in the output block and in the accumulators -/

/-- The body's stores into the output block cover it (one store of the whole block). -/
theorem cover4_A_3 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) (y : S1x1x64.Idx) :
    ∃ pc ∈ (kernelRun4_A c i arg2 harg2 arg3 harg3 arg4 harg4 arg5 harg5 arg6 harg6 arg7 harg7 hc0 hc1 x0 x1 x2).1, y ∈ pc.1.set :=
  View.cover_of_tiledL (kernelRun4_A c i arg2 harg2 arg3 harg3 arg4 harg4 arg5 harg5 arg6 harg6 arg7 harg7 hc0 hc1 x0 x1 x2).1 S1x1x64.size (by sl_kernel_rfl) y

/-- What the body leaves in the output block's staging buffer: its stores read back. -/
def out4_A_3 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) : Vec F S1x1x64 .f32 :=
  VO4_3.read (Elt F) (VO4_3.writes (Elt F) VO4_3.junk (kernelRun4_A c i arg2 harg2 arg3 harg3 arg4 harg4 arg5 harg5 arg6 harg6 arg7 harg7 hc0 hc1 x0 x1 x2).1)

/-- The body's stores into the q accumulator cover it (the zeroing and the update, each of the whole buffer). -/
theorem scover4_A_0 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) (y : S256x64.Idx) :
    ∃ pc ∈ (kernelRun4_A c i arg2 harg2 arg3 harg3 arg4 harg4 arg5 harg5 arg6 harg6 arg7 harg7 hc0 hc1 x0 x1 x2).2.1, y ∈ pc.1.set :=
  View.cover_of_tiledL (kernelRun4_A c i arg2 harg2 arg3 harg3 arg4 harg4 arg5 harg5 arg6 harg6 arg7 harg7 hc0 hc1 x0 x1 x2).2.1 S256x64.size (by sl_kernel_rfl) y

/-- What the body leaves in the q accumulator. -/
def sout4_A_0 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) : Vec F S256x64 .f32 :=
  VS4_0.read (Elt F) (VS4_0.writes (Elt F) VS4_0.junk (kernelRun4_A c i arg2 harg2 arg3 harg3 arg4 harg4 arg5 harg5 arg6 harg6 arg7 harg7 hc0 hc1 x0 x1 x2).2.1)

/-- The body's stores into the k accumulator cover it. -/
theorem scover4_A_1 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) (y : S256x64.Idx) :
    ∃ pc ∈ (kernelRun4_A c i arg2 harg2 arg3 harg3 arg4 harg4 arg5 harg5 arg6 harg6 arg7 harg7 hc0 hc1 x0 x1 x2).2.2.1, y ∈ pc.1.set :=
  View.cover_of_tiledL (kernelRun4_A c i arg2 harg2 arg3 harg3 arg4 harg4 arg5 harg5 arg6 harg6 arg7 harg7 hc0 hc1 x0 x1 x2).2.2.1 S256x64.size (by sl_kernel_rfl) y

/-- What the body leaves in the k accumulator. -/
def sout4_A_1 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) : Vec F S256x64 .f32 :=
  VS4_1.read (Elt F) (VS4_1.writes (Elt F) VS4_1.junk (kernelRun4_A c i arg2 harg2 arg3 harg3 arg4 harg4 arg5 harg5 arg6 harg6 arg7 harg7 hc0 hc1 x0 x1 x2).2.2.1)

section Region
variable (V : (c : Dev nD) → (b : Ref sig .tc) → Buf (Elt F) ((c : Thread nD τ).loc b))

/-! ## What the written buffers hold after each point -/

/-- After the body at position `n`: the output block's staging buffer, then the two accumulators. Every point
    is in the one case (first and last tile at once), so each component is the body's result on that point's
    three input blocks; nothing of the point before enters. -/
def outsAt4 (c : Dev nD) : (n : ℕ) → n < cfg4.N → Vec F S1x1x64 .f32 × Vec F S256x64 .f32 × Vec F S256x64 .f32
  | n, hn => (out4_A_3 c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4_0 (Memref.isWhole_whole _) scM4_1 (Memref.isWhole_whole _) (hcond4_0 ⟨n, hn⟩) (hcond4_1 ⟨n, hn⟩) (iblk4 V c 0 ⟨n, hn⟩) (iblk4 V c 1 ⟨n, hn⟩) (iblk4 V c 2 ⟨n, hn⟩), sout4_A_0 c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4_0 (Memref.isWhole_whole _) scM4_1 (Memref.isWhole_whole _) (hcond4_0 ⟨n, hn⟩) (hcond4_1 ⟨n, hn⟩) (iblk4 V c 0 ⟨n, hn⟩) (iblk4 V c 1 ⟨n, hn⟩) (iblk4 V c 2 ⟨n, hn⟩), sout4_A_1 c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4_0 (Memref.isWhole_whole _) scM4_1 (Memref.isWhole_whole _) (hcond4_0 ⟨n, hn⟩) (hcond4_1 ⟨n, hn⟩) (iblk4 V c 0 ⟨n, hn⟩) (iblk4 V c 1 ⟨n, hn⟩) (iblk4 V c 2 ⟨n, hn⟩))

/-- `outsAt4` at a point, spelled over the point. -/
theorem outsAt4_A (c : Dev nD) (t : Fin cfg4.N) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (hcond4_0 t) (hcond4_1 t) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (hcond4_0 t) (hcond4_1 t) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (hcond4_0 t) (hcond4_1 t) (iblk4 V c 0 t) (iblk4 V c 1 t) (iblk4 V c 2 t)) := rfl

/-! ## The pipeline's proof data -/

/-- The proof data of this call on core `c`: the arrays as the call finds them; after the body at point `t`
    each input's buffer at its block and the output's at `outsAt4`'s first component; the invariant the plain one
    (the call's scoped buffers at anything: the accumulators are rewritten whole before they are read at every
    point, so nothing about them need be carried); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; both guards hold, so the run applies; the
    invariant lends the two accumulators at anything and takes them back at what the stores left (forgotten
    again); the output block's buffer ends at its stores read back; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl, PhiA4_eq]
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  rw [outsAt4_A V c t]
  unfold out4_A_3; (try dsimp only)
  iintro ⟨⟨⟨⟨⟨%ds0, HS0⟩, ⟨%ds1, HS1⟩⟩, Hrest⟩, Hg⟩, Ho, ⟨%d0, H0⟩, ⟨%d1, H1⟩, ⟨%d2, H2⟩, ⟨%d3, H3⟩⟩
  iapply ((kernelRun4_A c (grid4.coords t) _ _ _ _ _ _ _ _ _ _ _ _ (hcond4_0 t) (hcond4_1 t) (iblk4 V c 0 t) (iblk4 V c 1 t) (iblk4 V c 2 t)).2.2.2 Set.univ _)
  isplitl [H0]; · iexact H0
  isplitl [H1]; · iexact H1
  isplitl [H2]; · iexact H2
  isplitl [H3]; · iexists _; iexact H3
  isplitl [HS0]; · iexists _; iexact HS0
  isplitl [HS1]; · iexists _; iexact HS1
  iintro ⟨H0, H1, H2, ⟨%e3, H3⟩, ⟨%es0, HS0⟩, ⟨%es1, HS1⟩⟩
  isplitl [HS0 HS1 Hrest Hg]
  · isplitl [HS0 HS1 Hrest]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_A_3 c _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the call is the invariant before the first point, -/
theorem hin4 (c : Dev nD) : Pipeline.ΦA spec4 c ⊢ (dat4 V c).Φ 0 := Idealize.SL.BI.Entails.refl _

/-- and the invariant after the last point is what the launch takes back. -/
theorem hout4 (c : Dev nD) : (dat4 V c).Φ (Fin.last cfg4.N) ⊢ Pipeline.ΦA spec4 c := Idealize.SL.BI.Entails.refl _

end Region

end Cert.Kernel.Hand

end
-- ==== Proof.K.Halves.lean ====
/-
  The five pallas_calls' halves gathered: each call's proof data, body obligation and invariant ends, as the
  record the run takes.
-/
import proofs.«430285_j43310450213294_2_alg».proof.Proof.K.Whole
import proofs.«430285_j43310450213294_2_alg».proof.Proof.K.Region0
import proofs.«430285_j43310450213294_2_alg».proof.Proof.K.Region1
import proofs.«430285_j43310450213294_2_alg».proof.Proof.K.Region2
import proofs.«430285_j43310450213294_2_alg».proof.Proof.K.Region3
import proofs.«430285_j43310450213294_2_alg».proof.Proof.K.Region4

noncomputable section

namespace Cert.Kernel.Hand

open Cert.Kernel Cert.Kernel.Gen
open Idealize.ShloMosaic Idealize.ShloMosaic.TcCoe
open Idealize.SL Idealize.SL.Sem

variable {F : FTy → Type} [FloatOps F]

/-- Pallas_call 0's half. -/
def half0 : Half F cfg0 where
  dat := dat0
  hA := A_eq0
  hq := fun _ _ _ => rfl
  howed := fun _ _ _ => rfl
  hrec := fun _ _ _ => rfl
  hbody := body_obligation0
  hin := hin0
  hout := hout0

/-- Pallas_call 1's half. -/
def half1 : Half F cfg1 where
  dat := dat1
  hA := A_eq1
  hq := fun _ _ _ => rfl
  howed := fun _ _ _ => rfl
  hrec := fun _ _ _ => rfl
  hbody := body_obligation1
  hin := hin1
  hout := hout1

/-- Pallas_call 2's half. -/
def half2 : Half F cfg2 where
  dat := dat2
  hA := A_eq2
  hq := fun _ _ _ => rfl
  howed := fun _ _ _ => rfl
  hrec := fun _ _ _ => rfl
  hbody := body_obligation2
  hin := hin2
  hout := hout2

/-- Pallas_call 3's half. -/
def half3 : Half F cfg3 where
  dat := dat3
  hA := A_eq3
  hq := fun _ _ _ => rfl
  howed := fun _ _ _ => rfl
  hrec := fun _ _ _ => rfl
  hbody := body_obligation3
  hin := hin3
  hout := hout3

/-- Pallas_call 4's half. -/
def half4 : Half F cfg4 where
  dat := dat4
  hA := A_eq4
  hq := fun _ _ _ => rfl
  howed := fun _ _ _ => rfl
  hrec := fun _ _ _ => rfl
  hbody := body_obligation4
  hin := hin4
  hout := hout4

variable (m : (ℓ : Loc nD τ sig) → Buf (Elt F) ℓ) (ρ : Dev nD → PrngReg)

/-- What the five pallas_calls leave in their output arrays, as the valuations between @main's items read it. -/
abbrev outsAll : Outs (F := F) := outs m half0 half1 half2 half3 half4

/-- The program's run with the result named. -/
theorem runResult : θ_run defs (onTc (τ := τ) (main (F := F))) ⟨m, fun _ => 0, ρ⟩ (fun r => ∀ c : Dev nD,
      r.2.mem ((c.tc : Thread nD τ).loc main_v35) = V11 m (outsAll m) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_result m ρ (half0 (F := F)) half1 half2 half3 half4

/-- The program's frame. -/
theorem frameAll : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame m ρ (half0 (F := F)) half1 half2 half3 half4

end Cert.Kernel.Hand

end
-- ==== Proof.KI.RegionSegs.lean ====
/-
  A pallas_call of @main as a segment of the run, from what its half supplies.

  Between two items of @main every unscoped buffer of a core is held whole at a valuation, beside the core's
  generator register at some state and the core owing nothing. A pallas_call enters from the valuation `Vin`
  and leaves at `Vout`: its windows' arrays are split out of the unscoped buffers at entry and put back at exit,
  where each array holds what the pipeline's write-backs leave (`hF`) and every other buffer what it held
  (`hrest`); the generator register and the scoped buffers no window stages go into the region's invariant and
  come back; the kernel has no semaphore of its own and owes nothing at the pipeline's cells.
-/
import proofs.«430285_j43310450213294_2_alg».proof.Proof.Gen.KernelIdeal.Regions
import Idealize.ShloMosaic.Lib.Pipeline.FrameBody
import Idealize.ShloMosaic.Lib.Pipeline.RegionsLoop
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- No core owes another anything: no level is assigned. -/
abbrev Lv0 : GSem nD τ sig → Finset Unit := fun _ => ∅
abbrev lv0 : GSem nD τ sig → Unit → ℕ := fun _ _ => 0

/-- What rides beside the buffers through every item: the core's generator register at some state and the core
    owing nothing. -/
abbrev Rest (c : Dev nD) : sProp 𝕄 :=
  iprop((∃ r, prngReg c r) ∗ ∃ W, owes (c : Thread nD τ) (0 : CellTallies nD τ sig Unit) W)

-- a library lemma stated over the pinned configuration unifies with the printed one only when unification may
-- unfold plain definitions in a metavariable's type
set_option backward.isDefEq.respectTransparency.types false in
/-- Pallas_call `p` as a segment, entered at `Vin` and left at `Vout`. -/
def regionSeg (p : Fin 5) (lf : Pipeline.LaunchFacts (nD := nD) (τ := τ) cfgs p)
    (pdats : (q : Fin 5) → (c : Dev nD) → Dat τ (Elt F) Unit ℕ (UR sig nD τ) ℕ (cfgs q) c)
    (Vin Vout : Dev nD → Valuation τ sig (Elt F))
    (hA : ∀ c w, (pdats p c).A w = Vin c (Pipeline.arrRef (pcfgs (F := F) p).spec w))
    (hq : ∀ c w, (pdats p c).q w = fullShare)
    (howed : ∀ c t, (pdats p c).owed t = 0)
    (hrec : ∀ c t, (pdats p c).recorded t = Set.univ)
    (hbody : ∀ c, BodyObligation (pdats p c) (defs₀ (F := F)) Variants.none () Set.univ)
    (hin : ∀ c, (Pipeline.ΦA (pcfgs (F := F) p).spec c : sProp 𝕄) ⊢ (pdats p c).Φ 0)
    (hout : ∀ c, (pdats p c).Φ (Fin.last (cfgs p).N) ⊢ (Pipeline.ΦA (pcfgs (F := F) p).spec c : sProp 𝕄))
    (hF : ∀ c w, (pdats p c).arrAt w (cfgs p).N = Vout c (Pipeline.arrRef (pcfgs (F := F) p).spec w))
    (hrest : ∀ c (b : Ref sig .tc), b ∉ Finset.univ.image (Pipeline.arrRef (pcfgs (F := F) p).spec) → Vout c b = Vin c b) :
    Pipeline.RegionSeg (pcfgs (F := F)) adm pdats () defs₀ Variants.none Lv0 lv0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ Lv0 lv0 p fun c t => howed c t
  pre c := iprop(StableHlo.held (c : Thread nD τ) (Pipeline.ucRefs τ sig) (Vin c) ∗ Rest c)
  post c := iprop(StableHlo.held (c : Thread nD τ) (Pipeline.ucRefs τ sig) (Vout c) ∗ Rest c)
  X c := iprop(∃ r, prngReg c r)
  Y c := iprop(∃ r, prngReg c r)
  Z c := Pipeline.unscopedRest (Ix := Unit) (Name := ℕ) (U := UR sig nD τ) (Lvl := ℕ) (pcfgs (F := F) p).spec c (fun b => Vin c b)
  hentry c := by
    rw [Pipeline.ownSems0_none]
    have hsplit := Pipeline.arrays_of_unscopedBufs (p := p) (pcfgs (F := F)) adm pdats lf.win lf.arr_whole c
      ((pdats p c).share_full (hq c)) (fun b => Vin c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec c 0]; exact Set.mem_univ _)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pdats ((pdats p c).share_full (hq c))
      (fun b => Vin c b) (fun b => Vout c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end Cert.KernelIdeal.Hand

end
-- ==== Proof.KI.Run.lean ====
/-
  The run of the kernel's program: its five pallas_calls among its stretches of host operations.

  What a pallas_call's half supplies is taken as a record (`Half`): proof data at any entry contents, whose
  arrays are the entry contents', holding full shares, owing nothing, with its body obligation, and whose
  invariant starts from and ends at the class's (the scoped rest and the generator register). The valuations
  between @main's items are staged from the launch memory: a host stretch applies its operations, a pallas_call
  replaces its output array by what its pipeline's write-backs leave. The launch is then called once with every
  unscoped buffer's final contents in the post; the frame claim and the result's value are both read off it.
-/
import proofs.«430285_j43310450213294_2_alg».proof.Proof.KI.RegionSegs
import Idealize.ShloMosaic.Lib.Pipeline.FrameSuffix

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

/-- The TensorCore's buffer contents when a region is entered, per core. -/
abbrev Entry (F : FTy → Type) : Type := (c : Dev nD) → (b : Ref sig .tc) → Buf (Elt F) ((c : Thread nD τ).loc b)

/-- What one pallas_call's half supplies, at every entry contents. -/
structure Half (F : FTy → Type) [FloatOps F] [Named F] (cfg : Pipeline.Cfg sig Λ₀) where
  dat : Entry F → (c : Dev nD) → Dat τ (Elt F) Unit ℕ (UR sig nD τ) ℕ cfg c
  hA : ∀ V c (w : Fin cfg.W), (dat V c).A w = V c (Pipeline.arrRef cfg.spec w)
  hq : ∀ V c (w : Fin cfg.W), (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA cfg.spec c : sProp (MT nD τ sig Unit (Elt F) ℕ (UR sig nD τ) ℕ)) ⊢ (dat V c).Φ 0
  hout : ∀ V c, (dat V c).Φ (Fin.last cfg.N) ⊢ (Pipeline.ΦA cfg.spec c : sProp (MT nD τ sig Unit (Elt F) ℕ (UR sig nD τ) ℕ))

variable (m : (ℓ : Loc nD τ sig) → Buf (Elt F) ℓ)
variable (H0 : Half F cfg0) (H1 : Half F cfg1) (H2 : Half F cfg2) (H3 : Half F cfg3) (H4 : Half F cfg4)

/-! ## The valuations between the items, staged from the launch memory -/

/-- Before pallas_call 0: the first host stretch applied to the launch memory. -/
abbrev U1 (c : Dev nD) : Valuation τ sig (Elt F) := V1 m c
/-- After pallas_call 0: its arrays at what its pipeline leaves. -/
def W2 (c : Dev nD) : Valuation τ sig (Elt F) :=
  Pipeline.withArrays spec0 c (U1 m c) fun w => (H0.dat (fun c b => U1 m c b) c).arrAt w cfg0.N
abbrev U3 (c : Dev nD) : Valuation τ sig (Elt F) :=
  StableHlo.after hostOps1 (Function.update (U1 m c) main_v3 (W2 m H0 c main_v3))
def W4 (c : Dev nD) : Valuation τ sig (Elt F) :=
  Pipeline.withArrays spec1 c (U3 m H0 c) fun w => (H1.dat (fun c b => U3 m H0 c b) c).arrAt w cfg1.N
abbrev U5 (c : Dev nD) : Valuation τ sig (Elt F) :=
  StableHlo.after hostOps2 (Function.update (U3 m H0 c) main_v10 (W4 m H0 H1 c main_v10))
def W6 (c : Dev nD) : Valuation τ sig (Elt F) :=
  Pipeline.withArrays spec2 c (U5 m H0 H1 c) fun w => (H2.dat (fun c b => U5 m H0 H1 c b) c).arrAt w cfg2.N
abbrev U7 (c : Dev nD) : Valuation τ sig (Elt F) :=
  StableHlo.after hostOps3 (Function.update (U5 m H0 H1 c) main_v17 (W6 m H0 H1 H2 c main_v17))
def W8 (c : Dev nD) : Valuation τ sig (Elt F) :=
  Pipeline.withArrays spec3 c (U7 m H0 H1 H2 c) fun w => (H3.dat (fun c b => U7 m H0 H1 H2 c b) c).arrAt w cfg3.N
abbrev U9 (c : Dev nD) : Valuation τ sig (Elt F) :=
  StableHlo.after hostOps4 (Function.update (U7 m H0 H1 H2 c) main_v24 (W8 m H0 H1 H2 H3 c main_v24))
def W10 (c : Dev nD) : Valuation τ sig (Elt F) :=
  Pipeline.withArrays spec4 c (U9 m H0 H1 H2 H3 c) fun w => (H4.dat (fun c b => U9 m H0 H1 H2 H3 c b) c).arrAt w cfg4.N

/-- What the pallas_calls leave, as the generated valuations read it: after item J−1 the contents of a reference
    are the staged valuation's. -/
def outs : Outs (F := F) := fun J r c =>
  match J with
  | 2 => W2 m H0 c r
  | 4 => W4 m H0 H1 c r
  | 6 => W6 m H0 H1 H2 c r
  | 8 => W8 m H0 H1 H2 H3 c r
  | 10 => W10 m H0 H1 H2 H3 H4 c r
  | _ => m ((c : Thread nD τ).loc r)

theorem V3_eq (c : Dev nD) : V3 m (outs m H0 H1 H2 H3 H4) c = U3 m H0 c := rfl
theorem V5_eq (c : Dev nD) : V5 m (outs m H0 H1 H2 H3 H4) c = U5 m H0 H1 c := rfl
theorem V7_eq (c : Dev nD) : V7 m (outs m H0 H1 H2 H3 H4) c = U7 m H0 H1 H2 c := rfl
theorem V9_eq (c : Dev nD) : V9 m (outs m H0 H1 H2 H3 H4) c = U9 m H0 H1 H2 H3 c := rfl

/-- Every pipeline's proof data, each at its region's entry contents: a literal match, so that the pipeline
    index at a numeral reduces to the printed configuration. -/
def pdats : (p : Fin 5) → (c : Dev nD) → Dat τ (Elt F) Unit ℕ (UR sig nD τ) ℕ (cfgs p) c
  | ⟨0, _⟩ => fun c => H0.dat (fun c b => U1 m c b) c
  | ⟨1, _⟩ => fun c => H1.dat (fun c b => U3 m H0 c b) c
  | ⟨2, _⟩ => fun c => H2.dat (fun c b => U5 m H0 H1 c b) c
  | ⟨3, _⟩ => fun c => H3.dat (fun c b => U7 m H0 H1 H2 c b) c
  | ⟨4, _⟩ => fun c => H4.dat (fun c b => U9 m H0 H1 H2 H3 c b) c
  | ⟨_ + 5, h⟩ => absurd h (Nat.not_lt.2 (Nat.le_add_left _ _))

/-! ## Uniform names per pallas_call: its entry valuation staged, the generated valuations at its two ends, its output -/

abbrev Uin0 (m : (ℓ : Loc nD τ sig) → Buf (Elt F) ℓ) (H0 : Half F cfg0) (H1 : Half F cfg1) (H2 : Half F cfg2) (H3 : Half F cfg3) (H4 : Half F cfg4) (c : Dev nD) : Valuation τ sig (Elt F) := U1 m c
abbrev Uin1 (m : (ℓ : Loc nD τ sig) → Buf (Elt F) ℓ) (H0 : Half F cfg0) (H1 : Half F cfg1) (H2 : Half F cfg2) (H3 : Half F cfg3) (H4 : Half F cfg4) (c : Dev nD) : Valuation τ sig (Elt F) := U3 m H0 c
abbrev Uin2 (m : (ℓ : Loc nD τ sig) → Buf (Elt F) ℓ) (H0 : Half F cfg0) (H1 : Half F cfg1) (H2 : Half F cfg2) (H3 : Half F cfg3) (H4 : Half F cfg4) (c : Dev nD) : Valuation τ sig (Elt F) := U5 m H0 H1 c
abbrev Uin3 (m : (ℓ : Loc nD τ sig) → Buf (Elt F) ℓ) (H0 : Half F cfg0) (H1 : Half F cfg1) (H2 : Half F cfg2) (H3 : Half F cfg3) (H4 : Half F cfg4) (c : Dev nD) : Valuation τ sig (Elt F) := U7 m H0 H1 H2 c
abbrev Uin4 (m : (ℓ : Loc nD τ sig) → Buf (Elt F) ℓ) (H0 : Half F cfg0) (H1 : Half F cfg1) (H2 : Half F cfg2) (H3 : Half F cfg3) (H4 : Half F cfg4) (c : Dev nD) : Valuation τ sig (Elt F) := U9 m H0 H1 H2 H3 c

abbrev Vin0 (o : Outs (F := F)) (c : Dev nD) : Valuation τ sig (Elt F) := V1 m c
abbrev Vin1 (o : Outs (F := F)) (c : Dev nD) : Valuation τ sig (Elt F) := V3 m o c
abbrev Vin2 (o : Outs (F := F)) (c : Dev nD) : Valuation τ sig (Elt F) := V5 m o c
abbrev Vin3 (o : Outs (F := F)) (c : Dev nD) : Valuation τ sig (Elt F) := V7 m o c
abbrev Vin4 (o : Outs (F := F)) (c : Dev nD) : Valuation τ sig (Elt F) := V9 m o c
abbrev Vout0 (o : Outs (F := F)) (c : Dev nD) : Valuation τ sig (Elt F) := V2 m o c
abbrev Vout1 (o : Outs (F := F)) (c : Dev nD) : Valuation τ sig (Elt F) := V4 m o c
abbrev Vout2 (o : Outs (F := F)) (c : Dev nD) : Valuation τ sig (Elt F) := V6 m o c
abbrev Vout3 (o : Outs (F := F)) (c : Dev nD) : Valuation τ sig (Elt F) := V8 m o c
abbrev Vout4 (o : Outs (F := F)) (c : Dev nD) : Valuation τ sig (Elt F) := V10 m o c

abbrev outRef0 : Ref sig .tc := main_v3
abbrev outRef1 : Ref sig .tc := main_v10
abbrev outRef2 : Ref sig .tc := main_v17
abbrev outRef3 : Ref sig .tc := main_v24
abbrev outRef4 : Ref sig .tc := main_v31

theorem Vout0_of (o : Outs (F := F)) (c : Dev nD) (r : Ref sig .tc) (h : r ∉ ([outRef0] : List (Ref sig .tc))) : Vout0 m o c r = Vin0 m o c r := V2_of m o c r h
theorem Vout1_of (o : Outs (F := F)) (c : Dev nD) (r : Ref sig .tc) (h : r ∉ ([outRef1] : List (Ref sig .tc))) : Vout1 m o c r = Vin1 m o c r := V4_of m o c r h
theorem Vout2_of (o : Outs (F := F)) (c : Dev nD) (r : Ref sig .tc) (h : r ∉ ([outRef2] : List (Ref sig .tc))) : Vout2 m o c r = Vin2 m o c r := V6_of m o c r h
theorem Vout3_of (o : Outs (F := F)) (c : Dev nD) (r : Ref sig .tc) (h : r ∉ ([outRef3] : List (Ref sig .tc))) : Vout3 m o c r = Vin3 m o c r := V8_of m o c r h
theorem Vout4_of (o : Outs (F := F)) (c : Dev nD) (r : Ref sig .tc) (h : r ∉ ([outRef4] : List (Ref sig .tc))) : Vout4 m o c r = Vin4 m o c r := V10_of m o c r h

/-- The pipeline indices by name. -/
abbrev pidx0 : Fin 5 := 0
abbrev pidx1 : Fin 5 := 1
abbrev pidx2 : Fin 5 := 2
abbrev pidx3 : Fin 5 := 3
abbrev pidx4 : Fin 5 := 4

end Cert.KernelIdeal.Hand

end
-- ==== Proof.KI.Reg0.lean ====
/-
  Pallas_call 0 of the kernel's program as a segment of the run.

  At the call's exit each of its four arrays holds what its pipeline leaves: the three input arrays what they held
  at entry (an input window is never written back), the output array what the write-backs leave, which is how the
  staged valuation after the call was defined; every buffer that is none of the four is as at entry.
-/
import proofs.«430285_j43310450213294_2_alg».proof.Proof.KI.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

variable (m : (ℓ : Loc nD τ sig) → Buf (Elt F) ℓ)
variable (H0 : Half F cfg0) (H1 : Half F cfg1) (H2 : Half F cfg2) (H3 : Half F cfg3) (H4 : Half F cfg4)

/-- At the call's exit each of its arrays holds what the pipeline leaves. -/
theorem hF0 (c : Dev nD) (w : Fin cfg0.W) :
    (pdats m H0 H1 H2 H3 H4 pidx0 c).arrAt w cfg0.N = Vout0 m (outs m H0 H1 H2 H3 H4) c (Pipeline.arrRef spec0 w) := by
  match w with
  | ⟨0, _⟩ =>
    rw [Vout0_of m _ c (Pipeline.arrRef spec0 0) (by decide)]
    exact ((pdats m H0 H1 H2 H3 H4 pidx0 c).arrAt_in 0 rfl _).trans (H0.hA _ c 0)
  | ⟨1, _⟩ =>
    rw [Vout0_of m _ c (Pipeline.arrRef spec0 1) (by decide)]
    exact ((pdats m H0 H1 H2 H3 H4 pidx0 c).arrAt_in 1 rfl _).trans (H0.hA _ c 1)
  | ⟨2, _⟩ =>
    rw [Vout0_of m _ c (Pipeline.arrRef spec0 2) (by decide)]
    exact ((pdats m H0 H1 H2 H3 H4 pidx0 c).arrAt_in 2 rfl _).trans (H0.hA _ c 2)
  | ⟨3, _⟩ =>
    show _ = Function.update (Vin0 m (outs m H0 H1 H2 H3 H4) c) (Proc.devRef .tc outRef0) _ (Proc.devRef .tc outRef0)
    rw [Function.update_self]
    exact (Pipeline.withArrays_arr spec0 launch0.win.arr_inj c (Uin0 m H0 H1 H2 H3 H4 c)
      (fun w => (H0.dat (fun c b => Uin0 m H0 H1 H2 H3 H4 c b) c).arrAt w cfg0.N) 3).symm

/-- Off its arrays the call leaves every unscoped buffer as it found it. -/
theorem hrest0 (c : Dev nD) (b : Ref sig .tc) (hb : b ∉ Finset.univ.image (Pipeline.arrRef spec0)) :
    Vout0 m (outs m H0 H1 H2 H3 H4) c b = Vin0 m (outs m H0 H1 H2 H3 H4) c b :=
  Vout0_of m _ c b (fun h => hb (by
    rw [List.mem_singleton] at h; subst h
    exact Finset.mem_image.mpr ⟨3, Finset.mem_univ _, rfl⟩))

/-- The call as a segment: entered at the valuation before it, left at the one after it. -/
def reg0 : Pipeline.RegionSeg (pcfgs (F := F)) adm (pdats m H0 H1 H2 H3 H4) () defs₀ Variants.none Lv0 lv0 pidx0 :=
  regionSeg pidx0 launch0 (pdats m H0 H1 H2 H3 H4) (fun c => Vin0 m (outs m H0 H1 H2 H3 H4) c) (fun c => Vout0 m (outs m H0 H1 H2 H3 H4) c)
    (fun c w => H0.hA _ c w) (fun c w => H0.hq _ c w) (fun c t => H0.howed _ c t) (fun c t => H0.hrec _ c t)
    (fun c => H0.hbody _ c) (fun c => H0.hin _ c) (fun c => H0.hout _ c)
    (hF0 m H0 H1 H2 H3 H4) (hrest0 m H0 H1 H2 H3 H4)

end Cert.KernelIdeal.Hand

end
-- ==== Proof.KI.Reg1.lean ====
/-
  Pallas_call 1 of the kernel's program as a segment of the run.

  At the call's exit each of its four arrays holds what its pipeline leaves: the three input arrays what they held
  at entry (an input window is never written back), the output array what the write-backs leave, which is how the
  staged valuation after the call was defined; every buffer that is none of the four is as at entry.
-/
import proofs.«430285_j43310450213294_2_alg».proof.Proof.KI.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

variable (m : (ℓ : Loc nD τ sig) → Buf (Elt F) ℓ)
variable (H0 : Half F cfg0) (H1 : Half F cfg1) (H2 : Half F cfg2) (H3 : Half F cfg3) (H4 : Half F cfg4)

/-- At the call's exit each of its arrays holds what the pipeline leaves. -/
theorem hF1 (c : Dev nD) (w : Fin cfg1.W) :
    (pdats m H0 H1 H2 H3 H4 pidx1 c).arrAt w cfg1.N = Vout1 m (outs m H0 H1 H2 H3 H4) c (Pipeline.arrRef spec1 w) := by
  match w with
  | ⟨0, _⟩ =>
    rw [Vout1_of m _ c (Pipeline.arrRef spec1 0) (by decide)]
    exact ((pdats m H0 H1 H2 H3 H4 pidx1 c).arrAt_in 0 rfl _).trans (H1.hA _ c 0)
  | ⟨1, _⟩ =>
    rw [Vout1_of m _ c (Pipeline.arrRef spec1 1) (by decide)]
    exact ((pdats m H0 H1 H2 H3 H4 pidx1 c).arrAt_in 1 rfl _).trans (H1.hA _ c 1)
  | ⟨2, _⟩ =>
    rw [Vout1_of m _ c (Pipeline.arrRef spec1 2) (by decide)]
    exact ((pdats m H0 H1 H2 H3 H4 pidx1 c).arrAt_in 2 rfl _).trans (H1.hA _ c 2)
  | ⟨3, _⟩ =>
    show _ = Function.update (Vin1 m (outs m H0 H1 H2 H3 H4) c) (Proc.devRef .tc outRef1) _ (Proc.devRef .tc outRef1)
    rw [Function.update_self]
    exact (Pipeline.withArrays_arr spec1 launch1.win.arr_inj c (Uin1 m H0 H1 H2 H3 H4 c)
      (fun w => (H1.dat (fun c b => Uin1 m H0 H1 H2 H3 H4 c b) c).arrAt w cfg1.N) 3).symm

/-- Off its arrays the call leaves every unscoped buffer as it found it. -/
theorem hrest1 (c : Dev nD) (b : Ref sig .tc) (hb : b ∉ Finset.univ.image (Pipeline.arrRef spec1)) :
    Vout1 m (outs m H0 H1 H2 H3 H4) c b = Vin1 m (outs m H0 H1 H2 H3 H4) c b :=
  Vout1_of m _ c b (fun h => hb (by
    rw [List.mem_singleton] at h; subst h
    exact Finset.mem_image.mpr ⟨3, Finset.mem_univ _, rfl⟩))

/-- The call as a segment: entered at the valuation before it, left at the one after it. -/
def reg1 : Pipeline.RegionSeg (pcfgs (F := F)) adm (pdats m H0 H1 H2 H3 H4) () defs₀ Variants.none Lv0 lv0 pidx1 :=
  regionSeg pidx1 launch1 (pdats m H0 H1 H2 H3 H4) (fun c => Vin1 m (outs m H0 H1 H2 H3 H4) c) (fun c => Vout1 m (outs m H0 H1 H2 H3 H4) c)
    (fun c w => H1.hA _ c w) (fun c w => H1.hq _ c w) (fun c t => H1.howed _ c t) (fun c t => H1.hrec _ c t)
    (fun c => H1.hbody _ c) (fun c => H1.hin _ c) (fun c => H1.hout _ c)
    (hF1 m H0 H1 H2 H3 H4) (hrest1 m H0 H1 H2 H3 H4)

end Cert.KernelIdeal.Hand

end
-- ==== Proof.KI.Reg2.lean ====
/-
  Pallas_call 2 of the kernel's program as a segment of the run.

  At the call's exit each of its four arrays holds what its pipeline leaves: the three input arrays what they held
  at entry (an input window is never written back), the output array what the write-backs leave, which is how the
  staged valuation after the call was defined; every buffer that is none of the four is as at entry.
-/
import proofs.«430285_j43310450213294_2_alg».proof.Proof.KI.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

variable (m : (ℓ : Loc nD τ sig) → Buf (Elt F) ℓ)
variable (H0 : Half F cfg0) (H1 : Half F cfg1) (H2 : Half F cfg2) (H3 : Half F cfg3) (H4 : Half F cfg4)

/-- At the call's exit each of its arrays holds what the pipeline leaves. -/
theorem hF2 (c : Dev nD) (w : Fin cfg2.W) :
    (pdats m H0 H1 H2 H3 H4 pidx2 c).arrAt w cfg2.N = Vout2 m (outs m H0 H1 H2 H3 H4) c (Pipeline.arrRef spec2 w) := by
  match w with
  | ⟨0, _⟩ =>
    rw [Vout2_of m _ c (Pipeline.arrRef spec2 0) (by decide)]
    exact ((pdats m H0 H1 H2 H3 H4 pidx2 c).arrAt_in 0 rfl _).trans (H2.hA _ c 0)
  | ⟨1, _⟩ =>
    rw [Vout2_of m _ c (Pipeline.arrRef spec2 1) (by decide)]
    exact ((pdats m H0 H1 H2 H3 H4 pidx2 c).arrAt_in 1 rfl _).trans (H2.hA _ c 1)
  | ⟨2, _⟩ =>
    rw [Vout2_of m _ c (Pipeline.arrRef spec2 2) (by decide)]
    exact ((pdats m H0 H1 H2 H3 H4 pidx2 c).arrAt_in 2 rfl _).trans (H2.hA _ c 2)
  | ⟨3, _⟩ =>
    show _ = Function.update (Vin2 m (outs m H0 H1 H2 H3 H4) c) (Proc.devRef .tc outRef2) _ (Proc.devRef .tc outRef2)
    rw [Function.update_self]
    exact (Pipeline.withArrays_arr spec2 launch2.win.arr_inj c (Uin2 m H0 H1 H2 H3 H4 c)
      (fun w => (H2.dat (fun c b => Uin2 m H0 H1 H2 H3 H4 c b) c).arrAt w cfg2.N) 3).symm

/-- Off its arrays the call leaves every unscoped buffer as it found it. -/
theorem hrest2 (c : Dev nD) (b : Ref sig .tc) (hb : b ∉ Finset.univ.image (Pipeline.arrRef spec2)) :
    Vout2 m (outs m H0 H1 H2 H3 H4) c b = Vin2 m (outs m H0 H1 H2 H3 H4) c b :=
  Vout2_of m _ c b (fun h => hb (by
    rw [List.mem_singleton] at h; subst h
    exact Finset.mem_image.mpr ⟨3, Finset.mem_univ _, rfl⟩))

/-- The call as a segment: entered at the valuation before it, left at the one after it. -/
def reg2 : Pipeline.RegionSeg (pcfgs (F := F)) adm (pdats m H0 H1 H2 H3 H4) () defs₀ Variants.none Lv0 lv0 pidx2 :=
  regionSeg pidx2 launch2 (pdats m H0 H1 H2 H3 H4) (fun c => Vin2 m (outs m H0 H1 H2 H3 H4) c) (fun c => Vout2 m (outs m H0 H1 H2 H3 H4) c)
    (fun c w => H2.hA _ c w) (fun c w => H2.hq _ c w) (fun c t => H2.howed _ c t) (fun c t => H2.hrec _ c t)
    (fun c => H2.hbody _ c) (fun c => H2.hin _ c) (fun c => H2.hout _ c)
    (hF2 m H0 H1 H2 H3 H4) (hrest2 m H0 H1 H2 H3 H4)

end Cert.KernelIdeal.Hand

end
-- ==== Proof.KI.Reg3.lean ====
/-
  Pallas_call 3 of the kernel's program as a segment of the run.

  At the call's exit each of its four arrays holds what its pipeline leaves: the three input arrays what they held
  at entry (an input window is never written back), the output array what the write-backs leave, which is how the
  staged valuation after the call was defined; every buffer that is none of the four is as at entry.
-/
import proofs.«430285_j43310450213294_2_alg».proof.Proof.KI.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

variable (m : (ℓ : Loc nD τ sig) → Buf (Elt F) ℓ)
variable (H0 : Half F cfg0) (H1 : Half F cfg1) (H2 : Half F cfg2) (H3 : Half F cfg3) (H4 : Half F cfg4)

/-- At the call's exit each of its arrays holds what the pipeline leaves. -/
theorem hF3 (c : Dev nD) (w : Fin cfg3.W) :
    (pdats m H0 H1 H2 H3 H4 pidx3 c).arrAt w cfg3.N = Vout3 m (outs m H0 H1 H2 H3 H4) c (Pipeline.arrRef spec3 w) := by
  match w with
  | ⟨0, _⟩ =>
    rw [Vout3_of m _ c (Pipeline.arrRef spec3 0) (by decide)]
    exact ((pdats m H0 H1 H2 H3 H4 pidx3 c).arrAt_in 0 rfl _).trans (H3.hA _ c 0)
  | ⟨1, _⟩ =>
    rw [Vout3_of m _ c (Pipeline.arrRef spec3 1) (by decide)]
    exact ((pdats m H0 H1 H2 H3 H4 pidx3 c).arrAt_in 1 rfl _).trans (H3.hA _ c 1)
  | ⟨2, _⟩ =>
    rw [Vout3_of m _ c (Pipeline.arrRef spec3 2) (by decide)]
    exact ((pdats m H0 H1 H2 H3 H4 pidx3 c).arrAt_in 2 rfl _).trans (H3.hA _ c 2)
  | ⟨3, _⟩ =>
    show _ = Function.update (Vin3 m (outs m H0 H1 H2 H3 H4) c) (Proc.devRef .tc outRef3) _ (Proc.devRef .tc outRef3)
    rw [Function.update_self]
    exact (Pipeline.withArrays_arr spec3 launch3.win.arr_inj c (Uin3 m H0 H1 H2 H3 H4 c)
      (fun w => (H3.dat (fun c b => Uin3 m H0 H1 H2 H3 H4 c b) c).arrAt w cfg3.N) 3).symm

/-- Off its arrays the call leaves every unscoped buffer as it found it. -/
theorem hrest3 (c : Dev nD) (b : Ref sig .tc) (hb : b ∉ Finset.univ.image (Pipeline.arrRef spec3)) :
    Vout3 m (outs m H0 H1 H2 H3 H4) c b = Vin3 m (outs m H0 H1 H2 H3 H4) c b :=
  Vout3_of m _ c b (fun h => hb (by
    rw [List.mem_singleton] at h; subst h
    exact Finset.mem_image.mpr ⟨3, Finset.mem_univ _, rfl⟩))

/-- The call as a segment: entered at the valuation before it, left at the one after it. -/
def reg3 : Pipeline.RegionSeg (pcfgs (F := F)) adm (pdats m H0 H1 H2 H3 H4) () defs₀ Variants.none Lv0 lv0 pidx3 :=
  regionSeg pidx3 launch3 (pdats m H0 H1 H2 H3 H4) (fun c => Vin3 m (outs m H0 H1 H2 H3 H4) c) (fun c => Vout3 m (outs m H0 H1 H2 H3 H4) c)
    (fun c w => H3.hA _ c w) (fun c w => H3.hq _ c w) (fun c t => H3.howed _ c t) (fun c t => H3.hrec _ c t)
    (fun c => H3.hbody _ c) (fun c => H3.hin _ c) (fun c => H3.hout _ c)
    (hF3 m H0 H1 H2 H3 H4) (hrest3 m H0 H1 H2 H3 H4)

end Cert.KernelIdeal.Hand

end
-- ==== Proof.KI.Reg4.lean ====
/-
  Pallas_call 4 of the kernel's program as a segment of the run.

  At the call's exit each of its four arrays holds what its pipeline leaves: the three input arrays what they held
  at entry (an input window is never written back), the output array what the write-backs leave, which is how the
  staged valuation after the call was defined; every buffer that is none of the four is as at entry.
-/
import proofs.«430285_j43310450213294_2_alg».proof.Proof.KI.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

variable (m : (ℓ : Loc nD τ sig) → Buf (Elt F) ℓ)
variable (H0 : Half F cfg0) (H1 : Half F cfg1) (H2 : Half F cfg2) (H3 : Half F cfg3) (H4 : Half F cfg4)

/-- At the call's exit each of its arrays holds what the pipeline leaves. -/
theorem hF4 (c : Dev nD) (w : Fin cfg4.W) :
    (pdats m H0 H1 H2 H3 H4 pidx4 c).arrAt w cfg4.N = Vout4 m (outs m H0 H1 H2 H3 H4) c (Pipeline.arrRef spec4 w) := by
  match w with
  | ⟨0, _⟩ =>
    rw [Vout4_of m _ c (Pipeline.arrRef spec4 0) (by decide)]
    exact ((pdats m H0 H1 H2 H3 H4 pidx4 c).arrAt_in 0 rfl _).trans (H4.hA _ c 0)
  | ⟨1, _⟩ =>
    rw [Vout4_of m _ c (Pipeline.arrRef spec4 1) (by decide)]
    exact ((pdats m H0 H1 H2 H3 H4 pidx4 c).arrAt_in 1 rfl _).trans (H4.hA _ c 1)
  | ⟨2, _⟩ =>
    rw [Vout4_of m _ c (Pipeline.arrRef spec4 2) (by decide)]
    exact ((pdats m H0 H1 H2 H3 H4 pidx4 c).arrAt_in 2 rfl _).trans (H4.hA _ c 2)
  | ⟨3, _⟩ =>
    show _ = Function.update (Vin4 m (outs m H0 H1 H2 H3 H4) c) (Proc.devRef .tc outRef4) _ (Proc.devRef .tc outRef4)
    rw [Function.update_self]
    exact (Pipeline.withArrays_arr spec4 launch4.win.arr_inj c (Uin4 m H0 H1 H2 H3 H4 c)
      (fun w => (H4.dat (fun c b => Uin4 m H0 H1 H2 H3 H4 c b) c).arrAt w cfg4.N) 3).symm

/-- Off its arrays the call leaves every unscoped buffer as it found it. -/
theorem hrest4 (c : Dev nD) (b : Ref sig .tc) (hb : b ∉ Finset.univ.image (Pipeline.arrRef spec4)) :
    Vout4 m (outs m H0 H1 H2 H3 H4) c b = Vin4 m (outs m H0 H1 H2 H3 H4) c b :=
  Vout4_of m _ c b (fun h => hb (by
    rw [List.mem_singleton] at h; subst h
    exact Finset.mem_image.mpr ⟨3, Finset.mem_univ _, rfl⟩))

/-- The call as a segment: entered at the valuation before it, left at the one after it. -/
def reg4 : Pipeline.RegionSeg (pcfgs (F := F)) adm (pdats m H0 H1 H2 H3 H4) () defs₀ Variants.none Lv0 lv0 pidx4 :=
  regionSeg pidx4 launch4 (pdats m H0 H1 H2 H3 H4) (fun c => Vin4 m (outs m H0 H1 H2 H3 H4) c) (fun c => Vout4 m (outs m H0 H1 H2 H3 H4) c)
    (fun c w => H4.hA _ c w) (fun c w => H4.hq _ c w) (fun c t => H4.howed _ c t) (fun c t => H4.hrec _ c t)
    (fun c => H4.hbody _ c) (fun c => H4.hin _ c) (fun c => H4.hout _ c)
    (hF4 m H0 H1 H2 H3 H4) (hrest4 m H0 H1 H2 H3 H4)

end Cert.KernelIdeal.Hand

end
-- ==== Proof.KI.Whole.lean ====
/-
  The kernel's program run whole: every weakly fair execution of @main terminates, and the final memory holds
  the result buffer at the last valuation's contents and each argument as launched.

  @main is the list of its items — six stretches of host operations and the five pallas_calls between them —;
  the thread state between two items is every unscoped buffer held at that boundary's valuation, beside the
  generator register and the core owing nothing, so consecutive items chain by reflexivity. The launch hands each
  core its buffers at the launch memory; the last state is read against the final memory buffer by buffer.
-/
import proofs.«430285_j43310450213294_2_alg».proof.Proof.KI.Reg0
import proofs.«430285_j43310450213294_2_alg».proof.Proof.KI.Reg1
import proofs.«430285_j43310450213294_2_alg».proof.Proof.KI.Reg2
import proofs.«430285_j43310450213294_2_alg».proof.Proof.KI.Reg3
import proofs.«430285_j43310450213294_2_alg».proof.Proof.KI.Reg4

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (H0 : Half F cfg0) (H1 : Half F cfg1) (H2 : Half F cfg2) (H3 : Half F cfg3) (H4 : Half F cfg4)

/-- The rest that rides beside the buffers, the same at every boundary. -/
abbrev Rests : Fin 6 → Dev nD → sProp 𝕄 := fun _ c => Rest c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
set_option maxHeartbeats 1600000 in
/-- Every weakly fair execution of @main from memory `m` with zero counters terminates, and every unscoped buffer of
    every core ends at the last valuation's contents. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = V11 m (outs m H0 H1 H2 H3 H4) c b) := by
  refine Pipeline.θ_run_regions_kit_dev (pcfgs (F := F)) adm (pdats m H0 H1 H2 H3 H4) () cellOf_inj emb₁ defs₀ Variants.none Lv0 lv0 m ρ main
    (segs m (outs m H0 H1 H2 H3 H4) Variants.none Lv0 lv0 (Rests (F := F)) () (pdats m H0 H1 H2 H3 H4) (reg0 m H0 H1 H2 H3 H4) (reg1 m H0 H1 H2 H3 H4) (reg2 m H0 H1 H2 H3 H4) (reg3 m H0 H1 H2 H3 H4) (reg4 m H0 H1 H2 H3 H4))
    (fun c Q => by
      rewrite [main_chain c, Seg.run_eq_chain,
        show (segs m (outs m H0 H1 H2 H3 H4) Variants.none Lv0 lv0 (Rests (F := F)) () (pdats m H0 H1 H2 H3 H4) (reg0 m H0 H1 H2 H3 H4) (reg1 m H0 H1 H2 H3 H4) (reg2 m H0 H1 H2 H3 H4) (reg3 m H0 H1 H2 H3 H4) (reg4 m H0 H1 H2 H3 H4) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V11 m (outs m H0 H1 H2 H3 H4) c))
    (hch := fun c => ⟨.rfl, .rfl, .rfl, .rfl, .rfl, .rfl, .rfl, .rfl, .rfl, .rfl, .rfl,
      sep_mono .rfl (by iintro ⟨-, HO⟩; iexact HO)⟩)
    (hinit := by
      refine Pipeline.initEach Lv0 lv0 fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = V11 m (outs m H0 H1 H2 H3 H4) c b)
    (hfin := fun c s' => by
      iintro ⟨Hh, HSI⟩
      unfold StableHlo.held
      imodintro
      iapply (pointsTo_read_all (Pipeline.ucRefs τ sig) (fun b => (((c : Thread nD τ)).1, b)) (V11 m (outs m H0 H1 H2 H3 H4) c) s')
      isplitl [Hh] <;> iassumption)
    (hQ := fun _ h => h)

/-- The run with the result named: the result buffer ends at the last valuation's contents, every argument as
    launched. -/
theorem run_result : θ_run defs (onTc (τ := τ) (main (F := F))) ⟨m, fun _ => 0, ρ⟩ (fun r => ∀ c : Dev nD,
      r.2.mem ((c.tc : Thread nD τ).loc main_v35) = V11 m (outs m H0 H1 H2 H3 H4) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c (Proc.devRef .tc main_v35) (mem_uc main_v35 (by decide)),
      (h c (Proc.devRef .tc main_arg0) (mem_uc main_arg0 (by decide))).trans (V11_main_arg0 m _ c),
      (h c (Proc.devRef .tc main_arg1) (mem_uc main_arg1 (by decide))).trans (V11_main_arg1 m _ c),
      (h c (Proc.devRef .tc main_arg2) (mem_uc main_arg2 (by decide))).trans (V11_main_arg2 m _ c),
      (h c (Proc.devRef .tc main_arg3) (mem_uc main_arg3 (by decide))).trans (V11_main_arg3 m _ c),
      (h c (Proc.devRef .tc main_arg4) (mem_uc main_arg4 (by decide))).trans (V11_main_arg4 m _ c),
      (h c (Proc.devRef .tc main_arg5) (mem_uc main_arg5 (by decide))).trans (V11_main_arg5 m _ c),
      (h c (Proc.devRef .tc main_arg6) (mem_uc main_arg6 (by decide))).trans (V11_main_arg6 m _ c),
      (h c (Proc.devRef .tc main_arg7) (mem_uc main_arg7 (by decide))).trans (V11_main_arg7 m _ c),
      (h c (Proc.devRef .tc main_arg8) (mem_uc main_arg8 (by decide))).trans (V11_main_arg8 m _ c),
      (h c (Proc.devRef .tc main_arg9) (mem_uc main_arg9 (by decide))).trans (V11_main_arg9 m _ c),
      (h c (Proc.devRef .tc main_arg10) (mem_uc main_arg10 (by decide))).trans (V11_main_arg10 m _ c),
      (h c (Proc.devRef .tc main_arg11) (mem_uc main_arg11 (by decide))).trans (V11_main_arg11 m _ c),
      (h c (Proc.devRef .tc main_arg12) (mem_uc main_arg12 (by decide))).trans (V11_main_arg12 m _ c),
      (h c (Proc.devRef .tc main_arg13) (mem_uc main_arg13 (by decide))).trans (V11_main_arg13 m _ c),
      (h c (Proc.devRef .tc main_arg14) (mem_uc main_arg14 (by decide))).trans (V11_main_arg14 m _ c)⟩) (run_bufs m ρ H0 H1 H2 H3 H4)

include H0 H1 H2 H3 H4 in
/-- The frame: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => (h c).2) (run_result m ρ H0 H1 H2 H3 H4)

end Cert.KernelIdeal.Hand

end
-- ==== Proof.KI.Region0Runs.lean ====
/- Pallas call 0 of the program (the gather-and-loss kernel on the first feature layer: 4 batch entries
   times 16 spatial tiles), what its three control cases share: the windows' blocks read off the arrays as
   the region finds them, the input windows' staging contents at every point, the two branch conditions
   in closed form over the 64 grid points, where the output window is idle, and the region invariant with
   the two accumulators opened. -/
import proofs.«430285_j43310450213294_2_alg».proof.Proof.Gen.KernelIdeal.Launch
import proofs.«430285_j43310450213294_2_alg».proof.Proof.Gen.KernelIdeal.Skeleton
import proofs.«430285_j43310450213294_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

-- membership in a rectangle of the blocks' extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Region0
-- the core's buffer contents when the region is entered: the parameter this region's half is stated at
variable (V : (c : Dev nD) → (b : Ref sig .tc) → Buf (Elt F) ((c : Thread nD τ).loc b))

/-! ## The windows' blocks -/

/-- Window `w`'s block at point `t`, read off its array as the region finds it (`V`): for the two feature
    windows the tile `(b, ·, l)` of the batch entry `b = t / 16` and tile `l = t % 16`, for the index window
    the 64 gather positions, for the output window the row `b` of the loss array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched,
    the block index has not moved): the query tile, -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- the key tile, -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- and the gather positions, fetched once and the same block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's two branch conditions -/

/-- The condition under which the body resets both accumulators: the tile coordinate is 0 (the body's
    scalar chain on the coordinate, substituted). -/
abbrev cond0_0 (i : grid0.Coords) : Prop := (Scalar.cmpi .ne (Scalar.extui (Scalar.cmpi .eq (BitVec.ofNat 32 (i 1).val) 0#32)) 0#32) = 1#1
/-- It holds at the first tile of each batch entry — decided over the grid. -/
theorem hcond0_0 : ∀ t : Fin cfg0.N, cond0_0 (grid0.coords t) ↔ t.val % 16 = 0 :=
  (by decide +kernel : ∀ t : Fin grid0.N, cond0_0 (grid0.coords t) ↔ t.val % 16 = 0)

/-- The condition under which the body computes the loss and stores the output: the tile coordinate is 15. -/
abbrev cond0_1 (i : grid0.Coords) : Prop := k0_cond2 i = 1#1
/-- It holds at the last tile of each batch entry — decided over the grid. -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a batch entry's last tile the output window is idle (the body stores nothing into it) -/
theorem idleAt0_3 : ∀ t : Fin cfg0.N, ¬cond0_1 (grid0.coords t) → cfg0.idle 3 (grid0.coords t) = true := by decide +kernel
/-- and its block is not written back; -/
theorem noFlush0_3 : ∀ t : Fin cfg0.N, ¬cond0_1 (grid0.coords t) → (cfg0.win 3).flush t = false := by decide +kernel
/-- at the last tile it is live. -/
theorem liveAt0_3 : ∀ t : Fin cfg0.N, cond0_1 (grid0.coords t) → cfg0.idle 3 (grid0.coords t) = false := by decide +kernel

/-! ## The memrefs the body is called with -/

/-- One staging buffer of the output window, through which its contents are stated (which one does not matter: a
    covering list of pieces reads back the same over anything). -/
abbrev VO0_3 : View sig .tc .vmem S1x1x64 .f32 := (Memref.whole cc0_stg3_0 : Memref sig .tc .vmem S1x1x64 .f32).view
/-- Each window's current staging memref at point `t`, spelled as the pipeline passes it, and its wholeness. -/
abbrev ms0_0 (t : Fin cfg0.N) : Memref sig .tc .vmem S1x32x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x8192 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
/-- The two accumulators (gathered query columns, gathered key columns): whole scoped buffers of the kernel's
    own, passed beside the windows and carried from tile to tile. -/
abbrev scM0_0 : Memref sig .tc .vmem S32x64 .f32 := Memref.whole cc0_scratch0
abbrev scM0_1 : Memref sig .tc .vmem S32x64 .f32 := Memref.whole cc0_scratch1
/-- The accumulators as views: what they hold is stated through these. -/
abbrev VS0_0 : View sig .tc .vmem S32x64 .f32 := scM0_0.view
abbrev VS0_1 : View sig .tc .vmem S32x64 .f32 := scM0_1.view

/-- Every other scoped buffer of the core (the other calls' staging buffers and accumulators), unopened: the body
    neither reads nor writes them. -/
abbrev rest0 (c : Dev nD) : sProp 𝕄 :=
  Pipeline.scopedRestBut (Ix := Unit) (Name := ℕ) (U := UR sig nD τ) (Lvl := ℕ) (Val := Elt F) spec0 c [cc0_scratch0, cc0_scratch1]

/-- What the launch hands the region, with the two accumulators as memrefs owned at some contents: what the
    body obligation hands the run at a batch entry's first tile and what it may forget to afterwards. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ rest0 c) ∗ (∃ r, prngReg c r)) := by
  unfold Pipeline.ΦA; rw [scopedRest0_split]; simp only [scM0_0, scM0_1, owns_whole]; try rfl

end Cert.KernelIdeal.Hand

end
-- ==== Proof.KI.Region0RunA.lean ====
/- Pallas call 0, control case A: the first tile of a batch entry. Both accumulators are stored whole
   with zeros before anything reads them, then each is read back, added to this tile's gathered columns
   and stored whole again; the output window is not touched. -/
import proofs.«430285_j43310450213294_2_alg».proof.Proof.KI.Region0Runs

-- membership in a rectangle of the blocks' extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave in the two accumulators, as pieces (last first), at a point where the reset
    condition holds (`hc0`) and the loss condition does not (`hc1`), WITH the proof that on whole memrefs —
    the three inputs' at their blocks `x0 x1 x2`, the output's at contents `xi3` handed back untouched, the
    accumulators' at anything — the body runs to the continuation holding the inputs and the output as they
    were and each accumulator with its pieces written. The pieces are the witness the execution finds. -/
noncomputable def kernelRun0_A (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) :
    Σ' (L3 : List (View.Piece (Elt F) S1x1x64 .f32)) (LS0 : List (View.Piece (Elt F) S32x64 .f32)), { LS1 : List (View.Piece (Elt F) S32x64 .f32) //
      ∀ (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gather_loss_kernel i arg2 harg2 arg3 harg3 arg4 harg4 arg5 harg5 arg6 harg6 arg7 harg7) K } := by
  refine ⟨[], ?_, ?_, fun xi3 E K => ?run⟩
  case run =>
    simp only [cc0__gather_loss_kernel_eq_skeleton]; unfold cc0__gather_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.Region0RunB.lean ====
/- Pallas call 0, control case B: a middle tile of a batch entry. Each accumulator is read at what the
   tile before left, added to this tile's gathered columns and stored whole; the output window is not
   touched. -/
import proofs.«430285_j43310450213294_2_alg».proof.Proof.KI.Region0Runs

-- membership in a rectangle of the blocks' extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave in the two accumulators, as pieces, at a point where neither condition holds,
    WITH the proof that on whole memrefs — the three inputs' at their blocks `x0 x1 x2`, the output's at
    contents `xi3` handed back untouched, the accumulators' at what the point before left (`xs0 xs1`) — the
    body runs to the continuation holding the inputs and the output as they were and each accumulator with
    its pieces written. -/
noncomputable def kernelRun0_B (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) :
    Σ' (L3 : List (View.Piece (Elt F) S1x1x64 .f32)) (LS0 : List (View.Piece (Elt F) S32x64 .f32)), { LS1 : List (View.Piece (Elt F) S32x64 .f32) //
      ∀ (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gather_loss_kernel i arg2 harg2 arg3 harg3 arg4 harg4 arg5 harg5 arg6 harg6 arg7 harg7) K } := by
  refine ⟨[], ?_, ?_, fun xi3 E K => ?run⟩
  case run =>
    simp only [cc0__gather_loss_kernel_eq_skeleton]; unfold cc0__gather_loss_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.Region0RunC.lean ====
/- Pallas call 0, control case C: the last tile of a batch entry. Each accumulator is read at what the
   tile before left, added to this tile's gathered columns and stored whole; then the loss of the batch
   entry is computed from the two accumulators just stored and stored whole into the output window. -/
import proofs.«430285_j43310450213294_2_alg».proof.Proof.KI.Region0Runs

-- membership in a rectangle of the blocks' extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

-- (the run's proof term is large: the definition's epilogue walks it past the default budget)
set_option maxHeartbeats 1000000 in
/-- What the body's stores leave in the output's staging memref and in the two accumulators, as pieces, at a
    point where the reset condition fails and the loss condition holds, WITH the proof that on whole memrefs —
    the three inputs' at their blocks `x0 x1 x2`, the output's at anything, the accumulators' at what the point
    before left (`xs0 xs1`) — the body runs to the continuation holding the inputs as they were and the output
    and each accumulator with its pieces written. -/
noncomputable def kernelRun0_C (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) :
    Σ' (L3 : List (View.Piece (Elt F) S1x1x64 .f32)) (LS0 : List (View.Piece (Elt F) S32x64 .f32)), { LS1 : List (View.Piece (Elt F) S32x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__gather_loss_kernel i arg2 harg2 arg3 harg3 arg4 harg4 arg5 harg5 arg6 harg6 arg7 harg7) K } := by
  refine ⟨?_, ?_, ?_, fun E K => ?run⟩
  case run =>
    simp only [cc0__gather_loss_kernel_eq_skeleton]; unfold cc0__gather_loss_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KI.Region0.lean ====
/- Pallas call 0 of the program, the region's half of the certificate at the entry contents `V`: what each
   control case leaves in the output window and in the two accumulators; what they hold after every grid
   point (`outsAt0`: a batch entry's first tile starts the accumulators afresh, every later tile adds to what
   the tile before left, the last tile also stores the losses); the invariant that carries the accumulators
   from point to point; the proof data; and the body obligation at every point. -/
import proofs.«430285_j43310450213294_2_alg».proof.Proof.KI.Region0RunA
import proofs.«430285_j43310450213294_2_alg».proof.Proof.KI.Region0RunB
import proofs.«430285_j43310450213294_2_alg».proof.Proof.KI.Region0RunC

-- membership in a rectangle of the blocks' extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## What each case leaves in the output window and the accumulators -/

/-! ### Case A: the first tile of a batch entry -/

/-- Case A stores nothing into the output window (idle at its points and not written back there): no pieces — a
    placeholder nothing consults, since at these points the window is neither written back nor read at the
    next point. -/
def out0_A_3 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) : Vec F S1x1x64 .f32 :=
  VO0_3.read (Elt F) (VO0_3.writes (Elt F) VO0_3.junk (kernelRun0_A c i arg2 harg2 arg3 harg3 arg4 harg4 arg5 harg5 arg6 harg6 arg7 harg7 hc0 hc1 x0 x1 x2).1)

/-- Case A's pieces for the query accumulator contain a store of the whole buffer, so they cover it. -/
theorem scover0_A_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) (y : S32x64.Idx) :
    ∃ pc ∈ (kernelRun0_A c i arg2 harg2 arg3 harg3 arg4 harg4 arg5 harg5 arg6 harg6 arg7 harg7 hc0 hc1 x0 x1 x2).2.1, y ∈ pc.1.set :=
  View.cover_of_wholeMem (kernelRun0_A c i arg2 harg2 arg3 harg3 arg4 harg4 arg5 harg5 arg6 harg6 arg7 harg7 hc0 hc1 x0 x1 x2).2.1 (by sl_whole_mem) y

/-- What case A leaves in the query accumulator: its pieces read back over anything. -/
def sout0_A_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) : Vec F S32x64 .f32 :=
  VS0_0.read (Elt F) (VS0_0.writes (Elt F) VS0_0.junk (kernelRun0_A c i arg2 harg2 arg3 harg3 arg4 harg4 arg5 harg5 arg6 harg6 arg7 harg7 hc0 hc1 x0 x1 x2).2.1)

/-- Case A's pieces for the key accumulator contain a store of the whole buffer, so they cover it. -/
theorem scover0_A_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) (y : S32x64.Idx) :
    ∃ pc ∈ (kernelRun0_A c i arg2 harg2 arg3 harg3 arg4 harg4 arg5 harg5 arg6 harg6 arg7 harg7 hc0 hc1 x0 x1 x2).2.2.1, y ∈ pc.1.set :=
  View.cover_of_wholeMem (kernelRun0_A c i arg2 harg2 arg3 harg3 arg4 harg4 arg5 harg5 arg6 harg6 arg7 harg7 hc0 hc1 x0 x1 x2).2.2.1 (by sl_whole_mem) y

/-- What case A leaves in the key accumulator: its pieces read back over anything. -/
def sout0_A_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) : Vec F S32x64 .f32 :=
  VS0_1.read (Elt F) (VS0_1.writes (Elt F) VS0_1.junk (kernelRun0_A c i arg2 harg2 arg3 harg3 arg4 harg4 arg5 harg5 arg6 harg6 arg7 harg7 hc0 hc1 x0 x1 x2).2.2.1)

/-! ### Case B: a middle tile -/

/-- Case B stores nothing into the output window (idle at its points and not written back there): no pieces — a
    placeholder nothing consults, since at these points the window is neither written back nor read at the
    next point. -/
def out0_B_3 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) : Vec F S1x1x64 .f32 :=
  VO0_3.read (Elt F) (VO0_3.writes (Elt F) VO0_3.junk (kernelRun0_B c i arg2 harg2 arg3 harg3 arg4 harg4 arg5 harg5 arg6 harg6 arg7 harg7 hc0 hc1 x0 x1 x2 xs0 xs1).1)

/-- Case B's pieces for the query accumulator contain a store of the whole buffer, so they cover it. -/
theorem scover0_B_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) (y : S32x64.Idx) :
    ∃ pc ∈ (kernelRun0_B c i arg2 harg2 arg3 harg3 arg4 harg4 arg5 harg5 arg6 harg6 arg7 harg7 hc0 hc1 x0 x1 x2 xs0 xs1).2.1, y ∈ pc.1.set :=
  View.cover_of_wholeMem (kernelRun0_B c i arg2 harg2 arg3 harg3 arg4 harg4 arg5 harg5 arg6 harg6 arg7 harg7 hc0 hc1 x0 x1 x2 xs0 xs1).2.1 (by sl_whole_mem) y

/-- What case B leaves in the query accumulator: its pieces read back over anything. -/
def sout0_B_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) : Vec F S32x64 .f32 :=
  VS0_0.read (Elt F) (VS0_0.writes (Elt F) VS0_0.junk (kernelRun0_B c i arg2 harg2 arg3 harg3 arg4 harg4 arg5 harg5 arg6 harg6 arg7 harg7 hc0 hc1 x0 x1 x2 xs0 xs1).2.1)

/-- Case B's pieces for the key accumulator contain a store of the whole buffer, so they cover it. -/
theorem scover0_B_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) (y : S32x64.Idx) :
    ∃ pc ∈ (kernelRun0_B c i arg2 harg2 arg3 harg3 arg4 harg4 arg5 harg5 arg6 harg6 arg7 harg7 hc0 hc1 x0 x1 x2 xs0 xs1).2.2.1, y ∈ pc.1.set :=
  View.cover_of_wholeMem (kernelRun0_B c i arg2 harg2 arg3 harg3 arg4 harg4 arg5 harg5 arg6 harg6 arg7 harg7 hc0 hc1 x0 x1 x2 xs0 xs1).2.2.1 (by sl_whole_mem) y

/-- What case B leaves in the key accumulator: its pieces read back over anything. -/
def sout0_B_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) : Vec F S32x64 .f32 :=
  VS0_1.read (Elt F) (VS0_1.writes (Elt F) VS0_1.junk (kernelRun0_B c i arg2 harg2 arg3 harg3 arg4 harg4 arg5 harg5 arg6 harg6 arg7 harg7 hc0 hc1 x0 x1 x2 xs0 xs1).2.2.1)

/-! ### Case C: the last tile of a batch entry -/

/-- Case C's one piece for the output window is a store of the whole block, so its pieces cover it. -/
theorem cover0_C_3 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) (y : S1x1x64.Idx) :
    ∃ pc ∈ (kernelRun0_C c i arg2 harg2 arg3 harg3 arg4 harg4 arg5 harg5 arg6 harg6 arg7 harg7 hc0 hc1 x0 x1 x2 xs0 xs1).1, y ∈ pc.1.set :=
  View.cover_of_wholeMem (kernelRun0_C c i arg2 harg2 arg3 harg3 arg4 harg4 arg5 harg5 arg6 harg6 arg7 harg7 hc0 hc1 x0 x1 x2 xs0 xs1).1 (by sl_whole_mem) y

/-- What case C leaves in the output window's staging buffer (the 64 losses of the batch entry): its pieces read
    back over anything. -/
def out0_C_3 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) : Vec F S1x1x64 .f32 :=
  VO0_3.read (Elt F) (VO0_3.writes (Elt F) VO0_3.junk (kernelRun0_C c i arg2 harg2 arg3 harg3 arg4 harg4 arg5 harg5 arg6 harg6 arg7 harg7 hc0 hc1 x0 x1 x2 xs0 xs1).1)

/-- Case C's pieces for the query accumulator contain a store of the whole buffer, so they cover it. -/
theorem scover0_C_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) (y : S32x64.Idx) :
    ∃ pc ∈ (kernelRun0_C c i arg2 harg2 arg3 harg3 arg4 harg4 arg5 harg5 arg6 harg6 arg7 harg7 hc0 hc1 x0 x1 x2 xs0 xs1).2.1, y ∈ pc.1.set :=
  View.cover_of_wholeMem (kernelRun0_C c i arg2 harg2 arg3 harg3 arg4 harg4 arg5 harg5 arg6 harg6 arg7 harg7 hc0 hc1 x0 x1 x2 xs0 xs1).2.1 (by sl_whole_mem) y

/-- What case C leaves in the query accumulator: its pieces read back over anything. -/
def sout0_C_0 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) : Vec F S32x64 .f32 :=
  VS0_0.read (Elt F) (VS0_0.writes (Elt F) VS0_0.junk (kernelRun0_C c i arg2 harg2 arg3 harg3 arg4 harg4 arg5 harg5 arg6 harg6 arg7 harg7 hc0 hc1 x0 x1 x2 xs0 xs1).2.1)

/-- Case C's pieces for the key accumulator contain a store of the whole buffer, so they cover it. -/
theorem scover0_C_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) (y : S32x64.Idx) :
    ∃ pc ∈ (kernelRun0_C c i arg2 harg2 arg3 harg3 arg4 harg4 arg5 harg5 arg6 harg6 arg7 harg7 hc0 hc1 x0 x1 x2 xs0 xs1).2.2.1, y ∈ pc.1.set :=
  View.cover_of_wholeMem (kernelRun0_C c i arg2 harg2 arg3 harg3 arg4 harg4 arg5 harg5 arg6 harg6 arg7 harg7 hc0 hc1 x0 x1 x2 xs0 xs1).2.2.1 (by sl_whole_mem) y

/-- What case C leaves in the key accumulator: its pieces read back over anything. -/
def sout0_C_1 (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) : Vec F S32x64 .f32 :=
  VS0_1.read (Elt F) (VS0_1.writes (Elt F) VS0_1.junk (kernelRun0_C c i arg2 harg2 arg3 harg3 arg4 harg4 arg5 harg5 arg6 harg6 arg7 harg7 hc0 hc1 x0 x1 x2 xs0 xs1).2.2.1)

/-! ## The conditions at a point, from its position in its batch entry -/

theorem hc0_A (t : Fin cfg0.N) (h0 : t.val % 16 = 0) : cond0_0 (grid0.coords t) := (hcond0_0 t).mpr h0
theorem hc1_A (t : Fin cfg0.N) (h0 : t.val % 16 = 0) : ¬cond0_1 (grid0.coords t) := fun h => by
  have h15 := (hcond0_1 t).mp h; omega
theorem hc0_n (t : Fin cfg0.N) (h0 : ¬t.val % 16 = 0) : ¬cond0_0 (grid0.coords t) := fun h => h0 ((hcond0_0 t).mp h)
theorem hc1_n (t : Fin cfg0.N) (h1 : ¬t.val % 16 = 15) : ¬cond0_1 (grid0.coords t) := fun h => h1 ((hcond0_1 t).mp h)
theorem hc1_C (t : Fin cfg0.N) (h1 : t.val % 16 = 15) : cond0_1 (grid0.coords t) := (hcond0_1 t).mpr h1

section Region0
-- the core's buffer contents when the region is entered: the parameter this region's half is stated at
variable (V : (c : Dev nD) → (b : Ref sig .tc) → Buf (Elt F) ((c : Thread nD τ).loc b))

/-! ## What the output window and the accumulators hold after each point -/

/-- THE ACCUMULATION. After the body at position `n`: (the output window's staging buffer, the query accumulator,
    the key accumulator). The case is read off `n % 16`: at 0 the accumulators are reset and then hold this tile's
    gathered columns alone (nothing of the point before is read); otherwise they are what the point before left
    plus this tile's gathered columns; at 15 the output holds the batch entry's losses. -/
def outsAt0 (c : Dev nD) : (n : ℕ) → n < cfg0.N → Vec F S1x1x64 .f32 × Vec F S32x64 .f32 × Vec F S32x64 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hc0_A ⟨0, hn⟩ (Nat.zero_mod _)) (hc1_A ⟨0, hn⟩ (Nat.zero_mod _)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hc0_A ⟨0, hn⟩ (Nat.zero_mod _)) (hc1_A ⟨0, hn⟩ (Nat.zero_mod _)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) (hc0_A ⟨0, hn⟩ (Nat.zero_mod _)) (hc1_A ⟨0, hn⟩ (Nat.zero_mod _)) (iblk0 V c 0 ⟨0, hn⟩) (iblk0 V c 1 ⟨0, hn⟩) (iblk0 V c 2 ⟨0, hn⟩))
  | n + 1, hn =>
    if h0 : (n + 1) % 16 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_A ⟨n + 1, hn⟩ h0) (hc1_A ⟨n + 1, hn⟩ h0) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_A ⟨n + 1, hn⟩ h0) (hc1_A ⟨n + 1, hn⟩ h0) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_A ⟨n + 1, hn⟩ h0) (hc1_A ⟨n + 1, hn⟩ h0) (iblk0 V c 0 ⟨n + 1, hn⟩) (iblk0 V c 1 ⟨n + 1, hn⟩) (iblk0 V c 2 ⟨n + 1, hn⟩))
    else
      if h1 : (n + 1) % 16 = 15 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_C ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_C ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_C ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_n ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_n ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (hc0_n ⟨n + 1, hn⟩ h0) (hc1_n ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- `outsAt0` at a batch entry's first tile: case A's contents, of this point's blocks alone. -/
theorem outsAt0_A (c : Dev nD) (t : Fin cfg0.N) (h0 : t.val % 16 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_A t h0) (hc1_A t h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_A t h0) (hc1_A t h0) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_A t h0) (hc1_A t h0) (iblk0 V c 0 t) (iblk0 V c 1 t) (iblk0 V c 2 t)) := by
  obtain ⟨n, hn⟩ := t
  cases n with
  | zero => exact rfl
  | succ n => exact (dif_pos h0).trans rfl

/-- `outsAt0` at a middle tile: case B's contents, over what the point before left in the accumulators. -/
theorem outsAt0_B (c : Dev nD) (t : Fin cfg0.N) (h0 : ¬t.val % 16 = 0) (h1 : ¬t.val % 16 = 15) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_n t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_n t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_n t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a batch entry's last tile: case C's contents, over what the point before left in the accumulators. -/
theorem outsAt0_C (c : Dev nD) (t : Fin cfg0.N) (h0 : ¬t.val % 16 = 0) (h1 : t.val % 16 = 15) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_C t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_C t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (hc0_n t h0) (hc1_C t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the accumulators -/

/-- The region invariant before position `n`: before the first point what the launch hands the region (both
    accumulators at anything); afterwards both accumulators at what the point before left in them, every other scoped
    buffer unopened, and the generator register at some state. -/
def PhiS (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(iprop(owns (c : Thread nD τ) scM0_0 fullShare ((outsAt0 V c n hn).2.1) ∗ owns (c : Thread nD τ) scM0_1 fullShare ((outsAt0 V c n hn).2.2)) ∗ rest0 c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(iprop(owns (c : Thread nD τ) scM0_0 fullShare ((outsAt0 V c (n - 1) (by omega)).2.1) ∗ owns (c : Thread nD τ) scM0_1 fullShare ((outsAt0 V c (n - 1) (by omega)).2.2)) ∗ rest0 c) ∗ (∃ r, prngReg c r)) := by
  cases n with
  | zero => exact absurd rfl hz
  | succ n => rfl

/-! ## The pipeline's proof data -/

/-- The proof data of pipeline 0 on core `c`: the arrays as the region finds them (`V`); after the body at point
    `t` each input's buffer at its block and the output's at `outsAt0`'s first component; the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

/-- The proof data's arrays are the region-entry contents (the definition projected, never unfolding `V`). -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the library's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the point's position in its batch entry says which
    case it is in, and that case's run applies: the invariant hands the body the accumulators at what the point
    before left (at anything at the very first point; at a later first tile the named contents are forgotten, the
    case resetting both), every other scoped buffer and the generator register pass through, and the invariant
    takes the accumulators back at this point's contents; where the output is idle its buffer is handed back as
    found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
            unfold Dat.leavesExact; rw [liveAt0_0 t], after0_0,
          show (dat0 V c).leavesExact 1 t = owns (c : Thread nD τ) (ms0_1 t) fullShare ((dat0 V c).after 1 t) from by
            unfold Dat.leavesExact; rw [liveAt0_1 t], after0_1,
          show (dat0 V c).leavesExact 2 t = owns (c : Thread nD τ) (ms0_2 t) fullShare ((dat0 V c).after 2 t) from by
            unfold Dat.leavesExact; rw [liveAt0_2 t], after0_2]
  by_cases h0 : t.val % 16 = 0
  · rw [Dat.leavesExact_idle (dat0 V c) 3 t (idleAt0_3 t (hc1_A t h0)) (noFlush0_3 t (hc1_A t h0))]
    rw [outsAt0_A V c t h0]
    unfold sout0_A_0 sout0_A_1; (try dsimp only)
    by_cases hz : t.val = 0
    · rw [PhiS_castSucc V c t, PhiS_zero V c _ _ hz, PhiA0_eq]
      iintro ⟨⟨⟨⟨HS0, HS1⟩, Hr⟩, Hg⟩, Ho, ⟨%d0, H0⟩, ⟨%d1, H1⟩, ⟨%d2, H2⟩, ⟨%d3, H3⟩⟩
      iapply ((kernelRun0_A c (grid0.coords t) _ _ _ _ _ _ _ _ _ _ _ _ (hc0_A t h0) (hc1_A t h0) (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun0_A c (grid0.coords t) _ _ _ _ _ _ _ _ _ _ _ _ (hc0_A t h0) (hc1_A t h0) (iblk0 V c 0 t) (iblk0 V c 1 t) (iblk0 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat0 V c).leavesExact 3 t = owns (c : Thread nD τ) (ms0_3 t) fullShare ((dat0 V c).after 3 t) from by
        unfold Dat.leavesExact; rw [liveAt0_3 t (hc1_C t h1)], after0_3]
      rw [outsAt0_C V c t h0 h1]
      unfold out0_C_3 sout0_C_0 sout0_C_1; (try dsimp only)
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun0_C c (grid0.coords t) _ _ _ _ _ _ _ _ _ _ _ _ (hc0_n t h0) (hc1_C t h1) (iblk0 V c 0 t) (iblk0 V c 1 t) (iblk0 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            unfold owns; iexists _; isplitr
            swap; · iexact HS1
            ipureintro; exact View.read_writes_of_cover _ _ _ _ _ (scover0_C_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _)
    · rw [Dat.leavesExact_idle (dat0 V c) 3 t (idleAt0_3 t (hc1_n t h1)) (noFlush0_3 t (hc1_n t h1))]
      rw [outsAt0_B V c t h0 h1]
      unfold sout0_B_0 sout0_B_1; (try dsimp only)
      rw [PhiS_castSucc V c t, PhiS_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun0_B c (grid0.coords t) _ _ _ _ _ _ _ _ _ _ _ _ (hc0_n t h0) (hc1_n t h1) (iblk0 V c 0 t) (iblk0 V c 1 t) (iblk0 V c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            unfold owns; iexists _; isplitr
            swap; · iexact HS1
            ipureintro; exact View.read_writes_of_cover _ _ _ _ _ (scover0_B_1 c _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives back what the launch handed over: the accumulators' named contents are
    forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Region0

end Cert.KernelIdeal.Hand

end
-- ==== Proof.KI.Region1Runs.lean ====
/- Layer 1 (64 channels, 16384 locations in two tiles of 8192) of the patch-gather loss: what the two
   control cases of its grid body share. The grid is 4 batch entries by 2 tiles, point t = (t / 2, t % 2).
   At tile 0 the body zeroes both gathered-feature accumulators before adding the tile's one-hot gather;
   at tile 1 it adds the second tile's gather and then turns the two accumulators into the 64 per-patch
   losses, the only point of a batch entry at which the output block is stored and written back. -/
import proofs.«430285_j43310450213294_2_alg».proof.Proof.Gen.KernelIdeal.Launch
import proofs.«430285_j43310450213294_2_alg».proof.Proof.Gen.KernelIdeal.Skeleton
import proofs.«430285_j43310450213294_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Blocks
-- the buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The q block: the current staging buffer of window 0 holds it at every point, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The k block, likewise (window 1). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The patch ids (window 2): fetched at the first point only, its block index never moves, so the buffer holds the
    same block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two conditions, decided over the grid -/

/-- "This is the batch entry's first tile": the body then zeroes both accumulators. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- "This is the batch entry's last tile": the body then computes and stores the losses. -/
abbrev cond1_1 (i : grid1.Coords) : Prop := k1_cond2 i = 1#1
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the output window is idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- At a first tile nothing is stored into the output block and it is not written back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
/-- At a last tile the output block is stored. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1x1x64 .f32 := (Memref.whole cc1_stg3_0 : Memref sig .tc .vmem S1x1x64 .f32).view
abbrev ms1_0 (t : Fin cfg1.N) : Memref sig .tc .vmem S1x64x8192 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x8192 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x64 .f32 := win1_3.stage (cfg1.slots t 3)
abbrev hs1_3 (t : Fin cfg1.N) : (ms1_3 t).IsWhole := hstage1_3 ((cfg1.slots t 3).cast nbuf1_3)
/-- The two accumulators (gathered q features, gathered k features): whole buffers of the kernel's own. -/
abbrev scM1_0 : Memref sig .tc .vmem S64x64 .f32 := Memref.whole cc1_scratch0
abbrev scM1_1 : Memref sig .tc .vmem S64x64 .f32 := Memref.whole cc1_scratch1
abbrev VS1_0 : View sig .tc .vmem S64x64 .f32 := scM1_0.view
abbrev VS1_1 : View sig .tc .vmem S64x64 .f32 := scM1_1.view

/-- Every scoped buffer that is neither a staging buffer of this call nor one of its two accumulators. -/
abbrev rest1 (c : Dev nD) : sProp 𝕄 :=
  Pipeline.scopedRestBut (Ix := Unit) (Name := ℕ) (U := UR sig nD τ) (Lvl := ℕ) (Val := Elt F) spec1 c [cc1_scratch0, cc1_scratch1]

/-- The region's resting invariant with the two accumulators taken out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)) ∗ rest1 (F := F) c) ∗ (∃ r, prngReg c r)) := by
  unfold Pipeline.ΦA; rw [scopedRest1_split]; simp only [scM1_0, scM1_1, owns_whole]; try rfl

end Cert.KernelIdeal.Hand

end
-- ==== Proof.KI.Region1RunA.lean ====
/- The body's run at a batch entry's FIRST tile: both accumulators are zeroed and then receive the tile's
   one-hot gather of the q block and of the k block; the output block is not touched. -/
import proofs.«430285_j43310450213294_2_alg».proof.Proof.KI.Region1Runs

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large)
set_option maxHeartbeats 1000000 in
/-- What the body's stores leave in the output block and in the two accumulators, as pieces (last first), at a first
    tile (the reset taken, the loss not computed), with the proof that on whole memrefs — the three inputs at their
    blocks `x0 x1 x2`, the output block at contents `xi3` handed back untouched, the accumulators at anything — the
    body runs to a continuation that gets the inputs and the output block back as they were and each accumulator with
    its pieces written. The pieces are found by running the body's skeleton. -/
noncomputable def kernelRun1_A (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) :
    Σ' (L3 : List (View.Piece (Elt F) S1x1x64 .f32)) (LS0 : List (View.Piece (Elt F) S64x64 .f32)), { LS1 : List (View.Piece (Elt F) S64x64 .f32) //
      ∀ (xi3 : Vec F S1x1x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__gather_loss_kernel i arg2 harg2 arg3 harg3 arg4 harg4 arg5 harg5 arg6 harg6 arg7 harg7) K } := by
  refine ⟨[], ?_, ?_, fun xi3 E K => ?run⟩
  case run =>
    simp only [cc1__gather_loss_kernel_eq_skeleton]; unfold cc1__gather_loss_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.Region1RunC.lean ====
/- The body's run at a batch entry's LAST tile: the accumulators, carried from the first tile, receive the
   second tile's gather; both are then read back, each column normalised, and the 64 per-patch losses (log of the
   softmax denominator minus the positive logit's margin) stored into the output block. -/
import proofs.«430285_j43310450213294_2_alg».proof.Proof.KI.Region1RunA

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- (the run's proof term is large)
set_option maxHeartbeats 1000000 in
/-- What the body's stores leave in the output block and in the two accumulators, as pieces (last first), at a last
    tile (no reset, the loss computed), with the proof that on whole memrefs — the three inputs at their blocks
    `x0 x1 x2`, the output block at anything, the accumulators at what the tile before left in them (`xs0 xs1`) — the
    body runs to a continuation that gets the inputs back as they were and the output block and each accumulator with
    its pieces written. The pieces are found by running the body's skeleton. -/
noncomputable def kernelRun1_C (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) :
    Σ' (L3 : List (View.Piece (Elt F) S1x1x64 .f32)) (LS0 : List (View.Piece (Elt F) S64x64 .f32)), { LS1 : List (View.Piece (Elt F) S64x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__gather_loss_kernel i arg2 harg2 arg3 harg3 arg4 harg4 arg5 harg5 arg6 harg6 arg7 harg7) K } := by
  refine ⟨?_, ?_, ?_, fun E K => ?run⟩
  case run =>
    simp only [cc1__gather_loss_kernel_eq_skeleton]; unfold cc1__gather_loss_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KI.Region1.lean ====
/- Layer 1 of the patch-gather loss as one grid region, at any buffer contents `V` on entry: what each point of
   the grid leaves in the output block and in the two accumulators (`outsAt1`, by recursion on the point: a first
   tile starts the accumulators afresh, a last tile continues from what the first left), the region's proof data
   and invariant (the accumulators carried at those contents between the two tiles of a batch entry), and the proof
   that the body, run at any point from that invariant, re-establishes it. -/
import proofs.«430285_j43310450213294_2_alg».proof.Proof.KI.Region1RunC

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves, as the pieces its run found read back -/

/-- A first tile stores nothing into the output block: a placeholder nothing consults (the window is idle there and
    not written back). -/
def out1_A_3 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) : Vec F S1x1x64 .f32 :=
  VO1_3.read (Elt F) (VO1_3.writes (Elt F) VO1_3.junk (kernelRun1_A c i arg2 harg2 arg3 harg3 arg4 harg4 arg5 harg5 arg6 harg6 arg7 harg7 hc0 hc1 x0 x1 x2).1)

/-- A first tile's pieces for the q accumulator cover it. -/
theorem scover1_A_0 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) (y : S64x64.Idx) :
    ∃ pc ∈ (kernelRun1_A c i arg2 harg2 arg3 harg3 arg4 harg4 arg5 harg5 arg6 harg6 arg7 harg7 hc0 hc1 x0 x1 x2).2.1, y ∈ pc.1.set :=
  View.cover_of_tiledL (kernelRun1_A c i arg2 harg2 arg3 harg3 arg4 harg4 arg5 harg5 arg6 harg6 arg7 harg7 hc0 hc1 x0 x1 x2).2.1 S64x64.size (by sl_kernel_rfl) y

/-- What a first tile leaves in the q accumulator. -/
def sout1_A_0 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) : Vec F S64x64 .f32 :=
  VS1_0.read (Elt F) (VS1_0.writes (Elt F) VS1_0.junk (kernelRun1_A c i arg2 harg2 arg3 harg3 arg4 harg4 arg5 harg5 arg6 harg6 arg7 harg7 hc0 hc1 x0 x1 x2).2.1)

/-- A first tile's pieces for the k accumulator cover it. -/
theorem scover1_A_1 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) (y : S64x64.Idx) :
    ∃ pc ∈ (kernelRun1_A c i arg2 harg2 arg3 harg3 arg4 harg4 arg5 harg5 arg6 harg6 arg7 harg7 hc0 hc1 x0 x1 x2).2.2.1, y ∈ pc.1.set :=
  View.cover_of_tiledL (kernelRun1_A c i arg2 harg2 arg3 harg3 arg4 harg4 arg5 harg5 arg6 harg6 arg7 harg7 hc0 hc1 x0 x1 x2).2.2.1 S64x64.size (by sl_kernel_rfl) y

/-- What a first tile leaves in the k accumulator. -/
def sout1_A_1 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) : Vec F S64x64 .f32 :=
  VS1_1.read (Elt F) (VS1_1.writes (Elt F) VS1_1.junk (kernelRun1_A c i arg2 harg2 arg3 harg3 arg4 harg4 arg5 harg5 arg6 harg6 arg7 harg7 hc0 hc1 x0 x1 x2).2.2.1)

/-- A last tile's one store into the output block covers it. -/
theorem cover1_C_3 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) (y : S1x1x64.Idx) :
    ∃ pc ∈ (kernelRun1_C c i arg2 harg2 arg3 harg3 arg4 harg4 arg5 harg5 arg6 harg6 arg7 harg7 hc0 hc1 x0 x1 x2 xs0 xs1).1, y ∈ pc.1.set :=
  View.cover_of_tiledL (kernelRun1_C c i arg2 harg2 arg3 harg3 arg4 harg4 arg5 harg5 arg6 harg6 arg7 harg7 hc0 hc1 x0 x1 x2 xs0 xs1).1 S1x1x64.size (by sl_kernel_rfl) y

/-- What a last tile leaves in the output block: the 64 losses of the batch entry. -/
def out1_C_3 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) : Vec F S1x1x64 .f32 :=
  VO1_3.read (Elt F) (VO1_3.writes (Elt F) VO1_3.junk (kernelRun1_C c i arg2 harg2 arg3 harg3 arg4 harg4 arg5 harg5 arg6 harg6 arg7 harg7 hc0 hc1 x0 x1 x2 xs0 xs1).1)

theorem scover1_C_0 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) (y : S64x64.Idx) :
    ∃ pc ∈ (kernelRun1_C c i arg2 harg2 arg3 harg3 arg4 harg4 arg5 harg5 arg6 harg6 arg7 harg7 hc0 hc1 x0 x1 x2 xs0 xs1).2.1, y ∈ pc.1.set :=
  View.cover_of_tiledL (kernelRun1_C c i arg2 harg2 arg3 harg3 arg4 harg4 arg5 harg5 arg6 harg6 arg7 harg7 hc0 hc1 x0 x1 x2 xs0 xs1).2.1 S64x64.size (by sl_kernel_rfl) y

/-- What a last tile leaves in the q accumulator. -/
def sout1_C_0 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) : Vec F S64x64 .f32 :=
  VS1_0.read (Elt F) (VS1_0.writes (Elt F) VS1_0.junk (kernelRun1_C c i arg2 harg2 arg3 harg3 arg4 harg4 arg5 harg5 arg6 harg6 arg7 harg7 hc0 hc1 x0 x1 x2 xs0 xs1).2.1)

theorem scover1_C_1 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) (y : S64x64.Idx) :
    ∃ pc ∈ (kernelRun1_C c i arg2 harg2 arg3 harg3 arg4 harg4 arg5 harg5 arg6 harg6 arg7 harg7 hc0 hc1 x0 x1 x2 xs0 xs1).2.2.1, y ∈ pc.1.set :=
  View.cover_of_tiledL (kernelRun1_C c i arg2 harg2 arg3 harg3 arg4 harg4 arg5 harg5 arg6 harg6 arg7 harg7 hc0 hc1 x0 x1 x2 xs0 xs1).2.2.1 S64x64.size (by sl_kernel_rfl) y

/-- What a last tile leaves in the k accumulator. -/
def sout1_C_1 (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) : Vec F S64x64 .f32 :=
  VS1_1.read (Elt F) (VS1_1.writes (Elt F) VS1_1.junk (kernelRun1_C c i arg2 harg2 arg3 harg3 arg4 harg4 arg5 harg5 arg6 harg6 arg7 harg7 hc0 hc1 x0 x1 x2 xs0 xs1).2.2.1)

/-! ## The two conditions at a point, from the parity of its position -/

theorem hc1_0_of_even (t : Fin cfg1.N) (h0 : t.val % 2 = 0) : cond1_0 (grid1.coords t) := (hcond1_0 t).mpr h0
theorem hc1_1_of_even (t : Fin cfg1.N) (h0 : t.val % 2 = 0) : ¬cond1_1 (grid1.coords t) := fun h => by
  have h1 := (hcond1_1 t).mp h; omega
theorem hc1_0_of_odd (t : Fin cfg1.N) (h0 : ¬t.val % 2 = 0) : ¬cond1_0 (grid1.coords t) := fun h => h0 ((hcond1_0 t).mp h)
theorem hc1_1_of_odd (t : Fin cfg1.N) (h0 : ¬t.val % 2 = 0) : cond1_1 (grid1.coords t) := (hcond1_1 t).mpr (by omega)

section Region
-- the buffer contents when the region is entered
variable (V : (c : Dev nD) → (b : Ref sig .tc) → Buf (Elt F) ((c : Thread nD τ).loc b))

/-! ## What the output block and the accumulators hold after each point -/

/-- After the body at position `n`: (the output window's staging buffer, the q accumulator, the k accumulator). An even
    position is a first tile: its case at the point's blocks. An odd one is a last tile: its case at the point's
    blocks over the accumulators as the position before left them. -/
def outsAt1 (c : Dev nD) : (n : ℕ) → n < cfg1.N → Vec F S1x1x64 .f32 × Vec F S64x64 .f32 × Vec F S64x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) (hc1_0_of_even ⟨0, hn⟩ (Nat.zero_mod _)) (hc1_1_of_even ⟨0, hn⟩ (Nat.zero_mod _)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) (hc1_0_of_even ⟨0, hn⟩ (Nat.zero_mod _)) (hc1_1_of_even ⟨0, hn⟩ (Nat.zero_mod _)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) (hc1_0_of_even ⟨0, hn⟩ (Nat.zero_mod _)) (hc1_1_of_even ⟨0, hn⟩ (Nat.zero_mod _)) (iblk1 V c 0 ⟨0, hn⟩) (iblk1 V c 1 ⟨0, hn⟩) (iblk1 V c 2 ⟨0, hn⟩))
  | n + 1, hn =>
    if h0 : (n + 1) % 2 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_even ⟨n + 1, hn⟩ h0) (hc1_1_of_even ⟨n + 1, hn⟩ h0) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_even ⟨n + 1, hn⟩ h0) (hc1_1_of_even ⟨n + 1, hn⟩ h0) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_even ⟨n + 1, hn⟩ h0) (hc1_1_of_even ⟨n + 1, hn⟩ h0) (iblk1 V c 0 ⟨n + 1, hn⟩) (iblk1 V c 1 ⟨n + 1, hn⟩) (iblk1 V c 2 ⟨n + 1, hn⟩))
    else
      (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_odd ⟨n + 1, hn⟩ h0) (hc1_1_of_odd ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_odd ⟨n + 1, hn⟩ h0) (hc1_1_of_odd ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (hc1_0_of_odd ⟨n + 1, hn⟩ h0) (hc1_1_of_odd ⟨n + 1, hn⟩ h0) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at a first tile. -/
theorem outsAt1_A (c : Dev nD) (t : Fin cfg1.N) (h0 : t.val % 2 = 0) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_even t h0) (hc1_1_of_even t h0) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_even t h0) (hc1_1_of_even t h0) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_even t h0) (hc1_1_of_even t h0) (iblk1 V c 0 t) (iblk1 V c 1 t) (iblk1 V c 2 t)) := by
  obtain ⟨n, hn⟩ := t
  cases n with
  | zero => exact rfl
  | succ n => exact (dif_pos h0).trans rfl

/-- `outsAt1` at a last tile, over what the position before left in the accumulators. -/
theorem outsAt1_C (c : Dev nD) (t : Fin cfg1.N) (h0 : ¬t.val % 2 = 0) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_odd t h0) (hc1_1_of_odd t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_odd t h0) (hc1_1_of_odd t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_odd t h0) (hc1_1_of_odd t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant -/

/-- Before position `n`: at the region's start its resting invariant; afterwards the two accumulators at what the
    position before left in them, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2)) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2)) ∗ rest1 (F := F) c) ∗ (∃ r, prngReg c r)) := by
  cases n with
  | zero => exact absurd rfl hz
  | succ n => rfl

/-! ## The proof data -/

/-- The region's proof data on core `c`: the arrays as the region finds them; after the body at point `t` each input's
    buffer at its block and the output's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' buffers hold their blocks. At an even position the first-tile run applies: the
    invariant hands it the accumulators at anything (at the region's start from the resting invariant, later by
    forgetting what they held) and takes them back at the case's contents; the output block is handed through. At an
    odd position the last-tile run applies from the accumulators as the position before left them. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  by_cases h0 : t.val % 2 = 0
  · rw [Dat.leavesExact_idle (dat1 V c) 3 t (idleAt1_3_A t (hc1_0_of_even t h0) (hc1_1_of_even t h0)) (noFlush1_3_A t (hc1_0_of_even t h0) (hc1_1_of_even t h0))]
    rw [outsAt1_A V c t h0]
    unfold sout1_A_0 sout1_A_1; (try dsimp only)
    by_cases hz : t.val = 0
    · rw [PhiS1_castSucc V c t, PhiS1_zero V c _ _ hz, PhiA1_eq]
      iintro ⟨⟨⟨⟨HS0, HS1⟩, HR⟩, Hg⟩, Ho, ⟨%d0, H0⟩, ⟨%d1, H1⟩, ⟨%d2, H2⟩, ⟨%d3, H3⟩⟩
      iapply ((kernelRun1_A c (grid1.coords t) _ _ _ _ _ _ _ _ _ _ _ _ (hc1_0_of_even t h0) (hc1_1_of_even t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩⟩
      iapply ((kernelRun1_A c (grid1.coords t) _ _ _ _ _ _ _ _ _ _ _ _ (hc1_0_of_even t h0) (hc1_1_of_even t h0) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_A_0 c _ _ _ _ _ _ _ _ _ _ _ _ _ _ _ _ _ _)
            · unfold owns; iexists _; isplitr
              swap; · iexact HS1
              ipureintro; exact View.read_writes_of_cover _ _ _ _ _ (scover1_A_1 c _ _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3
  · rw [show (dat1 V c).leavesExact 3 t = owns (c : Thread nD τ) (ms1_3 t) fullShare ((dat1 V c).after 3 t) from by
      unfold Dat.leavesExact; rw [liveAt1_3_C t (hc1_0_of_odd t h0) (hc1_1_of_odd t h0)], after1_3]
    rw [outsAt1_C V c t h0]
    unfold out1_C_3 sout1_C_0 sout1_C_1; (try dsimp only)
    have hz : t.val ≠ 0 := fun e => h0 (by rw [e])
    rw [PhiS1_castSucc V c t, PhiS1_pos V c _ _ hz]
    iintro ⟨⟨⟨⟨HS0, HS1⟩, HR⟩, Hg⟩, Ho, ⟨%d0, H0⟩, ⟨%d1, H1⟩, ⟨%d2, H2⟩, ⟨%d3, H3⟩⟩
    iapply ((kernelRun1_C c (grid1.coords t) _ _ _ _ _ _ _ _ _ _ _ _ (hc1_0_of_odd t h0) (hc1_1_of_odd t h0) (iblk1 V c 0 t) (iblk1 V c 1 t) (iblk1 V c 2 t) _ _).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_C_0 c _ _ _ _ _ _ _ _ _ _ _ _ _ _ _ _ _ _ _ _)
          · unfold owns; iexists _; isplitr
            swap; · iexact HS1
            ipureintro; exact View.read_writes_of_cover _ _ _ _ _ (scover1_C_1 c _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the resting invariant back: what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout1 (c : Dev nD) : (dat1 V c).Φ (Fin.last cfg1.N) ⊢ Pipeline.ΦA spec1 c :=
  Phi_out1 V c _ (by rw [Fin.val_last]; have : cfg1.N = 8 := N_1; omega)

end Region

end Cert.KernelIdeal.Hand

end
-- ==== Proof.KI.Region2Runs.lean ====
/-
  The third layer's kernel call (grid 4 × 1, one tile per batch entry), first half: what its body does on
  any whole staging memrefs.

  Every grid point is at once the first and the last tile of its batch entry, so both guards of the body
  hold everywhere: the two accumulators are zeroed, the one-hot gather of the 64 sampled columns of the
  q block and of the k block is added into them, and the per-column loss is stored into the output block.
  Each accumulator is stored whole before it is first read back, so nothing the previous point left in
  them reaches this point's result.
-/
import proofs.«430285_j43310450213294_2_alg».proof.Proof.Gen.KernelIdeal.Launch
import proofs.«430285_j43310450213294_2_alg».proof.Proof.Gen.KernelIdeal.Skeleton
import proofs.«430285_j43310450213294_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Region
-- the buffer contents when the call is entered: every statement below is made at this parameter
variable (V : (c : Dev nD) → (b : Ref sig .tc) → Buf (Elt F) ((c : Thread nD τ).loc b))

/-! ## The windows' blocks -/

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The q block's staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for the k block. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The same for the sampled indices, which are fetched once: their block index never moves, so the buffer
    still holds the block at the later points. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region

/-! ## The body's two guards -/

/-- "This is the batch entry's first tile", as the body computes it from the tile coordinate. -/
abbrev cond2_0 (i : grid2.Coords) : Prop := (Scalar.cmpi .ne (Scalar.extui (Scalar.cmpi .eq (BitVec.ofNat 32 (i 1).val) 0#32)) 0#32) = 1#1
/-- It holds at every point: the tile axis has extent one. -/
theorem hcond2_0 : ∀ t : Fin cfg2.N, cond2_0 (grid2.coords t) :=
  (by decide +kernel : ∀ t : Fin grid2.N, cond2_0 (grid2.coords t))

/-- "This is the batch entry's last tile". -/
abbrev cond2_1 (i : grid2.Coords) : Prop := k2_cond2 i = 1#1
/-- It holds at every point too. -/
theorem hcond2_1 : ∀ t : Fin cfg2.N, cond2_1 (grid2.coords t) :=
  (by decide +kernel : ∀ t : Fin grid2.N, cond2_1 (grid2.coords t))

/-! ## No window is ever idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- The output block is stored at every point (the last-tile guard always holds). -/
theorem liveAt2_3 : ∀ t : Fin cfg2.N, cfg2.idle 3 (grid2.coords t) = false := by decide +kernel

/-! ## The memrefs the body is called with -/

/-- Each window's current staging memref at point `t`, spelled as the pipeline passes it, and its wholeness. -/
abbrev ms2_0 (t : Fin cfg2.N) : Memref sig .tc .vmem S1x128x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1x64 .f32 := win2_3.stage (cfg2.slots t 3)
abbrev hs2_3 (t : Fin cfg2.N) : (ms2_3 t).IsWhole := hstage2_3 ((cfg2.slots t 3).cast nbuf2_3)
/-- The two accumulators: whole scoped buffers of the call's own. -/
abbrev scM2_0 : Memref sig .tc .vmem S128x64 .f32 := Memref.whole cc2_scratch0
abbrev scM2_1 : Memref sig .tc .vmem S128x64 .f32 := Memref.whole cc2_scratch1
/-- Views through which the contents of the output block and of the accumulators are stated (which buffer of a
    window is chosen does not matter: a covering list of stores reads back the same through any whole view). -/
abbrev VO2_3 : View sig .tc .vmem S1x1x64 .f32 := (Memref.whole cc2_stg3_0 : Memref sig .tc .vmem S1x1x64 .f32).view
abbrev VS2_0 : View sig .tc .vmem S128x64 .f32 := scM2_0.view
abbrev VS2_1 : View sig .tc .vmem S128x64 .f32 := scM2_1.view

/-- The call's region invariant with its two accumulators as memrefs owned at some contents; the other scoped
    buffers stay an unopened remainder. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KI.Region2.lean ====
/-
  The third layer's kernel call, second half: the body's run on whole staging memrefs, as a triple whose
  witness is the list of stores each written buffer ends with; what those stores leave in the output block
  and in the two accumulators; the pipeline's proof data and the body obligation at any point.
-/
import proofs.«430285_j43310450213294_2_alg».proof.Proof.KI.Region2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- What the body's stores leave, as pieces (last first), in the output block's memref (`L3`) and in the two
    accumulators (`LS0`, `LS1`), WITH the proof that on whole memrefs — the q block, the k block and the sampled
    indices at contents `x0`, `x1`, `x2`, the output block and both accumulators at anything — the body runs
    to the continuation holding the three inputs as they were and each written buffer with its pieces written.
    Both guards are decided by the hypotheses `hc0`, `hc1`. -/
noncomputable def kernelRun2_A (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) :
    Σ' (L3 : List (View.Piece (Elt F) S1x1x64 .f32)) (LS0 : List (View.Piece (Elt F) S128x64 .f32)), { LS1 : List (View.Piece (Elt F) S128x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc2__gather_loss_kernel i arg2 harg2 arg3 harg3 arg4 harg4 arg5 harg5 arg6 harg6 arg7 harg7) K } := by
  refine ⟨?_, ?_, ?_, fun E K => ?run⟩
  case run =>
    simp only [cc2__gather_loss_kernel_eq_skeleton]; unfold cc2__gather_loss_kernel_skel
    simp only [k2_part1_eq_skeleton, k2_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

/-! ## What the body leaves in the output block and in the accumulators -/

/-- The body's stores into the output block cover it (one store of the whole block). -/
theorem cover2_A_3 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) (y : S1x1x64.Idx) :
    ∃ pc ∈ (kernelRun2_A c i arg2 harg2 arg3 harg3 arg4 harg4 arg5 harg5 arg6 harg6 arg7 harg7 hc0 hc1 x0 x1 x2).1, y ∈ pc.1.set :=
  View.cover_of_tiledL (kernelRun2_A c i arg2 harg2 arg3 harg3 arg4 harg4 arg5 harg5 arg6 harg6 arg7 harg7 hc0 hc1 x0 x1 x2).1 S1x1x64.size (by sl_kernel_rfl) y

/-- What the body leaves in the output block's staging buffer: its stores read back. -/
def out2_A_3 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) : Vec F S1x1x64 .f32 :=
  VO2_3.read (Elt F) (VO2_3.writes (Elt F) VO2_3.junk (kernelRun2_A c i arg2 harg2 arg3 harg3 arg4 harg4 arg5 harg5 arg6 harg6 arg7 harg7 hc0 hc1 x0 x1 x2).1)

/-- The body's stores into the q accumulator cover it (the zeroing and the update, each of the whole buffer). -/
theorem scover2_A_0 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) (y : S128x64.Idx) :
    ∃ pc ∈ (kernelRun2_A c i arg2 harg2 arg3 harg3 arg4 harg4 arg5 harg5 arg6 harg6 arg7 harg7 hc0 hc1 x0 x1 x2).2.1, y ∈ pc.1.set :=
  View.cover_of_tiledL (kernelRun2_A c i arg2 harg2 arg3 harg3 arg4 harg4 arg5 harg5 arg6 harg6 arg7 harg7 hc0 hc1 x0 x1 x2).2.1 S128x64.size (by sl_kernel_rfl) y

/-- What the body leaves in the q accumulator. -/
def sout2_A_0 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) : Vec F S128x64 .f32 :=
  VS2_0.read (Elt F) (VS2_0.writes (Elt F) VS2_0.junk (kernelRun2_A c i arg2 harg2 arg3 harg3 arg4 harg4 arg5 harg5 arg6 harg6 arg7 harg7 hc0 hc1 x0 x1 x2).2.1)

/-- The body's stores into the k accumulator cover it. -/
theorem scover2_A_1 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) (y : S128x64.Idx) :
    ∃ pc ∈ (kernelRun2_A c i arg2 harg2 arg3 harg3 arg4 harg4 arg5 harg5 arg6 harg6 arg7 harg7 hc0 hc1 x0 x1 x2).2.2.1, y ∈ pc.1.set :=
  View.cover_of_tiledL (kernelRun2_A c i arg2 harg2 arg3 harg3 arg4 harg4 arg5 harg5 arg6 harg6 arg7 harg7 hc0 hc1 x0 x1 x2).2.2.1 S128x64.size (by sl_kernel_rfl) y

/-- What the body leaves in the k accumulator. -/
def sout2_A_1 (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) : Vec F S128x64 .f32 :=
  VS2_1.read (Elt F) (VS2_1.writes (Elt F) VS2_1.junk (kernelRun2_A c i arg2 harg2 arg3 harg3 arg4 harg4 arg5 harg5 arg6 harg6 arg7 harg7 hc0 hc1 x0 x1 x2).2.2.1)

section Region
variable (V : (c : Dev nD) → (b : Ref sig .tc) → Buf (Elt F) ((c : Thread nD τ).loc b))

/-! ## What the written buffers hold after each point -/

/-- After the body at position `n`: the output block's staging buffer, then the two accumulators. Every point
    is in the one case (first and last tile at once), so each component is the body's result on that point's
    three input blocks; nothing of the point before enters. -/
def outsAt2 (c : Dev nD) : (n : ℕ) → n < cfg2.N → Vec F S1x1x64 .f32 × Vec F S128x64 .f32 × Vec F S128x64 .f32
  | n, hn => (out2_A_3 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2_0 (Memref.isWhole_whole _) scM2_1 (Memref.isWhole_whole _) (hcond2_0 ⟨n, hn⟩) (hcond2_1 ⟨n, hn⟩) (iblk2 V c 0 ⟨n, hn⟩) (iblk2 V c 1 ⟨n, hn⟩) (iblk2 V c 2 ⟨n, hn⟩), sout2_A_0 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2_0 (Memref.isWhole_whole _) scM2_1 (Memref.isWhole_whole _) (hcond2_0 ⟨n, hn⟩) (hcond2_1 ⟨n, hn⟩) (iblk2 V c 0 ⟨n, hn⟩) (iblk2 V c 1 ⟨n, hn⟩) (iblk2 V c 2 ⟨n, hn⟩), sout2_A_1 c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2_0 (Memref.isWhole_whole _) scM2_1 (Memref.isWhole_whole _) (hcond2_0 ⟨n, hn⟩) (hcond2_1 ⟨n, hn⟩) (iblk2 V c 0 ⟨n, hn⟩) (iblk2 V c 1 ⟨n, hn⟩) (iblk2 V c 2 ⟨n, hn⟩))

/-- `outsAt2` at a point, spelled over the point. -/
theorem outsAt2_A (c : Dev nD) (t : Fin cfg2.N) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) scM2_1 (Memref.isWhole_whole _) (hcond2_0 t) (hcond2_1 t) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) scM2_1 (Memref.isWhole_whole _) (hcond2_0 t) (hcond2_1 t) (iblk2 V c 0 t) (iblk2 V c 1 t) (iblk2 V c 2 t), sout2_A_1 c (grid2.coords t) (ms2_0 t) (hs2_0 t) (ms2_1 t) (hs2_1 t) (ms2_2 t) (hs2_2 t) (ms2_3 t) (hs2_3 t) scM2_0 (Memref.isWhole_whole _) scM2_1 (Memref.isWhole_whole _) (hcond2_0 t) (hcond2_1 t) (iblk2 V c 0 t) (iblk2 V c 1 t) (iblk2 V c 2 t)) := rfl

/-! ## The pipeline's proof data -/

/-- The proof data of this call on core `c`: the arrays as the call finds them; after the body at point `t`
    each input's buffer at its block and the output's at `outsAt2`'s first component; the invariant the plain one
    (the call's scoped buffers at anything: the accumulators are rewritten whole before they are read at every
    point, so nothing about them need be carried); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; both guards hold, so the run applies; the
    invariant lends the two accumulators at anything and takes them back at what the stores left (forgotten
    again); the output block's buffer ends at its stores read back; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl, PhiA2_eq]
  rw [show (dat2 V c).leavesExact 0 t = owns (c : Thread nD τ) (ms2_0 t) fullShare ((dat2 V c).after 0 t) from by
      unfold Dat.leavesExact; rw [liveAt2_0 t], after2_0]
  rw [show (dat2 V c).leavesExact 1 t = owns (c : Thread nD τ) (ms2_1 t) fullShare ((dat2 V c).after 1 t) from by
      unfold Dat.leavesExact; rw [liveAt2_1 t], after2_1]
  rw [show (dat2 V c).leavesExact 2 t = owns (c : Thread nD τ) (ms2_2 t) fullShare ((dat2 V c).after 2 t) from by
      unfold Dat.leavesExact; rw [liveAt2_2 t], after2_2]
  rw [show (dat2 V c).leavesExact 3 t = owns (c : Thread nD τ) (ms2_3 t) fullShare ((dat2 V c).after 3 t) from by
      unfold Dat.leavesExact; rw [liveAt2_3 t], after2_3]
  rw [outsAt2_A V c t]
  unfold out2_A_3; (try dsimp only)
  iintro ⟨⟨⟨⟨⟨%ds0, HS0⟩, ⟨%ds1, HS1⟩⟩, Hrest⟩, Hg⟩, Ho, ⟨%d0, H0⟩, ⟨%d1, H1⟩, ⟨%d2, H2⟩, ⟨%d3, H3⟩⟩
  iapply ((kernelRun2_A c (grid2.coords t) _ _ _ _ _ _ _ _ _ _ _ _ (hcond2_0 t) (hcond2_1 t) (iblk2 V c 0 t) (iblk2 V c 1 t) (iblk2 V c 2 t)).2.2.2 Set.univ _)
  isplitl [H0]; · iexact H0
  isplitl [H1]; · iexact H1
  isplitl [H2]; · iexact H2
  isplitl [H3]; · iexists _; iexact H3
  isplitl [HS0]; · iexists _; iexact HS0
  isplitl [HS1]; · iexists _; iexact HS1
  iintro ⟨H0, H1, H2, ⟨%e3, H3⟩, ⟨%es0, HS0⟩, ⟨%es1, HS1⟩⟩
  isplitl [HS0 HS1 Hrest Hg]
  · isplitl [HS0 HS1 Hrest]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_A_3 c _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the call is the invariant before the first point, -/
theorem hin2 (c : Dev nD) : Pipeline.ΦA spec2 c ⊢ (dat2 V c).Φ 0 := Idealize.SL.BI.Entails.refl _

/-- and the invariant after the last point is what the launch takes back. -/
theorem hout2 (c : Dev nD) : (dat2 V c).Φ (Fin.last cfg2.N) ⊢ Pipeline.ΦA spec2 c := Idealize.SL.BI.Entails.refl _

end Region

end Cert.KernelIdeal.Hand

end
-- ==== Proof.KI.Region3Runs.lean ====
/-
  The fourth layer's kernel call (grid 4 × 1, one tile per batch entry), first half: what its body does on
  any whole staging memrefs.

  Every grid point is at once the first and the last tile of its batch entry, so both guards of the body
  hold everywhere: the two accumulators are zeroed, the one-hot gather of the 64 sampled columns of the
  q block and of the k block is added into them, and the per-column loss is stored into the output block.
  Each accumulator is stored whole before it is first read back, so nothing the previous point left in
  them reaches this point's result.
-/
import proofs.«430285_j43310450213294_2_alg».proof.Proof.Gen.KernelIdeal.Launch
import proofs.«430285_j43310450213294_2_alg».proof.Proof.Gen.KernelIdeal.Skeleton
import proofs.«430285_j43310450213294_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Region
-- the buffer contents when the call is entered: every statement below is made at this parameter
variable (V : (c : Dev nD) → (b : Ref sig .tc) → Buf (Elt F) ((c : Thread nD τ).loc b))

/-! ## The windows' blocks -/

/-- Window `w`'s block at point `t`, read off its array as the call finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The q block's staging buffer holds its block at every point, for any proof data whose array is `V`'s and
    whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The same for the k block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The same for the sampled indices, which are fetched once: their block index never moves, so the buffer
    still holds the block at the later points. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

end Region

/-! ## The body's two guards -/

/-- "This is the batch entry's first tile", as the body computes it from the tile coordinate. -/
abbrev cond3_0 (i : grid3.Coords) : Prop := (Scalar.cmpi .ne (Scalar.extui (Scalar.cmpi .eq (BitVec.ofNat 32 (i 1).val) 0#32)) 0#32) = 1#1
/-- It holds at every point: the tile axis has extent one. -/
theorem hcond3_0 : ∀ t : Fin cfg3.N, cond3_0 (grid3.coords t) :=
  (by decide +kernel : ∀ t : Fin grid3.N, cond3_0 (grid3.coords t))

/-- "This is the batch entry's last tile". -/
abbrev cond3_1 (i : grid3.Coords) : Prop := k3_cond2 i = 1#1
/-- It holds at every point too. -/
theorem hcond3_1 : ∀ t : Fin cfg3.N, cond3_1 (grid3.coords t) :=
  (by decide +kernel : ∀ t : Fin grid3.N, cond3_1 (grid3.coords t))

/-! ## No window is ever idle -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
/-- The output block is stored at every point (the last-tile guard always holds). -/
theorem liveAt3_3 : ∀ t : Fin cfg3.N, cfg3.idle 3 (grid3.coords t) = false := by decide +kernel

/-! ## The memrefs the body is called with -/

/-- Each window's current staging memref at point `t`, spelled as the pipeline passes it, and its wholeness. -/
abbrev ms3_0 (t : Fin cfg3.N) : Memref sig .tc .vmem S1x256x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x256x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .i32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x1x64 .f32 := win3_3.stage (cfg3.slots t 3)
abbrev hs3_3 (t : Fin cfg3.N) : (ms3_3 t).IsWhole := hstage3_3 ((cfg3.slots t 3).cast nbuf3_3)
/-- The two accumulators: whole scoped buffers of the call's own. -/
abbrev scM3_0 : Memref sig .tc .vmem S256x64 .f32 := Memref.whole cc3_scratch0
abbrev scM3_1 : Memref sig .tc .vmem S256x64 .f32 := Memref.whole cc3_scratch1
/-- Views through which the contents of the output block and of the accumulators are stated (which buffer of a
    window is chosen does not matter: a covering list of stores reads back the same through any whole view). -/
abbrev VO3_3 : View sig .tc .vmem S1x1x64 .f32 := (Memref.whole cc3_stg3_0 : Memref sig .tc .vmem S1x1x64 .f32).view
abbrev VS3_0 : View sig .tc .vmem S256x64 .f32 := scM3_0.view
abbrev VS3_1 : View sig .tc .vmem S256x64 .f32 := scM3_1.view

/-- The call's region invariant with its two accumulators as memrefs owned at some contents; the other scoped
    buffers stay an unopened remainder. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.KernelIdeal.Hand

end
-- ==== Proof.KI.Region3.lean ====
/-
  The fourth layer's kernel call, second half: the body's run on whole staging memrefs, as a triple whose
  witness is the list of stores each written buffer ends with; what those stores leave in the output block
  and in the two accumulators; the pipeline's proof data and the body obligation at any point.
-/
import proofs.«430285_j43310450213294_2_alg».proof.Proof.KI.Region3Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- What the body's stores leave, as pieces (last first), in the output block's memref (`L3`) and in the two
    accumulators (`LS0`, `LS1`), WITH the proof that on whole memrefs — the q block, the k block and the sampled
    indices at contents `x0`, `x1`, `x2`, the output block and both accumulators at anything — the body runs
    to the continuation holding the three inputs as they were and each written buffer with its pieces written.
    Both guards are decided by the hypotheses `hc0`, `hc1`. -/
noncomputable def kernelRun3_A (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) :
    Σ' (L3 : List (View.Piece (Elt F) S1x1x64 .f32)) (LS0 : List (View.Piece (Elt F) S256x64 .f32)), { LS1 : List (View.Piece (Elt F) S256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc3__gather_loss_kernel i arg2 harg2 arg3 harg3 arg4 harg4 arg5 harg5 arg6 harg6 arg7 harg7) K } := by
  refine ⟨?_, ?_, ?_, fun E K => ?run⟩
  case run =>
    simp only [cc3__gather_loss_kernel_eq_skeleton]; unfold cc3__gather_loss_kernel_skel
    simp only [k3_part1_eq_skeleton, k3_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

/-! ## What the body leaves in the output block and in the accumulators -/

/-- The body's stores into the output block cover it (one store of the whole block). -/
theorem cover3_A_3 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) (y : S1x1x64.Idx) :
    ∃ pc ∈ (kernelRun3_A c i arg2 harg2 arg3 harg3 arg4 harg4 arg5 harg5 arg6 harg6 arg7 harg7 hc0 hc1 x0 x1 x2).1, y ∈ pc.1.set :=
  View.cover_of_tiledL (kernelRun3_A c i arg2 harg2 arg3 harg3 arg4 harg4 arg5 harg5 arg6 harg6 arg7 harg7 hc0 hc1 x0 x1 x2).1 S1x1x64.size (by sl_kernel_rfl) y

/-- What the body leaves in the output block's staging buffer: its stores read back. -/
def out3_A_3 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) : Vec F S1x1x64 .f32 :=
  VO3_3.read (Elt F) (VO3_3.writes (Elt F) VO3_3.junk (kernelRun3_A c i arg2 harg2 arg3 harg3 arg4 harg4 arg5 harg5 arg6 harg6 arg7 harg7 hc0 hc1 x0 x1 x2).1)

/-- The body's stores into the q accumulator cover it (the zeroing and the update, each of the whole buffer). -/
theorem scover3_A_0 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) (y : S256x64.Idx) :
    ∃ pc ∈ (kernelRun3_A c i arg2 harg2 arg3 harg3 arg4 harg4 arg5 harg5 arg6 harg6 arg7 harg7 hc0 hc1 x0 x1 x2).2.1, y ∈ pc.1.set :=
  View.cover_of_tiledL (kernelRun3_A c i arg2 harg2 arg3 harg3 arg4 harg4 arg5 harg5 arg6 harg6 arg7 harg7 hc0 hc1 x0 x1 x2).2.1 S256x64.size (by sl_kernel_rfl) y

/-- What the body leaves in the q accumulator. -/
def sout3_A_0 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) : Vec F S256x64 .f32 :=
  VS3_0.read (Elt F) (VS3_0.writes (Elt F) VS3_0.junk (kernelRun3_A c i arg2 harg2 arg3 harg3 arg4 harg4 arg5 harg5 arg6 harg6 arg7 harg7 hc0 hc1 x0 x1 x2).2.1)

/-- The body's stores into the k accumulator cover it. -/
theorem scover3_A_1 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) (y : S256x64.Idx) :
    ∃ pc ∈ (kernelRun3_A c i arg2 harg2 arg3 harg3 arg4 harg4 arg5 harg5 arg6 harg6 arg7 harg7 hc0 hc1 x0 x1 x2).2.2.1, y ∈ pc.1.set :=
  View.cover_of_tiledL (kernelRun3_A c i arg2 harg2 arg3 harg3 arg4 harg4 arg5 harg5 arg6 harg6 arg7 harg7 hc0 hc1 x0 x1 x2).2.2.1 S256x64.size (by sl_kernel_rfl) y

/-- What the body leaves in the k accumulator. -/
def sout3_A_1 (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) : Vec F S256x64 .f32 :=
  VS3_1.read (Elt F) (VS3_1.writes (Elt F) VS3_1.junk (kernelRun3_A c i arg2 harg2 arg3 harg3 arg4 harg4 arg5 harg5 arg6 harg6 arg7 harg7 hc0 hc1 x0 x1 x2).2.2.1)

section Region
variable (V : (c : Dev nD) → (b : Ref sig .tc) → Buf (Elt F) ((c : Thread nD τ).loc b))

/-! ## What the written buffers hold after each point -/

/-- After the body at position `n`: the output block's staging buffer, then the two accumulators. Every point
    is in the one case (first and last tile at once), so each component is the body's result on that point's
    three input blocks; nothing of the point before enters. -/
def outsAt3 (c : Dev nD) : (n : ℕ) → n < cfg3.N → Vec F S1x1x64 .f32 × Vec F S256x64 .f32 × Vec F S256x64 .f32
  | n, hn => (out3_A_3 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3_0 (Memref.isWhole_whole _) scM3_1 (Memref.isWhole_whole _) (hcond3_0 ⟨n, hn⟩) (hcond3_1 ⟨n, hn⟩) (iblk3 V c 0 ⟨n, hn⟩) (iblk3 V c 1 ⟨n, hn⟩) (iblk3 V c 2 ⟨n, hn⟩), sout3_A_0 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3_0 (Memref.isWhole_whole _) scM3_1 (Memref.isWhole_whole _) (hcond3_0 ⟨n, hn⟩) (hcond3_1 ⟨n, hn⟩) (iblk3 V c 0 ⟨n, hn⟩) (iblk3 V c 1 ⟨n, hn⟩) (iblk3 V c 2 ⟨n, hn⟩), sout3_A_1 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) (ms3_3 ⟨n, hn⟩) (hs3_3 ⟨n, hn⟩) scM3_0 (Memref.isWhole_whole _) scM3_1 (Memref.isWhole_whole _) (hcond3_0 ⟨n, hn⟩) (hcond3_1 ⟨n, hn⟩) (iblk3 V c 0 ⟨n, hn⟩) (iblk3 V c 1 ⟨n, hn⟩) (iblk3 V c 2 ⟨n, hn⟩))

/-- `outsAt3` at a point, spelled over the point. -/
theorem outsAt3_A (c : Dev nD) (t : Fin cfg3.N) :
    outsAt3 V c t.val t.isLt = (out3_A_3 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hcond3_0 t) (hcond3_1 t) (iblk3 V c 0 t) (iblk3 V c 1 t) (iblk3 V c 2 t), sout3_A_0 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hcond3_0 t) (hcond3_1 t) (iblk3 V c 0 t) (iblk3 V c 1 t) (iblk3 V c 2 t), sout3_A_1 c (grid3.coords t) (ms3_0 t) (hs3_0 t) (ms3_1 t) (hs3_1 t) (ms3_2 t) (hs3_2 t) (ms3_3 t) (hs3_3 t) scM3_0 (Memref.isWhole_whole _) scM3_1 (Memref.isWhole_whole _) (hcond3_0 t) (hcond3_1 t) (iblk3 V c 0 t) (iblk3 V c 1 t) (iblk3 V c 2 t)) := rfl

/-! ## The pipeline's proof data -/

/-- The proof data of this call on core `c`: the arrays as the call finds them; after the body at point `t`
    each input's buffer at its block and the output's at `outsAt3`'s first component; the invariant the plain one
    (the call's scoped buffers at anything: the accumulators are rewritten whole before they are read at every
    point, so nothing about them need be carried); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point: the inputs' memrefs hold their blocks; both guards hold, so the run applies; the
    invariant lends the two accumulators at anything and takes them back at what the stores left (forgotten
    again); the output block's buffer ends at its stores read back; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
      unfold Dat.leavesExact; rw [liveAt3_0 t], after3_0]
  rw [show (dat3 V c).leavesExact 1 t = owns (c : Thread nD τ) (ms3_1 t) fullShare ((dat3 V c).after 1 t) from by
      unfold Dat.leavesExact; rw [liveAt3_1 t], after3_1]
  rw [show (dat3 V c).leavesExact 2 t = owns (c : Thread nD τ) (ms3_2 t) fullShare ((dat3 V c).after 2 t) from by
      unfold Dat.leavesExact; rw [liveAt3_2 t], after3_2]
  rw [show (dat3 V c).leavesExact 3 t = owns (c : Thread nD τ) (ms3_3 t) fullShare ((dat3 V c).after 3 t) from by
      unfold Dat.leavesExact; rw [liveAt3_3 t], after3_3]
  rw [outsAt3_A V c t]
  unfold out3_A_3; (try dsimp only)
  iintro ⟨⟨⟨⟨⟨%ds0, HS0⟩, ⟨%ds1, HS1⟩⟩, Hrest⟩, Hg⟩, Ho, ⟨%d0, H0⟩, ⟨%d1, H1⟩, ⟨%d2, H2⟩, ⟨%d3, H3⟩⟩
  iapply ((kernelRun3_A c (grid3.coords t) _ _ _ _ _ _ _ _ _ _ _ _ (hcond3_0 t) (hcond3_1 t) (iblk3 V c 0 t) (iblk3 V c 1 t) (iblk3 V c 2 t)).2.2.2 Set.univ _)
  isplitl [H0]; · iexact H0
  isplitl [H1]; · iexact H1
  isplitl [H2]; · iexact H2
  isplitl [H3]; · iexists _; iexact H3
  isplitl [HS0]; · iexists _; iexact HS0
  isplitl [HS1]; · iexists _; iexact HS1
  iintro ⟨H0, H1, H2, ⟨%e3, H3⟩, ⟨%es0, HS0⟩, ⟨%es1, HS1⟩⟩
  isplitl [HS0 HS1 Hrest Hg]
  · isplitl [HS0 HS1 Hrest]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_A_3 c _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call is the invariant before the first point, -/
theorem hin3 (c : Dev nD) : Pipeline.ΦA spec3 c ⊢ (dat3 V c).Φ 0 := Idealize.SL.BI.Entails.refl _

/-- and the invariant after the last point is what the launch takes back. -/
theorem hout3 (c : Dev nD) : (dat3 V c).Φ (Fin.last cfg3.N) ⊢ Pipeline.ΦA spec3 c := Idealize.SL.BI.Entails.refl _

end Region

end Cert.KernelIdeal.Hand

end
-- ==== Proof.KI.Region4Runs.lean ====
/-
  The fifth layer's kernel call (grid 4 × 1, one tile per batch entry), first half: what its body does on
  any whole staging memrefs.

  Every grid point is at once the first and the last tile of its batch entry, so both guards of the body
  hold everywhere: the two accumulators are zeroed, the one-hot gather of the 64 sampled columns of the
  q block and of the k block is added into them, and the per-column loss is stored into the output block.
  Each accumulator is stored whole before it is first read back, so nothing the previous point left in
  them reaches this point's result.
-/
import proofs.«430285_j43310450213294_2_alg».proof.Proof.Gen.KernelIdeal.Launch
import proofs.«430285_j43310450213294_2_alg».proof.Proof.Gen.KernelIdeal.Skeleton
import proofs.«430285_j43310450213294_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Region
-- the buffer contents when the call is entered: every statement below is made at this parameter
variable (V : (c : Dev nD) → (b : Ref sig .tc) → Buf (Elt F) ((c : Thread nD τ).loc b))

/-! ## The windows' blocks -/

/-- Window `w`'s block at point `t`, read off its array as the call finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The q block's staging buffer holds its block at every point, for any proof data whose array is `V`'s and
    whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the k block. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The same for the sampled indices, which are fetched once: their block index never moves, so the buffer
    still holds the block at the later points. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

end Region

/-! ## The body's two guards -/

/-- "This is the batch entry's first tile", as the body computes it from the tile coordinate. -/
abbrev cond4_0 (i : grid4.Coords) : Prop := (Scalar.cmpi .ne (Scalar.extui (Scalar.cmpi .eq (BitVec.ofNat 32 (i 1).val) 0#32)) 0#32) = 1#1
/-- It holds at every point: the tile axis has extent one. -/
theorem hcond4_0 : ∀ t : Fin cfg4.N, cond4_0 (grid4.coords t) :=
  (by decide +kernel : ∀ t : Fin grid4.N, cond4_0 (grid4.coords t))

/-- "This is the batch entry's last tile". -/
abbrev cond4_1 (i : grid4.Coords) : Prop := k4_cond2 i = 1#1
/-- It holds at every point too. -/
theorem hcond4_1 : ∀ t : Fin cfg4.N, cond4_1 (grid4.coords t) :=
  (by decide +kernel : ∀ t : Fin grid4.N, cond4_1 (grid4.coords t))

/-! ## No window is ever idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- The output block is stored at every point (the last-tile guard always holds). -/
theorem liveAt4_3 : ∀ t : Fin cfg4.N, cfg4.idle 3 (grid4.coords t) = false := by decide +kernel

/-! ## The memrefs the body is called with -/

/-- Each window's current staging memref at point `t`, spelled as the pipeline passes it, and its wholeness. -/
abbrev ms4_0 (t : Fin cfg4.N) : Memref sig .tc .vmem S1x256x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .i32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x1x64 .f32 := win4_3.stage (cfg4.slots t 3)
abbrev hs4_3 (t : Fin cfg4.N) : (ms4_3 t).IsWhole := hstage4_3 ((cfg4.slots t 3).cast nbuf4_3)
/-- The two accumulators: whole scoped buffers of the call's own. -/
abbrev scM4_0 : Memref sig .tc .vmem S256x64 .f32 := Memref.whole cc4_scratch0
abbrev scM4_1 : Memref sig .tc .vmem S256x64 .f32 := Memref.whole cc4_scratch1
/-- Views through which the contents of the output block and of the accumulators are stated (which buffer of a
    window is chosen does not matter: a covering list of stores reads back the same through any whole view). -/
abbrev VO4_3 : View sig .tc .vmem S1x1x64 .f32 := (Memref.whole cc4_stg3_0 : Memref sig .tc .vmem S1x1x64 .f32).view
abbrev VS4_0 : View sig .tc .vmem S256x64 .f32 := scM4_0.view
abbrev VS4_1 : View sig .tc .vmem S256x64 .f32 := scM4_1.view

/-- The call's region invariant with its two accumulators as memrefs owned at some contents; the other scoped
    buffers stay an unopened remainder. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Hand

end
-- ==== Proof.KI.Region4.lean ====
/-
  The fifth layer's kernel call, second half: the body's run on whole staging memrefs, as a triple whose
  witness is the list of stores each written buffer ends with; what those stores leave in the output block
  and in the two accumulators; the pipeline's proof data and the body obligation at any point.
-/
import proofs.«430285_j43310450213294_2_alg».proof.Proof.KI.Region4Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- What the body's stores leave, as pieces (last first), in the output block's memref (`L3`) and in the two
    accumulators (`LS0`, `LS1`), WITH the proof that on whole memrefs — the q block, the k block and the sampled
    indices at contents `x0`, `x1`, `x2`, the output block and both accumulators at anything — the body runs
    to the continuation holding the three inputs as they were and each written buffer with its pieces written.
    Both guards are decided by the hypotheses `hc0`, `hc1`. -/
noncomputable def kernelRun4_A (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) :
    Σ' (L3 : List (View.Piece (Elt F) S1x1x64 .f32)) (LS0 : List (View.Piece (Elt F) S256x64 .f32)), { LS1 : List (View.Piece (Elt F) S256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc4__gather_loss_kernel i arg2 harg2 arg3 harg3 arg4 harg4 arg5 harg5 arg6 harg6 arg7 harg7) K } := by
  refine ⟨?_, ?_, ?_, fun E K => ?run⟩
  case run =>
    simp only [cc4__gather_loss_kernel_eq_skeleton]; unfold cc4__gather_loss_kernel_skel
    simp only [k4_part1_eq_skeleton, k4_part2_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

/-! ## What the body leaves in the output block and in the accumulators -/

/-- The body's stores into the output block cover it (one store of the whole block). -/
theorem cover4_A_3 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) (y : S1x1x64.Idx) :
    ∃ pc ∈ (kernelRun4_A c i arg2 harg2 arg3 harg3 arg4 harg4 arg5 harg5 arg6 harg6 arg7 harg7 hc0 hc1 x0 x1 x2).1, y ∈ pc.1.set :=
  View.cover_of_tiledL (kernelRun4_A c i arg2 harg2 arg3 harg3 arg4 harg4 arg5 harg5 arg6 harg6 arg7 harg7 hc0 hc1 x0 x1 x2).1 S1x1x64.size (by sl_kernel_rfl) y

/-- What the body leaves in the output block's staging buffer: its stores read back. -/
def out4_A_3 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) : Vec F S1x1x64 .f32 :=
  VO4_3.read (Elt F) (VO4_3.writes (Elt F) VO4_3.junk (kernelRun4_A c i arg2 harg2 arg3 harg3 arg4 harg4 arg5 harg5 arg6 harg6 arg7 harg7 hc0 hc1 x0 x1 x2).1)

/-- The body's stores into the q accumulator cover it (the zeroing and the update, each of the whole buffer). -/
theorem scover4_A_0 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) (y : S256x64.Idx) :
    ∃ pc ∈ (kernelRun4_A c i arg2 harg2 arg3 harg3 arg4 harg4 arg5 harg5 arg6 harg6 arg7 harg7 hc0 hc1 x0 x1 x2).2.1, y ∈ pc.1.set :=
  View.cover_of_tiledL (kernelRun4_A c i arg2 harg2 arg3 harg3 arg4 harg4 arg5 harg5 arg6 harg6 arg7 harg7 hc0 hc1 x0 x1 x2).2.1 S256x64.size (by sl_kernel_rfl) y

/-- What the body leaves in the q accumulator. -/
def sout4_A_0 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) : Vec F S256x64 .f32 :=
  VS4_0.read (Elt F) (VS4_0.writes (Elt F) VS4_0.junk (kernelRun4_A c i arg2 harg2 arg3 harg3 arg4 harg4 arg5 harg5 arg6 harg6 arg7 harg7 hc0 hc1 x0 x1 x2).2.1)

/-- The body's stores into the k accumulator cover it. -/
theorem scover4_A_1 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) (y : S256x64.Idx) :
    ∃ pc ∈ (kernelRun4_A c i arg2 harg2 arg3 harg3 arg4 harg4 arg5 harg5 arg6 harg6 arg7 harg7 hc0 hc1 x0 x1 x2).2.2.1, y ∈ pc.1.set :=
  View.cover_of_tiledL (kernelRun4_A c i arg2 harg2 arg3 harg3 arg4 harg4 arg5 harg5 arg6 harg6 arg7 harg7 hc0 hc1 x0 x1 x2).2.2.1 S256x64.size (by sl_kernel_rfl) y

/-- What the body leaves in the k accumulator. -/
def sout4_A_1 (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) : Vec F S256x64 .f32 :=
  VS4_1.read (Elt F) (VS4_1.writes (Elt F) VS4_1.junk (kernelRun4_A c i arg2 harg2 arg3 harg3 arg4 harg4 arg5 harg5 arg6 harg6 arg7 harg7 hc0 hc1 x0 x1 x2).2.2.1)

section Region
variable (V : (c : Dev nD) → (b : Ref sig .tc) → Buf (Elt F) ((c : Thread nD τ).loc b))

/-! ## What the written buffers hold after each point -/

/-- After the body at position `n`: the output block's staging buffer, then the two accumulators. Every point
    is in the one case (first and last tile at once), so each component is the body's result on that point's
    three input blocks; nothing of the point before enters. -/
def outsAt4 (c : Dev nD) : (n : ℕ) → n < cfg4.N → Vec F S1x1x64 .f32 × Vec F S256x64 .f32 × Vec F S256x64 .f32
  | n, hn => (out4_A_3 c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4_0 (Memref.isWhole_whole _) scM4_1 (Memref.isWhole_whole _) (hcond4_0 ⟨n, hn⟩) (hcond4_1 ⟨n, hn⟩) (iblk4 V c 0 ⟨n, hn⟩) (iblk4 V c 1 ⟨n, hn⟩) (iblk4 V c 2 ⟨n, hn⟩), sout4_A_0 c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4_0 (Memref.isWhole_whole _) scM4_1 (Memref.isWhole_whole _) (hcond4_0 ⟨n, hn⟩) (hcond4_1 ⟨n, hn⟩) (iblk4 V c 0 ⟨n, hn⟩) (iblk4 V c 1 ⟨n, hn⟩) (iblk4 V c 2 ⟨n, hn⟩), sout4_A_1 c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) (ms4_3 ⟨n, hn⟩) (hs4_3 ⟨n, hn⟩) scM4_0 (Memref.isWhole_whole _) scM4_1 (Memref.isWhole_whole _) (hcond4_0 ⟨n, hn⟩) (hcond4_1 ⟨n, hn⟩) (iblk4 V c 0 ⟨n, hn⟩) (iblk4 V c 1 ⟨n, hn⟩) (iblk4 V c 2 ⟨n, hn⟩))

/-- `outsAt4` at a point, spelled over the point. -/
theorem outsAt4_A (c : Dev nD) (t : Fin cfg4.N) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (hcond4_0 t) (hcond4_1 t) (iblk4 V c 0 t) (iblk4 V c 1 t) (iblk4 V c 2 t), sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (hcond4_0 t) (hcond4_1 t) (iblk4 V c 0 t) (iblk4 V c 1 t) (iblk4 V c 2 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (hcond4_0 t) (hcond4_1 t) (iblk4 V c 0 t) (iblk4 V c 1 t) (iblk4 V c 2 t)) := rfl

/-! ## The pipeline's proof data -/

/-- The proof data of this call on core `c`: the arrays as the call finds them; after the body at point `t`
    each input's buffer at its block and the output's at `outsAt4`'s first component; the invariant the plain one
    (the call's scoped buffers at anything: the accumulators are rewritten whole before they are read at every
    point, so nothing about them need be carried); nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; both guards hold, so the run applies; the
    invariant lends the two accumulators at anything and takes them back at what the stores left (forgotten
    again); the output block's buffer ends at its stores read back; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl, PhiA4_eq]
  rw [show (dat4 V c).leavesExact 0 t = owns (c : Thread nD τ) (ms4_0 t) fullShare ((dat4 V c).after 0 t) from by
      unfold Dat.leavesExact; rw [liveAt4_0 t], after4_0]
  rw [show (dat4 V c).leavesExact 1 t = owns (c : Thread nD τ) (ms4_1 t) fullShare ((dat4 V c).after 1 t) from by
      unfold Dat.leavesExact; rw [liveAt4_1 t], after4_1]
  rw [show (dat4 V c).leavesExact 2 t = owns (c : Thread nD τ) (ms4_2 t) fullShare ((dat4 V c).after 2 t) from by
      unfold Dat.leavesExact; rw [liveAt4_2 t], after4_2]
  rw [show (dat4 V c).leavesExact 3 t = owns (c : Thread nD τ) (ms4_3 t) fullShare ((dat4 V c).after 3 t) from by
      unfold Dat.leavesExact; rw [liveAt4_3 t], after4_3]
  rw [outsAt4_A V c t]
  unfold out4_A_3; (try dsimp only)
  iintro ⟨⟨⟨⟨⟨%ds0, HS0⟩, ⟨%ds1, HS1⟩⟩, Hrest⟩, Hg⟩, Ho, ⟨%d0, H0⟩, ⟨%d1, H1⟩, ⟨%d2, H2⟩, ⟨%d3, H3⟩⟩
  iapply ((kernelRun4_A c (grid4.coords t) _ _ _ _ _ _ _ _ _ _ _ _ (hcond4_0 t) (hcond4_1 t) (iblk4 V c 0 t) (iblk4 V c 1 t) (iblk4 V c 2 t)).2.2.2 Set.univ _)
  isplitl [H0]; · iexact H0
  isplitl [H1]; · iexact H1
  isplitl [H2]; · iexact H2
  isplitl [H3]; · iexists _; iexact H3
  isplitl [HS0]; · iexists _; iexact HS0
  isplitl [HS1]; · iexists _; iexact HS1
  iintro ⟨H0, H1, H2, ⟨%e3, H3⟩, ⟨%es0, HS0⟩, ⟨%es1, HS1⟩⟩
  isplitl [HS0 HS1 Hrest Hg]
  · isplitl [HS0 HS1 Hrest]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hrest
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_A_3 c _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the call is the invariant before the first point, -/
theorem hin4 (c : Dev nD) : Pipeline.ΦA spec4 c ⊢ (dat4 V c).Φ 0 := Idealize.SL.BI.Entails.refl _

/-- and the invariant after the last point is what the launch takes back. -/
theorem hout4 (c : Dev nD) : (dat4 V c).Φ (Fin.last cfg4.N) ⊢ Pipeline.ΦA spec4 c := Idealize.SL.BI.Entails.refl _

end Region

end Cert.KernelIdeal.Hand

end
-- ==== Proof.KI.Halves.lean ====
/-
  The five pallas_calls' halves gathered: each call's proof data, body obligation and invariant ends, as the
  record the run takes.
-/
import proofs.«430285_j43310450213294_2_alg».proof.Proof.KI.Whole
import proofs.«430285_j43310450213294_2_alg».proof.Proof.KI.Region0
import proofs.«430285_j43310450213294_2_alg».proof.Proof.KI.Region1
import proofs.«430285_j43310450213294_2_alg».proof.Proof.KI.Region2
import proofs.«430285_j43310450213294_2_alg».proof.Proof.KI.Region3
import proofs.«430285_j43310450213294_2_alg».proof.Proof.KI.Region4

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F] [Named F]

/-- Pallas_call 0's half. -/
def half0 : Half F cfg0 where
  dat := dat0
  hA := A_eq0
  hq := fun _ _ _ => rfl
  howed := fun _ _ _ => rfl
  hrec := fun _ _ _ => rfl
  hbody := body_obligation0
  hin := hin0
  hout := hout0

/-- Pallas_call 1's half. -/
def half1 : Half F cfg1 where
  dat := dat1
  hA := A_eq1
  hq := fun _ _ _ => rfl
  howed := fun _ _ _ => rfl
  hrec := fun _ _ _ => rfl
  hbody := body_obligation1
  hin := hin1
  hout := hout1

/-- Pallas_call 2's half. -/
def half2 : Half F cfg2 where
  dat := dat2
  hA := A_eq2
  hq := fun _ _ _ => rfl
  howed := fun _ _ _ => rfl
  hrec := fun _ _ _ => rfl
  hbody := body_obligation2
  hin := hin2
  hout := hout2

/-- Pallas_call 3's half. -/
def half3 : Half F cfg3 where
  dat := dat3
  hA := A_eq3
  hq := fun _ _ _ => rfl
  howed := fun _ _ _ => rfl
  hrec := fun _ _ _ => rfl
  hbody := body_obligation3
  hin := hin3
  hout := hout3

/-- Pallas_call 4's half. -/
def half4 : Half F cfg4 where
  dat := dat4
  hA := A_eq4
  hq := fun _ _ _ => rfl
  howed := fun _ _ _ => rfl
  hrec := fun _ _ _ => rfl
  hbody := body_obligation4
  hin := hin4
  hout := hout4

variable (m : (ℓ : Loc nD τ sig) → Buf (Elt F) ℓ) (ρ : Dev nD → PrngReg)

/-- What the five pallas_calls leave in their output arrays, as the valuations between @main's items read it. -/
abbrev outsAll : Outs (F := F) := outs m half0 half1 half2 half3 half4

/-- The program's run with the result named. -/
theorem runResult : θ_run defs (onTc (τ := τ) (main (F := F))) ⟨m, fun _ => 0, ρ⟩ (fun r => ∀ c : Dev nD,
      r.2.mem ((c.tc : Thread nD τ).loc main_v35) = V11 m (outsAll m) c main_v35
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_result m ρ (half0 (F := F)) half1 half2 half3 half4

/-- The program's frame. -/
theorem frameAll : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame m ρ (half0 (F := F)) half1 half2 half3 half4

end Cert.KernelIdeal.Hand

end
-- ==== Proof.Ref.Run0.lean ====
import proofs.«430285_j43310450213294_2_alg».proof.Proof.Gen.ReferenceIdeal
import Idealize.ShloMosaic.Lib.StableHlo.Run
import Idealize.ShloMosaic.Lib.Pipeline.Regions
import proofs.«430285_j43310450213294_2_alg».proof.Proof.Ref.ReadP

/-! Window 0 of the reference program (`main_part0`), read as three consecutive stretches of host operations.
`ops0a` gathers the two feature maps at the sampled locations, normalises every gathered column, and forms the positive
logit (the inner product of each column of the first map with the same column of the second, as a column: `main_v36`) and the
negative logits (the matrix of inner products of the first map's columns with the second's, its diagonal set to −∞: `main_v35`). `ops0b` joins the two, divides by the temperature, takes the log-softmax along the joined
axis and averages minus its first column over the 4 × 64 samples: this layer's loss, `main_v45`. `ops0t` is the short
rest of the window: the running total, then the first operations of the next layer that still stand in this window (in
the last window, the division of the total by the number of layers).
The window is the sequence of the three stretches; and after a stretch a buffer it writes holds the stage function
`val_…` of what the stretch found in the buffers it reads, while every buffer it does not write keeps its contents. -/

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A reference of the list `W`, as the one buffer an operation writes, lies in `W`'s buffers. -/
theorem part0_wr {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The first stretch: from the inputs to the two operands of the concatenation -/

set_option maxHeartbeats 4000000 in
set_option maxRecDepth 8192 in
/-- Operations 1 … 57 of the program, in order. -/
def ops0a : List (HloOp τ sig (Elt F)) :=
  [ reshape main_arg0 main_v0 rfl shapeCasts_S4x32x32x64x64_S4x32x131072,
    nullary main_c (constantI S_ 32 0#32),
    unary main_c main_v1 (broadcastInDim S64 ![] bcast_S_S64 : (⟨S_, .i32⟩ : BufTy).Contents (Elt F) → (⟨S64, .i32⟩ : BufTy).Contents (Elt F)),
    binary main_arg10 main_v1 main_v2 (cmpi .slt : (⟨S64, .i32⟩ : BufTy).Contents (Elt F) → (⟨S64, .i32⟩ : BufTy).Contents (Elt F) → (⟨S64, .i1⟩ : BufTy).Contents (Elt F)),
    nullary main_c_0 (constantI S_ 32 131072#32),
    unary main_c_0 main_v3 (broadcastInDim S64 ![] bcast_S_S64 : (⟨S_, .i32⟩ : BufTy).Contents (Elt F) → (⟨S64, .i32⟩ : BufTy).Contents (Elt F)),
    binary main_arg10 main_v3 main_v4 (addi : (⟨S64, .i32⟩ : BufTy).Contents (Elt F) → (⟨S64, .i32⟩ : BufTy).Contents (Elt F) → (⟨S64, .i32⟩ : BufTy).Contents (Elt F)),
    ternary main_v2 main_v4 main_arg10 main_v5 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v5 main_v6 (broadcastInDim S64x1 ![0] bcast_S64_S64x1_0 : (⟨S64, .i32⟩ : BufTy).Contents (Elt F) → (⟨S64x1, .i32⟩ : BufTy).Contents (Elt F)),
    binary main_v0 main_v6 main_v7 ((fun x i => Host.gather gather_S4x32x131072_S64x1_S4x32x64_01_2_n_n_2_1_4321 x i) : (⟨S4x32x131072, .f32⟩ : BufTy).Contents (Elt F) → (⟨S64x1, .i32⟩ : BufTy).Contents (Elt F) → (⟨S4x32x64, .f32⟩ : BufTy).Contents (Elt F)),
    reshape main_arg5 main_v8 rfl shapeCasts_S4x32x32x64x64_S4x32x131072,
    nullary main_c_1 (constantI S_ 32 0#32),
    unary main_c_1 main_v9 (broadcastInDim S64 ![] bcast_S_S64 : (⟨S_, .i32⟩ : BufTy).Contents (Elt F) → (⟨S64, .i32⟩ : BufTy).Contents (Elt F)),
    binary main_arg10 main_v9 main_v10 (cmpi .slt : (⟨S64, .i32⟩ : BufTy).Contents (Elt F) → (⟨S64, .i32⟩ : BufTy).Contents (Elt F) → (⟨S64, .i1⟩ : BufTy).Contents (Elt F)),
    nullary main_c_2 (constantI S_ 32 131072#32),
    unary main_c_2 main_v11 (broadcastInDim S64 ![] bcast_S_S64 : (⟨S_, .i32⟩ : BufTy).Contents (Elt F) → (⟨S64, .i32⟩ : BufTy).Contents (Elt F)),
    binary main_arg10 main_v11 main_v12 (addi : (⟨S64, .i32⟩ : BufTy).Contents (Elt F) → (⟨S64, .i32⟩ : BufTy).Contents (Elt F) → (⟨S64, .i32⟩ : BufTy).Contents (Elt F)),
    ternary main_v10 main_v12 main_arg10 main_v13 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v13 main_v14 (broadcastInDim S64x1 ![0] bcast_S64_S64x1_0 : (⟨S64, .i32⟩ : BufTy).Contents (Elt F) → (⟨S64x1, .i32⟩ : BufTy).Contents (Elt F)),
    binary main_v8 main_v14 main_v15 ((fun x i => Host.gather gather_S4x32x131072_S64x1_S4x32x64_01_2_n_n_2_1_4321 x i) : (⟨S4x32x131072, .f32⟩ : BufTy).Contents (Elt F) → (⟨S64x1, .i32⟩ : BufTy).Contents (Elt F) → (⟨S4x32x64, .f32⟩ : BufTy).Contents (Elt F)),
    TRef.binary (TRef.of (T := ⟨S4x32x64, .f32⟩) main_v7) (TRef.of (T := ⟨S4x32x64, .f32⟩) main_v7) (TRef.of (T := ⟨S4x32x64, .f32⟩) main_call0_v0) mulf,
    TRef.nullary (TRef.of (T := ⟨S_, .f32⟩) main_call0_cst) (constant S_ .f32 0x00000000#32),
    TRef.binary (TRef.of (T := ⟨S4x32x64, .f32⟩) main_call0_v0) (TRef.of (T := ⟨S_, .f32⟩) main_call0_cst) (TRef.of (T := ⟨S4x64, .f32⟩) main_call0_v1) (fun x v => Host.reduceAdd x v reducesTo_S4x32x64_S4x64_d1 h_S_),
    TRef.unary (TRef.of (T := ⟨S4x64, .f32⟩) main_call0_v1) (TRef.of (T := ⟨S4x1x64, .f32⟩) main_call0_v2) (broadcastInDim S4x1x64 ![0, 2] bcast_S4x64_S4x1x64_0_2),
    TRef.unary (TRef.of (T := ⟨S4x1x64, .f32⟩) main_call0_v2) (TRef.of (T := ⟨S4x1x64, .f32⟩) main_v16) Host.sqrt,
    nullary main_cst (constant S_ .f32 0x2B8CBCCC#32),
    unary main_cst main_v17 (broadcastInDim S4x1x64 ![] bcast_S_S4x1x64 : (⟨S_, .f32⟩ : BufTy).Contents (Elt F) → (⟨S4x1x64, .f32⟩ : BufTy).Contents (Elt F)),
    binary main_v16 main_v17 main_v18 (maximumf : (⟨S4x1x64, .f32⟩ : BufTy).Contents (Elt F) → (⟨S4x1x64, .f32⟩ : BufTy).Contents (Elt F) → (⟨S4x1x64, .f32⟩ : BufTy).Contents (Elt F)),
    unary main_v18 main_v19 (broadcastInDim S4x32x64 ![0, 1, 2] bcast_S4x1x64_S4x32x64_0_1_2 : (⟨S4x1x64, .f32⟩ : BufTy).Contents (Elt F) → (⟨S4x32x64, .f32⟩ : BufTy).Contents (Elt F)),
    binary main_v7 main_v19 main_v20 (Host.divf : (⟨S4x32x64, .f32⟩ : BufTy).Contents (Elt F) → (⟨S4x32x64, .f32⟩ : BufTy).Contents (Elt F) → (⟨S4x32x64, .f32⟩ : BufTy).Contents (Elt F)),
    TRef.binary (TRef.of (T := ⟨S4x32x64, .f32⟩) main_v15) (TRef.of (T := ⟨S4x32x64, .f32⟩) main_v15) (TRef.of (T := ⟨S4x32x64, .f32⟩) main_call1_v0) mulf,
    TRef.nullary (TRef.of (T := ⟨S_, .f32⟩) main_call1_cst) (constant S_ .f32 0x00000000#32),
    TRef.binary (TRef.of (T := ⟨S4x32x64, .f32⟩) main_call1_v0) (TRef.of (T := ⟨S_, .f32⟩) main_call1_cst) (TRef.of (T := ⟨S4x64, .f32⟩) main_call1_v1) (fun x v => Host.reduceAdd x v reducesTo_S4x32x64_S4x64_d1 h_S_),
    TRef.unary (TRef.of (T := ⟨S4x64, .f32⟩) main_call1_v1) (TRef.of (T := ⟨S4x1x64, .f32⟩) main_call1_v2) (broadcastInDim S4x1x64 ![0, 2] bcast_S4x64_S4x1x64_0_2),
    TRef.unary (TRef.of (T := ⟨S4x1x64, .f32⟩) main_call1_v2) (TRef.of (T := ⟨S4x1x64, .f32⟩) main_v21) Host.sqrt,
    nullary main_cst_3 (constant S_ .f32 0x2B8CBCCC#32),
    unary main_cst_3 main_v22 (broadcastInDim S4x1x64 ![] bcast_S_S4x1x64 : (⟨S_, .f32⟩ : BufTy).Contents (Elt F) → (⟨S4x1x64, .f32⟩ : BufTy).Contents (Elt F)),
    binary main_v21 main_v22 main_v23 (maximumf : (⟨S4x1x64, .f32⟩ : BufTy).Contents (Elt F) → (⟨S4x1x64, .f32⟩ : BufTy).Contents (Elt F) → (⟨S4x1x64, .f32⟩ : BufTy).Contents (Elt F)),
    unary main_v23 main_v24 (broadcastInDim S4x32x64 ![0, 1, 2] bcast_S4x1x64_S4x32x64_0_1_2 : (⟨S4x1x64, .f32⟩ : BufTy).Contents (Elt F) → (⟨S4x32x64, .f32⟩ : BufTy).Contents (Elt F)),
    binary main_v15 main_v24 main_v25 (Host.divf : (⟨S4x32x64, .f32⟩ : BufTy).Contents (Elt F) → (⟨S4x32x64, .f32⟩ : BufTy).Contents (Elt F) → (⟨S4x32x64, .f32⟩ : BufTy).Contents (Elt F)),
    binary main_v20 main_v25 main_v26 (mulf : (⟨S4x32x64, .f32⟩ : BufTy).Contents (Elt F) → (⟨S4x32x64, .f32⟩ : BufTy).Contents (Elt F) → (⟨S4x32x64, .f32⟩ : BufTy).Contents (Elt F)),
    nullary main_cst_4 (constant S_ .f32 0x00000000#32),
    binary main_v26 main_cst_4 main_v27 ((fun x v => Host.reduceAdd x v reducesTo_S4x32x64_S4x64_d1 h_S_) : (⟨S4x32x64, .f32⟩ : BufTy).Contents (Elt F) → (⟨S_, .f32⟩ : BufTy).Contents (Elt F) → (⟨S4x64, .f32⟩ : BufTy).Contents (Elt F)),
    binary main_v20 main_v25 main_v28 ((fun l r => Host.dotGeneral dot_S4x32x64_S4x32x64_S4x64x64_1_1_2_2_0_0 none l r) : (⟨S4x32x64, .f32⟩ : BufTy).Contents (Elt F) → (⟨S4x32x64, .f32⟩ : BufTy).Contents (Elt F) → (⟨S4x64x64, .f32⟩ : BufTy).Contents (Elt F)),
    nullary main_v29 (iotaInDim S64x64 32 0),
    nullary main_v30 (iotaInDim S64x64 32 1),
    nullary main_c_5 (constantI S_ 32 0#32),
    unary main_c_5 main_v31 (broadcastInDim S64x64 ![] bcast_S_S64x64 : (⟨S_, .i32⟩ : BufTy).Contents (Elt F) → (⟨S64x64, .i32⟩ : BufTy).Contents (Elt F)),
    binary main_v29 main_v31 main_v32 (addi : (⟨S64x64, .i32⟩ : BufTy).Contents (Elt F) → (⟨S64x64, .i32⟩ : BufTy).Contents (Elt F) → (⟨S64x64, .i32⟩ : BufTy).Contents (Elt F)),
    binary main_v32 main_v30 main_v33 (cmpi .eq : (⟨S64x64, .i32⟩ : BufTy).Contents (Elt F) → (⟨S64x64, .i32⟩ : BufTy).Contents (Elt F) → (⟨S64x64, .i1⟩ : BufTy).Contents (Elt F)),
    unary main_v33 main_v34 (broadcastInDim S1x64x64 ![1, 2] bcast_S64x64_S1x64x64_1_2 : (⟨S64x64, .i1⟩ : BufTy).Contents (Elt F) → (⟨S1x64x64, .i1⟩ : BufTy).Contents (Elt F)),
    nullary main_cst_6 (constant S_ .f32 0xFF800000#32),
    TRef.unary (TRef.of (T := ⟨S_, .f32⟩) main_cst_6) (TRef.of (T := ⟨S_, .f32⟩) main_call2_v0) id,
    TRef.unary (TRef.of (T := ⟨S1x64x64, .i1⟩) main_v34) (TRef.of (T := ⟨S4x64x64, .i1⟩) main_call2_v1) (broadcastInDim S4x64x64 ![0, 1, 2] bcast_S1x64x64_S4x64x64_0_1_2),
    TRef.unary (TRef.of (T := ⟨S_, .f32⟩) main_call2_v0) (TRef.of (T := ⟨S4x64x64, .f32⟩) main_call2_v2) (broadcastInDim S4x64x64 ![] bcast_S_S4x64x64),
    TRef.ternary (TRef.of (T := ⟨S4x64x64, .i1⟩) main_call2_v1) (TRef.of (T := ⟨S4x64x64, .f32⟩) main_call2_v2) (TRef.of (T := ⟨S4x64x64, .f32⟩) main_v28) (TRef.of (T := ⟨S4x64x64, .f32⟩) main_v35) select,
    unary main_v27 main_v36 (broadcastInDim S4x64x1 ![0, 1] bcast_S4x64_S4x64x1_0_1 : (⟨S4x64, .f32⟩ : BufTy).Contents (Elt F) → (⟨S4x64x1, .f32⟩ : BufTy).Contents (Elt F)) ]

set_option maxRecDepth 8192 in
/-- Every operation of the stretch touches TensorCore buffers only. -/
theorem ops0a_sub : (ops0a : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., unary_bufs_sub .., ternary_bufs_sub .., unary_bufs_sub ..⟩

set_option maxRecDepth 8192 in
/-- Every operation of the stretch determines its result. -/
theorem ops0a_fresh : (ops0a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the stretch writes, in order. -/
abbrev ops0a_W : List (Ref sig .tc) := [main_v0, main_c, main_v1, main_v2, main_c_0, main_v3, main_v4, main_v5, main_v6, main_v7, main_v8, main_c_1, main_v9, main_v10, main_c_2, main_v11, main_v12, main_v13, main_v14, main_v15, main_call0_v0, main_call0_cst, main_call0_v1, main_call0_v2, main_v16, main_cst, main_v17, main_v18, main_v19, main_v20, main_call1_v0, main_call1_cst, main_call1_v1, main_call1_v2, main_v21, main_cst_3, main_v22, main_v23, main_v24, main_v25, main_v26, main_cst_4, main_v27, main_v28, main_v29, main_v30, main_c_5, main_v31, main_v32, main_v33, main_v34, main_cst_6, main_call2_v0, main_call2_v1, main_call2_v2, main_v35, main_v36]

set_option maxRecDepth 8192 in
set_option maxHeartbeats 4000000 in
theorem ops0a_writes : (ops0a : List (HloOp τ sig (Elt F))).Forall fun op =>
    op.writes ⊆ (ops0a_W.map (Proc.devRef (τ := τ) .tc)).toFinset :=
  ⟨part0_wr main_v0 (by decide), part0_wr main_c (by decide), part0_wr main_v1 (by decide), part0_wr main_v2 (by decide), part0_wr main_c_0 (by decide), part0_wr main_v3 (by decide), part0_wr main_v4 (by decide), part0_wr main_v5 (by decide), part0_wr main_v6 (by decide), part0_wr main_v7 (by decide), part0_wr main_v8 (by decide), part0_wr main_c_1 (by decide), part0_wr main_v9 (by decide), part0_wr main_v10 (by decide), part0_wr main_c_2 (by decide), part0_wr main_v11 (by decide), part0_wr main_v12 (by decide), part0_wr main_v13 (by decide), part0_wr main_v14 (by decide), part0_wr main_v15 (by decide), part0_wr main_call0_v0 (by decide), part0_wr main_call0_cst (by decide), part0_wr main_call0_v1 (by decide), part0_wr main_call0_v2 (by decide), part0_wr main_v16 (by decide), part0_wr main_cst (by decide), part0_wr main_v17 (by decide), part0_wr main_v18 (by decide), part0_wr main_v19 (by decide), part0_wr main_v20 (by decide), part0_wr main_call1_v0 (by decide), part0_wr main_call1_cst (by decide), part0_wr main_call1_v1 (by decide), part0_wr main_call1_v2 (by decide), part0_wr main_v21 (by decide), part0_wr main_cst_3 (by decide), part0_wr main_v22 (by decide), part0_wr main_v23 (by decide), part0_wr main_v24 (by decide), part0_wr main_v25 (by decide), part0_wr main_v26 (by decide), part0_wr main_cst_4 (by decide), part0_wr main_v27 (by decide), part0_wr main_v28 (by decide), part0_wr main_v29 (by decide), part0_wr main_v30 (by decide), part0_wr main_c_5 (by decide), part0_wr main_v31 (by decide), part0_wr main_v32 (by decide), part0_wr main_v33 (by decide), part0_wr main_v34 (by decide), part0_wr main_cst_6 (by decide), part0_wr main_call2_v0 (by decide), part0_wr main_call2_v1 (by decide), part0_wr main_call2_v2 (by decide), part0_wr main_v35 (by decide), part0_wr main_v36 (by decide)⟩

/-- A buffer the stretch does not write keeps its contents through it. -/
theorem ops0a_keep (V : Valuation τ sig (Elt F)) (r : Ref sig .tc) (h : r ∉ ops0a_W) :
    after ops0a V (Proc.devRef .tc r) = V (Proc.devRef .tc r) :=
  after_of_writes_sub ops0a V ops0a_writes h

/-! ## The second stretch: from the concatenation to the layer's loss -/

set_option maxHeartbeats 4000000 in
set_option maxRecDepth 8192 in
/-- Operations 58 … 83 of the program, in order. -/
def ops0b : List (HloOp τ sig (Elt F)) :=
  [ binary main_v36 main_v35 main_v37 ((fun a b => concatenate S4x64x65 2 [⟨S4x64x1, a⟩, ⟨S4x64x64, b⟩] concatenates_S4x64x1_S4x64x64_S4x64x65_d2) : (⟨S4x64x1, .f32⟩ : BufTy).Contents (Elt F) → (⟨S4x64x64, .f32⟩ : BufTy).Contents (Elt F) → (⟨S4x64x65, .f32⟩ : BufTy).Contents (Elt F)),
    nullary main_cst_7 (constant S_ .f32 0x3D8F5C29#32),
    unary main_cst_7 main_v38 (broadcastInDim S4x64x65 ![] bcast_S_S4x64x65 : (⟨S_, .f32⟩ : BufTy).Contents (Elt F) → (⟨S4x64x65, .f32⟩ : BufTy).Contents (Elt F)),
    binary main_v37 main_v38 main_v39 (Host.divf : (⟨S4x64x65, .f32⟩ : BufTy).Contents (Elt F) → (⟨S4x64x65, .f32⟩ : BufTy).Contents (Elt F) → (⟨S4x64x65, .f32⟩ : BufTy).Contents (Elt F)),
    TRef.nullary (TRef.of (T := ⟨S_, .f32⟩) main_call3_cst) (constant S_ .f32 0xFF800000#32),
    TRef.binary (TRef.of (T := ⟨S4x64x65, .f32⟩) main_v39) (TRef.of (T := ⟨S_, .f32⟩) main_call3_cst) (TRef.of (T := ⟨S4x64, .f32⟩) main_call3_v0) (fun x v => Host.reduce FloatOps.maximumf x v reducesTo_S4x64x65_S4x64_d2 h_S_),
    TRef.nullary (TRef.of (T := ⟨S_, .f32⟩) main_call3_cst_0) (constant S_ .f32 0xFF800000#32),
    TRef.unary (TRef.of (T := ⟨S_, .f32⟩) main_call3_cst_0) (TRef.of (T := ⟨S4x64, .f32⟩) main_call3_v1) (broadcastInDim S4x64 ![] bcast_S_S4x64),
    TRef.binary (TRef.of (T := ⟨S4x64, .f32⟩) main_call3_v1) (TRef.of (T := ⟨S4x64, .f32⟩) main_call3_v0) (TRef.of (T := ⟨S4x64, .f32⟩) main_call3_v2) maximumf,
    TRef.unary (TRef.of (T := ⟨S4x64, .f32⟩) main_call3_v2) (TRef.of (T := ⟨S4x64x1, .f32⟩) main_call3_v3) (broadcastInDim S4x64x1 ![0, 1] bcast_S4x64_S4x64x1_0_1),
    TRef.unary (TRef.of (T := ⟨S4x64x1, .f32⟩) main_call3_v3) (TRef.of (T := ⟨S4x64x65, .f32⟩) main_call3_v4) (broadcastInDim S4x64x65 ![0, 1, 2] bcast_S4x64x1_S4x64x65_0_1_2),
    TRef.binary (TRef.of (T := ⟨S4x64x65, .f32⟩) main_v39) (TRef.of (T := ⟨S4x64x65, .f32⟩) main_call3_v4) (TRef.of (T := ⟨S4x64x65, .f32⟩) main_call3_v5) subf,
    TRef.unary (TRef.of (T := ⟨S4x64x65, .f32⟩) main_call3_v5) (TRef.of (T := ⟨S4x64x65, .f32⟩) main_call3_v6) Host.exp,
    TRef.nullary (TRef.of (T := ⟨S_, .f32⟩) main_call3_cst_1) (constant S_ .f32 0x00000000#32),
    TRef.binary (TRef.of (T := ⟨S4x64x65, .f32⟩) main_call3_v6) (TRef.of (T := ⟨S_, .f32⟩) main_call3_cst_1) (TRef.of (T := ⟨S4x64, .f32⟩) main_call3_v7) (fun x v => Host.reduceAdd x v reducesTo_S4x64x65_S4x64_d2 h_S_),
    TRef.unary (TRef.of (T := ⟨S4x64, .f32⟩) main_call3_v7) (TRef.of (T := ⟨S4x64x1, .f32⟩) main_call3_v8) (broadcastInDim S4x64x1 ![0, 1] bcast_S4x64_S4x64x1_0_1),
    TRef.unary (TRef.of (T := ⟨S4x64x1, .f32⟩) main_call3_v8) (TRef.of (T := ⟨S4x64x1, .f32⟩) main_call3_v9) Host.log,
    TRef.unary (TRef.of (T := ⟨S4x64x1, .f32⟩) main_call3_v9) (TRef.of (T := ⟨S4x64x65, .f32⟩) main_call3_v10) (broadcastInDim S4x64x65 ![0, 1, 2] bcast_S4x64x1_S4x64x65_0_1_2),
    TRef.binary (TRef.of (T := ⟨S4x64x65, .f32⟩) main_call3_v5) (TRef.of (T := ⟨S4x64x65, .f32⟩) main_call3_v10) (TRef.of (T := ⟨S4x64x65, .f32⟩) main_v40) subf,
    unary main_v40 main_v41 ((extractStridedSlice S4x64x1 ![0, 0, 0] · slices_S4x64x65_S4x64x1_0_0_0) : (⟨S4x64x65, .f32⟩ : BufTy).Contents (Elt F) → (⟨S4x64x1, .f32⟩ : BufTy).Contents (Elt F)),
    reshape main_v41 main_v42 rfl shapeCasts_S4x64x1_S4x64,
    unary main_v42 main_v43 (Host.negf : (⟨S4x64, .f32⟩ : BufTy).Contents (Elt F) → (⟨S4x64, .f32⟩ : BufTy).Contents (Elt F)),
    nullary main_cst_8 (constant S_ .f32 0x00000000#32),
    binary main_v43 main_cst_8 main_v44 ((fun x v => Host.reduceAdd x v reducesTo_S4x64_S_d0_1 h_S_) : (⟨S4x64, .f32⟩ : BufTy).Contents (Elt F) → (⟨S_, .f32⟩ : BufTy).Contents (Elt F) → (⟨S_, .f32⟩ : BufTy).Contents (Elt F)),
    nullary main_cst_9 (constant S_ .f32 0x43800000#32),
    binary main_v44 main_cst_9 main_v45 (Host.divf : (⟨S_, .f32⟩ : BufTy).Contents (Elt F) → (⟨S_, .f32⟩ : BufTy).Contents (Elt F) → (⟨S_, .f32⟩ : BufTy).Contents (Elt F)) ]

set_option maxRecDepth 8192 in
theorem ops0b_sub : (ops0b : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., binary_bufs_sub .., nullary_bufs_sub .., binary_bufs_sub ..⟩

set_option maxRecDepth 8192 in
theorem ops0b_fresh : (ops0b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The buffers the stretch writes, in order. -/
abbrev ops0b_W : List (Ref sig .tc) := [main_v37, main_cst_7, main_v38, main_v39, main_call3_cst, main_call3_v0, main_call3_cst_0, main_call3_v1, main_call3_v2, main_call3_v3, main_call3_v4, main_call3_v5, main_call3_v6, main_call3_cst_1, main_call3_v7, main_call3_v8, main_call3_v9, main_call3_v10, main_v40, main_v41, main_v42, main_v43, main_cst_8, main_v44, main_cst_9, main_v45]

set_option maxRecDepth 8192 in
set_option maxHeartbeats 4000000 in
theorem ops0b_writes : (ops0b : List (HloOp τ sig (Elt F))).Forall fun op =>
    op.writes ⊆ (ops0b_W.map (Proc.devRef (τ := τ) .tc)).toFinset :=
  ⟨part0_wr main_v37 (by decide), part0_wr main_cst_7 (by decide), part0_wr main_v38 (by decide), part0_wr main_v39 (by decide), part0_wr main_call3_cst (by decide), part0_wr main_call3_v0 (by decide), part0_wr main_call3_cst_0 (by decide), part0_wr main_call3_v1 (by decide), part0_wr main_call3_v2 (by decide), part0_wr main_call3_v3 (by decide), part0_wr main_call3_v4 (by decide), part0_wr main_call3_v5 (by decide), part0_wr main_call3_v6 (by decide), part0_wr main_call3_cst_1 (by decide), part0_wr main_call3_v7 (by decide), part0_wr main_call3_v8 (by decide), part0_wr main_call3_v9 (by decide), part0_wr main_call3_v10 (by decide), part0_wr main_v40 (by decide), part0_wr main_v41 (by decide), part0_wr main_v42 (by decide), part0_wr main_v43 (by decide), part0_wr main_cst_8 (by decide), part0_wr main_v44 (by decide), part0_wr main_cst_9 (by decide), part0_wr main_v45 (by decide)⟩

theorem ops0b_keep (V : Valuation τ sig (Elt F)) (r : Ref sig .tc) (h : r ∉ ops0b_W) :
    after ops0b V (Proc.devRef .tc r) = V (Proc.devRef .tc r) :=
  after_of_writes_sub ops0b V ops0b_writes h

/-! ## The rest of the window -/

/-- Operations 84 … 85 of the program, in order. -/
def ops0t : List (HloOp τ sig (Elt F)) :=
  [ nullary main_cst_10 (constant S_ .f32 0x00000000#32),
    binary main_cst_10 main_v45 main_v46 (addf : (⟨S_, .f32⟩ : BufTy).Contents (Elt F) → (⟨S_, .f32⟩ : BufTy).Contents (Elt F) → (⟨S_, .f32⟩ : BufTy).Contents (Elt F)) ]

theorem ops0t_sub : (ops0t : List (HloOp τ sig (Elt F))).Forall fun op => op.bufs ⊆ tcRefs τ sig :=
  ⟨nullary_bufs_sub .., binary_bufs_sub ..⟩

theorem ops0t_fresh : (ops0t : List (HloOp τ sig (Elt F))).Forall fun op => op.fresh = ∅ :=
  ⟨rfl, rfl⟩

/-- The buffers the stretch writes, in order. -/
abbrev ops0t_W : List (Ref sig .tc) := [main_cst_10, main_v46]

theorem ops0t_writes : (ops0t : List (HloOp τ sig (Elt F))).Forall fun op =>
    op.writes ⊆ (ops0t_W.map (Proc.devRef (τ := τ) .tc)).toFinset :=
  ⟨part0_wr main_cst_10 (by decide), part0_wr main_v46 (by decide)⟩

theorem ops0t_keep (V : Valuation τ sig (Elt F)) (r : Ref sig .tc) (h : r ∉ ops0t_W) :
    after ops0t V (Proc.devRef .tc r) = V (Proc.devRef .tc r) :=
  after_of_writes_sub ops0t V ops0t_writes h

/-! ## The window is the three stretches in order -/

set_option maxRecDepth 8192 in
set_option maxHeartbeats 4000000 in
/-- Unfolding the window's statements — a called function's body standing in its call's place — gives the three lists'
    operations one after the other. -/
theorem main_part0_eq (c : Dev nD) :
    main_part0 (F := F) c = seq (ops0a ++ (ops0b ++ ops0t)) := by chain_rfl

/-- A buffer none of the three stretches writes keeps its contents through the window. -/
theorem part0_keep (V : Valuation τ sig (Elt F)) (r : Ref sig .tc)
    (ha : r ∉ ops0a_W) (hb : r ∉ ops0b_W) (ht : r ∉ ops0t_W) :
    after ops0t (after ops0b (after ops0a V)) (Proc.devRef .tc r) = V (Proc.devRef .tc r) := by
  rw [ops0t_keep _ r ht, ops0b_keep _ r hb, ops0a_keep _ r ha]

/-! ## What the stretches compute -/

set_option maxRecDepth 8192 in
set_option maxHeartbeats 4000000 in
/-- After the first stretch the positive logit's column is its stage function of the two feature maps and the sampled
    locations: each operation's result read at its own buffer, an earlier one's through the operations after it. -/
theorem ops0a_pos (V : Valuation τ sig (Elt F)) (xq xk : (⟨S4x32x32x64x64, .f32⟩ : BufTy).Contents (Elt F))
    (xi : (⟨S64, .i32⟩ : BufTy).Contents (Elt F))
    (hq : V (Proc.devRef .tc main_arg0) = xq) (hk : V (Proc.devRef .tc main_arg5) = xk) (hi : V (Proc.devRef .tc main_arg10) = xi) :
    after ops0a V (Proc.devRef .tc main_v36) = val_main_v36 (F := F) xq xk xi := by
  simp only [ops0a]
  after_results_simp
  simp only [*]
  simp only [TRef.ofBuf, TRef.toBuf, cast_eq]
  rfl

set_option maxRecDepth 8192 in
set_option maxHeartbeats 4000000 in
/-- After the first stretch the masked negative logits are their stage function of the same. -/
theorem ops0a_neg (V : Valuation τ sig (Elt F)) (xq xk : (⟨S4x32x32x64x64, .f32⟩ : BufTy).Contents (Elt F))
    (xi : (⟨S64, .i32⟩ : BufTy).Contents (Elt F))
    (hq : V (Proc.devRef .tc main_arg0) = xq) (hk : V (Proc.devRef .tc main_arg5) = xk) (hi : V (Proc.devRef .tc main_arg10) = xi) :
    after ops0a V (Proc.devRef .tc main_v35) = val_main_v35 (F := F) xq xk xi := by
  simp only [ops0a]
  after_results_simp
  simp only [*]
  simp only [TRef.ofBuf, TRef.toBuf, cast_eq]
  rfl

set_option maxRecDepth 8192 in
set_option maxHeartbeats 4000000 in
/-- The second stretch, run from contents whose two operands of the concatenation are the stage functions, leaves the
    layer's loss at its stage function. -/
theorem ops0b_loss (V : Valuation τ sig (Elt F)) (xq xk : (⟨S4x32x32x64x64, .f32⟩ : BufTy).Contents (Elt F))
    (xi : (⟨S64, .i32⟩ : BufTy).Contents (Elt F))
    (hpos : V (Proc.devRef .tc main_v36) = val_main_v36 (F := F) xq xk xi)
    (hneg : V (Proc.devRef .tc main_v35) = val_main_v35 (F := F) xq xk xi) :
    after ops0b V (Proc.devRef .tc main_v45) = val_main_v45 (F := F) xq xk xi := by
  simp only [ops0b]
  after_results_simp
  rw [hpos, hneg]
  simp only [TRef.ofBuf, TRef.toBuf, cast_eq]
  rfl

/-- The first two stretches in order: the layer's loss from the contents the window starts from. -/
theorem part0_loss (V : Valuation τ sig (Elt F)) (xq xk : (⟨S4x32x32x64x64, .f32⟩ : BufTy).Contents (Elt F))
    (xi : (⟨S64, .i32⟩ : BufTy).Contents (Elt F))
    (hq : V (Proc.devRef .tc main_arg0) = xq) (hk : V (Proc.devRef .tc main_arg5) = xk) (hi : V (Proc.devRef .tc main_arg10) = xi) :
    after ops0b (after ops0a V) (Proc.devRef .tc main_v45) = val_main_v45 (F := F) xq xk xi :=
  ops0b_loss _ xq xk xi (ops0a_pos V xq xk xi hq hk hi) (ops0a_neg V xq xk xi hq hk hi)

end Cert.ReferenceIdeal.HandRun

end
-- ==== Proof.Ref.Run1.lean ====
import proofs.«430285_j43310450213294_2_alg».proof.Proof.Gen.ReferenceIdeal
import Idealize.ShloMosaic.Lib.StableHlo.Run
import Idealize.ShloMosaic.Lib.Pipeline.Regions
import proofs.«430285_j43310450213294_2_alg».proof.Proof.Ref.ReadP

/-! Window 1 of the reference program (`main_part1`), read as three consecutive stretches of host operations.
`ops1a` gathers the two feature maps at the sampled locations, normalises every gathered column, and forms the positive
logit (the inner product of each column of the first map with the same column of the second, as a column: `main_v83`) and the
negative logits (the matrix of inner products of the first map's columns with the second's, its diagonal set to −∞: `main_v82`). `ops1b` joins the two, divides by the temperature, takes the log-softmax along the joined
axis and averages minus its first column over the 4 × 64 samples: this layer's loss, `main_v92`. `ops1t` is the short
rest of the window: the running total, then the first operations of the next layer that still stand in this window (in
the last window, the division of the total by the number of layers).
The window is the sequence of the three stretches; and after a stretch a buffer it writes holds the stage function
`val_…` of what the stretch found in the buffers it reads, while every buffer it does not write keeps its contents. -/

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A reference of the list `W`, as the one buffer an operation writes, lies in `W`'s buffers. -/
theorem part1_wr {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The first stretch: from the inputs to the two operands of the concatenation -/

set_option maxHeartbeats 4000000 in
set_option maxRecDepth 8192 in
/-- Operations 86 … 142 of the program, in order. -/
def ops1a : List (HloOp τ sig (Elt F)) :=
  [ reshape main_arg1 main_v47 rfl shapeCasts_S4x64x16x32x32_S4x64x16384,
    nullary main_c_11 (constantI S_ 32 0#32),
    unary main_c_11 main_v48 (broadcastInDim S64 ![] bcast_S_S64 : (⟨S_, .i32⟩ : BufTy).Contents (Elt F) → (⟨S64, .i32⟩ : BufTy).Contents (Elt F)),
    binary main_arg11 main_v48 main_v49 (cmpi .slt : (⟨S64, .i32⟩ : BufTy).Contents (Elt F) → (⟨S64, .i32⟩ : BufTy).Contents (Elt F) → (⟨S64, .i1⟩ : BufTy).Contents (Elt F)),
    nullary main_c_12 (constantI S_ 32 16384#32),
    unary main_c_12 main_v50 (broadcastInDim S64 ![] bcast_S_S64 : (⟨S_, .i32⟩ : BufTy).Contents (Elt F) → (⟨S64, .i32⟩ : BufTy).Contents (Elt F)),
    binary main_arg11 main_v50 main_v51 (addi : (⟨S64, .i32⟩ : BufTy).Contents (Elt F) → (⟨S64, .i32⟩ : BufTy).Contents (Elt F) → (⟨S64, .i32⟩ : BufTy).Contents (Elt F)),
    ternary main_v49 main_v51 main_arg11 main_v52 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v52 main_v53 (broadcastInDim S64x1 ![0] bcast_S64_S64x1_0 : (⟨S64, .i32⟩ : BufTy).Contents (Elt F) → (⟨S64x1, .i32⟩ : BufTy).Contents (Elt F)),
    binary main_v47 main_v53 main_v54 ((fun x i => Host.gather gather_S4x64x16384_S64x1_S4x64x64_01_2_n_n_2_1_4641 x i) : (⟨S4x64x16384, .f32⟩ : BufTy).Contents (Elt F) → (⟨S64x1, .i32⟩ : BufTy).Contents (Elt F) → (⟨S4x64x64, .f32⟩ : BufTy).Contents (Elt F)),
    reshape main_arg6 main_v55 rfl shapeCasts_S4x64x16x32x32_S4x64x16384,
    nullary main_c_13 (constantI S_ 32 0#32),
    unary main_c_13 main_v56 (broadcastInDim S64 ![] bcast_S_S64 : (⟨S_, .i32⟩ : BufTy).Contents (Elt F) → (⟨S64, .i32⟩ : BufTy).Contents (Elt F)),
    binary main_arg11 main_v56 main_v57 (cmpi .slt : (⟨S64, .i32⟩ : BufTy).Contents (Elt F) → (⟨S64, .i32⟩ : BufTy).Contents (Elt F) → (⟨S64, .i1⟩ : BufTy).Contents (Elt F)),
    nullary main_c_14 (constantI S_ 32 16384#32),
    unary main_c_14 main_v58 (broadcastInDim S64 ![] bcast_S_S64 : (⟨S_, .i32⟩ : BufTy).Contents (Elt F) → (⟨S64, .i32⟩ : BufTy).Contents (Elt F)),
    binary main_arg11 main_v58 main_v59 (addi : (⟨S64, .i32⟩ : BufTy).Contents (Elt F) → (⟨S64, .i32⟩ : BufTy).Contents (Elt F) → (⟨S64, .i32⟩ : BufTy).Contents (Elt F)),
    ternary main_v57 main_v59 main_arg11 main_v60 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v60 main_v61 (broadcastInDim S64x1 ![0] bcast_S64_S64x1_0 : (⟨S64, .i32⟩ : BufTy).Contents (Elt F) → (⟨S64x1, .i32⟩ : BufTy).Contents (Elt F)),
    binary main_v55 main_v61 main_v62 ((fun x i => Host.gather gather_S4x64x16384_S64x1_S4x64x64_01_2_n_n_2_1_4641 x i) : (⟨S4x64x16384, .f32⟩ : BufTy).Contents (Elt F) → (⟨S64x1, .i32⟩ : BufTy).Contents (Elt F) → (⟨S4x64x64, .f32⟩ : BufTy).Contents (Elt F)),
    TRef.binary (TRef.of (T := ⟨S4x64x64, .f32⟩) main_v54) (TRef.of (T := ⟨S4x64x64, .f32⟩) main_v54) (TRef.of (T := ⟨S4x64x64, .f32⟩) main_call4_v0) mulf,
    TRef.nullary (TRef.of (T := ⟨S_, .f32⟩) main_call4_cst) (constant S_ .f32 0x00000000#32),
    TRef.binary (TRef.of (T := ⟨S4x64x64, .f32⟩) main_call4_v0) (TRef.of (T := ⟨S_, .f32⟩) main_call4_cst) (TRef.of (T := ⟨S4x64, .f32⟩) main_call4_v1) (fun x v => Host.reduceAdd x v reducesTo_S4x64x64_S4x64_d1 h_S_),
    TRef.unary (TRef.of (T := ⟨S4x64, .f32⟩) main_call4_v1) (TRef.of (T := ⟨S4x1x64, .f32⟩) main_call4_v2) (broadcastInDim S4x1x64 ![0, 2] bcast_S4x64_S4x1x64_0_2),
    TRef.unary (TRef.of (T := ⟨S4x1x64, .f32⟩) main_call4_v2) (TRef.of (T := ⟨S4x1x64, .f32⟩) main_v63) Host.sqrt,
    nullary main_cst_15 (constant S_ .f32 0x2B8CBCCC#32),
    unary main_cst_15 main_v64 (broadcastInDim S4x1x64 ![] bcast_S_S4x1x64 : (⟨S_, .f32⟩ : BufTy).Contents (Elt F) → (⟨S4x1x64, .f32⟩ : BufTy).Contents (Elt F)),
    binary main_v63 main_v64 main_v65 (maximumf : (⟨S4x1x64, .f32⟩ : BufTy).Contents (Elt F) → (⟨S4x1x64, .f32⟩ : BufTy).Contents (Elt F) → (⟨S4x1x64, .f32⟩ : BufTy).Contents (Elt F)),
    unary main_v65 main_v66 (broadcastInDim S4x64x64 ![0, 1, 2] bcast_S4x1x64_S4x64x64_0_1_2 : (⟨S4x1x64, .f32⟩ : BufTy).Contents (Elt F) → (⟨S4x64x64, .f32⟩ : BufTy).Contents (Elt F)),
    binary main_v54 main_v66 main_v67 (Host.divf : (⟨S4x64x64, .f32⟩ : BufTy).Contents (Elt F) → (⟨S4x64x64, .f32⟩ : BufTy).Contents (Elt F) → (⟨S4x64x64, .f32⟩ : BufTy).Contents (Elt F)),
    TRef.binary (TRef.of (T := ⟨S4x64x64, .f32⟩) main_v62) (TRef.of (T := ⟨S4x64x64, .f32⟩) main_v62) (TRef.of (T := ⟨S4x64x64, .f32⟩) main_call5_v0) mulf,
    TRef.nullary (TRef.of (T := ⟨S_, .f32⟩) main_call5_cst) (constant S_ .f32 0x00000000#32),
    TRef.binary (TRef.of (T := ⟨S4x64x64, .f32⟩) main_call5_v0) (TRef.of (T := ⟨S_, .f32⟩) main_call5_cst) (TRef.of (T := ⟨S4x64, .f32⟩) main_call5_v1) (fun x v => Host.reduceAdd x v reducesTo_S4x64x64_S4x64_d1 h_S_),
    TRef.unary (TRef.of (T := ⟨S4x64, .f32⟩) main_call5_v1) (TRef.of (T := ⟨S4x1x64, .f32⟩) main_call5_v2) (broadcastInDim S4x1x64 ![0, 2] bcast_S4x64_S4x1x64_0_2),
    TRef.unary (TRef.of (T := ⟨S4x1x64, .f32⟩) main_call5_v2) (TRef.of (T := ⟨S4x1x64, .f32⟩) main_v68) Host.sqrt,
    nullary main_cst_16 (constant S_ .f32 0x2B8CBCCC#32),
    unary main_cst_16 main_v69 (broadcastInDim S4x1x64 ![] bcast_S_S4x1x64 : (⟨S_, .f32⟩ : BufTy).Contents (Elt F) → (⟨S4x1x64, .f32⟩ : BufTy).Contents (Elt F)),
    binary main_v68 main_v69 main_v70 (maximumf : (⟨S4x1x64, .f32⟩ : BufTy).Contents (Elt F) → (⟨S4x1x64, .f32⟩ : BufTy).Contents (Elt F) → (⟨S4x1x64, .f32⟩ : BufTy).Contents (Elt F)),
    unary main_v70 main_v71 (broadcastInDim S4x64x64 ![0, 1, 2] bcast_S4x1x64_S4x64x64_0_1_2 : (⟨S4x1x64, .f32⟩ : BufTy).Contents (Elt F) → (⟨S4x64x64, .f32⟩ : BufTy).Contents (Elt F)),
    binary main_v62 main_v71 main_v72 (Host.divf : (⟨S4x64x64, .f32⟩ : BufTy).Contents (Elt F) → (⟨S4x64x64, .f32⟩ : BufTy).Contents (Elt F) → (⟨S4x64x64, .f32⟩ : BufTy).Contents (Elt F)),
    binary main_v67 main_v72 main_v73 (mulf : (⟨S4x64x64, .f32⟩ : BufTy).Contents (Elt F) → (⟨S4x64x64, .f32⟩ : BufTy).Contents (Elt F) → (⟨S4x64x64, .f32⟩ : BufTy).Contents (Elt F)),
    nullary main_cst_17 (constant S_ .f32 0x00000000#32),
    binary main_v73 main_cst_17 main_v74 ((fun x v => Host.reduceAdd x v reducesTo_S4x64x64_S4x64_d1 h_S_) : (⟨S4x64x64, .f32⟩ : BufTy).Contents (Elt F) → (⟨S_, .f32⟩ : BufTy).Contents (Elt F) → (⟨S4x64, .f32⟩ : BufTy).Contents (Elt F)),
    binary main_v67 main_v72 main_v75 ((fun l r => Host.dotGeneral dot_S4x64x64_S4x64x64_S4x64x64_1_1_2_2_0_0 none l r) : (⟨S4x64x64, .f32⟩ : BufTy).Contents (Elt F) → (⟨S4x64x64, .f32⟩ : BufTy).Contents (Elt F) → (⟨S4x64x64, .f32⟩ : BufTy).Contents (Elt F)),
    nullary main_v76 (iotaInDim S64x64 32 0),
    nullary main_v77 (iotaInDim S64x64 32 1),
    nullary main_c_18 (constantI S_ 32 0#32),
    unary main_c_18 main_v78 (broadcastInDim S64x64 ![] bcast_S_S64x64 : (⟨S_, .i32⟩ : BufTy).Contents (Elt F) → (⟨S64x64, .i32⟩ : BufTy).Contents (Elt F)),
    binary main_v76 main_v78 main_v79 (addi : (⟨S64x64, .i32⟩ : BufTy).Contents (Elt F) → (⟨S64x64, .i32⟩ : BufTy).Contents (Elt F) → (⟨S64x64, .i32⟩ : BufTy).Contents (Elt F)),
    binary main_v79 main_v77 main_v80 (cmpi .eq : (⟨S64x64, .i32⟩ : BufTy).Contents (Elt F) → (⟨S64x64, .i32⟩ : BufTy).Contents (Elt F) → (⟨S64x64, .i1⟩ : BufTy).Contents (Elt F)),
    unary main_v80 main_v81 (broadcastInDim S1x64x64 ![1, 2] bcast_S64x64_S1x64x64_1_2 : (⟨S64x64, .i1⟩ : BufTy).Contents (Elt F) → (⟨S1x64x64, .i1⟩ : BufTy).Contents (Elt F)),
    nullary main_cst_19 (constant S_ .f32 0xFF800000#32),
    TRef.unary (TRef.of (T := ⟨S_, .f32⟩) main_cst_19) (TRef.of (T := ⟨S_, .f32⟩) main_call6_v0) id,
    TRef.unary (TRef.of (T := ⟨S1x64x64, .i1⟩) main_v81) (TRef.of (T := ⟨S4x64x64, .i1⟩) main_call6_v1) (broadcastInDim S4x64x64 ![0, 1, 2] bcast_S1x64x64_S4x64x64_0_1_2),
    TRef.unary (TRef.of (T := ⟨S_, .f32⟩) main_call6_v0) (TRef.of (T := ⟨S4x64x64, .f32⟩) main_call6_v2) (broadcastInDim S4x64x64 ![] bcast_S_S4x64x64),
    TRef.ternary (TRef.of (T := ⟨S4x64x64, .i1⟩) main_call6_v1) (TRef.of (T := ⟨S4x64x64, .f32⟩) main_call6_v2) (TRef.of (T := ⟨S4x64x64, .f32⟩) main_v75) (TRef.of (T := ⟨S4x64x64, .f32⟩) main_v82) select,
    unary main_v74 main_v83 (broadcastInDim S4x64x1 ![0, 1] bcast_S4x64_S4x64x1_0_1 : (⟨S4x64, .f32⟩ : BufTy).Contents (Elt F) → (⟨S4x64x1, .f32⟩ : BufTy).Contents (Elt F)) ]

set_option maxRecDepth 8192 in
/-- Every operation of the stretch touches TensorCore buffers only. -/
theorem ops1a_sub : (ops1a : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., unary_bufs_sub .., ternary_bufs_sub .., unary_bufs_sub ..⟩

set_option maxRecDepth 8192 in
/-- Every operation of the stretch determines its result. -/
theorem ops1a_fresh : (ops1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the stretch writes, in order. -/
abbrev ops1a_W : List (Ref sig .tc) := [main_v47, main_c_11, main_v48, main_v49, main_c_12, main_v50, main_v51, main_v52, main_v53, main_v54, main_v55, main_c_13, main_v56, main_v57, main_c_14, main_v58, main_v59, main_v60, main_v61, main_v62, main_call4_v0, main_call4_cst, main_call4_v1, main_call4_v2, main_v63, main_cst_15, main_v64, main_v65, main_v66, main_v67, main_call5_v0, main_call5_cst, main_call5_v1, main_call5_v2, main_v68, main_cst_16, main_v69, main_v70, main_v71, main_v72, main_v73, main_cst_17, main_v74, main_v75, main_v76, main_v77, main_c_18, main_v78, main_v79, main_v80, main_v81, main_cst_19, main_call6_v0, main_call6_v1, main_call6_v2, main_v82, main_v83]

set_option maxRecDepth 8192 in
set_option maxHeartbeats 4000000 in
theorem ops1a_writes : (ops1a : List (HloOp τ sig (Elt F))).Forall fun op =>
    op.writes ⊆ (ops1a_W.map (Proc.devRef (τ := τ) .tc)).toFinset :=
  ⟨part1_wr main_v47 (by decide), part1_wr main_c_11 (by decide), part1_wr main_v48 (by decide), part1_wr main_v49 (by decide), part1_wr main_c_12 (by decide), part1_wr main_v50 (by decide), part1_wr main_v51 (by decide), part1_wr main_v52 (by decide), part1_wr main_v53 (by decide), part1_wr main_v54 (by decide), part1_wr main_v55 (by decide), part1_wr main_c_13 (by decide), part1_wr main_v56 (by decide), part1_wr main_v57 (by decide), part1_wr main_c_14 (by decide), part1_wr main_v58 (by decide), part1_wr main_v59 (by decide), part1_wr main_v60 (by decide), part1_wr main_v61 (by decide), part1_wr main_v62 (by decide), part1_wr main_call4_v0 (by decide), part1_wr main_call4_cst (by decide), part1_wr main_call4_v1 (by decide), part1_wr main_call4_v2 (by decide), part1_wr main_v63 (by decide), part1_wr main_cst_15 (by decide), part1_wr main_v64 (by decide), part1_wr main_v65 (by decide), part1_wr main_v66 (by decide), part1_wr main_v67 (by decide), part1_wr main_call5_v0 (by decide), part1_wr main_call5_cst (by decide), part1_wr main_call5_v1 (by decide), part1_wr main_call5_v2 (by decide), part1_wr main_v68 (by decide), part1_wr main_cst_16 (by decide), part1_wr main_v69 (by decide), part1_wr main_v70 (by decide), part1_wr main_v71 (by decide), part1_wr main_v72 (by decide), part1_wr main_v73 (by decide), part1_wr main_cst_17 (by decide), part1_wr main_v74 (by decide), part1_wr main_v75 (by decide), part1_wr main_v76 (by decide), part1_wr main_v77 (by decide), part1_wr main_c_18 (by decide), part1_wr main_v78 (by decide), part1_wr main_v79 (by decide), part1_wr main_v80 (by decide), part1_wr main_v81 (by decide), part1_wr main_cst_19 (by decide), part1_wr main_call6_v0 (by decide), part1_wr main_call6_v1 (by decide), part1_wr main_call6_v2 (by decide), part1_wr main_v82 (by decide), part1_wr main_v83 (by decide)⟩

/-- A buffer the stretch does not write keeps its contents through it. -/
theorem ops1a_keep (V : Valuation τ sig (Elt F)) (r : Ref sig .tc) (h : r ∉ ops1a_W) :
    after ops1a V (Proc.devRef .tc r) = V (Proc.devRef .tc r) :=
  after_of_writes_sub ops1a V ops1a_writes h

/-! ## The second stretch: from the concatenation to the layer's loss -/

set_option maxHeartbeats 4000000 in
set_option maxRecDepth 8192 in
/-- Operations 143 … 168 of the program, in order. -/
def ops1b : List (HloOp τ sig (Elt F)) :=
  [ binary main_v83 main_v82 main_v84 ((fun a b => concatenate S4x64x65 2 [⟨S4x64x1, a⟩, ⟨S4x64x64, b⟩] concatenates_S4x64x1_S4x64x64_S4x64x65_d2) : (⟨S4x64x1, .f32⟩ : BufTy).Contents (Elt F) → (⟨S4x64x64, .f32⟩ : BufTy).Contents (Elt F) → (⟨S4x64x65, .f32⟩ : BufTy).Contents (Elt F)),
    nullary main_cst_20 (constant S_ .f32 0x3D8F5C29#32),
    unary main_cst_20 main_v85 (broadcastInDim S4x64x65 ![] bcast_S_S4x64x65 : (⟨S_, .f32⟩ : BufTy).Contents (Elt F) → (⟨S4x64x65, .f32⟩ : BufTy).Contents (Elt F)),
    binary main_v84 main_v85 main_v86 (Host.divf : (⟨S4x64x65, .f32⟩ : BufTy).Contents (Elt F) → (⟨S4x64x65, .f32⟩ : BufTy).Contents (Elt F) → (⟨S4x64x65, .f32⟩ : BufTy).Contents (Elt F)),
    TRef.nullary (TRef.of (T := ⟨S_, .f32⟩) main_call7_cst) (constant S_ .f32 0xFF800000#32),
    TRef.binary (TRef.of (T := ⟨S4x64x65, .f32⟩) main_v86) (TRef.of (T := ⟨S_, .f32⟩) main_call7_cst) (TRef.of (T := ⟨S4x64, .f32⟩) main_call7_v0) (fun x v => Host.reduce FloatOps.maximumf x v reducesTo_S4x64x65_S4x64_d2 h_S_),
    TRef.nullary (TRef.of (T := ⟨S_, .f32⟩) main_call7_cst_0) (constant S_ .f32 0xFF800000#32),
    TRef.unary (TRef.of (T := ⟨S_, .f32⟩) main_call7_cst_0) (TRef.of (T := ⟨S4x64, .f32⟩) main_call7_v1) (broadcastInDim S4x64 ![] bcast_S_S4x64),
    TRef.binary (TRef.of (T := ⟨S4x64, .f32⟩) main_call7_v1) (TRef.of (T := ⟨S4x64, .f32⟩) main_call7_v0) (TRef.of (T := ⟨S4x64, .f32⟩) main_call7_v2) maximumf,
    TRef.unary (TRef.of (T := ⟨S4x64, .f32⟩) main_call7_v2) (TRef.of (T := ⟨S4x64x1, .f32⟩) main_call7_v3) (broadcastInDim S4x64x1 ![0, 1] bcast_S4x64_S4x64x1_0_1),
    TRef.unary (TRef.of (T := ⟨S4x64x1, .f32⟩) main_call7_v3) (TRef.of (T := ⟨S4x64x65, .f32⟩) main_call7_v4) (broadcastInDim S4x64x65 ![0, 1, 2] bcast_S4x64x1_S4x64x65_0_1_2),
    TRef.binary (TRef.of (T := ⟨S4x64x65, .f32⟩) main_v86) (TRef.of (T := ⟨S4x64x65, .f32⟩) main_call7_v4) (TRef.of (T := ⟨S4x64x65, .f32⟩) main_call7_v5) subf,
    TRef.unary (TRef.of (T := ⟨S4x64x65, .f32⟩) main_call7_v5) (TRef.of (T := ⟨S4x64x65, .f32⟩) main_call7_v6) Host.exp,
    TRef.nullary (TRef.of (T := ⟨S_, .f32⟩) main_call7_cst_1) (constant S_ .f32 0x00000000#32),
    TRef.binary (TRef.of (T := ⟨S4x64x65, .f32⟩) main_call7_v6) (TRef.of (T := ⟨S_, .f32⟩) main_call7_cst_1) (TRef.of (T := ⟨S4x64, .f32⟩) main_call7_v7) (fun x v => Host.reduceAdd x v reducesTo_S4x64x65_S4x64_d2 h_S_),
    TRef.unary (TRef.of (T := ⟨S4x64, .f32⟩) main_call7_v7) (TRef.of (T := ⟨S4x64x1, .f32⟩) main_call7_v8) (broadcastInDim S4x64x1 ![0, 1] bcast_S4x64_S4x64x1_0_1),
    TRef.unary (TRef.of (T := ⟨S4x64x1, .f32⟩) main_call7_v8) (TRef.of (T := ⟨S4x64x1, .f32⟩) main_call7_v9) Host.log,
    TRef.unary (TRef.of (T := ⟨S4x64x1, .f32⟩) main_call7_v9) (TRef.of (T := ⟨S4x64x65, .f32⟩) main_call7_v10) (broadcastInDim S4x64x65 ![0, 1, 2] bcast_S4x64x1_S4x64x65_0_1_2),
    TRef.binary (TRef.of (T := ⟨S4x64x65, .f32⟩) main_call7_v5) (TRef.of (T := ⟨S4x64x65, .f32⟩) main_call7_v10) (TRef.of (T := ⟨S4x64x65, .f32⟩) main_v87) subf,
    unary main_v87 main_v88 ((extractStridedSlice S4x64x1 ![0, 0, 0] · slices_S4x64x65_S4x64x1_0_0_0) : (⟨S4x64x65, .f32⟩ : BufTy).Contents (Elt F) → (⟨S4x64x1, .f32⟩ : BufTy).Contents (Elt F)),
    reshape main_v88 main_v89 rfl shapeCasts_S4x64x1_S4x64,
    unary main_v89 main_v90 (Host.negf : (⟨S4x64, .f32⟩ : BufTy).Contents (Elt F) → (⟨S4x64, .f32⟩ : BufTy).Contents (Elt F)),
    nullary main_cst_21 (constant S_ .f32 0x00000000#32),
    binary main_v90 main_cst_21 main_v91 ((fun x v => Host.reduceAdd x v reducesTo_S4x64_S_d0_1 h_S_) : (⟨S4x64, .f32⟩ : BufTy).Contents (Elt F) → (⟨S_, .f32⟩ : BufTy).Contents (Elt F) → (⟨S_, .f32⟩ : BufTy).Contents (Elt F)),
    nullary main_cst_22 (constant S_ .f32 0x43800000#32),
    binary main_v91 main_cst_22 main_v92 (Host.divf : (⟨S_, .f32⟩ : BufTy).Contents (Elt F) → (⟨S_, .f32⟩ : BufTy).Contents (Elt F) → (⟨S_, .f32⟩ : BufTy).Contents (Elt F)) ]

set_option maxRecDepth 8192 in
theorem ops1b_sub : (ops1b : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., binary_bufs_sub .., nullary_bufs_sub .., binary_bufs_sub ..⟩

set_option maxRecDepth 8192 in
theorem ops1b_fresh : (ops1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The buffers the stretch writes, in order. -/
abbrev ops1b_W : List (Ref sig .tc) := [main_v84, main_cst_20, main_v85, main_v86, main_call7_cst, main_call7_v0, main_call7_cst_0, main_call7_v1, main_call7_v2, main_call7_v3, main_call7_v4, main_call7_v5, main_call7_v6, main_call7_cst_1, main_call7_v7, main_call7_v8, main_call7_v9, main_call7_v10, main_v87, main_v88, main_v89, main_v90, main_cst_21, main_v91, main_cst_22, main_v92]

set_option maxRecDepth 8192 in
set_option maxHeartbeats 4000000 in
theorem ops1b_writes : (ops1b : List (HloOp τ sig (Elt F))).Forall fun op =>
    op.writes ⊆ (ops1b_W.map (Proc.devRef (τ := τ) .tc)).toFinset :=
  ⟨part1_wr main_v84 (by decide), part1_wr main_cst_20 (by decide), part1_wr main_v85 (by decide), part1_wr main_v86 (by decide), part1_wr main_call7_cst (by decide), part1_wr main_call7_v0 (by decide), part1_wr main_call7_cst_0 (by decide), part1_wr main_call7_v1 (by decide), part1_wr main_call7_v2 (by decide), part1_wr main_call7_v3 (by decide), part1_wr main_call7_v4 (by decide), part1_wr main_call7_v5 (by decide), part1_wr main_call7_v6 (by decide), part1_wr main_call7_cst_1 (by decide), part1_wr main_call7_v7 (by decide), part1_wr main_call7_v8 (by decide), part1_wr main_call7_v9 (by decide), part1_wr main_call7_v10 (by decide), part1_wr main_v87 (by decide), part1_wr main_v88 (by decide), part1_wr main_v89 (by decide), part1_wr main_v90 (by decide), part1_wr main_cst_21 (by decide), part1_wr main_v91 (by decide), part1_wr main_cst_22 (by decide), part1_wr main_v92 (by decide)⟩

theorem ops1b_keep (V : Valuation τ sig (Elt F)) (r : Ref sig .tc) (h : r ∉ ops1b_W) :
    after ops1b V (Proc.devRef .tc r) = V (Proc.devRef .tc r) :=
  after_of_writes_sub ops1b V ops1b_writes h

/-! ## The rest of the window -/

/-- Operations 169 … 170 of the program, in order. -/
def ops1t : List (HloOp τ sig (Elt F)) :=
  [ binary main_v46 main_v92 main_v93 (addf : (⟨S_, .f32⟩ : BufTy).Contents (Elt F) → (⟨S_, .f32⟩ : BufTy).Contents (Elt F) → (⟨S_, .f32⟩ : BufTy).Contents (Elt F)),
    reshape main_arg2 main_v94 rfl shapeCasts_S4x128x8x16x16_S4x128x2048 ]

theorem ops1t_sub : (ops1t : List (HloOp τ sig (Elt F))).Forall fun op => op.bufs ⊆ tcRefs τ sig :=
  ⟨binary_bufs_sub .., reshape_bufs_sub ..⟩

theorem ops1t_fresh : (ops1t : List (HloOp τ sig (Elt F))).Forall fun op => op.fresh = ∅ :=
  ⟨rfl, rfl⟩

/-- The buffers the stretch writes, in order. -/
abbrev ops1t_W : List (Ref sig .tc) := [main_v93, main_v94]

theorem ops1t_writes : (ops1t : List (HloOp τ sig (Elt F))).Forall fun op =>
    op.writes ⊆ (ops1t_W.map (Proc.devRef (τ := τ) .tc)).toFinset :=
  ⟨part1_wr main_v93 (by decide), part1_wr main_v94 (by decide)⟩

theorem ops1t_keep (V : Valuation τ sig (Elt F)) (r : Ref sig .tc) (h : r ∉ ops1t_W) :
    after ops1t V (Proc.devRef .tc r) = V (Proc.devRef .tc r) :=
  after_of_writes_sub ops1t V ops1t_writes h

/-! ## The window is the three stretches in order -/

set_option maxRecDepth 8192 in
set_option maxHeartbeats 4000000 in
/-- Unfolding the window's statements — a called function's body standing in its call's place — gives the three lists'
    operations one after the other. -/
theorem main_part1_eq (c : Dev nD) :
    main_part1 (F := F) c = seq (ops1a ++ (ops1b ++ ops1t)) := by chain_rfl

/-- A buffer none of the three stretches writes keeps its contents through the window. -/
theorem part1_keep (V : Valuation τ sig (Elt F)) (r : Ref sig .tc)
    (ha : r ∉ ops1a_W) (hb : r ∉ ops1b_W) (ht : r ∉ ops1t_W) :
    after ops1t (after ops1b (after ops1a V)) (Proc.devRef .tc r) = V (Proc.devRef .tc r) := by
  rw [ops1t_keep _ r ht, ops1b_keep _ r hb, ops1a_keep _ r ha]

/-! ## What the stretches compute -/

set_option maxRecDepth 8192 in
set_option maxHeartbeats 4000000 in
/-- After the first stretch the positive logit's column is its stage function of the two feature maps and the sampled
    locations: each operation's result read at its own buffer, an earlier one's through the operations after it. -/
theorem ops1a_pos (V : Valuation τ sig (Elt F)) (xq xk : (⟨S4x64x16x32x32, .f32⟩ : BufTy).Contents (Elt F))
    (xi : (⟨S64, .i32⟩ : BufTy).Contents (Elt F))
    (hq : V (Proc.devRef .tc main_arg1) = xq) (hk : V (Proc.devRef .tc main_arg6) = xk) (hi : V (Proc.devRef .tc main_arg11) = xi) :
    after ops1a V (Proc.devRef .tc main_v83) = val_main_v83 (F := F) xq xk xi := by
  simp only [ops1a]
  after_results_simp
  simp only [*]
  simp only [TRef.ofBuf, TRef.toBuf, cast_eq]
  rfl

set_option maxRecDepth 8192 in
set_option maxHeartbeats 4000000 in
/-- After the first stretch the masked negative logits are their stage function of the same. -/
theorem ops1a_neg (V : Valuation τ sig (Elt F)) (xq xk : (⟨S4x64x16x32x32, .f32⟩ : BufTy).Contents (Elt F))
    (xi : (⟨S64, .i32⟩ : BufTy).Contents (Elt F))
    (hq : V (Proc.devRef .tc main_arg1) = xq) (hk : V (Proc.devRef .tc main_arg6) = xk) (hi : V (Proc.devRef .tc main_arg11) = xi) :
    after ops1a V (Proc.devRef .tc main_v82) = val_main_v82 (F := F) xq xk xi := by
  simp only [ops1a]
  after_results_simp
  simp only [*]
  simp only [TRef.ofBuf, TRef.toBuf, cast_eq]
  rfl

set_option maxRecDepth 8192 in
set_option maxHeartbeats 4000000 in
/-- The second stretch, run from contents whose two operands of the concatenation are the stage functions, leaves the
    layer's loss at its stage function. -/
theorem ops1b_loss (V : Valuation τ sig (Elt F)) (xq xk : (⟨S4x64x16x32x32, .f32⟩ : BufTy).Contents (Elt F))
    (xi : (⟨S64, .i32⟩ : BufTy).Contents (Elt F))
    (hpos : V (Proc.devRef .tc main_v83) = val_main_v83 (F := F) xq xk xi)
    (hneg : V (Proc.devRef .tc main_v82) = val_main_v82 (F := F) xq xk xi) :
    after ops1b V (Proc.devRef .tc main_v92) = val_main_v92 (F := F) xq xk xi := by
  simp only [ops1b]
  after_results_simp
  rw [hpos, hneg]
  simp only [TRef.ofBuf, TRef.toBuf, cast_eq]
  rfl

/-- The first two stretches in order: the layer's loss from the contents the window starts from. -/
theorem part1_loss (V : Valuation τ sig (Elt F)) (xq xk : (⟨S4x64x16x32x32, .f32⟩ : BufTy).Contents (Elt F))
    (xi : (⟨S64, .i32⟩ : BufTy).Contents (Elt F))
    (hq : V (Proc.devRef .tc main_arg1) = xq) (hk : V (Proc.devRef .tc main_arg6) = xk) (hi : V (Proc.devRef .tc main_arg11) = xi) :
    after ops1b (after ops1a V) (Proc.devRef .tc main_v92) = val_main_v92 (F := F) xq xk xi :=
  ops1b_loss _ xq xk xi (ops1a_pos V xq xk xi hq hk hi) (ops1a_neg V xq xk xi hq hk hi)

end Cert.ReferenceIdeal.HandRun

end
-- ==== Proof.Ref.Run2.lean ====
import proofs.«430285_j43310450213294_2_alg».proof.Proof.Gen.ReferenceIdeal
import Idealize.ShloMosaic.Lib.StableHlo.Run
import Idealize.ShloMosaic.Lib.Pipeline.Regions
import proofs.«430285_j43310450213294_2_alg».proof.Proof.Ref.ReadP

/-! Window 2 of the reference program (`main_part2`), read as three consecutive stretches of host operations.
`ops2a` gathers the two feature maps at the sampled locations, normalises every gathered column, and forms the positive
logit (the inner product of each column of the first map with the same column of the second, as a column: `main_v130`) and the
negative logits (the matrix of inner products of the first map's columns with the second's, its diagonal set to −∞: `main_v129`). `ops2b` joins the two, divides by the temperature, takes the log-softmax along the joined
axis and averages minus its first column over the 4 × 64 samples: this layer's loss, `main_v139`. `ops2t` is the short
rest of the window: the running total, then the first operations of the next layer that still stand in this window (in
the last window, the division of the total by the number of layers).
The window is the sequence of the three stretches; and after a stretch a buffer it writes holds the stage function
`val_…` of what the stretch found in the buffers it reads, while every buffer it does not write keeps its contents. -/

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A reference of the list `W`, as the one buffer an operation writes, lies in `W`'s buffers. -/
theorem part2_wr {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The first stretch: from the inputs to the two operands of the concatenation -/

set_option maxHeartbeats 4000000 in
set_option maxRecDepth 8192 in
/-- Operations 171 … 226 of the program, in order. -/
def ops2a : List (HloOp τ sig (Elt F)) :=
  [ nullary main_c_23 (constantI S_ 32 0#32),
    unary main_c_23 main_v95 (broadcastInDim S64 ![] bcast_S_S64 : (⟨S_, .i32⟩ : BufTy).Contents (Elt F) → (⟨S64, .i32⟩ : BufTy).Contents (Elt F)),
    binary main_arg12 main_v95 main_v96 (cmpi .slt : (⟨S64, .i32⟩ : BufTy).Contents (Elt F) → (⟨S64, .i32⟩ : BufTy).Contents (Elt F) → (⟨S64, .i1⟩ : BufTy).Contents (Elt F)),
    nullary main_c_24 (constantI S_ 32 2048#32),
    unary main_c_24 main_v97 (broadcastInDim S64 ![] bcast_S_S64 : (⟨S_, .i32⟩ : BufTy).Contents (Elt F) → (⟨S64, .i32⟩ : BufTy).Contents (Elt F)),
    binary main_arg12 main_v97 main_v98 (addi : (⟨S64, .i32⟩ : BufTy).Contents (Elt F) → (⟨S64, .i32⟩ : BufTy).Contents (Elt F) → (⟨S64, .i32⟩ : BufTy).Contents (Elt F)),
    ternary main_v96 main_v98 main_arg12 main_v99 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v99 main_v100 (broadcastInDim S64x1 ![0] bcast_S64_S64x1_0 : (⟨S64, .i32⟩ : BufTy).Contents (Elt F) → (⟨S64x1, .i32⟩ : BufTy).Contents (Elt F)),
    binary main_v94 main_v100 main_v101 ((fun x i => Host.gather gather_S4x128x2048_S64x1_S4x128x64_01_2_n_n_2_1_41281 x i) : (⟨S4x128x2048, .f32⟩ : BufTy).Contents (Elt F) → (⟨S64x1, .i32⟩ : BufTy).Contents (Elt F) → (⟨S4x128x64, .f32⟩ : BufTy).Contents (Elt F)),
    reshape main_arg7 main_v102 rfl shapeCasts_S4x128x8x16x16_S4x128x2048,
    nullary main_c_25 (constantI S_ 32 0#32),
    unary main_c_25 main_v103 (broadcastInDim S64 ![] bcast_S_S64 : (⟨S_, .i32⟩ : BufTy).Contents (Elt F) → (⟨S64, .i32⟩ : BufTy).Contents (Elt F)),
    binary main_arg12 main_v103 main_v104 (cmpi .slt : (⟨S64, .i32⟩ : BufTy).Contents (Elt F) → (⟨S64, .i32⟩ : BufTy).Contents (Elt F) → (⟨S64, .i1⟩ : BufTy).Contents (Elt F)),
    nullary main_c_26 (constantI S_ 32 2048#32),
    unary main_c_26 main_v105 (broadcastInDim S64 ![] bcast_S_S64 : (⟨S_, .i32⟩ : BufTy).Contents (Elt F) → (⟨S64, .i32⟩ : BufTy).Contents (Elt F)),
    binary main_arg12 main_v105 main_v106 (addi : (⟨S64, .i32⟩ : BufTy).Contents (Elt F) → (⟨S64, .i32⟩ : BufTy).Contents (Elt F) → (⟨S64, .i32⟩ : BufTy).Contents (Elt F)),
    ternary main_v104 main_v106 main_arg12 main_v107 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v107 main_v108 (broadcastInDim S64x1 ![0] bcast_S64_S64x1_0 : (⟨S64, .i32⟩ : BufTy).Contents (Elt F) → (⟨S64x1, .i32⟩ : BufTy).Contents (Elt F)),
    binary main_v102 main_v108 main_v109 ((fun x i => Host.gather gather_S4x128x2048_S64x1_S4x128x64_01_2_n_n_2_1_41281 x i) : (⟨S4x128x2048, .f32⟩ : BufTy).Contents (Elt F) → (⟨S64x1, .i32⟩ : BufTy).Contents (Elt F) → (⟨S4x128x64, .f32⟩ : BufTy).Contents (Elt F)),
    TRef.binary (TRef.of (T := ⟨S4x128x64, .f32⟩) main_v101) (TRef.of (T := ⟨S4x128x64, .f32⟩) main_v101) (TRef.of (T := ⟨S4x128x64, .f32⟩) main_call8_v0) mulf,
    TRef.nullary (TRef.of (T := ⟨S_, .f32⟩) main_call8_cst) (constant S_ .f32 0x00000000#32),
    TRef.binary (TRef.of (T := ⟨S4x128x64, .f32⟩) main_call8_v0) (TRef.of (T := ⟨S_, .f32⟩) main_call8_cst) (TRef.of (T := ⟨S4x64, .f32⟩) main_call8_v1) (fun x v => Host.reduceAdd x v reducesTo_S4x128x64_S4x64_d1 h_S_),
    TRef.unary (TRef.of (T := ⟨S4x64, .f32⟩) main_call8_v1) (TRef.of (T := ⟨S4x1x64, .f32⟩) main_call8_v2) (broadcastInDim S4x1x64 ![0, 2] bcast_S4x64_S4x1x64_0_2),
    TRef.unary (TRef.of (T := ⟨S4x1x64, .f32⟩) main_call8_v2) (TRef.of (T := ⟨S4x1x64, .f32⟩) main_v110) Host.sqrt,
    nullary main_cst_27 (constant S_ .f32 0x2B8CBCCC#32),
    unary main_cst_27 main_v111 (broadcastInDim S4x1x64 ![] bcast_S_S4x1x64 : (⟨S_, .f32⟩ : BufTy).Contents (Elt F) → (⟨S4x1x64, .f32⟩ : BufTy).Contents (Elt F)),
    binary main_v110 main_v111 main_v112 (maximumf : (⟨S4x1x64, .f32⟩ : BufTy).Contents (Elt F) → (⟨S4x1x64, .f32⟩ : BufTy).Contents (Elt F) → (⟨S4x1x64, .f32⟩ : BufTy).Contents (Elt F)),
    unary main_v112 main_v113 (broadcastInDim S4x128x64 ![0, 1, 2] bcast_S4x1x64_S4x128x64_0_1_2 : (⟨S4x1x64, .f32⟩ : BufTy).Contents (Elt F) → (⟨S4x128x64, .f32⟩ : BufTy).Contents (Elt F)),
    binary main_v101 main_v113 main_v114 (Host.divf : (⟨S4x128x64, .f32⟩ : BufTy).Contents (Elt F) → (⟨S4x128x64, .f32⟩ : BufTy).Contents (Elt F) → (⟨S4x128x64, .f32⟩ : BufTy).Contents (Elt F)),
    TRef.binary (TRef.of (T := ⟨S4x128x64, .f32⟩) main_v109) (TRef.of (T := ⟨S4x128x64, .f32⟩) main_v109) (TRef.of (T := ⟨S4x128x64, .f32⟩) main_call9_v0) mulf,
    TRef.nullary (TRef.of (T := ⟨S_, .f32⟩) main_call9_cst) (constant S_ .f32 0x00000000#32),
    TRef.binary (TRef.of (T := ⟨S4x128x64, .f32⟩) main_call9_v0) (TRef.of (T := ⟨S_, .f32⟩) main_call9_cst) (TRef.of (T := ⟨S4x64, .f32⟩) main_call9_v1) (fun x v => Host.reduceAdd x v reducesTo_S4x128x64_S4x64_d1 h_S_),
    TRef.unary (TRef.of (T := ⟨S4x64, .f32⟩) main_call9_v1) (TRef.of (T := ⟨S4x1x64, .f32⟩) main_call9_v2) (broadcastInDim S4x1x64 ![0, 2] bcast_S4x64_S4x1x64_0_2),
    TRef.unary (TRef.of (T := ⟨S4x1x64, .f32⟩) main_call9_v2) (TRef.of (T := ⟨S4x1x64, .f32⟩) main_v115) Host.sqrt,
    nullary main_cst_28 (constant S_ .f32 0x2B8CBCCC#32),
    unary main_cst_28 main_v116 (broadcastInDim S4x1x64 ![] bcast_S_S4x1x64 : (⟨S_, .f32⟩ : BufTy).Contents (Elt F) → (⟨S4x1x64, .f32⟩ : BufTy).Contents (Elt F)),
    binary main_v115 main_v116 main_v117 (maximumf : (⟨S4x1x64, .f32⟩ : BufTy).Contents (Elt F) → (⟨S4x1x64, .f32⟩ : BufTy).Contents (Elt F) → (⟨S4x1x64, .f32⟩ : BufTy).Contents (Elt F)),
    unary main_v117 main_v118 (broadcastInDim S4x128x64 ![0, 1, 2] bcast_S4x1x64_S4x128x64_0_1_2 : (⟨S4x1x64, .f32⟩ : BufTy).Contents (Elt F) → (⟨S4x128x64, .f32⟩ : BufTy).Contents (Elt F)),
    binary main_v109 main_v118 main_v119 (Host.divf : (⟨S4x128x64, .f32⟩ : BufTy).Contents (Elt F) → (⟨S4x128x64, .f32⟩ : BufTy).Contents (Elt F) → (⟨S4x128x64, .f32⟩ : BufTy).Contents (Elt F)),
    binary main_v114 main_v119 main_v120 (mulf : (⟨S4x128x64, .f32⟩ : BufTy).Contents (Elt F) → (⟨S4x128x64, .f32⟩ : BufTy).Contents (Elt F) → (⟨S4x128x64, .f32⟩ : BufTy).Contents (Elt F)),
    nullary main_cst_29 (constant S_ .f32 0x00000000#32),
    binary main_v120 main_cst_29 main_v121 ((fun x v => Host.reduceAdd x v reducesTo_S4x128x64_S4x64_d1 h_S_) : (⟨S4x128x64, .f32⟩ : BufTy).Contents (Elt F) → (⟨S_, .f32⟩ : BufTy).Contents (Elt F) → (⟨S4x64, .f32⟩ : BufTy).Contents (Elt F)),
    binary main_v114 main_v119 main_v122 ((fun l r => Host.dotGeneral dot_S4x128x64_S4x128x64_S4x64x64_1_1_2_2_0_0 none l r) : (⟨S4x128x64, .f32⟩ : BufTy).Contents (Elt F) → (⟨S4x128x64, .f32⟩ : BufTy).Contents (Elt F) → (⟨S4x64x64, .f32⟩ : BufTy).Contents (Elt F)),
    nullary main_v123 (iotaInDim S64x64 32 0),
    nullary main_v124 (iotaInDim S64x64 32 1),
    nullary main_c_30 (constantI S_ 32 0#32),
    unary main_c_30 main_v125 (broadcastInDim S64x64 ![] bcast_S_S64x64 : (⟨S_, .i32⟩ : BufTy).Contents (Elt F) → (⟨S64x64, .i32⟩ : BufTy).Contents (Elt F)),
    binary main_v123 main_v125 main_v126 (addi : (⟨S64x64, .i32⟩ : BufTy).Contents (Elt F) → (⟨S64x64, .i32⟩ : BufTy).Contents (Elt F) → (⟨S64x64, .i32⟩ : BufTy).Contents (Elt F)),
    binary main_v126 main_v124 main_v127 (cmpi .eq : (⟨S64x64, .i32⟩ : BufTy).Contents (Elt F) → (⟨S64x64, .i32⟩ : BufTy).Contents (Elt F) → (⟨S64x64, .i1⟩ : BufTy).Contents (Elt F)),
    unary main_v127 main_v128 (broadcastInDim S1x64x64 ![1, 2] bcast_S64x64_S1x64x64_1_2 : (⟨S64x64, .i1⟩ : BufTy).Contents (Elt F) → (⟨S1x64x64, .i1⟩ : BufTy).Contents (Elt F)),
    nullary main_cst_31 (constant S_ .f32 0xFF800000#32),
    TRef.unary (TRef.of (T := ⟨S_, .f32⟩) main_cst_31) (TRef.of (T := ⟨S_, .f32⟩) main_call10_v0) id,
    TRef.unary (TRef.of (T := ⟨S1x64x64, .i1⟩) main_v128) (TRef.of (T := ⟨S4x64x64, .i1⟩) main_call10_v1) (broadcastInDim S4x64x64 ![0, 1, 2] bcast_S1x64x64_S4x64x64_0_1_2),
    TRef.unary (TRef.of (T := ⟨S_, .f32⟩) main_call10_v0) (TRef.of (T := ⟨S4x64x64, .f32⟩) main_call10_v2) (broadcastInDim S4x64x64 ![] bcast_S_S4x64x64),
    TRef.ternary (TRef.of (T := ⟨S4x64x64, .i1⟩) main_call10_v1) (TRef.of (T := ⟨S4x64x64, .f32⟩) main_call10_v2) (TRef.of (T := ⟨S4x64x64, .f32⟩) main_v122) (TRef.of (T := ⟨S4x64x64, .f32⟩) main_v129) select,
    unary main_v121 main_v130 (broadcastInDim S4x64x1 ![0, 1] bcast_S4x64_S4x64x1_0_1 : (⟨S4x64, .f32⟩ : BufTy).Contents (Elt F) → (⟨S4x64x1, .f32⟩ : BufTy).Contents (Elt F)) ]

set_option maxRecDepth 8192 in
/-- Every operation of the stretch touches TensorCore buffers only. -/
theorem ops2a_sub : (ops2a : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., unary_bufs_sub .., ternary_bufs_sub .., unary_bufs_sub ..⟩

set_option maxRecDepth 8192 in
/-- Every operation of the stretch determines its result. -/
theorem ops2a_fresh : (ops2a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the stretch writes, in order. -/
abbrev ops2a_W : List (Ref sig .tc) := [main_c_23, main_v95, main_v96, main_c_24, main_v97, main_v98, main_v99, main_v100, main_v101, main_v102, main_c_25, main_v103, main_v104, main_c_26, main_v105, main_v106, main_v107, main_v108, main_v109, main_call8_v0, main_call8_cst, main_call8_v1, main_call8_v2, main_v110, main_cst_27, main_v111, main_v112, main_v113, main_v114, main_call9_v0, main_call9_cst, main_call9_v1, main_call9_v2, main_v115, main_cst_28, main_v116, main_v117, main_v118, main_v119, main_v120, main_cst_29, main_v121, main_v122, main_v123, main_v124, main_c_30, main_v125, main_v126, main_v127, main_v128, main_cst_31, main_call10_v0, main_call10_v1, main_call10_v2, main_v129, main_v130]

set_option maxRecDepth 8192 in
set_option maxHeartbeats 4000000 in
theorem ops2a_writes : (ops2a : List (HloOp τ sig (Elt F))).Forall fun op =>
    op.writes ⊆ (ops2a_W.map (Proc.devRef (τ := τ) .tc)).toFinset :=
  ⟨part2_wr main_c_23 (by decide), part2_wr main_v95 (by decide), part2_wr main_v96 (by decide), part2_wr main_c_24 (by decide), part2_wr main_v97 (by decide), part2_wr main_v98 (by decide), part2_wr main_v99 (by decide), part2_wr main_v100 (by decide), part2_wr main_v101 (by decide), part2_wr main_v102 (by decide), part2_wr main_c_25 (by decide), part2_wr main_v103 (by decide), part2_wr main_v104 (by decide), part2_wr main_c_26 (by decide), part2_wr main_v105 (by decide), part2_wr main_v106 (by decide), part2_wr main_v107 (by decide), part2_wr main_v108 (by decide), part2_wr main_v109 (by decide), part2_wr main_call8_v0 (by decide), part2_wr main_call8_cst (by decide), part2_wr main_call8_v1 (by decide), part2_wr main_call8_v2 (by decide), part2_wr main_v110 (by decide), part2_wr main_cst_27 (by decide), part2_wr main_v111 (by decide), part2_wr main_v112 (by decide), part2_wr main_v113 (by decide), part2_wr main_v114 (by decide), part2_wr main_call9_v0 (by decide), part2_wr main_call9_cst (by decide), part2_wr main_call9_v1 (by decide), part2_wr main_call9_v2 (by decide), part2_wr main_v115 (by decide), part2_wr main_cst_28 (by decide), part2_wr main_v116 (by decide), part2_wr main_v117 (by decide), part2_wr main_v118 (by decide), part2_wr main_v119 (by decide), part2_wr main_v120 (by decide), part2_wr main_cst_29 (by decide), part2_wr main_v121 (by decide), part2_wr main_v122 (by decide), part2_wr main_v123 (by decide), part2_wr main_v124 (by decide), part2_wr main_c_30 (by decide), part2_wr main_v125 (by decide), part2_wr main_v126 (by decide), part2_wr main_v127 (by decide), part2_wr main_v128 (by decide), part2_wr main_cst_31 (by decide), part2_wr main_call10_v0 (by decide), part2_wr main_call10_v1 (by decide), part2_wr main_call10_v2 (by decide), part2_wr main_v129 (by decide), part2_wr main_v130 (by decide)⟩

/-- A buffer the stretch does not write keeps its contents through it. -/
theorem ops2a_keep (V : Valuation τ sig (Elt F)) (r : Ref sig .tc) (h : r ∉ ops2a_W) :
    after ops2a V (Proc.devRef .tc r) = V (Proc.devRef .tc r) :=
  after_of_writes_sub ops2a V ops2a_writes h

/-! ## The second stretch: from the concatenation to the layer's loss -/

set_option maxHeartbeats 4000000 in
set_option maxRecDepth 8192 in
/-- Operations 227 … 252 of the program, in order. -/
def ops2b : List (HloOp τ sig (Elt F)) :=
  [ binary main_v130 main_v129 main_v131 ((fun a b => concatenate S4x64x65 2 [⟨S4x64x1, a⟩, ⟨S4x64x64, b⟩] concatenates_S4x64x1_S4x64x64_S4x64x65_d2) : (⟨S4x64x1, .f32⟩ : BufTy).Contents (Elt F) → (⟨S4x64x64, .f32⟩ : BufTy).Contents (Elt F) → (⟨S4x64x65, .f32⟩ : BufTy).Contents (Elt F)),
    nullary main_cst_32 (constant S_ .f32 0x3D8F5C29#32),
    unary main_cst_32 main_v132 (broadcastInDim S4x64x65 ![] bcast_S_S4x64x65 : (⟨S_, .f32⟩ : BufTy).Contents (Elt F) → (⟨S4x64x65, .f32⟩ : BufTy).Contents (Elt F)),
    binary main_v131 main_v132 main_v133 (Host.divf : (⟨S4x64x65, .f32⟩ : BufTy).Contents (Elt F) → (⟨S4x64x65, .f32⟩ : BufTy).Contents (Elt F) → (⟨S4x64x65, .f32⟩ : BufTy).Contents (Elt F)),
    TRef.nullary (TRef.of (T := ⟨S_, .f32⟩) main_call11_cst) (constant S_ .f32 0xFF800000#32),
    TRef.binary (TRef.of (T := ⟨S4x64x65, .f32⟩) main_v133) (TRef.of (T := ⟨S_, .f32⟩) main_call11_cst) (TRef.of (T := ⟨S4x64, .f32⟩) main_call11_v0) (fun x v => Host.reduce FloatOps.maximumf x v reducesTo_S4x64x65_S4x64_d2 h_S_),
    TRef.nullary (TRef.of (T := ⟨S_, .f32⟩) main_call11_cst_0) (constant S_ .f32 0xFF800000#32),
    TRef.unary (TRef.of (T := ⟨S_, .f32⟩) main_call11_cst_0) (TRef.of (T := ⟨S4x64, .f32⟩) main_call11_v1) (broadcastInDim S4x64 ![] bcast_S_S4x64),
    TRef.binary (TRef.of (T := ⟨S4x64, .f32⟩) main_call11_v1) (TRef.of (T := ⟨S4x64, .f32⟩) main_call11_v0) (TRef.of (T := ⟨S4x64, .f32⟩) main_call11_v2) maximumf,
    TRef.unary (TRef.of (T := ⟨S4x64, .f32⟩) main_call11_v2) (TRef.of (T := ⟨S4x64x1, .f32⟩) main_call11_v3) (broadcastInDim S4x64x1 ![0, 1] bcast_S4x64_S4x64x1_0_1),
    TRef.unary (TRef.of (T := ⟨S4x64x1, .f32⟩) main_call11_v3) (TRef.of (T := ⟨S4x64x65, .f32⟩) main_call11_v4) (broadcastInDim S4x64x65 ![0, 1, 2] bcast_S4x64x1_S4x64x65_0_1_2),
    TRef.binary (TRef.of (T := ⟨S4x64x65, .f32⟩) main_v133) (TRef.of (T := ⟨S4x64x65, .f32⟩) main_call11_v4) (TRef.of (T := ⟨S4x64x65, .f32⟩) main_call11_v5) subf,
    TRef.unary (TRef.of (T := ⟨S4x64x65, .f32⟩) main_call11_v5) (TRef.of (T := ⟨S4x64x65, .f32⟩) main_call11_v6) Host.exp,
    TRef.nullary (TRef.of (T := ⟨S_, .f32⟩) main_call11_cst_1) (constant S_ .f32 0x00000000#32),
    TRef.binary (TRef.of (T := ⟨S4x64x65, .f32⟩) main_call11_v6) (TRef.of (T := ⟨S_, .f32⟩) main_call11_cst_1) (TRef.of (T := ⟨S4x64, .f32⟩) main_call11_v7) (fun x v => Host.reduceAdd x v reducesTo_S4x64x65_S4x64_d2 h_S_),
    TRef.unary (TRef.of (T := ⟨S4x64, .f32⟩) main_call11_v7) (TRef.of (T := ⟨S4x64x1, .f32⟩) main_call11_v8) (broadcastInDim S4x64x1 ![0, 1] bcast_S4x64_S4x64x1_0_1),
    TRef.unary (TRef.of (T := ⟨S4x64x1, .f32⟩) main_call11_v8) (TRef.of (T := ⟨S4x64x1, .f32⟩) main_call11_v9) Host.log,
    TRef.unary (TRef.of (T := ⟨S4x64x1, .f32⟩) main_call11_v9) (TRef.of (T := ⟨S4x64x65, .f32⟩) main_call11_v10) (broadcastInDim S4x64x65 ![0, 1, 2] bcast_S4x64x1_S4x64x65_0_1_2),
    TRef.binary (TRef.of (T := ⟨S4x64x65, .f32⟩) main_call11_v5) (TRef.of (T := ⟨S4x64x65, .f32⟩) main_call11_v10) (TRef.of (T := ⟨S4x64x65, .f32⟩) main_v134) subf,
    unary main_v134 main_v135 ((extractStridedSlice S4x64x1 ![0, 0, 0] · slices_S4x64x65_S4x64x1_0_0_0) : (⟨S4x64x65, .f32⟩ : BufTy).Contents (Elt F) → (⟨S4x64x1, .f32⟩ : BufTy).Contents (Elt F)),
    reshape main_v135 main_v136 rfl shapeCasts_S4x64x1_S4x64,
    unary main_v136 main_v137 (Host.negf : (⟨S4x64, .f32⟩ : BufTy).Contents (Elt F) → (⟨S4x64, .f32⟩ : BufTy).Contents (Elt F)),
    nullary main_cst_33 (constant S_ .f32 0x00000000#32),
    binary main_v137 main_cst_33 main_v138 ((fun x v => Host.reduceAdd x v reducesTo_S4x64_S_d0_1 h_S_) : (⟨S4x64, .f32⟩ : BufTy).Contents (Elt F) → (⟨S_, .f32⟩ : BufTy).Contents (Elt F) → (⟨S_, .f32⟩ : BufTy).Contents (Elt F)),
    nullary main_cst_34 (constant S_ .f32 0x43800000#32),
    binary main_v138 main_cst_34 main_v139 (Host.divf : (⟨S_, .f32⟩ : BufTy).Contents (Elt F) → (⟨S_, .f32⟩ : BufTy).Contents (Elt F) → (⟨S_, .f32⟩ : BufTy).Contents (Elt F)) ]

set_option maxRecDepth 8192 in
theorem ops2b_sub : (ops2b : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., binary_bufs_sub .., nullary_bufs_sub .., binary_bufs_sub ..⟩

set_option maxRecDepth 8192 in
theorem ops2b_fresh : (ops2b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The buffers the stretch writes, in order. -/
abbrev ops2b_W : List (Ref sig .tc) := [main_v131, main_cst_32, main_v132, main_v133, main_call11_cst, main_call11_v0, main_call11_cst_0, main_call11_v1, main_call11_v2, main_call11_v3, main_call11_v4, main_call11_v5, main_call11_v6, main_call11_cst_1, main_call11_v7, main_call11_v8, main_call11_v9, main_call11_v10, main_v134, main_v135, main_v136, main_v137, main_cst_33, main_v138, main_cst_34, main_v139]

set_option maxRecDepth 8192 in
set_option maxHeartbeats 4000000 in
theorem ops2b_writes : (ops2b : List (HloOp τ sig (Elt F))).Forall fun op =>
    op.writes ⊆ (ops2b_W.map (Proc.devRef (τ := τ) .tc)).toFinset :=
  ⟨part2_wr main_v131 (by decide), part2_wr main_cst_32 (by decide), part2_wr main_v132 (by decide), part2_wr main_v133 (by decide), part2_wr main_call11_cst (by decide), part2_wr main_call11_v0 (by decide), part2_wr main_call11_cst_0 (by decide), part2_wr main_call11_v1 (by decide), part2_wr main_call11_v2 (by decide), part2_wr main_call11_v3 (by decide), part2_wr main_call11_v4 (by decide), part2_wr main_call11_v5 (by decide), part2_wr main_call11_v6 (by decide), part2_wr main_call11_cst_1 (by decide), part2_wr main_call11_v7 (by decide), part2_wr main_call11_v8 (by decide), part2_wr main_call11_v9 (by decide), part2_wr main_call11_v10 (by decide), part2_wr main_v134 (by decide), part2_wr main_v135 (by decide), part2_wr main_v136 (by decide), part2_wr main_v137 (by decide), part2_wr main_cst_33 (by decide), part2_wr main_v138 (by decide), part2_wr main_cst_34 (by decide), part2_wr main_v139 (by decide)⟩

theorem ops2b_keep (V : Valuation τ sig (Elt F)) (r : Ref sig .tc) (h : r ∉ ops2b_W) :
    after ops2b V (Proc.devRef .tc r) = V (Proc.devRef .tc r) :=
  after_of_writes_sub ops2b V ops2b_writes h

/-! ## The rest of the window -/

/-- Operations 253 … 255 of the program, in order. -/
def ops2t : List (HloOp τ sig (Elt F)) :=
  [ binary main_v93 main_v139 main_v140 (addf : (⟨S_, .f32⟩ : BufTy).Contents (Elt F) → (⟨S_, .f32⟩ : BufTy).Contents (Elt F) → (⟨S_, .f32⟩ : BufTy).Contents (Elt F)),
    reshape main_arg3 main_v141 rfl shapeCasts_S4x256x4x8x8_S4x256x256,
    nullary main_c_35 (constantI S_ 32 0#32) ]

theorem ops2t_sub : (ops2t : List (HloOp τ sig (Elt F))).Forall fun op => op.bufs ⊆ tcRefs τ sig :=
  ⟨binary_bufs_sub .., reshape_bufs_sub .., nullary_bufs_sub ..⟩

theorem ops2t_fresh : (ops2t : List (HloOp τ sig (Elt F))).Forall fun op => op.fresh = ∅ :=
  ⟨rfl, rfl, rfl⟩

/-- The buffers the stretch writes, in order. -/
abbrev ops2t_W : List (Ref sig .tc) := [main_v140, main_v141, main_c_35]

theorem ops2t_writes : (ops2t : List (HloOp τ sig (Elt F))).Forall fun op =>
    op.writes ⊆ (ops2t_W.map (Proc.devRef (τ := τ) .tc)).toFinset :=
  ⟨part2_wr main_v140 (by decide), part2_wr main_v141 (by decide), part2_wr main_c_35 (by decide)⟩

theorem ops2t_keep (V : Valuation τ sig (Elt F)) (r : Ref sig .tc) (h : r ∉ ops2t_W) :
    after ops2t V (Proc.devRef .tc r) = V (Proc.devRef .tc r) :=
  after_of_writes_sub ops2t V ops2t_writes h

/-! ## The window is the three stretches in order -/

set_option maxRecDepth 8192 in
set_option maxHeartbeats 4000000 in
/-- Unfolding the window's statements — a called function's body standing in its call's place — gives the three lists'
    operations one after the other. -/
theorem main_part2_eq (c : Dev nD) :
    main_part2 (F := F) c = seq (ops2a ++ (ops2b ++ ops2t)) := by chain_rfl

/-- A buffer none of the three stretches writes keeps its contents through the window. -/
theorem part2_keep (V : Valuation τ sig (Elt F)) (r : Ref sig .tc)
    (ha : r ∉ ops2a_W) (hb : r ∉ ops2b_W) (ht : r ∉ ops2t_W) :
    after ops2t (after ops2b (after ops2a V)) (Proc.devRef .tc r) = V (Proc.devRef .tc r) := by
  rw [ops2t_keep _ r ht, ops2b_keep _ r hb, ops2a_keep _ r ha]

/-! ## What the stretches compute -/

set_option maxRecDepth 8192 in
set_option maxHeartbeats 4000000 in
/-- After the first stretch the positive logit's column is its stage function of the two feature maps and the sampled
    locations: each operation's result read at its own buffer, an earlier one's through the operations after it. -/
theorem ops2a_pos (V : Valuation τ sig (Elt F)) (xq xk : (⟨S4x128x8x16x16, .f32⟩ : BufTy).Contents (Elt F))
    (xi : (⟨S64, .i32⟩ : BufTy).Contents (Elt F))
    (hq : V (Proc.devRef .tc main_v94) = val_main_v94 (F := F) xq) (hk : V (Proc.devRef .tc main_arg7) = xk) (hi : V (Proc.devRef .tc main_arg12) = xi) :
    after ops2a V (Proc.devRef .tc main_v130) = val_main_v130 (F := F) xq xk xi := by
  simp only [ops2a]
  after_results_simp
  simp only [*]
  simp only [TRef.ofBuf, TRef.toBuf, cast_eq]
  rfl

set_option maxRecDepth 8192 in
set_option maxHeartbeats 4000000 in
/-- After the first stretch the masked negative logits are their stage function of the same. -/
theorem ops2a_neg (V : Valuation τ sig (Elt F)) (xq xk : (⟨S4x128x8x16x16, .f32⟩ : BufTy).Contents (Elt F))
    (xi : (⟨S64, .i32⟩ : BufTy).Contents (Elt F))
    (hq : V (Proc.devRef .tc main_v94) = val_main_v94 (F := F) xq) (hk : V (Proc.devRef .tc main_arg7) = xk) (hi : V (Proc.devRef .tc main_arg12) = xi) :
    after ops2a V (Proc.devRef .tc main_v129) = val_main_v129 (F := F) xq xk xi := by
  simp only [ops2a]
  after_results_simp
  simp only [*]
  simp only [TRef.ofBuf, TRef.toBuf, cast_eq]
  rfl

set_option maxRecDepth 8192 in
set_option maxHeartbeats 4000000 in
/-- The second stretch, run from contents whose two operands of the concatenation are the stage functions, leaves the
    layer's loss at its stage function. -/
theorem ops2b_loss (V : Valuation τ sig (Elt F)) (xq xk : (⟨S4x128x8x16x16, .f32⟩ : BufTy).Contents (Elt F))
    (xi : (⟨S64, .i32⟩ : BufTy).Contents (Elt F))
    (hpos : V (Proc.devRef .tc main_v130) = val_main_v130 (F := F) xq xk xi)
    (hneg : V (Proc.devRef .tc main_v129) = val_main_v129 (F := F) xq xk xi) :
    after ops2b V (Proc.devRef .tc main_v139) = val_main_v139 (F := F) xq xk xi := by
  simp only [ops2b]
  after_results_simp
  rw [hpos, hneg]
  simp only [TRef.ofBuf, TRef.toBuf, cast_eq]
  rfl

/-- The first two stretches in order: the layer's loss from the contents the window starts from. -/
theorem part2_loss (V : Valuation τ sig (Elt F)) (xq xk : (⟨S4x128x8x16x16, .f32⟩ : BufTy).Contents (Elt F))
    (xi : (⟨S64, .i32⟩ : BufTy).Contents (Elt F))
    (hq : V (Proc.devRef .tc main_v94) = val_main_v94 (F := F) xq) (hk : V (Proc.devRef .tc main_arg7) = xk) (hi : V (Proc.devRef .tc main_arg12) = xi) :
    after ops2b (after ops2a V) (Proc.devRef .tc main_v139) = val_main_v139 (F := F) xq xk xi :=
  ops2b_loss _ xq xk xi (ops2a_pos V xq xk xi hq hk hi) (ops2a_neg V xq xk xi hq hk hi)

end Cert.ReferenceIdeal.HandRun

end
-- ==== Proof.Ref.Run3.lean ====
import proofs.«430285_j43310450213294_2_alg».proof.Proof.Gen.ReferenceIdeal
import Idealize.ShloMosaic.Lib.StableHlo.Run
import Idealize.ShloMosaic.Lib.Pipeline.Regions
import proofs.«430285_j43310450213294_2_alg».proof.Proof.Ref.ReadP

/-! Window 3 of the reference program (`main_part3`), read as three consecutive stretches of host operations.
`ops3a` gathers the two feature maps at the sampled locations, normalises every gathered column, and forms the positive
logit (the inner product of each column of the first map with the same column of the second, as a column: `main_v177`) and the
negative logits (the matrix of inner products of the first map's columns with the second's, its diagonal set to −∞: `main_v176`). `ops3b` joins the two, divides by the temperature, takes the log-softmax along the joined
axis and averages minus its first column over the 4 × 64 samples: this layer's loss, `main_v186`. `ops3t` is the short
rest of the window: the running total, then the first operations of the next layer that still stand in this window (in
the last window, the division of the total by the number of layers).
The window is the sequence of the three stretches; and after a stretch a buffer it writes holds the stage function
`val_…` of what the stretch found in the buffers it reads, while every buffer it does not write keeps its contents. -/

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A reference of the list `W`, as the one buffer an operation writes, lies in `W`'s buffers. -/
theorem part3_wr {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The first stretch: from the inputs to the two operands of the concatenation -/

set_option maxHeartbeats 4000000 in
set_option maxRecDepth 8192 in
/-- Operations 256 … 310 of the program, in order. -/
def ops3a : List (HloOp τ sig (Elt F)) :=
  [ unary main_c_35 main_v142 (broadcastInDim S64 ![] bcast_S_S64 : (⟨S_, .i32⟩ : BufTy).Contents (Elt F) → (⟨S64, .i32⟩ : BufTy).Contents (Elt F)),
    binary main_arg13 main_v142 main_v143 (cmpi .slt : (⟨S64, .i32⟩ : BufTy).Contents (Elt F) → (⟨S64, .i32⟩ : BufTy).Contents (Elt F) → (⟨S64, .i1⟩ : BufTy).Contents (Elt F)),
    nullary main_c_36 (constantI S_ 32 256#32),
    unary main_c_36 main_v144 (broadcastInDim S64 ![] bcast_S_S64 : (⟨S_, .i32⟩ : BufTy).Contents (Elt F) → (⟨S64, .i32⟩ : BufTy).Contents (Elt F)),
    binary main_arg13 main_v144 main_v145 (addi : (⟨S64, .i32⟩ : BufTy).Contents (Elt F) → (⟨S64, .i32⟩ : BufTy).Contents (Elt F) → (⟨S64, .i32⟩ : BufTy).Contents (Elt F)),
    ternary main_v143 main_v145 main_arg13 main_v146 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v146 main_v147 (broadcastInDim S64x1 ![0] bcast_S64_S64x1_0 : (⟨S64, .i32⟩ : BufTy).Contents (Elt F) → (⟨S64x1, .i32⟩ : BufTy).Contents (Elt F)),
    binary main_v141 main_v147 main_v148 ((fun x i => Host.gather gather_S4x256x256_S64x1_S4x256x64_01_2_n_n_2_1_42561 x i) : (⟨S4x256x256, .f32⟩ : BufTy).Contents (Elt F) → (⟨S64x1, .i32⟩ : BufTy).Contents (Elt F) → (⟨S4x256x64, .f32⟩ : BufTy).Contents (Elt F)),
    reshape main_arg8 main_v149 rfl shapeCasts_S4x256x4x8x8_S4x256x256,
    nullary main_c_37 (constantI S_ 32 0#32),
    unary main_c_37 main_v150 (broadcastInDim S64 ![] bcast_S_S64 : (⟨S_, .i32⟩ : BufTy).Contents (Elt F) → (⟨S64, .i32⟩ : BufTy).Contents (Elt F)),
    binary main_arg13 main_v150 main_v151 (cmpi .slt : (⟨S64, .i32⟩ : BufTy).Contents (Elt F) → (⟨S64, .i32⟩ : BufTy).Contents (Elt F) → (⟨S64, .i1⟩ : BufTy).Contents (Elt F)),
    nullary main_c_38 (constantI S_ 32 256#32),
    unary main_c_38 main_v152 (broadcastInDim S64 ![] bcast_S_S64 : (⟨S_, .i32⟩ : BufTy).Contents (Elt F) → (⟨S64, .i32⟩ : BufTy).Contents (Elt F)),
    binary main_arg13 main_v152 main_v153 (addi : (⟨S64, .i32⟩ : BufTy).Contents (Elt F) → (⟨S64, .i32⟩ : BufTy).Contents (Elt F) → (⟨S64, .i32⟩ : BufTy).Contents (Elt F)),
    ternary main_v151 main_v153 main_arg13 main_v154 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v154 main_v155 (broadcastInDim S64x1 ![0] bcast_S64_S64x1_0 : (⟨S64, .i32⟩ : BufTy).Contents (Elt F) → (⟨S64x1, .i32⟩ : BufTy).Contents (Elt F)),
    binary main_v149 main_v155 main_v156 ((fun x i => Host.gather gather_S4x256x256_S64x1_S4x256x64_01_2_n_n_2_1_42561 x i) : (⟨S4x256x256, .f32⟩ : BufTy).Contents (Elt F) → (⟨S64x1, .i32⟩ : BufTy).Contents (Elt F) → (⟨S4x256x64, .f32⟩ : BufTy).Contents (Elt F)),
    TRef.binary (TRef.of (T := ⟨S4x256x64, .f32⟩) main_v148) (TRef.of (T := ⟨S4x256x64, .f32⟩) main_v148) (TRef.of (T := ⟨S4x256x64, .f32⟩) main_call12_v0) mulf,
    TRef.nullary (TRef.of (T := ⟨S_, .f32⟩) main_call12_cst) (constant S_ .f32 0x00000000#32),
    TRef.binary (TRef.of (T := ⟨S4x256x64, .f32⟩) main_call12_v0) (TRef.of (T := ⟨S_, .f32⟩) main_call12_cst) (TRef.of (T := ⟨S4x64, .f32⟩) main_call12_v1) (fun x v => Host.reduceAdd x v reducesTo_S4x256x64_S4x64_d1 h_S_),
    TRef.unary (TRef.of (T := ⟨S4x64, .f32⟩) main_call12_v1) (TRef.of (T := ⟨S4x1x64, .f32⟩) main_call12_v2) (broadcastInDim S4x1x64 ![0, 2] bcast_S4x64_S4x1x64_0_2),
    TRef.unary (TRef.of (T := ⟨S4x1x64, .f32⟩) main_call12_v2) (TRef.of (T := ⟨S4x1x64, .f32⟩) main_v157) Host.sqrt,
    nullary main_cst_39 (constant S_ .f32 0x2B8CBCCC#32),
    unary main_cst_39 main_v158 (broadcastInDim S4x1x64 ![] bcast_S_S4x1x64 : (⟨S_, .f32⟩ : BufTy).Contents (Elt F) → (⟨S4x1x64, .f32⟩ : BufTy).Contents (Elt F)),
    binary main_v157 main_v158 main_v159 (maximumf : (⟨S4x1x64, .f32⟩ : BufTy).Contents (Elt F) → (⟨S4x1x64, .f32⟩ : BufTy).Contents (Elt F) → (⟨S4x1x64, .f32⟩ : BufTy).Contents (Elt F)),
    unary main_v159 main_v160 (broadcastInDim S4x256x64 ![0, 1, 2] bcast_S4x1x64_S4x256x64_0_1_2 : (⟨S4x1x64, .f32⟩ : BufTy).Contents (Elt F) → (⟨S4x256x64, .f32⟩ : BufTy).Contents (Elt F)),
    binary main_v148 main_v160 main_v161 (Host.divf : (⟨S4x256x64, .f32⟩ : BufTy).Contents (Elt F) → (⟨S4x256x64, .f32⟩ : BufTy).Contents (Elt F) → (⟨S4x256x64, .f32⟩ : BufTy).Contents (Elt F)),
    TRef.binary (TRef.of (T := ⟨S4x256x64, .f32⟩) main_v156) (TRef.of (T := ⟨S4x256x64, .f32⟩) main_v156) (TRef.of (T := ⟨S4x256x64, .f32⟩) main_call13_v0) mulf,
    TRef.nullary (TRef.of (T := ⟨S_, .f32⟩) main_call13_cst) (constant S_ .f32 0x00000000#32),
    TRef.binary (TRef.of (T := ⟨S4x256x64, .f32⟩) main_call13_v0) (TRef.of (T := ⟨S_, .f32⟩) main_call13_cst) (TRef.of (T := ⟨S4x64, .f32⟩) main_call13_v1) (fun x v => Host.reduceAdd x v reducesTo_S4x256x64_S4x64_d1 h_S_),
    TRef.unary (TRef.of (T := ⟨S4x64, .f32⟩) main_call13_v1) (TRef.of (T := ⟨S4x1x64, .f32⟩) main_call13_v2) (broadcastInDim S4x1x64 ![0, 2] bcast_S4x64_S4x1x64_0_2),
    TRef.unary (TRef.of (T := ⟨S4x1x64, .f32⟩) main_call13_v2) (TRef.of (T := ⟨S4x1x64, .f32⟩) main_v162) Host.sqrt,
    nullary main_cst_40 (constant S_ .f32 0x2B8CBCCC#32),
    unary main_cst_40 main_v163 (broadcastInDim S4x1x64 ![] bcast_S_S4x1x64 : (⟨S_, .f32⟩ : BufTy).Contents (Elt F) → (⟨S4x1x64, .f32⟩ : BufTy).Contents (Elt F)),
    binary main_v162 main_v163 main_v164 (maximumf : (⟨S4x1x64, .f32⟩ : BufTy).Contents (Elt F) → (⟨S4x1x64, .f32⟩ : BufTy).Contents (Elt F) → (⟨S4x1x64, .f32⟩ : BufTy).Contents (Elt F)),
    unary main_v164 main_v165 (broadcastInDim S4x256x64 ![0, 1, 2] bcast_S4x1x64_S4x256x64_0_1_2 : (⟨S4x1x64, .f32⟩ : BufTy).Contents (Elt F) → (⟨S4x256x64, .f32⟩ : BufTy).Contents (Elt F)),
    binary main_v156 main_v165 main_v166 (Host.divf : (⟨S4x256x64, .f32⟩ : BufTy).Contents (Elt F) → (⟨S4x256x64, .f32⟩ : BufTy).Contents (Elt F) → (⟨S4x256x64, .f32⟩ : BufTy).Contents (Elt F)),
    binary main_v161 main_v166 main_v167 (mulf : (⟨S4x256x64, .f32⟩ : BufTy).Contents (Elt F) → (⟨S4x256x64, .f32⟩ : BufTy).Contents (Elt F) → (⟨S4x256x64, .f32⟩ : BufTy).Contents (Elt F)),
    nullary main_cst_41 (constant S_ .f32 0x00000000#32),
    binary main_v167 main_cst_41 main_v168 ((fun x v => Host.reduceAdd x v reducesTo_S4x256x64_S4x64_d1 h_S_) : (⟨S4x256x64, .f32⟩ : BufTy).Contents (Elt F) → (⟨S_, .f32⟩ : BufTy).Contents (Elt F) → (⟨S4x64, .f32⟩ : BufTy).Contents (Elt F)),
    binary main_v161 main_v166 main_v169 ((fun l r => Host.dotGeneral dot_S4x256x64_S4x256x64_S4x64x64_1_1_2_2_0_0 none l r) : (⟨S4x256x64, .f32⟩ : BufTy).Contents (Elt F) → (⟨S4x256x64, .f32⟩ : BufTy).Contents (Elt F) → (⟨S4x64x64, .f32⟩ : BufTy).Contents (Elt F)),
    nullary main_v170 (iotaInDim S64x64 32 0),
    nullary main_v171 (iotaInDim S64x64 32 1),
    nullary main_c_42 (constantI S_ 32 0#32),
    unary main_c_42 main_v172 (broadcastInDim S64x64 ![] bcast_S_S64x64 : (⟨S_, .i32⟩ : BufTy).Contents (Elt F) → (⟨S64x64, .i32⟩ : BufTy).Contents (Elt F)),
    binary main_v170 main_v172 main_v173 (addi : (⟨S64x64, .i32⟩ : BufTy).Contents (Elt F) → (⟨S64x64, .i32⟩ : BufTy).Contents (Elt F) → (⟨S64x64, .i32⟩ : BufTy).Contents (Elt F)),
    binary main_v173 main_v171 main_v174 (cmpi .eq : (⟨S64x64, .i32⟩ : BufTy).Contents (Elt F) → (⟨S64x64, .i32⟩ : BufTy).Contents (Elt F) → (⟨S64x64, .i1⟩ : BufTy).Contents (Elt F)),
    unary main_v174 main_v175 (broadcastInDim S1x64x64 ![1, 2] bcast_S64x64_S1x64x64_1_2 : (⟨S64x64, .i1⟩ : BufTy).Contents (Elt F) → (⟨S1x64x64, .i1⟩ : BufTy).Contents (Elt F)),
    nullary main_cst_43 (constant S_ .f32 0xFF800000#32),
    TRef.unary (TRef.of (T := ⟨S_, .f32⟩) main_cst_43) (TRef.of (T := ⟨S_, .f32⟩) main_call14_v0) id,
    TRef.unary (TRef.of (T := ⟨S1x64x64, .i1⟩) main_v175) (TRef.of (T := ⟨S4x64x64, .i1⟩) main_call14_v1) (broadcastInDim S4x64x64 ![0, 1, 2] bcast_S1x64x64_S4x64x64_0_1_2),
    TRef.unary (TRef.of (T := ⟨S_, .f32⟩) main_call14_v0) (TRef.of (T := ⟨S4x64x64, .f32⟩) main_call14_v2) (broadcastInDim S4x64x64 ![] bcast_S_S4x64x64),
    TRef.ternary (TRef.of (T := ⟨S4x64x64, .i1⟩) main_call14_v1) (TRef.of (T := ⟨S4x64x64, .f32⟩) main_call14_v2) (TRef.of (T := ⟨S4x64x64, .f32⟩) main_v169) (TRef.of (T := ⟨S4x64x64, .f32⟩) main_v176) select,
    unary main_v168 main_v177 (broadcastInDim S4x64x1 ![0, 1] bcast_S4x64_S4x64x1_0_1 : (⟨S4x64, .f32⟩ : BufTy).Contents (Elt F) → (⟨S4x64x1, .f32⟩ : BufTy).Contents (Elt F)) ]

set_option maxRecDepth 8192 in
/-- Every operation of the stretch touches TensorCore buffers only. -/
theorem ops3a_sub : (ops3a : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., unary_bufs_sub .., ternary_bufs_sub .., unary_bufs_sub ..⟩

set_option maxRecDepth 8192 in
/-- Every operation of the stretch determines its result. -/
theorem ops3a_fresh : (ops3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the stretch writes, in order. -/
abbrev ops3a_W : List (Ref sig .tc) := [main_v142, main_v143, main_c_36, main_v144, main_v145, main_v146, main_v147, main_v148, main_v149, main_c_37, main_v150, main_v151, main_c_38, main_v152, main_v153, main_v154, main_v155, main_v156, main_call12_v0, main_call12_cst, main_call12_v1, main_call12_v2, main_v157, main_cst_39, main_v158, main_v159, main_v160, main_v161, main_call13_v0, main_call13_cst, main_call13_v1, main_call13_v2, main_v162, main_cst_40, main_v163, main_v164, main_v165, main_v166, main_v167, main_cst_41, main_v168, main_v169, main_v170, main_v171, main_c_42, main_v172, main_v173, main_v174, main_v175, main_cst_43, main_call14_v0, main_call14_v1, main_call14_v2, main_v176, main_v177]

set_option maxRecDepth 8192 in
set_option maxHeartbeats 4000000 in
theorem ops3a_writes : (ops3a : List (HloOp τ sig (Elt F))).Forall fun op =>
    op.writes ⊆ (ops3a_W.map (Proc.devRef (τ := τ) .tc)).toFinset :=
  ⟨part3_wr main_v142 (by decide), part3_wr main_v143 (by decide), part3_wr main_c_36 (by decide), part3_wr main_v144 (by decide), part3_wr main_v145 (by decide), part3_wr main_v146 (by decide), part3_wr main_v147 (by decide), part3_wr main_v148 (by decide), part3_wr main_v149 (by decide), part3_wr main_c_37 (by decide), part3_wr main_v150 (by decide), part3_wr main_v151 (by decide), part3_wr main_c_38 (by decide), part3_wr main_v152 (by decide), part3_wr main_v153 (by decide), part3_wr main_v154 (by decide), part3_wr main_v155 (by decide), part3_wr main_v156 (by decide), part3_wr main_call12_v0 (by decide), part3_wr main_call12_cst (by decide), part3_wr main_call12_v1 (by decide), part3_wr main_call12_v2 (by decide), part3_wr main_v157 (by decide), part3_wr main_cst_39 (by decide), part3_wr main_v158 (by decide), part3_wr main_v159 (by decide), part3_wr main_v160 (by decide), part3_wr main_v161 (by decide), part3_wr main_call13_v0 (by decide), part3_wr main_call13_cst (by decide), part3_wr main_call13_v1 (by decide), part3_wr main_call13_v2 (by decide), part3_wr main_v162 (by decide), part3_wr main_cst_40 (by decide), part3_wr main_v163 (by decide), part3_wr main_v164 (by decide), part3_wr main_v165 (by decide), part3_wr main_v166 (by decide), part3_wr main_v167 (by decide), part3_wr main_cst_41 (by decide), part3_wr main_v168 (by decide), part3_wr main_v169 (by decide), part3_wr main_v170 (by decide), part3_wr main_v171 (by decide), part3_wr main_c_42 (by decide), part3_wr main_v172 (by decide), part3_wr main_v173 (by decide), part3_wr main_v174 (by decide), part3_wr main_v175 (by decide), part3_wr main_cst_43 (by decide), part3_wr main_call14_v0 (by decide), part3_wr main_call14_v1 (by decide), part3_wr main_call14_v2 (by decide), part3_wr main_v176 (by decide), part3_wr main_v177 (by decide)⟩

/-- A buffer the stretch does not write keeps its contents through it. -/
theorem ops3a_keep (V : Valuation τ sig (Elt F)) (r : Ref sig .tc) (h : r ∉ ops3a_W) :
    after ops3a V (Proc.devRef .tc r) = V (Proc.devRef .tc r) :=
  after_of_writes_sub ops3a V ops3a_writes h

/-! ## The second stretch: from the concatenation to the layer's loss -/

set_option maxHeartbeats 4000000 in
set_option maxRecDepth 8192 in
/-- Operations 311 … 336 of the program, in order. -/
def ops3b : List (HloOp τ sig (Elt F)) :=
  [ binary main_v177 main_v176 main_v178 ((fun a b => concatenate S4x64x65 2 [⟨S4x64x1, a⟩, ⟨S4x64x64, b⟩] concatenates_S4x64x1_S4x64x64_S4x64x65_d2) : (⟨S4x64x1, .f32⟩ : BufTy).Contents (Elt F) → (⟨S4x64x64, .f32⟩ : BufTy).Contents (Elt F) → (⟨S4x64x65, .f32⟩ : BufTy).Contents (Elt F)),
    nullary main_cst_44 (constant S_ .f32 0x3D8F5C29#32),
    unary main_cst_44 main_v179 (broadcastInDim S4x64x65 ![] bcast_S_S4x64x65 : (⟨S_, .f32⟩ : BufTy).Contents (Elt F) → (⟨S4x64x65, .f32⟩ : BufTy).Contents (Elt F)),
    binary main_v178 main_v179 main_v180 (Host.divf : (⟨S4x64x65, .f32⟩ : BufTy).Contents (Elt F) → (⟨S4x64x65, .f32⟩ : BufTy).Contents (Elt F) → (⟨S4x64x65, .f32⟩ : BufTy).Contents (Elt F)),
    TRef.nullary (TRef.of (T := ⟨S_, .f32⟩) main_call15_cst) (constant S_ .f32 0xFF800000#32),
    TRef.binary (TRef.of (T := ⟨S4x64x65, .f32⟩) main_v180) (TRef.of (T := ⟨S_, .f32⟩) main_call15_cst) (TRef.of (T := ⟨S4x64, .f32⟩) main_call15_v0) (fun x v => Host.reduce FloatOps.maximumf x v reducesTo_S4x64x65_S4x64_d2 h_S_),
    TRef.nullary (TRef.of (T := ⟨S_, .f32⟩) main_call15_cst_0) (constant S_ .f32 0xFF800000#32),
    TRef.unary (TRef.of (T := ⟨S_, .f32⟩) main_call15_cst_0) (TRef.of (T := ⟨S4x64, .f32⟩) main_call15_v1) (broadcastInDim S4x64 ![] bcast_S_S4x64),
    TRef.binary (TRef.of (T := ⟨S4x64, .f32⟩) main_call15_v1) (TRef.of (T := ⟨S4x64, .f32⟩) main_call15_v0) (TRef.of (T := ⟨S4x64, .f32⟩) main_call15_v2) maximumf,
    TRef.unary (TRef.of (T := ⟨S4x64, .f32⟩) main_call15_v2) (TRef.of (T := ⟨S4x64x1, .f32⟩) main_call15_v3) (broadcastInDim S4x64x1 ![0, 1] bcast_S4x64_S4x64x1_0_1),
    TRef.unary (TRef.of (T := ⟨S4x64x1, .f32⟩) main_call15_v3) (TRef.of (T := ⟨S4x64x65, .f32⟩) main_call15_v4) (broadcastInDim S4x64x65 ![0, 1, 2] bcast_S4x64x1_S4x64x65_0_1_2),
    TRef.binary (TRef.of (T := ⟨S4x64x65, .f32⟩) main_v180) (TRef.of (T := ⟨S4x64x65, .f32⟩) main_call15_v4) (TRef.of (T := ⟨S4x64x65, .f32⟩) main_call15_v5) subf,
    TRef.unary (TRef.of (T := ⟨S4x64x65, .f32⟩) main_call15_v5) (TRef.of (T := ⟨S4x64x65, .f32⟩) main_call15_v6) Host.exp,
    TRef.nullary (TRef.of (T := ⟨S_, .f32⟩) main_call15_cst_1) (constant S_ .f32 0x00000000#32),
    TRef.binary (TRef.of (T := ⟨S4x64x65, .f32⟩) main_call15_v6) (TRef.of (T := ⟨S_, .f32⟩) main_call15_cst_1) (TRef.of (T := ⟨S4x64, .f32⟩) main_call15_v7) (fun x v => Host.reduceAdd x v reducesTo_S4x64x65_S4x64_d2 h_S_),
    TRef.unary (TRef.of (T := ⟨S4x64, .f32⟩) main_call15_v7) (TRef.of (T := ⟨S4x64x1, .f32⟩) main_call15_v8) (broadcastInDim S4x64x1 ![0, 1] bcast_S4x64_S4x64x1_0_1),
    TRef.unary (TRef.of (T := ⟨S4x64x1, .f32⟩) main_call15_v8) (TRef.of (T := ⟨S4x64x1, .f32⟩) main_call15_v9) Host.log,
    TRef.unary (TRef.of (T := ⟨S4x64x1, .f32⟩) main_call15_v9) (TRef.of (T := ⟨S4x64x65, .f32⟩) main_call15_v10) (broadcastInDim S4x64x65 ![0, 1, 2] bcast_S4x64x1_S4x64x65_0_1_2),
    TRef.binary (TRef.of (T := ⟨S4x64x65, .f32⟩) main_call15_v5) (TRef.of (T := ⟨S4x64x65, .f32⟩) main_call15_v10) (TRef.of (T := ⟨S4x64x65, .f32⟩) main_v181) subf,
    unary main_v181 main_v182 ((extractStridedSlice S4x64x1 ![0, 0, 0] · slices_S4x64x65_S4x64x1_0_0_0) : (⟨S4x64x65, .f32⟩ : BufTy).Contents (Elt F) → (⟨S4x64x1, .f32⟩ : BufTy).Contents (Elt F)),
    reshape main_v182 main_v183 rfl shapeCasts_S4x64x1_S4x64,
    unary main_v183 main_v184 (Host.negf : (⟨S4x64, .f32⟩ : BufTy).Contents (Elt F) → (⟨S4x64, .f32⟩ : BufTy).Contents (Elt F)),
    nullary main_cst_45 (constant S_ .f32 0x00000000#32),
    binary main_v184 main_cst_45 main_v185 ((fun x v => Host.reduceAdd x v reducesTo_S4x64_S_d0_1 h_S_) : (⟨S4x64, .f32⟩ : BufTy).Contents (Elt F) → (⟨S_, .f32⟩ : BufTy).Contents (Elt F) → (⟨S_, .f32⟩ : BufTy).Contents (Elt F)),
    nullary main_cst_46 (constant S_ .f32 0x43800000#32),
    binary main_v185 main_cst_46 main_v186 (Host.divf : (⟨S_, .f32⟩ : BufTy).Contents (Elt F) → (⟨S_, .f32⟩ : BufTy).Contents (Elt F) → (⟨S_, .f32⟩ : BufTy).Contents (Elt F)) ]

set_option maxRecDepth 8192 in
theorem ops3b_sub : (ops3b : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., binary_bufs_sub .., nullary_bufs_sub .., binary_bufs_sub ..⟩

set_option maxRecDepth 8192 in
theorem ops3b_fresh : (ops3b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The buffers the stretch writes, in order. -/
abbrev ops3b_W : List (Ref sig .tc) := [main_v178, main_cst_44, main_v179, main_v180, main_call15_cst, main_call15_v0, main_call15_cst_0, main_call15_v1, main_call15_v2, main_call15_v3, main_call15_v4, main_call15_v5, main_call15_v6, main_call15_cst_1, main_call15_v7, main_call15_v8, main_call15_v9, main_call15_v10, main_v181, main_v182, main_v183, main_v184, main_cst_45, main_v185, main_cst_46, main_v186]

set_option maxRecDepth 8192 in
set_option maxHeartbeats 4000000 in
theorem ops3b_writes : (ops3b : List (HloOp τ sig (Elt F))).Forall fun op =>
    op.writes ⊆ (ops3b_W.map (Proc.devRef (τ := τ) .tc)).toFinset :=
  ⟨part3_wr main_v178 (by decide), part3_wr main_cst_44 (by decide), part3_wr main_v179 (by decide), part3_wr main_v180 (by decide), part3_wr main_call15_cst (by decide), part3_wr main_call15_v0 (by decide), part3_wr main_call15_cst_0 (by decide), part3_wr main_call15_v1 (by decide), part3_wr main_call15_v2 (by decide), part3_wr main_call15_v3 (by decide), part3_wr main_call15_v4 (by decide), part3_wr main_call15_v5 (by decide), part3_wr main_call15_v6 (by decide), part3_wr main_call15_cst_1 (by decide), part3_wr main_call15_v7 (by decide), part3_wr main_call15_v8 (by decide), part3_wr main_call15_v9 (by decide), part3_wr main_call15_v10 (by decide), part3_wr main_v181 (by decide), part3_wr main_v182 (by decide), part3_wr main_v183 (by decide), part3_wr main_v184 (by decide), part3_wr main_cst_45 (by decide), part3_wr main_v185 (by decide), part3_wr main_cst_46 (by decide), part3_wr main_v186 (by decide)⟩

theorem ops3b_keep (V : Valuation τ sig (Elt F)) (r : Ref sig .tc) (h : r ∉ ops3b_W) :
    after ops3b V (Proc.devRef .tc r) = V (Proc.devRef .tc r) :=
  after_of_writes_sub ops3b V ops3b_writes h

/-! ## The rest of the window -/

/-- Operations 337 … 340 of the program, in order. -/
def ops3t : List (HloOp τ sig (Elt F)) :=
  [ binary main_v140 main_v186 main_v187 (addf : (⟨S_, .f32⟩ : BufTy).Contents (Elt F) → (⟨S_, .f32⟩ : BufTy).Contents (Elt F) → (⟨S_, .f32⟩ : BufTy).Contents (Elt F)),
    reshape main_arg4 main_v188 rfl shapeCasts_S4x256x4x8x8_S4x256x256,
    nullary main_c_47 (constantI S_ 32 0#32),
    unary main_c_47 main_v189 (broadcastInDim S64 ![] bcast_S_S64 : (⟨S_, .i32⟩ : BufTy).Contents (Elt F) → (⟨S64, .i32⟩ : BufTy).Contents (Elt F)) ]

theorem ops3t_sub : (ops3t : List (HloOp τ sig (Elt F))).Forall fun op => op.bufs ⊆ tcRefs τ sig :=
  ⟨binary_bufs_sub .., reshape_bufs_sub .., nullary_bufs_sub .., unary_bufs_sub ..⟩

theorem ops3t_fresh : (ops3t : List (HloOp τ sig (Elt F))).Forall fun op => op.fresh = ∅ :=
  ⟨rfl, rfl, rfl, rfl⟩

/-- The buffers the stretch writes, in order. -/
abbrev ops3t_W : List (Ref sig .tc) := [main_v187, main_v188, main_c_47, main_v189]

theorem ops3t_writes : (ops3t : List (HloOp τ sig (Elt F))).Forall fun op =>
    op.writes ⊆ (ops3t_W.map (Proc.devRef (τ := τ) .tc)).toFinset :=
  ⟨part3_wr main_v187 (by decide), part3_wr main_v188 (by decide), part3_wr main_c_47 (by decide), part3_wr main_v189 (by decide)⟩

theorem ops3t_keep (V : Valuation τ sig (Elt F)) (r : Ref sig .tc) (h : r ∉ ops3t_W) :
    after ops3t V (Proc.devRef .tc r) = V (Proc.devRef .tc r) :=
  after_of_writes_sub ops3t V ops3t_writes h

/-! ## The window is the three stretches in order -/

set_option maxRecDepth 8192 in
set_option maxHeartbeats 4000000 in
/-- Unfolding the window's statements — a called function's body standing in its call's place — gives the three lists'
    operations one after the other. -/
theorem main_part3_eq (c : Dev nD) :
    main_part3 (F := F) c = seq (ops3a ++ (ops3b ++ ops3t)) := by chain_rfl

/-- A buffer none of the three stretches writes keeps its contents through the window. -/
theorem part3_keep (V : Valuation τ sig (Elt F)) (r : Ref sig .tc)
    (ha : r ∉ ops3a_W) (hb : r ∉ ops3b_W) (ht : r ∉ ops3t_W) :
    after ops3t (after ops3b (after ops3a V)) (Proc.devRef .tc r) = V (Proc.devRef .tc r) := by
  rw [ops3t_keep _ r ht, ops3b_keep _ r hb, ops3a_keep _ r ha]

/-! ## What the stretches compute -/

set_option maxRecDepth 8192 in
set_option maxHeartbeats 4000000 in
/-- After the first stretch the positive logit's column is its stage function of the two feature maps and the sampled
    locations: each operation's result read at its own buffer, an earlier one's through the operations after it. -/
theorem ops3a_pos (V : Valuation τ sig (Elt F)) (xq xk : (⟨S4x256x4x8x8, .f32⟩ : BufTy).Contents (Elt F))
    (xi : (⟨S64, .i32⟩ : BufTy).Contents (Elt F))
    (hq : V (Proc.devRef .tc main_v141) = val_main_v141 (F := F) xq) (hk : V (Proc.devRef .tc main_arg8) = xk) (hi : V (Proc.devRef .tc main_arg13) = xi) (hz : V (Proc.devRef .tc main_c_35) = val_main_c_35 (F := F)) :
    after ops3a V (Proc.devRef .tc main_v177) = val_main_v177 (F := F) xq xk xi := by
  simp only [ops3a]
  after_results_simp
  simp only [*]
  simp only [TRef.ofBuf, TRef.toBuf, cast_eq]
  rfl

set_option maxRecDepth 8192 in
set_option maxHeartbeats 4000000 in
/-- After the first stretch the masked negative logits are their stage function of the same. -/
theorem ops3a_neg (V : Valuation τ sig (Elt F)) (xq xk : (⟨S4x256x4x8x8, .f32⟩ : BufTy).Contents (Elt F))
    (xi : (⟨S64, .i32⟩ : BufTy).Contents (Elt F))
    (hq : V (Proc.devRef .tc main_v141) = val_main_v141 (F := F) xq) (hk : V (Proc.devRef .tc main_arg8) = xk) (hi : V (Proc.devRef .tc main_arg13) = xi) (hz : V (Proc.devRef .tc main_c_35) = val_main_c_35 (F := F)) :
    after ops3a V (Proc.devRef .tc main_v176) = val_main_v176 (F := F) xq xk xi := by
  simp only [ops3a]
  after_results_simp
  simp only [*]
  simp only [TRef.ofBuf, TRef.toBuf, cast_eq]
  rfl

set_option maxRecDepth 8192 in
set_option maxHeartbeats 4000000 in
/-- The second stretch, run from contents whose two operands of the concatenation are the stage functions, leaves the
    layer's loss at its stage function. -/
theorem ops3b_loss (V : Valuation τ sig (Elt F)) (xq xk : (⟨S4x256x4x8x8, .f32⟩ : BufTy).Contents (Elt F))
    (xi : (⟨S64, .i32⟩ : BufTy).Contents (Elt F))
    (hpos : V (Proc.devRef .tc main_v177) = val_main_v177 (F := F) xq xk xi)
    (hneg : V (Proc.devRef .tc main_v176) = val_main_v176 (F := F) xq xk xi) :
    after ops3b V (Proc.devRef .tc main_v186) = val_main_v186 (F := F) xq xk xi := by
  simp only [ops3b]
  after_results_simp
  rw [hpos, hneg]
  simp only [TRef.ofBuf, TRef.toBuf, cast_eq]
  rfl

/-- The first two stretches in order: the layer's loss from the contents the window starts from. -/
theorem part3_loss (V : Valuation τ sig (Elt F)) (xq xk : (⟨S4x256x4x8x8, .f32⟩ : BufTy).Contents (Elt F))
    (xi : (⟨S64, .i32⟩ : BufTy).Contents (Elt F))
    (hq : V (Proc.devRef .tc main_v141) = val_main_v141 (F := F) xq) (hk : V (Proc.devRef .tc main_arg8) = xk) (hi : V (Proc.devRef .tc main_arg13) = xi) (hz : V (Proc.devRef .tc main_c_35) = val_main_c_35 (F := F)) :
    after ops3b (after ops3a V) (Proc.devRef .tc main_v186) = val_main_v186 (F := F) xq xk xi :=
  ops3b_loss _ xq xk xi (ops3a_pos V xq xk xi hq hk hi hz) (ops3a_neg V xq xk xi hq hk hi hz)

end Cert.ReferenceIdeal.HandRun

end
-- ==== Proof.Ref.Run4.lean ====
import proofs.«430285_j43310450213294_2_alg».proof.Proof.Gen.ReferenceIdeal
import Idealize.ShloMosaic.Lib.StableHlo.Run
import Idealize.ShloMosaic.Lib.Pipeline.Regions
import proofs.«430285_j43310450213294_2_alg».proof.Proof.Ref.ReadP

/-! Window 4 of the reference program (`main_part4`), read as three consecutive stretches of host operations.
`ops4a` gathers the two feature maps at the sampled locations, normalises every gathered column, and forms the positive
logit (the inner product of each column of the first map with the same column of the second, as a column: `main_v224`) and the
negative logits (the matrix of inner products of the first map's columns with the second's, its diagonal set to −∞: `main_v223`). `ops4b` joins the two, divides by the temperature, takes the log-softmax along the joined
axis and averages minus its first column over the 4 × 64 samples: this layer's loss, `main_v233`. `ops4t` is the short
rest of the window: the running total, then the first operations of the next layer that still stand in this window (in
the last window, the division of the total by the number of layers).
The window is the sequence of the three stretches; and after a stretch a buffer it writes holds the stage function
`val_…` of what the stretch found in the buffers it reads, while every buffer it does not write keeps its contents. -/

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- A reference of the list `W`, as the one buffer an operation writes, lies in `W`'s buffers. -/
theorem part4_wr {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The first stretch: from the inputs to the two operands of the concatenation -/

set_option maxHeartbeats 4000000 in
set_option maxRecDepth 8192 in
/-- Operations 341 … 394 of the program, in order. -/
def ops4a : List (HloOp τ sig (Elt F)) :=
  [ binary main_arg14 main_v189 main_v190 (cmpi .slt : (⟨S64, .i32⟩ : BufTy).Contents (Elt F) → (⟨S64, .i32⟩ : BufTy).Contents (Elt F) → (⟨S64, .i1⟩ : BufTy).Contents (Elt F)),
    nullary main_c_48 (constantI S_ 32 256#32),
    unary main_c_48 main_v191 (broadcastInDim S64 ![] bcast_S_S64 : (⟨S_, .i32⟩ : BufTy).Contents (Elt F) → (⟨S64, .i32⟩ : BufTy).Contents (Elt F)),
    binary main_arg14 main_v191 main_v192 (addi : (⟨S64, .i32⟩ : BufTy).Contents (Elt F) → (⟨S64, .i32⟩ : BufTy).Contents (Elt F) → (⟨S64, .i32⟩ : BufTy).Contents (Elt F)),
    ternary main_v190 main_v192 main_arg14 main_v193 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v193 main_v194 (broadcastInDim S64x1 ![0] bcast_S64_S64x1_0 : (⟨S64, .i32⟩ : BufTy).Contents (Elt F) → (⟨S64x1, .i32⟩ : BufTy).Contents (Elt F)),
    binary main_v188 main_v194 main_v195 ((fun x i => Host.gather gather_S4x256x256_S64x1_S4x256x64_01_2_n_n_2_1_42561 x i) : (⟨S4x256x256, .f32⟩ : BufTy).Contents (Elt F) → (⟨S64x1, .i32⟩ : BufTy).Contents (Elt F) → (⟨S4x256x64, .f32⟩ : BufTy).Contents (Elt F)),
    reshape main_arg9 main_v196 rfl shapeCasts_S4x256x4x8x8_S4x256x256,
    nullary main_c_49 (constantI S_ 32 0#32),
    unary main_c_49 main_v197 (broadcastInDim S64 ![] bcast_S_S64 : (⟨S_, .i32⟩ : BufTy).Contents (Elt F) → (⟨S64, .i32⟩ : BufTy).Contents (Elt F)),
    binary main_arg14 main_v197 main_v198 (cmpi .slt : (⟨S64, .i32⟩ : BufTy).Contents (Elt F) → (⟨S64, .i32⟩ : BufTy).Contents (Elt F) → (⟨S64, .i1⟩ : BufTy).Contents (Elt F)),
    nullary main_c_50 (constantI S_ 32 256#32),
    unary main_c_50 main_v199 (broadcastInDim S64 ![] bcast_S_S64 : (⟨S_, .i32⟩ : BufTy).Contents (Elt F) → (⟨S64, .i32⟩ : BufTy).Contents (Elt F)),
    binary main_arg14 main_v199 main_v200 (addi : (⟨S64, .i32⟩ : BufTy).Contents (Elt F) → (⟨S64, .i32⟩ : BufTy).Contents (Elt F) → (⟨S64, .i32⟩ : BufTy).Contents (Elt F)),
    ternary main_v198 main_v200 main_arg14 main_v201 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v201 main_v202 (broadcastInDim S64x1 ![0] bcast_S64_S64x1_0 : (⟨S64, .i32⟩ : BufTy).Contents (Elt F) → (⟨S64x1, .i32⟩ : BufTy).Contents (Elt F)),
    binary main_v196 main_v202 main_v203 ((fun x i => Host.gather gather_S4x256x256_S64x1_S4x256x64_01_2_n_n_2_1_42561 x i) : (⟨S4x256x256, .f32⟩ : BufTy).Contents (Elt F) → (⟨S64x1, .i32⟩ : BufTy).Contents (Elt F) → (⟨S4x256x64, .f32⟩ : BufTy).Contents (Elt F)),
    TRef.binary (TRef.of (T := ⟨S4x256x64, .f32⟩) main_v195) (TRef.of (T := ⟨S4x256x64, .f32⟩) main_v195) (TRef.of (T := ⟨S4x256x64, .f32⟩) main_call16_v0) mulf,
    TRef.nullary (TRef.of (T := ⟨S_, .f32⟩) main_call16_cst) (constant S_ .f32 0x00000000#32),
    TRef.binary (TRef.of (T := ⟨S4x256x64, .f32⟩) main_call16_v0) (TRef.of (T := ⟨S_, .f32⟩) main_call16_cst) (TRef.of (T := ⟨S4x64, .f32⟩) main_call16_v1) (fun x v => Host.reduceAdd x v reducesTo_S4x256x64_S4x64_d1 h_S_),
    TRef.unary (TRef.of (T := ⟨S4x64, .f32⟩) main_call16_v1) (TRef.of (T := ⟨S4x1x64, .f32⟩) main_call16_v2) (broadcastInDim S4x1x64 ![0, 2] bcast_S4x64_S4x1x64_0_2),
    TRef.unary (TRef.of (T := ⟨S4x1x64, .f32⟩) main_call16_v2) (TRef.of (T := ⟨S4x1x64, .f32⟩) main_v204) Host.sqrt,
    nullary main_cst_51 (constant S_ .f32 0x2B8CBCCC#32),
    unary main_cst_51 main_v205 (broadcastInDim S4x1x64 ![] bcast_S_S4x1x64 : (⟨S_, .f32⟩ : BufTy).Contents (Elt F) → (⟨S4x1x64, .f32⟩ : BufTy).Contents (Elt F)),
    binary main_v204 main_v205 main_v206 (maximumf : (⟨S4x1x64, .f32⟩ : BufTy).Contents (Elt F) → (⟨S4x1x64, .f32⟩ : BufTy).Contents (Elt F) → (⟨S4x1x64, .f32⟩ : BufTy).Contents (Elt F)),
    unary main_v206 main_v207 (broadcastInDim S4x256x64 ![0, 1, 2] bcast_S4x1x64_S4x256x64_0_1_2 : (⟨S4x1x64, .f32⟩ : BufTy).Contents (Elt F) → (⟨S4x256x64, .f32⟩ : BufTy).Contents (Elt F)),
    binary main_v195 main_v207 main_v208 (Host.divf : (⟨S4x256x64, .f32⟩ : BufTy).Contents (Elt F) → (⟨S4x256x64, .f32⟩ : BufTy).Contents (Elt F) → (⟨S4x256x64, .f32⟩ : BufTy).Contents (Elt F)),
    TRef.binary (TRef.of (T := ⟨S4x256x64, .f32⟩) main_v203) (TRef.of (T := ⟨S4x256x64, .f32⟩) main_v203) (TRef.of (T := ⟨S4x256x64, .f32⟩) main_call17_v0) mulf,
    TRef.nullary (TRef.of (T := ⟨S_, .f32⟩) main_call17_cst) (constant S_ .f32 0x00000000#32),
    TRef.binary (TRef.of (T := ⟨S4x256x64, .f32⟩) main_call17_v0) (TRef.of (T := ⟨S_, .f32⟩) main_call17_cst) (TRef.of (T := ⟨S4x64, .f32⟩) main_call17_v1) (fun x v => Host.reduceAdd x v reducesTo_S4x256x64_S4x64_d1 h_S_),
    TRef.unary (TRef.of (T := ⟨S4x64, .f32⟩) main_call17_v1) (TRef.of (T := ⟨S4x1x64, .f32⟩) main_call17_v2) (broadcastInDim S4x1x64 ![0, 2] bcast_S4x64_S4x1x64_0_2),
    TRef.unary (TRef.of (T := ⟨S4x1x64, .f32⟩) main_call17_v2) (TRef.of (T := ⟨S4x1x64, .f32⟩) main_v209) Host.sqrt,
    nullary main_cst_52 (constant S_ .f32 0x2B8CBCCC#32),
    unary main_cst_52 main_v210 (broadcastInDim S4x1x64 ![] bcast_S_S4x1x64 : (⟨S_, .f32⟩ : BufTy).Contents (Elt F) → (⟨S4x1x64, .f32⟩ : BufTy).Contents (Elt F)),
    binary main_v209 main_v210 main_v211 (maximumf : (⟨S4x1x64, .f32⟩ : BufTy).Contents (Elt F) → (⟨S4x1x64, .f32⟩ : BufTy).Contents (Elt F) → (⟨S4x1x64, .f32⟩ : BufTy).Contents (Elt F)),
    unary main_v211 main_v212 (broadcastInDim S4x256x64 ![0, 1, 2] bcast_S4x1x64_S4x256x64_0_1_2 : (⟨S4x1x64, .f32⟩ : BufTy).Contents (Elt F) → (⟨S4x256x64, .f32⟩ : BufTy).Contents (Elt F)),
    binary main_v203 main_v212 main_v213 (Host.divf : (⟨S4x256x64, .f32⟩ : BufTy).Contents (Elt F) → (⟨S4x256x64, .f32⟩ : BufTy).Contents (Elt F) → (⟨S4x256x64, .f32⟩ : BufTy).Contents (Elt F)),
    binary main_v208 main_v213 main_v214 (mulf : (⟨S4x256x64, .f32⟩ : BufTy).Contents (Elt F) → (⟨S4x256x64, .f32⟩ : BufTy).Contents (Elt F) → (⟨S4x256x64, .f32⟩ : BufTy).Contents (Elt F)),
    nullary main_cst_53 (constant S_ .f32 0x00000000#32),
    binary main_v214 main_cst_53 main_v215 ((fun x v => Host.reduceAdd x v reducesTo_S4x256x64_S4x64_d1 h_S_) : (⟨S4x256x64, .f32⟩ : BufTy).Contents (Elt F) → (⟨S_, .f32⟩ : BufTy).Contents (Elt F) → (⟨S4x64, .f32⟩ : BufTy).Contents (Elt F)),
    binary main_v208 main_v213 main_v216 ((fun l r => Host.dotGeneral dot_S4x256x64_S4x256x64_S4x64x64_1_1_2_2_0_0 none l r) : (⟨S4x256x64, .f32⟩ : BufTy).Contents (Elt F) → (⟨S4x256x64, .f32⟩ : BufTy).Contents (Elt F) → (⟨S4x64x64, .f32⟩ : BufTy).Contents (Elt F)),
    nullary main_v217 (iotaInDim S64x64 32 0),
    nullary main_v218 (iotaInDim S64x64 32 1),
    nullary main_c_54 (constantI S_ 32 0#32),
    unary main_c_54 main_v219 (broadcastInDim S64x64 ![] bcast_S_S64x64 : (⟨S_, .i32⟩ : BufTy).Contents (Elt F) → (⟨S64x64, .i32⟩ : BufTy).Contents (Elt F)),
    binary main_v217 main_v219 main_v220 (addi : (⟨S64x64, .i32⟩ : BufTy).Contents (Elt F) → (⟨S64x64, .i32⟩ : BufTy).Contents (Elt F) → (⟨S64x64, .i32⟩ : BufTy).Contents (Elt F)),
    binary main_v220 main_v218 main_v221 (cmpi .eq : (⟨S64x64, .i32⟩ : BufTy).Contents (Elt F) → (⟨S64x64, .i32⟩ : BufTy).Contents (Elt F) → (⟨S64x64, .i1⟩ : BufTy).Contents (Elt F)),
    unary main_v221 main_v222 (broadcastInDim S1x64x64 ![1, 2] bcast_S64x64_S1x64x64_1_2 : (⟨S64x64, .i1⟩ : BufTy).Contents (Elt F) → (⟨S1x64x64, .i1⟩ : BufTy).Contents (Elt F)),
    nullary main_cst_55 (constant S_ .f32 0xFF800000#32),
    TRef.unary (TRef.of (T := ⟨S_, .f32⟩) main_cst_55) (TRef.of (T := ⟨S_, .f32⟩) main_call18_v0) id,
    TRef.unary (TRef.of (T := ⟨S1x64x64, .i1⟩) main_v222) (TRef.of (T := ⟨S4x64x64, .i1⟩) main_call18_v1) (broadcastInDim S4x64x64 ![0, 1, 2] bcast_S1x64x64_S4x64x64_0_1_2),
    TRef.unary (TRef.of (T := ⟨S_, .f32⟩) main_call18_v0) (TRef.of (T := ⟨S4x64x64, .f32⟩) main_call18_v2) (broadcastInDim S4x64x64 ![] bcast_S_S4x64x64),
    TRef.ternary (TRef.of (T := ⟨S4x64x64, .i1⟩) main_call18_v1) (TRef.of (T := ⟨S4x64x64, .f32⟩) main_call18_v2) (TRef.of (T := ⟨S4x64x64, .f32⟩) main_v216) (TRef.of (T := ⟨S4x64x64, .f32⟩) main_v223) select,
    unary main_v215 main_v224 (broadcastInDim S4x64x1 ![0, 1] bcast_S4x64_S4x64x1_0_1 : (⟨S4x64, .f32⟩ : BufTy).Contents (Elt F) → (⟨S4x64x1, .f32⟩ : BufTy).Contents (Elt F)) ]

set_option maxRecDepth 8192 in
/-- Every operation of the stretch touches TensorCore buffers only. -/
theorem ops4a_sub : (ops4a : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., nullary_bufs_sub .., nullary_bufs_sub .., unary_bufs_sub .., binary_bufs_sub .., binary_bufs_sub .., unary_bufs_sub .., nullary_bufs_sub .., unary_bufs_sub .., unary_bufs_sub .., unary_bufs_sub .., ternary_bufs_sub .., unary_bufs_sub ..⟩

set_option maxRecDepth 8192 in
/-- Every operation of the stretch determines its result. -/
theorem ops4a_fresh : (ops4a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the stretch writes, in order. -/
abbrev ops4a_W : List (Ref sig .tc) := [main_v190, main_c_48, main_v191, main_v192, main_v193, main_v194, main_v195, main_v196, main_c_49, main_v197, main_v198, main_c_50, main_v199, main_v200, main_v201, main_v202, main_v203, main_call16_v0, main_call16_cst, main_call16_v1, main_call16_v2, main_v204, main_cst_51, main_v205, main_v206, main_v207, main_v208, main_call17_v0, main_call17_cst, main_call17_v1, main_call17_v2, main_v209, main_cst_52, main_v210, main_v211, main_v212, main_v213, main_v214, main_cst_53, main_v215, main_v216, main_v217, main_v218, main_c_54, main_v219, main_v220, main_v221, main_v222, main_cst_55, main_call18_v0, main_call18_v1, main_call18_v2, main_v223, main_v224]

set_option maxRecDepth 8192 in
set_option maxHeartbeats 4000000 in
theorem ops4a_writes : (ops4a : List (HloOp τ sig (Elt F))).Forall fun op =>
    op.writes ⊆ (ops4a_W.map (Proc.devRef (τ := τ) .tc)).toFinset :=
  ⟨part4_wr main_v190 (by decide), part4_wr main_c_48 (by decide), part4_wr main_v191 (by decide), part4_wr main_v192 (by decide), part4_wr main_v193 (by decide), part4_wr main_v194 (by decide), part4_wr main_v195 (by decide), part4_wr main_v196 (by decide), part4_wr main_c_49 (by decide), part4_wr main_v197 (by decide), part4_wr main_v198 (by decide), part4_wr main_c_50 (by decide), part4_wr main_v199 (by decide), part4_wr main_v200 (by decide), part4_wr main_v201 (by decide), part4_wr main_v202 (by decide), part4_wr main_v203 (by decide), part4_wr main_call16_v0 (by decide), part4_wr main_call16_cst (by decide), part4_wr main_call16_v1 (by decide), part4_wr main_call16_v2 (by decide), part4_wr main_v204 (by decide), part4_wr main_cst_51 (by decide), part4_wr main_v205 (by decide), part4_wr main_v206 (by decide), part4_wr main_v207 (by decide), part4_wr main_v208 (by decide), part4_wr main_call17_v0 (by decide), part4_wr main_call17_cst (by decide), part4_wr main_call17_v1 (by decide), part4_wr main_call17_v2 (by decide), part4_wr main_v209 (by decide), part4_wr main_cst_52 (by decide), part4_wr main_v210 (by decide), part4_wr main_v211 (by decide), part4_wr main_v212 (by decide), part4_wr main_v213 (by decide), part4_wr main_v214 (by decide), part4_wr main_cst_53 (by decide), part4_wr main_v215 (by decide), part4_wr main_v216 (by decide), part4_wr main_v217 (by decide), part4_wr main_v218 (by decide), part4_wr main_c_54 (by decide), part4_wr main_v219 (by decide), part4_wr main_v220 (by decide), part4_wr main_v221 (by decide), part4_wr main_v222 (by decide), part4_wr main_cst_55 (by decide), part4_wr main_call18_v0 (by decide), part4_wr main_call18_v1 (by decide), part4_wr main_call18_v2 (by decide), part4_wr main_v223 (by decide), part4_wr main_v224 (by decide)⟩

/-- A buffer the stretch does not write keeps its contents through it. -/
theorem ops4a_keep (V : Valuation τ sig (Elt F)) (r : Ref sig .tc) (h : r ∉ ops4a_W) :
    after ops4a V (Proc.devRef .tc r) = V (Proc.devRef .tc r) :=
  after_of_writes_sub ops4a V ops4a_writes h

/-! ## The second stretch: from the concatenation to the layer's loss -/

set_option maxHeartbeats 4000000 in
set_option maxRecDepth 8192 in
/-- Operations 395 … 420 of the program, in order. -/
def ops4b : List (HloOp τ sig (Elt F)) :=
  [ binary main_v224 main_v223 main_v225 ((fun a b => concatenate S4x64x65 2 [⟨S4x64x1, a⟩, ⟨S4x64x64, b⟩] concatenates_S4x64x1_S4x64x64_S4x64x65_d2) : (⟨S4x64x1, .f32⟩ : BufTy).Contents (Elt F) → (⟨S4x64x64, .f32⟩ : BufTy).Contents (Elt F) → (⟨S4x64x65, .f32⟩ : BufTy).Contents (Elt F)),
    nullary main_cst_56 (constant S_ .f32 0x3D8F5C29#32),
    unary main_cst_56 main_v226 (broadcastInDim S4x64x65 ![] bcast_S_S4x64x65 : (⟨S_, .f32⟩ : BufTy).Contents (Elt F) → (⟨S4x64x65, .f32⟩ : BufTy).Contents (Elt F)),
    binary main_v225 main_v226 main_v227 (Host.divf : (⟨S4x64x65, .f32⟩ : BufTy).Contents (Elt F) → (⟨S4x64x65, .f32⟩ : BufTy).Contents (Elt F) → (⟨S4x64x65, .f32⟩ : BufTy).Contents (Elt F)),
    TRef.nullary (TRef.of (T := ⟨S_, .f32⟩) main_call19_cst) (constant S_ .f32 0xFF800000#32),
    TRef.binary (TRef.of (T := ⟨S4x64x65, .f32⟩) main_v227) (TRef.of (T := ⟨S_, .f32⟩) main_call19_cst) (TRef.of (T := ⟨S4x64, .f32⟩) main_call19_v0) (fun x v => Host.reduce FloatOps.maximumf x v reducesTo_S4x64x65_S4x64_d2 h_S_),
    TRef.nullary (TRef.of (T := ⟨S_, .f32⟩) main_call19_cst_0) (constant S_ .f32 0xFF800000#32),
    TRef.unary (TRef.of (T := ⟨S_, .f32⟩) main_call19_cst_0) (TRef.of (T := ⟨S4x64, .f32⟩) main_call19_v1) (broadcastInDim S4x64 ![] bcast_S_S4x64),
    TRef.binary (TRef.of (T := ⟨S4x64, .f32⟩) main_call19_v1) (TRef.of (T := ⟨S4x64, .f32⟩) main_call19_v0) (TRef.of (T := ⟨S4x64, .f32⟩) main_call19_v2) maximumf,
    TRef.unary (TRef.of (T := ⟨S4x64, .f32⟩) main_call19_v2) (TRef.of (T := ⟨S4x64x1, .f32⟩) main_call19_v3) (broadcastInDim S4x64x1 ![0, 1] bcast_S4x64_S4x64x1_0_1),
    TRef.unary (TRef.of (T := ⟨S4x64x1, .f32⟩) main_call19_v3) (TRef.of (T := ⟨S4x64x65, .f32⟩) main_call19_v4) (broadcastInDim S4x64x65 ![0, 1, 2] bcast_S4x64x1_S4x64x65_0_1_2),
    TRef.binary (TRef.of (T := ⟨S4x64x65, .f32⟩) main_v227) (TRef.of (T := ⟨S4x64x65, .f32⟩) main_call19_v4) (TRef.of (T := ⟨S4x64x65, .f32⟩) main_call19_v5) subf,
    TRef.unary (TRef.of (T := ⟨S4x64x65, .f32⟩) main_call19_v5) (TRef.of (T := ⟨S4x64x65, .f32⟩) main_call19_v6) Host.exp,
    TRef.nullary (TRef.of (T := ⟨S_, .f32⟩) main_call19_cst_1) (constant S_ .f32 0x00000000#32),
    TRef.binary (TRef.of (T := ⟨S4x64x65, .f32⟩) main_call19_v6) (TRef.of (T := ⟨S_, .f32⟩) main_call19_cst_1) (TRef.of (T := ⟨S4x64, .f32⟩) main_call19_v7) (fun x v => Host.reduceAdd x v reducesTo_S4x64x65_S4x64_d2 h_S_),
    TRef.unary (TRef.of (T := ⟨S4x64, .f32⟩) main_call19_v7) (TRef.of (T := ⟨S4x64x1, .f32⟩) main_call19_v8) (broadcastInDim S4x64x1 ![0, 1] bcast_S4x64_S4x64x1_0_1),
    TRef.unary (TRef.of (T := ⟨S4x64x1, .f32⟩) main_call19_v8) (TRef.of (T := ⟨S4x64x1, .f32⟩) main_call19_v9) Host.log,
    TRef.unary (TRef.of (T := ⟨S4x64x1, .f32⟩) main_call19_v9) (TRef.of (T := ⟨S4x64x65, .f32⟩) main_call19_v10) (broadcastInDim S4x64x65 ![0, 1, 2] bcast_S4x64x1_S4x64x65_0_1_2),
    TRef.binary (TRef.of (T := ⟨S4x64x65, .f32⟩) main_call19_v5) (TRef.of (T := ⟨S4x64x65, .f32⟩) main_call19_v10) (TRef.of (T := ⟨S4x64x65, .f32⟩) main_v228) subf,
    unary main_v228 main_v229 ((extractStridedSlice S4x64x1 ![0, 0, 0] · slices_S4x64x65_S4x64x1_0_0_0) : (⟨S4x64x65, .f32⟩ : BufTy).Contents (Elt F) → (⟨S4x64x1, .f32⟩ : BufTy).Contents (Elt F)),
    reshape main_v229 main_v230 rfl shapeCasts_S4x64x1_S4x64,
    unary main_v230 main_v231 (Host.negf : (⟨S4x64, .f32⟩ : BufTy).Contents (Elt F) → (⟨S4x64, .f32⟩ : BufTy).Contents (Elt F)),
    nullary main_cst_57 (constant S_ .f32 0x00000000#32),
    binary main_v231 main_cst_57 main_v232 ((fun x v => Host.reduceAdd x v reducesTo_S4x64_S_d0_1 h_S_) : (⟨S4x64, .f32⟩ : BufTy).Contents (Elt F) → (⟨S_, .f32⟩ : BufTy).Contents (Elt F) → (⟨S_, .f32⟩ : BufTy).Contents (Elt F)),
    nullary main_cst_58 (constant S_ .f32 0x43800000#32),
    binary main_v232 main_cst_58 main_v233 (Host.divf : (⟨S_, .f32⟩ : BufTy).Contents (Elt F) → (⟨S_, .f32⟩ : BufTy).Contents (Elt F) → (⟨S_, .f32⟩ : BufTy).Contents (Elt F)) ]

set_option maxRecDepth 8192 in
theorem ops4b_sub : (ops4b : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., unary_bufs_sub .., nullary_bufs_sub .., binary_bufs_sub .., nullary_bufs_sub .., binary_bufs_sub ..⟩

set_option maxRecDepth 8192 in
theorem ops4b_fresh : (ops4b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The buffers the stretch writes, in order. -/
abbrev ops4b_W : List (Ref sig .tc) := [main_v225, main_cst_56, main_v226, main_v227, main_call19_cst, main_call19_v0, main_call19_cst_0, main_call19_v1, main_call19_v2, main_call19_v3, main_call19_v4, main_call19_v5, main_call19_v6, main_call19_cst_1, main_call19_v7, main_call19_v8, main_call19_v9, main_call19_v10, main_v228, main_v229, main_v230, main_v231, main_cst_57, main_v232, main_cst_58, main_v233]

set_option maxRecDepth 8192 in
set_option maxHeartbeats 4000000 in
theorem ops4b_writes : (ops4b : List (HloOp τ sig (Elt F))).Forall fun op =>
    op.writes ⊆ (ops4b_W.map (Proc.devRef (τ := τ) .tc)).toFinset :=
  ⟨part4_wr main_v225 (by decide), part4_wr main_cst_56 (by decide), part4_wr main_v226 (by decide), part4_wr main_v227 (by decide), part4_wr main_call19_cst (by decide), part4_wr main_call19_v0 (by decide), part4_wr main_call19_cst_0 (by decide), part4_wr main_call19_v1 (by decide), part4_wr main_call19_v2 (by decide), part4_wr main_call19_v3 (by decide), part4_wr main_call19_v4 (by decide), part4_wr main_call19_v5 (by decide), part4_wr main_call19_v6 (by decide), part4_wr main_call19_cst_1 (by decide), part4_wr main_call19_v7 (by decide), part4_wr main_call19_v8 (by decide), part4_wr main_call19_v9 (by decide), part4_wr main_call19_v10 (by decide), part4_wr main_v228 (by decide), part4_wr main_v229 (by decide), part4_wr main_v230 (by decide), part4_wr main_v231 (by decide), part4_wr main_cst_57 (by decide), part4_wr main_v232 (by decide), part4_wr main_cst_58 (by decide), part4_wr main_v233 (by decide)⟩

theorem ops4b_keep (V : Valuation τ sig (Elt F)) (r : Ref sig .tc) (h : r ∉ ops4b_W) :
    after ops4b V (Proc.devRef .tc r) = V (Proc.devRef .tc r) :=
  after_of_writes_sub ops4b V ops4b_writes h

/-! ## The rest of the window -/

/-- Operations 421 … 423 of the program, in order. -/
def ops4t : List (HloOp τ sig (Elt F)) :=
  [ binary main_v187 main_v233 main_v234 (addf : (⟨S_, .f32⟩ : BufTy).Contents (Elt F) → (⟨S_, .f32⟩ : BufTy).Contents (Elt F) → (⟨S_, .f32⟩ : BufTy).Contents (Elt F)),
    nullary main_cst_59 (constant S_ .f32 0x40A00000#32),
    binary main_v234 main_cst_59 main_v235 (Host.divf : (⟨S_, .f32⟩ : BufTy).Contents (Elt F) → (⟨S_, .f32⟩ : BufTy).Contents (Elt F) → (⟨S_, .f32⟩ : BufTy).Contents (Elt F)) ]

theorem ops4t_sub : (ops4t : List (HloOp τ sig (Elt F))).Forall fun op => op.bufs ⊆ tcRefs τ sig :=
  ⟨binary_bufs_sub .., nullary_bufs_sub .., binary_bufs_sub ..⟩

theorem ops4t_fresh : (ops4t : List (HloOp τ sig (Elt F))).Forall fun op => op.fresh = ∅ :=
  ⟨rfl, rfl, rfl⟩

/-- The buffers the stretch writes, in order. -/
abbrev ops4t_W : List (Ref sig .tc) := [main_v234, main_cst_59, main_v235]

theorem ops4t_writes : (ops4t : List (HloOp τ sig (Elt F))).Forall fun op =>
    op.writes ⊆ (ops4t_W.map (Proc.devRef (τ := τ) .tc)).toFinset :=
  ⟨part4_wr main_v234 (by decide), part4_wr main_cst_59 (by decide), part4_wr main_v235 (by decide)⟩

theorem ops4t_keep (V : Valuation τ sig (Elt F)) (r : Ref sig .tc) (h : r ∉ ops4t_W) :
    after ops4t V (Proc.devRef .tc r) = V (Proc.devRef .tc r) :=
  after_of_writes_sub ops4t V ops4t_writes h

/-! ## The window is the three stretches in order -/

set_option maxRecDepth 8192 in
set_option maxHeartbeats 4000000 in
/-- Unfolding the window's statements — a called function's body standing in its call's place — gives the three lists'
    operations one after the other. -/
theorem main_part4_eq (c : Dev nD) :
    main_part4 (F := F) c = seq (ops4a ++ (ops4b ++ ops4t)) := by chain_rfl

/-- A buffer none of the three stretches writes keeps its contents through the window. -/
theorem part4_keep (V : Valuation τ sig (Elt F)) (r : Ref sig .tc)
    (ha : r ∉ ops4a_W) (hb : r ∉ ops4b_W) (ht : r ∉ ops4t_W) :
    after ops4t (after ops4b (after ops4a V)) (Proc.devRef .tc r) = V (Proc.devRef .tc r) := by
  rw [ops4t_keep _ r ht, ops4b_keep _ r hb, ops4a_keep _ r ha]

/-! ## What the stretches compute -/

set_option maxRecDepth 8192 in
set_option maxHeartbeats 4000000 in
/-- After the first stretch the positive logit's column is its stage function of the two feature maps and the sampled
    locations: each operation's result read at its own buffer, an earlier one's through the operations after it. -/
theorem ops4a_pos (V : Valuation τ sig (Elt F)) (xq xk : (⟨S4x256x4x8x8, .f32⟩ : BufTy).Contents (Elt F))
    (xi : (⟨S64, .i32⟩ : BufTy).Contents (Elt F))
    (hq : V (Proc.devRef .tc main_v188) = val_main_v188 (F := F) xq) (hk : V (Proc.devRef .tc main_arg9) = xk) (hi : V (Proc.devRef .tc main_arg14) = xi) (hz : V (Proc.devRef .tc main_v189) = val_main_v189 (F := F)) :
    after ops4a V (Proc.devRef .tc main_v224) = val_main_v224 (F := F) xq xk xi := by
  simp only [ops4a]
  after_results_simp
  simp only [*]
  simp only [TRef.ofBuf, TRef.toBuf, cast_eq]
  rfl

set_option maxRecDepth 8192 in
set_option maxHeartbeats 4000000 in
/-- After the first stretch the masked negative logits are their stage function of the same. -/
theorem ops4a_neg (V : Valuation τ sig (Elt F)) (xq xk : (⟨S4x256x4x8x8, .f32⟩ : BufTy).Contents (Elt F))
    (xi : (⟨S64, .i32⟩ : BufTy).Contents (Elt F))
    (hq : V (Proc.devRef .tc main_v188) = val_main_v188 (F := F) xq) (hk : V (Proc.devRef .tc main_arg9) = xk) (hi : V (Proc.devRef .tc main_arg14) = xi) (hz : V (Proc.devRef .tc main_v189) = val_main_v189 (F := F)) :
    after ops4a V (Proc.devRef .tc main_v223) = val_main_v223 (F := F) xq xk xi := by
  simp only [ops4a]
  after_results_simp
  simp only [*]
  simp only [TRef.ofBuf, TRef.toBuf, cast_eq]
  rfl

set_option maxRecDepth 8192 in
set_option maxHeartbeats 4000000 in
/-- The second stretch, run from contents whose two operands of the concatenation are the stage functions, leaves the
    layer's loss at its stage function. -/
theorem ops4b_loss (V : Valuation τ sig (Elt F)) (xq xk : (⟨S4x256x4x8x8, .f32⟩ : BufTy).Contents (Elt F))
    (xi : (⟨S64, .i32⟩ : BufTy).Contents (Elt F))
    (hpos : V (Proc.devRef .tc main_v224) = val_main_v224 (F := F) xq xk xi)
    (hneg : V (Proc.devRef .tc main_v223) = val_main_v223 (F := F) xq xk xi) :
    after ops4b V (Proc.devRef .tc main_v233) = val_main_v233 (F := F) xq xk xi := by
  simp only [ops4b]
  after_results_simp
  rw [hpos, hneg]
  simp only [TRef.ofBuf, TRef.toBuf, cast_eq]
  rfl

/-- The first two stretches in order: the layer's loss from the contents the window starts from. -/
theorem part4_loss (V : Valuation τ sig (Elt F)) (xq xk : (⟨S4x256x4x8x8, .f32⟩ : BufTy).Contents (Elt F))
    (xi : (⟨S64, .i32⟩ : BufTy).Contents (Elt F))
    (hq : V (Proc.devRef .tc main_v188) = val_main_v188 (F := F) xq) (hk : V (Proc.devRef .tc main_arg9) = xk) (hi : V (Proc.devRef .tc main_arg14) = xi) (hz : V (Proc.devRef .tc main_v189) = val_main_v189 (F := F)) :
    after ops4b (after ops4a V) (Proc.devRef .tc main_v233) = val_main_v233 (F := F) xq xk xi :=
  ops4b_loss _ xq xk xi (ops4a_pos V xq xk xi hq hk hi hz) (ops4a_neg V xq xk xi hq hk hi hz)

end Cert.ReferenceIdeal.HandRun

end
-- ==== Proof.Ref.Run.lean ====
import proofs.«430285_j43310450213294_2_alg».proof.Proof.Ref.Run0
import proofs.«430285_j43310450213294_2_alg».proof.Proof.Ref.Run1
import proofs.«430285_j43310450213294_2_alg».proof.Proof.Ref.Run2
import proofs.«430285_j43310450213294_2_alg».proof.Proof.Ref.Run3
import proofs.«430285_j43310450213294_2_alg».proof.Proof.Ref.Run4

/-! The reference program's run, read back: its five windows in order are one sequence of 423 host operations, so every
weakly fair execution terminates with each buffer at the fold of the operations' results over what the launch put there.
Window by window the fold is then evaluated at the few buffers that matter: window `K` leaves layer `K`'s loss at its stage
function of that layer's two feature maps and sampled locations, adds it to the running total of the layers before, and
writes none of the program's arguments; the last window divides the total of the five layers by five. -/

noncomputable section

namespace Cert.ReferenceIdeal.HandRun

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-! ## The program is one sequence of operations -/

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The program's 423 operations: the five windows' stretches, in order. -/
def allOps : List (HloOp τ sig (Elt F)) :=
  (ops0a ++ (ops0b ++ ops0t)) ++ ((ops1a ++ (ops1b ++ ops1t)) ++ ((ops2a ++ (ops2b ++ ops2t))
    ++ ((ops3a ++ (ops3b ++ ops3t)) ++ (ops4a ++ (ops4b ++ ops4t)))))

/-- @main runs its five windows in order, and each window is the sequence of its stretches. -/
theorem main_eq (c : Dev nD) : main (F := F) c = seq allOps := by
  rw [allOps, seq_append (ops0a ++ (ops0b ++ ops0t)) _, seq_append (ops1a ++ (ops1b ++ ops1t)) _,
    seq_append (ops2a ++ (ops2b ++ ops2t)) _, seq_append (ops3a ++ (ops3b ++ ops3t)) _,
    ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem allOps_sub : (allOps : List (HloOp τ sig (Elt F))).Forall fun op => op.bufs ⊆ tcRefs τ sig := by
  unfold allOps
  exact forall_append (forall_append ops0a_sub (forall_append ops0b_sub ops0t_sub))
    (forall_append (forall_append ops1a_sub (forall_append ops1b_sub ops1t_sub))
    (forall_append (forall_append ops2a_sub (forall_append ops2b_sub ops2t_sub))
    (forall_append (forall_append ops3a_sub (forall_append ops3b_sub ops3t_sub))
      (forall_append ops4a_sub (forall_append ops4b_sub ops4t_sub)))))

theorem allOps_fresh : (allOps : List (HloOp τ sig (Elt F))).Forall fun op => op.fresh = ∅ := by
  unfold allOps
  exact forall_append (forall_append ops0a_fresh (forall_append ops0b_fresh ops0t_fresh))
    (forall_append (forall_append ops1a_fresh (forall_append ops1b_fresh ops1t_fresh))
    (forall_append (forall_append ops2a_fresh (forall_append ops2b_fresh ops2t_fresh))
    (forall_append (forall_append ops3a_fresh (forall_append ops3b_fresh ops3t_fresh))
      (forall_append ops4a_fresh (forall_append ops4b_fresh ops4t_fresh)))))

/-! ## The windows as functions of the buffers' contents -/

/-- The contents after window 0, from the contents before it. -/
def win0 (V : Valuation τ sig (Elt F)) : Valuation τ sig (Elt F) := after ops0t (after ops0b (after ops0a V))
/-- The buffers window 0 writes. -/
abbrev win0_W : List (Ref sig .tc) := ops0a_W ++ (ops0b_W ++ ops0t_W)
/-- A buffer window 0 does not write keeps its contents through it. -/
theorem win0_keep (V : Valuation τ sig (Elt F)) (r : Ref sig .tc) (h : r ∉ win0_W) :
    win0 V (Proc.devRef .tc r) = V (Proc.devRef .tc r) :=
  part0_keep V r (fun h' => h (List.mem_append_left _ h'))
    (fun h' => h (List.mem_append_right _ (List.mem_append_left _ h')))
    (fun h' => h (List.mem_append_right _ (List.mem_append_right _ h')))

/-- The contents after window 1, from the contents before it. -/
def win1 (V : Valuation τ sig (Elt F)) : Valuation τ sig (Elt F) := after ops1t (after ops1b (after ops1a V))
/-- The buffers window 1 writes. -/
abbrev win1_W : List (Ref sig .tc) := ops1a_W ++ (ops1b_W ++ ops1t_W)
/-- A buffer window 1 does not write keeps its contents through it. -/
theorem win1_keep (V : Valuation τ sig (Elt F)) (r : Ref sig .tc) (h : r ∉ win1_W) :
    win1 V (Proc.devRef .tc r) = V (Proc.devRef .tc r) :=
  part1_keep V r (fun h' => h (List.mem_append_left _ h'))
    (fun h' => h (List.mem_append_right _ (List.mem_append_left _ h')))
    (fun h' => h (List.mem_append_right _ (List.mem_append_right _ h')))

/-- The contents after window 2, from the contents before it. -/
def win2 (V : Valuation τ sig (Elt F)) : Valuation τ sig (Elt F) := after ops2t (after ops2b (after ops2a V))
/-- The buffers window 2 writes. -/
abbrev win2_W : List (Ref sig .tc) := ops2a_W ++ (ops2b_W ++ ops2t_W)
/-- A buffer window 2 does not write keeps its contents through it. -/
theorem win2_keep (V : Valuation τ sig (Elt F)) (r : Ref sig .tc) (h : r ∉ win2_W) :
    win2 V (Proc.devRef .tc r) = V (Proc.devRef .tc r) :=
  part2_keep V r (fun h' => h (List.mem_append_left _ h'))
    (fun h' => h (List.mem_append_right _ (List.mem_append_left _ h')))
    (fun h' => h (List.mem_append_right _ (List.mem_append_right _ h')))

/-- The contents after window 3, from the contents before it. -/
def win3 (V : Valuation τ sig (Elt F)) : Valuation τ sig (Elt F) := after ops3t (after ops3b (after ops3a V))
/-- The buffers window 3 writes. -/
abbrev win3_W : List (Ref sig .tc) := ops3a_W ++ (ops3b_W ++ ops3t_W)
/-- A buffer window 3 does not write keeps its contents through it. -/
theorem win3_keep (V : Valuation τ sig (Elt F)) (r : Ref sig .tc) (h : r ∉ win3_W) :
    win3 V (Proc.devRef .tc r) = V (Proc.devRef .tc r) :=
  part3_keep V r (fun h' => h (List.mem_append_left _ h'))
    (fun h' => h (List.mem_append_right _ (List.mem_append_left _ h')))
    (fun h' => h (List.mem_append_right _ (List.mem_append_right _ h')))

/-- The contents after window 4, from the contents before it. -/
def win4 (V : Valuation τ sig (Elt F)) : Valuation τ sig (Elt F) := after ops4t (after ops4b (after ops4a V))
/-- The buffers window 4 writes. -/
abbrev win4_W : List (Ref sig .tc) := ops4a_W ++ (ops4b_W ++ ops4t_W)
/-- A buffer window 4 does not write keeps its contents through it. -/
theorem win4_keep (V : Valuation τ sig (Elt F)) (r : Ref sig .tc) (h : r ∉ win4_W) :
    win4 V (Proc.devRef .tc r) = V (Proc.devRef .tc r) :=
  part4_keep V r (fun h' => h (List.mem_append_left _ h'))
    (fun h' => h (List.mem_append_right _ (List.mem_append_left _ h')))
    (fun h' => h (List.mem_append_right _ (List.mem_append_right _ h')))

/-- The fold over the whole program is the five windows' in order. -/
theorem after_allOps (V : Valuation τ sig (Elt F)) : after allOps V = win4 (win3 (win2 (win1 (win0 V)))) := by
  simp only [allOps, after_append, win0, win1, win2, win3, win4]

/-- A buffer no window writes — each of the program's arguments — keeps its contents through the program. -/
theorem allOps_keep (V : Valuation τ sig (Elt F)) (r : Ref sig .tc)
    (h0 : r ∉ win0_W) (h1 : r ∉ win1_W) (h2 : r ∉ win2_W) (h3 : r ∉ win3_W) (h4 : r ∉ win4_W) :
    after allOps V (Proc.devRef .tc r) = V (Proc.devRef .tc r) := by
  rw [after_allOps, win4_keep _ r h4, win3_keep _ r h3, win2_keep _ r h2, win1_keep _ r h1, win0_keep _ r h0]

/-! ## The running total, window by window

Each window's last stretch adds the layer's loss to the total so far (the first to the constant zero); windows 1 to 3 end
with the first operations of the next layer, whose results the next window starts from. -/

/-- Window 0: the first layer's loss, as the total. -/
theorem win0_total (V : Valuation τ sig (Elt F)) :
    win0 V (Proc.devRef .tc main_v46) = val_main_v46 (F := F) (V (Proc.devRef .tc main_arg0)) (V (Proc.devRef .tc main_arg5)) (V (Proc.devRef .tc main_arg10)) := by
  have hl := part0_loss V _ _ _ rfl rfl rfl
  unfold win0
  generalize after ops0b (after ops0a V) = W at hl ⊢
  simp only [ops0t]
  after_results_simp
  rw [hl]
  rfl

/-- Window 1: the total of two layers. -/
theorem win1_total (V : Valuation τ sig (Elt F)) (t : (⟨S_, .f32⟩ : BufTy).Contents (Elt F))
    (ht : V (Proc.devRef .tc main_v46) = t) :
    win1 V (Proc.devRef .tc main_v93) = addf t (val_main_v92 (F := F) (V (Proc.devRef .tc main_arg1)) (V (Proc.devRef .tc main_arg6)) (V (Proc.devRef .tc main_arg11))) := by
  have hl := part1_loss V _ _ _ rfl rfl rfl
  have hk : after ops1b (after ops1a V) (Proc.devRef .tc main_v46) = t := by
    rw [ops1b_keep _ _ (by decide), ops1a_keep _ _ (by decide), ht]
  unfold win1
  generalize after ops1b (after ops1a V) = W at hl hk ⊢
  simp only [ops1t]
  after_results_simp
  rw [hl, hk]

/-- Window 1 ends with the third layer's first feature map flattened. -/
theorem win1_next (V : Valuation τ sig (Elt F)) :
    win1 V (Proc.devRef .tc main_v94) = val_main_v94 (F := F) (V (Proc.devRef .tc main_arg2)) := by
  have hk : after ops1b (after ops1a V) (Proc.devRef .tc main_arg2) = V (Proc.devRef .tc main_arg2) := by
    rw [ops1b_keep _ _ (by decide), ops1a_keep _ _ (by decide)]
  unfold win1
  generalize after ops1b (after ops1a V) = W at hk ⊢
  simp only [ops1t]
  after_results_simp
  rw [hk]
  rfl

/-- Window 2: the total of three layers. -/
theorem win2_total (V : Valuation τ sig (Elt F)) (t : (⟨S_, .f32⟩ : BufTy).Contents (Elt F))
    (xq : (⟨S4x128x8x16x16, .f32⟩ : BufTy).Contents (Elt F))
    (ht : V (Proc.devRef .tc main_v93) = t) (hq : V (Proc.devRef .tc main_v94) = val_main_v94 (F := F) xq) :
    win2 V (Proc.devRef .tc main_v140) = addf t (val_main_v139 (F := F) xq (V (Proc.devRef .tc main_arg7)) (V (Proc.devRef .tc main_arg12))) := by
  have hl := part2_loss V xq _ _ hq rfl rfl
  have hk : after ops2b (after ops2a V) (Proc.devRef .tc main_v93) = t := by
    rw [ops2b_keep _ _ (by decide), ops2a_keep _ _ (by decide), ht]
  unfold win2
  generalize after ops2b (after ops2a V) = W at hl hk ⊢
  simp only [ops2t]
  after_results_simp
  rw [hl, hk]

/-- Window 2 ends with the fourth layer's first feature map flattened and the zero its locations are compared with. -/
theorem win2_next (V : Valuation τ sig (Elt F)) :
    win2 V (Proc.devRef .tc main_v141) = val_main_v141 (F := F) (V (Proc.devRef .tc main_arg3))
      ∧ win2 V (Proc.devRef .tc main_c_35) = val_main_c_35 (F := F) := by
  have hk : after ops2b (after ops2a V) (Proc.devRef .tc main_arg3) = V (Proc.devRef .tc main_arg3) := by
    rw [ops2b_keep _ _ (by decide), ops2a_keep _ _ (by decide)]
  unfold win2
  generalize after ops2b (after ops2a V) = W at hk ⊢
  simp only [ops2t]
  constructor
  · after_results_simp
    rw [hk]
    rfl
  · after_results_simp
    rfl

/-- Window 3: the total of four layers. -/
theorem win3_total (V : Valuation τ sig (Elt F)) (t : (⟨S_, .f32⟩ : BufTy).Contents (Elt F))
    (xq : (⟨S4x256x4x8x8, .f32⟩ : BufTy).Contents (Elt F))
    (ht : V (Proc.devRef .tc main_v140) = t) (hq : V (Proc.devRef .tc main_v141) = val_main_v141 (F := F) xq)
    (hz : V (Proc.devRef .tc main_c_35) = val_main_c_35 (F := F)) :
    win3 V (Proc.devRef .tc main_v187) = addf t (val_main_v186 (F := F) xq (V (Proc.devRef .tc main_arg8)) (V (Proc.devRef .tc main_arg13))) := by
  have hl := part3_loss V xq _ _ hq rfl rfl hz
  have hk : after ops3b (after ops3a V) (Proc.devRef .tc main_v140) = t := by
    rw [ops3b_keep _ _ (by decide), ops3a_keep _ _ (by decide), ht]
  unfold win3
  generalize after ops3b (after ops3a V) = W at hl hk ⊢
  simp only [ops3t]
  after_results_simp
  rw [hl, hk]

/-- Window 3 ends with the fifth layer's first feature map flattened and the zeros its locations are compared with. -/
theorem win3_next (V : Valuation τ sig (Elt F)) :
    win3 V (Proc.devRef .tc main_v188) = val_main_v188 (F := F) (V (Proc.devRef .tc main_arg4))
      ∧ win3 V (Proc.devRef .tc main_v189) = val_main_v189 (F := F) := by
  have hk : after ops3b (after ops3a V) (Proc.devRef .tc main_arg4) = V (Proc.devRef .tc main_arg4) := by
    rw [ops3b_keep _ _ (by decide), ops3a_keep _ _ (by decide)]
  unfold win3
  generalize after ops3b (after ops3a V) = W at hk ⊢
  simp only [ops3t]
  constructor
  · after_results_simp
    rw [hk]
    rfl
  · after_results_simp
    rfl

/-- Window 4: the total of the five layers, divided by five. -/
theorem win4_total (V : Valuation τ sig (Elt F)) (t : (⟨S_, .f32⟩ : BufTy).Contents (Elt F))
    (xq : (⟨S4x256x4x8x8, .f32⟩ : BufTy).Contents (Elt F))
    (ht : V (Proc.devRef .tc main_v187) = t) (hq : V (Proc.devRef .tc main_v188) = val_main_v188 (F := F) xq)
    (hz : V (Proc.devRef .tc main_v189) = val_main_v189 (F := F)) :
    win4 V (Proc.devRef .tc main_v235)
      = Host.divf (addf t (val_main_v233 (F := F) xq (V (Proc.devRef .tc main_arg9)) (V (Proc.devRef .tc main_arg14)))) (val_main_cst_59 (F := F)) := by
  have hl := part4_loss V xq _ _ hq rfl rfl hz
  have hk : after ops4b (after ops4a V) (Proc.devRef .tc main_v187) = t := by
    rw [ops4b_keep _ _ (by decide), ops4a_keep _ _ (by decide), ht]
  unfold win4
  generalize after ops4b (after ops4a V) = W at hl hk ⊢
  simp only [ops4t]
  after_results_simp
  rw [hl, hk]
  rfl

/-! ## The result -/

/-- After the whole program the result buffer holds the mean over the five layers of the layers' losses, as the stage
    function of the fifteen arguments. -/
theorem allOps_value (V : Valuation τ sig (Elt F)) :
    after allOps V (Proc.devRef .tc main_v235)
      = val_main_v235 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  have t0 := win0_total V
  have t1 := win1_total (win0 V) _ t0
  rw [win0_keep V main_arg1 (by decide), win0_keep V main_arg6 (by decide), win0_keep V main_arg11 (by decide)] at t1
  have n1 := win1_next (win0 V)
  rw [win0_keep V main_arg2 (by decide)] at n1
  have t2 := win2_total (win1 (win0 V)) _ _ t1 n1
  rw [win1_keep _ main_arg7 (by decide), win0_keep V main_arg7 (by decide),
    win1_keep _ main_arg12 (by decide), win0_keep V main_arg12 (by decide)] at t2
  have n2 := win2_next (win1 (win0 V))
  rw [win1_keep _ main_arg3 (by decide), win0_keep V main_arg3 (by decide)] at n2
  have t3 := win3_total (win2 (win1 (win0 V))) _ _ t2 n2.1 n2.2
  rw [win2_keep _ main_arg8 (by decide), win1_keep _ main_arg8 (by decide), win0_keep V main_arg8 (by decide),
    win2_keep _ main_arg13 (by decide), win1_keep _ main_arg13 (by decide), win0_keep V main_arg13 (by decide)] at t3
  have n3 := win3_next (win2 (win1 (win0 V)))
  rw [win2_keep _ main_arg4 (by decide), win1_keep _ main_arg4 (by decide), win0_keep V main_arg4 (by decide)] at n3
  have t4 := win4_total (win3 (win2 (win1 (win0 V)))) _ _ t3 n3.1 n3.2
  rw [win3_keep _ main_arg9 (by decide), win2_keep _ main_arg9 (by decide), win1_keep _ main_arg9 (by decide),
    win0_keep V main_arg9 (by decide),
    win3_keep _ main_arg14 (by decide), win2_keep _ main_arg14 (by decide), win1_keep _ main_arg14 (by decide),
    win0_keep V main_arg14 (by decide)] at t4
  rw [after_allOps, t4]
  unfold val_main_v235 val_main_v234 val_main_v187 val_main_v140 val_main_v93
  rfl

/-- On every device, for any float values, from any memory with zero counters: every weakly fair execution of @main
    terminates with the result at its stage function of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v235)
        = val_main_v235 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v235).trans (allOps_value (launchContents m c)),
      (h c main_arg0).trans (allOps_keep (launchContents m c) main_arg0 (by decide) (by decide) (by decide) (by decide) (by decide)),
      (h c main_arg1).trans (allOps_keep (launchContents m c) main_arg1 (by decide) (by decide) (by decide) (by decide) (by decide)),
      (h c main_arg2).trans (allOps_keep (launchContents m c) main_arg2 (by decide) (by decide) (by decide) (by decide) (by decide)),
      (h c main_arg3).trans (allOps_keep (launchContents m c) main_arg3 (by decide) (by decide) (by decide) (by decide) (by decide)),
      (h c main_arg4).trans (allOps_keep (launchContents m c) main_arg4 (by decide) (by decide) (by decide) (by decide) (by decide)),
      (h c main_arg5).trans (allOps_keep (launchContents m c) main_arg5 (by decide) (by decide) (by decide) (by decide) (by decide)),
      (h c main_arg6).trans (allOps_keep (launchContents m c) main_arg6 (by decide) (by decide) (by decide) (by decide) (by decide)),
      (h c main_arg7).trans (allOps_keep (launchContents m c) main_arg7 (by decide) (by decide) (by decide) (by decide) (by decide)),
      (h c main_arg8).trans (allOps_keep (launchContents m c) main_arg8 (by decide) (by decide) (by decide) (by decide) (by decide)),
      (h c main_arg9).trans (allOps_keep (launchContents m c) main_arg9 (by decide) (by decide) (by decide) (by decide) (by decide)),
      (h c main_arg10).trans (allOps_keep (launchContents m c) main_arg10 (by decide) (by decide) (by decide) (by decide) (by decide)),
      (h c main_arg11).trans (allOps_keep (launchContents m c) main_arg11 (by decide) (by decide) (by decide) (by decide) (by decide)),
      (h c main_arg12).trans (allOps_keep (launchContents m c) main_arg12 (by decide) (by decide) (by decide) (by decide) (by decide)),
      (h c main_arg13).trans (allOps_keep (launchContents m c) main_arg13 (by decide) (by decide) (by decide) (by decide) (by decide)),
      (h c main_arg14).trans (allOps_keep (launchContents m c) main_arg14 (by decide) (by decide) (by decide) (by decide) (by decide))⟩)
    (run_seq scopedRefs_eq scopedSems_eq defs main (fun _ => allOps) main_eq (fun _ => allOps_sub) m ρ
      (fun _ => List.forall_iff_forall_mem.mp allOps_fresh))

end Cert.ReferenceIdeal.HandRun

end
-- ==== Proof.Preserves.lean ====
/-
  The idealized kernel is the kernel's sanctioned idealization: per pallas_call, the two windows where a block is
  narrowed to bf16 and widened back are the identity on extended reals (a change of format changes no value
  there), and the fill of the masked diagonal, the literal −1e30, is read as −∞, the value the table of named
  constants gives the name "neg_big".
-/
import proofs.«430285_j43310450213294_2_alg».proof.Defs

noncomputable section

namespace Cert.Proof

open Idealize.ShloMosaic

/-- The fifteen ledger entries, in order: three per pallas_call. -/
theorem preserves : Cert.preserves_Kernel_KernelIdeal :=
  ⟨IdealRules.truncf_extf.statement Cert.KernelIdeal.S32x8192 .f32 .bf16,
    IdealRules.truncf_extf.statement Cert.KernelIdeal.S32x8192 .f32 .bf16,
    IdealRules.named_const.statement Cert.KernelIdeal.κ "neg_big" .f32 0xF149F2CA#32 ⊥ rfl,
    IdealRules.truncf_extf.statement Cert.KernelIdeal.S64x8192 .f32 .bf16,
    IdealRules.truncf_extf.statement Cert.KernelIdeal.S64x8192 .f32 .bf16,
    IdealRules.named_const.statement Cert.KernelIdeal.κ "neg_big" .f32 0xF149F2CA#32 ⊥ rfl,
    IdealRules.truncf_extf.statement Cert.KernelIdeal.S128x2048 .f32 .bf16,
    IdealRules.truncf_extf.statement Cert.KernelIdeal.S128x2048 .f32 .bf16,
    IdealRules.named_const.statement Cert.KernelIdeal.κ "neg_big" .f32 0xF149F2CA#32 ⊥ rfl,
    IdealRules.truncf_extf.statement Cert.KernelIdeal.S256x256 .f32 .bf16,
    IdealRules.truncf_extf.statement Cert.KernelIdeal.S256x256 .f32 .bf16,
    IdealRules.named_const.statement Cert.KernelIdeal.κ "neg_big" .f32 0xF149F2CA#32 ⊥ rfl,
    IdealRules.truncf_extf.statement Cert.KernelIdeal.S256x256 .f32 .bf16,
    IdealRules.truncf_extf.statement Cert.KernelIdeal.S256x256 .f32 .bf16,
    IdealRules.named_const.statement Cert.KernelIdeal.κ "neg_big" .f32 0xF149F2CA#32 ⊥ rfl⟩

end Cert.Proof

end
-- ==== Proof.Spec.lean ====
/-
  The contrastive patch loss as one function of the two feature arrays and the sampled positions.

  For one layer with `C` channels and `N` locations, and one batch entry: column `p` of the query (of the key)
  is the `C`-vector at position `sel p`; each column is scaled to unit Euclidean length, the length floored at
  `ε`; the positive logit of `p` is the inner product of the two unit columns at `p` over the temperature, the
  negative logits are the inner products of the query's unit column at `p` with the key's unit column at every
  OTHER `k` over the temperature, the slot `k = p` holding `−∞`; the loss at `p` is the cross-entropy of the
  positive slot among these 65 logits, computed with the largest logit subtracted:
  `log (exp (pos − top) + ∑ₖ exp (negₖ − top)) − (pos − top)`.
  A layer's mean is the sum of its 4 · 64 losses over 256, and the result is the five means added from zero, over 5.
-/
import Idealize.ShloMosaic.PureOps.Ideal
import Idealize.ShloMosaic.Lib.ValueIdx

noncomputable section

namespace Cert.Spec

open Idealize.ShloMosaic

/-- The floor under a column's length: the f32 word of `1e-12`, the same word in both programs. -/
def eps : EReal := Ideal.ofBits .f32 0x2B8CBCCC#32
/-- The temperature: the f32 word of `0.07`, the same word in both programs. -/
def tau : EReal := Ideal.ofBits .f32 0x3D8F5C29#32
/-- The number of losses a layer averages, `256`, as both programs spell it. -/
def count : EReal := Ideal.ofBits .f32 0x43800000#32
/-- The number of layers, `5`, as both programs spell it. -/
def layers : EReal := Ideal.ofBits .f32 0x40A00000#32

variable {C : ℕ}

/-- Euclidean length of a column. -/
def norm (g : Fin C → EReal) : EReal := Ideal.sqrt (∑ c, g c * g c)

/-- The column scaled to unit length, its length floored at `eps`. -/
def unit (g : Fin C → EReal) (c : Fin C) : EReal := Ideal.div (g c) (max (norm g) eps)

/-- The positive logit of patch `p`: query and key unit columns at `p`, over the temperature. -/
def pos (gq gk : Fin 64 → Fin C → EReal) (p : Fin 64) : EReal :=
  Ideal.div (∑ c, unit (gq p) c * unit (gk p) c) tau

/-- The negative logit of patch `p` against patch `k`: `−∞` on the diagonal, elsewhere the key's unit column at
    `k` against the query's at `p`, over the temperature. -/
def neg (gq gk : Fin 64 → Fin C → EReal) (p k : Fin 64) : EReal :=
  if k = p then ⊥ else Ideal.div (∑ c, unit (gk k) c * unit (gq p) c) tau

/-- The largest of patch `p`'s 65 logits. -/
def top (gq gk : Fin 64 → Fin C → EReal) (p : Fin 64) : EReal :=
  max (pos gq gk p) (Finset.univ.sup fun k => neg gq gk p k)

/-- The cross-entropy of the positive slot among patch `p`'s logits, the largest logit subtracted. -/
def loss (gq gk : Fin 64 → Fin C → EReal) (p : Fin 64) : EReal :=
  Ideal.log (Ideal.exp (pos gq gk p - top gq gk p) + ∑ k, Ideal.exp (neg gq gk p k - top gq gk p))
    - (pos gq gk p - top gq gk p)

/-- One layer: batch entry `b`, patch `p`, the columns gathered at the positions `sel`. -/
def layer {N : ℕ} (q k : Fin 4 → Fin C → Fin N → EReal) (sel : Fin 64 → Fin N) (b : Fin 4) (p : Fin 64) : EReal :=
  loss (fun p c => q b c (sel p)) (fun p c => k b c (sel p)) p

/-- A `[4, C, N]` array of extended reals as a function of batch entry, channel and location. -/
def cur {N : ℕ} (x : (⟨3, ![4, C, N]⟩ : Shape).Idx → EReal) : Fin 4 → Fin C → Fin N → EReal :=
  fun b c n => x (ValueIdx.ix3 b c n)

/-- One layer of two `[4, C, N]` arrays. -/
def layerOf {N : ℕ} (x y : (⟨3, ![4, C, N]⟩ : Shape).Idx → EReal) (sel : Fin 64 → Fin N) : Fin 4 → Fin 64 → EReal :=
  layer (cur x) (cur y) sel

/-- A layer's mean: its 256 losses added from zero, over `count`. -/
def mean (L : Fin 4 → Fin 64 → EReal) : EReal := Ideal.div (0 + ∑ b, ∑ p, L b p) count

/-- The result: the five means added in order from zero, over `layers`. -/
def total (m0 m1 m2 m3 m4 : EReal) : EReal := Ideal.div (((((0 + m0) + m1) + m2) + m3) + m4) layers

end Cert.Spec

end
-- ==== Proof.KI.Host.lean ====
/-
  The kernel program's host operations, read for arbitrary region outputs.

  Before each of the five regions the program reshapes two [4, C, D, H, W] feature arrays to [4, C, N] and one [64] index
  array to [1, 64]; after it, it adds the region's [4, 1, 64] output over all its entries from zero, divides by 256, and adds
  the quotient to a running total that starts at zero; at the end it divides the total by 5. No host operation and no region
  writes an argument, so each reshape reads its argument as launched. At the ideal values the sum over a [4, 1, 64] array is
  the double sum over batch entry and patch (the middle axis has one coordinate), so each quotient is the layer mean of the
  specification and the last value its total.
-/
import proofs.«430285_j43310450213294_2_alg».proof.Proof.Gen.KernelIdeal.Regions
import proofs.«430285_j43310450213294_2_alg».proof.Proof.Spec
import Idealize.ShloMosaic.Lib.StableHlo.Run
import Idealize.ShloMosaic.Lib.IdealHost
import Idealize.ShloMosaic.Lib.ValueIdx
import Idealize.ShloMosaic.PureOps.Ideal.Laws

noncomputable section

namespace Cert.KernelIdeal.Hand

open Idealize.ShloMosaic Idealize.ShloMosaic.TcCoe Idealize.SL.Sem
open Cert.KernelIdeal

section Generic

variable {F : FTy → Type} [FloatOps F] [Named F]
variable (m : (ℓ : Loc nD τ sig) → Buf (Elt F) ℓ) (outs : Gen.Outs (F := F))

/-! ## A reference nothing has written yet holds its launch contents -/

theorem V2_arg (c : Dev nD) (r : Ref sig .tc) (h1 : r ∉ Gen.hostOps0_W) (h2 : r ∉ ([main_v3] : List (Ref sig .tc))) :
    Gen.V2 m outs c r = m ((c : Thread nD τ).loc r) :=
  (Gen.V2_of m outs c r h2).trans <| (Gen.V1_of m c r h1).trans rfl
theorem V4_arg (c : Dev nD) (r : Ref sig .tc) (h1 : r ∉ Gen.hostOps0_W) (h2 : r ∉ ([main_v3] : List (Ref sig .tc)))
    (h3 : r ∉ Gen.hostOps1_W) (h4 : r ∉ ([main_v10] : List (Ref sig .tc))) :
    Gen.V4 m outs c r = m ((c : Thread nD τ).loc r) :=
  (Gen.V4_of m outs c r h4).trans <| (Gen.V3_of m outs c r h3).trans <| V2_arg m outs c r h1 h2
theorem V6_arg (c : Dev nD) (r : Ref sig .tc) (h1 : r ∉ Gen.hostOps0_W) (h2 : r ∉ ([main_v3] : List (Ref sig .tc)))
    (h3 : r ∉ Gen.hostOps1_W) (h4 : r ∉ ([main_v10] : List (Ref sig .tc)))
    (h5 : r ∉ Gen.hostOps2_W) (h6 : r ∉ ([main_v17] : List (Ref sig .tc))) :
    Gen.V6 m outs c r = m ((c : Thread nD τ).loc r) :=
  (Gen.V6_of m outs c r h6).trans <| (Gen.V5_of m outs c r h5).trans <| V4_arg m outs c r h1 h2 h3 h4
theorem V8_arg (c : Dev nD) (r : Ref sig .tc) (h1 : r ∉ Gen.hostOps0_W) (h2 : r ∉ ([main_v3] : List (Ref sig .tc)))
    (h3 : r ∉ Gen.hostOps1_W) (h4 : r ∉ ([main_v10] : List (Ref sig .tc)))
    (h5 : r ∉ Gen.hostOps2_W) (h6 : r ∉ ([main_v17] : List (Ref sig .tc)))
    (h7 : r ∉ Gen.hostOps3_W) (h8 : r ∉ ([main_v24] : List (Ref sig .tc))) :
    Gen.V8 m outs c r = m ((c : Thread nD τ).loc r) :=
  (Gen.V8_of m outs c r h8).trans <| (Gen.V7_of m outs c r h7).trans <| V6_arg m outs c r h1 h2 h3 h4 h5 h6

/-! ## The entry arrays of the five regions -/

theorem V1_main_v0 (c : Dev nD) :
    Gen.V1 m c main_v0 = shapeCast _ (m ((c : Thread nD τ).loc main_arg0)) Gen.shapeCasts_S4x32x32x64x64_S4x32x131072 := by
  dsimp only [Gen.V1, Gen.hostOps0]; after_results; rfl
theorem V1_main_v1 (c : Dev nD) :
    Gen.V1 m c main_v1 = shapeCast _ (m ((c : Thread nD τ).loc main_arg5)) Gen.shapeCasts_S4x32x32x64x64_S4x32x131072 := by
  dsimp only [Gen.V1, Gen.hostOps0]; after_results; rfl
theorem V1_main_v2 (c : Dev nD) :
    Gen.V1 m c main_v2 = shapeCast _ (m ((c : Thread nD τ).loc main_arg10)) Gen.shapeCasts_S64_S1x64 := by
  dsimp only [Gen.V1, Gen.hostOps0]; after_results; rfl

theorem V3_main_v7 (c : Dev nD) :
    Gen.V3 m outs c main_v7 = shapeCast _ (m ((c : Thread nD τ).loc main_arg1)) Gen.shapeCasts_S4x64x16x32x32_S4x64x16384 := by
  dsimp only [Gen.V3, Gen.hostOps1]; after_results
  rw [V2_arg m outs c main_arg1 (by decide) (by decide)]; rfl
theorem V3_main_v8 (c : Dev nD) :
    Gen.V3 m outs c main_v8 = shapeCast _ (m ((c : Thread nD τ).loc main_arg6)) Gen.shapeCasts_S4x64x16x32x32_S4x64x16384 := by
  dsimp only [Gen.V3, Gen.hostOps1]; after_results
  rw [V2_arg m outs c main_arg6 (by decide) (by decide)]; rfl
theorem V3_main_v9 (c : Dev nD) :
    Gen.V3 m outs c main_v9 = shapeCast _ (m ((c : Thread nD τ).loc main_arg11)) Gen.shapeCasts_S64_S1x64 := by
  dsimp only [Gen.V3, Gen.hostOps1]; after_results
  rw [V2_arg m outs c main_arg11 (by decide) (by decide)]; rfl

theorem V5_main_v14 (c : Dev nD) :
    Gen.V5 m outs c main_v14 = shapeCast _ (m ((c : Thread nD τ).loc main_arg2)) Gen.shapeCasts_S4x128x8x16x16_S4x128x2048 := by
  dsimp only [Gen.V5, Gen.hostOps2]; after_results
  rw [V4_arg m outs c main_arg2 (by decide) (by decide) (by decide) (by decide)]; rfl
theorem V5_main_v15 (c : Dev nD) :
    Gen.V5 m outs c main_v15 = shapeCast _ (m ((c : Thread nD τ).loc main_arg7)) Gen.shapeCasts_S4x128x8x16x16_S4x128x2048 := by
  dsimp only [Gen.V5, Gen.hostOps2]; after_results
  rw [V4_arg m outs c main_arg7 (by decide) (by decide) (by decide) (by decide)]; rfl
theorem V5_main_v16 (c : Dev nD) :
    Gen.V5 m outs c main_v16 = shapeCast _ (m ((c : Thread nD τ).loc main_arg12)) Gen.shapeCasts_S64_S1x64 := by
  dsimp only [Gen.V5, Gen.hostOps2]; after_results
  rw [V4_arg m outs c main_arg12 (by decide) (by decide) (by decide) (by decide)]; rfl

theorem V7_main_v21 (c : Dev nD) :
    Gen.V7 m outs c main_v21 = shapeCast _ (m ((c : Thread nD τ).loc main_arg3)) Gen.shapeCasts_S4x256x4x8x8_S4x256x256 := by
  dsimp only [Gen.V7, Gen.hostOps3]; after_results
  rw [V6_arg m outs c main_arg3 (by decide) (by decide) (by decide) (by decide) (by decide) (by decide)]; rfl
theorem V7_main_v22 (c : Dev nD) :
    Gen.V7 m outs c main_v22 = shapeCast _ (m ((c : Thread nD τ).loc main_arg8)) Gen.shapeCasts_S4x256x4x8x8_S4x256x256 := by
  dsimp only [Gen.V7, Gen.hostOps3]; after_results
  rw [V6_arg m outs c main_arg8 (by decide) (by decide) (by decide) (by decide) (by decide) (by decide)]; rfl
theorem V7_main_v23 (c : Dev nD) :
    Gen.V7 m outs c main_v23 = shapeCast _ (m ((c : Thread nD τ).loc main_arg13)) Gen.shapeCasts_S64_S1x64 := by
  dsimp only [Gen.V7, Gen.hostOps3]; after_results
  rw [V6_arg m outs c main_arg13 (by decide) (by decide) (by decide) (by decide) (by decide) (by decide)]; rfl

theorem V9_main_v28 (c : Dev nD) :
    Gen.V9 m outs c main_v28 = shapeCast _ (m ((c : Thread nD τ).loc main_arg4)) Gen.shapeCasts_S4x256x4x8x8_S4x256x256 := by
  dsimp only [Gen.V9, Gen.hostOps4]; after_results
  rw [V8_arg m outs c main_arg4 (by decide) (by decide) (by decide) (by decide) (by decide) (by decide) (by decide) (by decide)]; rfl
theorem V9_main_v29 (c : Dev nD) :
    Gen.V9 m outs c main_v29 = shapeCast _ (m ((c : Thread nD τ).loc main_arg9)) Gen.shapeCasts_S4x256x4x8x8_S4x256x256 := by
  dsimp only [Gen.V9, Gen.hostOps4]; after_results
  rw [V8_arg m outs c main_arg9 (by decide) (by decide) (by decide) (by decide) (by decide) (by decide) (by decide) (by decide)]; rfl
theorem V9_main_v30 (c : Dev nD) :
    Gen.V9 m outs c main_v30 = shapeCast _ (m ((c : Thread nD τ).loc main_arg14)) Gen.shapeCasts_S64_S1x64 := by
  dsimp only [Gen.V9, Gen.hostOps4]; after_results
  rw [V8_arg m outs c main_arg14 (by decide) (by decide) (by decide) (by decide) (by decide) (by decide) (by decide) (by decide)]; rfl

/-! ## The running total -/

/-- What the host makes of one region's [4, 1, 64] output: its sum from zero, over 256. -/
def hmean (o : FVec F S4x1x64 .f32) : FVec F S_ .f32 :=
  Host.divf (Host.reduceAdd o (constant S_ .f32 0x00000000#32) Gen.reducesTo_S4x1x64_S_d0_1_2 Gen.h_S_)
    (constant S_ .f32 0x43800000#32)

theorem V3_main_v6 (c : Dev nD) :
    Gen.V3 m outs c main_v6 = addf (constant S_ .f32 0x00000000#32) (hmean (outs 2 main_v3 c)) := by
  dsimp only [Gen.V3, Gen.hostOps1]; after_results
  rw [show Gen.V2 m outs c main_v3 = outs 2 main_v3 c from Function.update_self ..]; rfl
theorem V5_main_v13 (c : Dev nD) :
    Gen.V5 m outs c main_v13 = addf (Gen.V3 m outs c main_v6) (hmean (outs 4 main_v10 c)) := by
  dsimp only [Gen.V5, Gen.hostOps2]; after_results
  rw [show Gen.V4 m outs c main_v10 = outs 4 main_v10 c from Function.update_self ..,
    Gen.V4_of m outs c main_v6 (by decide)]; rfl
theorem V7_main_v20 (c : Dev nD) :
    Gen.V7 m outs c main_v20 = addf (Gen.V5 m outs c main_v13) (hmean (outs 6 main_v17 c)) := by
  dsimp only [Gen.V7, Gen.hostOps3]; after_results
  rw [show Gen.V6 m outs c main_v17 = outs 6 main_v17 c from Function.update_self ..,
    Gen.V6_of m outs c main_v13 (by decide)]; rfl
theorem V9_main_v27 (c : Dev nD) :
    Gen.V9 m outs c main_v27 = addf (Gen.V7 m outs c main_v20) (hmean (outs 8 main_v24 c)) := by
  dsimp only [Gen.V9, Gen.hostOps4]; after_results
  rw [show Gen.V8 m outs c main_v24 = outs 8 main_v24 c from Function.update_self ..,
    Gen.V8_of m outs c main_v20 (by decide)]; rfl
theorem V11_main_v35 (c : Dev nD) :
    Gen.V11 m outs c main_v35
      = Host.divf (addf (Gen.V9 m outs c main_v27) (hmean (outs 10 main_v31 c))) (constant S_ .f32 0x40A00000#32) := by
  dsimp only [Gen.V11, Gen.hostOps5]; after_results
  rw [show Gen.V10 m outs c main_v31 = outs 10 main_v31 c from Function.update_self ..,
    Gen.V10_of m outs c main_v27 (by decide)]; rfl

end Generic

section AtIdeal

open ValueIdx

/-- A [4, 1, 64] index is a batch entry and a patch: the middle axis has one coordinate. -/
def idxEquiv : S4x1x64.Idx ≃ Fin 4 × Fin 64 where
  toFun i := (i 0, i 2)
  invFun p := ix3 p.1 0 p.2
  left_inv i := by
    funext a
    match a with
    | ⟨0, _⟩ => rfl
    | ⟨1, h⟩ =>
      exact Fin.ext (by
        have h1 : (i ⟨1, h⟩).val < 1 := (i ⟨1, h⟩).isLt
        show 0 = (i ⟨1, h⟩).val
        omega)
    | ⟨2, _⟩ => rfl
  right_inv _ := rfl

/-- So a sum over a [4, 1, 64] index set is the double sum over batch entry and patch. -/
theorem sum_idx (f : S4x1x64.Idx → EReal) : ∑ i, f i = ∑ b : Fin 4, ∑ p : Fin 64, f (ix3 b 0 p) := by
  rw [← Equiv.sum_comp idxEquiv.symm f, Fintype.sum_prod_type]
  rfl

/-- The layer mean of a [4, 1, 64] array of losses. -/
abbrev μ (o : S4x1x64.Idx → EReal) : EReal := Cert.Spec.mean fun b p => o (ix3 b 0 p)

/-- At the ideal values the host's sum-from-zero over 256 is the specification's layer mean. -/
theorem hmean_apply (o : S4x1x64.Idx → EReal) : hmean (F := Ideal) o ix0 = μ o := by
  show Ideal.div (Ideal.hostReduceAdd Gen.reducesTo_S4x1x64_S_d0_1_2 o (Ideal.ofBits .f32 0x00000000#32) ix0)
      (Ideal.ofBits .f32 0x43800000#32) = _
  rw [Ideal.hostReduceAdd_total _ (fun b => b.elim0), Ideal.ofBits_zero_f32, sum_idx]
  rfl

/-- One step of the running total: a scalar whose value is `a`, plus the host's mean of a region's output. -/
theorem addf_hmean_apply (t : FVec Ideal S_ .f32) (o : S4x1x64.Idx → EReal) (a : EReal) (ht : t ix0 = a) :
    addf t (hmean o) ix0 = a + μ o := by
  show t ix0 + hmean (F := Ideal) o ix0 = _
  rw [ht, hmean_apply]

/-- The last division: a scalar whose value is `a`, over the number of layers. -/
theorem divf_layers_apply (t : FVec Ideal S_ .f32) (a : EReal) (ht : t ix0 = a) :
    Host.divf t (constant S_ .f32 0x40A00000#32) ix0 = Ideal.div a Cert.Spec.layers := by
  show Ideal.div (t ix0) (Ideal.ofBits .f32 0x40A00000#32) = _
  rw [ht]
  rfl

variable (m : (ℓ : Loc nD τ sig) → Buf (Elt Ideal) ℓ) (outs : Gen.Outs (F := Ideal))

/-- THE RESULT: the program's last value is the specification's total of the five layer means of the regions' outputs. -/
theorem result (c : Dev nD) :
    Gen.V11 m outs c main_v35 ix0
      = Cert.Spec.total (μ (outs 2 main_v3 c)) (μ (outs 4 main_v10 c)) (μ (outs 6 main_v17 c)) (μ (outs 8 main_v24 c))
          (μ (outs 10 main_v31 c)) :=
  have e6 := (congrFun (V3_main_v6 m outs c) ix0).trans
    (addf_hmean_apply _ (outs 2 main_v3 c) 0 Ideal.ofBits_zero_f32)
  have e13 := (congrFun (V5_main_v13 m outs c) ix0).trans (addf_hmean_apply _ (outs 4 main_v10 c) _ e6)
  have e20 := (congrFun (V7_main_v20 m outs c) ix0).trans (addf_hmean_apply _ (outs 6 main_v17 c) _ e13)
  have e27 := (congrFun (V9_main_v27 m outs c) ix0).trans (addf_hmean_apply _ (outs 8 main_v24 c) _ e20)
  (congrFun (V11_main_v35 m outs c) ix0).trans
    (divf_layers_apply _ _ (addf_hmean_apply _ (outs 10 main_v31 c) _ e27))

end AtIdeal

end Cert.KernelIdeal.Hand

end
-- ==== Proof.KI.Region0Value.lean ====
/- Pallas call 0, what the found pieces ARE: each accumulator's contents after a point, and the output
   window's at a batch entry's last tile, as the body's own arithmetic (the generated payload functions)
   applied to the point's input blocks and, past a first tile, to what the tile before left.
   With `g q a` the query accumulator's update (`a` plus the gathered columns of the tile `q`, the gather being the
   product with the one-hot selector of the positions `x2` that fall in the tile) and `h k a` the key
   accumulator's: a first tile leaves `g q 0` and `h k 0`; a later tile leaves `g q a` and `h k b` over what
   the tile before left (`a`, `b`); and the last tile stores the loss of the two accumulators it has just
   updated. -/
import proofs.«430285_j43310450213294_2_alg».proof.Proof.KI.Region0
import Idealize.ShloMosaic.Lib.Pipeline.Value

-- membership in a rectangle of the blocks' extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The offset of every access of the body: the origin (rank 2, rank 3). -/
theorem hz2 : (![0, 0] : Fin 2 → ℕ) = fun _ => 0 := by funext a; fin_cases a <;> rfl
theorem hz3 : (![0, 0, 0] : Fin 3 → ℕ) = fun _ => 0 := by funext a; fin_cases a <;> rfl

/-! ## A batch entry's first tile: the accumulators start from zero -/

theorem sout0_A_0_eq (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) :
    sout0_A_0 c i arg2 harg2 arg3 harg3 arg4 harg4 arg5 harg5 arg6 harg6 arg7 harg7 hc0 hc1 x0 x1 x2 = k0_pay15 i x2 x0 (k0_pay10 (F := F)) := by
  unfold sout0_A_0; rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S32x64) hz2]
  simp only [View.readAt_eq_ld, harg2.read_unread, harg3.read_unread, harg4.read_unread, harg6.read_unread, harg7.read_unread,
    View.ld_unit_zero (S := S32x64) hz2, View.ld_unit_zero (S := S1x64) hz2, View.ld_unit_zero (S := S1x32x8192) hz3,
    View.readCov_unit_zero (S := S32x64) _ hz2]

theorem sout0_A_1_eq (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : cond0_0 i) (hc1 : ¬cond0_1 i)
    (x0 : Vec F S1x32x8192 .f32) (x1 : Vec F S1x32x8192 .f32) (x2 : Vec F S1x64 .i32) :
    sout0_A_1 c i arg2 harg2 arg3 harg3 arg4 harg4 arg5 harg5 arg6 harg6 arg7 harg7 hc0 hc1 x0 x1 x2 = k0_pay1 (k0_pay12 i x2) (k0_pay14 x1) (k0_pay11 (F := F)) (k0_pay16 i x2 x1) := by
  unfold sout0_A_1; rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S32x64) hz2]
  simp only [View.readAt_eq_ld, harg2.read_unread, harg3.read_unread, harg4.read_unread, harg6.read_unread, harg7.read_unread,
    View.ld_unit_zero (S := S32x64) hz2, View.ld_unit_zero (S := S1x64) hz2, View.ld_unit_zero (S := S1x32x8192) hz3,
    View.readCov_unit_zero (S := S32x64) _ hz2]

/-! ## A middle tile: each accumulator over what the tile before left -/

theorem sout0_B_0_eq (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) :
    sout0_B_0 c i arg2 harg2 arg3 harg3 arg4 harg4 arg5 harg5 arg6 harg6 arg7 harg7 hc0 hc1 x0 x1 x2 xs0 xs1 = k0_pay15 i x2 x0 xs0 := by
  unfold sout0_B_0; rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S32x64) hz2]
  simp only [View.readAt_eq_ld, harg2.read_unread, harg3.read_unread, harg4.read_unread, harg6.read_unread, harg7.read_unread,
    View.ld_unit_zero (S := S32x64) hz2, View.ld_unit_zero (S := S1x64) hz2, View.ld_unit_zero (S := S1x32x8192) hz3,
    View.readCov_unit_zero (S := S32x64) _ hz2]

theorem sout0_B_1_eq (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : ¬cond0_1 i)
    (x0 : Vec F S1x32x8192 .f32) (x1 : Vec F S1x32x8192 .f32) (x2 : Vec F S1x64 .i32) (xs0 : Vec F S32x64 .f32) (xs1 : Vec F S32x64 .f32) :
    sout0_B_1 c i arg2 harg2 arg3 harg3 arg4 harg4 arg5 harg5 arg6 harg6 arg7 harg7 hc0 hc1 x0 x1 x2 xs0 xs1 = k0_pay1 (k0_pay12 i x2) (k0_pay14 x1) xs1 (k0_pay16 i x2 x1) := by
  unfold sout0_B_1; rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero (S := S32x64) hz2]
  simp only [View.readAt_eq_ld, harg2.read_unread, harg3.read_unread, harg4.read_unread, harg6.read_unread, harg7.read_unread,
    View.ld_unit_zero (S := S32x64) hz2, View.ld_unit_zero (S := S1x64) hz2, View.ld_unit_zero (S := S1x32x8192) hz3,
    View.readCov_unit_zero (S := S32x64) _ hz2]

/-! ## A batch entry's last tile: the same updates, then the loss of the updated accumulators -/

theorem sout0_C_0_eq (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) :
    sout0_C_0 c i arg2 harg2 arg3 harg3 arg4 harg4 arg5 harg5 arg6 harg6 arg7 harg7 hc0 hc1 x0 x1 x2 xs0 xs1 = k0_pay15 i x2 x0 xs0 := by
  unfold sout0_C_0; rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S32x64) hz2]
  simp only [View.readAt_eq_ld, harg2.read_unread, harg3.read_unread, harg4.read_unread, harg6.read_unread, harg7.read_unread,
    View.ld_unit_zero (S := S32x64) hz2, View.ld_unit_zero (S := S1x64) hz2, View.ld_unit_zero (S := S1x32x8192) hz3,
    View.readCov_unit_zero (S := S32x64) _ hz2]

theorem sout0_C_1_eq (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) :
    sout0_C_1 c i arg2 harg2 arg3 harg3 arg4 harg4 arg5 harg5 arg6 harg6 arg7 harg7 hc0 hc1 x0 x1 x2 xs0 xs1 = k0_pay1 (k0_pay12 i x2) (k0_pay14 x1) xs1 (k0_pay16 i x2 x1) := by
  unfold sout0_C_1; rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S32x64) hz2]
  simp only [View.readAt_eq_ld, harg2.read_unread, harg3.read_unread, harg4.read_unread, harg6.read_unread, harg7.read_unread,
    View.ld_unit_zero (S := S32x64) hz2, View.ld_unit_zero (S := S1x64) hz2, View.ld_unit_zero (S := S1x32x8192) hz3,
    View.readCov_unit_zero (S := S32x64) _ hz2]

theorem out0_C_3_eq (c : Dev nD) (i : grid0.Coords) (arg2 : Memref sig .tc .vmem S1x32x8192 .f32) (harg2 : arg2.IsWhole) (arg3 : Memref sig .tc .vmem S1x32x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S32x64 .f32) (harg6 : arg6.IsWhole) (arg7 : Memref sig .tc .vmem S32x64 .f32) (harg7 : arg7.IsWhole) (hc0 : ¬cond0_0 i) (hc1 : cond0_1 i)
    (x0 : Vec F S1x32x8192 .f32) (x1 : Vec F S1x32x8192 .f32) (x2 : Vec F S1x64 .i32) (xs0 : Vec F S32x64 .f32) (xs1 : Vec F S32x64 .f32) :
    out0_C_3 c i arg2 harg2 arg3 harg3 arg4 harg4 arg5 harg5 arg6 harg6 arg7 harg7 hc0 hc1 x0 x1 x2 xs0 xs1 = k0_pay2 (k0_pay8 (k0_pay15 i x2 x0 xs0) (k0_pay1 (k0_pay12 i x2) (k0_pay14 x1) xs1 (k0_pay16 i x2 x1))) (k0_pay9 (k0_pay15 i x2 x0 xs0) (k0_pay1 (k0_pay12 i x2) (k0_pay14 x1) xs1 (k0_pay16 i x2 x1))) := by
  unfold out0_C_3; rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero (S := S1x1x64) hz3]
  simp only [View.readAt_eq_ld, harg2.read_unread, harg3.read_unread, harg4.read_unread, harg6.read_unread, harg7.read_unread,
    View.ld_unit_zero (S := S32x64) hz2, View.ld_unit_zero (S := S1x64) hz2, View.ld_unit_zero (S := S1x32x8192) hz3,
    View.readCov_unit_zero (S := S32x64) _ hz2]

end Cert.KernelIdeal.Hand

end
-- ==== Proof.KI.Pay0.lean ====
/-
  The arithmetic of one layer's kernel body at the ideal values, read at an index.

  The body keeps two accumulators of one column per sampled position. At each tile it builds a selector
  (row `n`, column `p`: is the tile's `n`-th location the `p`-th sampled position?), splits the query block and the key
  block into a leading part and a remainder, multiplies each part with the selector and adds the products to the
  accumulators. At the ideal values a change of format is the identity, so the leading part is the block itself and
  the remainder is `block − block`, which is zero where the block's entries are real numbers; and a sum of a row
  function against a selector column has at most one nonzero term. So a tile adds to column `p` of an accumulator the
  block's column at the sampled position, when that position lies in the tile, and nothing otherwise
  (`pay15_apply`, `pay1_apply`). At the last tile the body computes the loss from the two accumulators: each column is
  scaled to unit length, the logits are inner products over the temperature with `−∞` on the diagonal of the negative
  ones, and the cross-entropy of the positive slot is taken with the largest logit subtracted. The specification's
  `loss` is written in the same order of operations, so the body's value at patch `p` is `loss` of the two
  accumulators' columns (`loss_apply`) with no condition on the accumulators.
-/
import proofs.«430285_j43310450213294_2_alg».proof.Proof.Gen.KernelIdeal.Skeleton
import proofs.«430285_j43310450213294_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

namespace R0

/-! ## The two contractions read at an index -/

theorem gdot_lhs_0 (i : S32x64.Idx) (q : dot_S32x8192_S8192x64_S32x64_1_0_0_1_n_n.contr.Idx) :
    (dot_S32x8192_S8192x64_S32x64_1_0_0_1_n_n.lhsIdx i q 0).val = (i 0).val := by
  unfold DotDims.lhsIdx
  rw [dif_neg (show ¬(0 : Fin S32x8192.rank) ∈ dot_S32x8192_S8192x64_S32x64_1_0_0_1_n_n.lhsBatch by decide), dif_pos (show (0 : Fin S32x8192.rank) ∈ dot_S32x8192_S8192x64_S32x64_1_0_0_1_n_n.lhsNonContracting by decide)]
  rfl
theorem gdot_lhs_1 (i : S32x64.Idx) (q : dot_S32x8192_S8192x64_S32x64_1_0_0_1_n_n.contr.Idx) :
    (dot_S32x8192_S8192x64_S32x64_1_0_0_1_n_n.lhsIdx i q 1).val = (q ⟨0, by decide⟩).val :=
  dot_S32x8192_S8192x64_S32x64_1_0_0_1_n_n.lhsIdx_val_of_single rfl i q
theorem gdot_rhs_0 (i : S32x64.Idx) (q : dot_S32x8192_S8192x64_S32x64_1_0_0_1_n_n.contr.Idx) :
    (dot_S32x8192_S8192x64_S32x64_1_0_0_1_n_n.rhsIdx i q 0).val = (q ⟨0, by decide⟩).val :=
  dot_S32x8192_S8192x64_S32x64_1_0_0_1_n_n.rhsIdx_val_of_single rfl i q
theorem gdot_rhs_1 (i : S32x64.Idx) (q : dot_S32x8192_S8192x64_S32x64_1_0_0_1_n_n.contr.Idx) :
    (dot_S32x8192_S8192x64_S32x64_1_0_0_1_n_n.rhsIdx i q 1).val = (i 1).val := by
  unfold DotDims.rhsIdx
  rw [dif_neg (show ¬(1 : Fin S8192x64.rank) ∈ dot_S32x8192_S8192x64_S32x64_1_0_0_1_n_n.rhsBatch by decide), dif_pos (show (1 : Fin S8192x64.rank) ∈ dot_S32x8192_S8192x64_S32x64_1_0_0_1_n_n.rhsNonContracting by decide)]
  rfl

/-- A block (channels by tile rows) times a selector (tile rows by patches), accumulated into zeros, at channel `c`
    and patch `p`: the sum over the tile's rows. -/
theorem gdot_apply {φ₁ φ₂ : FTy} (lhs : FVec Ideal S32x8192 φ₁) (rhs : FVec Ideal S8192x64 φ₂) (c : Fin 32) (p : Fin 64) :
    matmul dot_S32x8192_S8192x64_S32x64_1_0_0_1_n_n none lhs rhs (constant (F := Ideal) S32x64 .f32 0x00000000#32) (ix2 c p)
      = ∑ n : Fin 8192, lhs (ix2 c n) * rhs (ix2 n p) := by
  simp only [matmul]
  rw [Ideal.matmul_constant_zero_apply, ← Equiv.sum_comp (contrEquiv1 dot_S32x8192_S8192x64_S32x64_1_0_0_1_n_n 8192 rfl rfl).symm]
  refine Finset.sum_congr rfl fun k _ => ?_
  have hk := contrEquiv1_symm_val dot_S32x8192_S8192x64_S32x64_1_0_0_1_n_n 8192 rfl rfl k
  have el : dot_S32x8192_S8192x64_S32x64_1_0_0_1_n_n.lhsIdx (ix2 c p) ((contrEquiv1 dot_S32x8192_S8192x64_S32x64_1_0_0_1_n_n 8192 rfl rfl).symm k) = ix2 c k := funext fun a => Fin.ext (by
    match a with
    | ⟨0, _⟩ => exact gdot_lhs_0 _ _
    | ⟨1, _⟩ => exact (gdot_lhs_1 _ _).trans hk)
  have er : dot_S32x8192_S8192x64_S32x64_1_0_0_1_n_n.rhsIdx (ix2 c p) ((contrEquiv1 dot_S32x8192_S8192x64_S32x64_1_0_0_1_n_n 8192 rfl rfl).symm k) = ix2 k p := funext fun a => Fin.ext (by
    match a with
    | ⟨0, _⟩ => exact (gdot_rhs_0 _ _).trans hk
    | ⟨1, _⟩ => exact gdot_rhs_1 _ _)
  rw [el, er]

theorem ndot_lhs_0 (i : S64x64.Idx) (q : dot_S64x32_S32x64_S64x64_1_0_0_1_n_n.contr.Idx) :
    (dot_S64x32_S32x64_S64x64_1_0_0_1_n_n.lhsIdx i q 0).val = (i 0).val := by
  unfold DotDims.lhsIdx
  rw [dif_neg (show ¬(0 : Fin S64x32.rank) ∈ dot_S64x32_S32x64_S64x64_1_0_0_1_n_n.lhsBatch by decide), dif_pos (show (0 : Fin S64x32.rank) ∈ dot_S64x32_S32x64_S64x64_1_0_0_1_n_n.lhsNonContracting by decide)]
  rfl
theorem ndot_lhs_1 (i : S64x64.Idx) (q : dot_S64x32_S32x64_S64x64_1_0_0_1_n_n.contr.Idx) :
    (dot_S64x32_S32x64_S64x64_1_0_0_1_n_n.lhsIdx i q 1).val = (q ⟨0, by decide⟩).val :=
  dot_S64x32_S32x64_S64x64_1_0_0_1_n_n.lhsIdx_val_of_single rfl i q
theorem ndot_rhs_0 (i : S64x64.Idx) (q : dot_S64x32_S32x64_S64x64_1_0_0_1_n_n.contr.Idx) :
    (dot_S64x32_S32x64_S64x64_1_0_0_1_n_n.rhsIdx i q 0).val = (q ⟨0, by decide⟩).val :=
  dot_S64x32_S32x64_S64x64_1_0_0_1_n_n.rhsIdx_val_of_single rfl i q
theorem ndot_rhs_1 (i : S64x64.Idx) (q : dot_S64x32_S32x64_S64x64_1_0_0_1_n_n.contr.Idx) :
    (dot_S64x32_S32x64_S64x64_1_0_0_1_n_n.rhsIdx i q 1).val = (i 1).val := by
  unfold DotDims.rhsIdx
  rw [dif_neg (show ¬(1 : Fin S32x64.rank) ∈ dot_S64x32_S32x64_S64x64_1_0_0_1_n_n.rhsBatch by decide), dif_pos (show (1 : Fin S32x64.rank) ∈ dot_S64x32_S32x64_S64x64_1_0_0_1_n_n.rhsNonContracting by decide)]
  rfl

/-- Patches by channels times channels by patches, accumulated into zeros, at `(k, p)`: the sum over the channels. -/
theorem ndot_apply {φ₁ φ₂ : FTy} (prec : Option ContractPrecision) (lhs : FVec Ideal S64x32 φ₁) (rhs : FVec Ideal S32x64 φ₂) (k p : Fin 64) :
    matmul dot_S64x32_S32x64_S64x64_1_0_0_1_n_n prec lhs rhs (constant (F := Ideal) S64x64 .f32 0x00000000#32) (ix2 k p)
      = ∑ c : Fin 32, lhs (ix2 k c) * rhs (ix2 c p) := by
  simp only [matmul]
  rw [Ideal.matmul_constant_zero_apply, ← Equiv.sum_comp (contrEquiv1 dot_S64x32_S32x64_S64x64_1_0_0_1_n_n 32 rfl rfl).symm]
  refine Finset.sum_congr rfl fun c _ => ?_
  have hk := contrEquiv1_symm_val dot_S64x32_S32x64_S64x64_1_0_0_1_n_n 32 rfl rfl c
  have el : dot_S64x32_S32x64_S64x64_1_0_0_1_n_n.lhsIdx (ix2 k p) ((contrEquiv1 dot_S64x32_S32x64_S64x64_1_0_0_1_n_n 32 rfl rfl).symm c) = ix2 k c := funext fun a => Fin.ext (by
    match a with
    | ⟨0, _⟩ => exact ndot_lhs_0 _ _
    | ⟨1, _⟩ => exact (ndot_lhs_1 _ _).trans hk)
  have er : dot_S64x32_S32x64_S64x64_1_0_0_1_n_n.rhsIdx (ix2 k p) ((contrEquiv1 dot_S64x32_S32x64_S64x64_1_0_0_1_n_n 32 rfl rfl).symm c) = ix2 c p := funext fun a => Fin.ext (by
    match a with
    | ⟨0, _⟩ => exact (ndot_rhs_0 _ _).trans hk
    | ⟨1, _⟩ => exact ndot_rhs_1 _ _)
  rw [el, er]

/-! ## The selector -/

/-- Row `n` of tile `l` is location `l * 8192 + n`; as 32-bit words the sum does not wrap, so it equals an index
    word exactly when the naturals agree. -/
theorem word_eq_iff (l n : ℕ) (hl : l < 16) (hn : n < 8192) (x : BitVec 32) :
    IntOp.addi (BitVec.ofNat 32 n) (IntOp.muli (BitVec.ofNat 32 l) 8192#32) = x ↔ l * 8192 + n = x.toNat := by
  unfold IntOp.addi IntOp.muli
  constructor
  · intro h; subst h
    simp only [BitVec.toNat_add, BitVec.toNat_mul, BitVec.toNat_ofNat]
    omega
  · intro h
    apply BitVec.eq_of_toNat_eq
    simp only [BitVec.toNat_add, BitVec.toNat_mul, BitVec.toNat_ofNat]
    omega

/-- A one-bit comparison widened to a word and read as a signed integer is `1` or `0`. -/
theorem cmp_word_toInt (a x : BitVec 32) :
    (((IntOp.cmpi .eq a x).setWidth 32).toInt : ℝ) = if a = x then 1 else 0 := by
  unfold IntOp.cmpi
  by_cases h : a = x
  · subst h; simp
  · have : (a == x) = false := by simpa using h
    simp [this, h]

/-- The selector at row `n`, column `p`: `1` where location `l * 8192 + n` is the `p`-th sampled position, else `0`
    (`l = i 1`, the tile). -/
theorem onehot_apply (i : grid0.Coords) (v3 : Vec Ideal S1x64 .i32) (n : Fin 8192) (p : Fin 64) :
    k0_pay12 (F := Ideal) i v3 (ix2 n p) = if (i 1).val * 8192 + n.val = (v3 (ix2 0 p)).toNat then 1 else 0 := by
  have hl : (i 1).val < 16 := (i 1).isLt
  unfold k0_pay12
  simp only [shapeCast_self]
  show ((((IntOp.cmpi .eq (IntOp.addi (iota .tc S8192x64 32 [0] iota_S8192x64_d0_w32 (ix2 n p)) (IntOp.muli (BitVec.ofNat 32 (i 1).val) 8192#32))
      (broadcastTo S8192x64 v3 broadcasts_S1x64_S8192x64 (ix2 n p))).setWidth 32).toInt : ℝ) : EReal) = _
  rw [iota_single_apply, broadcastTo_1b_ab_apply, cmp_word_toInt]
  show (((if IntOp.addi (BitVec.ofNat 32 n.val) (IntOp.muli (BitVec.ofNat 32 (i 1).val) 8192#32) = v3 (ix2 0 p) then (1 : ℝ) else 0) : ℝ) : EReal) = _
  by_cases h : (i 1).val * 8192 + n.val = (v3 (ix2 0 p)).toNat
  · rw [if_pos h, if_pos ((word_eq_iff _ _ hl n.isLt _).mpr h)]; rfl
  · rw [if_neg h, if_neg (fun h' => h ((word_eq_iff _ _ hl n.isLt _).mp h'))]; rfl

/-! ## A block against the selector: one column gathered, or nothing -/

/-- A real number minus itself is zero on the extended reals. -/
theorem sub_self_of_real {x : EReal} (h : ∃ r : ℝ, x = (r : EReal)) : x - x = 0 := by
  obtain ⟨r, rfl⟩ := h
  rw [← EReal.coe_sub, sub_self, EReal.coe_zero]

/-- The sum over a tile's rows of a row function against the selector's column: the row whose location is the
    sampled position `m`, when `m` lies in tile `l`; else zero. -/
theorem sum_onehot (x : Fin 8192 → EReal) (l m : ℕ) :
    (∑ n : Fin 8192, x n * (if l * 8192 + n.val = m then (1 : EReal) else 0))
      = if h : l * 8192 ≤ m ∧ m < (l + 1) * 8192 then x ⟨m - l * 8192, by omega⟩ else 0 := by
  by_cases h : l * 8192 ≤ m ∧ m < (l + 1) * 8192
  · rw [dif_pos h]
    rw [Finset.sum_eq_single (⟨m - l * 8192, by omega⟩ : Fin 8192)]
    · rw [if_pos (by show l * 8192 + (m - l * 8192) = m; omega), mul_one]
    · intro n _ hn
      rw [if_neg (fun e => hn (Fin.ext (by show n.val = m - l * 8192; omega))), mul_zero]
    · intro hmem; exact absurd (Finset.mem_univ _) hmem
  · rw [dif_neg h]
    refine Finset.sum_eq_zero fun n _ => ?_
    rw [if_neg (fun e => h (by have := n.isLt; omega)), mul_zero]

/-- The block with its leading unit axis dropped reads the block at `(0, c, n)`. -/
theorem block_apply (v : Vec Ideal S1x32x8192 .f32) (c : Fin 32) (n : Fin 8192) :
    (shapeCast S32x8192 v shapeCasts_S1x32x8192_S32x8192 : FVec Ideal S32x8192 .f32) (ix2 c n) = v (ix3 0 c n) :=
  shapeCast_1ab_ab_apply v _ c n

/-- THE QUERY SIDE. What the body stores to the first accumulator at tile `l = i 1`: the loaded accumulator plus,
    where the `p`-th sampled position lies in this tile, the block's column at that position. The block's entries
    are real numbers, so its remainder `block − block` is zero. -/
theorem pay15_apply (i : grid0.Coords) (v3 : Vec Ideal S1x64 .i32) (v14 : Vec Ideal S1x32x8192 .f32) (v26 : Vec Ideal S32x64 .f32)
    (hreal : ∀ j, ∃ r : ℝ, v14 j = (r : EReal)) (c : Fin 32) (p : Fin 64) :
    k0_pay15 (F := Ideal) i v3 v14 v26 (ix2 c p)
      = v26 (ix2 c p) + (if h : (i 1).val * 8192 ≤ (v3 (ix2 0 p)).toNat ∧ (v3 (ix2 0 p)).toNat < ((i 1).val + 1) * 8192
          then v14 (ix3 0 c ⟨(v3 (ix2 0 p)).toNat - (i 1).val * 8192, by omega⟩) else 0) := by
  unfold k0_pay15
  simp only [shapeCast_self]
  rw [addf_apply, addf_apply, gdot_apply, gdot_apply]
  simp only [truncf_apply, subf_apply, block_apply, onehot_apply]
  have hlo : (∑ n : Fin 8192, (v14 (ix3 0 c n) - v14 (ix3 0 c n)) * (if (i 1).val * 8192 + n.val = (v3 (ix2 0 p)).toNat then (1 : EReal) else 0)) = 0 :=
    Finset.sum_eq_zero fun n _ => by rw [sub_self_of_real (hreal _), zero_mul]
  rw [hlo, add_zero, sum_onehot (fun n => v14 (ix3 0 c n))]

/-- THE KEY SIDE. What the body stores to the second accumulator: the same, for the key block. -/
theorem pay1_apply (i : grid0.Coords) (v3 : Vec Ideal S1x64 .i32) (v16 : Vec Ideal S1x32x8192 .f32) (v34 : Vec Ideal S32x64 .f32)
    (hreal : ∀ j, ∃ r : ℝ, v16 j = (r : EReal)) (c : Fin 32) (p : Fin 64) :
    k0_pay1 (F := Ideal) (k0_pay12 i v3) (k0_pay14 v16) v34 (k0_pay16 i v3 v16) (ix2 c p)
      = v34 (ix2 c p) + (if h : (i 1).val * 8192 ≤ (v3 (ix2 0 p)).toNat ∧ (v3 (ix2 0 p)).toNat < ((i 1).val + 1) * 8192
          then v16 (ix3 0 c ⟨(v3 (ix2 0 p)).toNat - (i 1).val * 8192, by omega⟩) else 0) := by
  unfold k0_pay1 k0_pay16 k0_pay14 k0_pay13
  simp only [shapeCast_self]
  rw [addf_apply, addf_apply, gdot_apply, gdot_apply]
  simp only [truncf_apply, subf_apply, block_apply, onehot_apply]
  have hlo : (∑ n : Fin 8192, (v16 (ix3 0 c n) - v16 (ix3 0 c n)) * (if (i 1).val * 8192 + n.val = (v3 (ix2 0 p)).toNat then (1 : EReal) else 0)) = 0 :=
    Finset.sum_eq_zero fun n _ => by rw [sub_self_of_real (hreal _), zero_mul]
  rw [hlo, add_zero, sum_onehot (fun n => v16 (ix3 0 c n))]

/-- The reset at the first tile writes zeros to both accumulators. -/
theorem reset_q_apply (j : S32x64.Idx) : (k0_pay10 (F := Ideal)) j = 0 := by
  unfold k0_pay10
  rw [shapeCast_self]
  exact Ideal.ofBits_zero_f32
theorem reset_k_apply (j : S32x64.Idx) : (k0_pay11 (F := Ideal)) j = 0 := by
  unfold k0_pay11
  rw [shapeCast_self]
  exact Ideal.ofBits_zero_f32

/-! ## The loss -/

/-- Square root, exponential and logarithm of a vector, read at an index. -/
theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The sum over the channels of an accumulator-shaped array, at column `p`. -/
theorem chansum_apply (src : FVec Ideal S32x64 .f32) (hφ : FKind.Formats .f32)
    (hacc : (0x00000000#32 : BitVec 32) = 0x00000000#32) (p : Fin 64) :
    multiReduction .add [0] S64 src 0x00000000#32 reduces_S32x64_S64 hφ hacc (ix1 p) = ∑ c : Fin 32, src (ix2 c p) := by
  refine (Ideal.multiReduction_add_single src 0x00000000#32 reduces_S32x64_S64 hφ hacc (ix1 p)).trans ?_
  exact Finset.sum_congr rfl fun c _ => congrArg src (funext fun a => match a with | ⟨0, _⟩ => rfl | ⟨1, _⟩ => rfl)

/-- The sum over the rows of a patches-by-patches array, at column `p`. -/
theorem rowsum_apply (src : FVec Ideal S64x64 .f32) (hφ : FKind.Formats .f32)
    (hacc : (0x00000000#32 : BitVec 32) = 0x00000000#32) (p : Fin 64) :
    multiReduction .add [0] S64 src 0x00000000#32 reduces_S64x64_S64 hφ hacc (ix1 p) = ∑ k : Fin 64, src (ix2 k p) := by
  refine (Ideal.multiReduction_add_single src 0x00000000#32 reduces_S64x64_S64 hφ hacc (ix1 p)).trans ?_
  exact Finset.sum_congr rfl fun c _ => congrArg src (funext fun a => match a with | ⟨0, _⟩ => rfl | ⟨1, _⟩ => rfl)

/-- The word of `−∞`. -/
theorem neg_inf_word : Ideal.ofBits .f32 0xFF800000#32 = ⊥ := by simp [Ideal.ofBits, Ideal.ieee]

/-- A fold of `max` from `−∞` is the supremum. -/
theorem fold_max_bot {ι : Type} (s : Finset ι) (f : ι → EReal) : s.fold max ⊥ f = s.sup f := by
  classical
  induction s using Finset.induction_on with
  | empty => rfl
  | insert a s ha ih => rw [Finset.fold_insert ha, Finset.sup_insert, ih]

/-- The maximum over the rows of a patches-by-patches array, from `−∞`, at column `p`: the column's supremum. -/
theorem rowmax_apply (src : FVec Ideal S64x64 .f32) (hφ : FKind.Formats .f32)
    (hacc : (0xFF800000#32 : BitVec 32) = 0xFF800000#32) (p : Fin 64) :
    multiReduction .maximumf [0] S64 src 0xFF800000#32 reduces_S64x64_S64 hφ hacc (ix1 p)
      = Finset.univ.sup fun k : Fin 64 => src (ix2 k p) := by
  refine (Ideal.multiReduction_maximumf_single src 0xFF800000#32 reduces_S64x64_S64 hφ hacc (ix1 p)).trans ?_
  refine (congrArg (fun b => Finset.fold max b _ _) neg_inf_word).trans ?_
  refine (fold_max_bot _ _).trans ?_
  exact congrArg (Finset.univ.sup) (funext fun k => congrArg src (funext fun a => match a with | ⟨0, _⟩ => rfl | ⟨1, _⟩ => rfl))

/-- The mask constant denotes `−∞`. -/
theorem neg_big : Named.named (F := Ideal) κ "neg_big" (φ := .f32) 0xF149F2CA#32 = (⊥ : EReal) :=
  IdealRules.named_const.ideal_named_scalar _ _ _ _ rfl

/-- A select on "row index = column index", both below 64, is the `if` on the coordinates. -/
theorem select_diag {α : Type} (k p : Fin 64) (a b : α) :
    Scalar.select (IntOp.cmpi .eq (BitVec.ofNat 32 k.val) (BitVec.ofNat 32 p.val)) a b = if k = p then a else b := by
  by_cases h : k = p
  · subst h; rw [if_pos rfl]; unfold IntOp.cmpi; simp [Scalar.select]
  · rw [if_neg h]
    have hne : BitVec.ofNat 32 k.val ≠ BitVec.ofNat 32 p.val := fun e => h (Fin.ext (by
      have := congrArg BitVec.toNat e
      simp only [BitVec.toNat_ofNat] at this
      have := k.isLt; have := p.isLt; omega))
    have hb : (BitVec.ofNat 32 k.val == BitVec.ofNat 32 p.val) = false := beq_eq_false_iff_ne.mpr hne
    show Scalar.select (BitVec.ofBool (BitVec.ofNat 32 k.val == BitVec.ofNat 32 p.val)) a b = b
    rw [hb]; exact select_zero a b

variable (qa ka : Vec Ideal S32x64 .f32)

/-- A column scaled to unit length (the query's accumulator). -/
theorem unitq_apply (v : Vec Ideal S32x64 .f32) (c : Fin 32) (p : Fin 64) :
    k0_pay3 (F := Ideal) v (ix2 c p) = Spec.unit (fun c' => v (ix2 c' p)) c := by
  unfold k0_pay3
  rw [divf_apply, broadcastTo_1b_ab_apply, maximumf_apply, broadcast_apply, sqrt_apply, shapeCast_a_1a_apply, chansum_apply]
  rfl

/-- A column scaled to unit length (the key's accumulator). -/
theorem unitk_apply (v : Vec Ideal S32x64 .f32) (c : Fin 32) (p : Fin 64) :
    k0_pay4 (F := Ideal) v (ix2 c p) = Spec.unit (fun c' => v (ix2 c' p)) c := by
  unfold k0_pay4
  rw [divf_apply, broadcastTo_1b_ab_apply, maximumf_apply, broadcast_apply, sqrt_apply, shapeCast_a_1a_apply, chansum_apply]
  rfl

/-- The positive logit. -/
theorem pos_apply (p : Fin 64) :
    k0_pay5 (F := Ideal) qa ka (ix2 0 p) = Spec.pos (fun p c => qa (ix2 c p)) (fun p c => ka (ix2 c p)) p := by
  unfold k0_pay5
  rw [divf_apply, broadcast_apply, shapeCast_a_1a_apply, chansum_apply]
  simp only [mulf_apply, unitq_apply, unitk_apply]
  rfl

/-- The negative logits, `−∞` on the diagonal. -/
theorem neg_apply (k p : Fin 64) :
    k0_pay6 (F := Ideal) qa ka (ix2 k p) = Spec.neg (fun p c => qa (ix2 c p)) (fun p c => ka (ix2 c p)) p k := by
  unfold k0_pay6
  rw [select_apply]
  show Scalar.select (IntOp.cmpi .eq (iota .tc S64x64 32 [0] iota_S64x64_d0_w32 (ix2 k p)) (iota .tc S64x64 32 [1] iota_S64x64_d1_w32 (ix2 k p))) _ _ = _
  rw [iota_single_apply, iota_single_apply, broadcast_apply, divf_apply, broadcast_apply, ndot_apply]
  show Scalar.select (IntOp.cmpi .eq (BitVec.ofNat 32 k.val) (BitVec.ofNat 32 p.val)) _ _ = _
  rw [select_diag, neg_big]
  have ht : ∀ c : Fin 32, transpose S64x32 [1, 0] (k0_pay4 (F := Ideal) ka) transposes_S32x64_p1_0_S64x32 (ix2 k c) = k0_pay4 (F := Ideal) ka (ix2 c k) :=
    fun c => transpose_ix2_apply _ _ k c
  simp only [ht, unitq_apply, unitk_apply]
  rfl

/-- The largest logit. -/
theorem top_apply (p : Fin 64) :
    k0_pay7 (F := Ideal) qa ka (ix2 0 p) = Spec.top (fun p c => qa (ix2 c p)) (fun p c => ka (ix2 c p)) p := by
  unfold k0_pay7
  rw [maximumf_apply, shapeCast_a_1a_apply, rowmax_apply, pos_apply]
  simp only [neg_apply]
  rfl

/-- THE LOSS. What the body stores to the output block at the last tile, from the two accumulators as loaded: the
    cross-entropy of the positive slot among patch `p`'s logits. -/
theorem loss_apply (p : Fin 64) :
    k0_pay2 (F := Ideal) (k0_pay8 qa ka) (k0_pay9 qa ka) (ix3 0 0 p)
      = Spec.loss (fun p c => qa (ix2 c p)) (fun p c => ka (ix2 c p)) p := by
  unfold k0_pay2
  rw [shapeCast_ab_1ab_apply, subf_apply]
  unfold k0_pay8 k0_pay9
  rw [log_apply, addf_apply, exp_apply, subf_apply, shapeCast_a_1a_apply, rowsum_apply]
  simp only [exp_apply, subf_apply, broadcastTo_1b_ab_apply, pos_apply, neg_apply, top_apply]
  rfl

end R0

end Cert.KernelIdeal.Pay

end
-- ==== Proof.KI.Value0Acc.lean ====
/-
  The first layer's region (C = 32, 16 tiles of 8192 locations), the value of its accumulators and of its last tile's output.

  The region visits the points t = 16 b + l, batch entry b and tile l. Its two accumulators are [32, 64] arrays: the
  gathered query columns and the gathered key columns. At tile l the body adds to entry (ch, p) of an accumulator the
  tile's value at channel ch and the p-th sampled position when that position lies in the tile (locations
  l · 8192 … (l + 1) · 8192 − 1), and zero otherwise; at l = 0 the accumulators restart from zero. Every location lies in
  exactly one tile, so by induction on the position: after point 16 b + l the entry (ch, p) holds the array's value at
  (b, ch, position p) when the position lies below (l + 1) · 8192, and zero otherwise. At l = 15 that bound is the number
  of locations, every sampled position has been met, the accumulators hold the gathered columns, and the output block —
  the body's loss of the two accumulators just updated — is the specification's layer at (b, p).
-/
import proofs.«430285_j43310450213294_2_alg».proof.Proof.KI.Region0Value
import proofs.«430285_j43310450213294_2_alg».proof.Proof.KI.Pay0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

section Generic

variable {F : FTy → Type} [FloatOps F] [Named F]
variable (V : (c : Dev nD) → (b : Ref sig .tc) → Buf (Elt F) ((c : Thread nD τ).loc b))

/-! ## What each point leaves, as the body's arithmetic on the point's blocks and on what the point before left -/

theorem accq0_A (c : Dev nD) (t : Fin cfg0.N) (h0 : t.val % 16 = 0) :
    (outsAt0 V c t.val t.isLt).2.1 = k0_pay15 (grid0.coords t) (iblk0 V c 2 t) (iblk0 V c 0 t) (k0_pay10 (F := F)) := by
  rw [outsAt0_A V c t h0]; dsimp only
  exact sout0_A_0_eq c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (hc0_A t h0) (hc1_A t h0) (iblk0 V c 0 t) (iblk0 V c 1 t) (iblk0 V c 2 t)
theorem acck0_A (c : Dev nD) (t : Fin cfg0.N) (h0 : t.val % 16 = 0) :
    (outsAt0 V c t.val t.isLt).2.2 = k0_pay1 (k0_pay12 (grid0.coords t) (iblk0 V c 2 t)) (k0_pay14 (iblk0 V c 1 t)) (k0_pay11 (F := F)) (k0_pay16 (grid0.coords t) (iblk0 V c 2 t) (iblk0 V c 1 t)) := by
  rw [outsAt0_A V c t h0]; dsimp only
  exact sout0_A_1_eq c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (hc0_A t h0) (hc1_A t h0) (iblk0 V c 0 t) (iblk0 V c 1 t) (iblk0 V c 2 t)
theorem accq0_B (c : Dev nD) (t : Fin cfg0.N) (h0 : ¬t.val % 16 = 0) (h1 : ¬t.val % 16 = 15) :
    (outsAt0 V c t.val t.isLt).2.1 = k0_pay15 (grid0.coords t) (iblk0 V c 2 t) (iblk0 V c 0 t) (outsAt0 V c (t.val - 1) (Nat.lt_of_le_of_lt (Nat.sub_le _ _) t.isLt)).2.1 := by
  rw [outsAt0_B V c t h0 h1]; dsimp only
  exact sout0_B_0_eq c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (hc0_n t h0) (hc1_n t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
theorem acck0_B (c : Dev nD) (t : Fin cfg0.N) (h0 : ¬t.val % 16 = 0) (h1 : ¬t.val % 16 = 15) :
    (outsAt0 V c t.val t.isLt).2.2 = k0_pay1 (k0_pay12 (grid0.coords t) (iblk0 V c 2 t)) (k0_pay14 (iblk0 V c 1 t)) (outsAt0 V c (t.val - 1) (Nat.lt_of_le_of_lt (Nat.sub_le _ _) t.isLt)).2.2 (k0_pay16 (grid0.coords t) (iblk0 V c 2 t) (iblk0 V c 1 t)) := by
  rw [outsAt0_B V c t h0 h1]; dsimp only
  exact sout0_B_1_eq c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (hc0_n t h0) (hc1_n t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
theorem accq0_C (c : Dev nD) (t : Fin cfg0.N) (h0 : ¬t.val % 16 = 0) (h1 : t.val % 16 = 15) :
    (outsAt0 V c t.val t.isLt).2.1 = k0_pay15 (grid0.coords t) (iblk0 V c 2 t) (iblk0 V c 0 t) (outsAt0 V c (t.val - 1) (Nat.lt_of_le_of_lt (Nat.sub_le _ _) t.isLt)).2.1 := by
  rw [outsAt0_C V c t h0 h1]; dsimp only
  exact sout0_C_0_eq c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (hc0_n t h0) (hc1_C t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
theorem acck0_C (c : Dev nD) (t : Fin cfg0.N) (h0 : ¬t.val % 16 = 0) (h1 : t.val % 16 = 15) :
    (outsAt0 V c t.val t.isLt).2.2 = k0_pay1 (k0_pay12 (grid0.coords t) (iblk0 V c 2 t)) (k0_pay14 (iblk0 V c 1 t)) (outsAt0 V c (t.val - 1) (Nat.lt_of_le_of_lt (Nat.sub_le _ _) t.isLt)).2.2 (k0_pay16 (grid0.coords t) (iblk0 V c 2 t) (iblk0 V c 1 t)) := by
  rw [outsAt0_C V c t h0 h1]; dsimp only
  exact sout0_C_1_eq c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (hc0_n t h0) (hc1_C t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2
theorem out0_C (c : Dev nD) (t : Fin cfg0.N) (h0 : ¬t.val % 16 = 0) (h1 : t.val % 16 = 15) :
    (outsAt0 V c t.val t.isLt).1
      = k0_pay2 (k0_pay8 (outsAt0 V c t.val t.isLt).2.1 (outsAt0 V c t.val t.isLt).2.2)
          (k0_pay9 (outsAt0 V c t.val t.isLt).2.1 (outsAt0 V c t.val t.isLt).2.2) := by
  rw [accq0_C V c t h0 h1, acck0_C V c t h0 h1, outsAt0_C V c t h0 h1]; dsimp only
  exact out0_C_3_eq c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (hc0_n t h0) (hc1_C t h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-! ## The blocks, read off the arrays -/

/-- The index maps of the input windows over the grid: the query and key tiles at (batch entry, 0, tile), the
    positions' one block. -/
theorem index0_0 : ∀ t : Fin cfg0.N, win0_0.index t 0 = t.val / 16 ∧ win0_0.index t 1 = 0 ∧ win0_0.index t 2 = t.val % 16 :=
  (by decide +kernel : ∀ t : Fin grid0.N, win0_0.index t 0 = t.val / 16 ∧ win0_0.index t 1 = 0 ∧ win0_0.index t 2 = t.val % 16)
theorem index0_1 : ∀ t : Fin cfg0.N, win0_1.index t 0 = t.val / 16 ∧ win0_1.index t 1 = 0 ∧ win0_1.index t 2 = t.val % 16 :=
  (by decide +kernel : ∀ t : Fin grid0.N, win0_1.index t 0 = t.val / 16 ∧ win0_1.index t 1 = 0 ∧ win0_1.index t 2 = t.val % 16)
theorem index0_2 : ∀ t : Fin cfg0.N, win0_2.index t 0 = 0 ∧ win0_2.index t 1 = 0 :=
  (by decide +kernel : ∀ t : Fin grid0.N, win0_2.index t 0 = 0 ∧ win0_2.index t 1 = 0)
/-- The tile coordinate of point `t` is `t % 16`. -/
theorem coord0_1 : ∀ t : Fin cfg0.N, (grid0.coords t 1).val = t.val % 16 :=
  (by decide +kernel : ∀ t : Fin grid0.N, (grid0.coords t 1).val = t.val % 16)

/-- The query tile of point `t` is the batch entry `t / 16`'s locations `(t % 16) · 8192 …` of the query array. -/
theorem iblk0_0_apply (c : Dev nD) (t : Fin cfg0.N) (x : S1x32x8192.Idx) (k : S4x32x131072.Idx)
    (hk0 : (k 0).val = t.val / 16) (hk1 : (k 1).val = (x 1).val) (hk2 : (k 2).val = (t.val % 16) * 8192 + (x 2).val) :
    (iblk0 V c 0 t : Vec F S1x32x8192 .f32) x = (V c main_v0 : S4x32x131072.Idx → Elt F .f32) k := by
  obtain ⟨h0, h1, h2⟩ := index0_0 t
  unfold iblk0
  rw [View.read_apply]
  show V c main_v0 _ = V c main_v0 _
  congr 1
  funext a
  apply Fin.ext
  have hx0 : (x 0).val = 0 := by have h : (x 0).val < 1 := (x 0).isLt; omega
  match a with
  | ⟨0, _⟩ => show win0_0.index t 0 * 1 + 1 * (x 0).val = (k 0).val; rw [h0, hk0, hx0]; omega
  | ⟨1, _⟩ => show win0_0.index t 1 * 32 + 1 * (x 1).val = (k 1).val; rw [h1, hk1]; omega
  | ⟨2, _⟩ => show win0_0.index t 2 * 8192 + 1 * (x 2).val = (k 2).val; rw [h2, hk2]; omega
/-- The key tile likewise. -/
theorem iblk0_1_apply (c : Dev nD) (t : Fin cfg0.N) (x : S1x32x8192.Idx) (k : S4x32x131072.Idx)
    (hk0 : (k 0).val = t.val / 16) (hk1 : (k 1).val = (x 1).val) (hk2 : (k 2).val = (t.val % 16) * 8192 + (x 2).val) :
    (iblk0 V c 1 t : Vec F S1x32x8192 .f32) x = (V c main_v1 : S4x32x131072.Idx → Elt F .f32) k := by
  obtain ⟨h0, h1, h2⟩ := index0_1 t
  unfold iblk0
  rw [View.read_apply]
  show V c main_v1 _ = V c main_v1 _
  congr 1
  funext a
  apply Fin.ext
  have hx0 : (x 0).val = 0 := by have h : (x 0).val < 1 := (x 0).isLt; omega
  match a with
  | ⟨0, _⟩ => show win0_1.index t 0 * 1 + 1 * (x 0).val = (k 0).val; rw [h0, hk0, hx0]; omega
  | ⟨1, _⟩ => show win0_1.index t 1 * 32 + 1 * (x 1).val = (k 1).val; rw [h1, hk1]; omega
  | ⟨2, _⟩ => show win0_1.index t 2 * 8192 + 1 * (x 2).val = (k 2).val; rw [h2, hk2]; omega
/-- The positions' block is the whole [1, 64] array at every point. -/
theorem iblk0_2_apply (c : Dev nD) (t : Fin cfg0.N) (x : S1x64.Idx) :
    (iblk0 V c 2 t : Vec F S1x64 .i32) x = (V c main_v2 : S1x64.Idx → BitVec 32) x := by
  obtain ⟨h0, h1⟩ := index0_2 t
  unfold iblk0
  rw [View.read_apply]
  show V c main_v2 _ = V c main_v2 _
  congr 1
  funext a
  apply Fin.ext
  match a with
  | ⟨0, _⟩ => show win0_2.index t 0 * 1 + 1 * (x 0).val = (x 0).val; rw [h0]; omega
  | ⟨1, _⟩ => show win0_2.index t 1 * 64 + 1 * (x 1).val = (x 1).val; rw [h1]; omega

end Generic

section AtIdeal

/-! ## One accumulation step at an entry -/

/-- THE STEP, query side. If before tile `l` the accumulator's entry (ch, p) holds the source row's value at the `p`-th
    position when that position lies below `l · 8192` and zero otherwise, and the tile's block is the source row's
    locations `l · 8192 …`, then after it the entry holds the value when the position lies below `(l + 1) · 8192`. -/
theorem step0_q (i : grid0.Coords) (l : ℕ) (hl : (i 1).val = l) (ids : Vec Ideal S1x64 .i32) (blk : Vec Ideal S1x32x8192 .f32)
    (prev : Vec Ideal S32x64 .f32) (arr : Fin 32 → Fin 131072 → EReal) (ch : Fin 32) (p : Fin 64) (s : Fin 131072)
    (hids : (ids (ix2 0 p)).toNat = s.val) (hreal : ∀ j, ∃ r : ℝ, blk j = (r : EReal))
    (hblk : ∀ (n : Fin 8192) (k : Fin 131072), k.val = l * 8192 + n.val → blk (ix3 0 ch n) = arr ch k)
    (hprev : prev (ix2 ch p) = if s.val < l * 8192 then arr ch s else 0) :
    k0_pay15 (F := Ideal) i ids blk prev (ix2 ch p) = if s.val < (l + 1) * 8192 then arr ch s else 0 := by
  have hcond : ((i 1).val * 8192 ≤ (ids (ix2 0 p)).toNat ∧ (ids (ix2 0 p)).toNat < ((i 1).val + 1) * 8192)
      ↔ (l * 8192 ≤ s.val ∧ s.val < (l + 1) * 8192) := by rw [hids, hl]
  rw [Pay.R0.pay15_apply i ids blk prev hreal ch p, hprev]
  by_cases h1 : s.val < l * 8192
  · have hc : ¬(l * 8192 ≤ s.val ∧ s.val < (l + 1) * 8192) := fun h => absurd h1 (Nat.not_lt.mpr h.1)
    have h3 : s.val < (l + 1) * 8192 := Nat.lt_of_lt_of_le h1 (Nat.mul_le_mul_right _ (Nat.le_succ l))
    rw [if_pos h1, dif_neg (fun h => hc (hcond.mp h)), if_pos h3, add_zero]
  · rw [if_neg h1, zero_add]
    by_cases h2 : s.val < (l + 1) * 8192
    · have hc : l * 8192 ≤ s.val ∧ s.val < (l + 1) * 8192 := ⟨Nat.le_of_not_lt h1, h2⟩
      rw [dif_pos (hcond.mpr hc), if_pos h2]
      refine hblk _ s ?_
      show s.val = l * 8192 + ((ids (ix2 0 p)).toNat - (i 1).val * 8192)
      rw [hids, hl]
      exact (Nat.add_sub_cancel' hc.1).symm
    · rw [dif_neg (fun h => h2 (hcond.mp h).2), if_neg h2]

/-- THE STEP, key side. -/
theorem step0_k (i : grid0.Coords) (l : ℕ) (hl : (i 1).val = l) (ids : Vec Ideal S1x64 .i32) (blk : Vec Ideal S1x32x8192 .f32)
    (prev : Vec Ideal S32x64 .f32) (arr : Fin 32 → Fin 131072 → EReal) (ch : Fin 32) (p : Fin 64) (s : Fin 131072)
    (hids : (ids (ix2 0 p)).toNat = s.val) (hreal : ∀ j, ∃ r : ℝ, blk j = (r : EReal))
    (hblk : ∀ (n : Fin 8192) (k : Fin 131072), k.val = l * 8192 + n.val → blk (ix3 0 ch n) = arr ch k)
    (hprev : prev (ix2 ch p) = if s.val < l * 8192 then arr ch s else 0) :
    k0_pay1 (F := Ideal) (k0_pay12 i ids) (k0_pay14 blk) prev (k0_pay16 i ids blk) (ix2 ch p)
      = if s.val < (l + 1) * 8192 then arr ch s else 0 := by
  have hcond : ((i 1).val * 8192 ≤ (ids (ix2 0 p)).toNat ∧ (ids (ix2 0 p)).toNat < ((i 1).val + 1) * 8192)
      ↔ (l * 8192 ≤ s.val ∧ s.val < (l + 1) * 8192) := by rw [hids, hl]
  rw [Pay.R0.pay1_apply i ids blk prev hreal ch p, hprev]
  by_cases h1 : s.val < l * 8192
  · have hc : ¬(l * 8192 ≤ s.val ∧ s.val < (l + 1) * 8192) := fun h => absurd h1 (Nat.not_lt.mpr h.1)
    have h3 : s.val < (l + 1) * 8192 := Nat.lt_of_lt_of_le h1 (Nat.mul_le_mul_right _ (Nat.le_succ l))
    rw [if_pos h1, dif_neg (fun h => hc (hcond.mp h)), if_pos h3, add_zero]
  · rw [if_neg h1, zero_add]
    by_cases h2 : s.val < (l + 1) * 8192
    · have hc : l * 8192 ≤ s.val ∧ s.val < (l + 1) * 8192 := ⟨Nat.le_of_not_lt h1, h2⟩
      rw [dif_pos (hcond.mpr hc), if_pos h2]
      refine hblk _ s ?_
      show s.val = l * 8192 + ((ids (ix2 0 p)).toNat - (i 1).val * 8192)
      rw [hids, hl]
      exact (Nat.add_sub_cancel' hc.1).symm
    · rw [dif_neg (fun h => h2 (hcond.mp h).2), if_neg h2]

end AtIdeal

section Invariant

variable (V : (c : Dev nD) → (b : Ref sig .tc) → Buf (Elt Ideal) ((c : Thread nD τ).loc b)) (c : Dev nD)

/-- The positions' block holds the sampled positions as words. -/
theorem ids0_toNat (sel : Fin 64 → Fin 131072) (hsel : ∀ p : Fin 64, V c main_v2 (ix2 0 p) = BitVec.ofNat 32 (sel p).val)
    (t : Fin cfg0.N) (p : Fin 64) : ((iblk0 V c 2 t : Vec Ideal S1x64 .i32) (ix2 0 p)).toNat = (sel p).val := by
  rw [iblk0_2_apply V c t (ix2 0 p), hsel p, BitVec.toNat_ofNat]
  exact Nat.mod_eq_of_lt (Nat.lt_trans (sel p).isLt (by decide))

/-- Every entry of a query tile is an entry of the query array, so a real number; -/
theorem real_blk0_q (hq : ∀ i, ∃ r : ℝ, V c main_v0 i = (r : EReal)) (t : Fin cfg0.N) (j : S1x32x8192.Idx) :
    ∃ r : ℝ, (iblk0 V c 0 t : Vec Ideal S1x32x8192 .f32) j = (r : EReal) := by
  have hN : cfg0.N = 64 := N_0
  have ht := t.isLt
  have hj : (j 2).val < 8192 := (j 2).isLt
  rw [iblk0_0_apply V c t j (ix3 ⟨t.val / 16, by omega⟩ (j 1) ⟨t.val % 16 * 8192 + (j 2).val, by omega⟩) rfl rfl rfl]
  exact hq _
/-- of a key tile likewise. -/
theorem real_blk0_k (hk : ∀ i, ∃ r : ℝ, V c main_v1 i = (r : EReal)) (t : Fin cfg0.N) (j : S1x32x8192.Idx) :
    ∃ r : ℝ, (iblk0 V c 1 t : Vec Ideal S1x32x8192 .f32) j = (r : EReal) := by
  have hN : cfg0.N = 64 := N_0
  have ht := t.isLt
  have hj : (j 2).val < 8192 := (j 2).isLt
  rw [iblk0_1_apply V c t j (ix3 ⟨t.val / 16, by omega⟩ (j 1) ⟨t.val % 16 * 8192 + (j 2).val, by omega⟩) rfl rfl rfl]
  exact hk _

/-- The query and key arrays as the region finds them, as functions into the extended reals. -/
abbrev qarr0 : S4x32x131072.Idx → EReal := V c main_v0
abbrev karr0 : S4x32x131072.Idx → EReal := V c main_v1

/-- THE INVARIANT at position `n = 16 b + l`: each accumulator's entry (ch, p) holds the array's value at batch entry
    `b`, channel `ch` and the `p`-th sampled position when that position lies in the tiles `0 … l`, and zero otherwise. -/
def AccInv0 (sel : Fin 64 → Fin 131072) (n : ℕ) (hn : n < cfg0.N) : Prop :=
  ∀ (b : Fin 4) (l : ℕ), n = 16 * b.val + l → l < 16 → ∀ (ch : Fin 32) (p : Fin 64),
    (outsAt0 V c n hn).2.1 (ix2 ch p)
        = (if (sel p).val < (l + 1) * 8192 then qarr0 V c (ix3 b ch (sel p)) else 0)
      ∧ (outsAt0 V c n hn).2.2 (ix2 ch p)
        = (if (sel p).val < (l + 1) * 8192 then karr0 V c (ix3 b ch (sel p)) else 0)

/-- A batch entry's first tile establishes it from the zero accumulators. -/
theorem inv0_A (hq : ∀ i, ∃ r : ℝ, V c main_v0 i = (r : EReal)) (hk : ∀ i, ∃ r : ℝ, V c main_v1 i = (r : EReal))
    (sel : Fin 64 → Fin 131072) (hsel : ∀ p : Fin 64, V c main_v2 (ix2 0 p) = BitVec.ofNat 32 (sel p).val)
    (t : Fin cfg0.N) (h0 : t.val % 16 = 0) : AccInv0 V c sel t.val t.isLt := by
  intro b l hn hl ch p
  have hl0 : l = 0 := by omega
  subst hl0
  have hb : t.val / 16 = b.val := by omega
  refine ⟨?_, ?_⟩
  · rw [accq0_A V c t h0]
    refine step0_q (grid0.coords t) 0 ((coord0_1 t).trans h0) (iblk0 V c 2 t) (iblk0 V c 0 t) (k0_pay10 (F := Ideal))
      (fun ch s => qarr0 V c (ix3 b ch s)) ch p (sel p) (ids0_toNat V c sel hsel t p)
      (real_blk0_q V c hq t) (fun n k hkn => ?_) ?_
    · exact iblk0_0_apply V c t (ix3 0 ch n) (ix3 b ch k) hb.symm rfl (by show k.val = t.val % 16 * 8192 + n.val; rw [h0, hkn])
    · rw [Pay.R0.reset_q_apply, if_neg (by show ¬(sel p).val < 0 * 8192; omega)]
  · rw [acck0_A V c t h0]
    refine step0_k (grid0.coords t) 0 ((coord0_1 t).trans h0) (iblk0 V c 2 t) (iblk0 V c 1 t) (k0_pay11 (F := Ideal))
      (fun ch s => karr0 V c (ix3 b ch s)) ch p (sel p) (ids0_toNat V c sel hsel t p)
      (real_blk0_k V c hk t) (fun n k hkn => ?_) ?_
    · exact iblk0_1_apply V c t (ix3 0 ch n) (ix3 b ch k) hb.symm rfl (by show k.val = t.val % 16 * 8192 + n.val; rw [h0, hkn])
    · rw [Pay.R0.reset_k_apply, if_neg (by show ¬(sel p).val < 0 * 8192; omega)]

/-- A later tile carries it one tile further. -/
theorem inv0_BC (hq : ∀ i, ∃ r : ℝ, V c main_v0 i = (r : EReal)) (hk : ∀ i, ∃ r : ℝ, V c main_v1 i = (r : EReal))
    (sel : Fin 64 → Fin 131072) (hsel : ∀ p : Fin 64, V c main_v2 (ix2 0 p) = BitVec.ofNat 32 (sel p).val)
    (t : Fin cfg0.N) (h0 : ¬t.val % 16 = 0)
    (ih : AccInv0 V c sel (t.val - 1) (Nat.lt_of_le_of_lt (Nat.sub_le _ _) t.isLt)) : AccInv0 V c sel t.val t.isLt := by
  intro b l hn hl ch p
  have hb : t.val / 16 = b.val := by omega
  have hlt : t.val % 16 = l := by omega
  have hl1 : l - 1 + 1 = l := by omega
  obtain ⟨iq, ik⟩ := ih b (l - 1) (by omega) (by omega) ch p
  rw [hl1] at iq ik
  have eq : (outsAt0 V c t.val t.isLt).2.1 = k0_pay15 (grid0.coords t) (iblk0 V c 2 t) (iblk0 V c 0 t) (outsAt0 V c (t.val - 1) (Nat.lt_of_le_of_lt (Nat.sub_le _ _) t.isLt)).2.1 := by
    by_cases h1 : t.val % 16 = 15
    · exact accq0_C V c t h0 h1
    · exact accq0_B V c t h0 h1
  have ek : (outsAt0 V c t.val t.isLt).2.2 = k0_pay1 (k0_pay12 (grid0.coords t) (iblk0 V c 2 t)) (k0_pay14 (iblk0 V c 1 t)) (outsAt0 V c (t.val - 1) (Nat.lt_of_le_of_lt (Nat.sub_le _ _) t.isLt)).2.2 (k0_pay16 (grid0.coords t) (iblk0 V c 2 t) (iblk0 V c 1 t)) := by
    by_cases h1 : t.val % 16 = 15
    · exact acck0_C V c t h0 h1
    · exact acck0_B V c t h0 h1
  refine ⟨?_, ?_⟩
  · rw [eq]
    exact step0_q (grid0.coords t) l ((coord0_1 t).trans hlt) (iblk0 V c 2 t) (iblk0 V c 0 t) (outsAt0 V c (t.val - 1) (Nat.lt_of_le_of_lt (Nat.sub_le _ _) t.isLt)).2.1
      (fun ch s => qarr0 V c (ix3 b ch s)) ch p (sel p) (ids0_toNat V c sel hsel t p) (real_blk0_q V c hq t)
      (fun n k hkn => iblk0_0_apply V c t (ix3 0 ch n) (ix3 b ch k) hb.symm rfl
        (by show k.val = t.val % 16 * 8192 + n.val; rw [hlt, hkn])) iq
  · rw [ek]
    exact step0_k (grid0.coords t) l ((coord0_1 t).trans hlt) (iblk0 V c 2 t) (iblk0 V c 1 t) (outsAt0 V c (t.val - 1) (Nat.lt_of_le_of_lt (Nat.sub_le _ _) t.isLt)).2.2
      (fun ch s => karr0 V c (ix3 b ch s)) ch p (sel p) (ids0_toNat V c sel hsel t p) (real_blk0_k V c hk t)
      (fun n k hkn => iblk0_1_apply V c t (ix3 0 ch n) (ix3 b ch k) hb.symm rfl
        (by show k.val = t.val % 16 * 8192 + n.val; rw [hlt, hkn])) ik

/-- The invariant holds after every point: by induction on the position. -/
theorem acc_inv0 (hq : ∀ i, ∃ r : ℝ, V c main_v0 i = (r : EReal)) (hk : ∀ i, ∃ r : ℝ, V c main_v1 i = (r : EReal))
    (sel : Fin 64 → Fin 131072) (hsel : ∀ p : Fin 64, V c main_v2 (ix2 0 p) = BitVec.ofNat 32 (sel p).val) :
    ∀ (n : ℕ) (hn : n < cfg0.N), AccInv0 V c sel n hn
  | 0, hn => inv0_A V c hq hk sel hsel ⟨0, hn⟩ rfl
  | n + 1, hn => by
    by_cases h0 : (n + 1) % 16 = 0
    · exact inv0_A V c hq hk sel hsel ⟨n + 1, hn⟩ h0
    · exact inv0_BC V c hq hk sel hsel ⟨n + 1, hn⟩ h0 (acc_inv0 hq hk sel hsel n (Nat.lt_of_succ_lt hn))

/-- THE LAST TILE'S OUTPUT: at position `16 b + 15` every sampled position has been met, the accumulators hold the
    gathered columns, and the output block is the specification's loss of them. -/
theorem out_last0 (hq : ∀ i, ∃ r : ℝ, V c main_v0 i = (r : EReal)) (hk : ∀ i, ∃ r : ℝ, V c main_v1 i = (r : EReal))
    (sel : Fin 64 → Fin 131072) (hsel : ∀ p : Fin 64, V c main_v2 (ix2 0 p) = BitVec.ofNat 32 (sel p).val)
    (b : Fin 4) (p : Fin 64) (hn : 16 * b.val + 15 < cfg0.N) :
    (outsAt0 V c (16 * b.val + 15) hn).1 (ix3 0 0 p) = Cert.Spec.layerOf (C := 32) (qarr0 V c) (karr0 V c) sel b p := by
  have h0 : ¬(16 * b.val + 15) % 16 = 0 := by omega
  have h1 : (16 * b.val + 15) % 16 = 15 := by omega
  have inv := acc_inv0 V c hq hk sel hsel (16 * b.val + 15) hn b 15 rfl (by omega)
  rw [out0_C V c ⟨16 * b.val + 15, hn⟩ h0 h1, Pay.R0.loss_apply]
  unfold Cert.Spec.layerOf Cert.Spec.layer Cert.Spec.cur
  congr 1
  · funext p' ch; exact (inv ch p').1.trans (if_pos (sel p').isLt)
  · funext p' ch; exact (inv ch p').2.trans (if_pos (sel p').isLt)

end Invariant

end Cert.KernelIdeal.Hand

end
-- ==== Proof.KI.Blocks0.lean ====
/- Layer 0 of the patch-gather loss: from the grid's write-backs to the output array. The [4,1,64] output is
   written back once per batch entry, at the entry's last tile (position 16b + 15), as the [1,1,64] block at row b; the
   four blocks are disjoint rows, so entry (b, 0, p) of the array after the region is entry (0, 0, p) of what position
   16b + 15 left in the output window's staging buffer. -/
import proofs.«430285_j43310450213294_2_alg».proof.Proof.KI.Region0
import Idealize.ShloMosaic.Lib.Pipeline.Value
import Idealize.ShloMosaic.Lib.ValueIdx
import Idealize.ShloMosaic.Lib.ValueIdxCoords

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Blocks0
-- the buffer contents when the region is entered
variable (V : (c : Dev nD) → (b : Ref sig .tc) → Buf (Elt F) ((c : Thread nD τ).loc b))

/-- The output window's block index at position `t`: row `t / 16`, decided over the grid. -/
theorem idx0_3 : ∀ t : Fin cfg0.N, win0_3.index t (0 : Fin 3) = t.val / 16 ∧ win0_3.index t (1 : Fin 3) = 0 ∧ win0_3.index t (2 : Fin 3) = 0 :=
  (by decide +kernel : ∀ t : Fin grid0.N, _)

/-- The staging buffer's contents after a position, read at an entry, depend on the position's number and the entry only. -/
theorem outsAt0_fst_congr (c : Dev nD) {n n' : ℕ} (e : n = n') (h : n < cfg0.N) (h' : n' < cfg0.N)
    (j j' : S1x1x64.Idx) (ej : j = j') : (outsAt0 V c n h).1 j = (outsAt0 V c n' h').1 j' := by
  subst e; subst ej; rfl

/-- The output array as the region leaves it: row `b` is what the last tile of batch entry `b` stored. -/
def G0 (c : Dev nD) : S4x1x64.Idx → Elt F .f32 := fun i =>
  (outsAt0 V c (16 * (i 0).val + 15) (by have h : (i 0).val < 4 := (i 0).isLt; have hN : cfg0.N = 64 := N_0; omega)).1
    (ValueIdx.ix3 (0 : Fin 1) (0 : Fin 1) (i 2))

/-- What a last tile writes back is its row of `G0`. -/
theorem flushed0_3_eq (c : Dev nD) (t : Fin cfg0.N) (hf : (cfg0.win 3).flush t = true) :
    (dat0 V c).flushed 3 t = ((cfg0.win 3).blk t).view.read (Elt F) (G0 V c) := by
  have hodd : t.val % 16 = 15 := (flush0_3 t).mp hf
  obtain ⟨e0, e1, e2⟩ := idx0_3 t
  show (cfg0.win 3).cut (grid0.coords t) ((dat0 V c).after 3 t) = _
  rw [after0_3]
  funext j
  show (outsAt0 V c t.val t.isLt).1 j = G0 V c (((cfg0.win 3).blk t).view.emb j)
  unfold G0
  have hj0 : (j 0).val < 1 := (j 0).isLt
  have hj1 : (j 1).val < 1 := (j 1).isLt
  refine outsAt0_fst_congr V c ?_ _ _ j _ ?_
  · show t.val = 16 * (win0_3.index t (0 : Fin 3) * 1 + 1 * (j 0).val) + 15
    rw [e0]; omega
  · funext a; apply Fin.ext
    match a with
    | ⟨0, _⟩ => show (j 0).val = 0; omega
    | ⟨1, _⟩ => show (j 1).val = 0; omega
    | ⟨2, _⟩ => show (j 2).val = win0_3.index t (2 : Fin 3) * 64 + 1 * (j 2).val; rw [e2]; omega

/-- An entry of the array is in position `t`'s block iff each coordinate is in the block's range on its axis. -/
theorem mem_blk0_3 (t : Fin cfg0.N) (i : S4x1x64.Idx) :
    i ∈ ((cfg0.win 3).blk t).view.set ↔ ∀ a : Fin 3, win0_3.index t a * S1x1x64.size a ≤ (i a).val ∧ (i a).val < win0_3.index t a * S1x1x64.size a + S1x1x64.size a := by
  show i ∈ ((View.whole main_v3).slice (win0_3.rect t)).set ↔ _
  rw [View.set_slice_whole, Rect.mem_set_unit]
  exact Iff.rfl

/-- THE OUTPUT ARRAY after the region, entry (b, 0, p): what the last tile of batch entry `b` left at (0, 0, p). -/
theorem blocks0 (c : Dev nD) (b : Fin 4) (p : Fin 64) :
    (dat0 V c).arrAt 3 cfg0.N (ValueIdx.ix3 b 0 p)
      = (outsAt0 V c (16 * b.val + 15) (by have := b.isLt; have : cfg0.N = 64 := N_0; omega)).1 (ValueIdx.ix3 0 0 p) := by
  have hN : cfg0.N = 64 := N_0
  have hb : b.val < 4 := b.isLt
  have hp : p.val < 64 := p.isLt
  have ht : 16 * b.val + 15 < cfg0.N := by omega
  have hf : (cfg0.win 3).flush ⟨16 * b.val + 15, ht⟩ = true := (flush0_3 ⟨16 * b.val + 15, ht⟩).mpr (by show (16 * b.val + 15) % 16 = 15; omega)
  have hmem : (ValueIdx.ix3 b (0 : Fin 1) p : S4x1x64.Idx) ∈ ((cfg0.win 3).blk ⟨16 * b.val + 15, ht⟩).view.set := by
    rw [mem_blk0_3]
    obtain ⟨e0, e1, e2⟩ := idx0_3 ⟨16 * b.val + 15, ht⟩
    intro a
    match a with
    | ⟨0, _⟩ =>
      show win0_3.index ⟨16 * b.val + 15, ht⟩ (0 : Fin 3) * 1 ≤ b.val ∧ b.val < win0_3.index ⟨16 * b.val + 15, ht⟩ (0 : Fin 3) * 1 + 1
      rw [e0]; show (16 * b.val + 15) / 16 * 1 ≤ b.val ∧ b.val < (16 * b.val + 15) / 16 * 1 + 1; omega
    | ⟨1, _⟩ =>
      show win0_3.index ⟨16 * b.val + 15, ht⟩ (1 : Fin 3) * 1 ≤ 0 ∧ 0 < win0_3.index ⟨16 * b.val + 15, ht⟩ (1 : Fin 3) * 1 + 1
      rw [e1]; omega
    | ⟨2, _⟩ =>
      show win0_3.index ⟨16 * b.val + 15, ht⟩ (2 : Fin 3) * 64 ≤ p.val ∧ p.val < win0_3.index ⟨16 * b.val + 15, ht⟩ (2 : Fin 3) * 64 + 64
      rw [e2]; omega
  exact (dat0 V c).arrAt_apply_of_mem 3 (G0 V c) (flushed0_3_eq V c) cfg0.N ⟨16 * b.val + 15, ht⟩ _ ht hf hmem

end Blocks0

end Cert.KernelIdeal.Hand

end
-- ==== Proof.KI.Value0.lean ====
/-
  The first layer's region, the value of its output array: entry (b, 0, p) of the [4, 1, 64] array after the region is what the last
  tile of batch entry b left at (0, 0, p) of the output window, and that is the specification's layer at (b, p) of the
  query and key arrays gathered at the sampled positions.
-/
import proofs.«430285_j43310450213294_2_alg».proof.Proof.KI.Value0Acc
import proofs.«430285_j43310450213294_2_alg».proof.Proof.KI.Blocks0

noncomputable section

namespace Cert.KernelIdeal.Hand

open Idealize.ShloMosaic Idealize.ShloMosaic.TcCoe Idealize.SL.Sem
open Cert.KernelIdeal Cert.KernelIdeal.Gen

/-- THE VALUE of the first layer's output array. -/
theorem value0 (V : (c : Dev nD) → (b : Ref sig .tc) → Buf (Elt Ideal) ((c : Thread nD τ).loc b)) (c : Dev nD)
    (hq : ∀ i, ∃ r : ℝ, V c main_v0 i = (r : EReal)) (hk : ∀ i, ∃ r : ℝ, V c main_v1 i = (r : EReal))
    (sel : Fin 64 → Fin 131072) (hsel : ∀ p : Fin 64, V c main_v2 (ValueIdx.ix2 0 p) = BitVec.ofNat 32 (sel p).val)
    (b : Fin 4) (p : Fin 64) :
    (dat0 (F := Ideal) V c).arrAt 3 cfg0.N (ValueIdx.ix3 b 0 p)
      = Cert.Spec.layerOf (C := 32) (V c main_v0) (V c main_v1) sel b p :=
  (blocks0 V c b p).trans (out_last0 V c hq hk sel hsel b p _)

end Cert.KernelIdeal.Hand

end
-- ==== Proof.Glue.lean ====
/-
  General facts about reshapes and index words, for any shapes.

  A reshape reads its operand at one index, so it keeps every entry a real number; adding a leading unit axis to a
  vector reads the vector at the column; a 32-bit word is the word of its own value; the scalar shape has one index
  (the library's `ValueIdx.eq_ix0`).
-/
import Idealize.ShloMosaic.PureOps.Ideal
import Idealize.ShloMosaic.Lib.ValueIdx
import Idealize.ShloMosaic.Lib.Pipeline.Value
import Idealize.ShloMosaic.Lib.ValueLayout

namespace Cert.Glue

open Idealize.ShloMosaic Idealize.ShloMosaic.ValueIdx

/-- A reshape of an array of extended reals whose entries are all real numbers has all its entries real: each is the
    operand's entry at the index with the same row-major position. (An ideal float vector of any format is such an
    array.) -/
theorem shapeCast_real {s t : Shape} (x : s.Idx → EReal) (hx : ∀ i, ∃ r : ℝ, x i = (r : EReal))
    (h : s.ShapeCasts t) (j : t.Idx) : ∃ r : ℝ, shapeCast t x h j = (r : EReal) :=
  hx (Shape.reshapeEquiv h j)

/-- A vector given a leading unit axis reads, at column `p` of its one row, the vector at `p`. -/
theorem shapeCast_row_apply {α : Type} {n : ℕ} (v : (⟨1, ![n]⟩ : Shape).Idx → α)
    (h : (⟨1, ![n]⟩ : Shape).ShapeCasts ⟨2, ![1, n]⟩) (p : Fin n) :
    shapeCast ⟨2, ![1, n]⟩ v h (ix2 (0 : Fin 1) p) = v (ix1 p) :=
  shapeCast_a_1a_apply v h 0 p

/-- The same for a vector of 64 index words. -/
theorem ids_row_apply (ids : IVec ⟨1, ![64]⟩ 32) (h : (⟨1, ![64]⟩ : Shape).ShapeCasts ⟨2, ![1, 64]⟩) (p : Fin 64) :
    shapeCast ⟨2, ![1, 64]⟩ ids h (ix2 (0 : Fin 1) p) = ids (ix1 p) :=
  shapeCast_a_1a_apply ids h 0 p

/-- A 32-bit word is the word of its own value. -/
theorem ofNat_toNat (w : BitVec 32) : BitVec.ofNat 32 w.toNat = w :=
  BitVec.eq_of_toNat_eq (by rw [BitVec.toNat_ofNat]; exact Nat.mod_eq_of_lt w.isLt)

/-- Every index of the scalar shape is the one index. -/
theorem idx0_eq (j : (⟨0, ![]⟩ : Shape).Idx) : j = ix0 := eq_ix0 j

end Cert.Glue
-- ==== Proof.KI.Mean0.lean ====
/-
  Layer 0 of the kernel's result: after pallas_call 0 its output array holds, at (b, 0, p), the layer's loss of batch
  entry b at patch p, of the reshaped query and key arrays the host stretch before the call wrote, at the positions
  the index array names; so the mean the next host stretch takes over that array is the specification's mean.
-/
import proofs.«430285_j43310450213294_2_alg».proof.Proof.KI.Halves
import proofs.«430285_j43310450213294_2_alg».proof.Proof.KI.Host
import proofs.«430285_j43310450213294_2_alg».proof.Proof.KI.Value0
import proofs.«430285_j43310450213294_2_alg».proof.Proof.Glue

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable (m : (ℓ : Loc nD τ sig) → Buf (Elt Ideal) ℓ)

/-- After the call its output array holds what its pipeline's write-backs leave. -/
theorem outs_2 (c : Dev nD) :
    outsAll m 2 main_v3 c = (dat0 (F := Ideal) (fun c b => V1 m c b) c).arrAt 3 cfg0.N := by
  show W2 m half0 c (Proc.devRef .tc main_v3) = _
  unfold W2
  exact Pipeline.withArrays_arr spec0 launch0.win.arr_inj c _ _ 3

/-- The mean over the call's output array is the specification's mean of the layer. -/
theorem mean_0 (c : Dev nD)
    (hq : ∀ i, ∃ r : ℝ, (m ((c : Thread nD τ).loc main_arg0)) i = (r : EReal)) (hk : ∀ i, ∃ r : ℝ, (m ((c : Thread nD τ).loc main_arg5)) i = (r : EReal))
    (sel : Fin 64 → Fin 131072) (hsel : ∀ p : Fin 64, (m ((c : Thread nD τ).loc main_arg10)) (ix1 p) = BitVec.ofNat 32 (sel p).val) :
    μ (outsAll m 2 main_v3 c) = Cert.Spec.mean (Cert.Spec.layerOf (C := 32) (shapeCast _ (m ((c : Thread nD τ).loc main_arg0)) Gen.shapeCasts_S4x32x32x64x64_S4x32x131072) (shapeCast _ (m ((c : Thread nD τ).loc main_arg5)) Gen.shapeCasts_S4x32x32x64x64_S4x32x131072) sel) := by
  refine congrArg Cert.Spec.mean (funext fun b => funext fun p => ?_)
  rw [outs_2 m c]
  rw [value0 (fun c b => V1 m c b) c
    (by intro i; show ∃ r : ℝ, V1 m c main_v0 i = _; rw [V1_main_v0 m c]; exact Cert.Glue.shapeCast_real _ hq _ i)
    (by intro i; show ∃ r : ℝ, V1 m c main_v1 i = _; rw [V1_main_v1 m c]; exact Cert.Glue.shapeCast_real _ hk _ i)
    sel
    (by intro p; show V1 m c main_v2 (ix2 0 p) = _; rw [V1_main_v2 m c, Cert.Glue.shapeCast_row_apply]; exact hsel p)
    b p]
  show Cert.Spec.layerOf (C := 32) (V1 m c main_v0) (V1 m c main_v1) sel b p = _
  rw [V1_main_v0 m c, V1_main_v1 m c]

end Cert.KernelIdeal.Hand

end
-- ==== Proof.KI.Value1Blocks.lean ====
/-
  The second layer's kernel call: its three input blocks at a grid point, read as entries of the arrays the call
  finds. Point `t` is tile `t % 2` of batch entry `t / 2`; a tile is 8192 consecutive locations; the block
  of the sampled positions is the whole one-row array at every point.
-/
import proofs.«430285_j43310450213294_2_alg».proof.Proof.KI.Region1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F] [Named F]
variable (V : (c : Dev nD) → (b : Ref sig .tc) → Buf (Elt F) ((c : Thread nD τ).loc b))

/-- Where the q window's block sits at point `t`: batch entry `t / 2`, all channels, tile `t % 2`. -/
theorem qidx1 : ∀ t : Fin cfg1.N, win1_0.index t 0 = t.val / 2 ∧ win1_0.index t 1 = 0 ∧ win1_0.index t 2 = t.val % 2 :=
  (by decide +kernel : ∀ t : Fin grid1.N, win1_0.index t 0 = t.val / 2 ∧ win1_0.index t 1 = 0 ∧ win1_0.index t 2 = t.val % 2)
/-- The k window's block sits at the same place. -/
theorem kidx1 : ∀ t : Fin cfg1.N, win1_1.index t 0 = t.val / 2 ∧ win1_1.index t 1 = 0 ∧ win1_1.index t 2 = t.val % 2 :=
  (by decide +kernel : ∀ t : Fin grid1.N, win1_1.index t 0 = t.val / 2 ∧ win1_1.index t 1 = 0 ∧ win1_1.index t 2 = t.val % 2)
/-- The window of the sampled positions never moves. -/
theorem sidx1 : ∀ t : Fin cfg1.N, win1_2.index t 0 = 0 ∧ win1_2.index t 1 = 0 :=
  (by decide +kernel : ∀ t : Fin grid1.N, win1_2.index t 0 = 0 ∧ win1_2.index t 1 = 0)
/-- The tile coordinate of point `t`. -/
theorem tile1 : ∀ t : Fin cfg1.N, ((grid1.coords t) 1).val = t.val % 2 :=
  (by decide +kernel : ∀ t : Fin grid1.N, ((grid1.coords t) 1).val = t.val % 2)

/-- The q block at point `t`: entry `x` of the block is entry `k` of the q array when `k` is batch entry
    `t / 2`, the same channel, and location `(t % 2) * 8192 + x 2`. -/
theorem qblk1_apply (c : Dev nD) (t : Fin cfg1.N) (x : S1x64x8192.Idx) (k : S4x64x16384.Idx)
    (hk0 : (k 0).val = t.val / 2) (hk1 : (k 1).val = (x 1).val) (hk2 : (k 2).val = (t.val % 2) * 8192 + (x 2).val) :
    (iblk1 V c 0 t : Vec F S1x64x8192 .f32) x = (V c main_v7 : S4x64x16384.Idx → Elt F .f32) k := by
  have hi := qidx1 t
  have hx0 : (x 0).val = 0 := by have h : (x 0).val < 1 := (x 0).isLt; omega
  unfold iblk1
  rw [View.read_apply]
  show V c main_v7 _ = V c main_v7 _
  congr 1
  funext a
  apply Fin.ext
  match a with
  | ⟨0, _⟩ => show win1_0.index t 0 * 1 + 1 * (x 0).val = (k 0).val; rw [hi.1, hk0, hx0]; omega
  | ⟨1, _⟩ => show win1_0.index t 1 * 64 + 1 * (x 1).val = (k 1).val; rw [hi.2.1, hk1]; omega
  | ⟨2, _⟩ => show win1_0.index t 2 * 8192 + 1 * (x 2).val = (k 2).val; rw [hi.2.2, hk2]; omega

/-- The k block at point `t`, likewise. -/
theorem kblk1_apply (c : Dev nD) (t : Fin cfg1.N) (x : S1x64x8192.Idx) (k : S4x64x16384.Idx)
    (hk0 : (k 0).val = t.val / 2) (hk1 : (k 1).val = (x 1).val) (hk2 : (k 2).val = (t.val % 2) * 8192 + (x 2).val) :
    (iblk1 V c 1 t : Vec F S1x64x8192 .f32) x = (V c main_v8 : S4x64x16384.Idx → Elt F .f32) k := by
  have hi := kidx1 t
  have hx0 : (x 0).val = 0 := by have h : (x 0).val < 1 := (x 0).isLt; omega
  unfold iblk1
  rw [View.read_apply]
  show V c main_v8 _ = V c main_v8 _
  congr 1
  funext a
  apply Fin.ext
  match a with
  | ⟨0, _⟩ => show win1_1.index t 0 * 1 + 1 * (x 0).val = (k 0).val; rw [hi.1, hk0, hx0]; omega
  | ⟨1, _⟩ => show win1_1.index t 1 * 64 + 1 * (x 1).val = (k 1).val; rw [hi.2.1, hk1]; omega
  | ⟨2, _⟩ => show win1_1.index t 2 * 8192 + 1 * (x 2).val = (k 2).val; rw [hi.2.2, hk2]; omega

/-- The block of the sampled positions is the whole array at every point. -/
theorem sblk1_apply (c : Dev nD) (t : Fin cfg1.N) (x : S1x64.Idx) :
    (iblk1 V c 2 t : Vec F S1x64 .i32) x = (V c main_v9 : S1x64.Idx → Elt F .i32) x := by
  have hi := sidx1 t
  unfold iblk1
  rw [View.read_apply]
  show V c main_v9 _ = V c main_v9 _
  congr 1
  funext a
  apply Fin.ext
  match a with
  | ⟨0, _⟩ => show win1_2.index t 0 * 1 + 1 * (x 0).val = (x 0).val; rw [hi.1]; omega
  | ⟨1, _⟩ => show win1_2.index t 1 * 64 + 1 * (x 1).val = (x 1).val; rw [hi.2]; omega

end Cert.KernelIdeal.Hand

end
-- ==== Proof.KI.Region1Value.lean ====
/- Layer 1 of the patch-gather loss: what the named contents of the two control cases ARE, as the body's arithmetic
   of the point's blocks. With q, k the point's feature blocks, ids the 64 patch locations and G(x) the tile's one-hot
   gather of x's columns at the ids (computed as a sum of two half-precision products), a first tile leaves 0 + G(q)
   and 0 + G(k) in the accumulators; a last tile leaves acc + G(q) and acc + G(k), and in the output block the losses
   of the two accumulators' columns. -/
import proofs.«430285_j43310450213294_2_alg».proof.Proof.KI.Region1
import Idealize.ShloMosaic.Lib.Pipeline.Value

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem hz1_2 : (![0, 0] : Fin 2 → Nat) = fun _ => 0 := funext fun a => by fin_cases a <;> rfl
theorem hz1_3 : (![0, 0, 0] : Fin 3 → Nat) = fun _ => 0 := funext fun a => by fin_cases a <;> rfl

/-- First tile, q accumulator: the zero fill, then the gather of the q block added to it. -/
theorem sout1_A_0_eq (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) :
    sout1_A_0 c i arg2 harg2 arg3 harg3 arg4 harg4 arg5 harg5 arg6 harg6 arg7 harg7 hc0 hc1 x0 x1 x2 = k1_pay15 i x2 x0 (k1_pay10 (F := F)) := by
  unfold sout1_A_0
  rw [View.read_writes_eq_canon _ _ _ (scover1_A_0 c i arg2 harg2 arg3 harg3 arg4 harg4 arg5 harg5 arg6 harg6 arg7 harg7 hc0 hc1 x0 x1 x2)]
  unfold kernelRun1_A
  dsimp only
  sl_unfold_words
  rw [View.canon_cons_unit_zero (S := S64x64) hz1_2]
  simp only [View.readAt_eq_ld, harg2.read_unread, harg3.read_unread, harg4.read_unread, harg6.read_unread, harg7.read_unread, View.ld_unit_zero (S := S1x64x8192) hz1_3, View.ld_unit_zero (S := S1x64) hz1_2, View.ld_unit_zero (S := S64x64) hz1_2, View.ld_unit_zero (S := S1x1x64) hz1_3, View.readCov_unit_zero (S := S64x64) _ hz1_2]

/-- First tile, k accumulator: the zero fill, then the gather of the k block added to it. -/
theorem sout1_A_1_eq (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : cond1_0 i) (hc1 : ¬cond1_1 i)
    (x0 : Vec F S1x64x8192 .f32) (x1 : Vec F S1x64x8192 .f32) (x2 : Vec F S1x64 .i32) :
    sout1_A_1 c i arg2 harg2 arg3 harg3 arg4 harg4 arg5 harg5 arg6 harg6 arg7 harg7 hc0 hc1 x0 x1 x2 = k1_pay1 (k1_pay12 i x2) (k1_pay14 x1) (k1_pay11 (F := F)) (k1_pay16 i x2 x1) := by
  unfold sout1_A_1
  rw [View.read_writes_eq_canon _ _ _ (scover1_A_1 c i arg2 harg2 arg3 harg3 arg4 harg4 arg5 harg5 arg6 harg6 arg7 harg7 hc0 hc1 x0 x1 x2)]
  unfold kernelRun1_A
  dsimp only
  sl_unfold_words
  rw [View.canon_cons_unit_zero (S := S64x64) hz1_2]
  simp only [View.readAt_eq_ld, harg2.read_unread, harg3.read_unread, harg4.read_unread, harg6.read_unread, harg7.read_unread, View.ld_unit_zero (S := S1x64x8192) hz1_3, View.ld_unit_zero (S := S1x64) hz1_2, View.ld_unit_zero (S := S64x64) hz1_2, View.ld_unit_zero (S := S1x1x64) hz1_3, View.readCov_unit_zero (S := S64x64) _ hz1_2]

/-- Last tile, q accumulator: the gather of the q block added to what the first tile left. -/
theorem sout1_C_0_eq (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) :
    sout1_C_0 c i arg2 harg2 arg3 harg3 arg4 harg4 arg5 harg5 arg6 harg6 arg7 harg7 hc0 hc1 x0 x1 x2 xs0 xs1 = k1_pay15 i x2 x0 xs0 := by
  unfold sout1_C_0
  rw [View.read_writes_eq_canon _ _ _ (scover1_C_0 c i arg2 harg2 arg3 harg3 arg4 harg4 arg5 harg5 arg6 harg6 arg7 harg7 hc0 hc1 x0 x1 x2 xs0 xs1)]
  unfold kernelRun1_C
  dsimp only
  sl_unfold_words
  rw [View.canon_unit_zero hz1_2]
  simp only [View.readAt_eq_ld, harg2.read_unread, harg3.read_unread, harg4.read_unread, harg6.read_unread, harg7.read_unread, View.ld_unit_zero (S := S1x64x8192) hz1_3, View.ld_unit_zero (S := S1x64) hz1_2, View.ld_unit_zero (S := S64x64) hz1_2, View.ld_unit_zero (S := S1x1x64) hz1_3, View.readCov_unit_zero (S := S64x64) _ hz1_2]

/-- Last tile, k accumulator: the gather of the k block added to what the first tile left. -/
theorem sout1_C_1_eq (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) :
    sout1_C_1 c i arg2 harg2 arg3 harg3 arg4 harg4 arg5 harg5 arg6 harg6 arg7 harg7 hc0 hc1 x0 x1 x2 xs0 xs1 = k1_pay1 (k1_pay12 i x2) (k1_pay14 x1) xs1 (k1_pay16 i x2 x1) := by
  unfold sout1_C_1
  rw [View.read_writes_eq_canon _ _ _ (scover1_C_1 c i arg2 harg2 arg3 harg3 arg4 harg4 arg5 harg5 arg6 harg6 arg7 harg7 hc0 hc1 x0 x1 x2 xs0 xs1)]
  unfold kernelRun1_C
  dsimp only
  sl_unfold_words
  rw [View.canon_unit_zero hz1_2]
  simp only [View.readAt_eq_ld, harg2.read_unread, harg3.read_unread, harg4.read_unread, harg6.read_unread, harg7.read_unread, View.ld_unit_zero (S := S1x64x8192) hz1_3, View.ld_unit_zero (S := S1x64) hz1_2, View.ld_unit_zero (S := S64x64) hz1_2, View.ld_unit_zero (S := S1x1x64) hz1_3, View.readCov_unit_zero (S := S64x64) _ hz1_2]

/-- Last tile, output block: the 64 losses computed from the two accumulators as the tile leaves them. -/
theorem out1_C_3_eq (c : Dev nD) (i : grid1.Coords) (arg2 : Memref sig .tc .vmem S1x64x8192 .f32) (harg2 : arg2.IsWhole) (arg3 : Memref sig .tc .vmem S1x64x8192 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S64x64 .f32) (harg6 : arg6.IsWhole) (arg7 : Memref sig .tc .vmem S64x64 .f32) (harg7 : arg7.IsWhole) (hc0 : ¬cond1_0 i) (hc1 : cond1_1 i)
    (x0 : Vec F S1x64x8192 .f32) (x1 : Vec F S1x64x8192 .f32) (x2 : Vec F S1x64 .i32) (xs0 : Vec F S64x64 .f32) (xs1 : Vec F S64x64 .f32) :
    out1_C_3 c i arg2 harg2 arg3 harg3 arg4 harg4 arg5 harg5 arg6 harg6 arg7 harg7 hc0 hc1 x0 x1 x2 xs0 xs1
      = k1_pay2 (k1_pay8 (k1_pay15 i x2 x0 xs0) (k1_pay1 (k1_pay12 i x2) (k1_pay14 x1) xs1 (k1_pay16 i x2 x1)))
          (k1_pay9 (k1_pay15 i x2 x0 xs0) (k1_pay1 (k1_pay12 i x2) (k1_pay14 x1) xs1 (k1_pay16 i x2 x1))) := by
  unfold out1_C_3
  rw [View.read_writes_eq_canon _ _ _ (cover1_C_3 c i arg2 harg2 arg3 harg3 arg4 harg4 arg5 harg5 arg6 harg6 arg7 harg7 hc0 hc1 x0 x1 x2 xs0 xs1)]
  unfold kernelRun1_C
  dsimp only
  sl_unfold_words
  rw [View.canon_unit_zero hz1_3]
  simp only [View.readAt_eq_ld, harg2.read_unread, harg3.read_unread, harg4.read_unread, harg6.read_unread, harg7.read_unread, View.ld_unit_zero (S := S1x64x8192) hz1_3, View.ld_unit_zero (S := S1x64) hz1_2, View.ld_unit_zero (S := S64x64) hz1_2, View.ld_unit_zero (S := S1x1x64) hz1_3, View.readCov_unit_zero (S := S64x64) _ hz1_2]

/-! ## The same, point by point: each component of `outsAt1` in the body's arithmetic -/

section Points
variable (V : (c : Dev nD) → (b : Ref sig .tc) → Buf (Elt F) ((c : Thread nD τ).loc b))

/-- After a first tile the q accumulator is the zero fill plus the tile's gather of the q block. -/
theorem outsAt1_A_sc0 (c : Dev nD) (t : Fin cfg1.N) (h0 : t.val % 2 = 0) :
    (outsAt1 V c t.val t.isLt).2.1 = k1_pay15 (grid1.coords t) (iblk1 V c 2 t) (iblk1 V c 0 t) (k1_pay10 (F := F)) := by
  rw [outsAt1_A V c t h0]; dsimp only
  exact sout1_A_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_even t h0) (hc1_1_of_even t h0) (iblk1 V c 0 t) (iblk1 V c 1 t) (iblk1 V c 2 t)

/-- After a first tile the k accumulator is the zero fill plus the tile's gather of the k block. -/
theorem outsAt1_A_sc1 (c : Dev nD) (t : Fin cfg1.N) (h0 : t.val % 2 = 0) :
    (outsAt1 V c t.val t.isLt).2.2 = k1_pay1 (k1_pay12 (grid1.coords t) (iblk1 V c 2 t)) (k1_pay14 (iblk1 V c 1 t)) (k1_pay11 (F := F)) (k1_pay16 (grid1.coords t) (iblk1 V c 2 t) (iblk1 V c 1 t)) := by
  rw [outsAt1_A V c t h0]; dsimp only
  exact sout1_A_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_even t h0) (hc1_1_of_even t h0) (iblk1 V c 0 t) (iblk1 V c 1 t) (iblk1 V c 2 t)

/-- After a last tile the q accumulator is what the tile before left plus this tile's gather of the q block. -/
theorem outsAt1_C_sc0 (c : Dev nD) (t : Fin cfg1.N) (h0 : ¬t.val % 2 = 0) :
    (outsAt1 V c t.val t.isLt).2.1 = k1_pay15 (grid1.coords t) (iblk1 V c 2 t) (iblk1 V c 0 t) (outsAt1 V c (t.val - 1) (Nat.lt_of_le_of_lt (Nat.sub_le _ _) t.isLt)).2.1 := by
  rw [outsAt1_C V c t h0]; dsimp only
  exact sout1_C_0_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_odd t h0) (hc1_1_of_odd t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- After a last tile the k accumulator is what the tile before left plus this tile's gather of the k block. -/
theorem outsAt1_C_sc1 (c : Dev nD) (t : Fin cfg1.N) (h0 : ¬t.val % 2 = 0) :
    (outsAt1 V c t.val t.isLt).2.2 = k1_pay1 (k1_pay12 (grid1.coords t) (iblk1 V c 2 t)) (k1_pay14 (iblk1 V c 1 t)) (outsAt1 V c (t.val - 1) (Nat.lt_of_le_of_lt (Nat.sub_le _ _) t.isLt)).2.2 (k1_pay16 (grid1.coords t) (iblk1 V c 2 t) (iblk1 V c 1 t)) := by
  rw [outsAt1_C V c t h0]; dsimp only
  exact sout1_C_1_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_odd t h0) (hc1_1_of_odd t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

/-- After a last tile the output block holds the losses of the two accumulators as that tile leaves them. -/
theorem outsAt1_C_out (c : Dev nD) (t : Fin cfg1.N) (h0 : ¬t.val % 2 = 0) :
    (outsAt1 V c t.val t.isLt).1 = k1_pay2 (k1_pay8 (outsAt1 V c t.val t.isLt).2.1 (outsAt1 V c t.val t.isLt).2.2) (k1_pay9 (outsAt1 V c t.val t.isLt).2.1 (outsAt1 V c t.val t.isLt).2.2) := by
  rw [outsAt1_C_sc0 V c t h0, outsAt1_C_sc1 V c t h0]
  rw [outsAt1_C V c t h0]; dsimp only
  exact out1_C_3_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) (hc1_0_of_odd t h0) (hc1_1_of_odd t h0) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2

end Points

end Cert.KernelIdeal.Hand

end
-- ==== Proof.KI.Pay1.lean ====
/-
  The arithmetic of one layer's kernel body at the ideal values, read at an index.

  The body keeps two accumulators of one column per sampled position. At each tile it builds a selector
  (row `n`, column `p`: is the tile's `n`-th location the `p`-th sampled position?), splits the query block and the key
  block into a leading part and a remainder, multiplies each part with the selector and adds the products to the
  accumulators. At the ideal values a change of format is the identity, so the leading part is the block itself and
  the remainder is `block − block`, which is zero where the block's entries are real numbers; and a sum of a row
  function against a selector column has at most one nonzero term. So a tile adds to column `p` of an accumulator the
  block's column at the sampled position, when that position lies in the tile, and nothing otherwise
  (`pay15_apply`, `pay1_apply`). At the last tile the body computes the loss from the two accumulators: each column is
  scaled to unit length, the logits are inner products over the temperature with `−∞` on the diagonal of the negative
  ones, and the cross-entropy of the positive slot is taken with the largest logit subtracted. The specification's
  `loss` is written in the same order of operations, so the body's value at patch `p` is `loss` of the two
  accumulators' columns (`loss_apply`) with no condition on the accumulators.
-/
import proofs.«430285_j43310450213294_2_alg».proof.Proof.Gen.KernelIdeal.Skeleton
import proofs.«430285_j43310450213294_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

namespace R1

/-! ## The two contractions read at an index -/

theorem gdot_lhs_0 (i : S64x64.Idx) (q : dot_S64x8192_S8192x64_S64x64_1_0_0_1_n_n.contr.Idx) :
    (dot_S64x8192_S8192x64_S64x64_1_0_0_1_n_n.lhsIdx i q 0).val = (i 0).val := by
  unfold DotDims.lhsIdx
  rw [dif_neg (show ¬(0 : Fin S64x8192.rank) ∈ dot_S64x8192_S8192x64_S64x64_1_0_0_1_n_n.lhsBatch by decide), dif_pos (show (0 : Fin S64x8192.rank) ∈ dot_S64x8192_S8192x64_S64x64_1_0_0_1_n_n.lhsNonContracting by decide)]
  rfl
theorem gdot_lhs_1 (i : S64x64.Idx) (q : dot_S64x8192_S8192x64_S64x64_1_0_0_1_n_n.contr.Idx) :
    (dot_S64x8192_S8192x64_S64x64_1_0_0_1_n_n.lhsIdx i q 1).val = (q ⟨0, by decide⟩).val :=
  dot_S64x8192_S8192x64_S64x64_1_0_0_1_n_n.lhsIdx_val_of_single rfl i q
theorem gdot_rhs_0 (i : S64x64.Idx) (q : dot_S64x8192_S8192x64_S64x64_1_0_0_1_n_n.contr.Idx) :
    (dot_S64x8192_S8192x64_S64x64_1_0_0_1_n_n.rhsIdx i q 0).val = (q ⟨0, by decide⟩).val :=
  dot_S64x8192_S8192x64_S64x64_1_0_0_1_n_n.rhsIdx_val_of_single rfl i q
theorem gdot_rhs_1 (i : S64x64.Idx) (q : dot_S64x8192_S8192x64_S64x64_1_0_0_1_n_n.contr.Idx) :
    (dot_S64x8192_S8192x64_S64x64_1_0_0_1_n_n.rhsIdx i q 1).val = (i 1).val := by
  unfold DotDims.rhsIdx
  rw [dif_neg (show ¬(1 : Fin S8192x64.rank) ∈ dot_S64x8192_S8192x64_S64x64_1_0_0_1_n_n.rhsBatch by decide), dif_pos (show (1 : Fin S8192x64.rank) ∈ dot_S64x8192_S8192x64_S64x64_1_0_0_1_n_n.rhsNonContracting by decide)]
  rfl

/-- A block (channels by tile rows) times a selector (tile rows by patches), accumulated into zeros, at channel `c`
    and patch `p`: the sum over the tile's rows. -/
theorem gdot_apply {φ₁ φ₂ : FTy} (lhs : FVec Ideal S64x8192 φ₁) (rhs : FVec Ideal S8192x64 φ₂) (c : Fin 64) (p : Fin 64) :
    matmul dot_S64x8192_S8192x64_S64x64_1_0_0_1_n_n none lhs rhs (constant (F := Ideal) S64x64 .f32 0x00000000#32) (ix2 c p)
      = ∑ n : Fin 8192, lhs (ix2 c n) * rhs (ix2 n p) := by
  simp only [matmul]
  rw [Ideal.matmul_constant_zero_apply, ← Equiv.sum_comp (contrEquiv1 dot_S64x8192_S8192x64_S64x64_1_0_0_1_n_n 8192 rfl rfl).symm]
  refine Finset.sum_congr rfl fun k _ => ?_
  have hk := contrEquiv1_symm_val dot_S64x8192_S8192x64_S64x64_1_0_0_1_n_n 8192 rfl rfl k
  have el : dot_S64x8192_S8192x64_S64x64_1_0_0_1_n_n.lhsIdx (ix2 c p) ((contrEquiv1 dot_S64x8192_S8192x64_S64x64_1_0_0_1_n_n 8192 rfl rfl).symm k) = ix2 c k := funext fun a => Fin.ext (by
    match a with
    | ⟨0, _⟩ => exact gdot_lhs_0 _ _
    | ⟨1, _⟩ => exact (gdot_lhs_1 _ _).trans hk)
  have er : dot_S64x8192_S8192x64_S64x64_1_0_0_1_n_n.rhsIdx (ix2 c p) ((contrEquiv1 dot_S64x8192_S8192x64_S64x64_1_0_0_1_n_n 8192 rfl rfl).symm k) = ix2 k p := funext fun a => Fin.ext (by
    match a with
    | ⟨0, _⟩ => exact (gdot_rhs_0 _ _).trans hk
    | ⟨1, _⟩ => exact gdot_rhs_1 _ _)
  rw [el, er]

theorem ndot_lhs_0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide), dif_pos (show (0 : Fin S64x64.rank) ∈ dot_S64x64_S64x64_S64x64_1_0_0_1_n_n.lhsNonContracting by decide)]
  rfl
theorem ndot_lhs_1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
theorem ndot_rhs_0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
theorem ndot_rhs_1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide), dif_pos (show (1 : Fin S64x64.rank) ∈ dot_S64x64_S64x64_S64x64_1_0_0_1_n_n.rhsNonContracting by decide)]
  rfl

/-- Patches by channels times channels by patches, accumulated into zeros, at `(k, p)`: the sum over the channels. -/
theorem ndot_apply {φ₁ φ₂ : FTy} (prec : Option ContractPrecision) (lhs : FVec Ideal S64x64 φ₁) (rhs : FVec Ideal S64x64 φ₂) (k p : Fin 64) :
    matmul dot_S64x64_S64x64_S64x64_1_0_0_1_n_n prec lhs rhs (constant (F := Ideal) S64x64 .f32 0x00000000#32) (ix2 k p)
      = ∑ c : Fin 64, lhs (ix2 k c) * rhs (ix2 c p) := by
  simp only [matmul]
  rw [Ideal.matmul_constant_zero_apply, ← Equiv.sum_comp (contrEquiv1 dot_S64x64_S64x64_S64x64_1_0_0_1_n_n 64 rfl rfl).symm]
  refine Finset.sum_congr rfl fun c _ => ?_
  have hk := contrEquiv1_symm_val dot_S64x64_S64x64_S64x64_1_0_0_1_n_n 64 rfl rfl c
  have el : dot_S64x64_S64x64_S64x64_1_0_0_1_n_n.lhsIdx (ix2 k p) ((contrEquiv1 dot_S64x64_S64x64_S64x64_1_0_0_1_n_n 64 rfl rfl).symm c) = ix2 k c := funext fun a => Fin.ext (by
    match a with
    | ⟨0, _⟩ => exact ndot_lhs_0 _ _
    | ⟨1, _⟩ => exact (ndot_lhs_1 _ _).trans hk)
  have er : dot_S64x64_S64x64_S64x64_1_0_0_1_n_n.rhsIdx (ix2 k p) ((contrEquiv1 dot_S64x64_S64x64_S64x64_1_0_0_1_n_n 64 rfl rfl).symm c) = ix2 c p := funext fun a => Fin.ext (by
    match a with
    | ⟨0, _⟩ => exact (ndot_rhs_0 _ _).trans hk
    | ⟨1, _⟩ => exact ndot_rhs_1 _ _)
  rw [el, er]

/-! ## The selector -/

/-- Row `n` of tile `l` is location `l * 8192 + n`; as 32-bit words the sum does not wrap, so it equals an index
    word exactly when the naturals agree. -/
theorem word_eq_iff (l n : ℕ) (hl : l < 2) (hn : n < 8192) (x : BitVec 32) :
    IntOp.addi (BitVec.ofNat 32 n) (IntOp.muli (BitVec.ofNat 32 l) 8192#32) = x ↔ l * 8192 + n = x.toNat := by
  unfold IntOp.addi IntOp.muli
  constructor
  · intro h; subst h
    simp only [BitVec.toNat_add, BitVec.toNat_mul, BitVec.toNat_ofNat]
    omega
  · intro h
    apply BitVec.eq_of_toNat_eq
    simp only [BitVec.toNat_add, BitVec.toNat_mul, BitVec.toNat_ofNat]
    omega

/-- A one-bit comparison widened to a word and read as a signed integer is `1` or `0`. -/
theorem cmp_word_toInt (a x : BitVec 32) :
    (((IntOp.cmpi .eq a x).setWidth 32).toInt : ℝ) = if a = x then 1 else 0 := by
  unfold IntOp.cmpi
  by_cases h : a = x
  · subst h; simp
  · have : (a == x) = false := by simpa using h
    simp [this, h]

/-- The selector at row `n`, column `p`: `1` where location `l * 8192 + n` is the `p`-th sampled position, else `0`
    (`l = i 1`, the tile). -/
theorem onehot_apply (i : grid1.Coords) (v3 : Vec Ideal S1x64 .i32) (n : Fin 8192) (p : Fin 64) :
    k1_pay12 (F := Ideal) i v3 (ix2 n p) = if (i 1).val * 8192 + n.val = (v3 (ix2 0 p)).toNat then 1 else 0 := by
  have hl : (i 1).val < 2 := (i 1).isLt
  unfold k1_pay12
  simp only [shapeCast_self]
  show ((((IntOp.cmpi .eq (IntOp.addi (iota .tc S8192x64 32 [0] iota_S8192x64_d0_w32 (ix2 n p)) (IntOp.muli (BitVec.ofNat 32 (i 1).val) 8192#32))
      (broadcastTo S8192x64 v3 broadcasts_S1x64_S8192x64 (ix2 n p))).setWidth 32).toInt : ℝ) : EReal) = _
  rw [iota_single_apply, broadcastTo_1b_ab_apply, cmp_word_toInt]
  show (((if IntOp.addi (BitVec.ofNat 32 n.val) (IntOp.muli (BitVec.ofNat 32 (i 1).val) 8192#32) = v3 (ix2 0 p) then (1 : ℝ) else 0) : ℝ) : EReal) = _
  by_cases h : (i 1).val * 8192 + n.val = (v3 (ix2 0 p)).toNat
  · rw [if_pos h, if_pos ((word_eq_iff _ _ hl n.isLt _).mpr h)]; rfl
  · rw [if_neg h, if_neg (fun h' => h ((word_eq_iff _ _ hl n.isLt _).mp h'))]; rfl

/-! ## A block against the selector: one column gathered, or nothing -/

/-- A real number minus itself is zero on the extended reals. -/
theorem sub_self_of_real {x : EReal} (h : ∃ r : ℝ, x = (r : EReal)) : x - x = 0 := by
  obtain ⟨r, rfl⟩ := h
  rw [← EReal.coe_sub, sub_self, EReal.coe_zero]

/-- The sum over a tile's rows of a row function against the selector's column: the row whose location is the
    sampled position `m`, when `m` lies in tile `l`; else zero. -/
theorem sum_onehot (x : Fin 8192 → EReal) (l m : ℕ) :
    (∑ n : Fin 8192, x n * (if l * 8192 + n.val = m then (1 : EReal) else 0))
      = if h : l * 8192 ≤ m ∧ m < (l + 1) * 8192 then x ⟨m - l * 8192, by omega⟩ else 0 := by
  by_cases h : l * 8192 ≤ m ∧ m < (l + 1) * 8192
  · rw [dif_pos h]
    rw [Finset.sum_eq_single (⟨m - l * 8192, by omega⟩ : Fin 8192)]
    · rw [if_pos (by show l * 8192 + (m - l * 8192) = m; omega), mul_one]
    · intro n _ hn
      rw [if_neg (fun e => hn (Fin.ext (by show n.val = m - l * 8192; omega))), mul_zero]
    · intro hmem; exact absurd (Finset.mem_univ _) hmem
  · rw [dif_neg h]
    refine Finset.sum_eq_zero fun n _ => ?_
    rw [if_neg (fun e => h (by have := n.isLt; omega)), mul_zero]

/-- The block with its leading unit axis dropped reads the block at `(0, c, n)`. -/
theorem block_apply (v : Vec Ideal S1x64x8192 .f32) (c : Fin 64) (n : Fin 8192) :
    (shapeCast S64x8192 v shapeCasts_S1x64x8192_S64x8192 : FVec Ideal S64x8192 .f32) (ix2 c n) = v (ix3 0 c n) :=
  shapeCast_1ab_ab_apply v _ c n

/-- THE QUERY SIDE. What the body stores to the first accumulator at tile `l = i 1`: the loaded accumulator plus,
    where the `p`-th sampled position lies in this tile, the block's column at that position. The block's entries
    are real numbers, so its remainder `block − block` is zero. -/
theorem pay15_apply (i : grid1.Coords) (v3 : Vec Ideal S1x64 .i32) (v14 : Vec Ideal S1x64x8192 .f32) (v26 : Vec Ideal S64x64 .f32)
    (hreal : ∀ j, ∃ r : ℝ, v14 j = (r : EReal)) (c : Fin 64) (p : Fin 64) :
    k1_pay15 (F := Ideal) i v3 v14 v26 (ix2 c p)
      = v26 (ix2 c p) + (if h : (i 1).val * 8192 ≤ (v3 (ix2 0 p)).toNat ∧ (v3 (ix2 0 p)).toNat < ((i 1).val + 1) * 8192
          then v14 (ix3 0 c ⟨(v3 (ix2 0 p)).toNat - (i 1).val * 8192, by omega⟩) else 0) := by
  unfold k1_pay15
  simp only [shapeCast_self]
  rw [addf_apply, addf_apply, gdot_apply, gdot_apply]
  simp only [truncf_apply, subf_apply, block_apply, onehot_apply]
  have hlo : (∑ n : Fin 8192, (v14 (ix3 0 c n) - v14 (ix3 0 c n)) * (if (i 1).val * 8192 + n.val = (v3 (ix2 0 p)).toNat then (1 : EReal) else 0)) = 0 :=
    Finset.sum_eq_zero fun n _ => by rw [sub_self_of_real (hreal _), zero_mul]
  rw [hlo, add_zero, sum_onehot (fun n => v14 (ix3 0 c n))]

/-- THE KEY SIDE. What the body stores to the second accumulator: the same, for the key block. -/
theorem pay1_apply (i : grid1.Coords) (v3 : Vec Ideal S1x64 .i32) (v16 : Vec Ideal S1x64x8192 .f32) (v34 : Vec Ideal S64x64 .f32)
    (hreal : ∀ j, ∃ r : ℝ, v16 j = (r : EReal)) (c : Fin 64) (p : Fin 64) :
    k1_pay1 (F := Ideal) (k1_pay12 i v3) (k1_pay14 v16) v34 (k1_pay16 i v3 v16) (ix2 c p)
      = v34 (ix2 c p) + (if h : (i 1).val * 8192 ≤ (v3 (ix2 0 p)).toNat ∧ (v3 (ix2 0 p)).toNat < ((i 1).val + 1) * 8192
          then v16 (ix3 0 c ⟨(v3 (ix2 0 p)).toNat - (i 1).val * 8192, by omega⟩) else 0) := by
  unfold k1_pay1 k1_pay16 k1_pay14 k1_pay13
  simp only [shapeCast_self]
  rw [addf_apply, addf_apply, gdot_apply, gdot_apply]
  simp only [truncf_apply, subf_apply, block_apply, onehot_apply]
  have hlo : (∑ n : Fin 8192, (v16 (ix3 0 c n) - v16 (ix3 0 c n)) * (if (i 1).val * 8192 + n.val = (v3 (ix2 0 p)).toNat then (1 : EReal) else 0)) = 0 :=
    Finset.sum_eq_zero fun n _ => by rw [sub_self_of_real (hreal _), zero_mul]
  rw [hlo, add_zero, sum_onehot (fun n => v16 (ix3 0 c n))]

/-- The reset at the first tile writes zeros to both accumulators. -/
theorem reset_q_apply (j : S64x64.Idx) : (k1_pay10 (F := Ideal)) j = 0 := by
  unfold k1_pay10
  rw [shapeCast_self]
  exact Ideal.ofBits_zero_f32
theorem reset_k_apply (j : S64x64.Idx) : (k1_pay11 (F := Ideal)) j = 0 := by
  unfold k1_pay11
  rw [shapeCast_self]
  exact Ideal.ofBits_zero_f32

/-! ## The loss -/

/-- Square root, exponential and logarithm of a vector, read at an index. -/
theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The sum over the channels of an accumulator-shaped array, at column `p`. -/
theorem chansum_apply (src : FVec Ideal S64x64 .f32) (hφ : FKind.Formats .f32)
    (hacc : (0x00000000#32 : BitVec 32) = 0x00000000#32) (p : Fin 64) :
    multiReduction .add [0] S64 src 0x00000000#32 reduces_S64x64_S64 hφ hacc (ix1 p) = ∑ c : Fin 64, src (ix2 c p) := by
  refine (Ideal.multiReduction_add_single src 0x00000000#32 reduces_S64x64_S64 hφ hacc (ix1 p)).trans ?_
  exact Finset.sum_congr rfl fun c _ => congrArg src (funext fun a => match a with | ⟨0, _⟩ => rfl | ⟨1, _⟩ => rfl)

/-- The sum over the rows of a patches-by-patches array, at column `p`. -/
theorem rowsum_apply (src : FVec Ideal S64x64 .f32) (hφ : FKind.Formats .f32)
    (hacc : (0x00000000#32 : BitVec 32) = 0x00000000#32) (p : Fin 64) :
    multiReduction .add [0] S64 src 0x00000000#32 reduces_S64x64_S64 hφ hacc (ix1 p) = ∑ k : Fin 64, src (ix2 k p) := by
  refine (Ideal.multiReduction_add_single src 0x00000000#32 reduces_S64x64_S64 hφ hacc (ix1 p)).trans ?_
  exact Finset.sum_congr rfl fun c _ => congrArg src (funext fun a => match a with | ⟨0, _⟩ => rfl | ⟨1, _⟩ => rfl)

/-- The word of `−∞`. -/
theorem neg_inf_word : Ideal.ofBits .f32 0xFF800000#32 = ⊥ := by simp [Ideal.ofBits, Ideal.ieee]

/-- A fold of `max` from `−∞` is the supremum. -/
theorem fold_max_bot {ι : Type} (s : Finset ι) (f : ι → EReal) : s.fold max ⊥ f = s.sup f := by
  classical
  induction s using Finset.induction_on with
  | empty => rfl
  | insert a s ha ih => rw [Finset.fold_insert ha, Finset.sup_insert, ih]

/-- The maximum over the rows of a patches-by-patches array, from `−∞`, at column `p`: the column's supremum. -/
theorem rowmax_apply (src : FVec Ideal S64x64 .f32) (hφ : FKind.Formats .f32)
    (hacc : (0xFF800000#32 : BitVec 32) = 0xFF800000#32) (p : Fin 64) :
    multiReduction .maximumf [0] S64 src 0xFF800000#32 reduces_S64x64_S64 hφ hacc (ix1 p)
      = Finset.univ.sup fun k : Fin 64 => src (ix2 k p) := by
  refine (Ideal.multiReduction_maximumf_single src 0xFF800000#32 reduces_S64x64_S64 hφ hacc (ix1 p)).trans ?_
  refine (congrArg (fun b => Finset.fold max b _ _) neg_inf_word).trans ?_
  refine (fold_max_bot _ _).trans ?_
  exact congrArg (Finset.univ.sup) (funext fun k => congrArg src (funext fun a => match a with | ⟨0, _⟩ => rfl | ⟨1, _⟩ => rfl))

/-- The mask constant denotes `−∞`. -/
theorem neg_big : Named.named (F := Ideal) κ "neg_big" (φ := .f32) 0xF149F2CA#32 = (⊥ : EReal) :=
  IdealRules.named_const.ideal_named_scalar _ _ _ _ rfl

/-- A select on "row index = column index", both below 64, is the `if` on the coordinates. -/
theorem select_diag {α : Type} (k p : Fin 64) (a b : α) :
    Scalar.select (IntOp.cmpi .eq (BitVec.ofNat 32 k.val) (BitVec.ofNat 32 p.val)) a b = if k = p then a else b := by
  by_cases h : k = p
  · subst h; rw [if_pos rfl]; unfold IntOp.cmpi; simp [Scalar.select]
  · rw [if_neg h]
    have hne : BitVec.ofNat 32 k.val ≠ BitVec.ofNat 32 p.val := fun e => h (Fin.ext (by
      have := congrArg BitVec.toNat e
      simp only [BitVec.toNat_ofNat] at this
      have := k.isLt; have := p.isLt; omega))
    have hb : (BitVec.ofNat 32 k.val == BitVec.ofNat 32 p.val) = false := beq_eq_false_iff_ne.mpr hne
    show Scalar.select (BitVec.ofBool (BitVec.ofNat 32 k.val == BitVec.ofNat 32 p.val)) a b = b
    rw [hb]; exact select_zero a b

variable (qa ka : Vec Ideal S64x64 .f32)

/-- A column scaled to unit length (the query's accumulator). -/
theorem unitq_apply (v : Vec Ideal S64x64 .f32) (c : Fin 64) (p : Fin 64) :
    k1_pay3 (F := Ideal) v (ix2 c p) = Spec.unit (fun c' => v (ix2 c' p)) c := by
  unfold k1_pay3
  rw [divf_apply, broadcastTo_1b_ab_apply, maximumf_apply, broadcast_apply, sqrt_apply, shapeCast_a_1a_apply, chansum_apply]
  rfl

/-- A column scaled to unit length (the key's accumulator). -/
theorem unitk_apply (v : Vec Ideal S64x64 .f32) (c : Fin 64) (p : Fin 64) :
    k1_pay4 (F := Ideal) v (ix2 c p) = Spec.unit (fun c' => v (ix2 c' p)) c := by
  unfold k1_pay4
  rw [divf_apply, broadcastTo_1b_ab_apply, maximumf_apply, broadcast_apply, sqrt_apply, shapeCast_a_1a_apply, chansum_apply]
  rfl

/-- The positive logit. -/
theorem pos_apply (p : Fin 64) :
    k1_pay5 (F := Ideal) qa ka (ix2 0 p) = Spec.pos (fun p c => qa (ix2 c p)) (fun p c => ka (ix2 c p)) p := by
  unfold k1_pay5
  rw [divf_apply, broadcast_apply, shapeCast_a_1a_apply, chansum_apply]
  simp only [mulf_apply, unitq_apply, unitk_apply]
  rfl

/-- The negative logits, `−∞` on the diagonal. -/
theorem neg_apply (k p : Fin 64) :
    k1_pay6 (F := Ideal) qa ka (ix2 k p) = Spec.neg (fun p c => qa (ix2 c p)) (fun p c => ka (ix2 c p)) p k := by
  unfold k1_pay6
  rw [select_apply]
  show Scalar.select (IntOp.cmpi .eq (iota .tc S64x64 32 [0] iota_S64x64_d0_w32 (ix2 k p)) (iota .tc S64x64 32 [1] iota_S64x64_d1_w32 (ix2 k p))) _ _ = _
  rw [iota_single_apply, iota_single_apply, broadcast_apply, divf_apply, broadcast_apply, ndot_apply]
  show Scalar.select (IntOp.cmpi .eq (BitVec.ofNat 32 k.val) (BitVec.ofNat 32 p.val)) _ _ = _
  rw [select_diag, neg_big]
  have ht : ∀ c : Fin 64, transpose S64x64 [1, 0] (k1_pay4 (F := Ideal) ka) transposes_S64x64_p1_0_S64x64 (ix2 k c) = k1_pay4 (F := Ideal) ka (ix2 c k) :=
    fun c => transpose_ix2_apply _ _ k c
  simp only [ht, unitq_apply, unitk_apply]
  rfl

/-- The largest logit. -/
theorem top_apply (p : Fin 64) :
    k1_pay7 (F := Ideal) qa ka (ix2 0 p) = Spec.top (fun p c => qa (ix2 c p)) (fun p c => ka (ix2 c p)) p := by
  unfold k1_pay7
  rw [maximumf_apply, shapeCast_a_1a_apply, rowmax_apply, pos_apply]
  simp only [neg_apply]
  rfl

/-- THE LOSS. What the body stores to the output block at the last tile, from the two accumulators as loaded: the
    cross-entropy of the positive slot among patch `p`'s logits. -/
theorem loss_apply (p : Fin 64) :
    k1_pay2 (F := Ideal) (k1_pay8 qa ka) (k1_pay9 qa ka) (ix3 0 0 p)
      = Spec.loss (fun p c => qa (ix2 c p)) (fun p c => ka (ix2 c p)) p := by
  unfold k1_pay2
  rw [shapeCast_ab_1ab_apply, subf_apply]
  unfold k1_pay8 k1_pay9
  rw [log_apply, addf_apply, exp_apply, subf_apply, shapeCast_a_1a_apply, rowsum_apply]
  simp only [exp_apply, subf_apply, broadcastTo_1b_ab_apply, pos_apply, neg_apply, top_apply]
  rfl

end R1

end Cert.KernelIdeal.Pay

end
-- ==== Proof.KI.Value1Acc.lean ====
/-
  The second layer's kernel call at the ideal values: what its two accumulators hold after each of a batch
  entry's two tiles, and the loss block its last tile stores.

  A tile adds to column `p` of an accumulator the block's column at the `p`-th sampled position when that
  position lies in the tile, and nothing otherwise. The first tile starts from the zero fill, so after it a
  column holds the feature column when the position is below 8192 and zero otherwise; the second tile covers the
  positions from 8192 on, so after it every column holds the feature column at its sampled position. The loss
  block is then the specification's loss of those gathered columns.
-/
import proofs.«430285_j43310450213294_2_alg».proof.Proof.KI.Value1Blocks
import proofs.«430285_j43310450213294_2_alg».proof.Proof.KI.Region1Value
import proofs.«430285_j43310450213294_2_alg».proof.Proof.KI.Pay1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The accumulators, tile by tile -/

section Acc
variable (V : (c : Dev nD) → (b : Ref sig .tc) → Buf (Elt Ideal) ((c : Thread nD τ).loc b)) (c : Dev nD)

/-- The two feature arrays and the three blocks at a point, at their literal types. -/
abbrev qarr1 : Vec Ideal S4x64x16384 .f32 := V c main_v7
abbrev karr1 : Vec Ideal S4x64x16384 .f32 := V c main_v8
abbrev qblk1 (t : Fin cfg1.N) : Vec Ideal S1x64x8192 .f32 := iblk1 V c 0 t
abbrev kblk1 (t : Fin cfg1.N) : Vec Ideal S1x64x8192 .f32 := iblk1 V c 1 t
abbrev sblk1 (t : Fin cfg1.N) : Vec Ideal S1x64 .i32 := iblk1 V c 2 t

/-- A block of real entries: each entry of a block is an entry of its array. -/
theorem qblk1_real (hq : ∀ i, ∃ r : ℝ, V c main_v7 i = (r : EReal)) (t : Fin cfg1.N) (j : S1x64x8192.Idx) :
    ∃ r : ℝ, qblk1 V c t j = (r : EReal) := by
  unfold qblk1 iblk1; rw [View.read_apply]; exact hq _
theorem kblk1_real (hk : ∀ i, ∃ r : ℝ, V c main_v8 i = (r : EReal)) (t : Fin cfg1.N) (j : S1x64x8192.Idx) :
    ∃ r : ℝ, kblk1 V c t j = (r : EReal) := by
  unfold kblk1 iblk1; rw [View.read_apply]; exact hk _

/-- The `p`-th sampled position, as the word the block of positions holds, read as a natural number. -/
theorem sblk1_toNat (sel : Fin 64 → Fin 16384) (hsel : ∀ p : Fin 64, V c main_v9 (ix2 0 p) = BitVec.ofNat 32 (sel p).val)
    (t : Fin cfg1.N) (p : Fin 64) : (sblk1 V c t (ix2 0 p)).toNat = (sel p).val := by
  have e : sblk1 V c t (ix2 0 p) = BitVec.ofNat 32 (sel p).val := (sblk1_apply V c t (ix2 0 p)).trans (hsel p)
  rw [e, BitVec.toNat_ofNat]
  have := (sel p).isLt
  omega

/-- One tile's update of a column of the q accumulator, over plain values: tile `l` adds the block's column at
    the sampled position `m` when `m` lies in the tile, and nothing otherwise. -/
theorem qstep1 (i : grid1.Coords) (ids : Vec Ideal S1x64 .i32) (blk : Vec Ideal S1x64x8192 .f32) (acc : Vec Ideal S64x64 .f32)
    (hreal : ∀ j, ∃ r : ℝ, blk j = (r : EReal)) (l m : ℕ) (hl : (i 1).val = l) (p : Fin 64) (hm : (ids (ix2 0 p)).toNat = m) (ch : Fin 64) :
    k1_pay15 (F := Ideal) i ids blk acc (ix2 ch p)
      = acc (ix2 ch p) + (if h : l * 8192 ≤ m ∧ m < (l + 1) * 8192 then blk (ix3 0 ch ⟨m - l * 8192, by omega⟩) else 0) := by
  subst hl hm
  exact Pay.R1.pay15_apply i ids blk acc hreal ch p

/-- The same for the k accumulator. -/
theorem kstep1 (i : grid1.Coords) (ids : Vec Ideal S1x64 .i32) (blk : Vec Ideal S1x64x8192 .f32) (acc : Vec Ideal S64x64 .f32)
    (hreal : ∀ j, ∃ r : ℝ, blk j = (r : EReal)) (l m : ℕ) (hl : (i 1).val = l) (p : Fin 64) (hm : (ids (ix2 0 p)).toNat = m) (ch : Fin 64) :
    k1_pay1 (F := Ideal) (k1_pay12 i ids) (k1_pay14 blk) acc (k1_pay16 i ids blk) (ix2 ch p)
      = acc (ix2 ch p) + (if h : l * 8192 ≤ m ∧ m < (l + 1) * 8192 then blk (ix3 0 ch ⟨m - l * 8192, by omega⟩) else 0) := by
  subst hl hm
  exact Pay.R1.pay1_apply i ids blk acc hreal ch p

/-- AFTER A FIRST TILE the q accumulator holds, in column `p`, the q column at the sampled position when that
    position lies in the first 8192 locations, and zero otherwise. -/
theorem qacc1_even (hq : ∀ i, ∃ r : ℝ, V c main_v7 i = (r : EReal)) (sel : Fin 64 → Fin 16384) (hsel : ∀ p : Fin 64, V c main_v9 (ix2 0 p) = BitVec.ofNat 32 (sel p).val) (t : Fin cfg1.N) (h0 : t.val % 2 = 0) (b : Fin 4) (hb : b.val = t.val / 2) (ch : Fin 64) (p : Fin 64) :
    (outsAt1 V c t.val t.isLt).2.1 (ix2 ch p) = if (sel p).val < 8192 then qarr1 V c (ix3 b ch (sel p)) else 0 := by
  rw [outsAt1_A_sc0 V c t h0]
  refine (qstep1 (grid1.coords t) (sblk1 V c t) (qblk1 V c t) (k1_pay10 (F := Ideal)) (qblk1_real V c hq t) 0 (sel p).val
    ((tile1 t).trans h0) p (sblk1_toNat V c sel hsel t p) ch).trans ?_
  rw [Pay.R1.reset_q_apply, zero_add]
  by_cases h : (sel p).val < 8192
  · rw [if_pos h, dif_pos ⟨by omega, by omega⟩]
    exact qblk1_apply V c t _ _ hb rfl (by show (sel p).val = t.val % 2 * 8192 + ((sel p).val - 0 * 8192); omega)
  · rw [if_neg h, dif_neg (fun h' => h (by omega))]

/-- The same for the k accumulator. -/
theorem kacc1_even (hk : ∀ i, ∃ r : ℝ, V c main_v8 i = (r : EReal)) (sel : Fin 64 → Fin 16384) (hsel : ∀ p : Fin 64, V c main_v9 (ix2 0 p) = BitVec.ofNat 32 (sel p).val) (t : Fin cfg1.N) (h0 : t.val % 2 = 0) (b : Fin 4) (hb : b.val = t.val / 2) (ch : Fin 64) (p : Fin 64) :
    (outsAt1 V c t.val t.isLt).2.2 (ix2 ch p) = if (sel p).val < 8192 then karr1 V c (ix3 b ch (sel p)) else 0 := by
  rw [outsAt1_A_sc1 V c t h0]
  refine (kstep1 (grid1.coords t) (sblk1 V c t) (kblk1 V c t) (k1_pay11 (F := Ideal)) (kblk1_real V c hk t) 0 (sel p).val
    ((tile1 t).trans h0) p (sblk1_toNat V c sel hsel t p) ch).trans ?_
  rw [Pay.R1.reset_k_apply, zero_add]
  by_cases h : (sel p).val < 8192
  · rw [if_pos h, dif_pos ⟨by omega, by omega⟩]
    exact kblk1_apply V c t _ _ hb rfl (by show (sel p).val = t.val % 2 * 8192 + ((sel p).val - 0 * 8192); omega)
  · rw [if_neg h, dif_neg (fun h' => h (by omega))]

/-- AFTER A LAST TILE the q accumulator holds the q column at every sampled position: the first tile brought the
    positions below 8192, this tile adds the others, and each position lies in exactly one of the two tiles. -/
theorem qacc1_odd (hq : ∀ i, ∃ r : ℝ, V c main_v7 i = (r : EReal)) (sel : Fin 64 → Fin 16384) (hsel : ∀ p : Fin 64, V c main_v9 (ix2 0 p) = BitVec.ofNat 32 (sel p).val) (t : Fin cfg1.N) (h0 : ¬t.val % 2 = 0) (b : Fin 4) (hb : b.val = t.val / 2) (ch : Fin 64) (p : Fin 64) :
    (outsAt1 V c t.val t.isLt).2.1 (ix2 ch p) = qarr1 V c (ix3 b ch (sel p)) := by
  have h1 : t.val % 2 = 1 := by omega
  rw [outsAt1_C_sc0 V c t h0]
  refine (qstep1 (grid1.coords t) (sblk1 V c t) (qblk1 V c t) _ (qblk1_real V c hq t) 1 (sel p).val
    ((tile1 t).trans h1) p (sblk1_toNat V c sel hsel t p) ch).trans ?_
  have hprev := qacc1_even V c hq sel hsel ⟨t.val - 1, Nat.lt_of_le_of_lt (Nat.sub_le _ _) t.isLt⟩ (by show (t.val - 1) % 2 = 0; omega) b
    (by show b.val = (t.val - 1) / 2; omega) ch p
  rw [show (outsAt1 V c (t.val - 1) (Nat.lt_of_le_of_lt (Nat.sub_le _ _) t.isLt)).2.1 (ix2 ch p)
      = if (sel p).val < 8192 then qarr1 V c (ix3 b ch (sel p)) else 0 from hprev]
  have hlt := (sel p).isLt
  by_cases h : (sel p).val < 8192
  · rw [if_pos h, dif_neg (fun h' => by omega), add_zero]
  · rw [if_neg h, dif_pos ⟨by omega, by omega⟩, zero_add]
    exact qblk1_apply V c t _ _ hb rfl (by show (sel p).val = t.val % 2 * 8192 + ((sel p).val - 1 * 8192); omega)

/-- The same for the k accumulator. -/
theorem kacc1_odd (hk : ∀ i, ∃ r : ℝ, V c main_v8 i = (r : EReal)) (sel : Fin 64 → Fin 16384) (hsel : ∀ p : Fin 64, V c main_v9 (ix2 0 p) = BitVec.ofNat 32 (sel p).val) (t : Fin cfg1.N) (h0 : ¬t.val % 2 = 0) (b : Fin 4) (hb : b.val = t.val / 2) (ch : Fin 64) (p : Fin 64) :
    (outsAt1 V c t.val t.isLt).2.2 (ix2 ch p) = karr1 V c (ix3 b ch (sel p)) := by
  have h1 : t.val % 2 = 1 := by omega
  rw [outsAt1_C_sc1 V c t h0]
  refine (kstep1 (grid1.coords t) (sblk1 V c t) (kblk1 V c t) _ (kblk1_real V c hk t) 1 (sel p).val
    ((tile1 t).trans h1) p (sblk1_toNat V c sel hsel t p) ch).trans ?_
  have hprev := kacc1_even V c hk sel hsel ⟨t.val - 1, Nat.lt_of_le_of_lt (Nat.sub_le _ _) t.isLt⟩ (by show (t.val - 1) % 2 = 0; omega) b
    (by show b.val = (t.val - 1) / 2; omega) ch p
  rw [show (outsAt1 V c (t.val - 1) (Nat.lt_of_le_of_lt (Nat.sub_le _ _) t.isLt)).2.2 (ix2 ch p)
      = if (sel p).val < 8192 then karr1 V c (ix3 b ch (sel p)) else 0 from hprev]
  have hlt := (sel p).isLt
  by_cases h : (sel p).val < 8192
  · rw [if_pos h, dif_neg (fun h' => by omega), add_zero]
  · rw [if_neg h, dif_pos ⟨by omega, by omega⟩, zero_add]
    exact kblk1_apply V c t _ _ hb rfl (by show (sel p).val = t.val % 2 * 8192 + ((sel p).val - 1 * 8192); omega)

/-- THE LAST TILE'S OUTPUT BLOCK: at patch `p`, the loss of batch entry `b` whose columns are gathered at the
    sampled positions. -/
theorem out1_last (hq : ∀ i, ∃ r : ℝ, V c main_v7 i = (r : EReal)) (hk : ∀ i, ∃ r : ℝ, V c main_v8 i = (r : EReal)) (sel : Fin 64 → Fin 16384) (hsel : ∀ p : Fin 64, V c main_v9 (ix2 0 p) = BitVec.ofNat 32 (sel p).val) (t : Fin cfg1.N) (h0 : ¬t.val % 2 = 0) (b : Fin 4) (hb : b.val = t.val / 2) (p : Fin 64) :
    (outsAt1 V c t.val t.isLt).1 (ix3 0 0 p) = Cert.Spec.layerOf (C := 64) (V c main_v7) (V c main_v8) sel b p := by
  rw [outsAt1_C_out V c t h0]
  refine (Pay.R1.loss_apply (outsAt1 V c t.val t.isLt).2.1 (outsAt1 V c t.val t.isLt).2.2 p).trans ?_
  unfold Cert.Spec.layerOf Cert.Spec.layer Cert.Spec.cur
  congr 1
  · funext p' ch; exact qacc1_odd V c hq sel hsel t h0 b hb ch p'
  · funext p' ch; exact kacc1_odd V c hk sel hsel t h0 b hb ch p'

end Acc

end Cert.KernelIdeal.Hand

end
-- ==== Proof.KI.Blocks1.lean ====
/- Layer 1 of the patch-gather loss: from the grid's write-backs to the output array. The [4,1,64] output is
   written back once per batch entry, at the entry's last tile (position 2b + 1), as the [1,1,64] block at row b; the
   four blocks are disjoint rows, so entry (b, 0, p) of the array after the region is entry (0, 0, p) of what position
   2b + 1 left in the output window's staging buffer. -/
import proofs.«430285_j43310450213294_2_alg».proof.Proof.KI.Region1
import Idealize.ShloMosaic.Lib.Pipeline.Value
import Idealize.ShloMosaic.Lib.ValueIdx
import Idealize.ShloMosaic.Lib.ValueIdxCoords

-- membership in a rectangle of the blocks' extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Blocks1
-- the buffer contents when the region is entered
variable (V : (c : Dev nD) → (b : Ref sig .tc) → Buf (Elt F) ((c : Thread nD τ).loc b))

/-- The output window's block index at position `t`: row `t / 2`, decided over the grid. -/
theorem idx1_3 : ∀ t : Fin cfg1.N, win1_3.index t (0 : Fin 3) = t.val / 2 ∧ win1_3.index t (1 : Fin 3) = 0 ∧ win1_3.index t (2 : Fin 3) = 0 :=
  (by decide +kernel : ∀ t : Fin grid1.N, _)

/-- The staging buffer's contents after a position, read at an entry, depend on the position's number and the entry only. -/
theorem outsAt1_fst_congr (c : Dev nD) {n n' : ℕ} (e : n = n') (h : n < cfg1.N) (h' : n' < cfg1.N)
    (j j' : S1x1x64.Idx) (ej : j = j') : (outsAt1 V c n h).1 j = (outsAt1 V c n' h').1 j' := by
  subst e; subst ej; rfl

/-- The output array as the region leaves it: row `b` is what the last tile of batch entry `b` stored. -/
def G1 (c : Dev nD) : S4x1x64.Idx → Elt F .f32 := fun i =>
  (outsAt1 V c (2 * (i 0).val + 1) (by have h : (i 0).val < 4 := (i 0).isLt; have hN : cfg1.N = 8 := N_1; omega)).1
    (ValueIdx.ix3 (0 : Fin 1) (0 : Fin 1) (i 2))

/-- What a last tile writes back is its row of `G1`. -/
theorem flushed1_3_eq (c : Dev nD) (t : Fin cfg1.N) (hf : (cfg1.win 3).flush t = true) :
    (dat1 V c).flushed 3 t = ((cfg1.win 3).blk t).view.read (Elt F) (G1 V c) := by
  have hodd : t.val % 2 = 1 := (flush1_3 t).mp hf
  obtain ⟨e0, e1, e2⟩ := idx1_3 t
  show (cfg1.win 3).cut (grid1.coords t) ((dat1 V c).after 3 t) = _
  rw [after1_3]
  funext j
  show (outsAt1 V c t.val t.isLt).1 j = G1 V c (((cfg1.win 3).blk t).view.emb j)
  unfold G1
  have hj0 : (j 0).val < 1 := (j 0).isLt
  have hj1 : (j 1).val < 1 := (j 1).isLt
  refine outsAt1_fst_congr V c ?_ _ _ j _ ?_
  · show t.val = 2 * (win1_3.index t (0 : Fin 3) * 1 + 1 * (j 0).val) + 1
    rw [e0]; omega
  · funext a; apply Fin.ext
    match a with
    | ⟨0, _⟩ => show (j 0).val = 0; omega
    | ⟨1, _⟩ => show (j 1).val = 0; omega
    | ⟨2, _⟩ => show (j 2).val = win1_3.index t (2 : Fin 3) * 64 + 1 * (j 2).val; rw [e2]; omega

/-- An entry of the array is in position `t`'s block iff each coordinate is in the block's range on its axis. -/
theorem mem_blk1_3 (t : Fin cfg1.N) (i : S4x1x64.Idx) :
    i ∈ ((cfg1.win 3).blk t).view.set ↔ ∀ a : Fin 3, win1_3.index t a * S1x1x64.size a ≤ (i a).val ∧ (i a).val < win1_3.index t a * S1x1x64.size a + S1x1x64.size a := by
  show i ∈ ((View.whole main_v10).slice (win1_3.rect t)).set ↔ _
  rw [View.set_slice_whole, Rect.mem_set_unit]
  exact Iff.rfl

/-- THE OUTPUT ARRAY after the region, entry (b, 0, p): what the last tile of batch entry `b` left at (0, 0, p). -/
theorem blocks1 (c : Dev nD) (b : Fin 4) (p : Fin 64) :
    (dat1 V c).arrAt 3 cfg1.N (ValueIdx.ix3 b 0 p)
      = (outsAt1 V c (2 * b.val + 1) (by have := b.isLt; have : cfg1.N = 8 := N_1; omega)).1 (ValueIdx.ix3 0 0 p) := by
  have hN : cfg1.N = 8 := N_1
  have hb : b.val < 4 := b.isLt
  have hp : p.val < 64 := p.isLt
  have ht : 2 * b.val + 1 < cfg1.N := by omega
  have hf : (cfg1.win 3).flush ⟨2 * b.val + 1, ht⟩ = true := (flush1_3 ⟨2 * b.val + 1, ht⟩).mpr (by show (2 * b.val + 1) % 2 = 1; omega)
  have hmem : (ValueIdx.ix3 b (0 : Fin 1) p : S4x1x64.Idx) ∈ ((cfg1.win 3).blk ⟨2 * b.val + 1, ht⟩).view.set := by
    rw [mem_blk1_3]
    obtain ⟨e0, e1, e2⟩ := idx1_3 ⟨2 * b.val + 1, ht⟩
    intro a
    match a with
    | ⟨0, _⟩ =>
      show win1_3.index ⟨2 * b.val + 1, ht⟩ (0 : Fin 3) * 1 ≤ b.val ∧ b.val < win1_3.index ⟨2 * b.val + 1, ht⟩ (0 : Fin 3) * 1 + 1
      rw [e0]; show (2 * b.val + 1) / 2 * 1 ≤ b.val ∧ b.val < (2 * b.val + 1) / 2 * 1 + 1; omega
    | ⟨1, _⟩ =>
      show win1_3.index ⟨2 * b.val + 1, ht⟩ (1 : Fin 3) * 1 ≤ 0 ∧ 0 < win1_3.index ⟨2 * b.val + 1, ht⟩ (1 : Fin 3) * 1 + 1
      rw [e1]; omega
    | ⟨2, _⟩ =>
      show win1_3.index ⟨2 * b.val + 1, ht⟩ (2 : Fin 3) * 64 ≤ p.val ∧ p.val < win1_3.index ⟨2 * b.val + 1, ht⟩ (2 : Fin 3) * 64 + 64
      rw [e2]; omega
  exact (dat1 V c).arrAt_apply_of_mem 3 (G1 V c) (flushed1_3_eq V c) cfg1.N ⟨2 * b.val + 1, ht⟩ _ ht hf hmem

end Blocks1

end Cert.KernelIdeal.Hand

end
-- ==== Proof.KI.Value1.lean ====
/-
  The second layer's kernel call at the ideal values: its output array. Row `b` of the array is what the last
  tile of batch entry `b` stored, and that block is the specification's loss of the columns gathered at the
  sampled positions; so entry `(b, 0, p)` is the layer's loss of batch entry `b` at patch `p`.
-/
import proofs.«430285_j43310450213294_2_alg».proof.Proof.KI.Value1Acc
import proofs.«430285_j43310450213294_2_alg».proof.Proof.KI.Blocks1
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-- THE VALUE of the second layer's call: where the two feature arrays hold real numbers and the array of sampled
    positions holds the words of `sel`, the output array after the call is the layer's loss, entry by entry. -/
theorem value1 (V : (c : Dev nD) → (b : Ref sig .tc) → Buf (Elt Ideal) ((c : Thread nD τ).loc b)) (c : Dev nD)
    (hq : ∀ i, ∃ r : ℝ, V c main_v7 i = (r : EReal)) (hk : ∀ i, ∃ r : ℝ, V c main_v8 i = (r : EReal))
    (sel : Fin 64 → Fin 16384) (hsel : ∀ p : Fin 64, V c main_v9 (ValueIdx.ix2 0 p) = BitVec.ofNat 32 (sel p).val) (b : Fin 4) (p : Fin 64) :
    (dat1 (F := Ideal) V c).arrAt 3 cfg1.N (ValueIdx.ix3 b 0 p) = Cert.Spec.layerOf (C := 64) (V c main_v7) (V c main_v8) sel b p := by
  have hN : cfg1.N = 8 := N_1
  have hb : b.val < 4 := b.isLt
  have ht : 2 * b.val + 1 < cfg1.N := by omega
  exact (blocks1 V c b p).trans (out1_last V c hq hk sel hsel ⟨2 * b.val + 1, ht⟩ (by show ¬(2 * b.val + 1) % 2 = 0; omega) b
    (by show b.val = (2 * b.val + 1) / 2; omega) p)

end Cert.KernelIdeal.Hand

end
-- ==== Proof.KI.Mean1.lean ====
/-
  Layer 1 of the kernel's result: after pallas_call 1 its output array holds, at (b, 0, p), the layer's loss of batch
  entry b at patch p, of the reshaped query and key arrays the host stretch before the call wrote, at the positions
  the index array names; so the mean the next host stretch takes over that array is the specification's mean.
-/
import proofs.«430285_j43310450213294_2_alg».proof.Proof.KI.Halves
import proofs.«430285_j43310450213294_2_alg».proof.Proof.KI.Host
import proofs.«430285_j43310450213294_2_alg».proof.Proof.KI.Value1
import proofs.«430285_j43310450213294_2_alg».proof.Proof.Glue

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable (m : (ℓ : Loc nD τ sig) → Buf (Elt Ideal) ℓ)

/-- After the call its output array holds what its pipeline's write-backs leave. -/
theorem outs_4 (c : Dev nD) :
    outsAll m 4 main_v10 c = (dat1 (F := Ideal) (fun c b => V3 m (outsAll m) c b) c).arrAt 3 cfg1.N := by
  show W4 m half0 half1 c (Proc.devRef .tc main_v10) = _
  unfold W4
  exact Pipeline.withArrays_arr spec1 launch1.win.arr_inj c _ _ 3

/-- The mean over the call's output array is the specification's mean of the layer. -/
theorem mean_1 (c : Dev nD)
    (hq : ∀ i, ∃ r : ℝ, (m ((c : Thread nD τ).loc main_arg1)) i = (r : EReal)) (hk : ∀ i, ∃ r : ℝ, (m ((c : Thread nD τ).loc main_arg6)) i = (r : EReal))
    (sel : Fin 64 → Fin 16384) (hsel : ∀ p : Fin 64, (m ((c : Thread nD τ).loc main_arg11)) (ix1 p) = BitVec.ofNat 32 (sel p).val) :
    μ (outsAll m 4 main_v10 c) = Cert.Spec.mean (Cert.Spec.layerOf (C := 64) (shapeCast _ (m ((c : Thread nD τ).loc main_arg1)) Gen.shapeCasts_S4x64x16x32x32_S4x64x16384) (shapeCast _ (m ((c : Thread nD τ).loc main_arg6)) Gen.shapeCasts_S4x64x16x32x32_S4x64x16384) sel) := by
  refine congrArg Cert.Spec.mean (funext fun b => funext fun p => ?_)
  rw [outs_4 m c]
  rw [value1 (fun c b => V3 m (outsAll m) c b) c
    (by intro i; show ∃ r : ℝ, V3 m (outsAll m) c main_v7 i = _; rw [V3_main_v7 m (outsAll m) c]; exact Cert.Glue.shapeCast_real _ hq _ i)
    (by intro i; show ∃ r : ℝ, V3 m (outsAll m) c main_v8 i = _; rw [V3_main_v8 m (outsAll m) c]; exact Cert.Glue.shapeCast_real _ hk _ i)
    sel
    (by intro p; show V3 m (outsAll m) c main_v9 (ix2 0 p) = _; rw [V3_main_v9 m (outsAll m) c, Cert.Glue.shapeCast_row_apply]; exact hsel p)
    b p]
  show Cert.Spec.layerOf (C := 64) (V3 m (outsAll m) c main_v7) (V3 m (outsAll m) c main_v8) sel b p = _
  rw [V3_main_v7 m (outsAll m) c, V3_main_v8 m (outsAll m) c]

end Cert.KernelIdeal.Hand

end
-- ==== Proof.KI.Region2Pay.lean ====
/-
  The third layer's kernel call, value side: what the body's stores leave in the output block and in the two
  accumulators, named as the payloads of the point's three input blocks.
-/
import proofs.«430285_j43310450213294_2_alg».proof.Proof.KI.Region2
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The stored values, as the payloads of the input blocks

Each buffer the body writes ends with ONE store through the whole-buffer rectangle last, so it holds that
store's value; a load of an accumulator after such a store reads the stored value back; a load of an input
reads its block. -/

/-- The zero offsets of a rank-2 and of a rank-3 whole-buffer rectangle, as constant functions. -/
theorem hzA2 : (![0, 0] : Fin 2 → Nat) = fun _ => 0 := funext fun a => by fin_cases a <;> rfl
theorem hzB2 : (![0, 0, 0] : Fin 3 → Nat) = fun _ => 0 := funext fun a => by fin_cases a <;> rfl

/-- A load through the whole-buffer rectangle, after stores the last of which went through that rectangle,
    reads that last store's value, whatever the earlier stores were. -/
theorem readCovLast2 {Val : EltTy → Type} [∀ e, Nonempty (Val e)] {S : Shape} {e : EltTy}
    {sig' : RefSig} {κ : Kind} {sp : Space} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon', View.canon_cons_unit_zero h inb w L]
  exact View.ld_unit_zero h inb w

/-- The q accumulator ends at the gathered q columns added to the zero fill. -/
theorem sout2_A_0_eq (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) :
    sout2_A_0 c i arg2 harg2 arg3 harg3 arg4 harg4 arg5 harg5 arg6 harg6 arg7 harg7 hc0 hc1 x0 x1 x2 = k2_pay15 i x2 x0 (k2_pay10 (F := F)) := by
  unfold sout2_A_0
  rw [View.read_writes_eq_canon _ _ _ (scover2_A_0 c i arg2 harg2 arg3 harg3 arg4 harg4 arg5 harg5 arg6 harg6 arg7 harg7 hc0 hc1 x0 x1 x2)]
  unfold kernelRun2_A
  dsimp only
  sl_unfold_words
  rw [View.canon_cons_unit_zero (S := S128x64) hzA2, View.readCov_unit_zero (S := S128x64) _ hzA2]
  simp only [View.readAt_eq_ld, harg2.read_unread, harg4.read_unread, View.ld_unit_zero (S := S1x128x2048) hzB2, View.ld_unit_zero (S := S1x64) hzA2]

/-- The k accumulator ends at the gathered k columns added to the zero fill. -/
theorem sout2_A_1_eq (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) :
    sout2_A_1 c i arg2 harg2 arg3 harg3 arg4 harg4 arg5 harg5 arg6 harg6 arg7 harg7 hc0 hc1 x0 x1 x2 = k2_pay1 (k2_pay12 i x2) (k2_pay14 x1) (k2_pay11 (F := F)) (k2_pay16 i x2 x1) := by
  unfold sout2_A_1
  rw [View.read_writes_eq_canon _ _ _ (scover2_A_1 c i arg2 harg2 arg3 harg3 arg4 harg4 arg5 harg5 arg6 harg6 arg7 harg7 hc0 hc1 x0 x1 x2)]
  unfold kernelRun2_A
  dsimp only
  sl_unfold_words
  rw [View.canon_cons_unit_zero (S := S128x64) hzA2, View.readCov_unit_zero (S := S128x64) _ hzA2]
  simp only [View.readAt_eq_ld, harg3.read_unread, harg4.read_unread, View.ld_unit_zero (S := S1x128x2048) hzB2, View.ld_unit_zero (S := S1x64) hzA2]

/-- The output block ends at the loss of the two accumulators' final contents. -/
theorem out2_A_3_eq (c : Dev nD) (i : grid2.Coords) (arg2 : Memref sig .tc .vmem S1x128x2048 .f32) (harg2 : arg2.IsWhole) (arg3 : Memref sig .tc .vmem S1x128x2048 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S128x64 .f32) (harg6 : arg6.IsWhole) (arg7 : Memref sig .tc .vmem S128x64 .f32) (harg7 : arg7.IsWhole) (hc0 : cond2_0 i) (hc1 : cond2_1 i)
    (x0 : Vec F S1x128x2048 .f32) (x1 : Vec F S1x128x2048 .f32) (x2 : Vec F S1x64 .i32) :
    out2_A_3 c i arg2 harg2 arg3 harg3 arg4 harg4 arg5 harg5 arg6 harg6 arg7 harg7 hc0 hc1 x0 x1 x2
      = k2_pay2 (k2_pay8 (k2_pay15 i x2 x0 (k2_pay10 (F := F))) (k2_pay1 (k2_pay12 i x2) (k2_pay14 x1) (k2_pay11 (F := F)) (k2_pay16 i x2 x1)))
          (k2_pay9 (k2_pay15 i x2 x0 (k2_pay10 (F := F))) (k2_pay1 (k2_pay12 i x2) (k2_pay14 x1) (k2_pay11 (F := F)) (k2_pay16 i x2 x1))) := by
  unfold out2_A_3
  rw [View.read_writes_eq_canon _ _ _ (cover2_A_3 c i arg2 harg2 arg3 harg3 arg4 harg4 arg5 harg5 arg6 harg6 arg7 harg7 hc0 hc1 x0 x1 x2)]
  unfold kernelRun2_A
  dsimp only
  sl_unfold_words
  rw [View.canon_unit_zero (S := S1x1x64) hzB2]
  simp only [readCovLast2 (S := S128x64) _ hzA2, View.readCov_unit_zero (S := S128x64) _ hzA2, View.readAt_eq_ld, harg2.read_unread, harg3.read_unread, harg4.read_unread, View.ld_unit_zero (S := S1x128x2048) hzB2, View.ld_unit_zero (S := S1x64) hzA2]

end Cert.KernelIdeal.Hand

end
-- ==== Proof.KI.Pay2.lean ====
/-
  The arithmetic of one layer's kernel body at the ideal values, read at an index.

  The body keeps two accumulators of one column per sampled position. At each tile it builds a selector
  (row `n`, column `p`: is the tile's `n`-th location the `p`-th sampled position?), splits the query block and the key
  block into a leading part and a remainder, multiplies each part with the selector and adds the products to the
  accumulators. At the ideal values a change of format is the identity, so the leading part is the block itself and
  the remainder is `block − block`, which is zero where the block's entries are real numbers; and a sum of a row
  function against a selector column has at most one nonzero term. So a tile adds to column `p` of an accumulator the
  block's column at the sampled position, when that position lies in the tile, and nothing otherwise
  (`pay15_apply`, `pay1_apply`). At the last tile the body computes the loss from the two accumulators: each column is
  scaled to unit length, the logits are inner products over the temperature with `−∞` on the diagonal of the negative
  ones, and the cross-entropy of the positive slot is taken with the largest logit subtracted. The specification's
  `loss` is written in the same order of operations, so the body's value at patch `p` is `loss` of the two
  accumulators' columns (`loss_apply`) with no condition on the accumulators.
-/
import proofs.«430285_j43310450213294_2_alg».proof.Proof.Gen.KernelIdeal.Skeleton
import proofs.«430285_j43310450213294_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

namespace R2

/-! ## The two contractions read at an index -/

theorem gdot_lhs_0 (i : S128x64.Idx) (q : dot_S128x2048_S2048x64_S128x64_1_0_0_1_n_n.contr.Idx) :
    (dot_S128x2048_S2048x64_S128x64_1_0_0_1_n_n.lhsIdx i q 0).val = (i 0).val := by
  unfold DotDims.lhsIdx
  rw [dif_neg (show ¬(0 : Fin S128x2048.rank) ∈ dot_S128x2048_S2048x64_S128x64_1_0_0_1_n_n.lhsBatch by decide), dif_pos (show (0 : Fin S128x2048.rank) ∈ dot_S128x2048_S2048x64_S128x64_1_0_0_1_n_n.lhsNonContracting by decide)]
  rfl
theorem gdot_lhs_1 (i : S128x64.Idx) (q : dot_S128x2048_S2048x64_S128x64_1_0_0_1_n_n.contr.Idx) :
    (dot_S128x2048_S2048x64_S128x64_1_0_0_1_n_n.lhsIdx i q 1).val = (q ⟨0, by decide⟩).val :=
  dot_S128x2048_S2048x64_S128x64_1_0_0_1_n_n.lhsIdx_val_of_single rfl i q
theorem gdot_rhs_0 (i : S128x64.Idx) (q : dot_S128x2048_S2048x64_S128x64_1_0_0_1_n_n.contr.Idx) :
    (dot_S128x2048_S2048x64_S128x64_1_0_0_1_n_n.rhsIdx i q 0).val = (q ⟨0, by decide⟩).val :=
  dot_S128x2048_S2048x64_S128x64_1_0_0_1_n_n.rhsIdx_val_of_single rfl i q
theorem gdot_rhs_1 (i : S128x64.Idx) (q : dot_S128x2048_S2048x64_S128x64_1_0_0_1_n_n.contr.Idx) :
    (dot_S128x2048_S2048x64_S128x64_1_0_0_1_n_n.rhsIdx i q 1).val = (i 1).val := by
  unfold DotDims.rhsIdx
  rw [dif_neg (show ¬(1 : Fin S2048x64.rank) ∈ dot_S128x2048_S2048x64_S128x64_1_0_0_1_n_n.rhsBatch by decide), dif_pos (show (1 : Fin S2048x64.rank) ∈ dot_S128x2048_S2048x64_S128x64_1_0_0_1_n_n.rhsNonContracting by decide)]
  rfl

/-- A block (channels by tile rows) times a selector (tile rows by patches), accumulated into zeros, at channel `c`
    and patch `p`: the sum over the tile's rows. -/
theorem gdot_apply {φ₁ φ₂ : FTy} (lhs : FVec Ideal S128x2048 φ₁) (rhs : FVec Ideal S2048x64 φ₂) (c : Fin 128) (p : Fin 64) :
    matmul dot_S128x2048_S2048x64_S128x64_1_0_0_1_n_n none lhs rhs (constant (F := Ideal) S128x64 .f32 0x00000000#32) (ix2 c p)
      = ∑ n : Fin 2048, lhs (ix2 c n) * rhs (ix2 n p) := by
  simp only [matmul]
  rw [Ideal.matmul_constant_zero_apply, ← Equiv.sum_comp (contrEquiv1 dot_S128x2048_S2048x64_S128x64_1_0_0_1_n_n 2048 rfl rfl).symm]
  refine Finset.sum_congr rfl fun k _ => ?_
  have hk := contrEquiv1_symm_val dot_S128x2048_S2048x64_S128x64_1_0_0_1_n_n 2048 rfl rfl k
  have el : dot_S128x2048_S2048x64_S128x64_1_0_0_1_n_n.lhsIdx (ix2 c p) ((contrEquiv1 dot_S128x2048_S2048x64_S128x64_1_0_0_1_n_n 2048 rfl rfl).symm k) = ix2 c k := funext fun a => Fin.ext (by
    match a with
    | ⟨0, _⟩ => exact gdot_lhs_0 _ _
    | ⟨1, _⟩ => exact (gdot_lhs_1 _ _).trans hk)
  have er : dot_S128x2048_S2048x64_S128x64_1_0_0_1_n_n.rhsIdx (ix2 c p) ((contrEquiv1 dot_S128x2048_S2048x64_S128x64_1_0_0_1_n_n 2048 rfl rfl).symm k) = ix2 k p := funext fun a => Fin.ext (by
    match a with
    | ⟨0, _⟩ => exact (gdot_rhs_0 _ _).trans hk
    | ⟨1, _⟩ => exact gdot_rhs_1 _ _)
  rw [el, er]

theorem ndot_lhs_0 (i : S64x64.Idx) (q : dot_S64x128_S128x64_S64x64_1_0_0_1_n_n.contr.Idx) :
    (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by decide), dif_pos (show (0 : Fin S64x128.rank) ∈ dot_S64x128_S128x64_S64x64_1_0_0_1_n_n.lhsNonContracting by decide)]
  rfl
theorem ndot_lhs_1 (i : S64x64.Idx) (q : dot_S64x128_S128x64_S64x64_1_0_0_1_n_n.contr.Idx) :
    (dot_S64x128_S128x64_S64x64_1_0_0_1_n_n.lhsIdx i q 1).val = (q ⟨0, by decide⟩).val :=
  dot_S64x128_S128x64_S64x64_1_0_0_1_n_n.lhsIdx_val_of_single rfl i q
theorem ndot_rhs_0 (i : S64x64.Idx) (q : dot_S64x128_S128x64_S64x64_1_0_0_1_n_n.contr.Idx) :
    (dot_S64x128_S128x64_S64x64_1_0_0_1_n_n.rhsIdx i q 0).val = (q ⟨0, by decide⟩).val :=
  dot_S64x128_S128x64_S64x64_1_0_0_1_n_n.rhsIdx_val_of_single rfl i q
theorem ndot_rhs_1 (i : S64x64.Idx) (q : dot_S64x128_S128x64_S64x64_1_0_0_1_n_n.contr.Idx) :
    (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by decide), dif_pos (show (1 : Fin S128x64.rank) ∈ dot_S64x128_S128x64_S64x64_1_0_0_1_n_n.rhsNonContracting by decide)]
  rfl

/-- Patches by channels times channels by patches, accumulated into zeros, at `(k, p)`: the sum over the channels. -/
theorem ndot_apply {φ₁ φ₂ : FTy} (prec : Option ContractPrecision) (lhs : FVec Ideal S64x128 φ₁) (rhs : FVec Ideal S128x64 φ₂) (k p : Fin 64) :
    matmul dot_S64x128_S128x64_S64x64_1_0_0_1_n_n prec lhs rhs (constant (F := Ideal) S64x64 .f32 0x00000000#32) (ix2 k p)
      = ∑ c : Fin 128, lhs (ix2 k c) * rhs (ix2 c p) := by
  simp only [matmul]
  rw [Ideal.matmul_constant_zero_apply, ← Equiv.sum_comp (contrEquiv1 dot_S64x128_S128x64_S64x64_1_0_0_1_n_n 128 rfl rfl).symm]
  refine Finset.sum_congr rfl fun c _ => ?_
  have hk := contrEquiv1_symm_val dot_S64x128_S128x64_S64x64_1_0_0_1_n_n 128 rfl rfl c
  have el : dot_S64x128_S128x64_S64x64_1_0_0_1_n_n.lhsIdx (ix2 k p) ((contrEquiv1 dot_S64x128_S128x64_S64x64_1_0_0_1_n_n 128 rfl rfl).symm c) = ix2 k c := funext fun a => Fin.ext (by
    match a with
    | ⟨0, _⟩ => exact ndot_lhs_0 _ _
    | ⟨1, _⟩ => exact (ndot_lhs_1 _ _).trans hk)
  have er : dot_S64x128_S128x64_S64x64_1_0_0_1_n_n.rhsIdx (ix2 k p) ((contrEquiv1 dot_S64x128_S128x64_S64x64_1_0_0_1_n_n 128 rfl rfl).symm c) = ix2 c p := funext fun a => Fin.ext (by
    match a with
    | ⟨0, _⟩ => exact (ndot_rhs_0 _ _).trans hk
    | ⟨1, _⟩ => exact ndot_rhs_1 _ _)
  rw [el, er]

/-! ## The selector -/

/-- Row `n` of tile `l` is location `l * 2048 + n`; as 32-bit words the sum does not wrap, so it equals an index
    word exactly when the naturals agree. -/
theorem word_eq_iff (l n : ℕ) (hl : l < 1) (hn : n < 2048) (x : BitVec 32) :
    IntOp.addi (BitVec.ofNat 32 n) (IntOp.muli (BitVec.ofNat 32 l) 2048#32) = x ↔ l * 2048 + n = x.toNat := by
  unfold IntOp.addi IntOp.muli
  constructor
  · intro h; subst h
    simp only [BitVec.toNat_add, BitVec.toNat_mul, BitVec.toNat_ofNat]
    omega
  · intro h
    apply BitVec.eq_of_toNat_eq
    simp only [BitVec.toNat_add, BitVec.toNat_mul, BitVec.toNat_ofNat]
    omega

/-- A one-bit comparison widened to a word and read as a signed integer is `1` or `0`. -/
theorem cmp_word_toInt (a x : BitVec 32) :
    (((IntOp.cmpi .eq a x).setWidth 32).toInt : ℝ) = if a = x then 1 else 0 := by
  unfold IntOp.cmpi
  by_cases h : a = x
  · subst h; simp
  · have : (a == x) = false := by simpa using h
    simp [this, h]

/-- The selector at row `n`, column `p`: `1` where location `l * 2048 + n` is the `p`-th sampled position, else `0`
    (`l = i 1`, the tile). -/
theorem onehot_apply (i : grid2.Coords) (v3 : Vec Ideal S1x64 .i32) (n : Fin 2048) (p : Fin 64) :
    k2_pay12 (F := Ideal) i v3 (ix2 n p) = if (i 1).val * 2048 + n.val = (v3 (ix2 0 p)).toNat then 1 else 0 := by
  have hl : (i 1).val < 1 := (i 1).isLt
  unfold k2_pay12
  simp only [shapeCast_self]
  show ((((IntOp.cmpi .eq (IntOp.addi (iota .tc S2048x64 32 [0] iota_S2048x64_d0_w32 (ix2 n p)) (IntOp.muli (BitVec.ofNat 32 (i 1).val) 2048#32))
      (broadcastTo S2048x64 v3 broadcasts_S1x64_S2048x64 (ix2 n p))).setWidth 32).toInt : ℝ) : EReal) = _
  rw [iota_single_apply, broadcastTo_1b_ab_apply, cmp_word_toInt]
  show (((if IntOp.addi (BitVec.ofNat 32 n.val) (IntOp.muli (BitVec.ofNat 32 (i 1).val) 2048#32) = v3 (ix2 0 p) then (1 : ℝ) else 0) : ℝ) : EReal) = _
  by_cases h : (i 1).val * 2048 + n.val = (v3 (ix2 0 p)).toNat
  · rw [if_pos h, if_pos ((word_eq_iff _ _ hl n.isLt _).mpr h)]; rfl
  · rw [if_neg h, if_neg (fun h' => h ((word_eq_iff _ _ hl n.isLt _).mp h'))]; rfl

/-! ## A block against the selector: one column gathered, or nothing -/

/-- A real number minus itself is zero on the extended reals. -/
theorem sub_self_of_real {x : EReal} (h : ∃ r : ℝ, x = (r : EReal)) : x - x = 0 := by
  obtain ⟨r, rfl⟩ := h
  rw [← EReal.coe_sub, sub_self, EReal.coe_zero]

/-- The sum over a tile's rows of a row function against the selector's column: the row whose location is the
    sampled position `m`, when `m` lies in tile `l`; else zero. -/
theorem sum_onehot (x : Fin 2048 → EReal) (l m : ℕ) :
    (∑ n : Fin 2048, x n * (if l * 2048 + n.val = m then (1 : EReal) else 0))
      = if h : l * 2048 ≤ m ∧ m < (l + 1) * 2048 then x ⟨m - l * 2048, by omega⟩ else 0 := by
  by_cases h : l * 2048 ≤ m ∧ m < (l + 1) * 2048
  · rw [dif_pos h]
    rw [Finset.sum_eq_single (⟨m - l * 2048, by omega⟩ : Fin 2048)]
    · rw [if_pos (by show l * 2048 + (m - l * 2048) = m; omega), mul_one]
    · intro n _ hn
      rw [if_neg (fun e => hn (Fin.ext (by show n.val = m - l * 2048; omega))), mul_zero]
    · intro hmem; exact absurd (Finset.mem_univ _) hmem
  · rw [dif_neg h]
    refine Finset.sum_eq_zero fun n _ => ?_
    rw [if_neg (fun e => h (by have := n.isLt; omega)), mul_zero]

/-- The block with its leading unit axis dropped reads the block at `(0, c, n)`. -/
theorem block_apply (v : Vec Ideal S1x128x2048 .f32) (c : Fin 128) (n : Fin 2048) :
    (shapeCast S128x2048 v shapeCasts_S1x128x2048_S128x2048 : FVec Ideal S128x2048 .f32) (ix2 c n) = v (ix3 0 c n) :=
  shapeCast_1ab_ab_apply v _ c n

/-- THE QUERY SIDE. What the body stores to the first accumulator at tile `l = i 1`: the loaded accumulator plus,
    where the `p`-th sampled position lies in this tile, the block's column at that position. The block's entries
    are real numbers, so its remainder `block − block` is zero. -/
theorem pay15_apply (i : grid2.Coords) (v3 : Vec Ideal S1x64 .i32) (v14 : Vec Ideal S1x128x2048 .f32) (v26 : Vec Ideal S128x64 .f32)
    (hreal : ∀ j, ∃ r : ℝ, v14 j = (r : EReal)) (c : Fin 128) (p : Fin 64) :
    k2_pay15 (F := Ideal) i v3 v14 v26 (ix2 c p)
      = v26 (ix2 c p) + (if h : (i 1).val * 2048 ≤ (v3 (ix2 0 p)).toNat ∧ (v3 (ix2 0 p)).toNat < ((i 1).val + 1) * 2048
          then v14 (ix3 0 c ⟨(v3 (ix2 0 p)).toNat - (i 1).val * 2048, by omega⟩) else 0) := by
  unfold k2_pay15
  simp only [shapeCast_self]
  rw [addf_apply, addf_apply, gdot_apply, gdot_apply]
  simp only [truncf_apply, subf_apply, block_apply, onehot_apply]
  have hlo : (∑ n : Fin 2048, (v14 (ix3 0 c n) - v14 (ix3 0 c n)) * (if (i 1).val * 2048 + n.val = (v3 (ix2 0 p)).toNat then (1 : EReal) else 0)) = 0 :=
    Finset.sum_eq_zero fun n _ => by rw [sub_self_of_real (hreal _), zero_mul]
  rw [hlo, add_zero, sum_onehot (fun n => v14 (ix3 0 c n))]

/-- THE KEY SIDE. What the body stores to the second accumulator: the same, for the key block. -/
theorem pay1_apply (i : grid2.Coords) (v3 : Vec Ideal S1x64 .i32) (v16 : Vec Ideal S1x128x2048 .f32) (v34 : Vec Ideal S128x64 .f32)
    (hreal : ∀ j, ∃ r : ℝ, v16 j = (r : EReal)) (c : Fin 128) (p : Fin 64) :
    k2_pay1 (F := Ideal) (k2_pay12 i v3) (k2_pay14 v16) v34 (k2_pay16 i v3 v16) (ix2 c p)
      = v34 (ix2 c p) + (if h : (i 1).val * 2048 ≤ (v3 (ix2 0 p)).toNat ∧ (v3 (ix2 0 p)).toNat < ((i 1).val + 1) * 2048
          then v16 (ix3 0 c ⟨(v3 (ix2 0 p)).toNat - (i 1).val * 2048, by omega⟩) else 0) := by
  unfold k2_pay1 k2_pay16 k2_pay14 k2_pay13
  simp only [shapeCast_self]
  rw [addf_apply, addf_apply, gdot_apply, gdot_apply]
  simp only [truncf_apply, subf_apply, block_apply, onehot_apply]
  have hlo : (∑ n : Fin 2048, (v16 (ix3 0 c n) - v16 (ix3 0 c n)) * (if (i 1).val * 2048 + n.val = (v3 (ix2 0 p)).toNat then (1 : EReal) else 0)) = 0 :=
    Finset.sum_eq_zero fun n _ => by rw [sub_self_of_real (hreal _), zero_mul]
  rw [hlo, add_zero, sum_onehot (fun n => v16 (ix3 0 c n))]

/-- The reset at the first tile writes zeros to both accumulators. -/
theorem reset_q_apply (j : S128x64.Idx) : (k2_pay10 (F := Ideal)) j = 0 := by
  unfold k2_pay10
  rw [shapeCast_self]
  exact Ideal.ofBits_zero_f32
theorem reset_k_apply (j : S128x64.Idx) : (k2_pay11 (F := Ideal)) j = 0 := by
  unfold k2_pay11
  rw [shapeCast_self]
  exact Ideal.ofBits_zero_f32

/-! ## The loss -/

/-- Square root, exponential and logarithm of a vector, read at an index. -/
theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The sum over the channels of an accumulator-shaped array, at column `p`. -/
theorem chansum_apply (src : FVec Ideal S128x64 .f32) (hφ : FKind.Formats .f32)
    (hacc : (0x00000000#32 : BitVec 32) = 0x00000000#32) (p : Fin 64) :
    multiReduction .add [0] S64 src 0x00000000#32 reduces_S128x64_S64 hφ hacc (ix1 p) = ∑ c : Fin 128, src (ix2 c p) := by
  refine (Ideal.multiReduction_add_single src 0x00000000#32 reduces_S128x64_S64 hφ hacc (ix1 p)).trans ?_
  exact Finset.sum_congr rfl fun c _ => congrArg src (funext fun a => match a with | ⟨0, _⟩ => rfl | ⟨1, _⟩ => rfl)

/-- The sum over the rows of a patches-by-patches array, at column `p`. -/
theorem rowsum_apply (src : FVec Ideal S64x64 .f32) (hφ : FKind.Formats .f32)
    (hacc : (0x00000000#32 : BitVec 32) = 0x00000000#32) (p : Fin 64) :
    multiReduction .add [0] S64 src 0x00000000#32 reduces_S64x64_S64 hφ hacc (ix1 p) = ∑ k : Fin 64, src (ix2 k p) := by
  refine (Ideal.multiReduction_add_single src 0x00000000#32 reduces_S64x64_S64 hφ hacc (ix1 p)).trans ?_
  exact Finset.sum_congr rfl fun c _ => congrArg src (funext fun a => match a with | ⟨0, _⟩ => rfl | ⟨1, _⟩ => rfl)

/-- The word of `−∞`. -/
theorem neg_inf_word : Ideal.ofBits .f32 0xFF800000#32 = ⊥ := by simp [Ideal.ofBits, Ideal.ieee]

/-- A fold of `max` from `−∞` is the supremum. -/
theorem fold_max_bot {ι : Type} (s : Finset ι) (f : ι → EReal) : s.fold max ⊥ f = s.sup f := by
  classical
  induction s using Finset.induction_on with
  | empty => rfl
  | insert a s ha ih => rw [Finset.fold_insert ha, Finset.sup_insert, ih]

/-- The maximum over the rows of a patches-by-patches array, from `−∞`, at column `p`: the column's supremum. -/
theorem rowmax_apply (src : FVec Ideal S64x64 .f32) (hφ : FKind.Formats .f32)
    (hacc : (0xFF800000#32 : BitVec 32) = 0xFF800000#32) (p : Fin 64) :
    multiReduction .maximumf [0] S64 src 0xFF800000#32 reduces_S64x64_S64 hφ hacc (ix1 p)
      = Finset.univ.sup fun k : Fin 64 => src (ix2 k p) := by
  refine (Ideal.multiReduction_maximumf_single src 0xFF800000#32 reduces_S64x64_S64 hφ hacc (ix1 p)).trans ?_
  refine (congrArg (fun b => Finset.fold max b _ _) neg_inf_word).trans ?_
  refine (fold_max_bot _ _).trans ?_
  exact congrArg (Finset.univ.sup) (funext fun k => congrArg src (funext fun a => match a with | ⟨0, _⟩ => rfl | ⟨1, _⟩ => rfl))

/-- The mask constant denotes `−∞`. -/
theorem neg_big : Named.named (F := Ideal) κ "neg_big" (φ := .f32) 0xF149F2CA#32 = (⊥ : EReal) :=
  IdealRules.named_const.ideal_named_scalar _ _ _ _ rfl

/-- A select on "row index = column index", both below 64, is the `if` on the coordinates. -/
theorem select_diag {α : Type} (k p : Fin 64) (a b : α) :
    Scalar.select (IntOp.cmpi .eq (BitVec.ofNat 32 k.val) (BitVec.ofNat 32 p.val)) a b = if k = p then a else b := by
  by_cases h : k = p
  · subst h; rw [if_pos rfl]; unfold IntOp.cmpi; simp [Scalar.select]
  · rw [if_neg h]
    have hne : BitVec.ofNat 32 k.val ≠ BitVec.ofNat 32 p.val := fun e => h (Fin.ext (by
      have := congrArg BitVec.toNat e
      simp only [BitVec.toNat_ofNat] at this
      have := k.isLt; have := p.isLt; omega))
    have hb : (BitVec.ofNat 32 k.val == BitVec.ofNat 32 p.val) = false := beq_eq_false_iff_ne.mpr hne
    show Scalar.select (BitVec.ofBool (BitVec.ofNat 32 k.val == BitVec.ofNat 32 p.val)) a b = b
    rw [hb]; exact select_zero a b

variable (qa ka : Vec Ideal S128x64 .f32)

/-- A column scaled to unit length (the query's accumulator). -/
theorem unitq_apply (v : Vec Ideal S128x64 .f32) (c : Fin 128) (p : Fin 64) :
    k2_pay3 (F := Ideal) v (ix2 c p) = Spec.unit (fun c' => v (ix2 c' p)) c := by
  unfold k2_pay3
  rw [divf_apply, broadcastTo_1b_ab_apply, maximumf_apply, broadcast_apply, sqrt_apply, shapeCast_a_1a_apply, chansum_apply]
  rfl

/-- A column scaled to unit length (the key's accumulator). -/
theorem unitk_apply (v : Vec Ideal S128x64 .f32) (c : Fin 128) (p : Fin 64) :
    k2_pay4 (F := Ideal) v (ix2 c p) = Spec.unit (fun c' => v (ix2 c' p)) c := by
  unfold k2_pay4
  rw [divf_apply, broadcastTo_1b_ab_apply, maximumf_apply, broadcast_apply, sqrt_apply, shapeCast_a_1a_apply, chansum_apply]
  rfl

/-- The positive logit. -/
theorem pos_apply (p : Fin 64) :
    k2_pay5 (F := Ideal) qa ka (ix2 0 p) = Spec.pos (fun p c => qa (ix2 c p)) (fun p c => ka (ix2 c p)) p := by
  unfold k2_pay5
  rw [divf_apply, broadcast_apply, shapeCast_a_1a_apply, chansum_apply]
  simp only [mulf_apply, unitq_apply, unitk_apply]
  rfl

/-- The negative logits, `−∞` on the diagonal. -/
theorem neg_apply (k p : Fin 64) :
    k2_pay6 (F := Ideal) qa ka (ix2 k p) = Spec.neg (fun p c => qa (ix2 c p)) (fun p c => ka (ix2 c p)) p k := by
  unfold k2_pay6
  rw [select_apply]
  show Scalar.select (IntOp.cmpi .eq (iota .tc S64x64 32 [0] iota_S64x64_d0_w32 (ix2 k p)) (iota .tc S64x64 32 [1] iota_S64x64_d1_w32 (ix2 k p))) _ _ = _
  rw [iota_single_apply, iota_single_apply, broadcast_apply, divf_apply, broadcast_apply, ndot_apply]
  show Scalar.select (IntOp.cmpi .eq (BitVec.ofNat 32 k.val) (BitVec.ofNat 32 p.val)) _ _ = _
  rw [select_diag, neg_big]
  have ht : ∀ c : Fin 128, transpose S64x128 [1, 0] (k2_pay4 (F := Ideal) ka) transposes_S128x64_p1_0_S64x128 (ix2 k c) = k2_pay4 (F := Ideal) ka (ix2 c k) :=
    fun c => transpose_ix2_apply _ _ k c
  simp only [ht, unitq_apply, unitk_apply]
  rfl

/-- The largest logit. -/
theorem top_apply (p : Fin 64) :
    k2_pay7 (F := Ideal) qa ka (ix2 0 p) = Spec.top (fun p c => qa (ix2 c p)) (fun p c => ka (ix2 c p)) p := by
  unfold k2_pay7
  rw [maximumf_apply, shapeCast_a_1a_apply, rowmax_apply, pos_apply]
  simp only [neg_apply]
  rfl

/-- THE LOSS. What the body stores to the output block at the last tile, from the two accumulators as loaded: the
    cross-entropy of the positive slot among patch `p`'s logits. -/
theorem loss_apply (p : Fin 64) :
    k2_pay2 (F := Ideal) (k2_pay8 qa ka) (k2_pay9 qa ka) (ix3 0 0 p)
      = Spec.loss (fun p c => qa (ix2 c p)) (fun p c => ka (ix2 c p)) p := by
  unfold k2_pay2
  rw [shapeCast_ab_1ab_apply, subf_apply]
  unfold k2_pay8 k2_pay9
  rw [log_apply, addf_apply, exp_apply, subf_apply, shapeCast_a_1a_apply, rowsum_apply]
  simp only [exp_apply, subf_apply, broadcastTo_1b_ab_apply, pos_apply, neg_apply, top_apply]
  rfl

end R2

end Cert.KernelIdeal.Pay

end
-- ==== Proof.KI.Value2.lean ====
/-
  The third layer's kernel call: the value of its output array after the call.

  The grid is 4 × 1: point `t` is batch entry `t`, its one tile the whole row of 2048 locations. At every point the
  body zeroes both accumulators, adds to each the one-hot gather of the point's block, and stores the loss of the
  two accumulators' columns to the output block, which is written back to row `t` of the output array. With the
  sampled positions below the row's length, column `p` of an accumulator is the block's column at position
  `sel p`, so the stored value at patch `p` is the specification's loss of the gathered columns; the q and k blocks
  of point `t` are rows `t` of their arrays and the index block is the whole index array; the four output blocks
  tile the output array. So the array ends, at batch entry `b` and patch `p`, at the layer's loss there.
-/
import proofs.«430285_j43310450213294_2_alg».proof.Proof.KI.Region2Pay
import proofs.«430285_j43310450213294_2_alg».proof.Proof.KI.Pay2
import proofs.«430285_j43310450213294_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

/-! ## One point's arithmetic -/

/-- The gathered entry: with the tile's first location at zero and the index word that of a position below the
    tile's length, the guarded read is the read at that position. -/
theorem gather_at2 (l : ℕ) (hl : l = 0) (w : BitVec 32) (s : Fin 2048) (hw : w = BitVec.ofNat 32 s.val) (f : Fin 2048 → EReal) :
    (if h : l * 2048 ≤ w.toNat ∧ w.toNat < (l + 1) * 2048 then f ⟨w.toNat - l * 2048, by omega⟩ else 0) = f s := by
  subst hl hw
  have hs : s.val < 2048 := s.isLt
  have e : (BitVec.ofNat 32 s.val).toNat = s.val := by rw [BitVec.toNat_ofNat]; omega
  rw [dif_pos ⟨by omega, by omega⟩]
  exact congrArg f (Fin.ext (by show (BitVec.ofNat 32 s.val).toNat - 0 * 2048 = s.val; omega))

/-- What one point stores to its output block, at patch `p`: the loss of the columns of its q block and of its k
    block at the sampled positions. Both accumulators start the point at zero, the tile coordinate is zero and every
    sampled position lies in the one tile, so each accumulator's column `p` is the block's column at `sel p`. -/
theorem point_loss2 (i : grid2.Coords) (hi : (i 1).val = 0)
    (x0 x1 : Vec Ideal S1x128x2048 .f32) (x2 : Vec Ideal S1x64 .i32)
    (h0 : ∀ j, ∃ r : ℝ, x0 j = (r : EReal)) (h1 : ∀ j, ∃ r : ℝ, x1 j = (r : EReal))
    (sel : Fin 64 → Fin 2048) (h2 : ∀ p : Fin 64, x2 (ix2 0 p) = BitVec.ofNat 32 (sel p).val) (p : Fin 64) :
    k2_pay2 (F := Ideal) (k2_pay8 (k2_pay15 i x2 x0 (k2_pay10 (F := Ideal))) (k2_pay1 (k2_pay12 i x2) (k2_pay14 x1) (k2_pay11 (F := Ideal)) (k2_pay16 i x2 x1)))
        (k2_pay9 (k2_pay15 i x2 x0 (k2_pay10 (F := Ideal))) (k2_pay1 (k2_pay12 i x2) (k2_pay14 x1) (k2_pay11 (F := Ideal)) (k2_pay16 i x2 x1))) (ix3 0 0 p)
      = Spec.loss (fun p c => x0 (ix3 0 c (sel p))) (fun p c => x1 (ix3 0 c (sel p))) p := by
  refine (Pay.R2.loss_apply _ _ p).trans ?_
  have eq : (fun (p : Fin 64) (c : Fin 128) => k2_pay15 (F := Ideal) i x2 x0 (k2_pay10 (F := Ideal)) (ix2 c p)) = fun p c => x0 (ix3 0 c (sel p)) := by
    funext p c
    refine (Pay.R2.pay15_apply i x2 x0 _ h0 c p).trans ?_
    rw [Pay.R2.reset_q_apply, zero_add]
    exact gather_at2 (i 1).val hi (x2 (ix2 0 p)) (sel p) (h2 p) (fun n => x0 (ix3 0 c n))
  have ek : (fun (p : Fin 64) (c : Fin 128) => k2_pay1 (F := Ideal) (k2_pay12 i x2) (k2_pay14 x1) (k2_pay11 (F := Ideal)) (k2_pay16 i x2 x1) (ix2 c p)) = fun p c => x1 (ix3 0 c (sel p)) := by
    funext p c
    refine (Pay.R2.pay1_apply i x2 x1 _ h1 c p).trans ?_
    rw [Pay.R2.reset_k_apply, zero_add]
    exact gather_at2 (i 1).val hi (x2 (ix2 0 p)) (sel p) (h2 p) (fun n => x1 (ix3 0 c n))
  rw [eq, ek]

/-! ## From the blocks to the array -/

section Region
variable (V : (c : Dev nD) → (b : Ref sig .tc) → Buf (Elt Ideal) ((c : Thread nD τ).loc b))

/-- The call has four points. -/
theorem N2_eq : cfg2.N = 4 := by decide

/-- The printed index maps, decided once over the grid: point `t` is batch entry `t`; the q, k and output blocks sit
    at row `t` of their arrays and at the origin of the other axes, the index block at the origin; the tile
    coordinate is zero. -/
theorem idx_facts2 : ∀ t : Fin cfg2.N, win2_0.index t (0 : Fin 3) = t.val ∧ win2_0.index t (1 : Fin 3) = 0 ∧ win2_0.index t (2 : Fin 3) = 0
    ∧ win2_1.index t (0 : Fin 3) = t.val ∧ win2_1.index t (1 : Fin 3) = 0 ∧ win2_1.index t (2 : Fin 3) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0
    ∧ ((grid2.coords t) 1).val = 0 :=
  (by decide +kernel : ∀ t : Fin grid2.N, _)

/-- The q block of point `t` is row `t` of the q array: a block's coordinate is its index times its size plus
    the coordinate inside it. -/
theorem qblk2_apply (c : Dev nD) (t : Fin cfg2.N) (x : S1x128x2048.Idx) (k : S4x128x2048.Idx)
    (hk0 : (k 0).val = t.val) (hk1 : (k 1).val = (x 1).val) (hk2 : (k 2).val = (x 2).val) :
    (iblk2 V c 0 t : Vec Ideal S1x128x2048 .f32) x = (V c main_v14 : S4x128x2048.Idx → EReal) k := by
  obtain ⟨e0, e1, e2, -⟩ := idx_facts2 t
  have hx0 : (x 0).val < 1 := (x 0).isLt
  unfold iblk2
  rw [View.read_apply]
  show V c main_v14 _ = V c main_v14 _
  congr 1
  funext a
  apply Fin.ext
  match a with
  | ⟨0, _⟩ => show win2_0.index t 0 * 1 + 1 * (x 0).val = (k 0).val; rw [e0, hk0]; omega
  | ⟨1, _⟩ => show win2_0.index t 1 * 128 + 1 * (x 1).val = (k 1).val; rw [e1, hk1]; omega
  | ⟨2, _⟩ => show win2_0.index t 2 * 2048 + 1 * (x 2).val = (k 2).val; rw [e2, hk2]; omega

/-- The k block of point `t` is row `t` of the k array. -/
theorem kblk2_apply (c : Dev nD) (t : Fin cfg2.N) (x : S1x128x2048.Idx) (k : S4x128x2048.Idx)
    (hk0 : (k 0).val = t.val) (hk1 : (k 1).val = (x 1).val) (hk2 : (k 2).val = (x 2).val) :
    (iblk2 V c 1 t : Vec Ideal S1x128x2048 .f32) x = (V c main_v15 : S4x128x2048.Idx → EReal) k := by
  obtain ⟨-, -, -, e0, e1, e2, -⟩ := idx_facts2 t
  have hx0 : (x 0).val < 1 := (x 0).isLt
  unfold iblk2
  rw [View.read_apply]
  show V c main_v15 _ = V c main_v15 _
  congr 1
  funext a
  apply Fin.ext
  match a with
  | ⟨0, _⟩ => show win2_1.index t 0 * 1 + 1 * (x 0).val = (k 0).val; rw [e0, hk0]; omega
  | ⟨1, _⟩ => show win2_1.index t 1 * 128 + 1 * (x 1).val = (k 1).val; rw [e1, hk1]; omega
  | ⟨2, _⟩ => show win2_1.index t 2 * 2048 + 1 * (x 2).val = (k 2).val; rw [e2, hk2]; omega

/-- The index block of every point is the whole index array. -/
theorem idblk2_apply (c : Dev nD) (t : Fin cfg2.N) (x : S1x64.Idx) :
    (iblk2 V c 2 t : Vec Ideal S1x64 .i32) x = (V c main_v16 : S1x64.Idx → BitVec 32) x := by
  obtain ⟨-, -, -, -, -, -, e0, e1, -⟩ := idx_facts2 t
  unfold iblk2
  rw [View.read_apply]
  show V c main_v16 _ = V c main_v16 _
  congr 1
  funext a
  apply Fin.ext
  match a with
  | ⟨0, _⟩ => show win2_2.index t 0 * 1 + 1 * (x 0).val = (x 0).val; rw [e0]; omega
  | ⟨1, _⟩ => show win2_2.index t 1 * 64 + 1 * (x 1).val = (x 1).val; rw [e1]; omega

/-- A block of an array of real numbers holds real numbers. -/
theorem qblk2_real (c : Dev nD) (t : Fin cfg2.N) (hq : ∀ i, ∃ r : ℝ, V c main_v14 i = (r : EReal)) (j : S1x128x2048.Idx) :
    ∃ r : ℝ, (iblk2 V c 0 t : Vec Ideal S1x128x2048 .f32) j = (r : EReal) := by
  unfold iblk2; rw [View.read_apply]; exact hq _
theorem kblk2_real (c : Dev nD) (t : Fin cfg2.N) (hk : ∀ i, ∃ r : ℝ, V c main_v15 i = (r : EReal)) (j : S1x128x2048.Idx) :
    ∃ r : ℝ, (iblk2 V c 1 t : Vec Ideal S1x128x2048 .f32) j = (r : EReal) := by
  unfold iblk2; rw [View.read_apply]; exact hk _

/-- The array the call leaves: at batch entry `b` and patch `p` the layer's loss. -/
def G2 (c : Dev nD) (sel : Fin 64 → Fin 2048) : Vec Ideal S4x1x64 .f32 :=
  fun i => Spec.layerOf (C := 128) (V c main_v14) (V c main_v15) sel (i 0) (i 2)

/-- Contents of the output block that are, patch by patch, the layer's loss at batch entry `t` are block `t` of
    that array: the block sits at row `t`, and its two leading axes have one coordinate each. -/
theorem out_blk2 (c : Dev nD) (sel : Fin 64 → Fin 2048) (t : Fin cfg2.N) (X : Vec Ideal S1x1x64 .f32)
    (hX : ∀ (b : Fin 4) (p : Fin 64), b.val = t.val → X (ix3 0 0 p) = Spec.layerOf (C := 128) (V c main_v14) (V c main_v15) sel b p) :
    (cfg2.win 3).cut (grid2.coords t) X = ((cfg2.win 3).blk t).view.read (Elt Ideal) (G2 V c sel) := by
  obtain ⟨-, -, -, -, -, -, -, -, e0, e1, e2, -⟩ := idx_facts2 t
  funext j
  rw [View.read_apply]
  have hj0 : (j 0).val < 1 := (j 0).isLt
  have hj1 : (j 1).val < 1 := (j 1).isLt
  have hb : ((((cfg2.win 3).blk t).view.emb j) 0).val = t.val := by
    show win2_3.index t 0 * 1 + 1 * (j 0).val = t.val; rw [e0]; omega
  have hp : ((((cfg2.win 3).blk t).view.emb j) 2).val = (j 2).val := by
    show win2_3.index t 2 * 64 + 1 * (j 2).val = (j 2).val; rw [e2]; omega
  have ex : (cfg2.win 3).xinj (grid2.coords t) j = ix3 0 0 ((((cfg2.win 3).blk t).view.emb j) 2) := by
    funext a
    apply Fin.ext
    match a with
    | ⟨0, _⟩ => show (j 0).val = 0; omega
    | ⟨1, _⟩ => show (j 1).val = 0; omega
    | ⟨2, _⟩ => show (j 2).val = ((((cfg2.win 3).blk t).view.emb j) 2).val; exact hp.symm
  exact (congrArg X ex).trans (hX ((((cfg2.win 3).blk t).view.emb j) 0) ((((cfg2.win 3).blk t).view.emb j) 2) hb)

/-- What point `t` writes back is block `t` of that array. -/
theorem flushed2_eq (c : Dev nD)
    (hq : ∀ i, ∃ r : ℝ, V c main_v14 i = (r : EReal)) (hk : ∀ i, ∃ r : ℝ, V c main_v15 i = (r : EReal))
    (sel : Fin 64 → Fin 2048) (hsel : ∀ p : Fin 64, V c main_v16 (ix2 0 p) = BitVec.ofNat 32 (sel p).val) (t : Fin cfg2.N) :
    (dat2 (F := Ideal) V c).flushed 3 t = ((cfg2.win 3).blk t).view.read (Elt Ideal) (G2 V c sel) := by
  show (cfg2.win 3).cut (grid2.coords t) ((dat2 (F := Ideal) V c).after 3 t) = _
  rw [after2_3, outsAt2_A V c t]
  dsimp only
  rw [out2_A_3_eq c (grid2.coords t) (ms2_0 t) (hs2_0 t) (ms2_1 t) (hs2_1 t) (ms2_2 t) (hs2_2 t) (ms2_3 t) (hs2_3 t) scM2_0 (Memref.isWhole_whole _) scM2_1 (Memref.isWhole_whole _) (hcond2_0 t) (hcond2_1 t) (iblk2 V c 0 t) (iblk2 V c 1 t) (iblk2 V c 2 t)]
  refine out_blk2 V c sel t _ fun b p hb => ?_
  refine (point_loss2 (grid2.coords t) (idx_facts2 t).2.2.2.2.2.2.2.2.2.2.2 (iblk2 V c 0 t) (iblk2 V c 1 t) (iblk2 V c 2 t)
    (qblk2_real V c t hq) (kblk2_real V c t hk) sel (fun p' => (idblk2_apply V c t (ix2 0 p')).trans (hsel p')) p).trans ?_
  show Spec.loss _ _ p = Spec.loss (fun p c' => V c main_v14 (ix3 b c' (sel p))) (fun p c' => V c main_v15 (ix3 b c' (sel p))) p
  have eq : (fun (p : Fin 64) (c' : Fin 128) => (iblk2 V c 0 t : Vec Ideal S1x128x2048 .f32) (ix3 0 c' (sel p))) = fun p c' => V c main_v14 (ix3 b c' (sel p)) :=
    funext fun p => funext fun c' => qblk2_apply V c t (ix3 0 c' (sel p)) (ix3 b c' (sel p)) hb rfl rfl
  have ek : (fun (p : Fin 64) (c' : Fin 128) => (iblk2 V c 1 t : Vec Ideal S1x128x2048 .f32) (ix3 0 c' (sel p))) = fun p c' => V c main_v15 (ix3 b c' (sel p)) :=
    funext fun p => funext fun c' => kblk2_apply V c t (ix3 0 c' (sel p)) (ix3 b c' (sel p)) hb rfl rfl
  rw [eq, ek]

/-- Every entry of the output array is in the block of the point of its batch entry. -/
theorem cover2 (i : S4x1x64.Idx) : ∃ t : Fin cfg2.N, (cfg2.win 3).flush t = true ∧ i ∈ ((cfg2.win 3).blk t).view.set := by
  have hi0 : (i 0).val < 4 := (i 0).isLt
  have hi1 : (i 1).val < 1 := (i 1).isLt
  have hi2 : (i 2).val < 64 := (i 2).isLt
  obtain ⟨t, ht⟩ : ∃ t : Fin cfg2.N, t.val = (i 0).val := ⟨⟨(i 0).val, by rw [N2_eq]; exact hi0⟩, rfl⟩
  refine ⟨t, flush2_3 t, ?_⟩
  obtain ⟨-, -, -, -, -, -, -, -, e0, e1, e2, -⟩ := idx_facts2 t
  show i ∈ ((View.whole main_v17).slice (win2_3.rect t)).set
  rw [View.set_slice_whole, Rect.mem_set_unit]
  intro a
  match a with
  | ⟨0, _⟩ => show win2_3.index t 0 * 1 ≤ (i 0).val ∧ (i 0).val < win2_3.index t 0 * 1 + 1; rw [e0]; omega
  | ⟨1, _⟩ => show win2_3.index t 1 * 1 ≤ (i 1).val ∧ (i 1).val < win2_3.index t 1 * 1 + 1; rw [e1]; omega
  | ⟨2, _⟩ => show win2_3.index t 2 * 64 ≤ (i 2).val ∧ (i 2).val < win2_3.index t 2 * 64 + 64; rw [e2]; omega

/-- THE VALUE of the call's output array: at batch entry `b` and patch `p`, the layer's loss of the q and k arrays at
    the sampled positions. -/
theorem value2 (c : Dev nD)
    (hq : ∀ i, ∃ r : ℝ, V c main_v14 i = (r : EReal)) (hk : ∀ i, ∃ r : ℝ, V c main_v15 i = (r : EReal))
    (sel : Fin 64 → Fin 2048) (hsel : ∀ p : Fin 64, V c main_v16 (ValueIdx.ix2 0 p) = BitVec.ofNat 32 (sel p).val) (b : Fin 4) (p : Fin 64) :
    (dat2 (F := Ideal) V c).arrAt 3 cfg2.N (ValueIdx.ix3 b 0 p) = Cert.Spec.layerOf (C := 128) (V c main_v14) (V c main_v15) sel b p :=
  congrFun ((dat2 (F := Ideal) V c).arrAt_eq_of_cover 3 (G2 V c sel) (fun t _ => flushed2_eq V c hq hk sel hsel t) (cover2)) (ix3 b 0 p)

end Region

end Cert.KernelIdeal.Hand

end
-- ==== Proof.KI.Mean2.lean ====
/-
  Layer 2 of the kernel's result: after pallas_call 2 its output array holds, at (b, 0, p), the layer's loss of batch
  entry b at patch p, of the reshaped query and key arrays the host stretch before the call wrote, at the positions
  the index array names; so the mean the next host stretch takes over that array is the specification's mean.
-/
import proofs.«430285_j43310450213294_2_alg».proof.Proof.KI.Halves
import proofs.«430285_j43310450213294_2_alg».proof.Proof.KI.Host
import proofs.«430285_j43310450213294_2_alg».proof.Proof.KI.Value2
import proofs.«430285_j43310450213294_2_alg».proof.Proof.Glue

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable (m : (ℓ : Loc nD τ sig) → Buf (Elt Ideal) ℓ)

/-- After the call its output array holds what its pipeline's write-backs leave. -/
theorem outs_6 (c : Dev nD) :
    outsAll m 6 main_v17 c = (dat2 (F := Ideal) (fun c b => V5 m (outsAll m) c b) c).arrAt 3 cfg2.N := by
  show W6 m half0 half1 half2 c (Proc.devRef .tc main_v17) = _
  unfold W6
  exact Pipeline.withArrays_arr spec2 launch2.win.arr_inj c _ _ 3

/-- The mean over the call's output array is the specification's mean of the layer. -/
theorem mean_2 (c : Dev nD)
    (hq : ∀ i, ∃ r : ℝ, (m ((c : Thread nD τ).loc main_arg2)) i = (r : EReal)) (hk : ∀ i, ∃ r : ℝ, (m ((c : Thread nD τ).loc main_arg7)) i = (r : EReal))
    (sel : Fin 64 → Fin 2048) (hsel : ∀ p : Fin 64, (m ((c : Thread nD τ).loc main_arg12)) (ix1 p) = BitVec.ofNat 32 (sel p).val) :
    μ (outsAll m 6 main_v17 c) = Cert.Spec.mean (Cert.Spec.layerOf (C := 128) (shapeCast _ (m ((c : Thread nD τ).loc main_arg2)) Gen.shapeCasts_S4x128x8x16x16_S4x128x2048) (shapeCast _ (m ((c : Thread nD τ).loc main_arg7)) Gen.shapeCasts_S4x128x8x16x16_S4x128x2048) sel) := by
  refine congrArg Cert.Spec.mean (funext fun b => funext fun p => ?_)
  rw [outs_6 m c]
  rw [value2 (fun c b => V5 m (outsAll m) c b) c
    (by intro i; show ∃ r : ℝ, V5 m (outsAll m) c main_v14 i = _; rw [V5_main_v14 m (outsAll m) c]; exact Cert.Glue.shapeCast_real _ hq _ i)
    (by intro i; show ∃ r : ℝ, V5 m (outsAll m) c main_v15 i = _; rw [V5_main_v15 m (outsAll m) c]; exact Cert.Glue.shapeCast_real _ hk _ i)
    sel
    (by intro p; show V5 m (outsAll m) c main_v16 (ix2 0 p) = _; rw [V5_main_v16 m (outsAll m) c, Cert.Glue.shapeCast_row_apply]; exact hsel p)
    b p]
  show Cert.Spec.layerOf (C := 128) (V5 m (outsAll m) c main_v14) (V5 m (outsAll m) c main_v15) sel b p = _
  rw [V5_main_v14 m (outsAll m) c, V5_main_v15 m (outsAll m) c]

end Cert.KernelIdeal.Hand

end
-- ==== Proof.KI.Region3Pay.lean ====
/-
  The fourth layer's kernel call, value side: what the body's stores leave in the output block and in the two
  accumulators, named as the payloads of the point's three input blocks.
-/
import proofs.«430285_j43310450213294_2_alg».proof.Proof.KI.Region3
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The stored values, as the payloads of the input blocks

Each buffer the body writes ends with ONE store through the whole-buffer rectangle last, so it holds that
store's value; a load of an accumulator after such a store reads the stored value back; a load of an input
reads its block. -/

/-- The zero offsets of a rank-2 and of a rank-3 whole-buffer rectangle, as constant functions. -/
theorem hzA3 : (![0, 0] : Fin 2 → Nat) = fun _ => 0 := funext fun a => by fin_cases a <;> rfl
theorem hzB3 : (![0, 0, 0] : Fin 3 → Nat) = fun _ => 0 := funext fun a => by fin_cases a <;> rfl

/-- A load through the whole-buffer rectangle, after stores the last of which went through that rectangle,
    reads that last store's value, whatever the earlier stores were. -/
theorem readCovLast3 {Val : EltTy → Type} [∀ e, Nonempty (Val e)] {S : Shape} {e : EltTy}
    {sig' : RefSig} {κ : Kind} {sp : Space} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon', View.canon_cons_unit_zero h inb w L]
  exact View.ld_unit_zero h inb w

/-- The q accumulator ends at the gathered q columns added to the zero fill. -/
theorem sout3_A_0_eq (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) :
    sout3_A_0 c i arg2 harg2 arg3 harg3 arg4 harg4 arg5 harg5 arg6 harg6 arg7 harg7 hc0 hc1 x0 x1 x2 = k3_pay15 i x2 x0 (k3_pay10 (F := F)) := by
  unfold sout3_A_0
  rw [View.read_writes_eq_canon _ _ _ (scover3_A_0 c i arg2 harg2 arg3 harg3 arg4 harg4 arg5 harg5 arg6 harg6 arg7 harg7 hc0 hc1 x0 x1 x2)]
  unfold kernelRun3_A
  dsimp only
  sl_unfold_words
  rw [View.canon_cons_unit_zero (S := S256x64) hzA3, View.readCov_unit_zero (S := S256x64) _ hzA3]
  simp only [View.readAt_eq_ld, harg2.read_unread, harg4.read_unread, View.ld_unit_zero (S := S1x256x256) hzB3, View.ld_unit_zero (S := S1x64) hzA3]

/-- The k accumulator ends at the gathered k columns added to the zero fill. -/
theorem sout3_A_1_eq (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) :
    sout3_A_1 c i arg2 harg2 arg3 harg3 arg4 harg4 arg5 harg5 arg6 harg6 arg7 harg7 hc0 hc1 x0 x1 x2 = k3_pay1 (k3_pay12 i x2) (k3_pay14 x1) (k3_pay11 (F := F)) (k3_pay16 i x2 x1) := by
  unfold sout3_A_1
  rw [View.read_writes_eq_canon _ _ _ (scover3_A_1 c i arg2 harg2 arg3 harg3 arg4 harg4 arg5 harg5 arg6 harg6 arg7 harg7 hc0 hc1 x0 x1 x2)]
  unfold kernelRun3_A
  dsimp only
  sl_unfold_words
  rw [View.canon_cons_unit_zero (S := S256x64) hzA3, View.readCov_unit_zero (S := S256x64) _ hzA3]
  simp only [View.readAt_eq_ld, harg3.read_unread, harg4.read_unread, View.ld_unit_zero (S := S1x256x256) hzB3, View.ld_unit_zero (S := S1x64) hzA3]

/-- The output block ends at the loss of the two accumulators' final contents. -/
theorem out3_A_3_eq (c : Dev nD) (i : grid3.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond3_0 i) (hc1 : cond3_1 i)
    (x0 : Vec F S1x256x256 .f32) (x1 : Vec F S1x256x256 .f32) (x2 : Vec F S1x64 .i32) :
    out3_A_3 c i arg2 harg2 arg3 harg3 arg4 harg4 arg5 harg5 arg6 harg6 arg7 harg7 hc0 hc1 x0 x1 x2
      = k3_pay2 (k3_pay8 (k3_pay15 i x2 x0 (k3_pay10 (F := F))) (k3_pay1 (k3_pay12 i x2) (k3_pay14 x1) (k3_pay11 (F := F)) (k3_pay16 i x2 x1)))
          (k3_pay9 (k3_pay15 i x2 x0 (k3_pay10 (F := F))) (k3_pay1 (k3_pay12 i x2) (k3_pay14 x1) (k3_pay11 (F := F)) (k3_pay16 i x2 x1))) := by
  unfold out3_A_3
  rw [View.read_writes_eq_canon _ _ _ (cover3_A_3 c i arg2 harg2 arg3 harg3 arg4 harg4 arg5 harg5 arg6 harg6 arg7 harg7 hc0 hc1 x0 x1 x2)]
  unfold kernelRun3_A
  dsimp only
  sl_unfold_words
  rw [View.canon_unit_zero (S := S1x1x64) hzB3]
  simp only [readCovLast3 (S := S256x64) _ hzA3, View.readCov_unit_zero (S := S256x64) _ hzA3, View.readAt_eq_ld, harg2.read_unread, harg3.read_unread, harg4.read_unread, View.ld_unit_zero (S := S1x256x256) hzB3, View.ld_unit_zero (S := S1x64) hzA3]

end Cert.KernelIdeal.Hand

end
-- ==== Proof.KI.Pay3.lean ====
/-
  The arithmetic of one layer's kernel body at the ideal values, read at an index.

  The body keeps two accumulators of one column per sampled position. At each tile it builds a selector
  (row `n`, column `p`: is the tile's `n`-th location the `p`-th sampled position?), splits the query block and the key
  block into a leading part and a remainder, multiplies each part with the selector and adds the products to the
  accumulators. At the ideal values a change of format is the identity, so the leading part is the block itself and
  the remainder is `block − block`, which is zero where the block's entries are real numbers; and a sum of a row
  function against a selector column has at most one nonzero term. So a tile adds to column `p` of an accumulator the
  block's column at the sampled position, when that position lies in the tile, and nothing otherwise
  (`pay15_apply`, `pay1_apply`). At the last tile the body computes the loss from the two accumulators: each column is
  scaled to unit length, the logits are inner products over the temperature with `−∞` on the diagonal of the negative
  ones, and the cross-entropy of the positive slot is taken with the largest logit subtracted. The specification's
  `loss` is written in the same order of operations, so the body's value at patch `p` is `loss` of the two
  accumulators' columns (`loss_apply`) with no condition on the accumulators.
-/
import proofs.«430285_j43310450213294_2_alg».proof.Proof.Gen.KernelIdeal.Skeleton
import proofs.«430285_j43310450213294_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

namespace R3

/-! ## The two contractions read at an index -/

theorem gdot_lhs_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem gdot_lhs_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
theorem gdot_rhs_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
theorem gdot_rhs_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- A block (channels by tile rows) times a selector (tile rows by patches), accumulated into zeros, at channel `c`
    and patch `p`: the sum over the tile's rows. -/
theorem gdot_apply {φ₁ φ₂ : FTy} (lhs : FVec Ideal S256x256 φ₁) (rhs : FVec Ideal S256x64 φ₂) (c : Fin 256) (p : Fin 64) :
    matmul dot_S256x256_S256x64_S256x64_1_0_0_1_n_n none lhs rhs (constant (F := Ideal) S256x64 .f32 0x00000000#32) (ix2 c p)
      = ∑ n : Fin 256, lhs (ix2 c n) * rhs (ix2 n p) := by
  simp only [matmul]
  rw [Ideal.matmul_constant_zero_apply, ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 c p) ((contrEquiv1 dot_S256x256_S256x64_S256x64_1_0_0_1_n_n 256 rfl rfl).symm k) = ix2 c k := funext fun a => Fin.ext (by
    match a with
    | ⟨0, _⟩ => exact gdot_lhs_0 _ _
    | ⟨1, _⟩ => exact (gdot_lhs_1 _ _).trans hk)
  have er : dot_S256x256_S256x64_S256x64_1_0_0_1_n_n.rhsIdx (ix2 c p) ((contrEquiv1 dot_S256x256_S256x64_S256x64_1_0_0_1_n_n 256 rfl rfl).symm k) = ix2 k p := funext fun a => Fin.ext (by
    match a with
    | ⟨0, _⟩ => exact (gdot_rhs_0 _ _).trans hk
    | ⟨1, _⟩ => exact gdot_rhs_1 _ _)
  rw [el, er]

theorem ndot_lhs_0 (i : S64x64.Idx) (q : dot_S64x256_S256x64_S64x64_1_0_0_1_n_n.contr.Idx) :
    (dot_S64x256_S256x64_S64x64_1_0_0_1_n_n.lhsIdx i q 0).val = (i 0).val := by
  unfold DotDims.lhsIdx
  rw [dif_neg (show ¬(0 : Fin S64x256.rank) ∈ dot_S64x256_S256x64_S64x64_1_0_0_1_n_n.lhsBatch by decide), dif_pos (show (0 : Fin S64x256.rank) ∈ dot_S64x256_S256x64_S64x64_1_0_0_1_n_n.lhsNonContracting by decide)]
  rfl
theorem ndot_lhs_1 (i : S64x64.Idx) (q : dot_S64x256_S256x64_S64x64_1_0_0_1_n_n.contr.Idx) :
    (dot_S64x256_S256x64_S64x64_1_0_0_1_n_n.lhsIdx i q 1).val = (q ⟨0, by decide⟩).val :=
  dot_S64x256_S256x64_S64x64_1_0_0_1_n_n.lhsIdx_val_of_single rfl i q
theorem ndot_rhs_0 (i : S64x64.Idx) (q : dot_S64x256_S256x64_S64x64_1_0_0_1_n_n.contr.Idx) :
    (dot_S64x256_S256x64_S64x64_1_0_0_1_n_n.rhsIdx i q 0).val = (q ⟨0, by decide⟩).val :=
  dot_S64x256_S256x64_S64x64_1_0_0_1_n_n.rhsIdx_val_of_single rfl i q
theorem ndot_rhs_1 (i : S64x64.Idx) (q : dot_S64x256_S256x64_S64x64_1_0_0_1_n_n.contr.Idx) :
    (dot_S64x256_S256x64_S64x64_1_0_0_1_n_n.rhsIdx i q 1).val = (i 1).val := by
  unfold DotDims.rhsIdx
  rw [dif_neg (show ¬(1 : Fin S256x64.rank) ∈ dot_S64x256_S256x64_S64x64_1_0_0_1_n_n.rhsBatch by decide), dif_pos (show (1 : Fin S256x64.rank) ∈ dot_S64x256_S256x64_S64x64_1_0_0_1_n_n.rhsNonContracting by decide)]
  rfl

/-- Patches by channels times channels by patches, accumulated into zeros, at `(k, p)`: the sum over the channels. -/
theorem ndot_apply {φ₁ φ₂ : FTy} (prec : Option ContractPrecision) (lhs : FVec Ideal S64x256 φ₁) (rhs : FVec Ideal S256x64 φ₂) (k p : Fin 64) :
    matmul dot_S64x256_S256x64_S64x64_1_0_0_1_n_n prec lhs rhs (constant (F := Ideal) S64x64 .f32 0x00000000#32) (ix2 k p)
      = ∑ c : Fin 256, lhs (ix2 k c) * rhs (ix2 c p) := by
  simp only [matmul]
  rw [Ideal.matmul_constant_zero_apply, ← Equiv.sum_comp (contrEquiv1 dot_S64x256_S256x64_S64x64_1_0_0_1_n_n 256 rfl rfl).symm]
  refine Finset.sum_congr rfl fun c _ => ?_
  have hk := contrEquiv1_symm_val dot_S64x256_S256x64_S64x64_1_0_0_1_n_n 256 rfl rfl c
  have el : dot_S64x256_S256x64_S64x64_1_0_0_1_n_n.lhsIdx (ix2 k p) ((contrEquiv1 dot_S64x256_S256x64_S64x64_1_0_0_1_n_n 256 rfl rfl).symm c) = ix2 k c := funext fun a => Fin.ext (by
    match a with
    | ⟨0, _⟩ => exact ndot_lhs_0 _ _
    | ⟨1, _⟩ => exact (ndot_lhs_1 _ _).trans hk)
  have er : dot_S64x256_S256x64_S64x64_1_0_0_1_n_n.rhsIdx (ix2 k p) ((contrEquiv1 dot_S64x256_S256x64_S64x64_1_0_0_1_n_n 256 rfl rfl).symm c) = ix2 c p := funext fun a => Fin.ext (by
    match a with
    | ⟨0, _⟩ => exact (ndot_rhs_0 _ _).trans hk
    | ⟨1, _⟩ => exact ndot_rhs_1 _ _)
  rw [el, er]

/-! ## The selector -/

/-- Row `n` of tile `l` is location `l * 256 + n`; as 32-bit words the sum does not wrap, so it equals an index
    word exactly when the naturals agree. -/
theorem word_eq_iff (l n : ℕ) (hl : l < 1) (hn : n < 256) (x : BitVec 32) :
    IntOp.addi (BitVec.ofNat 32 n) (IntOp.muli (BitVec.ofNat 32 l) 256#32) = x ↔ l * 256 + n = x.toNat := by
  unfold IntOp.addi IntOp.muli
  constructor
  · intro h; subst h
    simp only [BitVec.toNat_add, BitVec.toNat_mul, BitVec.toNat_ofNat]
    omega
  · intro h
    apply BitVec.eq_of_toNat_eq
    simp only [BitVec.toNat_add, BitVec.toNat_mul, BitVec.toNat_ofNat]
    omega

/-- A one-bit comparison widened to a word and read as a signed integer is `1` or `0`. -/
theorem cmp_word_toInt (a x : BitVec 32) :
    (((IntOp.cmpi .eq a x).setWidth 32).toInt : ℝ) = if a = x then 1 else 0 := by
  unfold IntOp.cmpi
  by_cases h : a = x
  · subst h; simp
  · have : (a == x) = false := by simpa using h
    simp [this, h]

/-- The selector at row `n`, column `p`: `1` where location `l * 256 + n` is the `p`-th sampled position, else `0`
    (`l = i 1`, the tile). -/
theorem onehot_apply (i : grid3.Coords) (v3 : Vec Ideal S1x64 .i32) (n : Fin 256) (p : Fin 64) :
    k3_pay12 (F := Ideal) i v3 (ix2 n p) = if (i 1).val * 256 + n.val = (v3 (ix2 0 p)).toNat then 1 else 0 := by
  have hl : (i 1).val < 1 := (i 1).isLt
  unfold k3_pay12
  simp only [shapeCast_self]
  show ((((IntOp.cmpi .eq (IntOp.addi (iota .tc S256x64 32 [0] iota_S256x64_d0_w32 (ix2 n p)) (IntOp.muli (BitVec.ofNat 32 (i 1).val) 256#32))
      (broadcastTo S256x64 v3 broadcasts_S1x64_S256x64 (ix2 n p))).setWidth 32).toInt : ℝ) : EReal) = _
  rw [iota_single_apply, broadcastTo_1b_ab_apply, cmp_word_toInt]
  show (((if IntOp.addi (BitVec.ofNat 32 n.val) (IntOp.muli (BitVec.ofNat 32 (i 1).val) 256#32) = v3 (ix2 0 p) then (1 : ℝ) else 0) : ℝ) : EReal) = _
  by_cases h : (i 1).val * 256 + n.val = (v3 (ix2 0 p)).toNat
  · rw [if_pos h, if_pos ((word_eq_iff _ _ hl n.isLt _).mpr h)]; rfl
  · rw [if_neg h, if_neg (fun h' => h ((word_eq_iff _ _ hl n.isLt _).mp h'))]; rfl

/-! ## A block against the selector: one column gathered, or nothing -/

/-- A real number minus itself is zero on the extended reals. -/
theorem sub_self_of_real {x : EReal} (h : ∃ r : ℝ, x = (r : EReal)) : x - x = 0 := by
  obtain ⟨r, rfl⟩ := h
  rw [← EReal.coe_sub, sub_self, EReal.coe_zero]

/-- The sum over a tile's rows of a row function against the selector's column: the row whose location is the
    sampled position `m`, when `m` lies in tile `l`; else zero. -/
theorem sum_onehot (x : Fin 256 → EReal) (l m : ℕ) :
    (∑ n : Fin 256, x n * (if l * 256 + n.val = m then (1 : EReal) else 0))
      = if h : l * 256 ≤ m ∧ m < (l + 1) * 256 then x ⟨m - l * 256, by omega⟩ else 0 := by
  by_cases h : l * 256 ≤ m ∧ m < (l + 1) * 256
  · rw [dif_pos h]
    rw [Finset.sum_eq_single (⟨m - l * 256, by omega⟩ : Fin 256)]
    · rw [if_pos (by show l * 256 + (m - l * 256) = m; omega), mul_one]
    · intro n _ hn
      rw [if_neg (fun e => hn (Fin.ext (by show n.val = m - l * 256; omega))), mul_zero]
    · intro hmem; exact absurd (Finset.mem_univ _) hmem
  · rw [dif_neg h]
    refine Finset.sum_eq_zero fun n _ => ?_
    rw [if_neg (fun e => h (by have := n.isLt; omega)), mul_zero]

/-- The block with its leading unit axis dropped reads the block at `(0, c, n)`. -/
theorem block_apply (v : Vec Ideal S1x256x256 .f32) (c : Fin 256) (n : Fin 256) :
    (shapeCast S256x256 v shapeCasts_S1x256x256_S256x256 : FVec Ideal S256x256 .f32) (ix2 c n) = v (ix3 0 c n) :=
  shapeCast_1ab_ab_apply v _ c n

/-- THE QUERY SIDE. What the body stores to the first accumulator at tile `l = i 1`: the loaded accumulator plus,
    where the `p`-th sampled position lies in this tile, the block's column at that position. The block's entries
    are real numbers, so its remainder `block − block` is zero. -/
theorem pay15_apply (i : grid3.Coords) (v3 : Vec Ideal S1x64 .i32) (v14 : Vec Ideal S1x256x256 .f32) (v26 : Vec Ideal S256x64 .f32)
    (hreal : ∀ j, ∃ r : ℝ, v14 j = (r : EReal)) (c : Fin 256) (p : Fin 64) :
    k3_pay15 (F := Ideal) i v3 v14 v26 (ix2 c p)
      = v26 (ix2 c p) + (if h : (i 1).val * 256 ≤ (v3 (ix2 0 p)).toNat ∧ (v3 (ix2 0 p)).toNat < ((i 1).val + 1) * 256
          then v14 (ix3 0 c ⟨(v3 (ix2 0 p)).toNat - (i 1).val * 256, by omega⟩) else 0) := by
  unfold k3_pay15
  simp only [shapeCast_self]
  rw [addf_apply, addf_apply, gdot_apply, gdot_apply]
  simp only [truncf_apply, subf_apply, block_apply, onehot_apply]
  have hlo : (∑ n : Fin 256, (v14 (ix3 0 c n) - v14 (ix3 0 c n)) * (if (i 1).val * 256 + n.val = (v3 (ix2 0 p)).toNat then (1 : EReal) else 0)) = 0 :=
    Finset.sum_eq_zero fun n _ => by rw [sub_self_of_real (hreal _), zero_mul]
  rw [hlo, add_zero, sum_onehot (fun n => v14 (ix3 0 c n))]

/-- THE KEY SIDE. What the body stores to the second accumulator: the same, for the key block. -/
theorem pay1_apply (i : grid3.Coords) (v3 : Vec Ideal S1x64 .i32) (v16 : Vec Ideal S1x256x256 .f32) (v34 : Vec Ideal S256x64 .f32)
    (hreal : ∀ j, ∃ r : ℝ, v16 j = (r : EReal)) (c : Fin 256) (p : Fin 64) :
    k3_pay1 (F := Ideal) (k3_pay12 i v3) (k3_pay14 v16) v34 (k3_pay16 i v3 v16) (ix2 c p)
      = v34 (ix2 c p) + (if h : (i 1).val * 256 ≤ (v3 (ix2 0 p)).toNat ∧ (v3 (ix2 0 p)).toNat < ((i 1).val + 1) * 256
          then v16 (ix3 0 c ⟨(v3 (ix2 0 p)).toNat - (i 1).val * 256, by omega⟩) else 0) := by
  unfold k3_pay1 k3_pay16 k3_pay14 k3_pay13
  simp only [shapeCast_self]
  rw [addf_apply, addf_apply, gdot_apply, gdot_apply]
  simp only [truncf_apply, subf_apply, block_apply, onehot_apply]
  have hlo : (∑ n : Fin 256, (v16 (ix3 0 c n) - v16 (ix3 0 c n)) * (if (i 1).val * 256 + n.val = (v3 (ix2 0 p)).toNat then (1 : EReal) else 0)) = 0 :=
    Finset.sum_eq_zero fun n _ => by rw [sub_self_of_real (hreal _), zero_mul]
  rw [hlo, add_zero, sum_onehot (fun n => v16 (ix3 0 c n))]

/-- The reset at the first tile writes zeros to both accumulators. -/
theorem reset_q_apply (j : S256x64.Idx) : (k3_pay10 (F := Ideal)) j = 0 := by
  unfold k3_pay10
  rw [shapeCast_self]
  exact Ideal.ofBits_zero_f32
theorem reset_k_apply (j : S256x64.Idx) : (k3_pay11 (F := Ideal)) j = 0 := by
  unfold k3_pay11
  rw [shapeCast_self]
  exact Ideal.ofBits_zero_f32

/-! ## The loss -/

/-- Square root, exponential and logarithm of a vector, read at an index. -/
theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The sum over the channels of an accumulator-shaped array, at column `p`. -/
theorem chansum_apply (src : FVec Ideal S256x64 .f32) (hφ : FKind.Formats .f32)
    (hacc : (0x00000000#32 : BitVec 32) = 0x00000000#32) (p : Fin 64) :
    multiReduction .add [0] S64 src 0x00000000#32 reduces_S256x64_S64 hφ hacc (ix1 p) = ∑ c : Fin 256, src (ix2 c p) := by
  refine (Ideal.multiReduction_add_single src 0x00000000#32 reduces_S256x64_S64 hφ hacc (ix1 p)).trans ?_
  exact Finset.sum_congr rfl fun c _ => congrArg src (funext fun a => match a with | ⟨0, _⟩ => rfl | ⟨1, _⟩ => rfl)

/-- The sum over the rows of a patches-by-patches array, at column `p`. -/
theorem rowsum_apply (src : FVec Ideal S64x64 .f32) (hφ : FKind.Formats .f32)
    (hacc : (0x00000000#32 : BitVec 32) = 0x00000000#32) (p : Fin 64) :
    multiReduction .add [0] S64 src 0x00000000#32 reduces_S64x64_S64 hφ hacc (ix1 p) = ∑ k : Fin 64, src (ix2 k p) := by
  refine (Ideal.multiReduction_add_single src 0x00000000#32 reduces_S64x64_S64 hφ hacc (ix1 p)).trans ?_
  exact Finset.sum_congr rfl fun c _ => congrArg src (funext fun a => match a with | ⟨0, _⟩ => rfl | ⟨1, _⟩ => rfl)

/-- The word of `−∞`. -/
theorem neg_inf_word : Ideal.ofBits .f32 0xFF800000#32 = ⊥ := by simp [Ideal.ofBits, Ideal.ieee]

/-- A fold of `max` from `−∞` is the supremum. -/
theorem fold_max_bot {ι : Type} (s : Finset ι) (f : ι → EReal) : s.fold max ⊥ f = s.sup f := by
  classical
  induction s using Finset.induction_on with
  | empty => rfl
  | insert a s ha ih => rw [Finset.fold_insert ha, Finset.sup_insert, ih]

/-- The maximum over the rows of a patches-by-patches array, from `−∞`, at column `p`: the column's supremum. -/
theorem rowmax_apply (src : FVec Ideal S64x64 .f32) (hφ : FKind.Formats .f32)
    (hacc : (0xFF800000#32 : BitVec 32) = 0xFF800000#32) (p : Fin 64) :
    multiReduction .maximumf [0] S64 src 0xFF800000#32 reduces_S64x64_S64 hφ hacc (ix1 p)
      = Finset.univ.sup fun k : Fin 64 => src (ix2 k p) := by
  refine (Ideal.multiReduction_maximumf_single src 0xFF800000#32 reduces_S64x64_S64 hφ hacc (ix1 p)).trans ?_
  refine (congrArg (fun b => Finset.fold max b _ _) neg_inf_word).trans ?_
  refine (fold_max_bot _ _).trans ?_
  exact congrArg (Finset.univ.sup) (funext fun k => congrArg src (funext fun a => match a with | ⟨0, _⟩ => rfl | ⟨1, _⟩ => rfl))

/-- The mask constant denotes `−∞`. -/
theorem neg_big : Named.named (F := Ideal) κ "neg_big" (φ := .f32) 0xF149F2CA#32 = (⊥ : EReal) :=
  IdealRules.named_const.ideal_named_scalar _ _ _ _ rfl

/-- A select on "row index = column index", both below 64, is the `if` on the coordinates. -/
theorem select_diag {α : Type} (k p : Fin 64) (a b : α) :
    Scalar.select (IntOp.cmpi .eq (BitVec.ofNat 32 k.val) (BitVec.ofNat 32 p.val)) a b = if k = p then a else b := by
  by_cases h : k = p
  · subst h; rw [if_pos rfl]; unfold IntOp.cmpi; simp [Scalar.select]
  · rw [if_neg h]
    have hne : BitVec.ofNat 32 k.val ≠ BitVec.ofNat 32 p.val := fun e => h (Fin.ext (by
      have := congrArg BitVec.toNat e
      simp only [BitVec.toNat_ofNat] at this
      have := k.isLt; have := p.isLt; omega))
    have hb : (BitVec.ofNat 32 k.val == BitVec.ofNat 32 p.val) = false := beq_eq_false_iff_ne.mpr hne
    show Scalar.select (BitVec.ofBool (BitVec.ofNat 32 k.val == BitVec.ofNat 32 p.val)) a b = b
    rw [hb]; exact select_zero a b

variable (qa ka : Vec Ideal S256x64 .f32)

/-- A column scaled to unit length (the query's accumulator). -/
theorem unitq_apply (v : Vec Ideal S256x64 .f32) (c : Fin 256) (p : Fin 64) :
    k3_pay3 (F := Ideal) v (ix2 c p) = Spec.unit (fun c' => v (ix2 c' p)) c := by
  unfold k3_pay3
  rw [divf_apply, broadcastTo_1b_ab_apply, maximumf_apply, broadcast_apply, sqrt_apply, shapeCast_a_1a_apply, chansum_apply]
  rfl

/-- A column scaled to unit length (the key's accumulator). -/
theorem unitk_apply (v : Vec Ideal S256x64 .f32) (c : Fin 256) (p : Fin 64) :
    k3_pay4 (F := Ideal) v (ix2 c p) = Spec.unit (fun c' => v (ix2 c' p)) c := by
  unfold k3_pay4
  rw [divf_apply, broadcastTo_1b_ab_apply, maximumf_apply, broadcast_apply, sqrt_apply, shapeCast_a_1a_apply, chansum_apply]
  rfl

/-- The positive logit. -/
theorem pos_apply (p : Fin 64) :
    k3_pay5 (F := Ideal) qa ka (ix2 0 p) = Spec.pos (fun p c => qa (ix2 c p)) (fun p c => ka (ix2 c p)) p := by
  unfold k3_pay5
  rw [divf_apply, broadcast_apply, shapeCast_a_1a_apply, chansum_apply]
  simp only [mulf_apply, unitq_apply, unitk_apply]
  rfl

/-- The negative logits, `−∞` on the diagonal. -/
theorem neg_apply (k p : Fin 64) :
    k3_pay6 (F := Ideal) qa ka (ix2 k p) = Spec.neg (fun p c => qa (ix2 c p)) (fun p c => ka (ix2 c p)) p k := by
  unfold k3_pay6
  rw [select_apply]
  show Scalar.select (IntOp.cmpi .eq (iota .tc S64x64 32 [0] iota_S64x64_d0_w32 (ix2 k p)) (iota .tc S64x64 32 [1] iota_S64x64_d1_w32 (ix2 k p))) _ _ = _
  rw [iota_single_apply, iota_single_apply, broadcast_apply, divf_apply, broadcast_apply, ndot_apply]
  show Scalar.select (IntOp.cmpi .eq (BitVec.ofNat 32 k.val) (BitVec.ofNat 32 p.val)) _ _ = _
  rw [select_diag, neg_big]
  have ht : ∀ c : Fin 256, transpose S64x256 [1, 0] (k3_pay4 (F := Ideal) ka) transposes_S256x64_p1_0_S64x256 (ix2 k c) = k3_pay4 (F := Ideal) ka (ix2 c k) :=
    fun c => transpose_ix2_apply _ _ k c
  simp only [ht, unitq_apply, unitk_apply]
  rfl

/-- The largest logit. -/
theorem top_apply (p : Fin 64) :
    k3_pay7 (F := Ideal) qa ka (ix2 0 p) = Spec.top (fun p c => qa (ix2 c p)) (fun p c => ka (ix2 c p)) p := by
  unfold k3_pay7
  rw [maximumf_apply, shapeCast_a_1a_apply, rowmax_apply, pos_apply]
  simp only [neg_apply]
  rfl

/-- THE LOSS. What the body stores to the output block at the last tile, from the two accumulators as loaded: the
    cross-entropy of the positive slot among patch `p`'s logits. -/
theorem loss_apply (p : Fin 64) :
    k3_pay2 (F := Ideal) (k3_pay8 qa ka) (k3_pay9 qa ka) (ix3 0 0 p)
      = Spec.loss (fun p c => qa (ix2 c p)) (fun p c => ka (ix2 c p)) p := by
  unfold k3_pay2
  rw [shapeCast_ab_1ab_apply, subf_apply]
  unfold k3_pay8 k3_pay9
  rw [log_apply, addf_apply, exp_apply, subf_apply, shapeCast_a_1a_apply, rowsum_apply]
  simp only [exp_apply, subf_apply, broadcastTo_1b_ab_apply, pos_apply, neg_apply, top_apply]
  rfl

end R3

end Cert.KernelIdeal.Pay

end
-- ==== Proof.KI.Value3.lean ====
/-
  The fourth layer's kernel call: the value of its output array after the call.

  The grid is 4 × 1: point `t` is batch entry `t`, its one tile the whole row of 256 locations. At every point the
  body zeroes both accumulators, adds to each the one-hot gather of the point's block, and stores the loss of the
  two accumulators' columns to the output block, which is written back to row `t` of the output array. With the
  sampled positions below the row's length, column `p` of an accumulator is the block's column at position
  `sel p`, so the stored value at patch `p` is the specification's loss of the gathered columns; the q and k blocks
  of point `t` are rows `t` of their arrays and the index block is the whole index array; the four output blocks
  tile the output array. So the array ends, at batch entry `b` and patch `p`, at the layer's loss there.
-/
import proofs.«430285_j43310450213294_2_alg».proof.Proof.KI.Region3Pay
import proofs.«430285_j43310450213294_2_alg».proof.Proof.KI.Pay3
import proofs.«430285_j43310450213294_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

/-! ## One point's arithmetic -/

/-- The gathered entry: with the tile's first location at zero and the index word that of a position below the
    tile's length, the guarded read is the read at that position. -/
theorem gather_at3 (l : ℕ) (hl : l = 0) (w : BitVec 32) (s : Fin 256) (hw : w = BitVec.ofNat 32 s.val) (f : Fin 256 → EReal) :
    (if h : l * 256 ≤ w.toNat ∧ w.toNat < (l + 1) * 256 then f ⟨w.toNat - l * 256, by omega⟩ else 0) = f s := by
  subst hl hw
  have hs : s.val < 256 := s.isLt
  have e : (BitVec.ofNat 32 s.val).toNat = s.val := by rw [BitVec.toNat_ofNat]; omega
  rw [dif_pos ⟨by omega, by omega⟩]
  exact congrArg f (Fin.ext (by show (BitVec.ofNat 32 s.val).toNat - 0 * 256 = s.val; omega))

/-- What one point stores to its output block, at patch `p`: the loss of the columns of its q block and of its k
    block at the sampled positions. Both accumulators start the point at zero, the tile coordinate is zero and every
    sampled position lies in the one tile, so each accumulator's column `p` is the block's column at `sel p`. -/
theorem point_loss3 (i : grid3.Coords) (hi : (i 1).val = 0)
    (x0 x1 : Vec Ideal S1x256x256 .f32) (x2 : Vec Ideal S1x64 .i32)
    (h0 : ∀ j, ∃ r : ℝ, x0 j = (r : EReal)) (h1 : ∀ j, ∃ r : ℝ, x1 j = (r : EReal))
    (sel : Fin 64 → Fin 256) (h2 : ∀ p : Fin 64, x2 (ix2 0 p) = BitVec.ofNat 32 (sel p).val) (p : Fin 64) :
    k3_pay2 (F := Ideal) (k3_pay8 (k3_pay15 i x2 x0 (k3_pay10 (F := Ideal))) (k3_pay1 (k3_pay12 i x2) (k3_pay14 x1) (k3_pay11 (F := Ideal)) (k3_pay16 i x2 x1)))
        (k3_pay9 (k3_pay15 i x2 x0 (k3_pay10 (F := Ideal))) (k3_pay1 (k3_pay12 i x2) (k3_pay14 x1) (k3_pay11 (F := Ideal)) (k3_pay16 i x2 x1))) (ix3 0 0 p)
      = Spec.loss (fun p c => x0 (ix3 0 c (sel p))) (fun p c => x1 (ix3 0 c (sel p))) p := by
  refine (Pay.R3.loss_apply _ _ p).trans ?_
  have eq : (fun (p : Fin 64) (c : Fin 256) => k3_pay15 (F := Ideal) i x2 x0 (k3_pay10 (F := Ideal)) (ix2 c p)) = fun p c => x0 (ix3 0 c (sel p)) := by
    funext p c
    refine (Pay.R3.pay15_apply i x2 x0 _ h0 c p).trans ?_
    rw [Pay.R3.reset_q_apply, zero_add]
    exact gather_at3 (i 1).val hi (x2 (ix2 0 p)) (sel p) (h2 p) (fun n => x0 (ix3 0 c n))
  have ek : (fun (p : Fin 64) (c : Fin 256) => k3_pay1 (F := Ideal) (k3_pay12 i x2) (k3_pay14 x1) (k3_pay11 (F := Ideal)) (k3_pay16 i x2 x1) (ix2 c p)) = fun p c => x1 (ix3 0 c (sel p)) := by
    funext p c
    refine (Pay.R3.pay1_apply i x2 x1 _ h1 c p).trans ?_
    rw [Pay.R3.reset_k_apply, zero_add]
    exact gather_at3 (i 1).val hi (x2 (ix2 0 p)) (sel p) (h2 p) (fun n => x1 (ix3 0 c n))
  rw [eq, ek]

/-! ## From the blocks to the array -/

section Region
variable (V : (c : Dev nD) → (b : Ref sig .tc) → Buf (Elt Ideal) ((c : Thread nD τ).loc b))

/-- The call has four points. -/
theorem N3_eq : cfg3.N = 4 := by decide

/-- The printed index maps, decided once over the grid: point `t` is batch entry `t`; the q, k and output blocks sit
    at row `t` of their arrays and at the origin of the other axes, the index block at the origin; the tile
    coordinate is zero. -/
theorem idx_facts3 : ∀ t : Fin cfg3.N, win3_0.index t (0 : Fin 3) = t.val ∧ win3_0.index t (1 : Fin 3) = 0 ∧ win3_0.index t (2 : Fin 3) = 0
    ∧ win3_1.index t (0 : Fin 3) = t.val ∧ win3_1.index t (1 : Fin 3) = 0 ∧ win3_1.index t (2 : Fin 3) = 0
    ∧ win3_2.index t (0 : Fin 2) = 0 ∧ win3_2.index t (1 : Fin 2) = 0
    ∧ win3_3.index t (0 : Fin 3) = t.val ∧ win3_3.index t (1 : Fin 3) = 0 ∧ win3_3.index t (2 : Fin 3) = 0
    ∧ ((grid3.coords t) 1).val = 0 :=
  (by decide +kernel : ∀ t : Fin grid3.N, _)

/-- The q block of point `t` is row `t` of the q array: a block's coordinate is its index times its size plus
    the coordinate inside it. -/
theorem qblk3_apply (c : Dev nD) (t : Fin cfg3.N) (x : S1x256x256.Idx) (k : S4x256x256.Idx)
    (hk0 : (k 0).val = t.val) (hk1 : (k 1).val = (x 1).val) (hk2 : (k 2).val = (x 2).val) :
    (iblk3 V c 0 t : Vec Ideal S1x256x256 .f32) x = (V c main_v21 : S4x256x256.Idx → EReal) k := by
  obtain ⟨e0, e1, e2, -⟩ := idx_facts3 t
  have hx0 : (x 0).val < 1 := (x 0).isLt
  unfold iblk3
  rw [View.read_apply]
  show V c main_v21 _ = V c main_v21 _
  congr 1
  funext a
  apply Fin.ext
  match a with
  | ⟨0, _⟩ => show win3_0.index t 0 * 1 + 1 * (x 0).val = (k 0).val; rw [e0, hk0]; omega
  | ⟨1, _⟩ => show win3_0.index t 1 * 256 + 1 * (x 1).val = (k 1).val; rw [e1, hk1]; omega
  | ⟨2, _⟩ => show win3_0.index t 2 * 256 + 1 * (x 2).val = (k 2).val; rw [e2, hk2]; omega

/-- The k block of point `t` is row `t` of the k array. -/
theorem kblk3_apply (c : Dev nD) (t : Fin cfg3.N) (x : S1x256x256.Idx) (k : S4x256x256.Idx)
    (hk0 : (k 0).val = t.val) (hk1 : (k 1).val = (x 1).val) (hk2 : (k 2).val = (x 2).val) :
    (iblk3 V c 1 t : Vec Ideal S1x256x256 .f32) x = (V c main_v22 : S4x256x256.Idx → EReal) k := by
  obtain ⟨-, -, -, e0, e1, e2, -⟩ := idx_facts3 t
  have hx0 : (x 0).val < 1 := (x 0).isLt
  unfold iblk3
  rw [View.read_apply]
  show V c main_v22 _ = V c main_v22 _
  congr 1
  funext a
  apply Fin.ext
  match a with
  | ⟨0, _⟩ => show win3_1.index t 0 * 1 + 1 * (x 0).val = (k 0).val; rw [e0, hk0]; omega
  | ⟨1, _⟩ => show win3_1.index t 1 * 256 + 1 * (x 1).val = (k 1).val; rw [e1, hk1]; omega
  | ⟨2, _⟩ => show win3_1.index t 2 * 256 + 1 * (x 2).val = (k 2).val; rw [e2, hk2]; omega

/-- The index block of every point is the whole index array. -/
theorem idblk3_apply (c : Dev nD) (t : Fin cfg3.N) (x : S1x64.Idx) :
    (iblk3 V c 2 t : Vec Ideal S1x64 .i32) x = (V c main_v23 : S1x64.Idx → BitVec 32) x := by
  obtain ⟨-, -, -, -, -, -, e0, e1, -⟩ := idx_facts3 t
  unfold iblk3
  rw [View.read_apply]
  show V c main_v23 _ = V c main_v23 _
  congr 1
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- A block of an array of real numbers holds real numbers. -/
theorem qblk3_real (c : Dev nD) (t : Fin cfg3.N) (hq : ∀ i, ∃ r : ℝ, V c main_v21 i = (r : EReal)) (j : S1x256x256.Idx) :
    ∃ r : ℝ, (iblk3 V c 0 t : Vec Ideal S1x256x256 .f32) j = (r : EReal) := by
  unfold iblk3; rw [View.read_apply]; exact hq _
theorem kblk3_real (c : Dev nD) (t : Fin cfg3.N) (hk : ∀ i, ∃ r : ℝ, V c main_v22 i = (r : EReal)) (j : S1x256x256.Idx) :
    ∃ r : ℝ, (iblk3 V c 1 t : Vec Ideal S1x256x256 .f32) j = (r : EReal) := by
  unfold iblk3; rw [View.read_apply]; exact hk _

/-- The array the call leaves: at batch entry `b` and patch `p` the layer's loss. -/
def G3 (c : Dev nD) (sel : Fin 64 → Fin 256) : Vec Ideal S4x1x64 .f32 :=
  fun i => Spec.layerOf (C := 256) (V c main_v21) (V c main_v22) sel (i 0) (i 2)

/-- Contents of the output block that are, patch by patch, the layer's loss at batch entry `t` are block `t` of
    that array: the block sits at row `t`, and its two leading axes have one coordinate each. -/
theorem out_blk3 (c : Dev nD) (sel : Fin 64 → Fin 256) (t : Fin cfg3.N) (X : Vec Ideal S1x1x64 .f32)
    (hX : ∀ (b : Fin 4) (p : Fin 64), b.val = t.val → X (ix3 0 0 p) = Spec.layerOf (C := 256) (V c main_v21) (V c main_v22) sel b p) :
    (cfg3.win 3).cut (grid3.coords t) X = ((cfg3.win 3).blk t).view.read (Elt Ideal) (G3 V c sel) := by
  obtain ⟨-, -, -, -, -, -, -, -, e0, e1, e2, -⟩ := idx_facts3 t
  funext j
  rw [View.read_apply]
  have hj0 : (j 0).val < 1 := (j 0).isLt
  have hj1 : (j 1).val < 1 := (j 1).isLt
  have hb : ((((cfg3.win 3).blk t).view.emb j) 0).val = t.val := by
    show win3_3.index t 0 * 1 + 1 * (j 0).val = t.val; rw [e0]; omega
  have hp : ((((cfg3.win 3).blk t).view.emb j) 2).val = (j 2).val := by
    show win3_3.index t 2 * 64 + 1 * (j 2).val = (j 2).val; rw [e2]; omega
  have ex : (cfg3.win 3).xinj (grid3.coords t) j = ix3 0 0 ((((cfg3.win 3).blk t).view.emb j) 2) := by
    funext a
    apply Fin.ext
    match a with
    | ⟨0, _⟩ => show (j 0).val = 0; omega
    | ⟨1, _⟩ => show (j 1).val = 0; omega
    | ⟨2, _⟩ => show (j 2).val = ((((cfg3.win 3).blk t).view.emb j) 2).val; exact hp.symm
  exact (congrArg X ex).trans (hX ((((cfg3.win 3).blk t).view.emb j) 0) ((((cfg3.win 3).blk t).view.emb j) 2) hb)

/-- What point `t` writes back is block `t` of that array. -/
theorem flushed3_eq (c : Dev nD)
    (hq : ∀ i, ∃ r : ℝ, V c main_v21 i = (r : EReal)) (hk : ∀ i, ∃ r : ℝ, V c main_v22 i = (r : EReal))
    (sel : Fin 64 → Fin 256) (hsel : ∀ p : Fin 64, V c main_v23 (ix2 0 p) = BitVec.ofNat 32 (sel p).val) (t : Fin cfg3.N) :
    (dat3 (F := Ideal) V c).flushed 3 t = ((cfg3.win 3).blk t).view.read (Elt Ideal) (G3 V c sel) := by
  show (cfg3.win 3).cut (grid3.coords t) ((dat3 (F := Ideal) V c).after 3 t) = _
  rw [after3_3, outsAt3_A V c t]
  dsimp only
  rw [out3_A_3_eq c (grid3.coords t) (ms3_0 t) (hs3_0 t) (ms3_1 t) (hs3_1 t) (ms3_2 t) (hs3_2 t) (ms3_3 t) (hs3_3 t) scM3_0 (Memref.isWhole_whole _) scM3_1 (Memref.isWhole_whole _) (hcond3_0 t) (hcond3_1 t) (iblk3 V c 0 t) (iblk3 V c 1 t) (iblk3 V c 2 t)]
  refine out_blk3 V c sel t _ fun b p hb => ?_
  refine (point_loss3 (grid3.coords t) (idx_facts3 t).2.2.2.2.2.2.2.2.2.2.2 (iblk3 V c 0 t) (iblk3 V c 1 t) (iblk3 V c 2 t)
    (qblk3_real V c t hq) (kblk3_real V c t hk) sel (fun p' => (idblk3_apply V c t (ix2 0 p')).trans (hsel p')) p).trans ?_
  show Spec.loss _ _ p = Spec.loss (fun p c' => V c main_v21 (ix3 b c' (sel p))) (fun p c' => V c main_v22 (ix3 b c' (sel p))) p
  have eq : (fun (p : Fin 64) (c' : Fin 256) => (iblk3 V c 0 t : Vec Ideal S1x256x256 .f32) (ix3 0 c' (sel p))) = fun p c' => V c main_v21 (ix3 b c' (sel p)) :=
    funext fun p => funext fun c' => qblk3_apply V c t (ix3 0 c' (sel p)) (ix3 b c' (sel p)) hb rfl rfl
  have ek : (fun (p : Fin 64) (c' : Fin 256) => (iblk3 V c 1 t : Vec Ideal S1x256x256 .f32) (ix3 0 c' (sel p))) = fun p c' => V c main_v22 (ix3 b c' (sel p)) :=
    funext fun p => funext fun c' => kblk3_apply V c t (ix3 0 c' (sel p)) (ix3 b c' (sel p)) hb rfl rfl
  rw [eq, ek]

/-- Every entry of the output array is in the block of the point of its batch entry. -/
theorem cover3 (i : S4x1x64.Idx) : ∃ t : Fin cfg3.N, (cfg3.win 3).flush t = true ∧ i ∈ ((cfg3.win 3).blk t).view.set := by
  have hi0 : (i 0).val < 4 := (i 0).isLt
  have hi1 : (i 1).val < 1 := (i 1).isLt
  have hi2 : (i 2).val < 64 := (i 2).isLt
  obtain ⟨t, ht⟩ : ∃ t : Fin cfg3.N, t.val = (i 0).val := ⟨⟨(i 0).val, by rw [N3_eq]; exact hi0⟩, rfl⟩
  refine ⟨t, flush3_3 t, ?_⟩
  obtain ⟨-, -, -, -, -, -, -, -, e0, e1, e2, -⟩ := idx_facts3 t
  show i ∈ ((View.whole main_v24).slice (win3_3.rect t)).set
  rw [View.set_slice_whole, Rect.mem_set_unit]
  intro a
  match a with
  | ⟨0, _⟩ => show win3_3.index t 0 * 1 ≤ (i 0).val ∧ (i 0).val < win3_3.index t 0 * 1 + 1; rw [e0]; omega
  | ⟨1, _⟩ => show win3_3.index t 1 * 1 ≤ (i 1).val ∧ (i 1).val < win3_3.index t 1 * 1 + 1; rw [e1]; omega
  | ⟨2, _⟩ => show win3_3.index t 2 * 64 ≤ (i 2).val ∧ (i 2).val < win3_3.index t 2 * 64 + 64; rw [e2]; omega

/-- THE VALUE of the call's output array: at batch entry `b` and patch `p`, the layer's loss of the q and k arrays at
    the sampled positions. -/
theorem value3 (c : Dev nD)
    (hq : ∀ i, ∃ r : ℝ, V c main_v21 i = (r : EReal)) (hk : ∀ i, ∃ r : ℝ, V c main_v22 i = (r : EReal))
    (sel : Fin 64 → Fin 256) (hsel : ∀ p : Fin 64, V c main_v23 (ValueIdx.ix2 0 p) = BitVec.ofNat 32 (sel p).val) (b : Fin 4) (p : Fin 64) :
    (dat3 (F := Ideal) V c).arrAt 3 cfg3.N (ValueIdx.ix3 b 0 p) = Cert.Spec.layerOf (C := 256) (V c main_v21) (V c main_v22) sel b p :=
  congrFun ((dat3 (F := Ideal) V c).arrAt_eq_of_cover 3 (G3 V c sel) (fun t _ => flushed3_eq V c hq hk sel hsel t) (cover3)) (ix3 b 0 p)

end Region

end Cert.KernelIdeal.Hand

end
-- ==== Proof.KI.Mean3.lean ====
/-
  Layer 3 of the kernel's result: after pallas_call 3 its output array holds, at (b, 0, p), the layer's loss of batch
  entry b at patch p, of the reshaped query and key arrays the host stretch before the call wrote, at the positions
  the index array names; so the mean the next host stretch takes over that array is the specification's mean.
-/
import proofs.«430285_j43310450213294_2_alg».proof.Proof.KI.Halves
import proofs.«430285_j43310450213294_2_alg».proof.Proof.KI.Host
import proofs.«430285_j43310450213294_2_alg».proof.Proof.KI.Value3
import proofs.«430285_j43310450213294_2_alg».proof.Proof.Glue

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable (m : (ℓ : Loc nD τ sig) → Buf (Elt Ideal) ℓ)

/-- After the call its output array holds what its pipeline's write-backs leave. -/
theorem outs_8 (c : Dev nD) :
    outsAll m 8 main_v24 c = (dat3 (F := Ideal) (fun c b => V7 m (outsAll m) c b) c).arrAt 3 cfg3.N := by
  show W8 m half0 half1 half2 half3 c (Proc.devRef .tc main_v24) = _
  unfold W8
  exact Pipeline.withArrays_arr spec3 launch3.win.arr_inj c _ _ 3

/-- The mean over the call's output array is the specification's mean of the layer. -/
theorem mean_3 (c : Dev nD)
    (hq : ∀ i, ∃ r : ℝ, (m ((c : Thread nD τ).loc main_arg3)) i = (r : EReal)) (hk : ∀ i, ∃ r : ℝ, (m ((c : Thread nD τ).loc main_arg8)) i = (r : EReal))
    (sel : Fin 64 → Fin 256) (hsel : ∀ p : Fin 64, (m ((c : Thread nD τ).loc main_arg13)) (ix1 p) = BitVec.ofNat 32 (sel p).val) :
    μ (outsAll m 8 main_v24 c) = Cert.Spec.mean (Cert.Spec.layerOf (C := 256) (shapeCast _ (m ((c : Thread nD τ).loc main_arg3)) Gen.shapeCasts_S4x256x4x8x8_S4x256x256) (shapeCast _ (m ((c : Thread nD τ).loc main_arg8)) Gen.shapeCasts_S4x256x4x8x8_S4x256x256) sel) := by
  refine congrArg Cert.Spec.mean (funext fun b => funext fun p => ?_)
  rw [outs_8 m c]
  rw [value3 (fun c b => V7 m (outsAll m) c b) c
    (by intro i; show ∃ r : ℝ, V7 m (outsAll m) c main_v21 i = _; rw [V7_main_v21 m (outsAll m) c]; exact Cert.Glue.shapeCast_real _ hq _ i)
    (by intro i; show ∃ r : ℝ, V7 m (outsAll m) c main_v22 i = _; rw [V7_main_v22 m (outsAll m) c]; exact Cert.Glue.shapeCast_real _ hk _ i)
    sel
    (by intro p; show V7 m (outsAll m) c main_v23 (ix2 0 p) = _; rw [V7_main_v23 m (outsAll m) c, Cert.Glue.shapeCast_row_apply]; exact hsel p)
    b p]
  show Cert.Spec.layerOf (C := 256) (V7 m (outsAll m) c main_v21) (V7 m (outsAll m) c main_v22) sel b p = _
  rw [V7_main_v21 m (outsAll m) c, V7_main_v22 m (outsAll m) c]

end Cert.KernelIdeal.Hand

end
-- ==== Proof.KI.Region4Pay.lean ====
/-
  The fifth layer's kernel call, value side: what the body's stores leave in the output block and in the two
  accumulators, named as the payloads of the point's three input blocks.
-/
import proofs.«430285_j43310450213294_2_alg».proof.Proof.KI.Region4
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The stored values, as the payloads of the input blocks

Each buffer the body writes ends with ONE store through the whole-buffer rectangle last, so it holds that
store's value; a load of an accumulator after such a store reads the stored value back; a load of an input
reads its block. -/

/-- The zero offsets of a rank-2 and of a rank-3 whole-buffer rectangle, as constant functions. -/
theorem hzA4 : (![0, 0] : Fin 2 → Nat) = fun _ => 0 := funext fun a => by fin_cases a <;> rfl
theorem hzB4 : (![0, 0, 0] : Fin 3 → Nat) = fun _ => 0 := funext fun a => by fin_cases a <;> rfl

/-- A load through the whole-buffer rectangle, after stores the last of which went through that rectangle,
    reads that last store's value, whatever the earlier stores were. -/
theorem readCovLast4 {Val : EltTy → Type} [∀ e, Nonempty (Val e)] {S : Shape} {e : EltTy}
    {sig' : RefSig} {κ : Kind} {sp : Space} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon', View.canon_cons_unit_zero h inb w L]
  exact View.ld_unit_zero h inb w

/-- The q accumulator ends at the gathered q columns added to the zero fill. -/
theorem sout4_A_0_eq (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) :
    sout4_A_0 c i arg2 harg2 arg3 harg3 arg4 harg4 arg5 harg5 arg6 harg6 arg7 harg7 hc0 hc1 x0 x1 x2 = k4_pay15 i x2 x0 (k4_pay10 (F := F)) := by
  unfold sout4_A_0
  rw [View.read_writes_eq_canon _ _ _ (scover4_A_0 c i arg2 harg2 arg3 harg3 arg4 harg4 arg5 harg5 arg6 harg6 arg7 harg7 hc0 hc1 x0 x1 x2)]
  unfold kernelRun4_A
  dsimp only
  sl_unfold_words
  rw [View.canon_cons_unit_zero (S := S256x64) hzA4, View.readCov_unit_zero (S := S256x64) _ hzA4]
  simp only [View.readAt_eq_ld, harg2.read_unread, harg4.read_unread, View.ld_unit_zero (S := S1x256x256) hzB4, View.ld_unit_zero (S := S1x64) hzA4]

/-- The k accumulator ends at the gathered k columns added to the zero fill. -/
theorem sout4_A_1_eq (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) :
    sout4_A_1 c i arg2 harg2 arg3 harg3 arg4 harg4 arg5 harg5 arg6 harg6 arg7 harg7 hc0 hc1 x0 x1 x2 = k4_pay1 (k4_pay12 i x2) (k4_pay14 x1) (k4_pay11 (F := F)) (k4_pay16 i x2 x1) := by
  unfold sout4_A_1
  rw [View.read_writes_eq_canon _ _ _ (scover4_A_1 c i arg2 harg2 arg3 harg3 arg4 harg4 arg5 harg5 arg6 harg6 arg7 harg7 hc0 hc1 x0 x1 x2)]
  unfold kernelRun4_A
  dsimp only
  sl_unfold_words
  rw [View.canon_cons_unit_zero (S := S256x64) hzA4, View.readCov_unit_zero (S := S256x64) _ hzA4]
  simp only [View.readAt_eq_ld, harg3.read_unread, harg4.read_unread, View.ld_unit_zero (S := S1x256x256) hzB4, View.ld_unit_zero (S := S1x64) hzA4]

/-- The output block ends at the loss of the two accumulators' final contents. -/
theorem out4_A_3_eq (c : Dev nD) (i : grid4.Coords) (arg2 : Memref sig .tc .vmem S1x256x256 .f32) (harg2 : arg2.IsWhole) (arg3 : Memref sig .tc .vmem S1x256x256 .f32) (harg3 : arg3.IsWhole) (arg4 : Memref sig .tc .vmem S1x64 .i32) (harg4 : arg4.IsWhole) (arg5 : Memref sig .tc .vmem S1x1x64 .f32) (harg5 : arg5.IsWhole) (arg6 : Memref sig .tc .vmem S256x64 .f32) (harg6 : arg6.IsWhole) (arg7 : Memref sig .tc .vmem S256x64 .f32) (harg7 : arg7.IsWhole) (hc0 : cond4_0 i) (hc1 : cond4_1 i)
    (x0 : Vec F S1x256x256 .f32) (x1 : Vec F S1x256x256 .f32) (x2 : Vec F S1x64 .i32) :
    out4_A_3 c i arg2 harg2 arg3 harg3 arg4 harg4 arg5 harg5 arg6 harg6 arg7 harg7 hc0 hc1 x0 x1 x2
      = k4_pay2 (k4_pay8 (k4_pay15 i x2 x0 (k4_pay10 (F := F))) (k4_pay1 (k4_pay12 i x2) (k4_pay14 x1) (k4_pay11 (F := F)) (k4_pay16 i x2 x1)))
          (k4_pay9 (k4_pay15 i x2 x0 (k4_pay10 (F := F))) (k4_pay1 (k4_pay12 i x2) (k4_pay14 x1) (k4_pay11 (F := F)) (k4_pay16 i x2 x1))) := by
  unfold out4_A_3
  rw [View.read_writes_eq_canon _ _ _ (cover4_A_3 c i arg2 harg2 arg3 harg3 arg4 harg4 arg5 harg5 arg6 harg6 arg7 harg7 hc0 hc1 x0 x1 x2)]
  unfold kernelRun4_A
  dsimp only
  sl_unfold_words
  rw [View.canon_unit_zero (S := S1x1x64) hzB4]
  simp only [readCovLast4 (S := S256x64) _ hzA4, View.readCov_unit_zero (S := S256x64) _ hzA4, View.readAt_eq_ld, harg2.read_unread, harg3.read_unread, harg4.read_unread, View.ld_unit_zero (S := S1x256x256) hzB4, View.ld_unit_zero (S := S1x64) hzA4]

end Cert.KernelIdeal.Hand

end
-- ==== Proof.KI.Pay4.lean ====
/-
  The arithmetic of one layer's kernel body at the ideal values, read at an index.

  The body keeps two accumulators of one column per sampled position. At each tile it builds a selector
  (row `n`, column `p`: is the tile's `n`-th location the `p`-th sampled position?), splits the query block and the key
  block into a leading part and a remainder, multiplies each part with the selector and adds the products to the
  accumulators. At the ideal values a change of format is the identity, so the leading part is the block itself and
  the remainder is `block − block`, which is zero where the block's entries are real numbers; and a sum of a row
  function against a selector column has at most one nonzero term. So a tile adds to column `p` of an accumulator the
  block's column at the sampled position, when that position lies in the tile, and nothing otherwise
  (`pay15_apply`, `pay1_apply`). At the last tile the body computes the loss from the two accumulators: each column is
  scaled to unit length, the logits are inner products over the temperature with `−∞` on the diagonal of the negative
  ones, and the cross-entropy of the positive slot is taken with the largest logit subtracted. The specification's
  `loss` is written in the same order of operations, so the body's value at patch `p` is `loss` of the two
  accumulators' columns (`loss_apply`) with no condition on the accumulators.
-/
import proofs.«430285_j43310450213294_2_alg».proof.Proof.Gen.KernelIdeal.Skeleton
import proofs.«430285_j43310450213294_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

namespace R4

/-! ## The two contractions read at an index -/

theorem gdot_lhs_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem gdot_lhs_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
theorem gdot_rhs_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
theorem gdot_rhs_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- A block (channels by tile rows) times a selector (tile rows by patches), accumulated into zeros, at channel `c`
    and patch `p`: the sum over the tile's rows. -/
theorem gdot_apply {φ₁ φ₂ : FTy} (lhs : FVec Ideal S256x256 φ₁) (rhs : FVec Ideal S256x64 φ₂) (c : Fin 256) (p : Fin 64) :
    matmul dot_S256x256_S256x64_S256x64_1_0_0_1_n_n none lhs rhs (constant (F := Ideal) S256x64 .f32 0x00000000#32) (ix2 c p)
      = ∑ n : Fin 256, lhs (ix2 c n) * rhs (ix2 n p) := by
  simp only [matmul]
  rw [Ideal.matmul_constant_zero_apply, ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 c p) ((contrEquiv1 dot_S256x256_S256x64_S256x64_1_0_0_1_n_n 256 rfl rfl).symm k) = ix2 c k := funext fun a => Fin.ext (by
    match a with
    | ⟨0, _⟩ => exact gdot_lhs_0 _ _
    | ⟨1, _⟩ => exact (gdot_lhs_1 _ _).trans hk)
  have er : dot_S256x256_S256x64_S256x64_1_0_0_1_n_n.rhsIdx (ix2 c p) ((contrEquiv1 dot_S256x256_S256x64_S256x64_1_0_0_1_n_n 256 rfl rfl).symm k) = ix2 k p := funext fun a => Fin.ext (by
    match a with
    | ⟨0, _⟩ => exact (gdot_rhs_0 _ _).trans hk
    | ⟨1, _⟩ => exact gdot_rhs_1 _ _)
  rw [el, er]

theorem ndot_lhs_0 (i : S64x64.Idx) (q : dot_S64x256_S256x64_S64x64_1_0_0_1_n_n.contr.Idx) :
    (dot_S64x256_S256x64_S64x64_1_0_0_1_n_n.lhsIdx i q 0).val = (i 0).val := by
  unfold DotDims.lhsIdx
  rw [dif_neg (show ¬(0 : Fin S64x256.rank) ∈ dot_S64x256_S256x64_S64x64_1_0_0_1_n_n.lhsBatch by decide), dif_pos (show (0 : Fin S64x256.rank) ∈ dot_S64x256_S256x64_S64x64_1_0_0_1_n_n.lhsNonContracting by decide)]
  rfl
theorem ndot_lhs_1 (i : S64x64.Idx) (q : dot_S64x256_S256x64_S64x64_1_0_0_1_n_n.contr.Idx) :
    (dot_S64x256_S256x64_S64x64_1_0_0_1_n_n.lhsIdx i q 1).val = (q ⟨0, by decide⟩).val :=
  dot_S64x256_S256x64_S64x64_1_0_0_1_n_n.lhsIdx_val_of_single rfl i q
theorem ndot_rhs_0 (i : S64x64.Idx) (q : dot_S64x256_S256x64_S64x64_1_0_0_1_n_n.contr.Idx) :
    (dot_S64x256_S256x64_S64x64_1_0_0_1_n_n.rhsIdx i q 0).val = (q ⟨0, by decide⟩).val :=
  dot_S64x256_S256x64_S64x64_1_0_0_1_n_n.rhsIdx_val_of_single rfl i q
theorem ndot_rhs_1 (i : S64x64.Idx) (q : dot_S64x256_S256x64_S64x64_1_0_0_1_n_n.contr.Idx) :
    (dot_S64x256_S256x64_S64x64_1_0_0_1_n_n.rhsIdx i q 1).val = (i 1).val := by
  unfold DotDims.rhsIdx
  rw [dif_neg (show ¬(1 : Fin S256x64.rank) ∈ dot_S64x256_S256x64_S64x64_1_0_0_1_n_n.rhsBatch by decide), dif_pos (show (1 : Fin S256x64.rank) ∈ dot_S64x256_S256x64_S64x64_1_0_0_1_n_n.rhsNonContracting by decide)]
  rfl

/-- Patches by channels times channels by patches, accumulated into zeros, at `(k, p)`: the sum over the channels. -/
theorem ndot_apply {φ₁ φ₂ : FTy} (prec : Option ContractPrecision) (lhs : FVec Ideal S64x256 φ₁) (rhs : FVec Ideal S256x64 φ₂) (k p : Fin 64) :
    matmul dot_S64x256_S256x64_S64x64_1_0_0_1_n_n prec lhs rhs (constant (F := Ideal) S64x64 .f32 0x00000000#32) (ix2 k p)
      = ∑ c : Fin 256, lhs (ix2 k c) * rhs (ix2 c p) := by
  simp only [matmul]
  rw [Ideal.matmul_constant_zero_apply, ← Equiv.sum_comp (contrEquiv1 dot_S64x256_S256x64_S64x64_1_0_0_1_n_n 256 rfl rfl).symm]
  refine Finset.sum_congr rfl fun c _ => ?_
  have hk := contrEquiv1_symm_val dot_S64x256_S256x64_S64x64_1_0_0_1_n_n 256 rfl rfl c
  have el : dot_S64x256_S256x64_S64x64_1_0_0_1_n_n.lhsIdx (ix2 k p) ((contrEquiv1 dot_S64x256_S256x64_S64x64_1_0_0_1_n_n 256 rfl rfl).symm c) = ix2 k c := funext fun a => Fin.ext (by
    match a with
    | ⟨0, _⟩ => exact ndot_lhs_0 _ _
    | ⟨1, _⟩ => exact (ndot_lhs_1 _ _).trans hk)
  have er : dot_S64x256_S256x64_S64x64_1_0_0_1_n_n.rhsIdx (ix2 k p) ((contrEquiv1 dot_S64x256_S256x64_S64x64_1_0_0_1_n_n 256 rfl rfl).symm c) = ix2 c p := funext fun a => Fin.ext (by
    match a with
    | ⟨0, _⟩ => exact (ndot_rhs_0 _ _).trans hk
    | ⟨1, _⟩ => exact ndot_rhs_1 _ _)
  rw [el, er]

/-! ## The selector -/

/-- Row `n` of tile `l` is location `l * 256 + n`; as 32-bit words the sum does not wrap, so it equals an index
    word exactly when the naturals agree. -/
theorem word_eq_iff (l n : ℕ) (hl : l < 1) (hn : n < 256) (x : BitVec 32) :
    IntOp.addi (BitVec.ofNat 32 n) (IntOp.muli (BitVec.ofNat 32 l) 256#32) = x ↔ l * 256 + n = x.toNat := by
  unfold IntOp.addi IntOp.muli
  constructor
  · intro h; subst h
    simp only [BitVec.toNat_add, BitVec.toNat_mul, BitVec.toNat_ofNat]
    omega
  · intro h
    apply BitVec.eq_of_toNat_eq
    simp only [BitVec.toNat_add, BitVec.toNat_mul, BitVec.toNat_ofNat]
    omega

/-- A one-bit comparison widened to a word and read as a signed integer is `1` or `0`. -/
theorem cmp_word_toInt (a x : BitVec 32) :
    (((IntOp.cmpi .eq a x).setWidth 32).toInt : ℝ) = if a = x then 1 else 0 := by
  unfold IntOp.cmpi
  by_cases h : a = x
  · subst h; simp
  · have : (a == x) = false := by simpa using h
    simp [this, h]

/-- The selector at row `n`, column `p`: `1` where location `l * 256 + n` is the `p`-th sampled position, else `0`
    (`l = i 1`, the tile). -/
theorem onehot_apply (i : grid4.Coords) (v3 : Vec Ideal S1x64 .i32) (n : Fin 256) (p : Fin 64) :
    k4_pay12 (F := Ideal) i v3 (ix2 n p) = if (i 1).val * 256 + n.val = (v3 (ix2 0 p)).toNat then 1 else 0 := by
  have hl : (i 1).val < 1 := (i 1).isLt
  unfold k4_pay12
  simp only [shapeCast_self]
  show ((((IntOp.cmpi .eq (IntOp.addi (iota .tc S256x64 32 [0] iota_S256x64_d0_w32 (ix2 n p)) (IntOp.muli (BitVec.ofNat 32 (i 1).val) 256#32))
      (broadcastTo S256x64 v3 broadcasts_S1x64_S256x64 (ix2 n p))).setWidth 32).toInt : ℝ) : EReal) = _
  rw [iota_single_apply, broadcastTo_1b_ab_apply, cmp_word_toInt]
  show (((if IntOp.addi (BitVec.ofNat 32 n.val) (IntOp.muli (BitVec.ofNat 32 (i 1).val) 256#32) = v3 (ix2 0 p) then (1 : ℝ) else 0) : ℝ) : EReal) = _
  by_cases h : (i 1).val * 256 + n.val = (v3 (ix2 0 p)).toNat
  · rw [if_pos h, if_pos ((word_eq_iff _ _ hl n.isLt _).mpr h)]; rfl
  · rw [if_neg h, if_neg (fun h' => h ((word_eq_iff _ _ hl n.isLt _).mp h'))]; rfl

/-! ## A block against the selector: one column gathered, or nothing -/

/-- A real number minus itself is zero on the extended reals. -/
theorem sub_self_of_real {x : EReal} (h : ∃ r : ℝ, x = (r : EReal)) : x - x = 0 := by
  obtain ⟨r, rfl⟩ := h
  rw [← EReal.coe_sub, sub_self, EReal.coe_zero]

/-- The sum over a tile's rows of a row function against the selector's column: the row whose location is the
    sampled position `m`, when `m` lies in tile `l`; else zero. -/
theorem sum_onehot (x : Fin 256 → EReal) (l m : ℕ) :
    (∑ n : Fin 256, x n * (if l * 256 + n.val = m then (1 : EReal) else 0))
      = if h : l * 256 ≤ m ∧ m < (l + 1) * 256 then x ⟨m - l * 256, by omega⟩ else 0 := by
  by_cases h : l * 256 ≤ m ∧ m < (l + 1) * 256
  · rw [dif_pos h]
    rw [Finset.sum_eq_single (⟨m - l * 256, by omega⟩ : Fin 256)]
    · rw [if_pos (by show l * 256 + (m - l * 256) = m; omega), mul_one]
    · intro n _ hn
      rw [if_neg (fun e => hn (Fin.ext (by show n.val = m - l * 256; omega))), mul_zero]
    · intro hmem; exact absurd (Finset.mem_univ _) hmem
  · rw [dif_neg h]
    refine Finset.sum_eq_zero fun n _ => ?_
    rw [if_neg (fun e => h (by have := n.isLt; omega)), mul_zero]

/-- The block with its leading unit axis dropped reads the block at `(0, c, n)`. -/
theorem block_apply (v : Vec Ideal S1x256x256 .f32) (c : Fin 256) (n : Fin 256) :
    (shapeCast S256x256 v shapeCasts_S1x256x256_S256x256 : FVec Ideal S256x256 .f32) (ix2 c n) = v (ix3 0 c n) :=
  shapeCast_1ab_ab_apply v _ c n

/-- THE QUERY SIDE. What the body stores to the first accumulator at tile `l = i 1`: the loaded accumulator plus,
    where the `p`-th sampled position lies in this tile, the block's column at that position. The block's entries
    are real numbers, so its remainder `block − block` is zero. -/
theorem pay15_apply (i : grid4.Coords) (v3 : Vec Ideal S1x64 .i32) (v14 : Vec Ideal S1x256x256 .f32) (v26 : Vec Ideal S256x64 .f32)
    (hreal : ∀ j, ∃ r : ℝ, v14 j = (r : EReal)) (c : Fin 256) (p : Fin 64) :
    k4_pay15 (F := Ideal) i v3 v14 v26 (ix2 c p)
      = v26 (ix2 c p) + (if h : (i 1).val * 256 ≤ (v3 (ix2 0 p)).toNat ∧ (v3 (ix2 0 p)).toNat < ((i 1).val + 1) * 256
          then v14 (ix3 0 c ⟨(v3 (ix2 0 p)).toNat - (i 1).val * 256, by omega⟩) else 0) := by
  unfold k4_pay15
  simp only [shapeCast_self]
  rw [addf_apply, addf_apply, gdot_apply, gdot_apply]
  simp only [truncf_apply, subf_apply, block_apply, onehot_apply]
  have hlo : (∑ n : Fin 256, (v14 (ix3 0 c n) - v14 (ix3 0 c n)) * (if (i 1).val * 256 + n.val = (v3 (ix2 0 p)).toNat then (1 : EReal) else 0)) = 0 :=
    Finset.sum_eq_zero fun n _ => by rw [sub_self_of_real (hreal _), zero_mul]
  rw [hlo, add_zero, sum_onehot (fun n => v14 (ix3 0 c n))]

/-- THE KEY SIDE. What the body stores to the second accumulator: the same, for the key block. -/
theorem pay1_apply (i : grid4.Coords) (v3 : Vec Ideal S1x64 .i32) (v16 : Vec Ideal S1x256x256 .f32) (v34 : Vec Ideal S256x64 .f32)
    (hreal : ∀ j, ∃ r : ℝ, v16 j = (r : EReal)) (c : Fin 256) (p : Fin 64) :
    k4_pay1 (F := Ideal) (k4_pay12 i v3) (k4_pay14 v16) v34 (k4_pay16 i v3 v16) (ix2 c p)
      = v34 (ix2 c p) + (if h : (i 1).val * 256 ≤ (v3 (ix2 0 p)).toNat ∧ (v3 (ix2 0 p)).toNat < ((i 1).val + 1) * 256
          then v16 (ix3 0 c ⟨(v3 (ix2 0 p)).toNat - (i 1).val * 256, by omega⟩) else 0) := by
  unfold k4_pay1 k4_pay16 k4_pay14 k4_pay13
  simp only [shapeCast_self]
  rw [addf_apply, addf_apply, gdot_apply, gdot_apply]
  simp only [truncf_apply, subf_apply, block_apply, onehot_apply]
  have hlo : (∑ n : Fin 256, (v16 (ix3 0 c n) - v16 (ix3 0 c n)) * (if (i 1).val * 256 + n.val = (v3 (ix2 0 p)).toNat then (1 : EReal) else 0)) = 0 :=
    Finset.sum_eq_zero fun n _ => by rw [sub_self_of_real (hreal _), zero_mul]
  rw [hlo, add_zero, sum_onehot (fun n => v16 (ix3 0 c n))]

/-- The reset at the first tile writes zeros to both accumulators. -/
theorem reset_q_apply (j : S256x64.Idx) : (k4_pay10 (F := Ideal)) j = 0 := by
  unfold k4_pay10
  rw [shapeCast_self]
  exact Ideal.ofBits_zero_f32
theorem reset_k_apply (j : S256x64.Idx) : (k4_pay11 (F := Ideal)) j = 0 := by
  unfold k4_pay11
  rw [shapeCast_self]
  exact Ideal.ofBits_zero_f32

/-! ## The loss -/

/-- Square root, exponential and logarithm of a vector, read at an index. -/
theorem sqrt_apply {s : Shape} {φ : FTy} (a : FVec Ideal s φ) (i : s.Idx) : sqrt a i = Ideal.sqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The sum over the channels of an accumulator-shaped array, at column `p`. -/
theorem chansum_apply (src : FVec Ideal S256x64 .f32) (hφ : FKind.Formats .f32)
    (hacc : (0x00000000#32 : BitVec 32) = 0x00000000#32) (p : Fin 64) :
    multiReduction .add [0] S64 src 0x00000000#32 reduces_S256x64_S64 hφ hacc (ix1 p) = ∑ c : Fin 256, src (ix2 c p) := by
  refine (Ideal.multiReduction_add_single src 0x00000000#32 reduces_S256x64_S64 hφ hacc (ix1 p)).trans ?_
  exact Finset.sum_congr rfl fun c _ => congrArg src (funext fun a => match a with | ⟨0, _⟩ => rfl | ⟨1, _⟩ => rfl)

/-- The sum over the rows of a patches-by-patches array, at column `p`. -/
theorem rowsum_apply (src : FVec Ideal S64x64 .f32) (hφ : FKind.Formats .f32)
    (hacc : (0x00000000#32 : BitVec 32) = 0x00000000#32) (p : Fin 64) :
    multiReduction .add [0] S64 src 0x00000000#32 reduces_S64x64_S64 hφ hacc (ix1 p) = ∑ k : Fin 64, src (ix2 k p) := by
  refine (Ideal.multiReduction_add_single src 0x00000000#32 reduces_S64x64_S64 hφ hacc (ix1 p)).trans ?_
  exact Finset.sum_congr rfl fun c _ => congrArg src (funext fun a => match a with | ⟨0, _⟩ => rfl | ⟨1, _⟩ => rfl)

/-- The word of `−∞`. -/
theorem neg_inf_word : Ideal.ofBits .f32 0xFF800000#32 = ⊥ := by simp [Ideal.ofBits, Ideal.ieee]

/-- A fold of `max` from `−∞` is the supremum. -/
theorem fold_max_bot {ι : Type} (s : Finset ι) (f : ι → EReal) : s.fold max ⊥ f = s.sup f := by
  classical
  induction s using Finset.induction_on with
  | empty => rfl
  | insert a s ha ih => rw [Finset.fold_insert ha, Finset.sup_insert, ih]

/-- The maximum over the rows of a patches-by-patches array, from `−∞`, at column `p`: the column's supremum. -/
theorem rowmax_apply (src : FVec Ideal S64x64 .f32) (hφ : FKind.Formats .f32)
    (hacc : (0xFF800000#32 : BitVec 32) = 0xFF800000#32) (p : Fin 64) :
    multiReduction .maximumf [0] S64 src 0xFF800000#32 reduces_S64x64_S64 hφ hacc (ix1 p)
      = Finset.univ.sup fun k : Fin 64 => src (ix2 k p) := by
  refine (Ideal.multiReduction_maximumf_single src 0xFF800000#32 reduces_S64x64_S64 hφ hacc (ix1 p)).trans ?_
  refine (congrArg (fun b => Finset.fold max b _ _) neg_inf_word).trans ?_
  refine (fold_max_bot _ _).trans ?_
  exact congrArg (Finset.univ.sup) (funext fun k => congrArg src (funext fun a => match a with | ⟨0, _⟩ => rfl | ⟨1, _⟩ => rfl))

/-- The mask constant denotes `−∞`. -/
theorem neg_big : Named.named (F := Ideal) κ "neg_big" (φ := .f32) 0xF149F2CA#32 = (⊥ : EReal) :=
  IdealRules.named_const.ideal_named_scalar _ _ _ _ rfl

/-- A select on "row index = column index", both below 64, is the `if` on the coordinates. -/
theorem select_diag {α : Type} (k p : Fin 64) (a b : α) :
    Scalar.select (IntOp.cmpi .eq (BitVec.ofNat 32 k.val) (BitVec.ofNat 32 p.val)) a b = if k = p then a else b := by
  by_cases h : k = p
  · subst h; rw [if_pos rfl]; unfold IntOp.cmpi; simp [Scalar.select]
  · rw [if_neg h]
    have hne : BitVec.ofNat 32 k.val ≠ BitVec.ofNat 32 p.val := fun e => h (Fin.ext (by
      have := congrArg BitVec.toNat e
      simp only [BitVec.toNat_ofNat] at this
      have := k.isLt; have := p.isLt; omega))
    have hb : (BitVec.ofNat 32 k.val == BitVec.ofNat 32 p.val) = false := beq_eq_false_iff_ne.mpr hne
    show Scalar.select (BitVec.ofBool (BitVec.ofNat 32 k.val == BitVec.ofNat 32 p.val)) a b = b
    rw [hb]; exact select_zero a b

variable (qa ka : Vec Ideal S256x64 .f32)

/-- A column scaled to unit length (the query's accumulator). -/
theorem unitq_apply (v : Vec Ideal S256x64 .f32) (c : Fin 256) (p : Fin 64) :
    k4_pay3 (F := Ideal) v (ix2 c p) = Spec.unit (fun c' => v (ix2 c' p)) c := by
  unfold k4_pay3
  rw [divf_apply, broadcastTo_1b_ab_apply, maximumf_apply, broadcast_apply, sqrt_apply, shapeCast_a_1a_apply, chansum_apply]
  rfl

/-- A column scaled to unit length (the key's accumulator). -/
theorem unitk_apply (v : Vec Ideal S256x64 .f32) (c : Fin 256) (p : Fin 64) :
    k4_pay4 (F := Ideal) v (ix2 c p) = Spec.unit (fun c' => v (ix2 c' p)) c := by
  unfold k4_pay4
  rw [divf_apply, broadcastTo_1b_ab_apply, maximumf_apply, broadcast_apply, sqrt_apply, shapeCast_a_1a_apply, chansum_apply]
  rfl

/-- The positive logit. -/
theorem pos_apply (p : Fin 64) :
    k4_pay5 (F := Ideal) qa ka (ix2 0 p) = Spec.pos (fun p c => qa (ix2 c p)) (fun p c => ka (ix2 c p)) p := by
  unfold k4_pay5
  rw [divf_apply, broadcast_apply, shapeCast_a_1a_apply, chansum_apply]
  simp only [mulf_apply, unitq_apply, unitk_apply]
  rfl

/-- The negative logits, `−∞` on the diagonal. -/
theorem neg_apply (k p : Fin 64) :
    k4_pay6 (F := Ideal) qa ka (ix2 k p) = Spec.neg (fun p c => qa (ix2 c p)) (fun p c => ka (ix2 c p)) p k := by
  unfold k4_pay6
  rw [select_apply]
  show Scalar.select (IntOp.cmpi .eq (iota .tc S64x64 32 [0] iota_S64x64_d0_w32 (ix2 k p)) (iota .tc S64x64 32 [1] iota_S64x64_d1_w32 (ix2 k p))) _ _ = _
  rw [iota_single_apply, iota_single_apply, broadcast_apply, divf_apply, broadcast_apply, ndot_apply]
  show Scalar.select (IntOp.cmpi .eq (BitVec.ofNat 32 k.val) (BitVec.ofNat 32 p.val)) _ _ = _
  rw [select_diag, neg_big]
  have ht : ∀ c : Fin 256, transpose S64x256 [1, 0] (k4_pay4 (F := Ideal) ka) transposes_S256x64_p1_0_S64x256 (ix2 k c) = k4_pay4 (F := Ideal) ka (ix2 c k) :=
    fun c => transpose_ix2_apply _ _ k c
  simp only [ht, unitq_apply, unitk_apply]
  rfl

/-- The largest logit. -/
theorem top_apply (p : Fin 64) :
    k4_pay7 (F := Ideal) qa ka (ix2 0 p) = Spec.top (fun p c => qa (ix2 c p)) (fun p c => ka (ix2 c p)) p := by
  unfold k4_pay7
  rw [maximumf_apply, shapeCast_a_1a_apply, rowmax_apply, pos_apply]
  simp only [neg_apply]
  rfl

/-- THE LOSS. What the body stores to the output block at the last tile, from the two accumulators as loaded: the
    cross-entropy of the positive slot among patch `p`'s logits. -/
theorem loss_apply (p : Fin 64) :
    k4_pay2 (F := Ideal) (k4_pay8 qa ka) (k4_pay9 qa ka) (ix3 0 0 p)
      = Spec.loss (fun p c => qa (ix2 c p)) (fun p c => ka (ix2 c p)) p := by
  unfold k4_pay2
  rw [shapeCast_ab_1ab_apply, subf_apply]
  unfold k4_pay8 k4_pay9
  rw [log_apply, addf_apply, exp_apply, subf_apply, shapeCast_a_1a_apply, rowsum_apply]
  simp only [exp_apply, subf_apply, broadcastTo_1b_ab_apply, pos_apply, neg_apply, top_apply]
  rfl

end R4

end Cert.KernelIdeal.Pay

end
-- ==== Proof.KI.Value4.lean ====
/-
  The fifth layer's kernel call: the value of its output array after the call.

  The grid is 4 × 1: point `t` is batch entry `t`, its one tile the whole row of 256 locations. At every point the
  body zeroes both accumulators, adds to each the one-hot gather of the point's block, and stores the loss of the
  two accumulators' columns to the output block, which is written back to row `t` of the output array. With the
  sampled positions below the row's length, column `p` of an accumulator is the block's column at position
  `sel p`, so the stored value at patch `p` is the specification's loss of the gathered columns; the q and k blocks
  of point `t` are rows `t` of their arrays and the index block is the whole index array; the four output blocks
  tile the output array. So the array ends, at batch entry `b` and patch `p`, at the layer's loss there.
-/
import proofs.«430285_j43310450213294_2_alg».proof.Proof.KI.Region4Pay
import proofs.«430285_j43310450213294_2_alg».proof.Proof.KI.Pay4
import proofs.«430285_j43310450213294_2_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

/-! ## One point's arithmetic -/

/-- The gathered entry: with the tile's first location at zero and the index word that of a position below the
    tile's length, the guarded read is the read at that position. -/
theorem gather_at4 (l : ℕ) (hl : l = 0) (w : BitVec 32) (s : Fin 256) (hw : w = BitVec.ofNat 32 s.val) (f : Fin 256 → EReal) :
    (if h : l * 256 ≤ w.toNat ∧ w.toNat < (l + 1) * 256 then f ⟨w.toNat - l * 256, by omega⟩ else 0) = f s := by
  subst hl hw
  have hs : s.val < 256 := s.isLt
  have e : (BitVec.ofNat 32 s.val).toNat = s.val := by rw [BitVec.toNat_ofNat]; omega
  rw [dif_pos ⟨by omega, by omega⟩]
  exact congrArg f (Fin.ext (by show (BitVec.ofNat 32 s.val).toNat - 0 * 256 = s.val; omega))

/-- What one point stores to its output block, at patch `p`: the loss of the columns of its q block and of its k
    block at the sampled positions. Both accumulators start the point at zero, the tile coordinate is zero and every
    sampled position lies in the one tile, so each accumulator's column `p` is the block's column at `sel p`. -/
theorem point_loss4 (i : grid4.Coords) (hi : (i 1).val = 0)
    (x0 x1 : Vec Ideal S1x256x256 .f32) (x2 : Vec Ideal S1x64 .i32)
    (h0 : ∀ j, ∃ r : ℝ, x0 j = (r : EReal)) (h1 : ∀ j, ∃ r : ℝ, x1 j = (r : EReal))
    (sel : Fin 64 → Fin 256) (h2 : ∀ p : Fin 64, x2 (ix2 0 p) = BitVec.ofNat 32 (sel p).val) (p : Fin 64) :
    k4_pay2 (F := Ideal) (k4_pay8 (k4_pay15 i x2 x0 (k4_pay10 (F := Ideal))) (k4_pay1 (k4_pay12 i x2) (k4_pay14 x1) (k4_pay11 (F := Ideal)) (k4_pay16 i x2 x1)))
        (k4_pay9 (k4_pay15 i x2 x0 (k4_pay10 (F := Ideal))) (k4_pay1 (k4_pay12 i x2) (k4_pay14 x1) (k4_pay11 (F := Ideal)) (k4_pay16 i x2 x1))) (ix3 0 0 p)
      = Spec.loss (fun p c => x0 (ix3 0 c (sel p))) (fun p c => x1 (ix3 0 c (sel p))) p := by
  refine (Pay.R4.loss_apply _ _ p).trans ?_
  have eq : (fun (p : Fin 64) (c : Fin 256) => k4_pay15 (F := Ideal) i x2 x0 (k4_pay10 (F := Ideal)) (ix2 c p)) = fun p c => x0 (ix3 0 c (sel p)) := by
    funext p c
    refine (Pay.R4.pay15_apply i x2 x0 _ h0 c p).trans ?_
    rw [Pay.R4.reset_q_apply, zero_add]
    exact gather_at4 (i 1).val hi (x2 (ix2 0 p)) (sel p) (h2 p) (fun n => x0 (ix3 0 c n))
  have ek : (fun (p : Fin 64) (c : Fin 256) => k4_pay1 (F := Ideal) (k4_pay12 i x2) (k4_pay14 x1) (k4_pay11 (F := Ideal)) (k4_pay16 i x2 x1) (ix2 c p)) = fun p c => x1 (ix3 0 c (sel p)) := by
    funext p c
    refine (Pay.R4.pay1_apply i x2 x1 _ h1 c p).trans ?_
    rw [Pay.R4.reset_k_apply, zero_add]
    exact gather_at4 (i 1).val hi (x2 (ix2 0 p)) (sel p) (h2 p) (fun n => x1 (ix3 0 c n))
  rw [eq, ek]

/-! ## From the blocks to the array -/

section Region
variable (V : (c : Dev nD) → (b : Ref sig .tc) → Buf (Elt Ideal) ((c : Thread nD τ).loc b))

/-- The call has four points. -/
theorem N4_eq : cfg4.N = 4 := by decide

/-- The printed index maps, decided once over the grid: point `t` is batch entry `t`; the q, k and output blocks sit
    at row `t` of their arrays and at the origin of the other axes, the index block at the origin; the tile
    coordinate is zero. -/
theorem idx_facts4 : ∀ t : Fin cfg4.N, win4_0.index t (0 : Fin 3) = t.val ∧ win4_0.index t (1 : Fin 3) = 0 ∧ win4_0.index t (2 : Fin 3) = 0
    ∧ win4_1.index t (0 : Fin 3) = t.val ∧ win4_1.index t (1 : Fin 3) = 0 ∧ win4_1.index t (2 : Fin 3) = 0
    ∧ win4_2.index t (0 : Fin 2) = 0 ∧ win4_2.index t (1 : Fin 2) = 0
    ∧ win4_3.index t (0 : Fin 3) = t.val ∧ win4_3.index t (1 : Fin 3) = 0 ∧ win4_3.index t (2 : Fin 3) = 0
    ∧ ((grid4.coords t) 1).val = 0 :=
  (by decide +kernel : ∀ t : Fin grid4.N, _)

/-- The q block of point `t` is row `t` of the q array: a block's coordinate is its index times its size plus
    the coordinate inside it. -/
theorem qblk4_apply (c : Dev nD) (t : Fin cfg4.N) (x : S1x256x256.Idx) (k : S4x256x256.Idx)
    (hk0 : (k 0).val = t.val) (hk1 : (k 1).val = (x 1).val) (hk2 : (k 2).val = (x 2).val) :
    (iblk4 V c 0 t : Vec Ideal S1x256x256 .f32) x = (V c main_v28 : S4x256x256.Idx → EReal) k := by
  obtain ⟨e0, e1, e2, -⟩ := idx_facts4 t
  have hx0 : (x 0).val < 1 := (x 0).isLt
  unfold iblk4
  rw [View.read_apply]
  show V c main_v28 _ = V c main_v28 _
  congr 1
  funext a
  apply Fin.ext
  match a with
  | ⟨0, _⟩ => show win4_0.index t 0 * 1 + 1 * (x 0).val = (k 0).val; rw [e0, hk0]; omega
  | ⟨1, _⟩ => show win4_0.index t 1 * 256 + 1 * (x 1).val = (k 1).val; rw [e1, hk1]; omega
  | ⟨2, _⟩ => show win4_0.index t 2 * 256 + 1 * (x 2).val = (k 2).val; rw [e2, hk2]; omega

/-- The k block of point `t` is row `t` of the k array. -/
theorem kblk4_apply (c : Dev nD) (t : Fin cfg4.N) (x : S1x256x256.Idx) (k : S4x256x256.Idx)
    (hk0 : (k 0).val = t.val) (hk1 : (k 1).val = (x 1).val) (hk2 : (k 2).val = (x 2).val) :
    (iblk4 V c 1 t : Vec Ideal S1x256x256 .f32) x = (V c main_v29 : S4x256x256.Idx → EReal) k := by
  obtain ⟨-, -, -, e0, e1, e2, -⟩ := idx_facts4 t
  have hx0 : (x 0).val < 1 := (x 0).isLt
  unfold iblk4
  rw [View.read_apply]
  show V c main_v29 _ = V c main_v29 _
  congr 1
  funext a
  apply Fin.ext
  match a with
  | ⟨0, _⟩ => show win4_1.index t 0 * 1 + 1 * (x 0).val = (k 0).val; rw [e0, hk0]; omega
  | ⟨1, _⟩ => show win4_1.index t 1 * 256 + 1 * (x 1).val = (k 1).val; rw [e1, hk1]; omega
  | ⟨2, _⟩ => show win4_1.index t 2 * 256 + 1 * (x 2).val = (k 2).val; rw [e2, hk2]; omega

/-- The index block of every point is the whole index array. -/
theorem idblk4_apply (c : Dev nD) (t : Fin cfg4.N) (x : S1x64.Idx) :
    (iblk4 V c 2 t : Vec Ideal S1x64 .i32) x = (V c main_v30 : S1x64.Idx → BitVec 32) x := by
  obtain ⟨-, -, -, -, -, -, e0, e1, -⟩ := idx_facts4 t
  unfold iblk4
  rw [View.read_apply]
  show V c main_v30 _ = V c main_v30 _
  congr 1
  funext a
  apply Fin.ext
  match a with
  | ⟨0, _⟩ => show win4_2.index t 0 * 1 + 1 * (x 0).val = (x 0).val; rw [e0]; omega
  | ⟨1, _⟩ => show win4_2.index t 1 * 64 + 1 * (x 1).val = (x 1).val; rw [e1]; omega

/-- A block of an array of real numbers holds real numbers. -/
theorem qblk4_real (c : Dev nD) (t : Fin cfg4.N) (hq : ∀ i, ∃ r : ℝ, V c main_v28 i = (r : EReal)) (j : S1x256x256.Idx) :
    ∃ r : ℝ, (iblk4 V c 0 t : Vec Ideal S1x256x256 .f32) j = (r : EReal) := by
  unfold iblk4; rw [View.read_apply]; exact hq _
theorem kblk4_real (c : Dev nD) (t : Fin cfg4.N) (hk : ∀ i, ∃ r : ℝ, V c main_v29 i = (r : EReal)) (j : S1x256x256.Idx) :
    ∃ r : ℝ, (iblk4 V c 1 t : Vec Ideal S1x256x256 .f32) j = (r : EReal) := by
  unfold iblk4; rw [View.read_apply]; exact hk _

/-- The array the call leaves: at batch entry `b` and patch `p` the layer's loss. -/
def G4 (c : Dev nD) (sel : Fin 64 → Fin 256) : Vec Ideal S4x1x64 .f32 :=
  fun i => Spec.layerOf (C := 256) (V c main_v28) (V c main_v29) sel (i 0) (i 2)

/-- Contents of the output block that are, patch by patch, the layer's loss at batch entry `t` are block `t` of
    that array: the block sits at row `t`, and its two leading axes have one coordinate each. -/
theorem out_blk4 (c : Dev nD) (sel : Fin 64 → Fin 256) (t : Fin cfg4.N) (X : Vec Ideal S1x1x64 .f32)
    (hX : ∀ (b : Fin 4) (p : Fin 64), b.val = t.val → X (ix3 0 0 p) = Spec.layerOf (C := 256) (V c main_v28) (V c main_v29) sel b p) :
    (cfg4.win 3).cut (grid4.coords t) X = ((cfg4.win 3).blk t).view.read (Elt Ideal) (G4 V c sel) := by
  obtain ⟨-, -, -, -, -, -, -, -, e0, e1, e2, -⟩ := idx_facts4 t
  funext j
  rw [View.read_apply]
  have hj0 : (j 0).val < 1 := (j 0).isLt
  have hj1 : (j 1).val < 1 := (j 1).isLt
  have hb : ((((cfg4.win 3).blk t).view.emb j) 0).val = t.val := by
    show win4_3.index t 0 * 1 + 1 * (j 0).val = t.val; rw [e0]; omega
  have hp : ((((cfg4.win 3).blk t).view.emb j) 2).val = (j 2).val := by
    show win4_3.index t 2 * 64 + 1 * (j 2).val = (j 2).val; rw [e2]; omega
  have ex : (cfg4.win 3).xinj (grid4.coords t) j = ix3 0 0 ((((cfg4.win 3).blk t).view.emb j) 2) := by
    funext a
    apply Fin.ext
    match a with
    | ⟨0, _⟩ => show (j 0).val = 0; omega
    | ⟨1, _⟩ => show (j 1).val = 0; omega
    | ⟨2, _⟩ => show (j 2).val = ((((cfg4.win 3).blk t).view.emb j) 2).val; exact hp.symm
  exact (congrArg X ex).trans (hX ((((cfg4.win 3).blk t).view.emb j) 0) ((((cfg4.win 3).blk t).view.emb j) 2) hb)

/-- What point `t` writes back is block `t` of that array. -/
theorem flushed4_eq (c : Dev nD)
    (hq : ∀ i, ∃ r : ℝ, V c main_v28 i = (r : EReal)) (hk : ∀ i, ∃ r : ℝ, V c main_v29 i = (r : EReal))
    (sel : Fin 64 → Fin 256) (hsel : ∀ p : Fin 64, V c main_v30 (ix2 0 p) = BitVec.ofNat 32 (sel p).val) (t : Fin cfg4.N) :
    (dat4 (F := Ideal) V c).flushed 3 t = ((cfg4.win 3).blk t).view.read (Elt Ideal) (G4 V c sel) := by
  show (cfg4.win 3).cut (grid4.coords t) ((dat4 (F := Ideal) V c).after 3 t) = _
  rw [after4_3, outsAt4_A V c t]
  dsimp only
  rw [out4_A_3_eq c (grid4.coords t) (ms4_0 t) (hs4_0 t) (ms4_1 t) (hs4_1 t) (ms4_2 t) (hs4_2 t) (ms4_3 t) (hs4_3 t) scM4_0 (Memref.isWhole_whole _) scM4_1 (Memref.isWhole_whole _) (hcond4_0 t) (hcond4_1 t) (iblk4 V c 0 t) (iblk4 V c 1 t) (iblk4 V c 2 t)]
  refine out_blk4 V c sel t _ fun b p hb => ?_
  refine (point_loss4 (grid4.coords t) (idx_facts4 t).2.2.2.2.2.2.2.2.2.2.2 (iblk4 V c 0 t) (iblk4 V c 1 t) (iblk4 V c 2 t)
    (qblk4_real V c t hq) (kblk4_real V c t hk) sel (fun p' => (idblk4_apply V c t (ix2 0 p')).trans (hsel p')) p).trans ?_
  show Spec.loss _ _ p = Spec.loss (fun p c' => V c main_v28 (ix3 b c' (sel p))) (fun p c' => V c main_v29 (ix3 b c' (sel p))) p
  have eq : (fun (p : Fin 64) (c' : Fin 256) => (iblk4 V c 0 t : Vec Ideal S1x256x256 .f32) (ix3 0 c' (sel p))) = fun p c' => V c main_v28 (ix3 b c' (sel p)) :=
    funext fun p => funext fun c' => qblk4_apply V c t (ix3 0 c' (sel p)) (ix3 b c' (sel p)) hb rfl rfl
  have ek : (fun (p : Fin 64) (c' : Fin 256) => (iblk4 V c 1 t : Vec Ideal S1x256x256 .f32) (ix3 0 c' (sel p))) = fun p c' => V c main_v29 (ix3 b c' (sel p)) :=
    funext fun p => funext fun c' => kblk4_apply V c t (ix3 0 c' (sel p)) (ix3 b c' (sel p)) hb rfl rfl
  rw [eq, ek]

/-- Every entry of the output array is in the block of the point of its batch entry. -/
theorem cover4 (i : S4x1x64.Idx) : ∃ t : Fin cfg4.N, (cfg4.win 3).flush t = true ∧ i ∈ ((cfg4.win 3).blk t).view.set := by
  have hi0 : (i 0).val < 4 := (i 0).isLt
  have hi1 : (i 1).val < 1 := (i 1).isLt
  have hi2 : (i 2).val < 64 := (i 2).isLt
  obtain ⟨t, ht⟩ : ∃ t : Fin cfg4.N, t.val = (i 0).val := ⟨⟨(i 0).val, by rw [N4_eq]; exact hi0⟩, rfl⟩
  refine ⟨t, flush4_3 t, ?_⟩
  obtain ⟨-, -, -, -, -, -, -, -, e0, e1, e2, -⟩ := idx_facts4 t
  show i ∈ ((View.whole main_v31).slice (win4_3.rect t)).set
  rw [View.set_slice_whole, Rect.mem_set_unit]
  intro a
  match a with
  | ⟨0, _⟩ => show win4_3.index t 0 * 1 ≤ (i 0).val ∧ (i 0).val < win4_3.index t 0 * 1 + 1; rw [e0]; omega
  | ⟨1, _⟩ => show win4_3.index t 1 * 1 ≤ (i 1).val ∧ (i 1).val < win4_3.index t 1 * 1 + 1; rw [e1]; omega
  | ⟨2, _⟩ => show win4_3.index t 2 * 64 ≤ (i 2).val ∧ (i 2).val < win4_3.index t 2 * 64 + 64; rw [e2]; omega

/-- THE VALUE of the call's output array: at batch entry `b` and patch `p`, the layer's loss of the q and k arrays at
    the sampled positions. -/
theorem value4 (c : Dev nD)
    (hq : ∀ i, ∃ r : ℝ, V c main_v28 i = (r : EReal)) (hk : ∀ i, ∃ r : ℝ, V c main_v29 i = (r : EReal))
    (sel : Fin 64 → Fin 256) (hsel : ∀ p : Fin 64, V c main_v30 (ValueIdx.ix2 0 p) = BitVec.ofNat 32 (sel p).val) (b : Fin 4) (p : Fin 64) :
    (dat4 (F := Ideal) V c).arrAt 3 cfg4.N (ValueIdx.ix3 b 0 p) = Cert.Spec.layerOf (C := 256) (V c main_v28) (V c main_v29) sel b p :=
  congrFun ((dat4 (F := Ideal) V c).arrAt_eq_of_cover 3 (G4 V c sel) (fun t _ => flushed4_eq V c hq hk sel hsel t) (cover4)) (ix3 b 0 p)

end Region

end Cert.KernelIdeal.Hand

end
-- ==== Proof.KI.Mean4.lean ====
/-
  Layer 4 of the kernel's result: after pallas_call 4 its output array holds, at (b, 0, p), the layer's loss of batch
  entry b at patch p, of the reshaped query and key arrays the host stretch before the call wrote, at the positions
  the index array names; so the mean the next host stretch takes over that array is the specification's mean.
-/
import proofs.«430285_j43310450213294_2_alg».proof.Proof.KI.Halves
import proofs.«430285_j43310450213294_2_alg».proof.Proof.KI.Host
import proofs.«430285_j43310450213294_2_alg».proof.Proof.KI.Value4
import proofs.«430285_j43310450213294_2_alg».proof.Proof.Glue

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable (m : (ℓ : Loc nD τ sig) → Buf (Elt Ideal) ℓ)

/-- After the call its output array holds what its pipeline's write-backs leave. -/
theorem outs_10 (c : Dev nD) :
    outsAll m 10 main_v31 c = (dat4 (F := Ideal) (fun c b => V9 m (outsAll m) c b) c).arrAt 3 cfg4.N := by
  show W10 m half0 half1 half2 half3 half4 c (Proc.devRef .tc main_v31) = _
  unfold W10
  exact Pipeline.withArrays_arr spec4 launch4.win.arr_inj c _ _ 3

/-- The mean over the call's output array is the specification's mean of the layer. -/
theorem mean_4 (c : Dev nD)
    (hq : ∀ i, ∃ r : ℝ, (m ((c : Thread nD τ).loc main_arg4)) i = (r : EReal)) (hk : ∀ i, ∃ r : ℝ, (m ((c : Thread nD τ).loc main_arg9)) i = (r : EReal))
    (sel : Fin 64 → Fin 256) (hsel : ∀ p : Fin 64, (m ((c : Thread nD τ).loc main_arg14)) (ix1 p) = BitVec.ofNat 32 (sel p).val) :
    μ (outsAll m 10 main_v31 c) = Cert.Spec.mean (Cert.Spec.layerOf (C := 256) (shapeCast _ (m ((c : Thread nD τ).loc main_arg4)) Gen.shapeCasts_S4x256x4x8x8_S4x256x256) (shapeCast _ (m ((c : Thread nD τ).loc main_arg9)) Gen.shapeCasts_S4x256x4x8x8_S4x256x256) sel) := by
  refine congrArg Cert.Spec.mean (funext fun b => funext fun p => ?_)
  rw [outs_10 m c]
  rw [value4 (fun c b => V9 m (outsAll m) c b) c
    (by intro i; show ∃ r : ℝ, V9 m (outsAll m) c main_v28 i = _; rw [V9_main_v28 m (outsAll m) c]; exact Cert.Glue.shapeCast_real _ hq _ i)
    (by intro i; show ∃ r : ℝ, V9 m (outsAll m) c main_v29 i = _; rw [V9_main_v29 m (outsAll m) c]; exact Cert.Glue.shapeCast_real _ hk _ i)
    sel
    (by intro p; show V9 m (outsAll m) c main_v30 (ix2 0 p) = _; rw [V9_main_v30 m (outsAll m) c, Cert.Glue.shapeCast_row_apply]; exact hsel p)
    b p]
  show Cert.Spec.layerOf (C := 256) (V9 m (outsAll m) c main_v28) (V9 m (outsAll m) c main_v29) sel b p = _
  rw [V9_main_v28 m (outsAll m) c, V9_main_v29 m (outsAll m) c]

end Cert.KernelIdeal.Hand

end
-- ==== Proof.KI.Result.lean ====
/-
  The kernel's result as the specification's function of its arguments: the host stretches after the five
  pallas_calls average each call's output array and add the five means from zero, over five; each mean is the
  specification's mean of its layer.
-/
import proofs.«430285_j43310450213294_2_alg».proof.Proof.KI.Mean0
import proofs.«430285_j43310450213294_2_alg».proof.Proof.KI.Mean1
import proofs.«430285_j43310450213294_2_alg».proof.Proof.KI.Mean2
import proofs.«430285_j43310450213294_2_alg».proof.Proof.KI.Mean3
import proofs.«430285_j43310450213294_2_alg».proof.Proof.KI.Mean4

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable (m : (ℓ : Loc nD τ sig) → Buf (Elt Ideal) ℓ)

/-- The result buffer's one entry is the specification's total of the five layers' means. -/
theorem kernel_result (c : Dev nD)
    (hq0 : ∀ i, ∃ r : ℝ, (m ((c : Thread nD τ).loc main_arg0)) i = (r : EReal)) (hk0 : ∀ i, ∃ r : ℝ, (m ((c : Thread nD τ).loc main_arg5)) i = (r : EReal))
    (sel0 : Fin 64 → Fin 131072) (hsel0 : ∀ p : Fin 64, (m ((c : Thread nD τ).loc main_arg10)) (ix1 p) = BitVec.ofNat 32 (sel0 p).val)
    (hq1 : ∀ i, ∃ r : ℝ, (m ((c : Thread nD τ).loc main_arg1)) i = (r : EReal)) (hk1 : ∀ i, ∃ r : ℝ, (m ((c : Thread nD τ).loc main_arg6)) i = (r : EReal))
    (sel1 : Fin 64 → Fin 16384) (hsel1 : ∀ p : Fin 64, (m ((c : Thread nD τ).loc main_arg11)) (ix1 p) = BitVec.ofNat 32 (sel1 p).val)
    (hq2 : ∀ i, ∃ r : ℝ, (m ((c : Thread nD τ).loc main_arg2)) i = (r : EReal)) (hk2 : ∀ i, ∃ r : ℝ, (m ((c : Thread nD τ).loc main_arg7)) i = (r : EReal))
    (sel2 : Fin 64 → Fin 2048) (hsel2 : ∀ p : Fin 64, (m ((c : Thread nD τ).loc main_arg12)) (ix1 p) = BitVec.ofNat 32 (sel2 p).val)
    (hq3 : ∀ i, ∃ r : ℝ, (m ((c : Thread nD τ).loc main_arg3)) i = (r : EReal)) (hk3 : ∀ i, ∃ r : ℝ, (m ((c : Thread nD τ).loc main_arg8)) i = (r : EReal))
    (sel3 : Fin 64 → Fin 256) (hsel3 : ∀ p : Fin 64, (m ((c : Thread nD τ).loc main_arg13)) (ix1 p) = BitVec.ofNat 32 (sel3 p).val)
    (hq4 : ∀ i, ∃ r : ℝ, (m ((c : Thread nD τ).loc main_arg4)) i = (r : EReal)) (hk4 : ∀ i, ∃ r : ℝ, (m ((c : Thread nD τ).loc main_arg9)) i = (r : EReal))
    (sel4 : Fin 64 → Fin 256) (hsel4 : ∀ p : Fin 64, (m ((c : Thread nD τ).loc main_arg14)) (ix1 p) = BitVec.ofNat 32 (sel4 p).val) :
    V11 m (outsAll m) c main_v35 ix0 = Cert.Spec.total
      (Cert.Spec.mean (Cert.Spec.layerOf (C := 32) (shapeCast _ (m ((c : Thread nD τ).loc main_arg0)) Gen.shapeCasts_S4x32x32x64x64_S4x32x131072) (shapeCast _ (m ((c : Thread nD τ).loc main_arg5)) Gen.shapeCasts_S4x32x32x64x64_S4x32x131072) sel0))
      (Cert.Spec.mean (Cert.Spec.layerOf (C := 64) (shapeCast _ (m ((c : Thread nD τ).loc main_arg1)) Gen.shapeCasts_S4x64x16x32x32_S4x64x16384) (shapeCast _ (m ((c : Thread nD τ).loc main_arg6)) Gen.shapeCasts_S4x64x16x32x32_S4x64x16384) sel1))
      (Cert.Spec.mean (Cert.Spec.layerOf (C := 128) (shapeCast _ (m ((c : Thread nD τ).loc main_arg2)) Gen.shapeCasts_S4x128x8x16x16_S4x128x2048) (shapeCast _ (m ((c : Thread nD τ).loc main_arg7)) Gen.shapeCasts_S4x128x8x16x16_S4x128x2048) sel2))
      (Cert.Spec.mean (Cert.Spec.layerOf (C := 256) (shapeCast _ (m ((c : Thread nD τ).loc main_arg3)) Gen.shapeCasts_S4x256x4x8x8_S4x256x256) (shapeCast _ (m ((c : Thread nD τ).loc main_arg8)) Gen.shapeCasts_S4x256x4x8x8_S4x256x256) sel3))
      (Cert.Spec.mean (Cert.Spec.layerOf (C := 256) (shapeCast _ (m ((c : Thread nD τ).loc main_arg4)) Gen.shapeCasts_S4x256x4x8x8_S4x256x256) (shapeCast _ (m ((c : Thread nD τ).loc main_arg9)) Gen.shapeCasts_S4x256x4x8x8_S4x256x256) sel4)) := by
  rw [result m (outsAll m) c, mean_0 m c hq0 hk0 sel0 hsel0, mean_1 m c hq1 hk1 sel1 hsel1, mean_2 m c hq2 hk2 sel2 hsel2, mean_3 m c hq3 hk3 sel3 hsel3, mean_4 m c hq4 hk4 sel4 hsel4]

end Cert.KernelIdeal.Hand

end
-- ==== Proof.Ref.Algebra.lean ====
/-
  Finiteness and the algebra between two arrangements of the contrastive patch loss, over an abstract number
  of channels.

  Every gathered entry being a real number, a column's length is a nonnegative real, its floored length a positive
  real, each entry of the unit column a real, the positive logit a real, each negative logit a real or `−∞`, and the
  largest logit a real. With that, the negated log-softmax of the positive slot among the 65 logits laid out as
  "slot 0, then the 64 others" — the largest logit found as a fold of `max` from `−∞`, the normaliser a sum over all
  65 slots from zero — is the specification's `log (exp (pos − top) + ∑ₖ exp (negₖ − top)) − (pos − top)`.
-/
import proofs.«430285_j43310450213294_2_alg».proof.Proof.Spec
import Mathlib.Data.EReal.Operations
import Mathlib.Data.EReal.Inv
import Mathlib.Analysis.Real.Sqrt
import Mathlib.Data.Finset.Fold
import Mathlib.Data.Finset.Lattice.Fold
import Mathlib.Algebra.BigOperators.Fin

noncomputable section

namespace Cert.ReferenceIdeal.RefValue

open Idealize.ShloMosaic Cert.Spec

/-- An extended real that is a real number. -/
def IsReal (x : EReal) : Prop := ∃ r : ℝ, x = (r : EReal)

theorem IsReal.ne_top {x : EReal} (h : IsReal x) : x ≠ ⊤ := by
  obtain ⟨r, rfl⟩ := h; exact EReal.coe_ne_top r

theorem IsReal.ne_bot {x : EReal} (h : IsReal x) : x ≠ ⊥ := by
  obtain ⟨r, rfl⟩ := h; exact EReal.coe_ne_bot r

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

/-- An extended real strictly between the two infinities is a real. -/
theorem isReal_of_bot_lt_of_lt_top {x : EReal} (h1 : ⊥ < x) (h2 : x < ⊤) : IsReal x :=
  ⟨x.toReal, (EReal.coe_toReal h2.ne h1.ne').symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem IsReal.sum {ι : Type*} (s : Finset ι) (f : ι → EReal) (hf : ∀ i, IsReal (f i)) : IsReal (∑ i ∈ s, f i) := by
  choose r hr using hf
  exact ⟨∑ i ∈ s, r i, by rw [coe_sum]; exact Finset.sum_congr rfl fun i _ => hr i⟩

/-- The floor under a column's length is a positive real. -/
theorem eps_pos : ∃ r : ℝ, 0 < r ∧ eps = (r : EReal) := by
  unfold eps
  simp [Ideal.ofBits, Ideal.ieee, -EReal.coe_mul]

/-- The temperature is a positive real. -/
theorem tau_pos : ∃ r : ℝ, 0 < r ∧ tau = (r : EReal) := by
  unfold tau
  simp [Ideal.ofBits, Ideal.ieee, -EReal.coe_mul]

/-- A real over a nonzero real is a real. -/
theorem IsReal.div_coe {x : EReal} (hx : IsReal x) {d : ℝ} (hd : d ≠ 0) : IsReal (Ideal.div x (d : EReal)) := by
  rw [Ideal.div_coe hd]
  exact hx.mul ⟨_, rfl⟩

/-- `−∞` over a positive real is `−∞`. -/
theorem div_bot_of_pos {d : ℝ} (hd : 0 < d) : Ideal.div ⊥ (d : EReal) = ⊥ := by
  rw [Ideal.div_coe hd.ne']
  exact EReal.bot_mul_coe_of_pos (by positivity)

variable {C : ℕ}

/-- A real column's length is a nonnegative real. -/
theorem norm_real (g : Fin C → EReal) (hg : ∀ c, IsReal (g c)) : ∃ r : ℝ, 0 ≤ r ∧ Spec.norm g = (r : EReal) := by
  choose r hr using hg
  have hs : ∑ c, g c * g c = ((∑ c, r c * r c : ℝ) : EReal) := by
    rw [coe_sum]
    exact Finset.sum_congr rfl fun c _ => by rw [hr c, EReal.coe_mul]
  have h0 : (0 : ℝ) ≤ ∑ c, r c * r c := Finset.sum_nonneg fun c _ => mul_self_nonneg (r c)
  refine ⟨Real.sqrt (∑ c, r c * r c), Real.sqrt_nonneg _, ?_⟩
  unfold Spec.norm
  rw [hs, Ideal.sqrt_coe, if_neg (not_lt.2 h0)]

/-- A real column's floored length is a positive real. -/
theorem floored_pos (g : Fin C → EReal) (hg : ∀ c, IsReal (g c)) :
    ∃ d : ℝ, 0 < d ∧ max (Spec.norm g) eps = (d : EReal) := by
  obtain ⟨r, _, hr⟩ := norm_real g hg
  obtain ⟨e, he, hee⟩ := eps_pos
  refine ⟨max r e, lt_max_of_lt_right he, ?_⟩
  rw [hr, hee]
  exact (EReal.coe_strictMono.monotone.map_max).symm

/-- Each entry of a real column's unit column is a real. -/
theorem unit_real (g : Fin C → EReal) (hg : ∀ c, IsReal (g c)) (c : Fin C) : IsReal (unit g c) := by
  obtain ⟨d, hd, hde⟩ := floored_pos g hg
  unfold unit
  rw [hde]
  exact (hg c).div_coe hd.ne'

variable (gq gk : Fin 64 → Fin C → EReal)

/-- The positive logit of real columns is a real. -/
theorem pos_real (hq : ∀ p c, IsReal (gq p c)) (hk : ∀ p c, IsReal (gk p c)) (p : Fin 64) : IsReal (pos gq gk p) := by
  obtain ⟨t, ht, hte⟩ := tau_pos
  unfold pos
  rw [hte]
  exact (IsReal.sum _ _ fun c => (unit_real _ (hq p) c).mul (unit_real _ (hk p) c)).div_coe ht.ne'

/-- A negative logit of real columns is a real or `−∞`: never `+∞`. -/
theorem neg_ne_top (hq : ∀ p c, IsReal (gq p c)) (hk : ∀ p c, IsReal (gk p c)) (p k : Fin 64) : neg gq gk p k ≠ ⊤ := by
  obtain ⟨t, ht, hte⟩ := tau_pos
  unfold neg
  split
  · exact bot_ne_top
  · rw [hte]
    exact ((IsReal.sum _ _ fun c => (unit_real _ (hk k) c).mul (unit_real _ (hq p) c)).div_coe ht.ne').ne_top

/-- The largest logit of real columns is a real: it is at least the positive logit, and a maximum of finitely many
    values none of which is `+∞`. -/
theorem top_real (hq : ∀ p c, IsReal (gq p c)) (hk : ∀ p c, IsReal (gk p c)) (p : Fin 64) : IsReal (top gq gk p) := by
  have hp := pos_real gq gk hq hk p
  refine isReal_of_bot_lt_of_lt_top (lt_of_lt_of_le (bot_lt_iff_ne_bot.2 hp.ne_bot) (le_max_left _ _)) ?_
  unfold top
  refine max_lt (lt_top_iff_ne_top.2 hp.ne_top) ?_
  exact (Finset.sup_lt_iff (bot_lt_top)).2 fun k _ => lt_top_iff_ne_top.2 (neg_ne_top gq gk hq hk p k)

/-- The 65 logits of patch `p` in the order "the positive slot, then the 64 others". -/
def logits (p : Fin 64) : Fin 65 → EReal := Fin.cons (pos gq gk p) (neg gq gk p)

theorem logits_zero (p : Fin 64) : logits gq gk p 0 = pos gq gk p := rfl

theorem logits_succ (p k : Fin 64) : logits gq gk p k.succ = neg gq gk p k := rfl

/-- The fold of `max` from `−∞` over the 65 logits is the largest logit. -/
theorem fold_max_logits (p : Fin 64) : (Finset.univ : Finset (Fin 65)).fold max ⊥ (logits gq gk p) = top gq gk p := by
  unfold top
  refine le_antisymm ?_ ?_
  · refine (Finset.fold_max_le _).2 ⟨bot_le, fun k _ => ?_⟩
    refine Fin.cases ?_ (fun j => ?_) k
    · exact le_max_left _ _
    · exact le_max_of_le_right (Finset.le_sup (f := fun k => neg gq gk p k) (Finset.mem_univ j))
  · refine max_le ?_ (Finset.sup_le fun j _ => ?_)
    · exact (Finset.le_fold_max _).2 (Or.inr ⟨0, Finset.mem_univ _, le_rfl⟩)
    · exact (Finset.le_fold_max _).2 (Or.inr ⟨j.succ, Finset.mem_univ _, le_rfl⟩)

/-- The negated log-softmax of slot 0 among the 65 logits, as a host program computes it — the largest logit a fold of
    `max` from `−∞` then `max` with `−∞` again, the normaliser summed from zero over all 65 slots — is the loss. -/
theorem neg_log_softmax_eq_loss (hq : ∀ p c, IsReal (gq p c)) (hk : ∀ p c, IsReal (gk p c)) (p : Fin 64) :
    -((logits gq gk p 0 - max ⊥ ((Finset.univ : Finset (Fin 65)).fold max ⊥ (logits gq gk p)))
        - Ideal.log (0 + ∑ k : Fin 65, Ideal.exp (logits gq gk p k
            - max ⊥ ((Finset.univ : Finset (Fin 65)).fold max ⊥ (logits gq gk p)))))
      = loss gq gk p := by
  rw [fold_max_logits, max_eq_right bot_le, zero_add, Fin.sum_univ_succ]
  simp only [logits_zero, logits_succ]
  unfold loss
  have hx : IsReal (pos gq gk p - top gq gk p) := (pos_real gq gk hq hk p).sub (top_real gq gk hq hk p)
  rw [EReal.neg_sub (Or.inl hx.ne_bot) (Or.inl hx.ne_top), add_comm, ← sub_eq_add_neg]

end Cert.ReferenceIdeal.RefValue

end
-- ==== Proof.Ref.Gather.lean ====
/-
  One shape operation and three word facts a reference's value needs at an index.

  `x[:, :, ids]` of a `[B, C, N]` array at a vector of `P` positions is a gather whose result element `(b, c, p)` is
  the operand at `(b, c, n)`, `n` the start index of `p` read signed and clamped into `[0, N − 1]`: the first two
  operand axes are offset axes read through unchanged, the last is collapsed and start-indexed. The index wrap
  `select (i < 0) (i + N) i` at a small non-negative word is that number; the select on "row = column" of two
  `iota`s is the `if` on the coordinates; the f32 word `0xFF800000` is `−∞`.
-/
import Idealize.ShloMosaic.Lib.ValueIdx
import Idealize.ShloMosaic.Lib.DynamicIndex

noncomputable section

namespace Cert.ReferenceIdeal.RefValue

open Idealize.ShloMosaic Idealize.ShloMosaic.ValueIdx

section Gather
variable {α : Type}

/-- On the first operand axis (an offset axis) the gather reads the result's first coordinate. -/
theorem gather_column_coord0 {B C N P w : Nat}
    (d : GatherDims ⟨3, ![B, C, N]⟩ ⟨2, ![P, 1]⟩ ⟨3, ![B, C, P]⟩)
    (hoff : d.offsetDims = [0, 1]) (hcoll : d.collapsedSliceDims = [2]) (hob : d.operandBatchingDims = [])
    (hsim : d.startIndexMap = [2])
    (idx : IVec ⟨2, ![P, 1]⟩ w) (b : Fin B) (c : Fin C) (p : Fin P) :
    (d.operandIdx (ix3 b c p) idx 0).val = b.val := by
  have hb : (0 : Fin 3) ∉ d.operandBatchingDims := by rw [hob]; exact List.not_mem_nil
  have hm : (0 : Fin 3) ∉ d.startIndexMap := by
    rw [hsim]; exact (by decide : ¬ ((0 : Fin 3) ∈ ([2] : List (Fin 3))))
  have hk : (0 : Fin 3) ∈ d.sKept := by
    rw [GatherDims.mem_sKept, hcoll, hob]
    exact ⟨(by decide : ¬ ((0 : Fin 3) ∈ ([2] : List (Fin 3)))), List.not_mem_nil⟩
  have hi : d.sKept.idxOf (0 : Fin 3) = 0 := by
    show List.idxOf (0 : Fin 3) ((List.finRange 3).filter (· ∉ d.collapsedSliceDims ++ d.operandBatchingDims)) = 0
    rw [hcoll, hob]
    exact (by decide : List.idxOf (0 : Fin 3) ((List.finRange 3).filter (· ∉ ([2] ++ [] : List (Fin 3)))) = 0)
  show d.start _ idx 0 + d.batchCoord _ 0 + d.offCoord _ 0 = b.val
  rw [GatherDims.batchCoord_eq_zero _ _ _ hb]
  unfold GatherDims.start GatherDims.offCoord
  rw [dif_neg hm, dif_pos hk, Nat.add_zero, Nat.zero_add]
  have key : ∀ (l : List (Fin 3)) (n : ℕ) (h : n < l.length), l = [0, 1] → n = 0 →
      ((ix3 b c p) (l[n]'h)).val = b.val := by
    intro l n h hl hn; subst hl hn; rfl
  exact key _ _ _ hoff hi

/-- On the second operand axis (an offset axis) the gather reads the result's second coordinate. -/
theorem gather_column_coord1 {B C N P w : Nat}
    (d : GatherDims ⟨3, ![B, C, N]⟩ ⟨2, ![P, 1]⟩ ⟨3, ![B, C, P]⟩)
    (hoff : d.offsetDims = [0, 1]) (hcoll : d.collapsedSliceDims = [2]) (hob : d.operandBatchingDims = [])
    (hsim : d.startIndexMap = [2])
    (idx : IVec ⟨2, ![P, 1]⟩ w) (b : Fin B) (c : Fin C) (p : Fin P) :
    (d.operandIdx (ix3 b c p) idx 1).val = c.val := by
  have hb : (1 : Fin 3) ∉ d.operandBatchingDims := by rw [hob]; exact List.not_mem_nil
  have hm : (1 : Fin 3) ∉ d.startIndexMap := by
    rw [hsim]; exact (by decide : ¬ ((1 : Fin 3) ∈ ([2] : List (Fin 3))))
  have hk : (1 : Fin 3) ∈ d.sKept := by
    rw [GatherDims.mem_sKept, hcoll, hob]
    exact ⟨(by decide : ¬ ((1 : Fin 3) ∈ ([2] : List (Fin 3)))), List.not_mem_nil⟩
  have hi : d.sKept.idxOf (1 : Fin 3) = 1 := by
    show List.idxOf (1 : Fin 3) ((List.finRange 3).filter (· ∉ d.collapsedSliceDims ++ d.operandBatchingDims)) = 1
    rw [hcoll, hob]
    exact (by decide : List.idxOf (1 : Fin 3) ((List.finRange 3).filter (· ∉ ([2] ++ [] : List (Fin 3)))) = 1)
  show d.start _ idx 1 + d.batchCoord _ 1 + d.offCoord _ 1 = c.val
  rw [GatherDims.batchCoord_eq_zero _ _ _ hb]
  unfold GatherDims.start GatherDims.offCoord
  rw [dif_neg hm, dif_pos hk, Nat.add_zero, Nat.zero_add]
  have key : ∀ (l : List (Fin 3)) (n : ℕ) (h : n < l.length), l = [0, 1] → n = 1 →
      ((ix3 b c p) (l[n]'h)).val = c.val := by
    intro l n h hl hn; subst hl hn; rfl
  exact key _ _ _ hoff hi

/-- The start-indices row a result index reads is its last coordinate. -/
theorem gather_column_si0 {B C N P : Nat}
    (d : GatherDims ⟨3, ![B, C, N]⟩ ⟨2, ![P, 1]⟩ ⟨3, ![B, C, P]⟩)
    (hoff : d.offsetDims = [0, 1]) (hivd : d.indexVectorDim = 1)
    (b : Fin B) (c : Fin C) (p : Fin P) (h0 : (0 : Fin 2) ∈ d.siKept) :
    (d.siCoord (ix3 b c p) (0 : Fin 2) h0).val = p.val := by
  have hi : d.siKept.idxOf (0 : Fin 2) = 0 := by
    show List.idxOf (0 : Fin 2) ((List.finRange 2).filter (·.val ≠ d.indexVectorDim)) = 0
    rw [hivd]
    exact (by decide : List.idxOf (0 : Fin 2) ((List.finRange 2).filter (·.val ≠ 1)) = 0)
  have hbd : d.batchDims = [2] := by
    show (List.finRange 3).filter (· ∉ d.offsetDims) = [2]
    rw [hoff]
    exact (by decide : (List.finRange 3).filter (· ∉ ([0, 1] : List (Fin 3))) = [2])
  unfold GatherDims.siCoord
  simp only [Fin.val_cast]
  have key : ∀ (l : List (Fin 3)) (n : ℕ) (h : n < l.length), l = [2] → n = 0 →
      ((ix3 b c p) (l[n]'h)).val = p.val := by
    intro l n h hl hn; subst hl hn; rfl
  exact key _ _ _ hbd hi

/-- On the last operand axis (collapsed, start-indexed) the gather reads the clamped start index. -/
theorem gather_column_coord2 {B C N P w : Nat}
    (d : GatherDims ⟨3, ![B, C, N]⟩ ⟨2, ![P, 1]⟩ ⟨3, ![B, C, P]⟩)
    (hoff : d.offsetDims = [0, 1]) (hcoll : d.collapsedSliceDims = [2]) (hob : d.operandBatchingDims = [])
    (hsim : d.startIndexMap = [2]) (hivd : d.indexVectorDim = 1)
    (idx : IVec ⟨2, ![P, 1]⟩ w) (b : Fin B) (c : Fin C) (p : Fin P) :
    (d.operandIdx (ix3 b c p) idx 2).val = min (idx (ix2 p 0)).toInt.toNat (N - 1) := by
  have h2 : (2 : Fin 3) ∈ ([2] : List (Fin 3)) := List.mem_singleton.mpr rfl
  have hsl : d.sliceSizes 2 = 1 := d.slice_collapsed 2 (by rw [hcoll]; exact h2)
  have hb : (2 : Fin 3) ∉ d.operandBatchingDims := by rw [hob]; exact List.not_mem_nil
  have hm : (2 : Fin 3) ∈ d.startIndexMap := by rw [hsim]; exact h2
  have hk : (2 : Fin 3) ∉ d.sKept := by
    rw [GatherDims.mem_sKept, hcoll]; exact fun h => h.1 h2
  show d.start _ idx 2 + d.batchCoord _ 2 + d.offCoord _ 2 = _
  rw [GatherDims.batchCoord_eq_zero _ _ _ hb, GatherDims.offCoord_eq_zero _ _ _ hk]
  unfold GatherDims.start
  rw [dif_pos hm]
  show min _ (N - d.sliceSizes 2) = _
  rw [hsl]
  congr 3
  congr 1
  funext a
  refine Fin.ext ?_
  match a with
  | ⟨0, _⟩ =>
    unfold GatherDims.siIdx
    rw [dif_neg (by rw [hivd]; exact (by decide : ¬ (0 : ℕ) = 1))]
    exact gather_column_si0 d hoff hivd b c p _
  | ⟨1, _⟩ =>
    unfold GatherDims.siIdx
    rw [dif_pos (by rw [hivd])]
    show List.idxOf (2 : Fin 3) d.startIndexMap = 0
    rw [hsim]
    exact (by decide : List.idxOf (2 : Fin 3) ([2] : List (Fin 3)) = 0)

/-- THE GATHER READ AT `(b, c, p)`: the operand at `(b, c, ·)`, the last coordinate the start index `idx[p, 0]` read signed
    and clamped into `[0, N − 1]`. -/
theorem gather_column_apply {B C N P w : Nat} (hN : 0 < N)
    (d : GatherDims ⟨3, ![B, C, N]⟩ ⟨2, ![P, 1]⟩ ⟨3, ![B, C, P]⟩)
    (hoff : d.offsetDims = [0, 1]) (hcoll : d.collapsedSliceDims = [2]) (hob : d.operandBatchingDims = [])
    (hsim : d.startIndexMap = [2]) (hivd : d.indexVectorDim = 1)
    (x : (⟨3, ![B, C, N]⟩ : Shape).Idx → α) (idx : IVec ⟨2, ![P, 1]⟩ w) (b : Fin B) (c : Fin C) (p : Fin P) :
    Host.gather d x idx (ix3 b c p) = x (ix3 b c ⟨min (idx (ix2 p 0)).toInt.toNat (N - 1), by omega⟩) := by
  unfold Host.gather
  congr 1
  funext a
  refine Fin.ext ?_
  match a with
  | ⟨0, _⟩ => exact gather_column_coord0 d hoff hcoll hob hsim idx b c p
  | ⟨1, _⟩ => exact gather_column_coord1 d hoff hcoll hob hsim idx b c p
  | ⟨2, _⟩ => exact gather_column_coord2 d hoff hcoll hob hsim hivd idx b c p

/-- The same with the clamped start index named. -/
theorem gather_column_eq {B C N P w : Nat} (hN : 0 < N)
    (d : GatherDims ⟨3, ![B, C, N]⟩ ⟨2, ![P, 1]⟩ ⟨3, ![B, C, P]⟩)
    (hoff : d.offsetDims = [0, 1]) (hcoll : d.collapsedSliceDims = [2]) (hob : d.operandBatchingDims = [])
    (hsim : d.startIndexMap = [2]) (hivd : d.indexVectorDim = 1)
    (x : (⟨3, ![B, C, N]⟩ : Shape).Idx → α) (idx : IVec ⟨2, ![P, 1]⟩ w) (b : Fin B) (c : Fin C) (p : Fin P) (n : Fin N)
    (hn : min (idx (ix2 p 0)).toInt.toNat (N - 1) = n.val) :
    Host.gather d x idx (ix3 b c p) = x (ix3 b c n) := by
  rw [gather_column_apply hN d hoff hcoll hob hsim hivd]
  exact congrArg (fun m => x (ix3 b c m)) (Fin.ext hn)

end Gather

/-- The index wrap `select (i < 0) (i + N) i` at the word of a number below `2 ^ 31`, read signed, is that number. -/
theorem wrap_toNat (v N : BitVec 32) (n : ℕ) (hv : v = BitVec.ofNat 32 n) (hn : n < 2 ^ 31) :
    (Scalar.select (IntOp.cmpi .slt v 0#32) (IntOp.addi v N) v).toInt.toNat = n := by
  subst hv
  have h0 : (BitVec.ofNat 32 n).toInt = n := toInt_ofNat_of_lt hn
  have hlt : (BitVec.ofNat 32 n).slt 0#32 = false := by
    simp only [BitVec.slt, BitVec.toInt_zero, decide_eq_false_iff_not, Int.not_lt]
    rw [h0]; omega
  have hs : Scalar.select (IntOp.cmpi .slt (BitVec.ofNat 32 n) 0#32) (IntOp.addi (BitVec.ofNat 32 n) N)
      (BitVec.ofNat 32 n) = BitVec.ofNat 32 n := by
    show (if BitVec.ofBool ((BitVec.ofNat 32 n).slt 0#32) = 1 then _ else _) = _
    rw [hlt]
    rfl
  rw [hs, h0]
  exact Int.toNat_natCast n

/-- An equality comparison of two words holds exactly when they are equal. -/
theorem cmpi_eq_one_iff {w : ℕ} (a b : BitVec w) : IntOp.cmpi .eq a b = (1 : BitVec 1) ↔ a = b := by
  show BitVec.ofBool (a == b) = (1 : BitVec 1) ↔ a = b
  by_cases h : a = b
  · subst h
    rw [beq_self_eq_true]
    exact ⟨fun _ => rfl, fun _ => rfl⟩
  · rw [beq_eq_false_iff_ne.2 h]
    exact ⟨fun hc => absurd hc (by decide), fun hc => absurd hc h⟩

/-- The select on "row `p` = column `q`" of two 32-bit `iota`s, the row's with a zero added, is the `if` on the
    coordinates. -/
theorem select_diag {α : Type} {n : ℕ} (hn : n ≤ 2 ^ 32) (p q : Fin n) (A B : α) :
    Scalar.select (IntOp.cmpi .eq (IntOp.addi (BitVec.ofNat 32 p.val) 0#32) (BitVec.ofNat 32 q.val)) A B
      = if q = p then A else B := by
  have hz : IntOp.addi (BitVec.ofNat 32 p.val) 0#32 = BitVec.ofNat 32 p.val := BitVec.add_zero _
  rw [hz]
  have hiff : IntOp.cmpi .eq (BitVec.ofNat 32 p.val) (BitVec.ofNat 32 q.val) = (1 : BitVec 1) ↔ q = p := by
    rw [cmpi_eq_one_iff]
    constructor
    · intro e
      have e' := congrArg BitVec.toNat e
      rw [BitVec.toNat_ofNat, BitVec.toNat_ofNat, Nat.mod_eq_of_lt (by have := p.isLt; omega),
        Nat.mod_eq_of_lt (by have := q.isLt; omega)] at e'
      exact Fin.ext e'.symm
    · intro e
      rw [e]
  unfold Scalar.select
  by_cases h : q = p
  · rw [if_pos h, if_pos (hiff.2 h)]
  · rw [if_neg h, if_neg (fun hc => h (hiff.1 hc))]

/-- The f32 word `0xFF800000` is `−∞`. -/
theorem neg_inf_word : Ideal.ofBits .f32 0xFF800000#32 = ⊥ := by
  simp [Ideal.ofBits, Ideal.ieee]

end Cert.ReferenceIdeal.RefValue

end
-- ==== Proof.Ref.Layer0.lean ====
/-
  Layer 0 of the reference program is the specification's layer.

  Read index by index: the two `[4, 32, 131072]` arrays gathered at the 64 positions (the wrap of a position in range is
  the identity, the clamp too), each gathered column scaled by its floored length, the positive logit the inner product
  of the two unit columns at a patch, the negative logits the inner products across patches with `−∞` on the diagonal,
  the 65 logits laid side by side and divided by the temperature, and the negated log-softmax of slot 0. The host
  computes the largest logit as a fold of `max` from `−∞` and the normaliser as a sum from zero over all 65 slots; the
  algebra that turns this into the specification's arrangement is in the module of finiteness facts.
-/
import proofs.«430285_j43310450213294_2_alg».proof.Proof.Ref.ReadP
import proofs.«430285_j43310450213294_2_alg».proof.Proof.Spec
import proofs.«430285_j43310450213294_2_alg».proof.Proof.Ref.Algebra
import proofs.«430285_j43310450213294_2_alg».proof.Proof.Ref.Gather
import Idealize.ShloMosaic.PureOps.Reduce
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

namespace L0

variable (x0 x5 : S4x32x32x64x64.Idx → EReal) (x10 : IVec S64 32) (sel : Fin 64 → Fin 131072)

/-- The query's columns of batch entry `b`: column `p` is the reshaped array at position `sel p`. -/
def gq (b : Fin 4) : Fin 64 → Fin 32 → EReal := fun p c => val_main_v0 (F := Ideal) x0 (ix3 b c (sel p))

/-- The key's columns of batch entry `b`. -/
def gk (b : Fin 4) : Fin 64 → Fin 32 → EReal := fun p c => val_main_v8 (F := Ideal) x5 (ix3 b c (sel p))

/-- The query's start index of patch `p`, wrapped, read signed and clamped, is `sel p`. -/
theorem start_q (hsel : ∀ p : Fin 64, x10 (ix1 p) = BitVec.ofNat 32 (sel p).val) (p : Fin 64) :
    min (val_main_v6 (F := Ideal) x10 (ix2 p (0 : Fin 1))).toInt.toNat (131072 - 1) = (sel p).val := by
  have hi : idx_main_v6 (ix2 p (0 : Fin 1)) = ix1 p := funext fun a => Fin.ext (by match a with | ⟨0, _⟩ => rfl)
  rw [val_main_v6_apply, hi, val_main_v5_apply, val_main_v2_apply, val_main_v4_apply, val_main_v1_apply, val_main_c_apply,
    val_main_v3_apply, val_main_c_0_apply, wrap_toNat _ _ (sel p).val (hsel p) (by have := (sel p).isLt; omega)]
  exact Nat.min_eq_left (by have := (sel p).isLt; omega)

/-- The key's start index of patch `p` likewise. -/
theorem start_k (hsel : ∀ p : Fin 64, x10 (ix1 p) = BitVec.ofNat 32 (sel p).val) (p : Fin 64) :
    min (val_main_v14 (F := Ideal) x10 (ix2 p (0 : Fin 1))).toInt.toNat (131072 - 1) = (sel p).val := by
  have hi : idx_main_v14 (ix2 p (0 : Fin 1)) = ix1 p := funext fun a => Fin.ext (by match a with | ⟨0, _⟩ => rfl)
  rw [val_main_v14_apply, hi, val_main_v13_apply, val_main_v10_apply, val_main_v12_apply, val_main_v9_apply, val_main_c_1_apply,
    val_main_v11_apply, val_main_c_2_apply, wrap_toNat _ _ (sel p).val (hsel p) (by have := (sel p).isLt; omega)]
  exact Nat.min_eq_left (by have := (sel p).isLt; omega)

/-- The gathered query array at `(b, c, p)` is the query's column `p` at channel `c`. -/
theorem gathered_q (hsel : ∀ p : Fin 64, x10 (ix1 p) = BitVec.ofNat 32 (sel p).val) (b : Fin 4) (c : Fin 32) (p : Fin 64) :
    val_main_v7 (F := Ideal) x0 x10 (ix3 b c p) = gq x0 sel b p c := by
  unfold val_main_v7
  exact gather_column_eq (by decide) gather_S4x32x131072_S64x1_S4x32x64_01_2_n_n_2_1_4321 rfl rfl rfl rfl rfl _ _ b c p (sel p)
    (start_q x10 sel hsel p)

/-- The gathered key array at `(b, c, p)` is the key's column `p` at channel `c`. -/
theorem gathered_k (hsel : ∀ p : Fin 64, x10 (ix1 p) = BitVec.ofNat 32 (sel p).val) (b : Fin 4) (c : Fin 32) (p : Fin 64) :
    val_main_v15 (F := Ideal) x5 x10 (ix3 b c p) = gk x5 sel b p c := by
  unfold val_main_v15
  exact gather_column_eq (by decide) gather_S4x32x131072_S64x1_S4x32x64_01_2_n_n_2_1_4321 rfl rfl rfl rfl rfl _ _ b c p (sel p)
    (start_k x10 sel hsel p)

/-- The floored length of the query's column `p`. -/
theorem len_q (hsel : ∀ p : Fin 64, x10 (ix1 p) = BitVec.ofNat 32 (sel p).val) (b : Fin 4) (p : Fin 64) :
    val_main_v18 (F := Ideal) x0 x10 (ix3 b (0 : Fin 1) p) = max (Spec.norm (gq x0 sel b p)) Spec.eps := by
  have hi : ∀ k : Fin 32, idx_main_call0_v1 (idx_main_call0_v2 (ix3 b (0 : Fin 1) p)) k = ix3 b k p := fun k =>
    funext fun a => Fin.ext (by match a with | ⟨0, _⟩ => rfl | ⟨1, _⟩ => rfl | ⟨2, _⟩ => rfl)
  rw [val_main_v18_apply, val_main_v16_apply, val_main_call0_v2_apply, val_main_call0_v1_apply, val_main_call0_cst_apply,
    val_main_v17_apply, val_main_cst_apply]
  simp only [hi, val_main_call0_v0_apply, gathered_q x0 x10 sel hsel]
  simp only [Ideal.ofBits_def, Ideal.ofBits_zero_f32, zero_add, Ideal.mulf_def, Ideal.maximumf_def, Ideal.hostUnary_sqrt_def]
  rfl

/-- The floored length of the key's column `p`. -/
theorem len_k (hsel : ∀ p : Fin 64, x10 (ix1 p) = BitVec.ofNat 32 (sel p).val) (b : Fin 4) (p : Fin 64) :
    val_main_v23 (F := Ideal) x5 x10 (ix3 b (0 : Fin 1) p) = max (Spec.norm (gk x5 sel b p)) Spec.eps := by
  have hi : ∀ k : Fin 32, idx_main_call1_v1 (idx_main_call1_v2 (ix3 b (0 : Fin 1) p)) k = ix3 b k p := fun k =>
    funext fun a => Fin.ext (by match a with | ⟨0, _⟩ => rfl | ⟨1, _⟩ => rfl | ⟨2, _⟩ => rfl)
  rw [val_main_v23_apply, val_main_v21_apply, val_main_call1_v2_apply, val_main_call1_v1_apply, val_main_call1_cst_apply,
    val_main_v22_apply, val_main_cst_3_apply]
  simp only [hi, val_main_call1_v0_apply, gathered_k x5 x10 sel hsel]
  simp only [Ideal.ofBits_def, Ideal.ofBits_zero_f32, zero_add, Ideal.mulf_def, Ideal.maximumf_def, Ideal.hostUnary_sqrt_def]
  rfl

/-- The query's unit column `p` at channel `c`. -/
theorem unit_q (hsel : ∀ p : Fin 64, x10 (ix1 p) = BitVec.ofNat 32 (sel p).val) (b : Fin 4) (c : Fin 32) (p : Fin 64) :
    val_main_v20 (F := Ideal) x0 x10 (ix3 b c p) = Spec.unit (gq x0 sel b p) c := by
  have hi : idx_main_v19 (ix3 b c p) = ix3 b (0 : Fin 1) p :=
    funext fun a => Fin.ext (by match a with | ⟨0, _⟩ => rfl | ⟨1, _⟩ => rfl | ⟨2, _⟩ => rfl)
  rw [val_main_v20_apply, val_main_v19_apply, hi, len_q x0 x10 sel hsel, gathered_q x0 x10 sel hsel]
  rfl

/-- The key's unit column `p` at channel `c`. -/
theorem unit_k (hsel : ∀ p : Fin 64, x10 (ix1 p) = BitVec.ofNat 32 (sel p).val) (b : Fin 4) (c : Fin 32) (p : Fin 64) :
    val_main_v25 (F := Ideal) x5 x10 (ix3 b c p) = Spec.unit (gk x5 sel b p) c := by
  have hi : idx_main_v24 (ix3 b c p) = ix3 b (0 : Fin 1) p :=
    funext fun a => Fin.ext (by match a with | ⟨0, _⟩ => rfl | ⟨1, _⟩ => rfl | ⟨2, _⟩ => rfl)
  rw [val_main_v25_apply, val_main_v24_apply, hi, len_k x5 x10 sel hsel, gathered_k x5 x10 sel hsel]
  rfl

/-- The inner product of the two unit columns at patch `p`. -/
theorem inner_pos (hsel : ∀ p : Fin 64, x10 (ix1 p) = BitVec.ofNat 32 (sel p).val) (b : Fin 4) (p : Fin 64) :
    val_main_v27 (F := Ideal) x0 x5 x10 (ix2 b p)
      = ∑ c : Fin 32, Spec.unit (gq x0 sel b p) c * Spec.unit (gk x5 sel b p) c := by
  have hi : ∀ k : Fin 32, idx_main_v27 (ix2 b p) k = ix3 b k p := fun k =>
    funext fun a => Fin.ext (by match a with | ⟨0, _⟩ => rfl | ⟨1, _⟩ => rfl | ⟨2, _⟩ => rfl)
  rw [val_main_v27_apply, val_main_cst_4_apply]
  simp only [hi, val_main_v26_apply, unit_q x0 x10 sel hsel, unit_k x5 x10 sel hsel]
  simp only [Ideal.ofBits_def, Ideal.ofBits_zero_f32, zero_add, Ideal.mulf_def]

/-- The inner product of the query's unit column at `p` with the key's at `q`. -/
theorem inner_neg (hsel : ∀ p : Fin 64, x10 (ix1 p) = BitVec.ofNat 32 (sel p).val) (b : Fin 4) (p q : Fin 64) :
    val_main_v28 (F := Ideal) x0 x5 x10 (ix3 b p q)
      = ∑ c : Fin 32, Spec.unit (gq x0 sel b p) c * Spec.unit (gk x5 sel b q) c := by
  have hl : ∀ k : Fin 32, lidx_main_v28 (ix3 b p q) k = ix3 b k p := fun k =>
    funext fun a => Fin.ext (by match a with | ⟨0, _⟩ => rfl | ⟨1, _⟩ => rfl | ⟨2, _⟩ => rfl)
  have hr : ∀ k : Fin 32, ridx_main_v28 (ix3 b p q) k = ix3 b k q := fun k =>
    funext fun a => Fin.ext (by match a with | ⟨0, _⟩ => rfl | ⟨1, _⟩ => rfl | ⟨2, _⟩ => rfl)
  rw [val_main_v28_apply]
  simp only [hl, hr, unit_q x0 x10 sel hsel, unit_k x5 x10 sel hsel]

/-- The same with `−∞` on the diagonal. -/
theorem masked (hsel : ∀ p : Fin 64, x10 (ix1 p) = BitVec.ofNat 32 (sel p).val) (b : Fin 4) (p q : Fin 64) :
    val_main_v35 (F := Ideal) x0 x5 x10 (ix3 b p q)
      = if q = p then ⊥ else ∑ c : Fin 32, Spec.unit (gq x0 sel b p) c * Spec.unit (gk x5 sel b q) c := by
  rw [val_main_v35_apply, val_main_call2_v1_apply, val_main_v34_apply, val_main_v33_apply, val_main_v32_apply,
    val_main_v29_apply, val_main_v31_apply, val_main_c_5_apply, val_main_v30_apply, val_main_call2_v2_apply,
    val_main_call2_v0_apply, val_main_cst_6_apply, inner_neg x0 x5 x10 sel hsel]
  show Scalar.select (IntOp.cmpi .eq (IntOp.addi (BitVec.ofNat 32 p.val) 0#32) (BitVec.ofNat 32 q.val))
    (Ideal.ofBits .f32 0xFF800000#32) _ = _
  rw [select_diag (by decide) p q, neg_inf_word]

/-- Slot 0 of the 65 joined slots is the positive column. -/
theorem joined_zero (b : Fin 4) (p : Fin 64) :
    val_main_v37 (F := Ideal) x0 x5 x10 (ix3 b p (0 : Fin 65)) = val_main_v36 (F := Ideal) x0 x5 x10 (ix3 b p (0 : Fin 1)) := by
  unfold val_main_v37
  exact concatenate_pair_apply_left 2 _ _ concatenates_S4x64x1_S4x64x64_S4x64x65_d2 (ix3 b p (0 : Fin 65)) rfl
    (ix3 b p (0 : Fin 1)) (fun a => by match a with | ⟨0, _⟩ => rfl | ⟨1, _⟩ => rfl | ⟨2, _⟩ => rfl)

/-- Slot `1 + q` of the 65 joined slots is the masked square at `q`. -/
theorem joined_succ (b : Fin 4) (p q : Fin 64) :
    val_main_v37 (F := Ideal) x0 x5 x10 (ix3 b p q.succ) = val_main_v35 (F := Ideal) x0 x5 x10 (ix3 b p q) := by
  unfold val_main_v37
  exact concatenate_pair_apply_right 2 _ _ concatenates_S4x64x1_S4x64x64_S4x64x65_d2 (ix3 b p q.succ) rfl rfl
    (ix3 b p q)
    (fun a ha => by
      match a, ha with
      | ⟨0, _⟩, _ => rfl
      | ⟨1, _⟩, _ => rfl
      | ⟨2, _⟩, ha => exact absurd rfl ha)
    rfl

/-- The 65 logits of patch `p`. -/
theorem logit (hsel : ∀ p : Fin 64, x10 (ix1 p) = BitVec.ofNat 32 (sel p).val) (b : Fin 4) (p : Fin 64) (k : Fin 65) :
    val_main_v39 (F := Ideal) x0 x5 x10 (ix3 b p k) = logits (gq x0 sel b) (gk x5 sel b) p k := by
  rw [val_main_v39_apply, val_main_v38_apply, val_main_cst_7_apply]
  refine Fin.cases ?_ (fun q => ?_) k
  · have hi : idx_main_v36 (ix3 b p (0 : Fin 1)) = ix2 b p :=
      funext fun a => Fin.ext (by match a with | ⟨0, _⟩ => rfl | ⟨1, _⟩ => rfl)
    rw [joined_zero, val_main_v36_apply, hi, inner_pos x0 x5 x10 sel hsel]
    rfl
  · rw [joined_succ, masked x0 x5 x10 sel hsel, logits_succ]
    unfold Spec.neg
    by_cases h : q = p
    · rw [if_pos h, if_pos h]
      obtain ⟨t, ht, hte⟩ := tau_pos
      show Ideal.div ⊥ Spec.tau = ⊥
      rw [hte]
      exact div_bot_of_pos ht
    · rw [if_neg h, if_neg h]
      show Ideal.div _ Spec.tau = Ideal.div _ Spec.tau
      exact congrArg (fun s => Ideal.div s Spec.tau) (Finset.sum_congr rfl fun c _ => mul_comm _ _)

/-- A `[4, 64]` index with a coordinate put back on the dropped last axis. -/
theorem lift_last (h : S4x64x65.Reduces [2] S4x64) (b : Fin 4) (p : Fin 64) (k : Fin (S4x64x65.size 2)) :
    h.lift (ix2 b p) k = ix3 b p (⟨k.val, k.isLt⟩ : Fin 65) := by
  funext c; apply Fin.ext; fin_cases c <;> rfl

/-- The host's max-reduce over the 65 slots is the fold of `max` from `−∞` over the logits. -/
theorem largest (hsel : ∀ p : Fin 64, x10 (ix1 p) = BitVec.ofNat 32 (sel p).val) (b : Fin 4) (p : Fin 64) :
    val_main_call3_v0 (F := Ideal) x0 x5 x10 (ix2 b p)
      = (Finset.univ : Finset (Fin 65)).fold max ⊥ (logits (gq x0 sel b) (gk x5 sel b) p) := by
  have hred : S4x64x65.Reduces [2] S4x64 := by decide
  unfold val_main_call3_v0
  rw [Host.reduce_eq_fold_single FloatOps.maximumf _ _ reducesTo_S4x64x65_S4x64_d2 hred h_S_]
  have hf : (val_main_v39 (F := Ideal) x0 x5 x10 ∘ hred.lift (ix2 b p)) = logits (gq x0 sel b) (gk x5 sel b) p :=
    funext fun k => by
      show val_main_v39 (F := Ideal) x0 x5 x10 (hred.lift (ix2 b p) k) = _
      rw [lift_last hred b p k, logit x0 x5 x10 sel hsel]
      rfl
  rw [hf, val_main_call3_cst_apply]
  show Finset.fold max (Ideal.ofBits .f32 0xFF800000#32) _ _ = _
  rw [neg_inf_word]
  rfl

/-- A logit with the largest subtracted. -/
theorem shifted (hsel : ∀ p : Fin 64, x10 (ix1 p) = BitVec.ofNat 32 (sel p).val) (b : Fin 4) (p : Fin 64) (k : Fin 65) :
    val_main_call3_v5 (F := Ideal) x0 x5 x10 (ix3 b p k)
      = logits (gq x0 sel b) (gk x5 sel b) p k
        - max ⊥ ((Finset.univ : Finset (Fin 65)).fold max ⊥ (logits (gq x0 sel b) (gk x5 sel b) p)) := by
  have h4 : idx_main_call3_v4 (ix3 b p k) = ix3 b p (0 : Fin 1) :=
    funext fun a => Fin.ext (by match a with | ⟨0, _⟩ => rfl | ⟨1, _⟩ => rfl | ⟨2, _⟩ => rfl)
  have h3 : idx_main_call3_v3 (ix3 b p (0 : Fin 1)) = ix2 b p :=
    funext fun a => Fin.ext (by match a with | ⟨0, _⟩ => rfl | ⟨1, _⟩ => rfl)
  rw [val_main_call3_v5_apply, val_main_call3_v4_apply, h4, val_main_call3_v3_apply, h3, val_main_call3_v2_apply,
    val_main_call3_v1_apply, val_main_call3_cst_0_apply, logit x0 x5 x10 sel hsel, largest x0 x5 x10 sel hsel]
  show _ - max (Ideal.ofBits .f32 0xFF800000#32) _ = _
  rw [neg_inf_word]

/-- The logarithm of the normaliser. -/
theorem log_sum (hsel : ∀ p : Fin 64, x10 (ix1 p) = BitVec.ofNat 32 (sel p).val) (b : Fin 4) (p : Fin 64) :
    val_main_call3_v9 (F := Ideal) x0 x5 x10 (ix3 b p (0 : Fin 1))
      = Ideal.log (0 + ∑ k : Fin 65, Ideal.exp (logits (gq x0 sel b) (gk x5 sel b) p k
          - max ⊥ ((Finset.univ : Finset (Fin 65)).fold max ⊥ (logits (gq x0 sel b) (gk x5 sel b) p)))) := by
  have h8 : idx_main_call3_v8 (ix3 b p (0 : Fin 1)) = ix2 b p :=
    funext fun a => Fin.ext (by match a with | ⟨0, _⟩ => rfl | ⟨1, _⟩ => rfl)
  have h7 : ∀ k : Fin 65, idx_main_call3_v7 (ix2 b p) k = ix3 b p k := fun k =>
    funext fun a => Fin.ext (by match a with | ⟨0, _⟩ => rfl | ⟨1, _⟩ => rfl | ⟨2, _⟩ => rfl)
  rw [val_main_call3_v9_apply, val_main_call3_v8_apply, h8, val_main_call3_v7_apply, val_main_call3_cst_1_apply]
  simp only [h7, val_main_call3_v6_apply, shifted x0 x5 x10 sel hsel]
  simp only [Ideal.ofBits_def, Ideal.ofBits_zero_f32, Ideal.hostUnary_log_def, Ideal.hostUnary_exp_def]

/-- The layer's result at `(b, p)` is the loss of patch `p` over the gathered columns of batch entry `b`. -/
theorem out (hq : ∀ i, ∃ r : ℝ, x0 i = r) (hk : ∀ i, ∃ r : ℝ, x5 i = r)
    (hsel : ∀ p : Fin 64, x10 (ix1 p) = BitVec.ofNat 32 (sel p).val) (b : Fin 4) (p : Fin 64) :
    val_main_v43 (F := Ideal) x0 x5 x10 (ix2 b p) = Spec.loss (gq x0 sel b) (gk x5 sel b) p := by
  have hb := b.isLt
  have hp := p.isLt
  have h42 : idx_main_v42 (ix2 b p) = ix3 b p (0 : Fin 1) :=
    funext fun a => Fin.ext (by
      match a with
      | ⟨0, _⟩ => show (b.val * 64 + p.val) / 64 = b.val; omega
      | ⟨1, _⟩ => show (b.val * 64 + p.val) / 1 % 64 = p.val; omega
      | ⟨2, _⟩ => rfl)
  have h41 : idx_main_v41 (ix3 b p (0 : Fin 1)) = ix3 b p (0 : Fin 65) :=
    funext fun a => Fin.ext (by match a with | ⟨0, _⟩ => rfl | ⟨1, _⟩ => rfl | ⟨2, _⟩ => rfl)
  have h10 : idx_main_call3_v10 (ix3 b p (0 : Fin 65)) = ix3 b p (0 : Fin 1) :=
    funext fun a => Fin.ext (by match a with | ⟨0, _⟩ => rfl | ⟨1, _⟩ => rfl | ⟨2, _⟩ => rfl)
  have hq' : ∀ p c, IsReal (gq x0 sel b p c) := fun p c => by
    unfold gq; rw [val_main_v0_apply]; exact hq _
  have hk' : ∀ p c, IsReal (gk x5 sel b p c) := fun p c => by
    unfold gk; rw [val_main_v8_apply]; exact hk _
  rw [val_main_v43_apply, val_main_v42_apply, h42, val_main_v41_apply, h41, val_main_v40_apply, val_main_call3_v10_apply, h10,
    shifted x0 x5 x10 sel hsel, log_sum x0 x5 x10 sel hsel, ← neg_log_softmax_eq_loss _ _ hq' hk' p]
  rfl

end L0

/-- LAYER 0: the reference's `[4, 64]` array of losses is the specification's layer of the two reshaped arrays. -/
theorem layer0 (x0 x5 : S4x32x32x64x64.Idx → EReal) (x10 : IVec S64 32) (hq : ∀ i, ∃ r : ℝ, x0 i = r)
    (hk : ∀ i, ∃ r : ℝ, x5 i = r) (sel : Fin 64 → Fin 131072)
    (hsel : ∀ p : Fin 64, x10 (ValueIdx.ix1 p) = BitVec.ofNat 32 (sel p).val) (b : Fin 4) (p : Fin 64) :
    Read.val_main_v43 (F := Ideal) x0 x5 x10 (ValueIdx.ix2 b p)
      = Cert.Spec.layerOf (C := 32) (shapeCast _ x0 shapeCasts_S4x32x32x64x64_S4x32x131072)
          (shapeCast _ x5 shapeCasts_S4x32x32x64x64_S4x32x131072) sel b p :=
  L0.out x0 x5 x10 sel hq hk hsel b p

/-- LAYER 0's mean: the sum of the 256 losses from zero, over 256. -/
theorem mean0 (x0 x5 : S4x32x32x64x64.Idx → EReal) (x10 : IVec S64 32) (hq : ∀ i, ∃ r : ℝ, x0 i = r)
    (hk : ∀ i, ∃ r : ℝ, x5 i = r) (sel : Fin 64 → Fin 131072)
    (hsel : ∀ p : Fin 64, x10 (ValueIdx.ix1 p) = BitVec.ofNat 32 (sel p).val) :
    Read.val_main_v45 (F := Ideal) x0 x5 x10 ValueIdx.ix0
      = Cert.Spec.mean (Cert.Spec.layerOf (C := 32) (shapeCast _ x0 shapeCasts_S4x32x32x64x64_S4x32x131072)
          (shapeCast _ x5 shapeCasts_S4x32x32x64x64_S4x32x131072) sel) := by
  rw [val_main_v45_apply, val_main_v44_apply, val_main_cst_8_apply, val_main_cst_9_apply, ValueIdx.sum_idx2]
  simp only [layer0 x0 x5 x10 hq hk sel hsel]
  simp only [Ideal.ofBits_def, Ideal.ofBits_zero_f32]
  rfl

end Cert.ReferenceIdeal.RefValue

end
-- ==== Proof.Ref.Layer1.lean ====
/-
  Layer 1 of the reference program is the specification's layer.

  Read index by index: the two `[4, 64, 16384]` arrays gathered at the 64 positions (the wrap of a position in range is
  the identity, the clamp too), each gathered column scaled by its floored length, the positive logit the inner product
  of the two unit columns at a patch, the negative logits the inner products across patches with `−∞` on the diagonal,
  the 65 logits laid side by side and divided by the temperature, and the negated log-softmax of slot 0. The host
  computes the largest logit as a fold of `max` from `−∞` and the normaliser as a sum from zero over all 65 slots; the
  algebra that turns this into the specification's arrangement is in the module of finiteness facts.
-/
import proofs.«430285_j43310450213294_2_alg».proof.Proof.Ref.ReadP
import proofs.«430285_j43310450213294_2_alg».proof.Proof.Spec
import proofs.«430285_j43310450213294_2_alg».proof.Proof.Ref.Algebra
import proofs.«430285_j43310450213294_2_alg».proof.Proof.Ref.Gather
import Idealize.ShloMosaic.PureOps.Reduce
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

namespace L1

variable (x1 x6 : S4x64x16x32x32.Idx → EReal) (x11 : IVec S64 32) (sel : Fin 64 → Fin 16384)

/-- The query's columns of batch entry `b`: column `p` is the reshaped array at position `sel p`. -/
def gq (b : Fin 4) : Fin 64 → Fin 64 → EReal := fun p c => val_main_v47 (F := Ideal) x1 (ix3 b c (sel p))

/-- The key's columns of batch entry `b`. -/
def gk (b : Fin 4) : Fin 64 → Fin 64 → EReal := fun p c => val_main_v55 (F := Ideal) x6 (ix3 b c (sel p))

/-- The query's start index of patch `p`, wrapped, read signed and clamped, is `sel p`. -/
theorem start_q (hsel : ∀ p : Fin 64, x11 (ix1 p) = BitVec.ofNat 32 (sel p).val) (p : Fin 64) :
    min (val_main_v53 (F := Ideal) x11 (ix2 p (0 : Fin 1))).toInt.toNat (16384 - 1) = (sel p).val := by
  have hi : idx_main_v53 (ix2 p (0 : Fin 1)) = ix1 p := funext fun a => Fin.ext (by match a with | ⟨0, _⟩ => rfl)
  rw [val_main_v53_apply, hi, val_main_v52_apply, val_main_v49_apply, val_main_v51_apply, val_main_v48_apply, val_main_c_11_apply,
    val_main_v50_apply, val_main_c_12_apply, wrap_toNat _ _ (sel p).val (hsel p) (by have := (sel p).isLt; omega)]
  exact Nat.min_eq_left (by have := (sel p).isLt; omega)

/-- The key's start index of patch `p` likewise. -/
theorem start_k (hsel : ∀ p : Fin 64, x11 (ix1 p) = BitVec.ofNat 32 (sel p).val) (p : Fin 64) :
    min (val_main_v61 (F := Ideal) x11 (ix2 p (0 : Fin 1))).toInt.toNat (16384 - 1) = (sel p).val := by
  have hi : idx_main_v61 (ix2 p (0 : Fin 1)) = ix1 p := funext fun a => Fin.ext (by match a with | ⟨0, _⟩ => rfl)
  rw [val_main_v61_apply, hi, val_main_v60_apply, val_main_v57_apply, val_main_v59_apply, val_main_v56_apply, val_main_c_13_apply,
    val_main_v58_apply, val_main_c_14_apply, wrap_toNat _ _ (sel p).val (hsel p) (by have := (sel p).isLt; omega)]
  exact Nat.min_eq_left (by have := (sel p).isLt; omega)

/-- The gathered query array at `(b, c, p)` is the query's column `p` at channel `c`. -/
theorem gathered_q (hsel : ∀ p : Fin 64, x11 (ix1 p) = BitVec.ofNat 32 (sel p).val) (b : Fin 4) (c : Fin 64) (p : Fin 64) :
    val_main_v54 (F := Ideal) x1 x11 (ix3 b c p) = gq x1 sel b p c := by
  unfold val_main_v54
  exact gather_column_eq (by decide) gather_S4x64x16384_S64x1_S4x64x64_01_2_n_n_2_1_4641 rfl rfl rfl rfl rfl _ _ b c p (sel p)
    (start_q x11 sel hsel p)

/-- The gathered key array at `(b, c, p)` is the key's column `p` at channel `c`. -/
theorem gathered_k (hsel : ∀ p : Fin 64, x11 (ix1 p) = BitVec.ofNat 32 (sel p).val) (b : Fin 4) (c : Fin 64) (p : Fin 64) :
    val_main_v62 (F := Ideal) x6 x11 (ix3 b c p) = gk x6 sel b p c := by
  unfold val_main_v62
  exact gather_column_eq (by decide) gather_S4x64x16384_S64x1_S4x64x64_01_2_n_n_2_1_4641 rfl rfl rfl rfl rfl _ _ b c p (sel p)
    (start_k x11 sel hsel p)

/-- The floored length of the query's column `p`. -/
theorem len_q (hsel : ∀ p : Fin 64, x11 (ix1 p) = BitVec.ofNat 32 (sel p).val) (b : Fin 4) (p : Fin 64) :
    val_main_v65 (F := Ideal) x1 x11 (ix3 b (0 : Fin 1) p) = max (Spec.norm (gq x1 sel b p)) Spec.eps := by
  have hi : ∀ k : Fin 64, idx_main_call4_v1 (idx_main_call4_v2 (ix3 b (0 : Fin 1) p)) k = ix3 b k p := fun k =>
    funext fun a => Fin.ext (by match a with | ⟨0, _⟩ => rfl | ⟨1, _⟩ => rfl | ⟨2, _⟩ => rfl)
  rw [val_main_v65_apply, val_main_v63_apply, val_main_call4_v2_apply, val_main_call4_v1_apply, val_main_call4_cst_apply,
    val_main_v64_apply, val_main_cst_15_apply]
  simp only [hi, val_main_call4_v0_apply, gathered_q x1 x11 sel hsel]
  simp only [Ideal.ofBits_def, Ideal.ofBits_zero_f32, zero_add, Ideal.mulf_def, Ideal.maximumf_def, Ideal.hostUnary_sqrt_def]
  rfl

/-- The floored length of the key's column `p`. -/
theorem len_k (hsel : ∀ p : Fin 64, x11 (ix1 p) = BitVec.ofNat 32 (sel p).val) (b : Fin 4) (p : Fin 64) :
    val_main_v70 (F := Ideal) x6 x11 (ix3 b (0 : Fin 1) p) = max (Spec.norm (gk x6 sel b p)) Spec.eps := by
  have hi : ∀ k : Fin 64, idx_main_call5_v1 (idx_main_call5_v2 (ix3 b (0 : Fin 1) p)) k = ix3 b k p := fun k =>
    funext fun a => Fin.ext (by match a with | ⟨0, _⟩ => rfl | ⟨1, _⟩ => rfl | ⟨2, _⟩ => rfl)
  rw [val_main_v70_apply, val_main_v68_apply, val_main_call5_v2_apply, val_main_call5_v1_apply, val_main_call5_cst_apply,
    val_main_v69_apply, val_main_cst_16_apply]
  simp only [hi, val_main_call5_v0_apply, gathered_k x6 x11 sel hsel]
  simp only [Ideal.ofBits_def, Ideal.ofBits_zero_f32, zero_add, Ideal.mulf_def, Ideal.maximumf_def, Ideal.hostUnary_sqrt_def]
  rfl

/-- The query's unit column `p` at channel `c`. -/
theorem unit_q (hsel : ∀ p : Fin 64, x11 (ix1 p) = BitVec.ofNat 32 (sel p).val) (b : Fin 4) (c : Fin 64) (p : Fin 64) :
    val_main_v67 (F := Ideal) x1 x11 (ix3 b c p) = Spec.unit (gq x1 sel b p) c := by
  have hi : idx_main_v66 (ix3 b c p) = ix3 b (0 : Fin 1) p :=
    funext fun a => Fin.ext (by match a with | ⟨0, _⟩ => rfl | ⟨1, _⟩ => rfl | ⟨2, _⟩ => rfl)
  rw [val_main_v67_apply, val_main_v66_apply, hi, len_q x1 x11 sel hsel, gathered_q x1 x11 sel hsel]
  rfl

/-- The key's unit column `p` at channel `c`. -/
theorem unit_k (hsel : ∀ p : Fin 64, x11 (ix1 p) = BitVec.ofNat 32 (sel p).val) (b : Fin 4) (c : Fin 64) (p : Fin 64) :
    val_main_v72 (F := Ideal) x6 x11 (ix3 b c p) = Spec.unit (gk x6 sel b p) c := by
  have hi : idx_main_v71 (ix3 b c p) = ix3 b (0 : Fin 1) p :=
    funext fun a => Fin.ext (by match a with | ⟨0, _⟩ => rfl | ⟨1, _⟩ => rfl | ⟨2, _⟩ => rfl)
  rw [val_main_v72_apply, val_main_v71_apply, hi, len_k x6 x11 sel hsel, gathered_k x6 x11 sel hsel]
  rfl

/-- The inner product of the two unit columns at patch `p`. -/
theorem inner_pos (hsel : ∀ p : Fin 64, x11 (ix1 p) = BitVec.ofNat 32 (sel p).val) (b : Fin 4) (p : Fin 64) :
    val_main_v74 (F := Ideal) x1 x6 x11 (ix2 b p)
      = ∑ c : Fin 64, Spec.unit (gq x1 sel b p) c * Spec.unit (gk x6 sel b p) c := by
  have hi : ∀ k : Fin 64, idx_main_v74 (ix2 b p) k = ix3 b k p := fun k =>
    funext fun a => Fin.ext (by match a with | ⟨0, _⟩ => rfl | ⟨1, _⟩ => rfl | ⟨2, _⟩ => rfl)
  rw [val_main_v74_apply, val_main_cst_17_apply]
  simp only [hi, val_main_v73_apply, unit_q x1 x11 sel hsel, unit_k x6 x11 sel hsel]
  simp only [Ideal.ofBits_def, Ideal.ofBits_zero_f32, zero_add, Ideal.mulf_def]

/-- The inner product of the query's unit column at `p` with the key's at `q`. -/
theorem inner_neg (hsel : ∀ p : Fin 64, x11 (ix1 p) = BitVec.ofNat 32 (sel p).val) (b : Fin 4) (p q : Fin 64) :
    val_main_v75 (F := Ideal) x1 x6 x11 (ix3 b p q)
      = ∑ c : Fin 64, Spec.unit (gq x1 sel b p) c * Spec.unit (gk x6 sel b q) c := by
  have hl : ∀ k : Fin 64, lidx_main_v75 (ix3 b p q) k = ix3 b k p := fun k =>
    funext fun a => Fin.ext (by match a with | ⟨0, _⟩ => rfl | ⟨1, _⟩ => rfl | ⟨2, _⟩ => rfl)
  have hr : ∀ k : Fin 64, ridx_main_v75 (ix3 b p q) k = ix3 b k q := fun k =>
    funext fun a => Fin.ext (by match a with | ⟨0, _⟩ => rfl | ⟨1, _⟩ => rfl | ⟨2, _⟩ => rfl)
  rw [val_main_v75_apply]
  simp only [hl, hr, unit_q x1 x11 sel hsel, unit_k x6 x11 sel hsel]

/-- The same with `−∞` on the diagonal. -/
theorem masked (hsel : ∀ p : Fin 64, x11 (ix1 p) = BitVec.ofNat 32 (sel p).val) (b : Fin 4) (p q : Fin 64) :
    val_main_v82 (F := Ideal) x1 x6 x11 (ix3 b p q)
      = if q = p then ⊥ else ∑ c : Fin 64, Spec.unit (gq x1 sel b p) c * Spec.unit (gk x6 sel b q) c := by
  rw [val_main_v82_apply, val_main_call6_v1_apply, val_main_v81_apply, val_main_v80_apply, val_main_v79_apply,
    val_main_v76_apply, val_main_v78_apply, val_main_c_18_apply, val_main_v77_apply, val_main_call6_v2_apply,
    val_main_call6_v0_apply, val_main_cst_19_apply, inner_neg x1 x6 x11 sel hsel]
  show Scalar.select (IntOp.cmpi .eq (IntOp.addi (BitVec.ofNat 32 p.val) 0#32) (BitVec.ofNat 32 q.val))
    (Ideal.ofBits .f32 0xFF800000#32) _ = _
  rw [select_diag (by decide) p q, neg_inf_word]

/-- Slot 0 of the 65 joined slots is the positive column. -/
theorem joined_zero (b : Fin 4) (p : Fin 64) :
    val_main_v84 (F := Ideal) x1 x6 x11 (ix3 b p (0 : Fin 65)) = val_main_v83 (F := Ideal) x1 x6 x11 (ix3 b p (0 : Fin 1)) := by
  unfold val_main_v84
  exact concatenate_pair_apply_left 2 _ _ concatenates_S4x64x1_S4x64x64_S4x64x65_d2 (ix3 b p (0 : Fin 65)) rfl
    (ix3 b p (0 : Fin 1)) (fun a => by match a with | ⟨0, _⟩ => rfl | ⟨1, _⟩ => rfl | ⟨2, _⟩ => rfl)

/-- Slot `1 + q` of the 65 joined slots is the masked square at `q`. -/
theorem joined_succ (b : Fin 4) (p q : Fin 64) :
    val_main_v84 (F := Ideal) x1 x6 x11 (ix3 b p q.succ) = val_main_v82 (F := Ideal) x1 x6 x11 (ix3 b p q) := by
  unfold val_main_v84
  exact concatenate_pair_apply_right 2 _ _ concatenates_S4x64x1_S4x64x64_S4x64x65_d2 (ix3 b p q.succ) rfl rfl
    (ix3 b p q)
    (fun a ha => by
      match a, ha with
      | ⟨0, _⟩, _ => rfl
      | ⟨1, _⟩, _ => rfl
      | ⟨2, _⟩, ha => exact absurd rfl ha)
    rfl

/-- The 65 logits of patch `p`. -/
theorem logit (hsel : ∀ p : Fin 64, x11 (ix1 p) = BitVec.ofNat 32 (sel p).val) (b : Fin 4) (p : Fin 64) (k : Fin 65) :
    val_main_v86 (F := Ideal) x1 x6 x11 (ix3 b p k) = logits (gq x1 sel b) (gk x6 sel b) p k := by
  rw [val_main_v86_apply, val_main_v85_apply, val_main_cst_20_apply]
  refine Fin.cases ?_ (fun q => ?_) k
  · have hi : idx_main_v83 (ix3 b p (0 : Fin 1)) = ix2 b p :=
      funext fun a => Fin.ext (by match a with | ⟨0, _⟩ => rfl | ⟨1, _⟩ => rfl)
    rw [joined_zero, val_main_v83_apply, hi, inner_pos x1 x6 x11 sel hsel]
    rfl
  · rw [joined_succ, masked x1 x6 x11 sel hsel, logits_succ]
    unfold Spec.neg
    by_cases h : q = p
    · rw [if_pos h, if_pos h]
      obtain ⟨t, ht, hte⟩ := tau_pos
      show Ideal.div ⊥ Spec.tau = ⊥
      rw [hte]
      exact div_bot_of_pos ht
    · rw [if_neg h, if_neg h]
      show Ideal.div _ Spec.tau = Ideal.div _ Spec.tau
      exact congrArg (fun s => Ideal.div s Spec.tau) (Finset.sum_congr rfl fun c _ => mul_comm _ _)

/-- A `[4, 64]` index with a coordinate put back on the dropped last axis. -/
theorem lift_last (h : S4x64x65.Reduces [2] S4x64) (b : Fin 4) (p : Fin 64) (k : Fin (S4x64x65.size 2)) :
    h.lift (ix2 b p) k = ix3 b p (⟨k.val, k.isLt⟩ : Fin 65) := by
  funext c; apply Fin.ext; fin_cases c <;> rfl

/-- The host's max-reduce over the 65 slots is the fold of `max` from `−∞` over the logits. -/
theorem largest (hsel : ∀ p : Fin 64, x11 (ix1 p) = BitVec.ofNat 32 (sel p).val) (b : Fin 4) (p : Fin 64) :
    val_main_call7_v0 (F := Ideal) x1 x6 x11 (ix2 b p)
      = (Finset.univ : Finset (Fin 65)).fold max ⊥ (logits (gq x1 sel b) (gk x6 sel b) p) := by
  have hred : S4x64x65.Reduces [2] S4x64 := by decide
  unfold val_main_call7_v0
  rw [Host.reduce_eq_fold_single FloatOps.maximumf _ _ reducesTo_S4x64x65_S4x64_d2 hred h_S_]
  have hf : (val_main_v86 (F := Ideal) x1 x6 x11 ∘ hred.lift (ix2 b p)) = logits (gq x1 sel b) (gk x6 sel b) p :=
    funext fun k => by
      show val_main_v86 (F := Ideal) x1 x6 x11 (hred.lift (ix2 b p) k) = _
      rw [lift_last hred b p k, logit x1 x6 x11 sel hsel]
      rfl
  rw [hf, val_main_call7_cst_apply]
  show Finset.fold max (Ideal.ofBits .f32 0xFF800000#32) _ _ = _
  rw [neg_inf_word]
  rfl

/-- A logit with the largest subtracted. -/
theorem shifted (hsel : ∀ p : Fin 64, x11 (ix1 p) = BitVec.ofNat 32 (sel p).val) (b : Fin 4) (p : Fin 64) (k : Fin 65) :
    val_main_call7_v5 (F := Ideal) x1 x6 x11 (ix3 b p k)
      = logits (gq x1 sel b) (gk x6 sel b) p k
        - max ⊥ ((Finset.univ : Finset (Fin 65)).fold max ⊥ (logits (gq x1 sel b) (gk x6 sel b) p)) := by
  have h4 : idx_main_call7_v4 (ix3 b p k) = ix3 b p (0 : Fin 1) :=
    funext fun a => Fin.ext (by match a with | ⟨0, _⟩ => rfl | ⟨1, _⟩ => rfl | ⟨2, _⟩ => rfl)
  have h3 : idx_main_call7_v3 (ix3 b p (0 : Fin 1)) = ix2 b p :=
    funext fun a => Fin.ext (by match a with | ⟨0, _⟩ => rfl | ⟨1, _⟩ => rfl)
  rw [val_main_call7_v5_apply, val_main_call7_v4_apply, h4, val_main_call7_v3_apply, h3, val_main_call7_v2_apply,
    val_main_call7_v1_apply, val_main_call7_cst_0_apply, logit x1 x6 x11 sel hsel, largest x1 x6 x11 sel hsel]
  show _ - max (Ideal.ofBits .f32 0xFF800000#32) _ = _
  rw [neg_inf_word]

/-- The logarithm of the normaliser. -/
theorem log_sum (hsel : ∀ p : Fin 64, x11 (ix1 p) = BitVec.ofNat 32 (sel p).val) (b : Fin 4) (p : Fin 64) :
    val_main_call7_v9 (F := Ideal) x1 x6 x11 (ix3 b p (0 : Fin 1))
      = Ideal.log (0 + ∑ k : Fin 65, Ideal.exp (logits (gq x1 sel b) (gk x6 sel b) p k
          - max ⊥ ((Finset.univ : Finset (Fin 65)).fold max ⊥ (logits (gq x1 sel b) (gk x6 sel b) p)))) := by
  have h8 : idx_main_call7_v8 (ix3 b p (0 : Fin 1)) = ix2 b p :=
    funext fun a => Fin.ext (by match a with | ⟨0, _⟩ => rfl | ⟨1, _⟩ => rfl)
  have h7 : ∀ k : Fin 65, idx_main_call7_v7 (ix2 b p) k = ix3 b p k := fun k =>
    funext fun a => Fin.ext (by match a with | ⟨0, _⟩ => rfl | ⟨1, _⟩ => rfl | ⟨2, _⟩ => rfl)
  rw [val_main_call7_v9_apply, val_main_call7_v8_apply, h8, val_main_call7_v7_apply, val_main_call7_cst_1_apply]
  simp only [h7, val_main_call7_v6_apply, shifted x1 x6 x11 sel hsel]
  simp only [Ideal.ofBits_def, Ideal.ofBits_zero_f32, Ideal.hostUnary_log_def, Ideal.hostUnary_exp_def]

/-- The layer's result at `(b, p)` is the loss of patch `p` over the gathered columns of batch entry `b`. -/
theorem out (hq : ∀ i, ∃ r : ℝ, x1 i = r) (hk : ∀ i, ∃ r : ℝ, x6 i = r)
    (hsel : ∀ p : Fin 64, x11 (ix1 p) = BitVec.ofNat 32 (sel p).val) (b : Fin 4) (p : Fin 64) :
    val_main_v90 (F := Ideal) x1 x6 x11 (ix2 b p) = Spec.loss (gq x1 sel b) (gk x6 sel b) p := by
  have hb := b.isLt
  have hp := p.isLt
  have h42 : idx_main_v89 (ix2 b p) = ix3 b p (0 : Fin 1) :=
    funext fun a => Fin.ext (by
      match a with
      | ⟨0, _⟩ => show (b.val * 64 + p.val) / 64 = b.val; omega
      | ⟨1, _⟩ => show (b.val * 64 + p.val) / 1 % 64 = p.val; omega
      | ⟨2, _⟩ => rfl)
  have h41 : idx_main_v88 (ix3 b p (0 : Fin 1)) = ix3 b p (0 : Fin 65) :=
    funext fun a => Fin.ext (by match a with | ⟨0, _⟩ => rfl | ⟨1, _⟩ => rfl | ⟨2, _⟩ => rfl)
  have h10 : idx_main_call7_v10 (ix3 b p (0 : Fin 65)) = ix3 b p (0 : Fin 1) :=
    funext fun a => Fin.ext (by match a with | ⟨0, _⟩ => rfl | ⟨1, _⟩ => rfl | ⟨2, _⟩ => rfl)
  have hq' : ∀ p c, IsReal (gq x1 sel b p c) := fun p c => by
    unfold gq; rw [val_main_v47_apply]; exact hq _
  have hk' : ∀ p c, IsReal (gk x6 sel b p c) := fun p c => by
    unfold gk; rw [val_main_v55_apply]; exact hk _
  rw [val_main_v90_apply, val_main_v89_apply, h42, val_main_v88_apply, h41, val_main_v87_apply, val_main_call7_v10_apply, h10,
    shifted x1 x6 x11 sel hsel, log_sum x1 x6 x11 sel hsel, ← neg_log_softmax_eq_loss _ _ hq' hk' p]
  rfl

end L1

/-- LAYER 1: the reference's `[4, 64]` array of losses is the specification's layer of the two reshaped arrays. -/
theorem layer1 (x1 x6 : S4x64x16x32x32.Idx → EReal) (x11 : IVec S64 32) (hq : ∀ i, ∃ r : ℝ, x1 i = r)
    (hk : ∀ i, ∃ r : ℝ, x6 i = r) (sel : Fin 64 → Fin 16384)
    (hsel : ∀ p : Fin 64, x11 (ValueIdx.ix1 p) = BitVec.ofNat 32 (sel p).val) (b : Fin 4) (p : Fin 64) :
    Read.val_main_v90 (F := Ideal) x1 x6 x11 (ValueIdx.ix2 b p)
      = Cert.Spec.layerOf (C := 64) (shapeCast _ x1 shapeCasts_S4x64x16x32x32_S4x64x16384)
          (shapeCast _ x6 shapeCasts_S4x64x16x32x32_S4x64x16384) sel b p :=
  L1.out x1 x6 x11 sel hq hk hsel b p

/-- LAYER 1's mean: the sum of the 256 losses from zero, over 256. -/
theorem mean1 (x1 x6 : S4x64x16x32x32.Idx → EReal) (x11 : IVec S64 32) (hq : ∀ i, ∃ r : ℝ, x1 i = r)
    (hk : ∀ i, ∃ r : ℝ, x6 i = r) (sel : Fin 64 → Fin 16384)
    (hsel : ∀ p : Fin 64, x11 (ValueIdx.ix1 p) = BitVec.ofNat 32 (sel p).val) :
    Read.val_main_v92 (F := Ideal) x1 x6 x11 ValueIdx.ix0
      = Cert.Spec.mean (Cert.Spec.layerOf (C := 64) (shapeCast _ x1 shapeCasts_S4x64x16x32x32_S4x64x16384)
          (shapeCast _ x6 shapeCasts_S4x64x16x32x32_S4x64x16384) sel) := by
  rw [val_main_v92_apply, val_main_v91_apply, val_main_cst_21_apply, val_main_cst_22_apply, ValueIdx.sum_idx2]
  simp only [layer1 x1 x6 x11 hq hk sel hsel]
  simp only [Ideal.ofBits_def, Ideal.ofBits_zero_f32]
  rfl

end Cert.ReferenceIdeal.RefValue

end
-- ==== Proof.Ref.Layer2.lean ====
/-
  Layer 2 of the reference program is the specification's layer.

  Read index by index: the two `[4, 128, 2048]` arrays gathered at the 64 positions (the wrap of a position in range is
  the identity, the clamp too), each gathered column scaled by its floored length, the positive logit the inner product
  of the two unit columns at a patch, the negative logits the inner products across patches with `−∞` on the diagonal,
  the 65 logits laid side by side and divided by the temperature, and the negated log-softmax of slot 0. The host
  computes the largest logit as a fold of `max` from `−∞` and the normaliser as a sum from zero over all 65 slots; the
  algebra that turns this into the specification's arrangement is in the module of finiteness facts.
-/
import proofs.«430285_j43310450213294_2_alg».proof.Proof.Ref.ReadP
import proofs.«430285_j43310450213294_2_alg».proof.Proof.Spec
import proofs.«430285_j43310450213294_2_alg».proof.Proof.Ref.Algebra
import proofs.«430285_j43310450213294_2_alg».proof.Proof.Ref.Gather
import Idealize.ShloMosaic.PureOps.Reduce
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

namespace L2

variable (x2 x7 : S4x128x8x16x16.Idx → EReal) (x12 : IVec S64 32) (sel : Fin 64 → Fin 2048)

/-- The query's columns of batch entry `b`: column `p` is the reshaped array at position `sel p`. -/
def gq (b : Fin 4) : Fin 64 → Fin 128 → EReal := fun p c => val_main_v94 (F := Ideal) x2 (ix3 b c (sel p))

/-- The key's columns of batch entry `b`. -/
def gk (b : Fin 4) : Fin 64 → Fin 128 → EReal := fun p c => val_main_v102 (F := Ideal) x7 (ix3 b c (sel p))

/-- The query's start index of patch `p`, wrapped, read signed and clamped, is `sel p`. -/
theorem start_q (hsel : ∀ p : Fin 64, x12 (ix1 p) = BitVec.ofNat 32 (sel p).val) (p : Fin 64) :
    min (val_main_v100 (F := Ideal) x12 (ix2 p (0 : Fin 1))).toInt.toNat (2048 - 1) = (sel p).val := by
  have hi : idx_main_v100 (ix2 p (0 : Fin 1)) = ix1 p := funext fun a => Fin.ext (by match a with | ⟨0, _⟩ => rfl)
  rw [val_main_v100_apply, hi, val_main_v99_apply, val_main_v96_apply, val_main_v98_apply, val_main_v95_apply, val_main_c_23_apply,
    val_main_v97_apply, val_main_c_24_apply, wrap_toNat _ _ (sel p).val (hsel p) (by have := (sel p).isLt; omega)]
  exact Nat.min_eq_left (by have := (sel p).isLt; omega)

/-- The key's start index of patch `p` likewise. -/
theorem start_k (hsel : ∀ p : Fin 64, x12 (ix1 p) = BitVec.ofNat 32 (sel p).val) (p : Fin 64) :
    min (val_main_v108 (F := Ideal) x12 (ix2 p (0 : Fin 1))).toInt.toNat (2048 - 1) = (sel p).val := by
  have hi : idx_main_v108 (ix2 p (0 : Fin 1)) = ix1 p := funext fun a => Fin.ext (by match a with | ⟨0, _⟩ => rfl)
  rw [val_main_v108_apply, hi, val_main_v107_apply, val_main_v104_apply, val_main_v106_apply, val_main_v103_apply, val_main_c_25_apply,
    val_main_v105_apply, val_main_c_26_apply, wrap_toNat _ _ (sel p).val (hsel p) (by have := (sel p).isLt; omega)]
  exact Nat.min_eq_left (by have := (sel p).isLt; omega)

/-- The gathered query array at `(b, c, p)` is the query's column `p` at channel `c`. -/
theorem gathered_q (hsel : ∀ p : Fin 64, x12 (ix1 p) = BitVec.ofNat 32 (sel p).val) (b : Fin 4) (c : Fin 128) (p : Fin 64) :
    val_main_v101 (F := Ideal) x2 x12 (ix3 b c p) = gq x2 sel b p c := by
  unfold val_main_v101
  exact gather_column_eq (by decide) gather_S4x128x2048_S64x1_S4x128x64_01_2_n_n_2_1_41281 rfl rfl rfl rfl rfl _ _ b c p (sel p)
    (start_q x12 sel hsel p)

/-- The gathered key array at `(b, c, p)` is the key's column `p` at channel `c`. -/
theorem gathered_k (hsel : ∀ p : Fin 64, x12 (ix1 p) = BitVec.ofNat 32 (sel p).val) (b : Fin 4) (c : Fin 128) (p : Fin 64) :
    val_main_v109 (F := Ideal) x7 x12 (ix3 b c p) = gk x7 sel b p c := by
  unfold val_main_v109
  exact gather_column_eq (by decide) gather_S4x128x2048_S64x1_S4x128x64_01_2_n_n_2_1_41281 rfl rfl rfl rfl rfl _ _ b c p (sel p)
    (start_k x12 sel hsel p)

/-- The floored length of the query's column `p`. -/
theorem len_q (hsel : ∀ p : Fin 64, x12 (ix1 p) = BitVec.ofNat 32 (sel p).val) (b : Fin 4) (p : Fin 64) :
    val_main_v112 (F := Ideal) x2 x12 (ix3 b (0 : Fin 1) p) = max (Spec.norm (gq x2 sel b p)) Spec.eps := by
  have hi : ∀ k : Fin 128, idx_main_call8_v1 (idx_main_call8_v2 (ix3 b (0 : Fin 1) p)) k = ix3 b k p := fun k =>
    funext fun a => Fin.ext (by match a with | ⟨0, _⟩ => rfl | ⟨1, _⟩ => rfl | ⟨2, _⟩ => rfl)
  rw [val_main_v112_apply, val_main_v110_apply, val_main_call8_v2_apply, val_main_call8_v1_apply, val_main_call8_cst_apply,
    val_main_v111_apply, val_main_cst_27_apply]
  simp only [hi, val_main_call8_v0_apply, gathered_q x2 x12 sel hsel]
  simp only [Ideal.ofBits_def, Ideal.ofBits_zero_f32, zero_add, Ideal.mulf_def, Ideal.maximumf_def, Ideal.hostUnary_sqrt_def]
  rfl

/-- The floored length of the key's column `p`. -/
theorem len_k (hsel : ∀ p : Fin 64, x12 (ix1 p) = BitVec.ofNat 32 (sel p).val) (b : Fin 4) (p : Fin 64) :
    val_main_v117 (F := Ideal) x7 x12 (ix3 b (0 : Fin 1) p) = max (Spec.norm (gk x7 sel b p)) Spec.eps := by
  have hi : ∀ k : Fin 128, idx_main_call9_v1 (idx_main_call9_v2 (ix3 b (0 : Fin 1) p)) k = ix3 b k p := fun k =>
    funext fun a => Fin.ext (by match a with | ⟨0, _⟩ => rfl | ⟨1, _⟩ => rfl | ⟨2, _⟩ => rfl)
  rw [val_main_v117_apply, val_main_v115_apply, val_main_call9_v2_apply, val_main_call9_v1_apply, val_main_call9_cst_apply,
    val_main_v116_apply, val_main_cst_28_apply]
  simp only [hi, val_main_call9_v0_apply, gathered_k x7 x12 sel hsel]
  simp only [Ideal.ofBits_def, Ideal.ofBits_zero_f32, zero_add, Ideal.mulf_def, Ideal.maximumf_def, Ideal.hostUnary_sqrt_def]
  rfl

/-- The query's unit column `p` at channel `c`. -/
theorem unit_q (hsel : ∀ p : Fin 64, x12 (ix1 p) = BitVec.ofNat 32 (sel p).val) (b : Fin 4) (c : Fin 128) (p : Fin 64) :
    val_main_v114 (F := Ideal) x2 x12 (ix3 b c p) = Spec.unit (gq x2 sel b p) c := by
  have hi : idx_main_v113 (ix3 b c p) = ix3 b (0 : Fin 1) p :=
    funext fun a => Fin.ext (by match a with | ⟨0, _⟩ => rfl | ⟨1, _⟩ => rfl | ⟨2, _⟩ => rfl)
  rw [val_main_v114_apply, val_main_v113_apply, hi, len_q x2 x12 sel hsel, gathered_q x2 x12 sel hsel]
  rfl

/-- The key's unit column `p` at channel `c`. -/
theorem unit_k (hsel : ∀ p : Fin 64, x12 (ix1 p) = BitVec.ofNat 32 (sel p).val) (b : Fin 4) (c : Fin 128) (p : Fin 64) :
    val_main_v119 (F := Ideal) x7 x12 (ix3 b c p) = Spec.unit (gk x7 sel b p) c := by
  have hi : idx_main_v118 (ix3 b c p) = ix3 b (0 : Fin 1) p :=
    funext fun a => Fin.ext (by match a with | ⟨0, _⟩ => rfl | ⟨1, _⟩ => rfl | ⟨2, _⟩ => rfl)
  rw [val_main_v119_apply, val_main_v118_apply, hi, len_k x7 x12 sel hsel, gathered_k x7 x12 sel hsel]
  rfl

/-- The inner product of the two unit columns at patch `p`. -/
theorem inner_pos (hsel : ∀ p : Fin 64, x12 (ix1 p) = BitVec.ofNat 32 (sel p).val) (b : Fin 4) (p : Fin 64) :
    val_main_v121 (F := Ideal) x2 x7 x12 (ix2 b p)
      = ∑ c : Fin 128, Spec.unit (gq x2 sel b p) c * Spec.unit (gk x7 sel b p) c := by
  have hi : ∀ k : Fin 128, idx_main_v121 (ix2 b p) k = ix3 b k p := fun k =>
    funext fun a => Fin.ext (by match a with | ⟨0, _⟩ => rfl | ⟨1, _⟩ => rfl | ⟨2, _⟩ => rfl)
  rw [val_main_v121_apply, val_main_cst_29_apply]
  simp only [hi, val_main_v120_apply, unit_q x2 x12 sel hsel, unit_k x7 x12 sel hsel]
  simp only [Ideal.ofBits_def, Ideal.ofBits_zero_f32, zero_add, Ideal.mulf_def]

/-- The inner product of the query's unit column at `p` with the key's at `q`. -/
theorem inner_neg (hsel : ∀ p : Fin 64, x12 (ix1 p) = BitVec.ofNat 32 (sel p).val) (b : Fin 4) (p q : Fin 64) :
    val_main_v122 (F := Ideal) x2 x7 x12 (ix3 b p q)
      = ∑ c : Fin 128, Spec.unit (gq x2 sel b p) c * Spec.unit (gk x7 sel b q) c := by
  have hl : ∀ k : Fin 128, lidx_main_v122 (ix3 b p q) k = ix3 b k p := fun k =>
    funext fun a => Fin.ext (by match a with | ⟨0, _⟩ => rfl | ⟨1, _⟩ => rfl | ⟨2, _⟩ => rfl)
  have hr : ∀ k : Fin 128, ridx_main_v122 (ix3 b p q) k = ix3 b k q := fun k =>
    funext fun a => Fin.ext (by match a with | ⟨0, _⟩ => rfl | ⟨1, _⟩ => rfl | ⟨2, _⟩ => rfl)
  rw [val_main_v122_apply]
  simp only [hl, hr, unit_q x2 x12 sel hsel, unit_k x7 x12 sel hsel]

/-- The same with `−∞` on the diagonal. -/
theorem masked (hsel : ∀ p : Fin 64, x12 (ix1 p) = BitVec.ofNat 32 (sel p).val) (b : Fin 4) (p q : Fin 64) :
    val_main_v129 (F := Ideal) x2 x7 x12 (ix3 b p q)
      = if q = p then ⊥ else ∑ c : Fin 128, Spec.unit (gq x2 sel b p) c * Spec.unit (gk x7 sel b q) c := by
  rw [val_main_v129_apply, val_main_call10_v1_apply, val_main_v128_apply, val_main_v127_apply, val_main_v126_apply,
    val_main_v123_apply, val_main_v125_apply, val_main_c_30_apply, val_main_v124_apply, val_main_call10_v2_apply,
    val_main_call10_v0_apply, val_main_cst_31_apply, inner_neg x2 x7 x12 sel hsel]
  show Scalar.select (IntOp.cmpi .eq (IntOp.addi (BitVec.ofNat 32 p.val) 0#32) (BitVec.ofNat 32 q.val))
    (Ideal.ofBits .f32 0xFF800000#32) _ = _
  rw [select_diag (by decide) p q, neg_inf_word]

/-- Slot 0 of the 65 joined slots is the positive column. -/
theorem joined_zero (b : Fin 4) (p : Fin 64) :
    val_main_v131 (F := Ideal) x2 x7 x12 (ix3 b p (0 : Fin 65)) = val_main_v130 (F := Ideal) x2 x7 x12 (ix3 b p (0 : Fin 1)) := by
  unfold val_main_v131
  exact concatenate_pair_apply_left 2 _ _ concatenates_S4x64x1_S4x64x64_S4x64x65_d2 (ix3 b p (0 : Fin 65)) rfl
    (ix3 b p (0 : Fin 1)) (fun a => by match a with | ⟨0, _⟩ => rfl | ⟨1, _⟩ => rfl | ⟨2, _⟩ => rfl)

/-- Slot `1 + q` of the 65 joined slots is the masked square at `q`. -/
theorem joined_succ (b : Fin 4) (p q : Fin 64) :
    val_main_v131 (F := Ideal) x2 x7 x12 (ix3 b p q.succ) = val_main_v129 (F := Ideal) x2 x7 x12 (ix3 b p q) := by
  unfold val_main_v131
  exact concatenate_pair_apply_right 2 _ _ concatenates_S4x64x1_S4x64x64_S4x64x65_d2 (ix3 b p q.succ) rfl rfl
    (ix3 b p q)
    (fun a ha => by
      match a, ha with
      | ⟨0, _⟩, _ => rfl
      | ⟨1, _⟩, _ => rfl
      | ⟨2, _⟩, ha => exact absurd rfl ha)
    rfl

/-- The 65 logits of patch `p`. -/
theorem logit (hsel : ∀ p : Fin 64, x12 (ix1 p) = BitVec.ofNat 32 (sel p).val) (b : Fin 4) (p : Fin 64) (k : Fin 65) :
    val_main_v133 (F := Ideal) x2 x7 x12 (ix3 b p k) = logits (gq x2 sel b) (gk x7 sel b) p k := by
  rw [val_main_v133_apply, val_main_v132_apply, val_main_cst_32_apply]
  refine Fin.cases ?_ (fun q => ?_) k
  · have hi : idx_main_v130 (ix3 b p (0 : Fin 1)) = ix2 b p :=
      funext fun a => Fin.ext (by match a with | ⟨0, _⟩ => rfl | ⟨1, _⟩ => rfl)
    rw [joined_zero, val_main_v130_apply, hi, inner_pos x2 x7 x12 sel hsel]
    rfl
  · rw [joined_succ, masked x2 x7 x12 sel hsel, logits_succ]
    unfold Spec.neg
    by_cases h : q = p
    · rw [if_pos h, if_pos h]
      obtain ⟨t, ht, hte⟩ := tau_pos
      show Ideal.div ⊥ Spec.tau = ⊥
      rw [hte]
      exact div_bot_of_pos ht
    · rw [if_neg h, if_neg h]
      show Ideal.div _ Spec.tau = Ideal.div _ Spec.tau
      exact congrArg (fun s => Ideal.div s Spec.tau) (Finset.sum_congr rfl fun c _ => mul_comm _ _)

/-- A `[4, 64]` index with a coordinate put back on the dropped last axis. -/
theorem lift_last (h : S4x64x65.Reduces [2] S4x64) (b : Fin 4) (p : Fin 64) (k : Fin (S4x64x65.size 2)) :
    h.lift (ix2 b p) k = ix3 b p (⟨k.val, k.isLt⟩ : Fin 65) := by
  funext c; apply Fin.ext; fin_cases c <;> rfl

/-- The host's max-reduce over the 65 slots is the fold of `max` from `−∞` over the logits. -/
theorem largest (hsel : ∀ p : Fin 64, x12 (ix1 p) = BitVec.ofNat 32 (sel p).val) (b : Fin 4) (p : Fin 64) :
    val_main_call11_v0 (F := Ideal) x2 x7 x12 (ix2 b p)
      = (Finset.univ : Finset (Fin 65)).fold max ⊥ (logits (gq x2 sel b) (gk x7 sel b) p) := by
  have hred : S4x64x65.Reduces [2] S4x64 := by decide
  unfold val_main_call11_v0
  rw [Host.reduce_eq_fold_single FloatOps.maximumf _ _ reducesTo_S4x64x65_S4x64_d2 hred h_S_]
  have hf : (val_main_v133 (F := Ideal) x2 x7 x12 ∘ hred.lift (ix2 b p)) = logits (gq x2 sel b) (gk x7 sel b) p :=
    funext fun k => by
      show val_main_v133 (F := Ideal) x2 x7 x12 (hred.lift (ix2 b p) k) = _
      rw [lift_last hred b p k, logit x2 x7 x12 sel hsel]
      rfl
  rw [hf, val_main_call11_cst_apply]
  show Finset.fold max (Ideal.ofBits .f32 0xFF800000#32) _ _ = _
  rw [neg_inf_word]
  rfl

/-- A logit with the largest subtracted. -/
theorem shifted (hsel : ∀ p : Fin 64, x12 (ix1 p) = BitVec.ofNat 32 (sel p).val) (b : Fin 4) (p : Fin 64) (k : Fin 65) :
    val_main_call11_v5 (F := Ideal) x2 x7 x12 (ix3 b p k)
      = logits (gq x2 sel b) (gk x7 sel b) p k
        - max ⊥ ((Finset.univ : Finset (Fin 65)).fold max ⊥ (logits (gq x2 sel b) (gk x7 sel b) p)) := by
  have h4 : idx_main_call11_v4 (ix3 b p k) = ix3 b p (0 : Fin 1) :=
    funext fun a => Fin.ext (by match a with | ⟨0, _⟩ => rfl | ⟨1, _⟩ => rfl | ⟨2, _⟩ => rfl)
  have h3 : idx_main_call11_v3 (ix3 b p (0 : Fin 1)) = ix2 b p :=
    funext fun a => Fin.ext (by match a with | ⟨0, _⟩ => rfl | ⟨1, _⟩ => rfl)
  rw [val_main_call11_v5_apply, val_main_call11_v4_apply, h4, val_main_call11_v3_apply, h3, val_main_call11_v2_apply,
    val_main_call11_v1_apply, val_main_call11_cst_0_apply, logit x2 x7 x12 sel hsel, largest x2 x7 x12 sel hsel]
  show _ - max (Ideal.ofBits .f32 0xFF800000#32) _ = _
  rw [neg_inf_word]

/-- The logarithm of the normaliser. -/
theorem log_sum (hsel : ∀ p : Fin 64, x12 (ix1 p) = BitVec.ofNat 32 (sel p).val) (b : Fin 4) (p : Fin 64) :
    val_main_call11_v9 (F := Ideal) x2 x7 x12 (ix3 b p (0 : Fin 1))
      = Ideal.log (0 + ∑ k : Fin 65, Ideal.exp (logits (gq x2 sel b) (gk x7 sel b) p k
          - max ⊥ ((Finset.univ : Finset (Fin 65)).fold max ⊥ (logits (gq x2 sel b) (gk x7 sel b) p)))) := by
  have h8 : idx_main_call11_v8 (ix3 b p (0 : Fin 1)) = ix2 b p :=
    funext fun a => Fin.ext (by match a with | ⟨0, _⟩ => rfl | ⟨1, _⟩ => rfl)
  have h7 : ∀ k : Fin 65, idx_main_call11_v7 (ix2 b p) k = ix3 b p k := fun k =>
    funext fun a => Fin.ext (by match a with | ⟨0, _⟩ => rfl | ⟨1, _⟩ => rfl | ⟨2, _⟩ => rfl)
  rw [val_main_call11_v9_apply, val_main_call11_v8_apply, h8, val_main_call11_v7_apply, val_main_call11_cst_1_apply]
  simp only [h7, val_main_call11_v6_apply, shifted x2 x7 x12 sel hsel]
  simp only [Ideal.ofBits_def, Ideal.ofBits_zero_f32, Ideal.hostUnary_log_def, Ideal.hostUnary_exp_def]

/-- The layer's result at `(b, p)` is the loss of patch `p` over the gathered columns of batch entry `b`. -/
theorem out (hq : ∀ i, ∃ r : ℝ, x2 i = r) (hk : ∀ i, ∃ r : ℝ, x7 i = r)
    (hsel : ∀ p : Fin 64, x12 (ix1 p) = BitVec.ofNat 32 (sel p).val) (b : Fin 4) (p : Fin 64) :
    val_main_v137 (F := Ideal) x2 x7 x12 (ix2 b p) = Spec.loss (gq x2 sel b) (gk x7 sel b) p := by
  have hb := b.isLt
  have hp := p.isLt
  have h42 : idx_main_v136 (ix2 b p) = ix3 b p (0 : Fin 1) :=
    funext fun a => Fin.ext (by
      match a with
      | ⟨0, _⟩ => show (b.val * 64 + p.val) / 64 = b.val; omega
      | ⟨1, _⟩ => show (b.val * 64 + p.val) / 1 % 64 = p.val; omega
      | ⟨2, _⟩ => rfl)
  have h41 : idx_main_v135 (ix3 b p (0 : Fin 1)) = ix3 b p (0 : Fin 65) :=
    funext fun a => Fin.ext (by match a with | ⟨0, _⟩ => rfl | ⟨1, _⟩ => rfl | ⟨2, _⟩ => rfl)
  have h10 : idx_main_call11_v10 (ix3 b p (0 : Fin 65)) = ix3 b p (0 : Fin 1) :=
    funext fun a => Fin.ext (by match a with | ⟨0, _⟩ => rfl | ⟨1, _⟩ => rfl | ⟨2, _⟩ => rfl)
  have hq' : ∀ p c, IsReal (gq x2 sel b p c) := fun p c => by
    unfold gq; rw [val_main_v94_apply]; exact hq _
  have hk' : ∀ p c, IsReal (gk x7 sel b p c) := fun p c => by
    unfold gk; rw [val_main_v102_apply]; exact hk _
  rw [val_main_v137_apply, val_main_v136_apply, h42, val_main_v135_apply, h41, val_main_v134_apply, val_main_call11_v10_apply, h10,
    shifted x2 x7 x12 sel hsel, log_sum x2 x7 x12 sel hsel, ← neg_log_softmax_eq_loss _ _ hq' hk' p]
  rfl

end L2

/-- LAYER 2: the reference's `[4, 64]` array of losses is the specification's layer of the two reshaped arrays. -/
theorem layer2 (x2 x7 : S4x128x8x16x16.Idx → EReal) (x12 : IVec S64 32) (hq : ∀ i, ∃ r : ℝ, x2 i = r)
    (hk : ∀ i, ∃ r : ℝ, x7 i = r) (sel : Fin 64 → Fin 2048)
    (hsel : ∀ p : Fin 64, x12 (ValueIdx.ix1 p) = BitVec.ofNat 32 (sel p).val) (b : Fin 4) (p : Fin 64) :
    Read.val_main_v137 (F := Ideal) x2 x7 x12 (ValueIdx.ix2 b p)
      = Cert.Spec.layerOf (C := 128) (shapeCast _ x2 shapeCasts_S4x128x8x16x16_S4x128x2048)
          (shapeCast _ x7 shapeCasts_S4x128x8x16x16_S4x128x2048) sel b p :=
  L2.out x2 x7 x12 sel hq hk hsel b p

/-- LAYER 2's mean: the sum of the 256 losses from zero, over 256. -/
theorem mean2 (x2 x7 : S4x128x8x16x16.Idx → EReal) (x12 : IVec S64 32) (hq : ∀ i, ∃ r : ℝ, x2 i = r)
    (hk : ∀ i, ∃ r : ℝ, x7 i = r) (sel : Fin 64 → Fin 2048)
    (hsel : ∀ p : Fin 64, x12 (ValueIdx.ix1 p) = BitVec.ofNat 32 (sel p).val) :
    Read.val_main_v139 (F := Ideal) x2 x7 x12 ValueIdx.ix0
      = Cert.Spec.mean (Cert.Spec.layerOf (C := 128) (shapeCast _ x2 shapeCasts_S4x128x8x16x16_S4x128x2048)
          (shapeCast _ x7 shapeCasts_S4x128x8x16x16_S4x128x2048) sel) := by
  rw [val_main_v139_apply, val_main_v138_apply, val_main_cst_33_apply, val_main_cst_34_apply, ValueIdx.sum_idx2]
  simp only [layer2 x2 x7 x12 hq hk sel hsel]
  simp only [Ideal.ofBits_def, Ideal.ofBits_zero_f32]
  rfl

end Cert.ReferenceIdeal.RefValue

end
-- ==== Proof.Ref.Layer3.lean ====
/-
  Layer 3 of the reference program is the specification's layer.

  Read index by index: the two `[4, 256, 256]` arrays gathered at the 64 positions (the wrap of a position in range is
  the identity, the clamp too), each gathered column scaled by its floored length, the positive logit the inner product
  of the two unit columns at a patch, the negative logits the inner products across patches with `−∞` on the diagonal,
  the 65 logits laid side by side and divided by the temperature, and the negated log-softmax of slot 0. The host
  computes the largest logit as a fold of `max` from `−∞` and the normaliser as a sum from zero over all 65 slots; the
  algebra that turns this into the specification's arrangement is in the module of finiteness facts.
-/
import proofs.«430285_j43310450213294_2_alg».proof.Proof.Ref.ReadP
import proofs.«430285_j43310450213294_2_alg».proof.Proof.Spec
import proofs.«430285_j43310450213294_2_alg».proof.Proof.Ref.Algebra
import proofs.«430285_j43310450213294_2_alg».proof.Proof.Ref.Gather
import Idealize.ShloMosaic.PureOps.Reduce
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

namespace L3

variable (x3 x8 : S4x256x4x8x8.Idx → EReal) (x13 : IVec S64 32) (sel : Fin 64 → Fin 256)

/-- The query's columns of batch entry `b`: column `p` is the reshaped array at position `sel p`. -/
def gq (b : Fin 4) : Fin 64 → Fin 256 → EReal := fun p c => val_main_v141 (F := Ideal) x3 (ix3 b c (sel p))

/-- The key's columns of batch entry `b`. -/
def gk (b : Fin 4) : Fin 64 → Fin 256 → EReal := fun p c => val_main_v149 (F := Ideal) x8 (ix3 b c (sel p))

/-- The query's start index of patch `p`, wrapped, read signed and clamped, is `sel p`. -/
theorem start_q (hsel : ∀ p : Fin 64, x13 (ix1 p) = BitVec.ofNat 32 (sel p).val) (p : Fin 64) :
    min (val_main_v147 (F := Ideal) x13 (ix2 p (0 : Fin 1))).toInt.toNat (256 - 1) = (sel p).val := by
  have hi : idx_main_v147 (ix2 p (0 : Fin 1)) = ix1 p := funext fun a => Fin.ext (by match a with | ⟨0, _⟩ => rfl)
  rw [val_main_v147_apply, hi, val_main_v146_apply, val_main_v143_apply, val_main_v145_apply, val_main_v142_apply, val_main_c_35_apply,
    val_main_v144_apply, val_main_c_36_apply, wrap_toNat _ _ (sel p).val (hsel p) (by have := (sel p).isLt; omega)]
  exact Nat.min_eq_left (by have := (sel p).isLt; omega)

/-- The key's start index of patch `p` likewise. -/
theorem start_k (hsel : ∀ p : Fin 64, x13 (ix1 p) = BitVec.ofNat 32 (sel p).val) (p : Fin 64) :
    min (val_main_v155 (F := Ideal) x13 (ix2 p (0 : Fin 1))).toInt.toNat (256 - 1) = (sel p).val := by
  have hi : idx_main_v155 (ix2 p (0 : Fin 1)) = ix1 p := funext fun a => Fin.ext (by match a with | ⟨0, _⟩ => rfl)
  rw [val_main_v155_apply, hi, val_main_v154_apply, val_main_v151_apply, val_main_v153_apply, val_main_v150_apply, val_main_c_37_apply,
    val_main_v152_apply, val_main_c_38_apply, wrap_toNat _ _ (sel p).val (hsel p) (by have := (sel p).isLt; omega)]
  exact Nat.min_eq_left (by have := (sel p).isLt; omega)

/-- The gathered query array at `(b, c, p)` is the query's column `p` at channel `c`. -/
theorem gathered_q (hsel : ∀ p : Fin 64, x13 (ix1 p) = BitVec.ofNat 32 (sel p).val) (b : Fin 4) (c : Fin 256) (p : Fin 64) :
    val_main_v148 (F := Ideal) x3 x13 (ix3 b c p) = gq x3 sel b p c := by
  unfold val_main_v148
  exact gather_column_eq (by decide) gather_S4x256x256_S64x1_S4x256x64_01_2_n_n_2_1_42561 rfl rfl rfl rfl rfl _ _ b c p (sel p)
    (start_q x13 sel hsel p)

/-- The gathered key array at `(b, c, p)` is the key's column `p` at channel `c`. -/
theorem gathered_k (hsel : ∀ p : Fin 64, x13 (ix1 p) = BitVec.ofNat 32 (sel p).val) (b : Fin 4) (c : Fin 256) (p : Fin 64) :
    val_main_v156 (F := Ideal) x8 x13 (ix3 b c p) = gk x8 sel b p c := by
  unfold val_main_v156
  exact gather_column_eq (by decide) gather_S4x256x256_S64x1_S4x256x64_01_2_n_n_2_1_42561 rfl rfl rfl rfl rfl _ _ b c p (sel p)
    (start_k x13 sel hsel p)

/-- The floored length of the query's column `p`. -/
theorem len_q (hsel : ∀ p : Fin 64, x13 (ix1 p) = BitVec.ofNat 32 (sel p).val) (b : Fin 4) (p : Fin 64) :
    val_main_v159 (F := Ideal) x3 x13 (ix3 b (0 : Fin 1) p) = max (Spec.norm (gq x3 sel b p)) Spec.eps := by
  have hi : ∀ k : Fin 256, idx_main_call12_v1 (idx_main_call12_v2 (ix3 b (0 : Fin 1) p)) k = ix3 b k p := fun k =>
    funext fun a => Fin.ext (by match a with | ⟨0, _⟩ => rfl | ⟨1, _⟩ => rfl | ⟨2, _⟩ => rfl)
  rw [val_main_v159_apply, val_main_v157_apply, val_main_call12_v2_apply, val_main_call12_v1_apply, val_main_call12_cst_apply,
    val_main_v158_apply, val_main_cst_39_apply]
  simp only [hi, val_main_call12_v0_apply, gathered_q x3 x13 sel hsel]
  simp only [Ideal.ofBits_def, Ideal.ofBits_zero_f32, zero_add, Ideal.mulf_def, Ideal.maximumf_def, Ideal.hostUnary_sqrt_def]
  rfl

/-- The floored length of the key's column `p`. -/
theorem len_k (hsel : ∀ p : Fin 64, x13 (ix1 p) = BitVec.ofNat 32 (sel p).val) (b : Fin 4) (p : Fin 64) :
    val_main_v164 (F := Ideal) x8 x13 (ix3 b (0 : Fin 1) p) = max (Spec.norm (gk x8 sel b p)) Spec.eps := by
  have hi : ∀ k : Fin 256, idx_main_call13_v1 (idx_main_call13_v2 (ix3 b (0 : Fin 1) p)) k = ix3 b k p := fun k =>
    funext fun a => Fin.ext (by match a with | ⟨0, _⟩ => rfl | ⟨1, _⟩ => rfl | ⟨2, _⟩ => rfl)
  rw [val_main_v164_apply, val_main_v162_apply, val_main_call13_v2_apply, val_main_call13_v1_apply, val_main_call13_cst_apply,
    val_main_v163_apply, val_main_cst_40_apply]
  simp only [hi, val_main_call13_v0_apply, gathered_k x8 x13 sel hsel]
  simp only [Ideal.ofBits_def, Ideal.ofBits_zero_f32, zero_add, Ideal.mulf_def, Ideal.maximumf_def, Ideal.hostUnary_sqrt_def]
  rfl

/-- The query's unit column `p` at channel `c`. -/
theorem unit_q (hsel : ∀ p : Fin 64, x13 (ix1 p) = BitVec.ofNat 32 (sel p).val) (b : Fin 4) (c : Fin 256) (p : Fin 64) :
    val_main_v161 (F := Ideal) x3 x13 (ix3 b c p) = Spec.unit (gq x3 sel b p) c := by
  have hi : idx_main_v160 (ix3 b c p) = ix3 b (0 : Fin 1) p :=
    funext fun a => Fin.ext (by match a with | ⟨0, _⟩ => rfl | ⟨1, _⟩ => rfl | ⟨2, _⟩ => rfl)
  rw [val_main_v161_apply, val_main_v160_apply, hi, len_q x3 x13 sel hsel, gathered_q x3 x13 sel hsel]
  rfl

/-- The key's unit column `p` at channel `c`. -/
theorem unit_k (hsel : ∀ p : Fin 64, x13 (ix1 p) = BitVec.ofNat 32 (sel p).val) (b : Fin 4) (c : Fin 256) (p : Fin 64) :
    val_main_v166 (F := Ideal) x8 x13 (ix3 b c p) = Spec.unit (gk x8 sel b p) c := by
  have hi : idx_main_v165 (ix3 b c p) = ix3 b (0 : Fin 1) p :=
    funext fun a => Fin.ext (by match a with | ⟨0, _⟩ => rfl | ⟨1, _⟩ => rfl | ⟨2, _⟩ => rfl)
  rw [val_main_v166_apply, val_main_v165_apply, hi, len_k x8 x13 sel hsel, gathered_k x8 x13 sel hsel]
  rfl

/-- The inner product of the two unit columns at patch `p`. -/
theorem inner_pos (hsel : ∀ p : Fin 64, x13 (ix1 p) = BitVec.ofNat 32 (sel p).val) (b : Fin 4) (p : Fin 64) :
    val_main_v168 (F := Ideal) x3 x8 x13 (ix2 b p)
      = ∑ c : Fin 256, Spec.unit (gq x3 sel b p) c * Spec.unit (gk x8 sel b p) c := by
  have hi : ∀ k : Fin 256, idx_main_v168 (ix2 b p) k = ix3 b k p := fun k =>
    funext fun a => Fin.ext (by match a with | ⟨0, _⟩ => rfl | ⟨1, _⟩ => rfl | ⟨2, _⟩ => rfl)
  rw [val_main_v168_apply, val_main_cst_41_apply]
  simp only [hi, val_main_v167_apply, unit_q x3 x13 sel hsel, unit_k x8 x13 sel hsel]
  simp only [Ideal.ofBits_def, Ideal.ofBits_zero_f32, zero_add, Ideal.mulf_def]

/-- The inner product of the query's unit column at `p` with the key's at `q`. -/
theorem inner_neg (hsel : ∀ p : Fin 64, x13 (ix1 p) = BitVec.ofNat 32 (sel p).val) (b : Fin 4) (p q : Fin 64) :
    val_main_v169 (F := Ideal) x3 x8 x13 (ix3 b p q)
      = ∑ c : Fin 256, Spec.unit (gq x3 sel b p) c * Spec.unit (gk x8 sel b q) c := by
  have hl : ∀ k : Fin 256, lidx_main_v169 (ix3 b p q) k = ix3 b k p := fun k =>
    funext fun a => Fin.ext (by match a with | ⟨0, _⟩ => rfl | ⟨1, _⟩ => rfl | ⟨2, _⟩ => rfl)
  have hr : ∀ k : Fin 256, ridx_main_v169 (ix3 b p q) k = ix3 b k q := fun k =>
    funext fun a => Fin.ext (by match a with | ⟨0, _⟩ => rfl | ⟨1, _⟩ => rfl | ⟨2, _⟩ => rfl)
  rw [val_main_v169_apply]
  simp only [hl, hr, unit_q x3 x13 sel hsel, unit_k x8 x13 sel hsel]

/-- The same with `−∞` on the diagonal. -/
theorem masked (hsel : ∀ p : Fin 64, x13 (ix1 p) = BitVec.ofNat 32 (sel p).val) (b : Fin 4) (p q : Fin 64) :
    val_main_v176 (F := Ideal) x3 x8 x13 (ix3 b p q)
      = if q = p then ⊥ else ∑ c : Fin 256, Spec.unit (gq x3 sel b p) c * Spec.unit (gk x8 sel b q) c := by
  rw [val_main_v176_apply, val_main_call14_v1_apply, val_main_v175_apply, val_main_v174_apply, val_main_v173_apply,
    val_main_v170_apply, val_main_v172_apply, val_main_c_42_apply, val_main_v171_apply, val_main_call14_v2_apply,
    val_main_call14_v0_apply, val_main_cst_43_apply, inner_neg x3 x8 x13 sel hsel]
  show Scalar.select (IntOp.cmpi .eq (IntOp.addi (BitVec.ofNat 32 p.val) 0#32) (BitVec.ofNat 32 q.val))
    (Ideal.ofBits .f32 0xFF800000#32) _ = _
  rw [select_diag (by decide) p q, neg_inf_word]

/-- Slot 0 of the 65 joined slots is the positive column. -/
theorem joined_zero (b : Fin 4) (p : Fin 64) :
    val_main_v178 (F := Ideal) x3 x8 x13 (ix3 b p (0 : Fin 65)) = val_main_v177 (F := Ideal) x3 x8 x13 (ix3 b p (0 : Fin 1)) := by
  unfold val_main_v178
  exact concatenate_pair_apply_left 2 _ _ concatenates_S4x64x1_S4x64x64_S4x64x65_d2 (ix3 b p (0 : Fin 65)) rfl
    (ix3 b p (0 : Fin 1)) (fun a => by match a with | ⟨0, _⟩ => rfl | ⟨1, _⟩ => rfl | ⟨2, _⟩ => rfl)

/-- Slot `1 + q` of the 65 joined slots is the masked square at `q`. -/
theorem joined_succ (b : Fin 4) (p q : Fin 64) :
    val_main_v178 (F := Ideal) x3 x8 x13 (ix3 b p q.succ) = val_main_v176 (F := Ideal) x3 x8 x13 (ix3 b p q) := by
  unfold val_main_v178
  exact concatenate_pair_apply_right 2 _ _ concatenates_S4x64x1_S4x64x64_S4x64x65_d2 (ix3 b p q.succ) rfl rfl
    (ix3 b p q)
    (fun a ha => by
      match a, ha with
      | ⟨0, _⟩, _ => rfl
      | ⟨1, _⟩, _ => rfl
      | ⟨2, _⟩, ha => exact absurd rfl ha)
    rfl

/-- The 65 logits of patch `p`. -/
theorem logit (hsel : ∀ p : Fin 64, x13 (ix1 p) = BitVec.ofNat 32 (sel p).val) (b : Fin 4) (p : Fin 64) (k : Fin 65) :
    val_main_v180 (F := Ideal) x3 x8 x13 (ix3 b p k) = logits (gq x3 sel b) (gk x8 sel b) p k := by
  rw [val_main_v180_apply, val_main_v179_apply, val_main_cst_44_apply]
  refine Fin.cases ?_ (fun q => ?_) k
  · have hi : idx_main_v177 (ix3 b p (0 : Fin 1)) = ix2 b p :=
      funext fun a => Fin.ext (by match a with | ⟨0, _⟩ => rfl | ⟨1, _⟩ => rfl)
    rw [joined_zero, val_main_v177_apply, hi, inner_pos x3 x8 x13 sel hsel]
    rfl
  · rw [joined_succ, masked x3 x8 x13 sel hsel, logits_succ]
    unfold Spec.neg
    by_cases h : q = p
    · rw [if_pos h, if_pos h]
      obtain ⟨t, ht, hte⟩ := tau_pos
      show Ideal.div ⊥ Spec.tau = ⊥
      rw [hte]
      exact div_bot_of_pos ht
    · rw [if_neg h, if_neg h]
      show Ideal.div _ Spec.tau = Ideal.div _ Spec.tau
      exact congrArg (fun s => Ideal.div s Spec.tau) (Finset.sum_congr rfl fun c _ => mul_comm _ _)

/-- A `[4, 64]` index with a coordinate put back on the dropped last axis. -/
theorem lift_last (h : S4x64x65.Reduces [2] S4x64) (b : Fin 4) (p : Fin 64) (k : Fin (S4x64x65.size 2)) :
    h.lift (ix2 b p) k = ix3 b p (⟨k.val, k.isLt⟩ : Fin 65) := by
  funext c; apply Fin.ext; fin_cases c <;> rfl

/-- The host's max-reduce over the 65 slots is the fold of `max` from `−∞` over the logits. -/
theorem largest (hsel : ∀ p : Fin 64, x13 (ix1 p) = BitVec.ofNat 32 (sel p).val) (b : Fin 4) (p : Fin 64) :
    val_main_call15_v0 (F := Ideal) x3 x8 x13 (ix2 b p)
      = (Finset.univ : Finset (Fin 65)).fold max ⊥ (logits (gq x3 sel b) (gk x8 sel b) p) := by
  have hred : S4x64x65.Reduces [2] S4x64 := by decide
  unfold val_main_call15_v0
  rw [Host.reduce_eq_fold_single FloatOps.maximumf _ _ reducesTo_S4x64x65_S4x64_d2 hred h_S_]
  have hf : (val_main_v180 (F := Ideal) x3 x8 x13 ∘ hred.lift (ix2 b p)) = logits (gq x3 sel b) (gk x8 sel b) p :=
    funext fun k => by
      show val_main_v180 (F := Ideal) x3 x8 x13 (hred.lift (ix2 b p) k) = _
      rw [lift_last hred b p k, logit x3 x8 x13 sel hsel]
      rfl
  rw [hf, val_main_call15_cst_apply]
  show Finset.fold max (Ideal.ofBits .f32 0xFF800000#32) _ _ = _
  rw [neg_inf_word]
  rfl

/-- A logit with the largest subtracted. -/
theorem shifted (hsel : ∀ p : Fin 64, x13 (ix1 p) = BitVec.ofNat 32 (sel p).val) (b : Fin 4) (p : Fin 64) (k : Fin 65) :
    val_main_call15_v5 (F := Ideal) x3 x8 x13 (ix3 b p k)
      = logits (gq x3 sel b) (gk x8 sel b) p k
        - max ⊥ ((Finset.univ : Finset (Fin 65)).fold max ⊥ (logits (gq x3 sel b) (gk x8 sel b) p)) := by
  have h4 : idx_main_call15_v4 (ix3 b p k) = ix3 b p (0 : Fin 1) :=
    funext fun a => Fin.ext (by match a with | ⟨0, _⟩ => rfl | ⟨1, _⟩ => rfl | ⟨2, _⟩ => rfl)
  have h3 : idx_main_call15_v3 (ix3 b p (0 : Fin 1)) = ix2 b p :=
    funext fun a => Fin.ext (by match a with | ⟨0, _⟩ => rfl | ⟨1, _⟩ => rfl)
  rw [val_main_call15_v5_apply, val_main_call15_v4_apply, h4, val_main_call15_v3_apply, h3, val_main_call15_v2_apply,
    val_main_call15_v1_apply, val_main_call15_cst_0_apply, logit x3 x8 x13 sel hsel, largest x3 x8 x13 sel hsel]
  show _ - max (Ideal.ofBits .f32 0xFF800000#32) _ = _
  rw [neg_inf_word]

/-- The logarithm of the normaliser. -/
theorem log_sum (hsel : ∀ p : Fin 64, x13 (ix1 p) = BitVec.ofNat 32 (sel p).val) (b : Fin 4) (p : Fin 64) :
    val_main_call15_v9 (F := Ideal) x3 x8 x13 (ix3 b p (0 : Fin 1))
      = Ideal.log (0 + ∑ k : Fin 65, Ideal.exp (logits (gq x3 sel b) (gk x8 sel b) p k
          - max ⊥ ((Finset.univ : Finset (Fin 65)).fold max ⊥ (logits (gq x3 sel b) (gk x8 sel b) p)))) := by
  have h8 : idx_main_call15_v8 (ix3 b p (0 : Fin 1)) = ix2 b p :=
    funext fun a => Fin.ext (by match a with | ⟨0, _⟩ => rfl | ⟨1, _⟩ => rfl)
  have h7 : ∀ k : Fin 65, idx_main_call15_v7 (ix2 b p) k = ix3 b p k := fun k =>
    funext fun a => Fin.ext (by match a with | ⟨0, _⟩ => rfl | ⟨1, _⟩ => rfl | ⟨2, _⟩ => rfl)
  rw [val_main_call15_v9_apply, val_main_call15_v8_apply, h8, val_main_call15_v7_apply, val_main_call15_cst_1_apply]
  simp only [h7, val_main_call15_v6_apply, shifted x3 x8 x13 sel hsel]
  simp only [Ideal.ofBits_def, Ideal.ofBits_zero_f32, Ideal.hostUnary_log_def, Ideal.hostUnary_exp_def]

/-- The layer's result at `(b, p)` is the loss of patch `p` over the gathered columns of batch entry `b`. -/
theorem out (hq : ∀ i, ∃ r : ℝ, x3 i = r) (hk : ∀ i, ∃ r : ℝ, x8 i = r)
    (hsel : ∀ p : Fin 64, x13 (ix1 p) = BitVec.ofNat 32 (sel p).val) (b : Fin 4) (p : Fin 64) :
    val_main_v184 (F := Ideal) x3 x8 x13 (ix2 b p) = Spec.loss (gq x3 sel b) (gk x8 sel b) p := by
  have hb := b.isLt
  have hp := p.isLt
  have h42 : idx_main_v183 (ix2 b p) = ix3 b p (0 : Fin 1) :=
    funext fun a => Fin.ext (by
      match a with
      | ⟨0, _⟩ => show (b.val * 64 + p.val) / 64 = b.val; omega
      | ⟨1, _⟩ => show (b.val * 64 + p.val) / 1 % 64 = p.val; omega
      | ⟨2, _⟩ => rfl)
  have h41 : idx_main_v182 (ix3 b p (0 : Fin 1)) = ix3 b p (0 : Fin 65) :=
    funext fun a => Fin.ext (by match a with | ⟨0, _⟩ => rfl | ⟨1, _⟩ => rfl | ⟨2, _⟩ => rfl)
  have h10 : idx_main_call15_v10 (ix3 b p (0 : Fin 65)) = ix3 b p (0 : Fin 1) :=
    funext fun a => Fin.ext (by match a with | ⟨0, _⟩ => rfl | ⟨1, _⟩ => rfl | ⟨2, _⟩ => rfl)
  have hq' : ∀ p c, IsReal (gq x3 sel b p c) := fun p c => by
    unfold gq; rw [val_main_v141_apply]; exact hq _
  have hk' : ∀ p c, IsReal (gk x8 sel b p c) := fun p c => by
    unfold gk; rw [val_main_v149_apply]; exact hk _
  rw [val_main_v184_apply, val_main_v183_apply, h42, val_main_v182_apply, h41, val_main_v181_apply, val_main_call15_v10_apply, h10,
    shifted x3 x8 x13 sel hsel, log_sum x3 x8 x13 sel hsel, ← neg_log_softmax_eq_loss _ _ hq' hk' p]
  rfl

end L3

/-- LAYER 3: the reference's `[4, 64]` array of losses is the specification's layer of the two reshaped arrays. -/
theorem layer3 (x3 x8 : S4x256x4x8x8.Idx → EReal) (x13 : IVec S64 32) (hq : ∀ i, ∃ r : ℝ, x3 i = r)
    (hk : ∀ i, ∃ r : ℝ, x8 i = r) (sel : Fin 64 → Fin 256)
    (hsel : ∀ p : Fin 64, x13 (ValueIdx.ix1 p) = BitVec.ofNat 32 (sel p).val) (b : Fin 4) (p : Fin 64) :
    Read.val_main_v184 (F := Ideal) x3 x8 x13 (ValueIdx.ix2 b p)
      = Cert.Spec.layerOf (C := 256) (shapeCast _ x3 shapeCasts_S4x256x4x8x8_S4x256x256)
          (shapeCast _ x8 shapeCasts_S4x256x4x8x8_S4x256x256) sel b p :=
  L3.out x3 x8 x13 sel hq hk hsel b p

/-- LAYER 3's mean: the sum of the 256 losses from zero, over 256. -/
theorem mean3 (x3 x8 : S4x256x4x8x8.Idx → EReal) (x13 : IVec S64 32) (hq : ∀ i, ∃ r : ℝ, x3 i = r)
    (hk : ∀ i, ∃ r : ℝ, x8 i = r) (sel : Fin 64 → Fin 256)
    (hsel : ∀ p : Fin 64, x13 (ValueIdx.ix1 p) = BitVec.ofNat 32 (sel p).val) :
    Read.val_main_v186 (F := Ideal) x3 x8 x13 ValueIdx.ix0
      = Cert.Spec.mean (Cert.Spec.layerOf (C := 256) (shapeCast _ x3 shapeCasts_S4x256x4x8x8_S4x256x256)
          (shapeCast _ x8 shapeCasts_S4x256x4x8x8_S4x256x256) sel) := by
  rw [val_main_v186_apply, val_main_v185_apply, val_main_cst_45_apply, val_main_cst_46_apply, ValueIdx.sum_idx2]
  simp only [layer3 x3 x8 x13 hq hk sel hsel]
  simp only [Ideal.ofBits_def, Ideal.ofBits_zero_f32]
  rfl

end Cert.ReferenceIdeal.RefValue

end
-- ==== Proof.Ref.Layer4.lean ====
/-
  Layer 4 of the reference program is the specification's layer.

  Read index by index: the two `[4, 256, 256]` arrays gathered at the 64 positions (the wrap of a position in range is
  the identity, the clamp too), each gathered column scaled by its floored length, the positive logit the inner product
  of the two unit columns at a patch, the negative logits the inner products across patches with `−∞` on the diagonal,
  the 65 logits laid side by side and divided by the temperature, and the negated log-softmax of slot 0. The host
  computes the largest logit as a fold of `max` from `−∞` and the normaliser as a sum from zero over all 65 slots; the
  algebra that turns this into the specification's arrangement is in the module of finiteness facts.
-/
import proofs.«430285_j43310450213294_2_alg».proof.Proof.Ref.ReadP
import proofs.«430285_j43310450213294_2_alg».proof.Proof.Spec
import proofs.«430285_j43310450213294_2_alg».proof.Proof.Ref.Algebra
import proofs.«430285_j43310450213294_2_alg».proof.Proof.Ref.Gather
import Idealize.ShloMosaic.PureOps.Reduce
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

namespace L4

variable (x4 x9 : S4x256x4x8x8.Idx → EReal) (x14 : IVec S64 32) (sel : Fin 64 → Fin 256)

/-- The query's columns of batch entry `b`: column `p` is the reshaped array at position `sel p`. -/
def gq (b : Fin 4) : Fin 64 → Fin 256 → EReal := fun p c => val_main_v188 (F := Ideal) x4 (ix3 b c (sel p))

/-- The key's columns of batch entry `b`. -/
def gk (b : Fin 4) : Fin 64 → Fin 256 → EReal := fun p c => val_main_v196 (F := Ideal) x9 (ix3 b c (sel p))

/-- The query's start index of patch `p`, wrapped, read signed and clamped, is `sel p`. -/
theorem start_q (hsel : ∀ p : Fin 64, x14 (ix1 p) = BitVec.ofNat 32 (sel p).val) (p : Fin 64) :
    min (val_main_v194 (F := Ideal) x14 (ix2 p (0 : Fin 1))).toInt.toNat (256 - 1) = (sel p).val := by
  have hi : idx_main_v194 (ix2 p (0 : Fin 1)) = ix1 p := funext fun a => Fin.ext (by match a with | ⟨0, _⟩ => rfl)
  rw [val_main_v194_apply, hi, val_main_v193_apply, val_main_v190_apply, val_main_v192_apply, val_main_v189_apply, val_main_c_47_apply,
    val_main_v191_apply, val_main_c_48_apply, wrap_toNat _ _ (sel p).val (hsel p) (by have := (sel p).isLt; omega)]
  exact Nat.min_eq_left (by have := (sel p).isLt; omega)

/-- The key's start index of patch `p` likewise. -/
theorem start_k (hsel : ∀ p : Fin 64, x14 (ix1 p) = BitVec.ofNat 32 (sel p).val) (p : Fin 64) :
    min (val_main_v202 (F := Ideal) x14 (ix2 p (0 : Fin 1))).toInt.toNat (256 - 1) = (sel p).val := by
  have hi : idx_main_v202 (ix2 p (0 : Fin 1)) = ix1 p := funext fun a => Fin.ext (by match a with | ⟨0, _⟩ => rfl)
  rw [val_main_v202_apply, hi, val_main_v201_apply, val_main_v198_apply, val_main_v200_apply, val_main_v197_apply, val_main_c_49_apply,
    val_main_v199_apply, val_main_c_50_apply, wrap_toNat _ _ (sel p).val (hsel p) (by have := (sel p).isLt; omega)]
  exact Nat.min_eq_left (by have := (sel p).isLt; omega)

/-- The gathered query array at `(b, c, p)` is the query's column `p` at channel `c`. -/
theorem gathered_q (hsel : ∀ p : Fin 64, x14 (ix1 p) = BitVec.ofNat 32 (sel p).val) (b : Fin 4) (c : Fin 256) (p : Fin 64) :
    val_main_v195 (F := Ideal) x4 x14 (ix3 b c p) = gq x4 sel b p c := by
  unfold val_main_v195
  exact gather_column_eq (by decide) gather_S4x256x256_S64x1_S4x256x64_01_2_n_n_2_1_42561 rfl rfl rfl rfl rfl _ _ b c p (sel p)
    (start_q x14 sel hsel p)

/-- The gathered key array at `(b, c, p)` is the key's column `p` at channel `c`. -/
theorem gathered_k (hsel : ∀ p : Fin 64, x14 (ix1 p) = BitVec.ofNat 32 (sel p).val) (b : Fin 4) (c : Fin 256) (p : Fin 64) :
    val_main_v203 (F := Ideal) x9 x14 (ix3 b c p) = gk x9 sel b p c := by
  unfold val_main_v203
  exact gather_column_eq (by decide) gather_S4x256x256_S64x1_S4x256x64_01_2_n_n_2_1_42561 rfl rfl rfl rfl rfl _ _ b c p (sel p)
    (start_k x14 sel hsel p)

/-- The floored length of the query's column `p`. -/
theorem len_q (hsel : ∀ p : Fin 64, x14 (ix1 p) = BitVec.ofNat 32 (sel p).val) (b : Fin 4) (p : Fin 64) :
    val_main_v206 (F := Ideal) x4 x14 (ix3 b (0 : Fin 1) p) = max (Spec.norm (gq x4 sel b p)) Spec.eps := by
  have hi : ∀ k : Fin 256, idx_main_call16_v1 (idx_main_call16_v2 (ix3 b (0 : Fin 1) p)) k = ix3 b k p := fun k =>
    funext fun a => Fin.ext (by match a with | ⟨0, _⟩ => rfl | ⟨1, _⟩ => rfl | ⟨2, _⟩ => rfl)
  rw [val_main_v206_apply, val_main_v204_apply, val_main_call16_v2_apply, val_main_call16_v1_apply, val_main_call16_cst_apply,
    val_main_v205_apply, val_main_cst_51_apply]
  simp only [hi, val_main_call16_v0_apply, gathered_q x4 x14 sel hsel]
  simp only [Ideal.ofBits_def, Ideal.ofBits_zero_f32, zero_add, Ideal.mulf_def, Ideal.maximumf_def, Ideal.hostUnary_sqrt_def]
  rfl

/-- The floored length of the key's column `p`. -/
theorem len_k (hsel : ∀ p : Fin 64, x14 (ix1 p) = BitVec.ofNat 32 (sel p).val) (b : Fin 4) (p : Fin 64) :
    val_main_v211 (F := Ideal) x9 x14 (ix3 b (0 : Fin 1) p) = max (Spec.norm (gk x9 sel b p)) Spec.eps := by
  have hi : ∀ k : Fin 256, idx_main_call17_v1 (idx_main_call17_v2 (ix3 b (0 : Fin 1) p)) k = ix3 b k p := fun k =>
    funext fun a => Fin.ext (by match a with | ⟨0, _⟩ => rfl | ⟨1, _⟩ => rfl | ⟨2, _⟩ => rfl)
  rw [val_main_v211_apply, val_main_v209_apply, val_main_call17_v2_apply, val_main_call17_v1_apply, val_main_call17_cst_apply,
    val_main_v210_apply, val_main_cst_52_apply]
  simp only [hi, val_main_call17_v0_apply, gathered_k x9 x14 sel hsel]
  simp only [Ideal.ofBits_def, Ideal.ofBits_zero_f32, zero_add, Ideal.mulf_def, Ideal.maximumf_def, Ideal.hostUnary_sqrt_def]
  rfl

/-- The query's unit column `p` at channel `c`. -/
theorem unit_q (hsel : ∀ p : Fin 64, x14 (ix1 p) = BitVec.ofNat 32 (sel p).val) (b : Fin 4) (c : Fin 256) (p : Fin 64) :
    val_main_v208 (F := Ideal) x4 x14 (ix3 b c p) = Spec.unit (gq x4 sel b p) c := by
  have hi : idx_main_v207 (ix3 b c p) = ix3 b (0 : Fin 1) p :=
    funext fun a => Fin.ext (by match a with | ⟨0, _⟩ => rfl | ⟨1, _⟩ => rfl | ⟨2, _⟩ => rfl)
  rw [val_main_v208_apply, val_main_v207_apply, hi, len_q x4 x14 sel hsel, gathered_q x4 x14 sel hsel]
  rfl

/-- The key's unit column `p` at channel `c`. -/
theorem unit_k (hsel : ∀ p : Fin 64, x14 (ix1 p) = BitVec.ofNat 32 (sel p).val) (b : Fin 4) (c : Fin 256) (p : Fin 64) :
    val_main_v213 (F := Ideal) x9 x14 (ix3 b c p) = Spec.unit (gk x9 sel b p) c := by
  have hi : idx_main_v212 (ix3 b c p) = ix3 b (0 : Fin 1) p :=
    funext fun a => Fin.ext (by match a with | ⟨0, _⟩ => rfl | ⟨1, _⟩ => rfl | ⟨2, _⟩ => rfl)
  rw [val_main_v213_apply, val_main_v212_apply, hi, len_k x9 x14 sel hsel, gathered_k x9 x14 sel hsel]
  rfl

/-- The inner product of the two unit columns at patch `p`. -/
theorem inner_pos (hsel : ∀ p : Fin 64, x14 (ix1 p) = BitVec.ofNat 32 (sel p).val) (b : Fin 4) (p : Fin 64) :
    val_main_v215 (F := Ideal) x4 x9 x14 (ix2 b p)
      = ∑ c : Fin 256, Spec.unit (gq x4 sel b p) c * Spec.unit (gk x9 sel b p) c := by
  have hi : ∀ k : Fin 256, idx_main_v215 (ix2 b p) k = ix3 b k p := fun k =>
    funext fun a => Fin.ext (by match a with | ⟨0, _⟩ => rfl | ⟨1, _⟩ => rfl | ⟨2, _⟩ => rfl)
  rw [val_main_v215_apply, val_main_cst_53_apply]
  simp only [hi, val_main_v214_apply, unit_q x4 x14 sel hsel, unit_k x9 x14 sel hsel]
  simp only [Ideal.ofBits_def, Ideal.ofBits_zero_f32, zero_add, Ideal.mulf_def]

/-- The inner product of the query's unit column at `p` with the key's at `q`. -/
theorem inner_neg (hsel : ∀ p : Fin 64, x14 (ix1 p) = BitVec.ofNat 32 (sel p).val) (b : Fin 4) (p q : Fin 64) :
    val_main_v216 (F := Ideal) x4 x9 x14 (ix3 b p q)
      = ∑ c : Fin 256, Spec.unit (gq x4 sel b p) c * Spec.unit (gk x9 sel b q) c := by
  have hl : ∀ k : Fin 256, lidx_main_v216 (ix3 b p q) k = ix3 b k p := fun k =>
    funext fun a => Fin.ext (by match a with | ⟨0, _⟩ => rfl | ⟨1, _⟩ => rfl | ⟨2, _⟩ => rfl)
  have hr : ∀ k : Fin 256, ridx_main_v216 (ix3 b p q) k = ix3 b k q := fun k =>
    funext fun a => Fin.ext (by match a with | ⟨0, _⟩ => rfl | ⟨1, _⟩ => rfl | ⟨2, _⟩ => rfl)
  rw [val_main_v216_apply]
  simp only [hl, hr, unit_q x4 x14 sel hsel, unit_k x9 x14 sel hsel]

/-- The same with `−∞` on the diagonal. -/
theorem masked (hsel : ∀ p : Fin 64, x14 (ix1 p) = BitVec.ofNat 32 (sel p).val) (b : Fin 4) (p q : Fin 64) :
    val_main_v223 (F := Ideal) x4 x9 x14 (ix3 b p q)
      = if q = p then ⊥ else ∑ c : Fin 256, Spec.unit (gq x4 sel b p) c * Spec.unit (gk x9 sel b q) c := by
  rw [val_main_v223_apply, val_main_call18_v1_apply, val_main_v222_apply, val_main_v221_apply, val_main_v220_apply,
    val_main_v217_apply, val_main_v219_apply, val_main_c_54_apply, val_main_v218_apply, val_main_call18_v2_apply,
    val_main_call18_v0_apply, val_main_cst_55_apply, inner_neg x4 x9 x14 sel hsel]
  show Scalar.select (IntOp.cmpi .eq (IntOp.addi (BitVec.ofNat 32 p.val) 0#32) (BitVec.ofNat 32 q.val))
    (Ideal.ofBits .f32 0xFF800000#32) _ = _
  rw [select_diag (by decide) p q, neg_inf_word]

/-- Slot 0 of the 65 joined slots is the positive column. -/
theorem joined_zero (b : Fin 4) (p : Fin 64) :
    val_main_v225 (F := Ideal) x4 x9 x14 (ix3 b p (0 : Fin 65)) = val_main_v224 (F := Ideal) x4 x9 x14 (ix3 b p (0 : Fin 1)) := by
  unfold val_main_v225
  exact concatenate_pair_apply_left 2 _ _ concatenates_S4x64x1_S4x64x64_S4x64x65_d2 (ix3 b p (0 : Fin 65)) rfl
    (ix3 b p (0 : Fin 1)) (fun a => by match a with | ⟨0, _⟩ => rfl | ⟨1, _⟩ => rfl | ⟨2, _⟩ => rfl)

/-- Slot `1 + q` of the 65 joined slots is the masked square at `q`. -/
theorem joined_succ (b : Fin 4) (p q : Fin 64) :
    val_main_v225 (F := Ideal) x4 x9 x14 (ix3 b p q.succ) = val_main_v223 (F := Ideal) x4 x9 x14 (ix3 b p q) := by
  unfold val_main_v225
  exact concatenate_pair_apply_right 2 _ _ concatenates_S4x64x1_S4x64x64_S4x64x65_d2 (ix3 b p q.succ) rfl rfl
    (ix3 b p q)
    (fun a ha => by
      match a, ha with
      | ⟨0, _⟩, _ => rfl
      | ⟨1, _⟩, _ => rfl
      | ⟨2, _⟩, ha => exact absurd rfl ha)
    rfl

/-- The 65 logits of patch `p`. -/
theorem logit (hsel : ∀ p : Fin 64, x14 (ix1 p) = BitVec.ofNat 32 (sel p).val) (b : Fin 4) (p : Fin 64) (k : Fin 65) :
    val_main_v227 (F := Ideal) x4 x9 x14 (ix3 b p k) = logits (gq x4 sel b) (gk x9 sel b) p k := by
  rw [val_main_v227_apply, val_main_v226_apply, val_main_cst_56_apply]
  refine Fin.cases ?_ (fun q => ?_) k
  · have hi : idx_main_v224 (ix3 b p (0 : Fin 1)) = ix2 b p :=
      funext fun a => Fin.ext (by match a with | ⟨0, _⟩ => rfl | ⟨1, _⟩ => rfl)
    rw [joined_zero, val_main_v224_apply, hi, inner_pos x4 x9 x14 sel hsel]
    rfl
  · rw [joined_succ, masked x4 x9 x14 sel hsel, logits_succ]
    unfold Spec.neg
    by_cases h : q = p
    · rw [if_pos h, if_pos h]
      obtain ⟨t, ht, hte⟩ := tau_pos
      show Ideal.div ⊥ Spec.tau = ⊥
      rw [hte]
      exact div_bot_of_pos ht
    · rw [if_neg h, if_neg h]
      show Ideal.div _ Spec.tau = Ideal.div _ Spec.tau
      exact congrArg (fun s => Ideal.div s Spec.tau) (Finset.sum_congr rfl fun c _ => mul_comm _ _)

/-- A `[4, 64]` index with a coordinate put back on the dropped last axis. -/
theorem lift_last (h : S4x64x65.Reduces [2] S4x64) (b : Fin 4) (p : Fin 64) (k : Fin (S4x64x65.size 2)) :
    h.lift (ix2 b p) k = ix3 b p (⟨k.val, k.isLt⟩ : Fin 65) := by
  funext c; apply Fin.ext; fin_cases c <;> rfl

/-- The host's max-reduce over the 65 slots is the fold of `max` from `−∞` over the logits. -/
theorem largest (hsel : ∀ p : Fin 64, x14 (ix1 p) = BitVec.ofNat 32 (sel p).val) (b : Fin 4) (p : Fin 64) :
    val_main_call19_v0 (F := Ideal) x4 x9 x14 (ix2 b p)
      = (Finset.univ : Finset (Fin 65)).fold max ⊥ (logits (gq x4 sel b) (gk x9 sel b) p) := by
  have hred : S4x64x65.Reduces [2] S4x64 := by decide
  unfold val_main_call19_v0
  rw [Host.reduce_eq_fold_single FloatOps.maximumf _ _ reducesTo_S4x64x65_S4x64_d2 hred h_S_]
  have hf : (val_main_v227 (F := Ideal) x4 x9 x14 ∘ hred.lift (ix2 b p)) = logits (gq x4 sel b) (gk x9 sel b) p :=
    funext fun k => by
      show val_main_v227 (F := Ideal) x4 x9 x14 (hred.lift (ix2 b p) k) = _
      rw [lift_last hred b p k, logit x4 x9 x14 sel hsel]
      rfl
  rw [hf, val_main_call19_cst_apply]
  show Finset.fold max (Ideal.ofBits .f32 0xFF800000#32) _ _ = _
  rw [neg_inf_word]
  rfl

/-- A logit with the largest subtracted. -/
theorem shifted (hsel : ∀ p : Fin 64, x14 (ix1 p) = BitVec.ofNat 32 (sel p).val) (b : Fin 4) (p : Fin 64) (k : Fin 65) :
    val_main_call19_v5 (F := Ideal) x4 x9 x14 (ix3 b p k)
      = logits (gq x4 sel b) (gk x9 sel b) p k
        - max ⊥ ((Finset.univ : Finset (Fin 65)).fold max ⊥ (logits (gq x4 sel b) (gk x9 sel b) p)) := by
  have h4 : idx_main_call19_v4 (ix3 b p k) = ix3 b p (0 : Fin 1) :=
    funext fun a => Fin.ext (by match a with | ⟨0, _⟩ => rfl | ⟨1, _⟩ => rfl | ⟨2, _⟩ => rfl)
  have h3 : idx_main_call19_v3 (ix3 b p (0 : Fin 1)) = ix2 b p :=
    funext fun a => Fin.ext (by match a with | ⟨0, _⟩ => rfl | ⟨1, _⟩ => rfl)
  rw [val_main_call19_v5_apply, val_main_call19_v4_apply, h4, val_main_call19_v3_apply, h3, val_main_call19_v2_apply,
    val_main_call19_v1_apply, val_main_call19_cst_0_apply, logit x4 x9 x14 sel hsel, largest x4 x9 x14 sel hsel]
  show _ - max (Ideal.ofBits .f32 0xFF800000#32) _ = _
  rw [neg_inf_word]

/-- The logarithm of the normaliser. -/
theorem log_sum (hsel : ∀ p : Fin 64, x14 (ix1 p) = BitVec.ofNat 32 (sel p).val) (b : Fin 4) (p : Fin 64) :
    val_main_call19_v9 (F := Ideal) x4 x9 x14 (ix3 b p (0 : Fin 1))
      = Ideal.log (0 + ∑ k : Fin 65, Ideal.exp (logits (gq x4 sel b) (gk x9 sel b) p k
          - max ⊥ ((Finset.univ : Finset (Fin 65)).fold max ⊥ (logits (gq x4 sel b) (gk x9 sel b) p)))) := by
  have h8 : idx_main_call19_v8 (ix3 b p (0 : Fin 1)) = ix2 b p :=
    funext fun a => Fin.ext (by match a with | ⟨0, _⟩ => rfl | ⟨1, _⟩ => rfl)
  have h7 : ∀ k : Fin 65, idx_main_call19_v7 (ix2 b p) k = ix3 b p k := fun k =>
    funext fun a => Fin.ext (by match a with | ⟨0, _⟩ => rfl | ⟨1, _⟩ => rfl | ⟨2, _⟩ => rfl)
  rw [val_main_call19_v9_apply, val_main_call19_v8_apply, h8, val_main_call19_v7_apply, val_main_call19_cst_1_apply]
  simp only [h7, val_main_call19_v6_apply, shifted x4 x9 x14 sel hsel]
  simp only [Ideal.ofBits_def, Ideal.ofBits_zero_f32, Ideal.hostUnary_log_def, Ideal.hostUnary_exp_def]

/-- The layer's result at `(b, p)` is the loss of patch `p` over the gathered columns of batch entry `b`. -/
theorem out (hq : ∀ i, ∃ r : ℝ, x4 i = r) (hk : ∀ i, ∃ r : ℝ, x9 i = r)
    (hsel : ∀ p : Fin 64, x14 (ix1 p) = BitVec.ofNat 32 (sel p).val) (b : Fin 4) (p : Fin 64) :
    val_main_v231 (F := Ideal) x4 x9 x14 (ix2 b p) = Spec.loss (gq x4 sel b) (gk x9 sel b) p := by
  have hb := b.isLt
  have hp := p.isLt
  have h42 : idx_main_v230 (ix2 b p) = ix3 b p (0 : Fin 1) :=
    funext fun a => Fin.ext (by
      match a with
      | ⟨0, _⟩ => show (b.val * 64 + p.val) / 64 = b.val; omega
      | ⟨1, _⟩ => show (b.val * 64 + p.val) / 1 % 64 = p.val; omega
      | ⟨2, _⟩ => rfl)
  have h41 : idx_main_v229 (ix3 b p (0 : Fin 1)) = ix3 b p (0 : Fin 65) :=
    funext fun a => Fin.ext (by match a with | ⟨0, _⟩ => rfl | ⟨1, _⟩ => rfl | ⟨2, _⟩ => rfl)
  have h10 : idx_main_call19_v10 (ix3 b p (0 : Fin 65)) = ix3 b p (0 : Fin 1) :=
    funext fun a => Fin.ext (by match a with | ⟨0, _⟩ => rfl | ⟨1, _⟩ => rfl | ⟨2, _⟩ => rfl)
  have hq' : ∀ p c, IsReal (gq x4 sel b p c) := fun p c => by
    unfold gq; rw [val_main_v188_apply]; exact hq _
  have hk' : ∀ p c, IsReal (gk x9 sel b p c) := fun p c => by
    unfold gk; rw [val_main_v196_apply]; exact hk _
  rw [val_main_v231_apply, val_main_v230_apply, h42, val_main_v229_apply, h41, val_main_v228_apply, val_main_call19_v10_apply, h10,
    shifted x4 x9 x14 sel hsel, log_sum x4 x9 x14 sel hsel, ← neg_log_softmax_eq_loss _ _ hq' hk' p]
  rfl

end L4

/-- LAYER 4: the reference's `[4, 64]` array of losses is the specification's layer of the two reshaped arrays. -/
theorem layer4 (x4 x9 : S4x256x4x8x8.Idx → EReal) (x14 : IVec S64 32) (hq : ∀ i, ∃ r : ℝ, x4 i = r)
    (hk : ∀ i, ∃ r : ℝ, x9 i = r) (sel : Fin 64 → Fin 256)
    (hsel : ∀ p : Fin 64, x14 (ValueIdx.ix1 p) = BitVec.ofNat 32 (sel p).val) (b : Fin 4) (p : Fin 64) :
    Read.val_main_v231 (F := Ideal) x4 x9 x14 (ValueIdx.ix2 b p)
      = Cert.Spec.layerOf (C := 256) (shapeCast _ x4 shapeCasts_S4x256x4x8x8_S4x256x256)
          (shapeCast _ x9 shapeCasts_S4x256x4x8x8_S4x256x256) sel b p :=
  L4.out x4 x9 x14 sel hq hk hsel b p

/-- LAYER 4's mean: the sum of the 256 losses from zero, over 256. -/
theorem mean4 (x4 x9 : S4x256x4x8x8.Idx → EReal) (x14 : IVec S64 32) (hq : ∀ i, ∃ r : ℝ, x4 i = r)
    (hk : ∀ i, ∃ r : ℝ, x9 i = r) (sel : Fin 64 → Fin 256)
    (hsel : ∀ p : Fin 64, x14 (ValueIdx.ix1 p) = BitVec.ofNat 32 (sel p).val) :
    Read.val_main_v233 (F := Ideal) x4 x9 x14 ValueIdx.ix0
      = Cert.Spec.mean (Cert.Spec.layerOf (C := 256) (shapeCast _ x4 shapeCasts_S4x256x4x8x8_S4x256x256)
          (shapeCast _ x9 shapeCasts_S4x256x4x8x8_S4x256x256) sel) := by
  rw [val_main_v233_apply, val_main_v232_apply, val_main_cst_57_apply, val_main_cst_58_apply, ValueIdx.sum_idx2]
  simp only [layer4 x4 x9 x14 hq hk sel hsel]
  simp only [Ideal.ofBits_def, Ideal.ofBits_zero_f32]
  rfl

end Cert.ReferenceIdeal.RefValue

end
-- ==== Proof.Ref.Total.lean ====
/-
  The reference's result is the specification's total: the five layers' means added in order from zero, over 5.
-/
import proofs.«430285_j43310450213294_2_alg».proof.Proof.Ref.ReadP
import proofs.«430285_j43310450213294_2_alg».proof.Proof.Spec
import proofs.«430285_j43310450213294_2_alg».proof.Proof.Ref.Layer0
import proofs.«430285_j43310450213294_2_alg».proof.Proof.Ref.Layer1
import proofs.«430285_j43310450213294_2_alg».proof.Proof.Ref.Layer2
import proofs.«430285_j43310450213294_2_alg».proof.Proof.Ref.Layer3
import proofs.«430285_j43310450213294_2_alg».proof.Proof.Ref.Layer4

noncomputable section

namespace Cert.ReferenceIdeal.RefValue

open Cert.ReferenceIdeal Cert.ReferenceIdeal.Gen Cert.ReferenceIdeal.Read Idealize.ShloMosaic Idealize.ShloMosaic.ValueIdx

/-- THE REFERENCE'S VALUE: for finite feature arrays and positions in range, the running total of the five layers'
    means, over the number of layers. -/
theorem total (x0 : S4x32x32x64x64.Idx → EReal) (x1 : S4x64x16x32x32.Idx → EReal) (x2 : S4x128x8x16x16.Idx → EReal)
    (x3 x4 : S4x256x4x8x8.Idx → EReal) (x5 : S4x32x32x64x64.Idx → EReal) (x6 : S4x64x16x32x32.Idx → EReal)
    (x7 : S4x128x8x16x16.Idx → EReal) (x8 x9 : S4x256x4x8x8.Idx → EReal) (x10 x11 x12 x13 x14 : IVec S64 32)
    (hq0 : ∀ i, ∃ r : ℝ, x0 i = r) (hq1 : ∀ i, ∃ r : ℝ, x1 i = r) (hq2 : ∀ i, ∃ r : ℝ, x2 i = r)
    (hq3 : ∀ i, ∃ r : ℝ, x3 i = r) (hq4 : ∀ i, ∃ r : ℝ, x4 i = r)
    (hk0 : ∀ i, ∃ r : ℝ, x5 i = r) (hk1 : ∀ i, ∃ r : ℝ, x6 i = r) (hk2 : ∀ i, ∃ r : ℝ, x7 i = r)
    (hk3 : ∀ i, ∃ r : ℝ, x8 i = r) (hk4 : ∀ i, ∃ r : ℝ, x9 i = r)
    (sel0 : Fin 64 → Fin 131072) (sel1 : Fin 64 → Fin 16384) (sel2 : Fin 64 → Fin 2048) (sel3 sel4 : Fin 64 → Fin 256)
    (hsel0 : ∀ p : Fin 64, x10 (ValueIdx.ix1 p) = BitVec.ofNat 32 (sel0 p).val)
    (hsel1 : ∀ p : Fin 64, x11 (ValueIdx.ix1 p) = BitVec.ofNat 32 (sel1 p).val)
    (hsel2 : ∀ p : Fin 64, x12 (ValueIdx.ix1 p) = BitVec.ofNat 32 (sel2 p).val)
    (hsel3 : ∀ p : Fin 64, x13 (ValueIdx.ix1 p) = BitVec.ofNat 32 (sel3 p).val)
    (hsel4 : ∀ p : Fin 64, x14 (ValueIdx.ix1 p) = BitVec.ofNat 32 (sel4 p).val) :
    Read.val_main_v235 (F := Ideal) x0 x1 x2 x3 x4 x5 x6 x7 x8 x9 x10 x11 x12 x13 x14 ValueIdx.ix0
      = Cert.Spec.total
          (Cert.Spec.mean (Cert.Spec.layerOf (C := 32) (shapeCast _ x0 shapeCasts_S4x32x32x64x64_S4x32x131072)
            (shapeCast _ x5 shapeCasts_S4x32x32x64x64_S4x32x131072) sel0))
          (Cert.Spec.mean (Cert.Spec.layerOf (C := 64) (shapeCast _ x1 shapeCasts_S4x64x16x32x32_S4x64x16384)
            (shapeCast _ x6 shapeCasts_S4x64x16x32x32_S4x64x16384) sel1))
          (Cert.Spec.mean (Cert.Spec.layerOf (C := 128) (shapeCast _ x2 shapeCasts_S4x128x8x16x16_S4x128x2048)
            (shapeCast _ x7 shapeCasts_S4x128x8x16x16_S4x128x2048) sel2))
          (Cert.Spec.mean (Cert.Spec.layerOf (C := 256) (shapeCast _ x3 shapeCasts_S4x256x4x8x8_S4x256x256)
            (shapeCast _ x8 shapeCasts_S4x256x4x8x8_S4x256x256) sel3))
          (Cert.Spec.mean (Cert.Spec.layerOf (C := 256) (shapeCast _ x4 shapeCasts_S4x256x4x8x8_S4x256x256)
            (shapeCast _ x9 shapeCasts_S4x256x4x8x8_S4x256x256) sel4)) := by
  rw [val_main_v235_apply, val_main_v234_apply, val_main_v187_apply, val_main_v140_apply, val_main_v93_apply,
    val_main_v46_apply, val_main_cst_10_apply, val_main_cst_59_apply,
    mean0 x0 x5 x10 hq0 hk0 sel0 hsel0, mean1 x1 x6 x11 hq1 hk1 sel1 hsel1, mean2 x2 x7 x12 hq2 hk2 sel2 hsel2,
    mean3 x3 x8 x13 hq3 hk3 sel3 hsel3, mean4 x4 x9 x14 hq4 hk4 sel4 hsel4]
  simp only [Ideal.ofBits_def, Ideal.ofBits_zero_f32]
  rfl

end Cert.ReferenceIdeal.RefValue

end
-- ==== Proof.PreFacts.lean ====
/-
  The precondition, decoded at the ideal instance.

  The precondition is a conjunction of twenty `all`s: for each of the ten float arrays, "every entry has absolute value
  below +∞"; for each of the five index arrays, "every word is ≥ 0, signed" and "every word is < n, signed", n the number
  of locations of that array's layer. Each `all` is a reduction by `and` from 1 into a result of one index, so the
  result is 1 only if every compared entry gave 1; the conjunction is an `and` of one-bit words, 1 only if both are.
  Read at an entry: over the extended reals `max x (−x) < ⊤` excludes `x = ⊤` and `x = ⊥`, so `x` is a real; and a
  32-bit word that is nonnegative signed reads the same signed and unsigned, so below `n < 2³¹` signed it is below `n`
  as a natural number.
-/
import proofs.«430285_j43310450213294_2_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Cert.Pre_finite_inputs

/-- The scalar shape has one index. -/
instance : Subsingleton S_.Idx := ⟨fun a b => funext fun d => d.elim0⟩

/-- The word `0x7F800000` denotes +∞. -/
theorem inf_word : Ideal.ofBits .f32 0x7F800000#32 = (⊤ : EReal) := by
  simp [Ideal.ofBits, Ideal.ieee]

/-- An extended real whose absolute value `max x (−x)` compares below +∞ is a real. -/
theorem real_of_abs_lt (x : EReal)
    (h : Ideal.cmp .olt (max x (-x)) (Ideal.ofBits .f32 0x7F800000#32) = 1#1) : ∃ r : ℝ, x = (r : EReal) := by
  rw [inf_word] at h
  unfold Ideal.cmp at h
  rw [StableHlo.Predicate.ofBool_eq_one_iff, decide_eq_true_eq] at h
  induction x using EReal.rec with
  | bot => simp at h
  | coe r => exact ⟨r, rfl⟩
  | top => simp at h

/-- A word in `[0, n)` signed, `n < 2³¹`, is below `n` unsigned. -/
theorem range_of_words (w : BitVec 32) (n : Nat) (hn : n < 2 ^ 31) (h0 : IntOp.cmpi .sge w 0#32 = 1#1)
    (h1 : IntOp.cmpi .slt w (BitVec.ofNat 32 n) = 1#1) : w.toNat < n := by
  rw [IntOp.cmpi_sge, show (0#32 : BitVec 32).toInt = 0 from by decide, BitVec.toInt_pos_iff] at h0
  rw [IntOp.cmpi_slt, BitVec.toInt_eq_toNat_of_lt h0, StableHlo.Predicate.toInt_ofNat_small n hn] at h1
  exact_mod_cast h1

/-- `all (|x| < +∞)` that came out 1: every entry of `x` is a real. -/
theorem finite_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi (cmpf .olt (Host.absf x) (broadcastInDim s ![] hb (constant S_ .f32 0x7F800000#32)))
          init hr hu ValueIdx.ix0 = 1#1)
    (i : s.Idx) : ∃ r : ℝ, x i = (r : EReal) :=
  real_of_abs_lt (x i) (Host.reduce_andi_all _ init hr hu ValueIdx.ix0 e i)

/-- `all (ids ≥ 0)` and `all (ids < n)` that came out 1, `n < 2³¹`: every word of `ids` is below `n` unsigned. -/
theorem range_of_all {axes : List (Fin S64.rank)} (ids : IVec S64 32) (n : Nat) (hn : n < 2 ^ 31)
    (hb : S_.BroadcastsInDim S64 (![] : Fin 0 → Fin S64.rank)) (hr : S64.ReducesTo axes S_) (hu : 0 < S_.numel)
    (i0 i1 : IVec S_ 1)
    (e0 : Host.reduce IntOp.andi (cmpi .sge ids (broadcastInDim S64 ![] hb (constantI S_ 32 0#32))) i0 hr hu
          ValueIdx.ix0 = 1#1)
    (e1 : Host.reduce IntOp.andi (cmpi .slt ids (broadcastInDim S64 ![] hb (constantI S_ 32 (BitVec.ofNat 32 n)))) i1 hr hu
          ValueIdx.ix0 = 1#1)
    (p : S64.Idx) : (ids p).toNat < n :=
  range_of_words (ids p) n hn (Host.reduce_andi_all _ i0 hr hu ValueIdx.ix0 e0 p)
    (Host.reduce_andi_all _ i1 hr hu ValueIdx.ix0 e1 p)

variable [Facts]

/-- THE PRECONDITION DECODED: every entry of the ten float arrays is a real, and every word of the five index arrays
    is below its layer's number of locations. -/
theorem of_pre (a0 : FVec Ideal S4x32x32x64x64 .f32) (a1 : FVec Ideal S4x64x16x32x32 .f32)
    (a2 : FVec Ideal S4x128x8x16x16 .f32) (a3 a4 : FVec Ideal S4x256x4x8x8 .f32)
    (a5 : FVec Ideal S4x32x32x64x64 .f32) (a6 : FVec Ideal S4x64x16x32x32 .f32)
    (a7 : FVec Ideal S4x128x8x16x16 .f32) (a8 a9 : FVec Ideal S4x256x4x8x8 .f32)
    (a10 a11 a12 a13 a14 : IVec S64 32)
    (h : fn (F := Ideal) a0 a1 a2 a3 a4 a5 a6 a7 a8 a9 a10 a11 a12 a13 a14 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal))
    ∧ (∀ i, ∃ r : ℝ, a9 i = (r : EReal))
    ∧ (∀ p, (a10 p).toNat < 131072) ∧ (∀ p, (a11 p).toNat < 16384) ∧ (∀ p, (a12 p).toNat < 2048)
    ∧ (∀ p, (a13 p).toNat < 256) ∧ (∀ p, (a14 p).toNat < 256) := by
  -- the result at its one index, the chain of parts unfolded, the `and`s split into their twenty conjuncts
  have h0 := congrFun h ValueIdx.ix0
  dsimp only [fn, fn_part1, fn_part2, fn_part3, fn_part4, fn_part5, andi] at h0
  simp only [IntOp.andi_eq_one] at h0
  obtain ⟨⟨⟨⟨⟨⟨⟨⟨⟨⟨⟨⟨⟨⟨⟨⟨⟨⟨⟨f0, f1⟩, f2⟩, f3⟩, f4⟩, f5⟩, f6⟩, f7⟩, f8⟩, f9⟩, g10⟩, l10⟩, g11⟩, l11⟩, g12⟩, l12⟩, g13⟩,
    l13⟩, g14⟩, l14⟩ := h0
  exact ⟨finite_of_all a0 _ _ _ _ f0, finite_of_all a1 _ _ _ _ f1, finite_of_all a2 _ _ _ _ f2,
    finite_of_all a3 _ _ _ _ f3, finite_of_all a4 _ _ _ _ f4, finite_of_all a5 _ _ _ _ f5,
    finite_of_all a6 _ _ _ _ f6, finite_of_all a7 _ _ _ _ f7, finite_of_all a8 _ _ _ _ f8,
    finite_of_all a9 _ _ _ _ f9,
    range_of_all a10 131072 (by decide) _ _ _ _ _ g10 l10, range_of_all a11 16384 (by decide) _ _ _ _ _ g11 l11,
    range_of_all a12 2048 (by decide) _ _ _ _ _ g12 l12, range_of_all a13 256 (by decide) _ _ _ _ _ g13 l13,
    range_of_all a14 256 (by decide) _ _ _ _ _ g14 l14⟩

end Cert.PreFacts

end
-- ==== Proof.Algebraic.lean ====
/-
  The idealized kernel and the idealized reference compute the same extended real.

  From memories that agree on the fifteen arguments, under the precondition (every feature entry a real number,
  every position inside its layer's location axis): the kernel's program ends with its result buffer at the
  specification's total of the five layers' means, of the reshaped feature arrays at the positions the index
  arrays name; the reference's program ends with its result buffer at the same term. The positions are the
  index words read as naturals, which the precondition bounds by the layer's number of locations.
-/
import proofs.«430285_j43310450213294_2_alg».proof.Defs
import proofs.«430285_j43310450213294_2_alg».proof.Proof.Gen.Pre_finite_inputs
import proofs.«430285_j43310450213294_2_alg».proof.Proof.KI.Result
import proofs.«430285_j43310450213294_2_alg».proof.Proof.Ref.Run
import proofs.«430285_j43310450213294_2_alg».proof.Proof.Ref.Total
import proofs.«430285_j43310450213294_2_alg».proof.Proof.PreFacts

noncomputable section

namespace Cert.Proof

open Idealize.ShloMosaic Idealize.ShloMosaic.TcCoe Idealize.SL.Sem
open Idealize.ShloMosaic.ValueIdx

/-- The positions an index array names, given that its words are below `n`. -/
def selOf {n : ℕ} (ids : (⟨1, ![64]⟩ : Shape).Idx → BitVec 32) (h : ∀ p, (ids p).toNat < n) : Fin 64 → Fin n :=
  fun p => ⟨(ids (ix1 p)).toNat, h (ix1 p)⟩

theorem selOf_spec {n : ℕ} (ids : (⟨1, ![64]⟩ : Shape).Idx → BitVec 32) (h : ∀ p, (ids p).toNat < n) (p : Fin 64) :
    ids (ix1 p) = BitVec.ofNat 32 (selOf ids h p).val := (Cert.Glue.ofNat_toNat _).symm

set_option maxHeartbeats 1600000 in
theorem algebraic : Cert.algebraic_KernelIdeal_ReferenceIdeal := by
  intro m g m' g' hpre hagree
  refine ⟨fun c => Cert.KernelIdeal.Gen.V11 m (Cert.KernelIdeal.Hand.outsAll m) c Cert.KernelIdeal.main_v35,
    Cert.KernelIdeal.Hand.runResult m g, ?_⟩
  refine (θ_run Cert.ReferenceIdeal.defs _ _).mono (fun r h c => ⟨?_, (h c).2⟩) (Cert.ReferenceIdeal.HandRun.run (F := Ideal) m' g')
  obtain ⟨e0, e1, e2, e3, e4, e5, e6, e7, e8, e9, e10, e11, e12, e13, e14⟩ := hagree c
  obtain ⟨r0, r1, r2, r3, r4, r5, r6, r7, r8, r9, i0, i1, i2, i3, i4⟩ := Cert.PreFacts.of_pre _ _ _ _ _ _ _ _ _ _ _ _ _ _ _ (hpre c)
  rw [(h c).1, e0, e1, e2, e3, e4, e5, e6, e7, e8, e9, e10, e11, e12, e13, e14]
  funext j
  rw [ValueIdx.eq_ix0 j]
  show _ = Cert.KernelIdeal.Gen.V11 m (Cert.KernelIdeal.Hand.outsAll m) c Cert.KernelIdeal.main_v35 ix0
  rw [Cert.KernelIdeal.Hand.kernel_result m c r0 r5 (selOf _ i0) (selOf_spec _ i0) r1 r6 (selOf _ i1) (selOf_spec _ i1)
    r2 r7 (selOf _ i2) (selOf_spec _ i2) r3 r8 (selOf _ i3) (selOf_spec _ i3) r4 r9 (selOf _ i4) (selOf_spec _ i4)]
  exact Cert.ReferenceIdeal.RefValue.total _ _ _ _ _ _ _ _ _ _ _ _ _ _ _ r0 r1 r2 r3 r4 r5 r6 r7 r8 r9
    (selOf _ i0) (selOf _ i1) (selOf _ i2) (selOf _ i3) (selOf _ i4)
    (selOf_spec _ i0) (selOf_spec _ i1) (selOf_spec _ i2) (selOf_spec _ i3) (selOf_spec _ i4)

end Cert.Proof

end
-- ==== Proof.lean ====
/-
  The certificate's claim: the kernel's two programs and the reference's run to the end, faulting nowhere, with
  their argument arrays unchanged; the idealized kernel is the kernel's sanctioned idealization; and the idealized
  kernel and the idealized reference end with the same extended real.

  The kernel is five pallas_calls of one body, one per feature layer: over a batch entry's tiles it accumulates,
  by a one-hot product, the 64 sampled columns of the query and of the key array, and at the last tile it scales
  the columns to unit length and stores the cross-entropy of each patch's positive logit among its 65 logits;
  the host averages each layer and the five means. The reference gathers the same columns by index and computes
  the same losses. The two agree where the positions index the location axis, which the precondition states.
-/
import proofs.«430285_j43310450213294_2_alg».proof.Defs
import proofs.«430285_j43310450213294_2_alg».proof.Proof.K.Halves
import proofs.«430285_j43310450213294_2_alg».proof.Proof.KI.Halves
import proofs.«430285_j43310450213294_2_alg».proof.Proof.Ref.Run
import proofs.«430285_j43310450213294_2_alg».proof.Proof.Preserves
import proofs.«430285_j43310450213294_2_alg».proof.Proof.Algebraic
import Idealize.ShloMosaic.Adequacy
import Idealize.ShloMosaic.Init

noncomputable section

namespace Cert.Proof

open Idealize.ShloMosaic Idealize.SL.Sem

/-- The word-level kernel's program runs to the end with its arguments unchanged. -/
theorem frame_k : Cert.frame_Kernel := fun m ρ _ => Cert.Kernel.Hand.frameAll m ρ

/-- The idealized kernel's program runs to the end with its arguments unchanged. -/
theorem frame_ki : Cert.frame_KernelIdeal := fun m ρ _ => Cert.KernelIdeal.Hand.frameAll m ρ

/-- The reference's program runs to the end with its arguments unchanged: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
